-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4200x19000 : Shape := ⟨2, ![4200, 19000]⟩
abbrev S8192x2 : Shape := ⟨2, ![8192, 2]⟩
abbrev S8192x3 : Shape := ⟨2, ![8192, 3]⟩
abbrev S19001x1024 : Shape := ⟨2, ![19001, 1024]⟩
abbrev S1024 : Shape := ⟨1, ![1024]⟩
abbrev S1024x512 : Shape := ⟨2, ![1024, 512]⟩
abbrev S512 : Shape := ⟨1, ![512]⟩
abbrev S512x128 : Shape := ⟨2, ![512, 128]⟩
abbrev S128 : Shape := ⟨1, ![128]⟩
abbrev S_ : Shape := ⟨0, ![]⟩

class Facts : Prop where
  bcast_S_S4200x19000 : S_.BroadcastsInDim S4200x19000 (![] : Fin 0 → Fin S4200x19000.rank)
  reducesTo_S4200x19000_S_d0_1 : S4200x19000.ReducesTo [0, 1] S_
  h_S_ : 0 < S_.numel
  bcast_S_S8192x3 : S_.BroadcastsInDim S8192x3 (![] : Fin 0 → Fin S8192x3.rank)
  reducesTo_S8192x3_S_d0_1 : S8192x3.ReducesTo [0, 1] S_
  bcast_S_S19001x1024 : S_.BroadcastsInDim S19001x1024 (![] : Fin 0 → Fin S19001x1024.rank)
  reducesTo_S19001x1024_S_d0_1 : S19001x1024.ReducesTo [0, 1] S_
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S8192x2 : S_.BroadcastsInDim S8192x2 (![] : Fin 0 → Fin S8192x2.rank)
  reducesTo_S8192x2_S_d0_1 : S8192x2.ReducesTo [0, 1] S_

variable [Facts]

def fn_part2 {F : FTy → Type} [FloatOps F] (main_arg1 : IVec S8192x2 32) (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_c_14 : IVec S_ 32 := constantI S_ 32 0#32
  let main_v39 : IVec S8192x2 32 := broadcastInDim S8192x2 ![] bcast_S_S8192x2 main_c_14
  let main_v40 : IVec S8192x2 1 := cmpi .sge main_arg1 main_v39
  let main_c_15 : IVec S_ 1 := constantI S_ 1 1#1
  let main_v41 : IVec S_ 1 := (fun x v => Host.reduce IntOp.andi x v reducesTo_S8192x2_S_d0_1 h_S_) main_v40 main_c_15
  let main_v42 : IVec S_ 1 := andi main_v38 main_v41
  let main_c_16 : IVec S_ 32 := constantI S_ 32 4200#32
  let main_v43 : IVec S8192x2 32 := broadcastInDim S8192x2 ![] bcast_S_S8192x2 main_c_16
  let main_v44 : IVec S8192x2 1 := cmpi .slt main_arg1 main_v43
  let main_c_17 : IVec S_ 1 := constantI S_ 1 1#1
  let main_v45 : IVec S_ 1 := (fun x v => Host.reduce IntOp.andi x v reducesTo_S8192x2_S_d0_1 h_S_) main_v44 main_c_17
  let main_v46 : IVec S_ 1 := andi main_v42 main_v45
  main_v46

def fn_part1 {F : FTy → Type} [FloatOps F] (main_arg1 : IVec S8192x2 32) (main_arg5 : FVec F S1024x512 .f32) (main_arg6 : FVec F S512 .f32) (main_arg7 : FVec F S512x128 .f32) (main_arg8 : FVec F S128 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x512 .f32 := Host.absf main_arg5
  let main_cst_6 : FVec F S_ .f32 := constant S_ .f32 0x7F800000#32
  let main_v20 : FVec F S1024x512 .f32 := broadcastInDim S1024x512 ![] bcast_S_S1024x512 main_cst_6
  let main_v21 : IVec S1024x512 1 := cmpf .olt main_v19 main_v20
  let main_c_7 : IVec S_ 1 := constantI S_ 1 1#1
  let main_v22 : IVec S_ 1 := (fun x v => Host.reduce IntOp.andi x v reducesTo_S1024x512_S_d0_1 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x128 .f32 := Host.absf main_arg7
  let main_cst_10 : FVec F S_ .f32 := constant S_ .f32 0x7F800000#32
  let main_v30 : FVec F S512x128 .f32 := broadcastInDim S512x128 ![] bcast_S_S512x128 main_cst_10
  let main_v31 : IVec S512x128 1 := cmpf .olt main_v29 main_v30
  let main_c_11 : IVec S_ 1 := constantI S_ 1 1#1
  let main_v32 : IVec S_ 1 := (fun x v => Host.reduce IntOp.andi x v reducesTo_S512x128_S_d0_1 h_S_) main_v31 main_c_11
  let main_v33 : IVec S_ 1 := andi main_v28 main_v32
  fn_part2 (F := F) main_arg1 main_arg8 main_v33

def fn {F : FTy → Type} [FloatOps F] (main_arg0 : FVec F S4200x19000 .f32) (main_arg1 : IVec S8192x2 32) (main_arg2 : FVec F S8192x3 .f32) (main_arg3 : FVec F S19001x1024 .f32) (main_arg4 : FVec F S1024 .f32) (main_arg5 : FVec F S1024x512 .f32) (main_arg6 : FVec F S512 .f32) (main_arg7 : FVec F S512x128 .f32) (main_arg8 : FVec F S128 .f32) : IVec S_ 1 :=
  let main_v0 : FVec F S4200x19000 .f32 := Host.absf main_arg0
  let main_cst : FVec F S_ .f32 := constant S_ .f32 0x7F800000#32
  let main_v1 : FVec F S4200x19000 .f32 := broadcastInDim S4200x19000 ![] bcast_S_S4200x19000 main_cst
  let main_v2 : IVec S4200x19000 1 := cmpf .olt main_v0 main_v1
  let main_c : IVec S_ 1 := constantI S_ 1 1#1
  let main_v3 : IVec S_ 1 := (fun x v => Host.reduce IntOp.andi x v reducesTo_S4200x19000_S_d0_1 h_S_) main_v2 main_c
  let main_v4 : FVec F S8192x3 .f32 := Host.absf main_arg2
  let main_cst_0 : FVec F S_ .f32 := constant S_ .f32 0x7F800000#32
  let main_v5 : FVec F S8192x3 .f32 := broadcastInDim S8192x3 ![] bcast_S_S8192x3 main_cst_0
  let main_v6 : IVec S8192x3 1 := cmpf .olt main_v4 main_v5
  let main_c_1 : IVec S_ 1 := constantI S_ 1 1#1
  let main_v7 : IVec S_ 1 := (fun x v => Host.reduce IntOp.andi x v reducesTo_S8192x3_S_d0_1 h_S_) main_v6 main_c_1
  let main_v8 : IVec S_ 1 := andi main_v3 main_v7
  let main_v9 : FVec F S19001x1024 .f32 := Host.absf main_arg3
  let main_cst_2 : FVec F S_ .f32 := constant S_ .f32 0x7F800000#32
  let main_v10 : FVec F S19001x1024 .f32 := broadcastInDim S19001x1024 ![] bcast_S_S19001x1024 main_cst_2
  let main_v11 : IVec S19001x1024 1 := cmpf .olt main_v9 main_v10
  let main_c_3 : IVec S_ 1 := constantI S_ 1 1#1
  let main_v12 : IVec S_ 1 := (fun x v => Host.reduce IntOp.andi x v reducesTo_S19001x1024_S_d0_1 h_S_) main_v11 main_c_3
  let main_v13 : IVec S_ 1 := andi main_v8 main_v12
  let main_v14 : FVec F S1024 .f32 := Host.absf main_arg4
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg1 main_arg5 main_arg6 main_arg7 main_arg8 main_v13 main_v16
-- ==== Kernel.lean ====
abbrev S4200x19000 : Shape := ⟨2, ![4200, 19000]⟩
abbrev S8192x2 : Shape := ⟨2, ![8192, 2]⟩
abbrev S8192x3 : Shape := ⟨2, ![8192, 3]⟩
abbrev S19001x1024 : Shape := ⟨2, ![19001, 1024]⟩
abbrev S1024 : Shape := ⟨1, ![1024]⟩
abbrev S1024x512 : Shape := ⟨2, ![1024, 512]⟩
abbrev S512 : Shape := ⟨1, ![512]⟩
abbrev S512x128 : Shape := ⟨2, ![512, 128]⟩
abbrev S128 : Shape := ⟨1, ![128]⟩
abbrev S8192x1 : Shape := ⟨2, ![8192, 1]⟩
abbrev S8192 : Shape := ⟨1, ![8192]⟩
abbrev S_ : Shape := ⟨0, ![]⟩
abbrev S4200x19200 : Shape := ⟨2, ![4200, 19200]⟩
abbrev S8192x19200 : Shape := ⟨2, ![8192, 19200]⟩
abbrev S64x19200 : Shape := ⟨2, ![64, 19200]⟩
abbrev S64 : Shape := ⟨1, ![64]⟩
abbrev S1 : Shape := ⟨1, ![1]⟩
abbrev S1x19200 : Shape := ⟨2, ![1, 19200]⟩
abbrev S19200 : Shape := ⟨1, ![19200]⟩
abbrev S19000x1024 : Shape := ⟨2, ![19000, 1024]⟩
abbrev S19200x1024 : Shape := ⟨2, ![19200, 1024]⟩
abbrev S1x1024 : Shape := ⟨2, ![1, 1024]⟩
abbrev S1x512 : Shape := ⟨2, ![1, 512]⟩
abbrev S1x128 : Shape := ⟨2, ![1, 128]⟩
abbrev S512x1920 : Shape := ⟨2, ![512, 1920]⟩
abbrev S512x1 : Shape := ⟨2, ![512, 1]⟩
abbrev S1920x1024 : Shape := ⟨2, ![1920, 1024]⟩
abbrev S512x1024 : Shape := ⟨2, ![512, 1024]⟩
abbrev S512x512 : Shape := ⟨2, ![512, 512]⟩

abbrev nBuf : Space → Nat
  | .hbm => 30
  | .vmem => 26
  | .smem => 2
  | _ => 0

abbrev bufTy : (tb : Table) → Fin (tcTables nBuf tb) → BufTy
  | .hbm, ⟨0, _⟩ => ⟨S4200x19000, .f32⟩
  | .hbm, ⟨1, _⟩ => ⟨S8192x2, .i32⟩
  | .hbm, ⟨2, _⟩ => ⟨S8192x3, .f32⟩
  | .hbm, ⟨3, _⟩ => ⟨S19001x1024, .f32⟩
  | .hbm, ⟨4, _⟩ => ⟨S1024, .f32⟩
  | .hbm, ⟨5, _⟩ => ⟨S1024x512, .f32⟩
  | .hbm, ⟨6, _⟩ => ⟨S512, .f32⟩
  | .hbm, ⟨7, _⟩ => ⟨S512x128, .f32⟩
  | .hbm, ⟨8, _⟩ => ⟨S128, .f32⟩
  | .hbm, ⟨9, _⟩ => ⟨S8192x1, .i32⟩
  | .hbm, ⟨10, _⟩ => ⟨S8192x1, .i32⟩
  | .hbm, ⟨11, _⟩ => ⟨S8192x1, .f32⟩
  | .hbm, ⟨12, _⟩ => ⟨S8192x1, .f32⟩
  | .hbm, ⟨13, _⟩ => ⟨S_, .i32⟩
  | .hbm, ⟨14, _⟩ => ⟨S_, .f32⟩
  | .hbm, ⟨15, _⟩ => ⟨S4200x19200, .f32⟩
  | .hbm, ⟨16, _⟩ => ⟨S8192x19200, .bf16⟩
  | .hbm, ⟨17, _⟩ => ⟨S8192x19200, .bf16⟩
  | .hbm, ⟨18, _⟩ => ⟨S19000x1024, .f32⟩
  | .hbm, ⟨19, _⟩ => ⟨S_, .i32⟩
  | .hbm, ⟨20, _⟩ => ⟨S_, .f32⟩
  | .hbm, ⟨21, _⟩ => ⟨S19200x1024, .f32⟩
  | .hbm, ⟨22, _⟩ => ⟨S19200x1024, .bf16⟩
  | .hbm, ⟨23, _⟩ => ⟨S1x1024, .f32⟩
  | .hbm, ⟨24, _⟩ => ⟨S1x1024, .f32⟩
  | .hbm, ⟨25, _⟩ => ⟨S1024x512, .bf16⟩
  | .hbm, ⟨26, _⟩ => ⟨S1x512, .f32⟩
  | .hbm, ⟨27, _⟩ => ⟨S512x128, .bf16⟩
  | .hbm, ⟨28, _⟩ => ⟨S1x128, .f32⟩
  | .hbm, ⟨29, _⟩ => ⟨S8192, .f32⟩
  | .local _ .vmem, ⟨0, _⟩ => ⟨S64x19200, .bf16⟩
  | .local _ .vmem, ⟨1, _⟩ => ⟨S64x19200, .bf16⟩
  | .local _ .vmem, ⟨2, _⟩ => ⟨S64x19200, .bf16⟩
  | .local _ .vmem, ⟨3, _⟩ => ⟨S64x19200, .bf16⟩
  | .local _ .vmem, ⟨4, _⟩ => ⟨S64x19200, .f32⟩
  | .local _ .vmem, ⟨5, _⟩ => ⟨S64x19200, .f32⟩
  | .local _ .vmem, ⟨6, _⟩ => ⟨S512x1920, .bf16⟩
  | .local _ .vmem, ⟨7, _⟩ => ⟨S512x1920, .bf16⟩
  | .local _ .vmem, ⟨8, _⟩ => ⟨S512x1920, .bf16⟩
  | .local _ .vmem, ⟨9, _⟩ => ⟨S512x1920, .bf16⟩
  | .local _ .vmem, ⟨10, _⟩ => ⟨S512x1, .f32⟩
  | .local _ .vmem, ⟨11, _⟩ => ⟨S512x1, .f32⟩
  | .local _ .vmem, ⟨12, _⟩ => ⟨S512x1, .f32⟩
  | .local _ .vmem, ⟨13, _⟩ => ⟨S512x1, .f32⟩
  | .local _ .vmem, ⟨14, _⟩ => ⟨S1920x1024, .bf16⟩
  | .local _ .vmem, ⟨15, _⟩ => ⟨S1920x1024, .bf16⟩
  | .local _ .vmem, ⟨16, _⟩ => ⟨S1x1024, .f32⟩
  | .local _ .vmem, ⟨17, _⟩ => ⟨S1x1024, .f32⟩
  | .local _ .vmem, ⟨18, _⟩ => ⟨S1024x512, .bf16⟩
  | .local _ .vmem, ⟨19, _⟩ => ⟨S1x512, .f32⟩
  | .local _ .vmem, ⟨20, _⟩ => ⟨S512x128, .bf16⟩
  | .local _ .vmem, ⟨21, _⟩ => ⟨S1x128, .f32⟩
  | .local _ .vmem, ⟨22, _⟩ => ⟨S512, .f32⟩
  | .local _ .vmem, ⟨23, _⟩ => ⟨S512, .f32⟩
  | .local _ .vmem, ⟨24, _⟩ => ⟨S512x1024, .f32⟩
  | .local _ .vmem, ⟨25, _⟩ => ⟨S512x1024, .f32⟩
  | .local _ .smem, ⟨0, _⟩ => ⟨S8192, .i32⟩
  | .local _ .smem, ⟨1, _⟩ => ⟨S8192, .i32⟩
  | _, _ => ⟨S4200x19000, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 150 → Bool
  | ⟨i, _⟩ => dmaSemScopedAt i

abbrev sig : RefSig :=
  ofTc nBuf bufTy 0 150 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v2 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_call0_v0 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v8 : Ref sig .tc := ⟨.hbm, 18, rfl⟩
abbrev main_c_0 : Ref sig .tc := ⟨.hbm, 19, rfl⟩
abbrev main_call1_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v1 : Ref sig .tc := ⟨.smem, 0, rfl⟩
abbrev main_v3 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg10_0 : Ref sig .tc := ⟨.vmem, 21, rfl⟩
abbrev cc1_stg11_0 : Ref sig .tc := ⟨.vmem, 22, rfl⟩
abbrev cc1_stg11_1 : Ref sig .tc := ⟨.vmem, 23, rfl⟩
abbrev cc1_scratch0 : Ref sig .tc := ⟨.vmem, 24, rfl⟩
abbrev cc1_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 132
abbrev cc1_sem0_1 : DmaSem sig := 133
abbrev cc1_sem1_0 : DmaSem sig := 134
abbrev cc1_sem1_1 : DmaSem sig := 135
abbrev cc1_sem2_0 : DmaSem sig := 136
abbrev cc1_sem2_1 : DmaSem sig := 137
abbrev cc1_sem3_0 : DmaSem sig := 138
abbrev cc1_sem3_1 : DmaSem sig := 139
abbrev cc1_sem4_0 : DmaSem sig := 140
abbrev cc1_sem4_1 : DmaSem sig := 141
abbrev cc1_sem5_0 : DmaSem sig := 142
abbrev cc1_sem6_0 : DmaSem sig := 143
abbrev cc1_sem7_0 : DmaSem sig := 144
abbrev cc1_sem8_0 : DmaSem sig := 145
abbrev cc1_sem9_0 : DmaSem sig := 146
abbrev cc1_sem10_0 : DmaSem sig := 147
abbrev cc1_sem11_0 : DmaSem sig := 148
abbrev cc1_sem11_1 : DmaSem sig := 149

abbrev nD : Nat := 1
abbrev τ : Topo := Topo.v7x

variable {F : FTy → Type} [FloatOps F]

abbrev grid0 : Pipeline.Grid := ⟨1, ![128], ![false]⟩

abbrev pre0 : Pipeline.Prefetch sig := ⟨2, ![main_v1.idx, main_v3.idx], fun | 0 => main_v1.names | 1 => main_v3.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let c64_i32 : BitVec 32 := 64#32
  let v0 : BitVec 32 := Scalar.muli arg0 c64_i32
  let c0_i32 : BitVec 32 := 0#32
  let v1 : BitVec 32 := Scalar.addi v0 c0_i32
  let v2 : Index := Scalar.indexCast v1
  ![v2.toNat]
def k0_off2 (v3 : BitVec 32) : Fin 2 → Nat :=
  let c0_i32_3 : BitVec 32 := 0#32
  ![v3.toNat, 0]

def k0_chk1 (v3 : BitVec 32) : Prop :=
  (∀ a, (k0_off2 v3) a + S1x19200.size a ≤ S4200x19200.size a)
instance k0_chk1.dec : ∀ (v3 : BitVec 32), Decidable (k0_chk1 v3) := fun v3 => decidable_of_iff' _ (Iff.of_eq (k0_chk1.eq_1 v3))
theorem k0_off2_inb : ∀ (v3 : BitVec 32) (k0_hw1 : k0_chk1 v3), ∀ a, (k0_off2 v3) a + S1x19200.size a ≤ S4200x19200.size a := fun v3 k0_hw1 => k0_hw1

def k0_off3 (v5 : BitVec 32) : Fin 2 → Nat :=
  let c0_i32_7 : BitVec 32 := 0#32
  ![v5.toNat, 0]

def k0_chk2 (v5 : BitVec 32) : Prop :=
  (∀ a, (k0_off3 v5) a + S1x19200.size a ≤ S4200x19200.size a)
instance k0_chk2.dec : ∀ (v5 : BitVec 32), Decidable (k0_chk2 v5) := fun v5 => decidable_of_iff' _ (Iff.of_eq (k0_chk2.eq_1 v5))
theorem k0_off3_inb : ∀ (v5 : BitVec 32) (k0_hw2 : k0_chk2 v5), ∀ a, (k0_off3 v5) a + S1x19200.size a ≤ S4200x19200.size a := fun v5 k0_hw2 => k0_hw2

def k0_off4 (i : grid0.Coords) : Fin 1 → Nat :=
  let arg0 : BitVec 32 := BitVec.ofNat 32 (i 0).val
  let c64_i32_8 : BitVec 32 := 64#32
  let v18 : BitVec 32 := Scalar.muli arg0 c64_i32_8
  let c1_i32 : BitVec 32 := 1#32
  let v19 : BitVec 32 := Scalar.addi v18 c1_i32
  let v20 : Index := Scalar.indexCast v19
  ![v20.toNat]
def k0_off5 (v21 : BitVec 32) : Fin 2 → Nat :=
  let c0_i32_12 : BitVec 32 := 0#32
  ![v21.toNat, 0]

def k0_chk3 (v21 : BitVec 32) : Prop :=
  (∀ a, (k0_off5 v21) a + S1x19200.size a ≤ S4200x19200.size a)
instance k0_chk3.dec : ∀ (v21 : BitVec 32), Decidable (k0_chk3 v21) := fun v21 => decidable_of_iff' _ (Iff.of_eq (k0_chk3.eq_1 v21))
theorem k0_off5_inb : ∀ (v21 : BitVec 32) (k0_hw3 : k0_chk3 v21), ∀ a, (k0_off5 v21) a + S1x19200.size a ≤ S4200x19200.size a := fun v21 k0_hw3 => k0_hw3

def k0_off6 (v23 : BitVec 32) : Fin 2 → Nat :=
  let c0_i32_16 : BitVec 32 := 0#32
  ![v23.toNat, 0]

def k0_chk4 (v23 : BitVec 32) : Prop :=
  (∀ a, (k0_off6 v23) a + S1x19200.size a ≤ S4200x19200.size a)
instance k0_chk4.dec : ∀ (v23 : BitVec 32), Decidable (k0_chk4 v23) := fun v23 => decidable_of_iff' _ (Iff.of_eq (k0_chk4.eq_1 v23))
theorem k0_off6_inb : ∀ (v23 : BitVec 32) (k0_hw4 : k0_chk4 v23), ∀ a, (k0_off6 v23) a + S1x19200.size a ≤ S4200x19200.size a := fun v23 k0_hw4 => k0_hw4

def k0_off7 (i : grid0.Coords) : Fin 1 → Nat :=
  let arg0 : BitVec 32 := BitVec.ofNat 32 (i 0).val
  let c64_i32_17 : BitVec 32 := 64#32
  let v36 : BitVec 32 := Scalar.muli arg0 c64_i32_17
  let c2_i32 : BitVec 32 := 2#32
  let v37 : BitVec 32 := Scalar.addi v36 c2_i32
  let v38 : Index := Scalar.indexCast v37
  ![v38.toNat]
def k0_off8 (v39 : BitVec 32) : Fin 2 → Nat :=
  let c0_i32_21 : BitVec 32 := 0#32
  ![v39.toNat, 0]

def k0_chk5 (v39 : BitVec 32) : Prop :=
  (∀ a, (k0_off8 v39) a + S1x19200.size a ≤ S4200x19200.size a)
instance k0_chk5.dec : ∀ (v39 : BitVec 32), Decidable (k0_chk5 v39) := fun v39 => decidable_of_iff' _ (Iff.of_eq (k0_chk5.eq_1 v39))
theorem k0_off8_inb : ∀ (v39 : BitVec 32) (k0_hw5 : k0_chk5 v39), ∀ a, (k0_off8 v39) a + S1x19200.size a ≤ S4200x19200.size a := fun v39 k0_hw5 => k0_hw5

def k0_off9 (v41 : BitVec 32) : Fin 2 → Nat :=
  let c0_i32_25 : BitVec 32 := 0#32
  ![v41.toNat, 0]

def k0_chk6 (v41 : BitVec 32) : Prop :=
  (∀ a, (k0_off9 v41) a + S1x19200.size a ≤ S4200x19200.size a)
instance k0_chk6.dec : ∀ (v41 : BitVec 32), Decidable (k0_chk6 v41) := fun v41 => decidable_of_iff' _ (Iff.of_eq (k0_chk6.eq_1 v41))
theorem k0_off9_inb : ∀ (v41 : BitVec 32) (k0_hw6 : k0_chk6 v41), ∀ a, (k0_off9 v41) a + S1x19200.size a ≤ S4200x19200.size a := fun v41 k0_hw6 => k0_hw6

def k0_off10 (i : grid0.Coords) : Fin 1 → Nat :=
  let arg0 : BitVec 32 := BitVec.ofNat 32 (i 0).val
  let c64_i32_26 : BitVec 32 := 64#32
  let v54 : BitVec 32 := Scalar.muli arg0 c64_i32_26
  let c3_i32 : BitVec 32 := 3#32
  let v55 : BitVec 32 := Scalar.addi v54 c3_i32
  let v56 : Index := Scalar.indexCast v55
  ![v56.toNat]
def k0_off11 (v57 : BitVec 32) : Fin 2 → Nat :=
  let c0_i32_30 : BitVec 32 := 0#32
  ![v57.toNat, 0]

def k0_chk7 (v57 : BitVec 32) : Prop :=
  (∀ a, (k0_off11 v57) a + S1x19200.size a ≤ S4200x19200.size a)
instance k0_chk7.dec : ∀ (v57 : BitVec 32), Decidable (k0_chk7 v57) := fun v57 => decidable_of_iff' _ (Iff.of_eq (k0_chk7.eq_1 v57))
theorem k0_off11_inb : ∀ (v57 : BitVec 32) (k0_hw7 : k0_chk7 v57), ∀ a, (k0_off11 v57) a + S1x19200.size a ≤ S4200x19200.size a := fun v57 k0_hw7 => k0_hw7

def k0_off12 (v59 : BitVec 32) : Fin 2 → Nat :=
  let c0_i32_34 : BitVec 32 := 0#32
  ![v59.toNat, 0]

def k0_chk8 (v59 : BitVec 32) : Prop :=
  (∀ a, (k0_off12 v59) a + S1x19200.size a ≤ S4200x19200.size a)
instance k0_chk8.dec : ∀ (v59 : BitVec 32), Decidable (k0_chk8 v59) := fun v59 => decidable_of_iff' _ (Iff.of_eq (k0_chk8.eq_1 v59))
theorem k0_off12_inb : ∀ (v59 : BitVec 32) (k0_hw8 : k0_chk8 v59), ∀ a, (k0_off12 v59) a + S1x19200.size a ≤ S4200x19200.size a := fun v59 k0_hw8 => k0_hw8

def k0_off13 (i : grid0.Coords) : Fin 1 → Nat :=
  let arg0 : BitVec 32 := BitVec.ofNat 32 (i 0).val
  let c64_i32_35 : BitVec 32 := 64#32
  let v72 : BitVec 32 := Scalar.muli arg0 c64_i32_35
  let c4_i32 : BitVec 32 := 4#32
  let v73 : BitVec 32 := Scalar.addi v72 c4_i32
  let v74 : Index := Scalar.indexCast v73
  ![v74.toNat]
def k0_off14 (v75 : BitVec 32) : Fin 2 → Nat :=
  let c0_i32_39 : BitVec 32 := 0#32
  ![v75.toNat, 0]

def k0_chk9 (v75 : BitVec 32) : Prop :=
  (∀ a, (k0_off14 v75) a + S1x19200.size a ≤ S4200x19200.size a)
instance k0_chk9.dec : ∀ (v75 : BitVec 32), Decidable (k0_chk9 v75) := fun v75 => decidable_of_iff' _ (Iff.of_eq (k0_chk9.eq_1 v75))
theorem k0_off14_inb : ∀ (v75 : BitVec 32) (k0_hw9 : k0_chk9 v75), ∀ a, (k0_off14 v75) a + S1x19200.size a ≤ S4200x19200.size a := fun v75 k0_hw9 => k0_hw9

def k0_off15 (v77 : BitVec 32) : Fin 2 → Nat :=
  let c0_i32_43 : BitVec 32 := 0#32
  ![v77.toNat, 0]

def k0_chk10 (v77 : BitVec 32) : Prop :=
  (∀ a, (k0_off15 v77) a + S1x19200.size a ≤ S4200x19200.size a)
instance k0_chk10.dec : ∀ (v77 : BitVec 32), Decidable (k0_chk10 v77) := fun v77 => decidable_of_iff' _ (Iff.of_eq (k0_chk10.eq_1 v77))
theorem k0_off15_inb : ∀ (v77 : BitVec 32) (k0_hw10 : k0_chk10 v77), ∀ a, (k0_off15 v77) a + S1x19200.size a ≤ S4200x19200.size a := fun v77 k0_hw10 => k0_hw10

def k0_off16 (i : grid0.Coords) : Fin 1 → Nat :=
  let arg0 : BitVec 32 := BitVec.ofNat 32 (i 0).val
  let c64_i32_44 : BitVec 32 := 64#32
  let v90 : BitVec 32 := Scalar.muli arg0 c64_i32_44
  let c5_i32 : BitVec 32 := 5#32
  let v91 : BitVec 32 := Scalar.addi v90 c5_i32
  let v92 : Index := Scalar.indexCast v91
  ![v92.toNat]
def k0_off17 (v93 : BitVec 32) : Fin 2 → Nat :=
  let c0_i32_48 : BitVec 32 := 0#32
  ![v93.toNat, 0]

def k0_chk11 (v93 : BitVec 32) : Prop :=
  (∀ a, (k0_off17 v93) a + S1x19200.size a ≤ S4200x19200.size a)
instance k0_chk11.dec : ∀ (v93 : BitVec 32), Decidable (k0_chk11 v93) := fun v93 => decidable_of_iff' _ (Iff.of_eq (k0_chk11.eq_1 v93))
theorem k0_off17_inb : ∀ (v93 : BitVec 32) (k0_hw11 : k0_chk11 v93), ∀ a, (k0_off17 v93) a + S1x19200.size a ≤ S4200x19200.size a := fun v93 k0_hw11 => k0_hw11

def k0_off18 (v95 : BitVec 32) : Fin 2 → Nat :=
  let c0_i32_52 : BitVec 32 := 0#32
  ![v95.toNat, 0]

def k0_chk12 (v95 : BitVec 32) : Prop :=
  (∀ a, (k0_off18 v95) a + S1x19200.size a ≤ S4200x19200.size a)
instance k0_chk12.dec : ∀ (v95 : BitVec 32), Decidable (k0_chk12 v95) := fun v95 => decidable_of_iff' _ (Iff.of_eq (k0_chk12.eq_1 v95))
theorem k0_off18_inb : ∀ (v95 : BitVec 32) (k0_hw12 : k0_chk12 v95), ∀ a, (k0_off18 v95) a + S1x19200.size a ≤ S4200x19200.size a := fun v95 k0_hw12 => k0_hw12

def k0_off19 (i : grid0.Coords) : Fin 1 → Nat :=
  let arg0 : BitVec 32 := BitVec.ofNat 32 (i 0).val
  let c64_i32_53 : BitVec 32 := 64#32
  let v108 : BitVec 32 := Scalar.muli arg0 c64_i32_53
  let c6_i32 : BitVec 32 := 6#32
  let v109 : BitVec 32 := Scalar.addi v108 c6_i32
  let v110 : Index := Scalar.indexCast v109
  ![v110.toNat]
def k0_off20 (v111 : BitVec 32) : Fin 2 → Nat :=
  let c0_i32_57 : BitVec 32 := 0#32
  ![v111.toNat, 0]

def k0_chk13 (v111 : BitVec 32) : Prop :=
  (∀ a, (k0_off20 v111) a + S1x19200.size a ≤ S4200x19200.size a)
instance k0_chk13.dec : ∀ (v111 : BitVec 32), Decidable (k0_chk13 v111) := fun v111 => decidable_of_iff' _ (Iff.of_eq (k0_chk13.eq_1 v111))
theorem k0_off20_inb : ∀ (v111 : BitVec 32) (k0_hw13 : k0_chk13 v111), ∀ a, (k0_off20 v111) a + S1x19200.size a ≤ S4200x19200.size a := fun v111 k0_hw13 => k0_hw13

def k0_off21 (v113 : BitVec 32) : Fin 2 → Nat :=
  let c0_i32_61 : BitVec 32 := 0#32
  ![v113.toNat, 0]

def k0_chk14 (v113 : BitVec 32) : Prop :=
  (∀ a, (k0_off21 v113) a + S1x19200.size a ≤ S4200x19200.size a)
instance k0_chk14.dec : ∀ (v113 : BitVec 32), Decidable (k0_chk14 v113) := fun v113 => decidable_of_iff' _ (Iff.of_eq (k0_chk14.eq_1 v113))
theorem k0_off21_inb : ∀ (v113 : BitVec 32) (k0_hw14 : k0_chk14 v113), ∀ a, (k0_off21 v113) a + S1x19200.size a ≤ S4200x19200.size a := fun v113 k0_hw14 => k0_hw14

def k0_off22 (i : grid0.Coords) : Fin 1 → Nat :=
  let arg0 : BitVec 32 := BitVec.ofNat 32 (i 0).val
  let c64_i32_62 : BitVec 32 := 64#32
  let v126 : BitVec 32 := Scalar.muli arg0 c64_i32_62
  let c7_i32 : BitVec 32 := 7#32
  let v127 : BitVec 32 := Scalar.addi v126 c7_i32
  let v128 : Index := Scalar.indexCast v127
  ![v128.toNat]
def k0_off23 (v129 : BitVec 32) : Fin 2 → Nat :=
  let c0_i32_66 : BitVec 32 := 0#32
  ![v129.toNat, 0]

def k0_chk15 (v129 : BitVec 32) : Prop :=
  (∀ a, (k0_off23 v129) a + S1x19200.size a ≤ S4200x19200.size a)
instance k0_chk15.dec : ∀ (v129 : BitVec 32), Decidable (k0_chk15 v129) := fun v129 => decidable_of_iff' _ (Iff.of_eq (k0_chk15.eq_1 v129))
theorem k0_off23_inb : ∀ (v129 : BitVec 32) (k0_hw15 : k0_chk15 v129), ∀ a, (k0_off23 v129) a + S1x19200.size a ≤ S4200x19200.size a := fun v129 k0_hw15 => k0_hw15

def k0_off24 (v131 : BitVec 32) : Fin 2 → Nat :=
  let c0_i32_70 : BitVec 32 := 0#32
  ![v131.toNat, 0]

def k0_chk16 (v131 : BitVec 32) : Prop :=
  (∀ a, (k0_off24 v131) a + S1x19200.size a ≤ S4200x19200.size a)
instance k0_chk16.dec : ∀ (v131 : BitVec 32), Decidable (k0_chk16 v131) := fun v131 => decidable_of_iff' _ (Iff.of_eq (k0_chk16.eq_1 v131))
theorem k0_off24_inb : ∀ (v131 : BitVec 32) (k0_hw16 : k0_chk16 v131), ∀ a, (k0_off24 v131) a + S1x19200.size a ≤ S4200x19200.size a := fun v131 k0_hw16 => k0_hw16

def k0_off25 (i : grid0.Coords) : Fin 1 → Nat :=
  let arg0 : BitVec 32 := BitVec.ofNat 32 (i 0).val
  let c64_i32_71 : BitVec 32 := 64#32
  let v144 : BitVec 32 := Scalar.muli arg0 c64_i32_71
  let c8_i32 : BitVec 32 := 8#32
  let v145 : BitVec 32 := Scalar.addi v144 c8_i32
  let v146 : Index := Scalar.indexCast v145
  ![v146.toNat]
def k0_off26 (v147 : BitVec 32) : Fin 2 → Nat :=
  let c0_i32_75 : BitVec 32 := 0#32
  ![v147.toNat, 0]

def k0_chk17 (v147 : BitVec 32) : Prop :=
  (∀ a, (k0_off26 v147) a + S1x19200.size a ≤ S4200x19200.size a)
instance k0_chk17.dec : ∀ (v147 : BitVec 32), Decidable (k0_chk17 v147) := fun v147 => decidable_of_iff' _ (Iff.of_eq (k0_chk17.eq_1 v147))
theorem k0_off26_inb : ∀ (v147 : BitVec 32) (k0_hw17 : k0_chk17 v147), ∀ a, (k0_off26 v147) a + S1x19200.size a ≤ S4200x19200.size a := fun v147 k0_hw17 => k0_hw17

def k0_off27 (v149 : BitVec 32) : Fin 2 → Nat :=
  let c0_i32_79 : BitVec 32 := 0#32
  ![v149.toNat, 0]

def k0_chk18 (v149 : BitVec 32) : Prop :=
  (∀ a, (k0_off27 v149) a + S1x19200.size a ≤ S4200x19200.size a)
instance k0_chk18.dec : ∀ (v149 : BitVec 32), Decidable (k0_chk18 v149) := fun v149 => decidable_of_iff' _ (Iff.of_eq (k0_chk18.eq_1 v149))
theorem k0_off27_inb : ∀ (v149 : BitVec 32) (k0_hw18 : k0_chk18 v149), ∀ a, (k0_off27 v149) a + S1x19200.size a ≤ S4200x19200.size a := fun v149 k0_hw18 => k0_hw18

def k0_off28 (i : grid0.Coords) : Fin 1 → Nat :=
  let arg0 : BitVec 32 := BitVec.ofNat 32 (i 0).val
  let c64_i32_80 : BitVec 32 := 64#32
  let v162 : BitVec 32 := Scalar.muli arg0 c64_i32_80
  let c9_i32 : BitVec 32 := 9#32
  let v163 : BitVec 32 := Scalar.addi v162 c9_i32
  let v164 : Index := Scalar.indexCast v163
  ![v164.toNat]
def k0_off29 (v165 : BitVec 32) : Fin 2 → Nat :=
  let c0_i32_84 : BitVec 32 := 0#32
  ![v165.toNat, 0]

def k0_chk19 (v165 : BitVec 32) : Prop :=
  (∀ a, (k0_off29 v165) a + S1x19200.size a ≤ S4200x19200.size a)
instance k0_chk19.dec : ∀ (v165 : BitVec 32), Decidable (k0_chk19 v165) := fun v165 => decidable_of_iff' _ (Iff.of_eq (k0_chk19.eq_1 v165))
theorem k0_off29_inb : ∀ (v165 : BitVec 32) (k0_hw19 : k0_chk19 v165), ∀ a, (k0_off29 v165) a + S1x19200.size a ≤ S4200x19200.size a := fun v165 k0_hw19 => k0_hw19

def k0_off30 (v167 : BitVec 32) : Fin 2 → Nat :=
  let c0_i32_88 : BitVec 32 := 0#32
  ![v167.toNat, 0]

def k0_chk20 (v167 : BitVec 32) : Prop :=
  (∀ a, (k0_off30 v167) a + S1x19200.size a ≤ S4200x19200.size a)
instance k0_chk20.dec : ∀ (v167 : BitVec 32), Decidable (k0_chk20 v167) := fun v167 => decidable_of_iff' _ (Iff.of_eq (k0_chk20.eq_1 v167))
theorem k0_off30_inb : ∀ (v167 : BitVec 32) (k0_hw20 : k0_chk20 v167), ∀ a, (k0_off30 v167) a + S1x19200.size a ≤ S4200x19200.size a := fun v167 k0_hw20 => k0_hw20

def k0_off31 (i : grid0.Coords) : Fin 1 → Nat :=
  let arg0 : BitVec 32 := BitVec.ofNat 32 (i 0).val
  let c64_i32_89 : BitVec 32 := 64#32
  let v180 : BitVec 32 := Scalar.muli arg0 c64_i32_89
  let c10_i32 : BitVec 32 := 10#32
  let v181 : BitVec 32 := Scalar.addi v180 c10_i32
  let v182 : Index := Scalar.indexCast v181
  ![v182.toNat]
def k0_off32 (v183 : BitVec 32) : Fin 2 → Nat :=
  let c0_i32_93 : BitVec 32 := 0#32
  ![v183.toNat, 0]

def k0_chk21 (v183 : BitVec 32) : Prop :=
  (∀ a, (k0_off32 v183) a + S1x19200.size a ≤ S4200x19200.size a)
instance k0_chk21.dec : ∀ (v183 : BitVec 32), Decidable (k0_chk21 v183) := fun v183 => decidable_of_iff' _ (Iff.of_eq (k0_chk21.eq_1 v183))
theorem k0_off32_inb : ∀ (v183 : BitVec 32) (k0_hw21 : k0_chk21 v183), ∀ a, (k0_off32 v183) a + S1x19200.size a ≤ S4200x19200.size a := fun v183 k0_hw21 => k0_hw21

def k0_off33 (v185 : BitVec 32) : Fin 2 → Nat :=
  let c0_i32_97 : BitVec 32 := 0#32
  ![v185.toNat, 0]

def k0_chk22 (v185 : BitVec 32) : Prop :=
  (∀ a, (k0_off33 v185) a + S1x19200.size a ≤ S4200x19200.size a)
instance k0_chk22.dec : ∀ (v185 : BitVec 32), Decidable (k0_chk22 v185) := fun v185 => decidable_of_iff' _ (Iff.of_eq (k0_chk22.eq_1 v185))
theorem k0_off33_inb : ∀ (v185 : BitVec 32) (k0_hw22 : k0_chk22 v185), ∀ a, (k0_off33 v185) a + S1x19200.size a ≤ S4200x19200.size a := fun v185 k0_hw22 => k0_hw22

def k0_off34 (i : grid0.Coords) : Fin 1 → Nat :=
  let arg0 : BitVec 32 := BitVec.ofNat 32 (i 0).val
  let c64_i32_98 : BitVec 32 := 64#32
  let v198 : BitVec 32 := Scalar.muli arg0 c64_i32_98
  let c11_i32 : BitVec 32 := 11#32
  let v199 : BitVec 32 := Scalar.addi v198 c11_i32
  let v200 : Index := Scalar.indexCast v199
  ![v200.toNat]
def k0_off35 (v201 : BitVec 32) : Fin 2 → Nat :=
  let c0_i32_102 : BitVec 32 := 0#32
  ![v201.toNat, 0]

def k0_chk23 (v201 : BitVec 32) : Prop :=
  (∀ a, (k0_off35 v201) a + S1x19200.size a ≤ S4200x19200.size a)
instance k0_chk23.dec : ∀ (v201 : BitVec 32), Decidable (k0_chk23 v201) := fun v201 => decidable_of_iff' _ (Iff.of_eq (k0_chk23.eq_1 v201))
theorem k0_off35_inb : ∀ (v201 : BitVec 32) (k0_hw23 : k0_chk23 v201), ∀ a, (k0_off35 v201) a + S1x19200.size a ≤ S4200x19200.size a := fun v201 k0_hw23 => k0_hw23

def k0_off36 (v203 : BitVec 32) : Fin 2 → Nat :=
  let c0_i32_106 : BitVec 32 := 0#32
  ![v203.toNat, 0]

def k0_chk24 (v203 : BitVec 32) : Prop :=
  (∀ a, (k0_off36 v203) a + S1x19200.size a ≤ S4200x19200.size a)
instance k0_chk24.dec : ∀ (v203 : BitVec 32), Decidable (k0_chk24 v203) := fun v203 => decidable_of_iff' _ (Iff.of_eq (k0_chk24.eq_1 v203))
theorem k0_off36_inb : ∀ (v203 : BitVec 32) (k0_hw24 : k0_chk24 v203), ∀ a, (k0_off36 v203) a + S1x19200.size a ≤ S4200x19200.size a := fun v203 k0_hw24 => k0_hw24

def k0_off37 (i : grid0.Coords) : Fin 1 → Nat :=
  let arg0 : BitVec 32 := BitVec.ofNat 32 (i 0).val
  let c64_i32_107 : BitVec 32 := 64#32
  let v216 : BitVec 32 := Scalar.muli arg0 c64_i32_107
  let c12_i32 : BitVec 32 := 12#32
  let v217 : BitVec 32 := Scalar.addi v216 c12_i32
  let v218 : Index := Scalar.indexCast v217
  ![v218.toNat]
def k0_off38 (v219 : BitVec 32) : Fin 2 → Nat :=
  let c0_i32_111 : BitVec 32 := 0#32
  ![v219.toNat, 0]

def k0_chk25 (v219 : BitVec 32) : Prop :=
  (∀ a, (k0_off38 v219) a + S1x19200.size a ≤ S4200x19200.size a)
instance k0_chk25.dec : ∀ (v219 : BitVec 32), Decidable (k0_chk25 v219) := fun v219 => decidable_of_iff' _ (Iff.of_eq (k0_chk25.eq_1 v219))
theorem k0_off38_inb : ∀ (v219 : BitVec 32) (k0_hw25 : k0_chk25 v219), ∀ a, (k0_off38 v219) a + S1x19200.size a ≤ S4200x19200.size a := fun v219 k0_hw25 => k0_hw25

def k0_off39 (v221 : BitVec 32) : Fin 2 → Nat :=
  let c0_i32_115 : BitVec 32 := 0#32
  ![v221.toNat, 0]

def k0_chk26 (v221 : BitVec 32) : Prop :=
  (∀ a, (k0_off39 v221) a + S1x19200.size a ≤ S4200x19200.size a)
instance k0_chk26.dec : ∀ (v221 : BitVec 32), Decidable (k0_chk26 v221) := fun v221 => decidable_of_iff' _ (Iff.of_eq (k0_chk26.eq_1 v221))
theorem k0_off39_inb : ∀ (v221 : BitVec 32) (k0_hw26 : k0_chk26 v221), ∀ a, (k0_off39 v221) a + S1x19200.size a ≤ S4200x19200.size a := fun v221 k0_hw26 => k0_hw26

def k0_off40 (i : grid0.Coords) : Fin 1 → Nat :=
  let arg0 : BitVec 32 := BitVec.ofNat 32 (i 0).val
  let c64_i32_116 : BitVec 32 := 64#32
  let v234 : BitVec 32 := Scalar.muli arg0 c64_i32_116
  let c13_i32 : BitVec 32 := 13#32
  let v235 : BitVec 32 := Scalar.addi v234 c13_i32
  let v236 : Index := Scalar.indexCast v235
  ![v236.toNat]
def k0_off41 (v237 : BitVec 32) : Fin 2 → Nat :=
  let c0_i32_120 : BitVec 32 := 0#32
  ![v237.toNat, 0]

def k0_chk27 (v237 : BitVec 32) : Prop :=
  (∀ a, (k0_off41 v237) a + S1x19200.size a ≤ S4200x19200.size a)
instance k0_chk27.dec : ∀ (v237 : BitVec 32), Decidable (k0_chk27 v237) := fun v237 => decidable_of_iff' _ (Iff.of_eq (k0_chk27.eq_1 v237))
theorem k0_off41_inb : ∀ (v237 : BitVec 32) (k0_hw27 : k0_chk27 v237), ∀ a, (k0_off41 v237) a + S1x19200.size a ≤ S4200x19200.size a := fun v237 k0_hw27 => k0_hw27

def k0_off42 (v239 : BitVec 32) : Fin 2 → Nat :=
  let c0_i32_124 : BitVec 32 := 0#32
  ![v239.toNat, 0]

def k0_chk28 (v239 : BitVec 32) : Prop :=
  (∀ a, (k0_off42 v239) a + S1x19200.size a ≤ S4200x19200.size a)
instance k0_chk28.dec : ∀ (v239 : BitVec 32), Decidable (k0_chk28 v239) := fun v239 => decidable_of_iff' _ (Iff.of_eq (k0_chk28.eq_1 v239))
theorem k0_off42_inb : ∀ (v239 : BitVec 32) (k0_hw28 : k0_chk28 v239), ∀ a, (k0_off42 v239) a + S1x19200.size a ≤ S4200x19200.size a := fun v239 k0_hw28 => k0_hw28

def k0_off43 (i : grid0.Coords) : Fin 1 → Nat :=
  let arg0 : BitVec 32 := BitVec.ofNat 32 (i 0).val
  let c64_i32_125 : BitVec 32 := 64#32
  let v252 : BitVec 32 := Scalar.muli arg0 c64_i32_125
  let c14_i32 : BitVec 32 := 14#32
  let v253 : BitVec 32 := Scalar.addi v252 c14_i32
  let v254 : Index := Scalar.indexCast v253
  ![v254.toNat]
def k0_off44 (v255 : BitVec 32) : Fin 2 → Nat :=
  let c0_i32_129 : BitVec 32 := 0#32
  ![v255.toNat, 0]

def k0_chk29 (v255 : BitVec 32) : Prop :=
  (∀ a, (k0_off44 v255) a + S1x19200.size a ≤ S4200x19200.size a)
instance k0_chk29.dec : ∀ (v255 : BitVec 32), Decidable (k0_chk29 v255) := fun v255 => decidable_of_iff' _ (Iff.of_eq (k0_chk29.eq_1 v255))
theorem k0_off44_inb : ∀ (v255 : BitVec 32) (k0_hw29 : k0_chk29 v255), ∀ a, (k0_off44 v255) a + S1x19200.size a ≤ S4200x19200.size a := fun v255 k0_hw29 => k0_hw29

def k0_off45 (v257 : BitVec 32) : Fin 2 → Nat :=
  let c0_i32_133 : BitVec 32 := 0#32
  ![v257.toNat, 0]

def k0_chk30 (v257 : BitVec 32) : Prop :=
  (∀ a, (k0_off45 v257) a + S1x19200.size a ≤ S4200x19200.size a)
instance k0_chk30.dec : ∀ (v257 : BitVec 32), Decidable (k0_chk30 v257) := fun v257 => decidable_of_iff' _ (Iff.of_eq (k0_chk30.eq_1 v257))
theorem k0_off45_inb : ∀ (v257 : BitVec 32) (k0_hw30 : k0_chk30 v257), ∀ a, (k0_off45 v257) a + S1x19200.size a ≤ S4200x19200.size a := fun v257 k0_hw30 => k0_hw30

def k0_off46 (i : grid0.Coords) : Fin 1 → Nat :=
  let arg0 : BitVec 32 := BitVec.ofNat 32 (i 0).val
  let c64_i32_134 : BitVec 32 := 64#32
  let v270 : BitVec 32 := Scalar.muli arg0 c64_i32_134
  let c15_i32 : BitVec 32 := 15#32
  let v271 : BitVec 32 := Scalar.addi v270 c15_i32
  let v272 : Index := Scalar.indexCast v271
  ![v272.toNat]
def k0_off47 (v273 : BitVec 32) : Fin 2 → Nat :=
  let c0_i32_138 : BitVec 32 := 0#32
  ![v273.toNat, 0]

def k0_chk31 (v273 : BitVec 32) : Prop :=
  (∀ a, (k0_off47 v273) a + S1x19200.size a ≤ S4200x19200.size a)
instance k0_chk31.dec : ∀ (v273 : BitVec 32), Decidable (k0_chk31 v273) := fun v273 => decidable_of_iff' _ (Iff.of_eq (k0_chk31.eq_1 v273))
theorem k0_off47_inb : ∀ (v273 : BitVec 32) (k0_hw31 : k0_chk31 v273), ∀ a, (k0_off47 v273) a + S1x19200.size a ≤ S4200x19200.size a := fun v273 k0_hw31 => k0_hw31

def k0_off48 (v275 : BitVec 32) : Fin 2 → Nat :=
  let c0_i32_142 : BitVec 32 := 0#32
  ![v275.toNat, 0]

def k0_chk32 (v275 : BitVec 32) : Prop :=
  (∀ a, (k0_off48 v275) a + S1x19200.size a ≤ S4200x19200.size a)
instance k0_chk32.dec : ∀ (v275 : BitVec 32), Decidable (k0_chk32 v275) := fun v275 => decidable_of_iff' _ (Iff.of_eq (k0_chk32.eq_1 v275))
theorem k0_off48_inb : ∀ (v275 : BitVec 32) (k0_hw32 : k0_chk32 v275), ∀ a, (k0_off48 v275) a + S1x19200.size a ≤ S4200x19200.size a := fun v275 k0_hw32 => k0_hw32

def k0_off49 (i : grid0.Coords) : Fin 1 → Nat :=
  let arg0 : BitVec 32 := BitVec.ofNat 32 (i 0).val
  let c64_i32_143 : BitVec 32 := 64#32
  let v288 : BitVec 32 := Scalar.muli arg0 c64_i32_143
  let c16_i32 : BitVec 32 := 16#32
  let v289 : BitVec 32 := Scalar.addi v288 c16_i32
  let v290 : Index := Scalar.indexCast v289
  ![v290.toNat]
def k0_off50 (v291 : BitVec 32) : Fin 2 → Nat :=
  let c0_i32_147 : BitVec 32 := 0#32
  ![v291.toNat, 0]

def k0_chk33 (v291 : BitVec 32) : Prop :=
  (∀ a, (k0_off50 v291) a + S1x19200.size a ≤ S4200x19200.size a)
instance k0_chk33.dec : ∀ (v291 : BitVec 32), Decidable (k0_chk33 v291) := fun v291 => decidable_of_iff' _ (Iff.of_eq (k0_chk33.eq_1 v291))
theorem k0_off50_inb : ∀ (v291 : BitVec 32) (k0_hw33 : k0_chk33 v291), ∀ a, (k0_off50 v291) a + S1x19200.size a ≤ S4200x19200.size a := fun v291 k0_hw33 => k0_hw33

def k0_off51 (v293 : BitVec 32) : Fin 2 → Nat :=
  let c0_i32_151 : BitVec 32 := 0#32
  ![v293.toNat, 0]

def k0_chk34 (v293 : BitVec 32) : Prop :=
  (∀ a, (k0_off51 v293) a + S1x19200.size a ≤ S4200x19200.size a)
instance k0_chk34.dec : ∀ (v293 : BitVec 32), Decidable (k0_chk34 v293) := fun v293 => decidable_of_iff' _ (Iff.of_eq (k0_chk34.eq_1 v293))
theorem k0_off51_inb : ∀ (v293 : BitVec 32) (k0_hw34 : k0_chk34 v293), ∀ a, (k0_off51 v293) a + S1x19200.size a ≤ S4200x19200.size a := fun v293 k0_hw34 => k0_hw34

def k0_off52 (i : grid0.Coords) : Fin 1 → Nat :=
  let arg0 : BitVec 32 := BitVec.ofNat 32 (i 0).val
  let c64_i32_152 : BitVec 32 := 64#32
  let v306 : BitVec 32 := Scalar.muli arg0 c64_i32_152
  let c17_i32 : BitVec 32 := 17#32
  let v307 : BitVec 32 := Scalar.addi v306 c17_i32
  let v308 : Index := Scalar.indexCast v307
  ![v308.toNat]
def k0_off53 (v309 : BitVec 32) : Fin 2 → Nat :=
  let c0_i32_156 : BitVec 32 := 0#32
  ![v309.toNat, 0]

def k0_chk35 (v309 : BitVec 32) : Prop :=
  (∀ a, (k0_off53 v309) a + S1x19200.size a ≤ S4200x19200.size a)
instance k0_chk35.dec : ∀ (v309 : BitVec 32), Decidable (k0_chk35 v309) := fun v309 => decidable_of_iff' _ (Iff.of_eq (k0_chk35.eq_1 v309))
theorem k0_off53_inb : ∀ (v309 : BitVec 32) (k0_hw35 : k0_chk35 v309), ∀ a, (k0_off53 v309) a + S1x19200.size a ≤ S4200x19200.size a := fun v309 k0_hw35 => k0_hw35

def k0_off54 (v311 : BitVec 32) : Fin 2 → Nat :=
  let c0_i32_160 : BitVec 32 := 0#32
  ![v311.toNat, 0]

def k0_chk36 (v311 : BitVec 32) : Prop :=
  (∀ a, (k0_off54 v311) a + S1x19200.size a ≤ S4200x19200.size a)
instance k0_chk36.dec : ∀ (v311 : BitVec 32), Decidable (k0_chk36 v311) := fun v311 => decidable_of_iff' _ (Iff.of_eq (k0_chk36.eq_1 v311))
theorem k0_off54_inb : ∀ (v311 : BitVec 32) (k0_hw36 : k0_chk36 v311), ∀ a, (k0_off54 v311) a + S1x19200.size a ≤ S4200x19200.size a := fun v311 k0_hw36 => k0_hw36

def k0_off55 (i : grid0.Coords) : Fin 1 → Nat :=
  let arg0 : BitVec 32 := BitVec.ofNat 32 (i 0).val
  let c64_i32_161 : BitVec 32 := 64#32
  let v324 : BitVec 32 := Scalar.muli arg0 c64_i32_161
  let c18_i32 : BitVec 32 := 18#32
  let v325 : BitVec 32 := Scalar.addi v324 c18_i32
  let v326 : Index := Scalar.indexCast v325
  ![v326.toNat]
def k0_off56 (v327 : BitVec 32) : Fin 2 → Nat :=
  let c0_i32_165 : BitVec 32 := 0#32
  ![v327.toNat, 0]

def k0_chk37 (v327 : BitVec 32) : Prop :=
  (∀ a, (k0_off56 v327) a + S1x19200.size a ≤ S4200x19200.size a)
instance k0_chk37.dec : ∀ (v327 : BitVec 32), Decidable (k0_chk37 v327) := fun v327 => decidable_of_iff' _ (Iff.of_eq (k0_chk37.eq_1 v327))
theorem k0_off56_inb : ∀ (v327 : BitVec 32) (k0_hw37 : k0_chk37 v327), ∀ a, (k0_off56 v327) a + S1x19200.size a ≤ S4200x19200.size a := fun v327 k0_hw37 => k0_hw37

def k0_off57 (v329 : BitVec 32) : Fin 2 → Nat :=
  let c0_i32_169 : BitVec 32 := 0#32
  ![v329.toNat, 0]

def k0_chk38 (v329 : BitVec 32) : Prop :=
  (∀ a, (k0_off57 v329) a + S1x19200.size a ≤ S4200x19200.size a)
instance k0_chk38.dec : ∀ (v329 : BitVec 32), Decidable (k0_chk38 v329) := fun v329 => decidable_of_iff' _ (Iff.of_eq (k0_chk38.eq_1 v329))
theorem k0_off57_inb : ∀ (v329 : BitVec 32) (k0_hw38 : k0_chk38 v329), ∀ a, (k0_off57 v329) a + S1x19200.size a ≤ S4200x19200.size a := fun v329 k0_hw38 => k0_hw38

def k0_off58 (i : grid0.Coords) : Fin 1 → Nat :=
  let arg0 : BitVec 32 := BitVec.ofNat 32 (i 0).val
  let c64_i32_170 : BitVec 32 := 64#32
  let v342 : BitVec 32 := Scalar.muli arg0 c64_i32_170
  let c19_i32 : BitVec 32 := 19#32
  let v343 : BitVec 32 := Scalar.addi v342 c19_i32
  let v344 : Index := Scalar.indexCast v343
  ![v344.toNat]
def k0_off59 (v345 : BitVec 32) : Fin 2 → Nat :=
  let c0_i32_174 : BitVec 32 := 0#32
  ![v345.toNat, 0]

def k0_chk39 (v345 : BitVec 32) : Prop :=
  (∀ a, (k0_off59 v345) a + S1x19200.size a ≤ S4200x19200.size a)
instance k0_chk39.dec : ∀ (v345 : BitVec 32), Decidable (k0_chk39 v345) := fun v345 => decidable_of_iff' _ (Iff.of_eq (k0_chk39.eq_1 v345))
theorem k0_off59_inb : ∀ (v345 : BitVec 32) (k0_hw39 : k0_chk39 v345), ∀ a, (k0_off59 v345) a + S1x19200.size a ≤ S4200x19200.size a := fun v345 k0_hw39 => k0_hw39

def k0_off60 (v347 : BitVec 32) : Fin 2 → Nat :=
  let c0_i32_178 : BitVec 32 := 0#32
  ![v347.toNat, 0]

def k0_chk40 (v347 : BitVec 32) : Prop :=
  (∀ a, (k0_off60 v347) a + S1x19200.size a ≤ S4200x19200.size a)
instance k0_chk40.dec : ∀ (v347 : BitVec 32), Decidable (k0_chk40 v347) := fun v347 => decidable_of_iff' _ (Iff.of_eq (k0_chk40.eq_1 v347))
theorem k0_off60_inb : ∀ (v347 : BitVec 32) (k0_hw40 : k0_chk40 v347), ∀ a, (k0_off60 v347) a + S1x19200.size a ≤ S4200x19200.size a := fun v347 k0_hw40 => k0_hw40

def k0_off61 (i : grid0.Coords) : Fin 1 → Nat :=
  let arg0 : BitVec 32 := BitVec.ofNat 32 (i 0).val
  let c64_i32_179 : BitVec 32 := 64#32
  let v360 : BitVec 32 := Scalar.muli arg0 c64_i32_179
  let c20_i32 : BitVec 32 := 20#32
  let v361 : BitVec 32 := Scalar.addi v360 c20_i32
  let v362 : Index := Scalar.indexCast v361
  ![v362.toNat]
def k0_off62 (v363 : BitVec 32) : Fin 2 → Nat :=
  let c0_i32_183 : BitVec 32 := 0#32
  ![v363.toNat, 0]

def k0_chk41 (v363 : BitVec 32) : Prop :=
  (∀ a, (k0_off62 v363) a + S1x19200.size a ≤ S4200x19200.size a)
instance k0_chk41.dec : ∀ (v363 : BitVec 32), Decidable (k0_chk41 v363) := fun v363 => decidable_of_iff' _ (Iff.of_eq (k0_chk41.eq_1 v363))
theorem k0_off62_inb : ∀ (v363 : BitVec 32) (k0_hw41 : k0_chk41 v363), ∀ a, (k0_off62 v363) a + S1x19200.size a ≤ S4200x19200.size a := fun v363 k0_hw41 => k0_hw41

def k0_off63 (v365 : BitVec 32) : Fin 2 → Nat :=
  let c0_i32_187 : BitVec 32 := 0#32
  ![v365.toNat, 0]

def k0_chk42 (v365 : BitVec 32) : Prop :=
  (∀ a, (k0_off63 v365) a + S1x19200.size a ≤ S4200x19200.size a)
instance k0_chk42.dec : ∀ (v365 : BitVec 32), Decidable (k0_chk42 v365) := fun v365 => decidable_of_iff' _ (Iff.of_eq (k0_chk42.eq_1 v365))
theorem k0_off63_inb : ∀ (v365 : BitVec 32) (k0_hw42 : k0_chk42 v365), ∀ a, (k0_off63 v365) a + S1x19200.size a ≤ S4200x19200.size a := fun v365 k0_hw42 => k0_hw42

def k0_off64 (i : grid0.Coords) : Fin 1 → Nat :=
  let arg0 : BitVec 32 := BitVec.ofNat 32 (i 0).val
  let c64_i32_188 : BitVec 32 := 64#32
  let v378 : BitVec 32 := Scalar.muli arg0 c64_i32_188
  let c21_i32 : BitVec 32 := 21#32
  let v379 : BitVec 32 := Scalar.addi v378 c21_i32
  let v380 : Index := Scalar.indexCast v379
  ![v380.toNat]
def k0_off65 (v381 : BitVec 32) : Fin 2 → Nat :=
  let c0_i32_192 : BitVec 32 := 0#32
  ![v381.toNat, 0]

def k0_chk43 (v381 : BitVec 32) : Prop :=
  (∀ a, (k0_off65 v381) a + S1x19200.size a ≤ S4200x19200.size a)
instance k0_chk43.dec : ∀ (v381 : BitVec 32), Decidable (k0_chk43 v381) := fun v381 => decidable_of_iff' _ (Iff.of_eq (k0_chk43.eq_1 v381))
theorem k0_off65_inb : ∀ (v381 : BitVec 32) (k0_hw43 : k0_chk43 v381), ∀ a, (k0_off65 v381) a + S1x19200.size a ≤ S4200x19200.size a := fun v381 k0_hw43 => k0_hw43

def k0_off66 (v383 : BitVec 32) : Fin 2 → Nat :=
  let c0_i32_196 : BitVec 32 := 0#32
  ![v383.toNat, 0]

def k0_chk44 (v383 : BitVec 32) : Prop :=
  (∀ a, (k0_off66 v383) a + S1x19200.size a ≤ S4200x19200.size a)
instance k0_chk44.dec : ∀ (v383 : BitVec 32), Decidable (k0_chk44 v383) := fun v383 => decidable_of_iff' _ (Iff.of_eq (k0_chk44.eq_1 v383))
theorem k0_off66_inb : ∀ (v383 : BitVec 32) (k0_hw44 : k0_chk44 v383), ∀ a, (k0_off66 v383) a + S1x19200.size a ≤ S4200x19200.size a := fun v383 k0_hw44 => k0_hw44

def k0_off67 (i : grid0.Coords) : Fin 1 → Nat :=
  let arg0 : BitVec 32 := BitVec.ofNat 32 (i 0).val
  let c64_i32_197 : BitVec 32 := 64#32
  let v396 : BitVec 32 := Scalar.muli arg0 c64_i32_197
  let c22_i32 : BitVec 32 := 22#32
  let v397 : BitVec 32 := Scalar.addi v396 c22_i32
  let v398 : Index := Scalar.indexCast v397
  ![v398.toNat]
def k0_off68 (v399 : BitVec 32) : Fin 2 → Nat :=
  let c0_i32_201 : BitVec 32 := 0#32
  ![v399.toNat, 0]

def k0_chk45 (v399 : BitVec 32) : Prop :=
  (∀ a, (k0_off68 v399) a + S1x19200.size a ≤ S4200x19200.size a)
instance k0_chk45.dec : ∀ (v399 : BitVec 32), Decidable (k0_chk45 v399) := fun v399 => decidable_of_iff' _ (Iff.of_eq (k0_chk45.eq_1 v399))
theorem k0_off68_inb : ∀ (v399 : BitVec 32) (k0_hw45 : k0_chk45 v399), ∀ a, (k0_off68 v399) a + S1x19200.size a ≤ S4200x19200.size a := fun v399 k0_hw45 => k0_hw45

def k0_off69 (v401 : BitVec 32) : Fin 2 → Nat :=
  let c0_i32_205 : BitVec 32 := 0#32
  ![v401.toNat, 0]

def k0_chk46 (v401 : BitVec 32) : Prop :=
  (∀ a, (k0_off69 v401) a + S1x19200.size a ≤ S4200x19200.size a)
instance k0_chk46.dec : ∀ (v401 : BitVec 32), Decidable (k0_chk46 v401) := fun v401 => decidable_of_iff' _ (Iff.of_eq (k0_chk46.eq_1 v401))
theorem k0_off69_inb : ∀ (v401 : BitVec 32) (k0_hw46 : k0_chk46 v401), ∀ a, (k0_off69 v401) a + S1x19200.size a ≤ S4200x19200.size a := fun v401 k0_hw46 => k0_hw46

def k0_off70 (i : grid0.Coords) : Fin 1 → Nat :=
  let arg0 : BitVec 32 := BitVec.ofNat 32 (i 0).val
  let c64_i32_206 : BitVec 32 := 64#32
  let v414 : BitVec 32 := Scalar.muli arg0 c64_i32_206
  let c23_i32 : BitVec 32 := 23#32
  let v415 : BitVec 32 := Scalar.addi v414 c23_i32
  let v416 : Index := Scalar.indexCast v415
  ![v416.toNat]
def k0_off71 (v417 : BitVec 32) : Fin 2 → Nat :=
  let c0_i32_210 : BitVec 32 := 0#32
  ![v417.toNat, 0]

def k0_chk47 (v417 : BitVec 32) : Prop :=
  (∀ a, (k0_off71 v417) a + S1x19200.size a ≤ S4200x19200.size a)
instance k0_chk47.dec : ∀ (v417 : BitVec 32), Decidable (k0_chk47 v417) := fun v417 => decidable_of_iff' _ (Iff.of_eq (k0_chk47.eq_1 v417))
theorem k0_off71_inb : ∀ (v417 : BitVec 32) (k0_hw47 : k0_chk47 v417), ∀ a, (k0_off71 v417) a + S1x19200.size a ≤ S4200x19200.size a := fun v417 k0_hw47 => k0_hw47

def k0_off72 (v419 : BitVec 32) : Fin 2 → Nat :=
  let c0_i32_214 : BitVec 32 := 0#32
  ![v419.toNat, 0]

def k0_chk48 (v419 : BitVec 32) : Prop :=
  (∀ a, (k0_off72 v419) a + S1x19200.size a ≤ S4200x19200.size a)
instance k0_chk48.dec : ∀ (v419 : BitVec 32), Decidable (k0_chk48 v419) := fun v419 => decidable_of_iff' _ (Iff.of_eq (k0_chk48.eq_1 v419))
theorem k0_off72_inb : ∀ (v419 : BitVec 32) (k0_hw48 : k0_chk48 v419), ∀ a, (k0_off72 v419) a + S1x19200.size a ≤ S4200x19200.size a := fun v419 k0_hw48 => k0_hw48

def k0_off73 (i : grid0.Coords) : Fin 1 → Nat :=
  let arg0 : BitVec 32 := BitVec.ofNat 32 (i 0).val
  let c64_i32_215 : BitVec 32 := 64#32
  let v432 : BitVec 32 := Scalar.muli arg0 c64_i32_215
  let c24_i32 : BitVec 32 := 24#32
  let v433 : BitVec 32 := Scalar.addi v432 c24_i32
  let v434 : Index := Scalar.indexCast v433
  ![v434.toNat]
def k0_off74 (v435 : BitVec 32) : Fin 2 → Nat :=
  let c0_i32_219 : BitVec 32 := 0#32
  ![v435.toNat, 0]

def k0_chk49 (v435 : BitVec 32) : Prop :=
  (∀ a, (k0_off74 v435) a + S1x19200.size a ≤ S4200x19200.size a)
instance k0_chk49.dec : ∀ (v435 : BitVec 32), Decidable (k0_chk49 v435) := fun v435 => decidable_of_iff' _ (Iff.of_eq (k0_chk49.eq_1 v435))
theorem k0_off74_inb : ∀ (v435 : BitVec 32) (k0_hw49 : k0_chk49 v435), ∀ a, (k0_off74 v435) a + S1x19200.size a ≤ S4200x19200.size a := fun v435 k0_hw49 => k0_hw49

def k0_off75 (v437 : BitVec 32) : Fin 2 → Nat :=
  let c0_i32_223 : BitVec 32 := 0#32
  ![v437.toNat, 0]

def k0_chk50 (v437 : BitVec 32) : Prop :=
  (∀ a, (k0_off75 v437) a + S1x19200.size a ≤ S4200x19200.size a)
instance k0_chk50.dec : ∀ (v437 : BitVec 32), Decidable (k0_chk50 v437) := fun v437 => decidable_of_iff' _ (Iff.of_eq (k0_chk50.eq_1 v437))
theorem k0_off75_inb : ∀ (v437 : BitVec 32) (k0_hw50 : k0_chk50 v437), ∀ a, (k0_off75 v437) a + S1x19200.size a ≤ S4200x19200.size a := fun v437 k0_hw50 => k0_hw50

def k0_off76 (i : grid0.Coords) : Fin 1 → Nat :=
  let arg0 : BitVec 32 := BitVec.ofNat 32 (i 0).val
  let c64_i32_224 : BitVec 32 := 64#32
  let v450 : BitVec 32 := Scalar.muli arg0 c64_i32_224
  let c25_i32 : BitVec 32 := 25#32
  let v451 : BitVec 32 := Scalar.addi v450 c25_i32
  let v452 : Index := Scalar.indexCast v451
  ![v452.toNat]
def k0_off77 (v453 : BitVec 32) : Fin 2 → Nat :=
  let c0_i32_228 : BitVec 32 := 0#32
  ![v453.toNat, 0]

def k0_chk51 (v453 : BitVec 32) : Prop :=
  (∀ a, (k0_off77 v453) a + S1x19200.size a ≤ S4200x19200.size a)
instance k0_chk51.dec : ∀ (v453 : BitVec 32), Decidable (k0_chk51 v453) := fun v453 => decidable_of_iff' _ (Iff.of_eq (k0_chk51.eq_1 v453))
theorem k0_off77_inb : ∀ (v453 : BitVec 32) (k0_hw51 : k0_chk51 v453), ∀ a, (k0_off77 v453) a + S1x19200.size a ≤ S4200x19200.size a := fun v453 k0_hw51 => k0_hw51

def k0_off78 (v455 : BitVec 32) : Fin 2 → Nat :=
  let c0_i32_232 : BitVec 32 := 0#32
  ![v455.toNat, 0]

def k0_chk52 (v455 : BitVec 32) : Prop :=
  (∀ a, (k0_off78 v455) a + S1x19200.size a ≤ S4200x19200.size a)
instance k0_chk52.dec : ∀ (v455 : BitVec 32), Decidable (k0_chk52 v455) := fun v455 => decidable_of_iff' _ (Iff.of_eq (k0_chk52.eq_1 v455))
theorem k0_off78_inb : ∀ (v455 : BitVec 32) (k0_hw52 : k0_chk52 v455), ∀ a, (k0_off78 v455) a + S1x19200.size a ≤ S4200x19200.size a := fun v455 k0_hw52 => k0_hw52

def k0_off79 (i : grid0.Coords) : Fin 1 → Nat :=
  let arg0 : BitVec 32 := BitVec.ofNat 32 (i 0).val
  let c64_i32_233 : BitVec 32 := 64#32
  let v468 : BitVec 32 := Scalar.muli arg0 c64_i32_233
  let c26_i32 : BitVec 32 := 26#32
  let v469 : BitVec 32 := Scalar.addi v468 c26_i32
  let v470 : Index := Scalar.indexCast v469
  ![v470.toNat]
def k0_off80 (v471 : BitVec 32) : Fin 2 → Nat :=
  let c0_i32_237 : BitVec 32 := 0#32
  ![v471.toNat, 0]

def k0_chk53 (v471 : BitVec 32) : Prop :=
  (∀ a, (k0_off80 v471) a + S1x19200.size a ≤ S4200x19200.size a)
instance k0_chk53.dec : ∀ (v471 : BitVec 32), Decidable (k0_chk53 v471) := fun v471 => decidable_of_iff' _ (Iff.of_eq (k0_chk53.eq_1 v471))
theorem k0_off80_inb : ∀ (v471 : BitVec 32) (k0_hw53 : k0_chk53 v471), ∀ a, (k0_off80 v471) a + S1x19200.size a ≤ S4200x19200.size a := fun v471 k0_hw53 => k0_hw53

def k0_off81 (v473 : BitVec 32) : Fin 2 → Nat :=
  let c0_i32_241 : BitVec 32 := 0#32
  ![v473.toNat, 0]

def k0_chk54 (v473 : BitVec 32) : Prop :=
  (∀ a, (k0_off81 v473) a + S1x19200.size a ≤ S4200x19200.size a)
instance k0_chk54.dec : ∀ (v473 : BitVec 32), Decidable (k0_chk54 v473) := fun v473 => decidable_of_iff' _ (Iff.of_eq (k0_chk54.eq_1 v473))
theorem k0_off81_inb : ∀ (v473 : BitVec 32) (k0_hw54 : k0_chk54 v473), ∀ a, (k0_off81 v473) a + S1x19200.size a ≤ S4200x19200.size a := fun v473 k0_hw54 => k0_hw54

def k0_off82 (i : grid0.Coords) : Fin 1 → Nat :=
  let arg0 : BitVec 32 := BitVec.ofNat 32 (i 0).val
  let c64_i32_242 : BitVec 32 := 64#32
  let v486 : BitVec 32 := Scalar.muli arg0 c64_i32_242
  let c27_i32 : BitVec 32 := 27#32
  let v487 : BitVec 32 := Scalar.addi v486 c27_i32
  let v488 : Index := Scalar.indexCast v487
  ![v488.toNat]
def k0_off83 (v489 : BitVec 32) : Fin 2 → Nat :=
  let c0_i32_246 : BitVec 32 := 0#32
  ![v489.toNat, 0]

def k0_chk55 (v489 : BitVec 32) : Prop :=
  (∀ a, (k0_off83 v489) a + S1x19200.size a ≤ S4200x19200.size a)
instance k0_chk55.dec : ∀ (v489 : BitVec 32), Decidable (k0_chk55 v489) := fun v489 => decidable_of_iff' _ (Iff.of_eq (k0_chk55.eq_1 v489))
theorem k0_off83_inb : ∀ (v489 : BitVec 32) (k0_hw55 : k0_chk55 v489), ∀ a, (k0_off83 v489) a + S1x19200.size a ≤ S4200x19200.size a := fun v489 k0_hw55 => k0_hw55

def k0_off84 (v491 : BitVec 32) : Fin 2 → Nat :=
  let c0_i32_250 : BitVec 32 := 0#32
  ![v491.toNat, 0]

def k0_chk56 (v491 : BitVec 32) : Prop :=
  (∀ a, (k0_off84 v491) a + S1x19200.size a ≤ S4200x19200.size a)
instance k0_chk56.dec : ∀ (v491 : BitVec 32), Decidable (k0_chk56 v491) := fun v491 => decidable_of_iff' _ (Iff.of_eq (k0_chk56.eq_1 v491))
theorem k0_off84_inb : ∀ (v491 : BitVec 32) (k0_hw56 : k0_chk56 v491), ∀ a, (k0_off84 v491) a + S1x19200.size a ≤ S4200x19200.size a := fun v491 k0_hw56 => k0_hw56

def k0_off85 (i : grid0.Coords) : Fin 1 → Nat :=
  let arg0 : BitVec 32 := BitVec.ofNat 32 (i 0).val
  let c64_i32_251 : BitVec 32 := 64#32
  let v504 : BitVec 32 := Scalar.muli arg0 c64_i32_251
  let c28_i32 : BitVec 32 := 28#32
  let v505 : BitVec 32 := Scalar.addi v504 c28_i32
  let v506 : Index := Scalar.indexCast v505
  ![v506.toNat]
def k0_off86 (v507 : BitVec 32) : Fin 2 → Nat :=
  let c0_i32_255 : BitVec 32 := 0#32
  ![v507.toNat, 0]

def k0_chk57 (v507 : BitVec 32) : Prop :=
  (∀ a, (k0_off86 v507) a + S1x19200.size a ≤ S4200x19200.size a)
instance k0_chk57.dec : ∀ (v507 : BitVec 32), Decidable (k0_chk57 v507) := fun v507 => decidable_of_iff' _ (Iff.of_eq (k0_chk57.eq_1 v507))
theorem k0_off86_inb : ∀ (v507 : BitVec 32) (k0_hw57 : k0_chk57 v507), ∀ a, (k0_off86 v507) a + S1x19200.size a ≤ S4200x19200.size a := fun v507 k0_hw57 => k0_hw57

def k0_off87 (v509 : BitVec 32) : Fin 2 → Nat :=
  let c0_i32_259 : BitVec 32 := 0#32
  ![v509.toNat, 0]

def k0_chk58 (v509 : BitVec 32) : Prop :=
  (∀ a, (k0_off87 v509) a + S1x19200.size a ≤ S4200x19200.size a)
instance k0_chk58.dec : ∀ (v509 : BitVec 32), Decidable (k0_chk58 v509) := fun v509 => decidable_of_iff' _ (Iff.of_eq (k0_chk58.eq_1 v509))
theorem k0_off87_inb : ∀ (v509 : BitVec 32) (k0_hw58 : k0_chk58 v509), ∀ a, (k0_off87 v509) a + S1x19200.size a ≤ S4200x19200.size a := fun v509 k0_hw58 => k0_hw58

def k0_off88 (i : grid0.Coords) : Fin 1 → Nat :=
  let arg0 : BitVec 32 := BitVec.ofNat 32 (i 0).val
  let c64_i32_260 : BitVec 32 := 64#32
  let v522 : BitVec 32 := Scalar.muli arg0 c64_i32_260
  let c29_i32 : BitVec 32 := 29#32
  let v523 : BitVec 32 := Scalar.addi v522 c29_i32
  let v524 : Index := Scalar.indexCast v523
  ![v524.toNat]
def k0_off89 (v525 : BitVec 32) : Fin 2 → Nat :=
  let c0_i32_264 : BitVec 32 := 0#32
  ![v525.toNat, 0]

def k0_chk59 (v525 : BitVec 32) : Prop :=
  (∀ a, (k0_off89 v525) a + S1x19200.size a ≤ S4200x19200.size a)
instance k0_chk59.dec : ∀ (v525 : BitVec 32), Decidable (k0_chk59 v525) := fun v525 => decidable_of_iff' _ (Iff.of_eq (k0_chk59.eq_1 v525))
theorem k0_off89_inb : ∀ (v525 : BitVec 32) (k0_hw59 : k0_chk59 v525), ∀ a, (k0_off89 v525) a + S1x19200.size a ≤ S4200x19200.size a := fun v525 k0_hw59 => k0_hw59

def k0_off90 (v527 : BitVec 32) : Fin 2 → Nat :=
  let c0_i32_268 : BitVec 32 := 0#32
  ![v527.toNat, 0]

def k0_chk60 (v527 : BitVec 32) : Prop :=
  (∀ a, (k0_off90 v527) a + S1x19200.size a ≤ S4200x19200.size a)
instance k0_chk60.dec : ∀ (v527 : BitVec 32), Decidable (k0_chk60 v527) := fun v527 => decidable_of_iff' _ (Iff.of_eq (k0_chk60.eq_1 v527))
theorem k0_off90_inb : ∀ (v527 : BitVec 32) (k0_hw60 : k0_chk60 v527), ∀ a, (k0_off90 v527) a + S1x19200.size a ≤ S4200x19200.size a := fun v527 k0_hw60 => k0_hw60

def k0_off91 (i : grid0.Coords) : Fin 1 → Nat :=
  let arg0 : BitVec 32 := BitVec.ofNat 32 (i 0).val
  let c64_i32_269 : BitVec 32 := 64#32
  let v540 : BitVec 32 := Scalar.muli arg0 c64_i32_269
  let c30_i32 : BitVec 32 := 30#32
  let v541 : BitVec 32 := Scalar.addi v540 c30_i32
  let v542 : Index := Scalar.indexCast v541
  ![v542.toNat]
def k0_off92 (v543 : BitVec 32) : Fin 2 → Nat :=
  let c0_i32_273 : BitVec 32 := 0#32
  ![v543.toNat, 0]

def k0_chk61 (v543 : BitVec 32) : Prop :=
  (∀ a, (k0_off92 v543) a + S1x19200.size a ≤ S4200x19200.size a)
instance k0_chk61.dec : ∀ (v543 : BitVec 32), Decidable (k0_chk61 v543) := fun v543 => decidable_of_iff' _ (Iff.of_eq (k0_chk61.eq_1 v543))
theorem k0_off92_inb : ∀ (v543 : BitVec 32) (k0_hw61 : k0_chk61 v543), ∀ a, (k0_off92 v543) a + S1x19200.size a ≤ S4200x19200.size a := fun v543 k0_hw61 => k0_hw61

def k0_off93 (v545 : BitVec 32) : Fin 2 → Nat :=
  let c0_i32_277 : BitVec 32 := 0#32
  ![v545.toNat, 0]

def k0_chk62 (v545 : BitVec 32) : Prop :=
  (∀ a, (k0_off93 v545) a + S1x19200.size a ≤ S4200x19200.size a)
instance k0_chk62.dec : ∀ (v545 : BitVec 32), Decidable (k0_chk62 v545) := fun v545 => decidable_of_iff' _ (Iff.of_eq (k0_chk62.eq_1 v545))
theorem k0_off93_inb : ∀ (v545 : BitVec 32) (k0_hw62 : k0_chk62 v545), ∀ a, (k0_off93 v545) a + S1x19200.size a ≤ S4200x19200.size a := fun v545 k0_hw62 => k0_hw62

def k0_off94 (i : grid0.Coords) : Fin 1 → Nat :=
  let arg0 : BitVec 32 := BitVec.ofNat 32 (i 0).val
  let c64_i32_278 : BitVec 32 := 64#32
  let v558 : BitVec 32 := Scalar.muli arg0 c64_i32_278
  let c31_i32 : BitVec 32 := 31#32
  let v559 : BitVec 32 := Scalar.addi v558 c31_i32
  let v560 : Index := Scalar.indexCast v559
  ![v560.toNat]
def k0_off95 (v561 : BitVec 32) : Fin 2 → Nat :=
  let c0_i32_282 : BitVec 32 := 0#32
  ![v561.toNat, 0]

def k0_chk63 (v561 : BitVec 32) : Prop :=
  (∀ a, (k0_off95 v561) a + S1x19200.size a ≤ S4200x19200.size a)
instance k0_chk63.dec : ∀ (v561 : BitVec 32), Decidable (k0_chk63 v561) := fun v561 => decidable_of_iff' _ (Iff.of_eq (k0_chk63.eq_1 v561))
theorem k0_off95_inb : ∀ (v561 : BitVec 32) (k0_hw63 : k0_chk63 v561), ∀ a, (k0_off95 v561) a + S1x19200.size a ≤ S4200x19200.size a := fun v561 k0_hw63 => k0_hw63

def k0_off96 (v563 : BitVec 32) : Fin 2 → Nat :=
  let c0_i32_286 : BitVec 32 := 0#32
  ![v563.toNat, 0]

def k0_chk64 (v563 : BitVec 32) : Prop :=
  (∀ a, (k0_off96 v563) a + S1x19200.size a ≤ S4200x19200.size a)
instance k0_chk64.dec : ∀ (v563 : BitVec 32), Decidable (k0_chk64 v563) := fun v563 => decidable_of_iff' _ (Iff.of_eq (k0_chk64.eq_1 v563))
theorem k0_off96_inb : ∀ (v563 : BitVec 32) (k0_hw64 : k0_chk64 v563), ∀ a, (k0_off96 v563) a + S1x19200.size a ≤ S4200x19200.size a := fun v563 k0_hw64 => k0_hw64

def k0_off97 (i : grid0.Coords) : Fin 1 → Nat :=
  let arg0 : BitVec 32 := BitVec.ofNat 32 (i 0).val
  let c64_i32_287 : BitVec 32 := 64#32
  let v576 : BitVec 32 := Scalar.muli arg0 c64_i32_287
  let c32_i32 : BitVec 32 := 32#32
  let v577 : BitVec 32 := Scalar.addi v576 c32_i32
  let v578 : Index := Scalar.indexCast v577
  ![v578.toNat]
def k0_off98 (v579 : BitVec 32) : Fin 2 → Nat :=
  let c0_i32_291 : BitVec 32 := 0#32
  ![v579.toNat, 0]

def k0_chk65 (v579 : BitVec 32) : Prop :=
  (∀ a, (k0_off98 v579) a + S1x19200.size a ≤ S4200x19200.size a)
instance k0_chk65.dec : ∀ (v579 : BitVec 32), Decidable (k0_chk65 v579) := fun v579 => decidable_of_iff' _ (Iff.of_eq (k0_chk65.eq_1 v579))
theorem k0_off98_inb : ∀ (v579 : BitVec 32) (k0_hw65 : k0_chk65 v579), ∀ a, (k0_off98 v579) a + S1x19200.size a ≤ S4200x19200.size a := fun v579 k0_hw65 => k0_hw65

def k0_off99 (v581 : BitVec 32) : Fin 2 → Nat :=
  let c0_i32_295 : BitVec 32 := 0#32
  ![v581.toNat, 0]

def k0_chk66 (v581 : BitVec 32) : Prop :=
  (∀ a, (k0_off99 v581) a + S1x19200.size a ≤ S4200x19200.size a)
instance k0_chk66.dec : ∀ (v581 : BitVec 32), Decidable (k0_chk66 v581) := fun v581 => decidable_of_iff' _ (Iff.of_eq (k0_chk66.eq_1 v581))
theorem k0_off99_inb : ∀ (v581 : BitVec 32) (k0_hw66 : k0_chk66 v581), ∀ a, (k0_off99 v581) a + S1x19200.size a ≤ S4200x19200.size a := fun v581 k0_hw66 => k0_hw66

def k0_off100 (i : grid0.Coords) : Fin 1 → Nat :=
  let arg0 : BitVec 32 := BitVec.ofNat 32 (i 0).val
  let c64_i32_296 : BitVec 32 := 64#32
  let v594 : BitVec 32 := Scalar.muli arg0 c64_i32_296
  let c33_i32 : BitVec 32 := 33#32
  let v595 : BitVec 32 := Scalar.addi v594 c33_i32
  let v596 : Index := Scalar.indexCast v595
  ![v596.toNat]
def k0_off101 (v597 : BitVec 32) : Fin 2 → Nat :=
  let c0_i32_300 : BitVec 32 := 0#32
  ![v597.toNat, 0]

def k0_chk67 (v597 : BitVec 32) : Prop :=
  (∀ a, (k0_off101 v597) a + S1x19200.size a ≤ S4200x19200.size a)
instance k0_chk67.dec : ∀ (v597 : BitVec 32), Decidable (k0_chk67 v597) := fun v597 => decidable_of_iff' _ (Iff.of_eq (k0_chk67.eq_1 v597))
theorem k0_off101_inb : ∀ (v597 : BitVec 32) (k0_hw67 : k0_chk67 v597), ∀ a, (k0_off101 v597) a + S1x19200.size a ≤ S4200x19200.size a := fun v597 k0_hw67 => k0_hw67

def k0_off102 (v599 : BitVec 32) : Fin 2 → Nat :=
  let c0_i32_304 : BitVec 32 := 0#32
  ![v599.toNat, 0]

def k0_chk68 (v599 : BitVec 32) : Prop :=
  (∀ a, (k0_off102 v599) a + S1x19200.size a ≤ S4200x19200.size a)
instance k0_chk68.dec : ∀ (v599 : BitVec 32), Decidable (k0_chk68 v599) := fun v599 => decidable_of_iff' _ (Iff.of_eq (k0_chk68.eq_1 v599))
theorem k0_off102_inb : ∀ (v599 : BitVec 32) (k0_hw68 : k0_chk68 v599), ∀ a, (k0_off102 v599) a + S1x19200.size a ≤ S4200x19200.size a := fun v599 k0_hw68 => k0_hw68

def k0_off103 (i : grid0.Coords) : Fin 1 → Nat :=
  let arg0 : BitVec 32 := BitVec.ofNat 32 (i 0).val
  let c64_i32_305 : BitVec 32 := 64#32
  let v612 : BitVec 32 := Scalar.muli arg0 c64_i32_305
  let c34_i32 : BitVec 32 := 34#32
  let v613 : BitVec 32 := Scalar.addi v612 c34_i32
  let v614 : Index := Scalar.indexCast v613
  ![v614.toNat]
def k0_off104 (v615 : BitVec 32) : Fin 2 → Nat :=
  let c0_i32_309 : BitVec 32 := 0#32
  ![v615.toNat, 0]

def k0_chk69 (v615 : BitVec 32) : Prop :=
  (∀ a, (k0_off104 v615) a + S1x19200.size a ≤ S4200x19200.size a)
instance k0_chk69.dec : ∀ (v615 : BitVec 32), Decidable (k0_chk69 v615) := fun v615 => decidable_of_iff' _ (Iff.of_eq (k0_chk69.eq_1 v615))
theorem k0_off104_inb : ∀ (v615 : BitVec 32) (k0_hw69 : k0_chk69 v615), ∀ a, (k0_off104 v615) a + S1x19200.size a ≤ S4200x19200.size a := fun v615 k0_hw69 => k0_hw69

def k0_off105 (v617 : BitVec 32) : Fin 2 → Nat :=
  let c0_i32_313 : BitVec 32 := 0#32
  ![v617.toNat, 0]

def k0_chk70 (v617 : BitVec 32) : Prop :=
  (∀ a, (k0_off105 v617) a + S1x19200.size a ≤ S4200x19200.size a)
instance k0_chk70.dec : ∀ (v617 : BitVec 32), Decidable (k0_chk70 v617) := fun v617 => decidable_of_iff' _ (Iff.of_eq (k0_chk70.eq_1 v617))
theorem k0_off105_inb : ∀ (v617 : BitVec 32) (k0_hw70 : k0_chk70 v617), ∀ a, (k0_off105 v617) a + S1x19200.size a ≤ S4200x19200.size a := fun v617 k0_hw70 => k0_hw70

def k0_off106 (i : grid0.Coords) : Fin 1 → Nat :=
  let arg0 : BitVec 32 := BitVec.ofNat 32 (i 0).val
  let c64_i32_314 : BitVec 32 := 64#32
  let v630 : BitVec 32 := Scalar.muli arg0 c64_i32_314
  let c35_i32 : BitVec 32 := 35#32
  let v631 : BitVec 32 := Scalar.addi v630 c35_i32
  let v632 : Index := Scalar.indexCast v631
  ![v632.toNat]
def k0_off107 (v633 : BitVec 32) : Fin 2 → Nat :=
  let c0_i32_318 : BitVec 32 := 0#32
  ![v633.toNat, 0]

def k0_chk71 (v633 : BitVec 32) : Prop :=
  (∀ a, (k0_off107 v633) a + S1x19200.size a ≤ S4200x19200.size a)
instance k0_chk71.dec : ∀ (v633 : BitVec 32), Decidable (k0_chk71 v633) := fun v633 => decidable_of_iff' _ (Iff.of_eq (k0_chk71.eq_1 v633))
theorem k0_off107_inb : ∀ (v633 : BitVec 32) (k0_hw71 : k0_chk71 v633), ∀ a, (k0_off107 v633) a + S1x19200.size a ≤ S4200x19200.size a := fun v633 k0_hw71 => k0_hw71

def k0_off108 (v635 : BitVec 32) : Fin 2 → Nat :=
  let c0_i32_322 : BitVec 32 := 0#32
  ![v635.toNat, 0]

def k0_chk72 (v635 : BitVec 32) : Prop :=
  (∀ a, (k0_off108 v635) a + S1x19200.size a ≤ S4200x19200.size a)
instance k0_chk72.dec : ∀ (v635 : BitVec 32), Decidable (k0_chk72 v635) := fun v635 => decidable_of_iff' _ (Iff.of_eq (k0_chk72.eq_1 v635))
theorem k0_off108_inb : ∀ (v635 : BitVec 32) (k0_hw72 : k0_chk72 v635), ∀ a, (k0_off108 v635) a + S1x19200.size a ≤ S4200x19200.size a := fun v635 k0_hw72 => k0_hw72

def k0_off109 (i : grid0.Coords) : Fin 1 → Nat :=
  let arg0 : BitVec 32 := BitVec.ofNat 32 (i 0).val
  let c64_i32_323 : BitVec 32 := 64#32
  let v648 : BitVec 32 := Scalar.muli arg0 c64_i32_323
  let c36_i32 : BitVec 32 := 36#32
  let v649 : BitVec 32 := Scalar.addi v648 c36_i32
  let v650 : Index := Scalar.indexCast v649
  ![v650.toNat]
def k0_off110 (v651 : BitVec 32) : Fin 2 → Nat :=
  let c0_i32_327 : BitVec 32 := 0#32
  ![v651.toNat, 0]

def k0_chk73 (v651 : BitVec 32) : Prop :=
  (∀ a, (k0_off110 v651) a + S1x19200.size a ≤ S4200x19200.size a)
instance k0_chk73.dec : ∀ (v651 : BitVec 32), Decidable (k0_chk73 v651) := fun v651 => decidable_of_iff' _ (Iff.of_eq (k0_chk73.eq_1 v651))
theorem k0_off110_inb : ∀ (v651 : BitVec 32) (k0_hw73 : k0_chk73 v651), ∀ a, (k0_off110 v651) a + S1x19200.size a ≤ S4200x19200.size a := fun v651 k0_hw73 => k0_hw73

def k0_off111 (v653 : BitVec 32) : Fin 2 → Nat :=
  let c0_i32_331 : BitVec 32 := 0#32
  ![v653.toNat, 0]

def k0_chk74 (v653 : BitVec 32) : Prop :=
  (∀ a, (k0_off111 v653) a + S1x19200.size a ≤ S4200x19200.size a)
instance k0_chk74.dec : ∀ (v653 : BitVec 32), Decidable (k0_chk74 v653) := fun v653 => decidable_of_iff' _ (Iff.of_eq (k0_chk74.eq_1 v653))
theorem k0_off111_inb : ∀ (v653 : BitVec 32) (k0_hw74 : k0_chk74 v653), ∀ a, (k0_off111 v653) a + S1x19200.size a ≤ S4200x19200.size a := fun v653 k0_hw74 => k0_hw74

def k0_off112 (i : grid0.Coords) : Fin 1 → Nat :=
  let arg0 : BitVec 32 := BitVec.ofNat 32 (i 0).val
  let c64_i32_332 : BitVec 32 := 64#32
  let v666 : BitVec 32 := Scalar.muli arg0 c64_i32_332
  let c37_i32 : BitVec 32 := 37#32
  let v667 : BitVec 32 := Scalar.addi v666 c37_i32
  let v668 : Index := Scalar.indexCast v667
  ![v668.toNat]
def k0_off113 (v669 : BitVec 32) : Fin 2 → Nat :=
  let c0_i32_336 : BitVec 32 := 0#32
  ![v669.toNat, 0]

def k0_chk75 (v669 : BitVec 32) : Prop :=
  (∀ a, (k0_off113 v669) a + S1x19200.size a ≤ S4200x19200.size a)
instance k0_chk75.dec : ∀ (v669 : BitVec 32), Decidable (k0_chk75 v669) := fun v669 => decidable_of_iff' _ (Iff.of_eq (k0_chk75.eq_1 v669))
theorem k0_off113_inb : ∀ (v669 : BitVec 32) (k0_hw75 : k0_chk75 v669), ∀ a, (k0_off113 v669) a + S1x19200.size a ≤ S4200x19200.size a := fun v669 k0_hw75 => k0_hw75

def k0_off114 (v671 : BitVec 32) : Fin 2 → Nat :=
  let c0_i32_340 : BitVec 32 := 0#32
  ![v671.toNat, 0]

def k0_chk76 (v671 : BitVec 32) : Prop :=
  (∀ a, (k0_off114 v671) a + S1x19200.size a ≤ S4200x19200.size a)
instance k0_chk76.dec : ∀ (v671 : BitVec 32), Decidable (k0_chk76 v671) := fun v671 => decidable_of_iff' _ (Iff.of_eq (k0_chk76.eq_1 v671))
theorem k0_off114_inb : ∀ (v671 : BitVec 32) (k0_hw76 : k0_chk76 v671), ∀ a, (k0_off114 v671) a + S1x19200.size a ≤ S4200x19200.size a := fun v671 k0_hw76 => k0_hw76

def k0_off115 (i : grid0.Coords) : Fin 1 → Nat :=
  let arg0 : BitVec 32 := BitVec.ofNat 32 (i 0).val
  let c64_i32_341 : BitVec 32 := 64#32
  let v684 : BitVec 32 := Scalar.muli arg0 c64_i32_341
  let c38_i32 : BitVec 32 := 38#32
  let v685 : BitVec 32 := Scalar.addi v684 c38_i32
  let v686 : Index := Scalar.indexCast v685
  ![v686.toNat]
def k0_off116 (v687 : BitVec 32) : Fin 2 → Nat :=
  let c0_i32_345 : BitVec 32 := 0#32
  ![v687.toNat, 0]

def k0_chk77 (v687 : BitVec 32) : Prop :=
  (∀ a, (k0_off116 v687) a + S1x19200.size a ≤ S4200x19200.size a)
instance k0_chk77.dec : ∀ (v687 : BitVec 32), Decidable (k0_chk77 v687) := fun v687 => decidable_of_iff' _ (Iff.of_eq (k0_chk77.eq_1 v687))
theorem k0_off116_inb : ∀ (v687 : BitVec 32) (k0_hw77 : k0_chk77 v687), ∀ a, (k0_off116 v687) a + S1x19200.size a ≤ S4200x19200.size a := fun v687 k0_hw77 => k0_hw77

def k0_off117 (v689 : BitVec 32) : Fin 2 → Nat :=
  let c0_i32_349 : BitVec 32 := 0#32
  ![v689.toNat, 0]

def k0_chk78 (v689 : BitVec 32) : Prop :=
  (∀ a, (k0_off117 v689) a + S1x19200.size a ≤ S4200x19200.size a)
instance k0_chk78.dec : ∀ (v689 : BitVec 32), Decidable (k0_chk78 v689) := fun v689 => decidable_of_iff' _ (Iff.of_eq (k0_chk78.eq_1 v689))
theorem k0_off117_inb : ∀ (v689 : BitVec 32) (k0_hw78 : k0_chk78 v689), ∀ a, (k0_off117 v689) a + S1x19200.size a ≤ S4200x19200.size a := fun v689 k0_hw78 => k0_hw78

def k0_off118 (i : grid0.Coords) : Fin 1 → Nat :=
  let arg0 : BitVec 32 := BitVec.ofNat 32 (i 0).val
  let c64_i32_350 : BitVec 32 := 64#32
  let v702 : BitVec 32 := Scalar.muli arg0 c64_i32_350
  let c39_i32 : BitVec 32 := 39#32
  let v703 : BitVec 32 := Scalar.addi v702 c39_i32
  let v704 : Index := Scalar.indexCast v703
  ![v704.toNat]
def k0_off119 (v705 : BitVec 32) : Fin 2 → Nat :=
  let c0_i32_354 : BitVec 32 := 0#32
  ![v705.toNat, 0]

def k0_chk79 (v705 : BitVec 32) : Prop :=
  (∀ a, (k0_off119 v705) a + S1x19200.size a ≤ S4200x19200.size a)
instance k0_chk79.dec : ∀ (v705 : BitVec 32), Decidable (k0_chk79 v705) := fun v705 => decidable_of_iff' _ (Iff.of_eq (k0_chk79.eq_1 v705))
theorem k0_off119_inb : ∀ (v705 : BitVec 32) (k0_hw79 : k0_chk79 v705), ∀ a, (k0_off119 v705) a + S1x19200.size a ≤ S4200x19200.size a := fun v705 k0_hw79 => k0_hw79

def k0_off120 (v707 : BitVec 32) : Fin 2 → Nat :=
  let c0_i32_358 : BitVec 32 := 0#32
  ![v707.toNat, 0]

def k0_chk80 (v707 : BitVec 32) : Prop :=
  (∀ a, (k0_off120 v707) a + S1x19200.size a ≤ S4200x19200.size a)
instance k0_chk80.dec : ∀ (v707 : BitVec 32), Decidable (k0_chk80 v707) := fun v707 => decidable_of_iff' _ (Iff.of_eq (k0_chk80.eq_1 v707))
theorem k0_off120_inb : ∀ (v707 : BitVec 32) (k0_hw80 : k0_chk80 v707), ∀ a, (k0_off120 v707) a + S1x19200.size a ≤ S4200x19200.size a := fun v707 k0_hw80 => k0_hw80

def k0_off121 (i : grid0.Coords) : Fin 1 → Nat :=
  let arg0 : BitVec 32 := BitVec.ofNat 32 (i 0).val
  let c64_i32_359 : BitVec 32 := 64#32
  let v720 : BitVec 32 := Scalar.muli arg0 c64_i32_359
  let c40_i32 : BitVec 32 := 40#32
  let v721 : BitVec 32 := Scalar.addi v720 c40_i32
  let v722 : Index := Scalar.indexCast v721
  ![v722.toNat]
def k0_off122 (v723 : BitVec 32) : Fin 2 → Nat :=
  let c0_i32_363 : BitVec 32 := 0#32
  ![v723.toNat, 0]

def k0_chk81 (v723 : BitVec 32) : Prop :=
  (∀ a, (k0_off122 v723) a + S1x19200.size a ≤ S4200x19200.size a)
instance k0_chk81.dec : ∀ (v723 : BitVec 32), Decidable (k0_chk81 v723) := fun v723 => decidable_of_iff' _ (Iff.of_eq (k0_chk81.eq_1 v723))
theorem k0_off122_inb : ∀ (v723 : BitVec 32) (k0_hw81 : k0_chk81 v723), ∀ a, (k0_off122 v723) a + S1x19200.size a ≤ S4200x19200.size a := fun v723 k0_hw81 => k0_hw81

def k0_off123 (v725 : BitVec 32) : Fin 2 → Nat :=
  let c0_i32_367 : BitVec 32 := 0#32
  ![v725.toNat, 0]

def k0_chk82 (v725 : BitVec 32) : Prop :=
  (∀ a, (k0_off123 v725) a + S1x19200.size a ≤ S4200x19200.size a)
instance k0_chk82.dec : ∀ (v725 : BitVec 32), Decidable (k0_chk82 v725) := fun v725 => decidable_of_iff' _ (Iff.of_eq (k0_chk82.eq_1 v725))
theorem k0_off123_inb : ∀ (v725 : BitVec 32) (k0_hw82 : k0_chk82 v725), ∀ a, (k0_off123 v725) a + S1x19200.size a ≤ S4200x19200.size a := fun v725 k0_hw82 => k0_hw82

def k0_off124 (i : grid0.Coords) : Fin 1 → Nat :=
  let arg0 : BitVec 32 := BitVec.ofNat 32 (i 0).val
  let c64_i32_368 : BitVec 32 := 64#32
  let v738 : BitVec 32 := Scalar.muli arg0 c64_i32_368
  let c41_i32 : BitVec 32 := 41#32
  let v739 : BitVec 32 := Scalar.addi v738 c41_i32
  let v740 : Index := Scalar.indexCast v739
  ![v740.toNat]
def k0_off125 (v741 : BitVec 32) : Fin 2 → Nat :=
  let c0_i32_372 : BitVec 32 := 0#32
  ![v741.toNat, 0]

def k0_chk83 (v741 : BitVec 32) : Prop :=
  (∀ a, (k0_off125 v741) a + S1x19200.size a ≤ S4200x19200.size a)
instance k0_chk83.dec : ∀ (v741 : BitVec 32), Decidable (k0_chk83 v741) := fun v741 => decidable_of_iff' _ (Iff.of_eq (k0_chk83.eq_1 v741))
theorem k0_off125_inb : ∀ (v741 : BitVec 32) (k0_hw83 : k0_chk83 v741), ∀ a, (k0_off125 v741) a + S1x19200.size a ≤ S4200x19200.size a := fun v741 k0_hw83 => k0_hw83

def k0_off126 (v743 : BitVec 32) : Fin 2 → Nat :=
  let c0_i32_376 : BitVec 32 := 0#32
  ![v743.toNat, 0]

def k0_chk84 (v743 : BitVec 32) : Prop :=
  (∀ a, (k0_off126 v743) a + S1x19200.size a ≤ S4200x19200.size a)
instance k0_chk84.dec : ∀ (v743 : BitVec 32), Decidable (k0_chk84 v743) := fun v743 => decidable_of_iff' _ (Iff.of_eq (k0_chk84.eq_1 v743))
theorem k0_off126_inb : ∀ (v743 : BitVec 32) (k0_hw84 : k0_chk84 v743), ∀ a, (k0_off126 v743) a + S1x19200.size a ≤ S4200x19200.size a := fun v743 k0_hw84 => k0_hw84

def k0_off127 (i : grid0.Coords) : Fin 1 → Nat :=
  let arg0 : BitVec 32 := BitVec.ofNat 32 (i 0).val
  let c64_i32_377 : BitVec 32 := 64#32
  let v756 : BitVec 32 := Scalar.muli arg0 c64_i32_377
  let c42_i32 : BitVec 32 := 42#32
  let v757 : BitVec 32 := Scalar.addi v756 c42_i32
  let v758 : Index := Scalar.indexCast v757
  ![v758.toNat]
def k0_off128 (v759 : BitVec 32) : Fin 2 → Nat :=
  let c0_i32_381 : BitVec 32 := 0#32
  ![v759.toNat, 0]

def k0_chk85 (v759 : BitVec 32) : Prop :=
  (∀ a, (k0_off128 v759) a + S1x19200.size a ≤ S4200x19200.size a)
instance k0_chk85.dec : ∀ (v759 : BitVec 32), Decidable (k0_chk85 v759) := fun v759 => decidable_of_iff' _ (Iff.of_eq (k0_chk85.eq_1 v759))
theorem k0_off128_inb : ∀ (v759 : BitVec 32) (k0_hw85 : k0_chk85 v759), ∀ a, (k0_off128 v759) a + S1x19200.size a ≤ S4200x19200.size a := fun v759 k0_hw85 => k0_hw85

def k0_off129 (v761 : BitVec 32) : Fin 2 → Nat :=
  let c0_i32_385 : BitVec 32 := 0#32
  ![v761.toNat, 0]

def k0_chk86 (v761 : BitVec 32) : Prop :=
  (∀ a, (k0_off129 v761) a + S1x19200.size a ≤ S4200x19200.size a)
instance k0_chk86.dec : ∀ (v761 : BitVec 32), Decidable (k0_chk86 v761) := fun v761 => decidable_of_iff' _ (Iff.of_eq (k0_chk86.eq_1 v761))
theorem k0_off129_inb : ∀ (v761 : BitVec 32) (k0_hw86 : k0_chk86 v761), ∀ a, (k0_off129 v761) a + S1x19200.size a ≤ S4200x19200.size a := fun v761 k0_hw86 => k0_hw86

def k0_off130 (i : grid0.Coords) : Fin 1 → Nat :=
  let arg0 : BitVec 32 := BitVec.ofNat 32 (i 0).val
  let c64_i32_386 : BitVec 32 := 64#32
  let v774 : BitVec 32 := Scalar.muli arg0 c64_i32_386
  let c43_i32 : BitVec 32 := 43#32
  let v775 : BitVec 32 := Scalar.addi v774 c43_i32
  let v776 : Index := Scalar.indexCast v775
  ![v776.toNat]
def k0_off131 (v777 : BitVec 32) : Fin 2 → Nat :=
  let c0_i32_390 : BitVec 32 := 0#32
  ![v777.toNat, 0]

def k0_chk87 (v777 : BitVec 32) : Prop :=
  (∀ a, (k0_off131 v777) a + S1x19200.size a ≤ S4200x19200.size a)
instance k0_chk87.dec : ∀ (v777 : BitVec 32), Decidable (k0_chk87 v777) := fun v777 => decidable_of_iff' _ (Iff.of_eq (k0_chk87.eq_1 v777))
theorem k0_off131_inb : ∀ (v777 : BitVec 32) (k0_hw87 : k0_chk87 v777), ∀ a, (k0_off131 v777) a + S1x19200.size a ≤ S4200x19200.size a := fun v777 k0_hw87 => k0_hw87

def k0_off132 (v779 : BitVec 32) : Fin 2 → Nat :=
  let c0_i32_394 : BitVec 32 := 0#32
  ![v779.toNat, 0]

def k0_chk88 (v779 : BitVec 32) : Prop :=
  (∀ a, (k0_off132 v779) a + S1x19200.size a ≤ S4200x19200.size a)
instance k0_chk88.dec : ∀ (v779 : BitVec 32), Decidable (k0_chk88 v779) := fun v779 => decidable_of_iff' _ (Iff.of_eq (k0_chk88.eq_1 v779))
theorem k0_off132_inb : ∀ (v779 : BitVec 32) (k0_hw88 : k0_chk88 v779), ∀ a, (k0_off132 v779) a + S1x19200.size a ≤ S4200x19200.size a := fun v779 k0_hw88 => k0_hw88

def k0_off133 (i : grid0.Coords) : Fin 1 → Nat :=
  let arg0 : BitVec 32 := BitVec.ofNat 32 (i 0).val
  let c64_i32_395 : BitVec 32 := 64#32
  let v792 : BitVec 32 := Scalar.muli arg0 c64_i32_395
  let c44_i32 : BitVec 32 := 44#32
  let v793 : BitVec 32 := Scalar.addi v792 c44_i32
  let v794 : Index := Scalar.indexCast v793
  ![v794.toNat]
def k0_off134 (v795 : BitVec 32) : Fin 2 → Nat :=
  let c0_i32_399 : BitVec 32 := 0#32
  ![v795.toNat, 0]

def k0_chk89 (v795 : BitVec 32) : Prop :=
  (∀ a, (k0_off134 v795) a + S1x19200.size a ≤ S4200x19200.size a)
instance k0_chk89.dec : ∀ (v795 : BitVec 32), Decidable (k0_chk89 v795) := fun v795 => decidable_of_iff' _ (Iff.of_eq (k0_chk89.eq_1 v795))
theorem k0_off134_inb : ∀ (v795 : BitVec 32) (k0_hw89 : k0_chk89 v795), ∀ a, (k0_off134 v795) a + S1x19200.size a ≤ S4200x19200.size a := fun v795 k0_hw89 => k0_hw89

def k0_off135 (v797 : BitVec 32) : Fin 2 → Nat :=
  let c0_i32_403 : BitVec 32 := 0#32
  ![v797.toNat, 0]

def k0_chk90 (v797 : BitVec 32) : Prop :=
  (∀ a, (k0_off135 v797) a + S1x19200.size a ≤ S4200x19200.size a)
instance k0_chk90.dec : ∀ (v797 : BitVec 32), Decidable (k0_chk90 v797) := fun v797 => decidable_of_iff' _ (Iff.of_eq (k0_chk90.eq_1 v797))
theorem k0_off135_inb : ∀ (v797 : BitVec 32) (k0_hw90 : k0_chk90 v797), ∀ a, (k0_off135 v797) a + S1x19200.size a ≤ S4200x19200.size a := fun v797 k0_hw90 => k0_hw90

def k0_off136 (i : grid0.Coords) : Fin 1 → Nat :=
  let arg0 : BitVec 32 := BitVec.ofNat 32 (i 0).val
  let c64_i32_404 : BitVec 32 := 64#32
  let v810 : BitVec 32 := Scalar.muli arg0 c64_i32_404
  let c45_i32 : BitVec 32 := 45#32
  let v811 : BitVec 32 := Scalar.addi v810 c45_i32
  let v812 : Index := Scalar.indexCast v811
  ![v812.toNat]
def k0_off137 (v813 : BitVec 32) : Fin 2 → Nat :=
  let c0_i32_408 : BitVec 32 := 0#32
  ![v813.toNat, 0]

def k0_chk91 (v813 : BitVec 32) : Prop :=
  (∀ a, (k0_off137 v813) a + S1x19200.size a ≤ S4200x19200.size a)
instance k0_chk91.dec : ∀ (v813 : BitVec 32), Decidable (k0_chk91 v813) := fun v813 => decidable_of_iff' _ (Iff.of_eq (k0_chk91.eq_1 v813))
theorem k0_off137_inb : ∀ (v813 : BitVec 32) (k0_hw91 : k0_chk91 v813), ∀ a, (k0_off137 v813) a + S1x19200.size a ≤ S4200x19200.size a := fun v813 k0_hw91 => k0_hw91

def k0_off138 (v815 : BitVec 32) : Fin 2 → Nat :=
  let c0_i32_412 : BitVec 32 := 0#32
  ![v815.toNat, 0]

def k0_chk92 (v815 : BitVec 32) : Prop :=
  (∀ a, (k0_off138 v815) a + S1x19200.size a ≤ S4200x19200.size a)
instance k0_chk92.dec : ∀ (v815 : BitVec 32), Decidable (k0_chk92 v815) := fun v815 => decidable_of_iff' _ (Iff.of_eq (k0_chk92.eq_1 v815))
theorem k0_off138_inb : ∀ (v815 : BitVec 32) (k0_hw92 : k0_chk92 v815), ∀ a, (k0_off138 v815) a + S1x19200.size a ≤ S4200x19200.size a := fun v815 k0_hw92 => k0_hw92

def k0_off139 (i : grid0.Coords) : Fin 1 → Nat :=
  let arg0 : BitVec 32 := BitVec.ofNat 32 (i 0).val
  let c64_i32_413 : BitVec 32 := 64#32
  let v828 : BitVec 32 := Scalar.muli arg0 c64_i32_413
  let c46_i32 : BitVec 32 := 46#32
  let v829 : BitVec 32 := Scalar.addi v828 c46_i32
  let v830 : Index := Scalar.indexCast v829
  ![v830.toNat]
def k0_off140 (v831 : BitVec 32) : Fin 2 → Nat :=
  let c0_i32_417 : BitVec 32 := 0#32
  ![v831.toNat, 0]

def k0_chk93 (v831 : BitVec 32) : Prop :=
  (∀ a, (k0_off140 v831) a + S1x19200.size a ≤ S4200x19200.size a)
instance k0_chk93.dec : ∀ (v831 : BitVec 32), Decidable (k0_chk93 v831) := fun v831 => decidable_of_iff' _ (Iff.of_eq (k0_chk93.eq_1 v831))
theorem k0_off140_inb : ∀ (v831 : BitVec 32) (k0_hw93 : k0_chk93 v831), ∀ a, (k0_off140 v831) a + S1x19200.size a ≤ S4200x19200.size a := fun v831 k0_hw93 => k0_hw93

def k0_off141 (v833 : BitVec 32) : Fin 2 → Nat :=
  let c0_i32_421 : BitVec 32 := 0#32
  ![v833.toNat, 0]

def k0_chk94 (v833 : BitVec 32) : Prop :=
  (∀ a, (k0_off141 v833) a + S1x19200.size a ≤ S4200x19200.size a)
instance k0_chk94.dec : ∀ (v833 : BitVec 32), Decidable (k0_chk94 v833) := fun v833 => decidable_of_iff' _ (Iff.of_eq (k0_chk94.eq_1 v833))
theorem k0_off141_inb : ∀ (v833 : BitVec 32) (k0_hw94 : k0_chk94 v833), ∀ a, (k0_off141 v833) a + S1x19200.size a ≤ S4200x19200.size a := fun v833 k0_hw94 => k0_hw94

def k0_off142 (i : grid0.Coords) : Fin 1 → Nat :=
  let arg0 : BitVec 32 := BitVec.ofNat 32 (i 0).val
  let c64_i32_422 : BitVec 32 := 64#32
  let v846 : BitVec 32 := Scalar.muli arg0 c64_i32_422
  let c47_i32 : BitVec 32 := 47#32
  let v847 : BitVec 32 := Scalar.addi v846 c47_i32
  let v848 : Index := Scalar.indexCast v847
  ![v848.toNat]
def k0_off143 (v849 : BitVec 32) : Fin 2 → Nat :=
  let c0_i32_426 : BitVec 32 := 0#32
  ![v849.toNat, 0]

def k0_chk95 (v849 : BitVec 32) : Prop :=
  (∀ a, (k0_off143 v849) a + S1x19200.size a ≤ S4200x19200.size a)
instance k0_chk95.dec : ∀ (v849 : BitVec 32), Decidable (k0_chk95 v849) := fun v849 => decidable_of_iff' _ (Iff.of_eq (k0_chk95.eq_1 v849))
theorem k0_off143_inb : ∀ (v849 : BitVec 32) (k0_hw95 : k0_chk95 v849), ∀ a, (k0_off143 v849) a + S1x19200.size a ≤ S4200x19200.size a := fun v849 k0_hw95 => k0_hw95

def k0_off144 (v851 : BitVec 32) : Fin 2 → Nat :=
  let c0_i32_430 : BitVec 32 := 0#32
  ![v851.toNat, 0]

def k0_chk96 (v851 : BitVec 32) : Prop :=
  (∀ a, (k0_off144 v851) a + S1x19200.size a ≤ S4200x19200.size a)
instance k0_chk96.dec : ∀ (v851 : BitVec 32), Decidable (k0_chk96 v851) := fun v851 => decidable_of_iff' _ (Iff.of_eq (k0_chk96.eq_1 v851))
theorem k0_off144_inb : ∀ (v851 : BitVec 32) (k0_hw96 : k0_chk96 v851), ∀ a, (k0_off144 v851) a + S1x19200.size a ≤ S4200x19200.size a := fun v851 k0_hw96 => k0_hw96

def k0_off145 (i : grid0.Coords) : Fin 1 → Nat :=
  let arg0 : BitVec 32 := BitVec.ofNat 32 (i 0).val
  let c64_i32_431 : BitVec 32 := 64#32
  let v864 : BitVec 32 := Scalar.muli arg0 c64_i32_431
  let c48_i32 : BitVec 32 := 48#32
  let v865 : BitVec 32 := Scalar.addi v864 c48_i32
  let v866 : Index := Scalar.indexCast v865
  ![v866.toNat]
def k0_off146 (v867 : BitVec 32) : Fin 2 → Nat :=
  let c0_i32_435 : BitVec 32 := 0#32
  ![v867.toNat, 0]

def k0_chk97 (v867 : BitVec 32) : Prop :=
  (∀ a, (k0_off146 v867) a + S1x19200.size a ≤ S4200x19200.size a)
instance k0_chk97.dec : ∀ (v867 : BitVec 32), Decidable (k0_chk97 v867) := fun v867 => decidable_of_iff' _ (Iff.of_eq (k0_chk97.eq_1 v867))
theorem k0_off146_inb : ∀ (v867 : BitVec 32) (k0_hw97 : k0_chk97 v867), ∀ a, (k0_off146 v867) a + S1x19200.size a ≤ S4200x19200.size a := fun v867 k0_hw97 => k0_hw97

def k0_off147 (v869 : BitVec 32) : Fin 2 → Nat :=
  let c0_i32_439 : BitVec 32 := 0#32
  ![v869.toNat, 0]

def k0_chk98 (v869 : BitVec 32) : Prop :=
  (∀ a, (k0_off147 v869) a + S1x19200.size a ≤ S4200x19200.size a)
instance k0_chk98.dec : ∀ (v869 : BitVec 32), Decidable (k0_chk98 v869) := fun v869 => decidable_of_iff' _ (Iff.of_eq (k0_chk98.eq_1 v869))
theorem k0_off147_inb : ∀ (v869 : BitVec 32) (k0_hw98 : k0_chk98 v869), ∀ a, (k0_off147 v869) a + S1x19200.size a ≤ S4200x19200.size a := fun v869 k0_hw98 => k0_hw98

def k0_off148 (i : grid0.Coords) : Fin 1 → Nat :=
  let arg0 : BitVec 32 := BitVec.ofNat 32 (i 0).val
  let c64_i32_440 : BitVec 32 := 64#32
  let v882 : BitVec 32 := Scalar.muli arg0 c64_i32_440
  let c49_i32 : BitVec 32 := 49#32
  let v883 : BitVec 32 := Scalar.addi v882 c49_i32
  let v884 : Index := Scalar.indexCast v883
  ![v884.toNat]
def k0_off149 (v885 : BitVec 32) : Fin 2 → Nat :=
  let c0_i32_444 : BitVec 32 := 0#32
  ![v885.toNat, 0]

def k0_chk99 (v885 : BitVec 32) : Prop :=
  (∀ a, (k0_off149 v885) a + S1x19200.size a ≤ S4200x19200.size a)
instance k0_chk99.dec : ∀ (v885 : BitVec 32), Decidable (k0_chk99 v885) := fun v885 => decidable_of_iff' _ (Iff.of_eq (k0_chk99.eq_1 v885))
theorem k0_off149_inb : ∀ (v885 : BitVec 32) (k0_hw99 : k0_chk99 v885), ∀ a, (k0_off149 v885) a + S1x19200.size a ≤ S4200x19200.size a := fun v885 k0_hw99 => k0_hw99

def k0_off150 (v887 : BitVec 32) : Fin 2 → Nat :=
  let c0_i32_448 : BitVec 32 := 0#32
  ![v887.toNat, 0]

def k0_chk100 (v887 : BitVec 32) : Prop :=
  (∀ a, (k0_off150 v887) a + S1x19200.size a ≤ S4200x19200.size a)
instance k0_chk100.dec : ∀ (v887 : BitVec 32), Decidable (k0_chk100 v887) := fun v887 => decidable_of_iff' _ (Iff.of_eq (k0_chk100.eq_1 v887))
theorem k0_off150_inb : ∀ (v887 : BitVec 32) (k0_hw100 : k0_chk100 v887), ∀ a, (k0_off150 v887) a + S1x19200.size a ≤ S4200x19200.size a := fun v887 k0_hw100 => k0_hw100

def k0_off151 (i : grid0.Coords) : Fin 1 → Nat :=
  let arg0 : BitVec 32 := BitVec.ofNat 32 (i 0).val
  let c64_i32_449 : BitVec 32 := 64#32
  let v900 : BitVec 32 := Scalar.muli arg0 c64_i32_449
  let c50_i32 : BitVec 32 := 50#32
  let v901 : BitVec 32 := Scalar.addi v900 c50_i32
  let v902 : Index := Scalar.indexCast v901
  ![v902.toNat]
def k0_off152 (v903 : BitVec 32) : Fin 2 → Nat :=
  let c0_i32_453 : BitVec 32 := 0#32
  ![v903.toNat, 0]

def k0_chk101 (v903 : BitVec 32) : Prop :=
  (∀ a, (k0_off152 v903) a + S1x19200.size a ≤ S4200x19200.size a)
instance k0_chk101.dec : ∀ (v903 : BitVec 32), Decidable (k0_chk101 v903) := fun v903 => decidable_of_iff' _ (Iff.of_eq (k0_chk101.eq_1 v903))
theorem k0_off152_inb : ∀ (v903 : BitVec 32) (k0_hw101 : k0_chk101 v903), ∀ a, (k0_off152 v903) a + S1x19200.size a ≤ S4200x19200.size a := fun v903 k0_hw101 => k0_hw101

def k0_off153 (v905 : BitVec 32) : Fin 2 → Nat :=
  let c0_i32_457 : BitVec 32 := 0#32
  ![v905.toNat, 0]

def k0_chk102 (v905 : BitVec 32) : Prop :=
  (∀ a, (k0_off153 v905) a + S1x19200.size a ≤ S4200x19200.size a)
instance k0_chk102.dec : ∀ (v905 : BitVec 32), Decidable (k0_chk102 v905) := fun v905 => decidable_of_iff' _ (Iff.of_eq (k0_chk102.eq_1 v905))
theorem k0_off153_inb : ∀ (v905 : BitVec 32) (k0_hw102 : k0_chk102 v905), ∀ a, (k0_off153 v905) a + S1x19200.size a ≤ S4200x19200.size a := fun v905 k0_hw102 => k0_hw102

def k0_off154 (i : grid0.Coords) : Fin 1 → Nat :=
  let arg0 : BitVec 32 := BitVec.ofNat 32 (i 0).val
  let c64_i32_458 : BitVec 32 := 64#32
  let v918 : BitVec 32 := Scalar.muli arg0 c64_i32_458
  let c51_i32 : BitVec 32 := 51#32
  let v919 : BitVec 32 := Scalar.addi v918 c51_i32
  let v920 : Index := Scalar.indexCast v919
  ![v920.toNat]
def k0_off155 (v921 : BitVec 32) : Fin 2 → Nat :=
  let c0_i32_462 : BitVec 32 := 0#32
  ![v921.toNat, 0]

def k0_chk103 (v921 : BitVec 32) : Prop :=
  (∀ a, (k0_off155 v921) a + S1x19200.size a ≤ S4200x19200.size a)
instance k0_chk103.dec : ∀ (v921 : BitVec 32), Decidable (k0_chk103 v921) := fun v921 => decidable_of_iff' _ (Iff.of_eq (k0_chk103.eq_1 v921))
theorem k0_off155_inb : ∀ (v921 : BitVec 32) (k0_hw103 : k0_chk103 v921), ∀ a, (k0_off155 v921) a + S1x19200.size a ≤ S4200x19200.size a := fun v921 k0_hw103 => k0_hw103

def k0_off156 (v923 : BitVec 32) : Fin 2 → Nat :=
  let c0_i32_466 : BitVec 32 := 0#32
  ![v923.toNat, 0]

def k0_chk104 (v923 : BitVec 32) : Prop :=
  (∀ a, (k0_off156 v923) a + S1x19200.size a ≤ S4200x19200.size a)
instance k0_chk104.dec : ∀ (v923 : BitVec 32), Decidable (k0_chk104 v923) := fun v923 => decidable_of_iff' _ (Iff.of_eq (k0_chk104.eq_1 v923))
theorem k0_off156_inb : ∀ (v923 : BitVec 32) (k0_hw104 : k0_chk104 v923), ∀ a, (k0_off156 v923) a + S1x19200.size a ≤ S4200x19200.size a := fun v923 k0_hw104 => k0_hw104

def k0_off157 (i : grid0.Coords) : Fin 1 → Nat :=
  let arg0 : BitVec 32 := BitVec.ofNat 32 (i 0).val
  let c64_i32_467 : BitVec 32 := 64#32
  let v936 : BitVec 32 := Scalar.muli arg0 c64_i32_467
  let c52_i32 : BitVec 32 := 52#32
  let v937 : BitVec 32 := Scalar.addi v936 c52_i32
  let v938 : Index := Scalar.indexCast v937
  ![v938.toNat]
def k0_off158 (v939 : BitVec 32) : Fin 2 → Nat :=
  let c0_i32_471 : BitVec 32 := 0#32
  ![v939.toNat, 0]

def k0_chk105 (v939 : BitVec 32) : Prop :=
  (∀ a, (k0_off158 v939) a + S1x19200.size a ≤ S4200x19200.size a)
instance k0_chk105.dec : ∀ (v939 : BitVec 32), Decidable (k0_chk105 v939) := fun v939 => decidable_of_iff' _ (Iff.of_eq (k0_chk105.eq_1 v939))
theorem k0_off158_inb : ∀ (v939 : BitVec 32) (k0_hw105 : k0_chk105 v939), ∀ a, (k0_off158 v939) a + S1x19200.size a ≤ S4200x19200.size a := fun v939 k0_hw105 => k0_hw105

def k0_off159 (v941 : BitVec 32) : Fin 2 → Nat :=
  let c0_i32_475 : BitVec 32 := 0#32
  ![v941.toNat, 0]

def k0_chk106 (v941 : BitVec 32) : Prop :=
  (∀ a, (k0_off159 v941) a + S1x19200.size a ≤ S4200x19200.size a)
instance k0_chk106.dec : ∀ (v941 : BitVec 32), Decidable (k0_chk106 v941) := fun v941 => decidable_of_iff' _ (Iff.of_eq (k0_chk106.eq_1 v941))
theorem k0_off159_inb : ∀ (v941 : BitVec 32) (k0_hw106 : k0_chk106 v941), ∀ a, (k0_off159 v941) a + S1x19200.size a ≤ S4200x19200.size a := fun v941 k0_hw106 => k0_hw106

def k0_off160 (i : grid0.Coords) : Fin 1 → Nat :=
  let arg0 : BitVec 32 := BitVec.ofNat 32 (i 0).val
  let c64_i32_476 : BitVec 32 := 64#32
  let v954 : BitVec 32 := Scalar.muli arg0 c64_i32_476
  let c53_i32 : BitVec 32 := 53#32
  let v955 : BitVec 32 := Scalar.addi v954 c53_i32
  let v956 : Index := Scalar.indexCast v955
  ![v956.toNat]
def k0_off161 (v957 : BitVec 32) : Fin 2 → Nat :=
  let c0_i32_480 : BitVec 32 := 0#32
  ![v957.toNat, 0]

def k0_chk107 (v957 : BitVec 32) : Prop :=
  (∀ a, (k0_off161 v957) a + S1x19200.size a ≤ S4200x19200.size a)
instance k0_chk107.dec : ∀ (v957 : BitVec 32), Decidable (k0_chk107 v957) := fun v957 => decidable_of_iff' _ (Iff.of_eq (k0_chk107.eq_1 v957))
theorem k0_off161_inb : ∀ (v957 : BitVec 32) (k0_hw107 : k0_chk107 v957), ∀ a, (k0_off161 v957) a + S1x19200.size a ≤ S4200x19200.size a := fun v957 k0_hw107 => k0_hw107

def k0_off162 (v959 : BitVec 32) : Fin 2 → Nat :=
  let c0_i32_484 : BitVec 32 := 0#32
  ![v959.toNat, 0]

def k0_chk108 (v959 : BitVec 32) : Prop :=
  (∀ a, (k0_off162 v959) a + S1x19200.size a ≤ S4200x19200.size a)
instance k0_chk108.dec : ∀ (v959 : BitVec 32), Decidable (k0_chk108 v959) := fun v959 => decidable_of_iff' _ (Iff.of_eq (k0_chk108.eq_1 v959))
theorem k0_off162_inb : ∀ (v959 : BitVec 32) (k0_hw108 : k0_chk108 v959), ∀ a, (k0_off162 v959) a + S1x19200.size a ≤ S4200x19200.size a := fun v959 k0_hw108 => k0_hw108

def k0_off163 (i : grid0.Coords) : Fin 1 → Nat :=
  let arg0 : BitVec 32 := BitVec.ofNat 32 (i 0).val
  let c64_i32_485 : BitVec 32 := 64#32
  let v972 : BitVec 32 := Scalar.muli arg0 c64_i32_485
  let c54_i32 : BitVec 32 := 54#32
  let v973 : BitVec 32 := Scalar.addi v972 c54_i32
  let v974 : Index := Scalar.indexCast v973
  ![v974.toNat]
def k0_off164 (v975 : BitVec 32) : Fin 2 → Nat :=
  let c0_i32_489 : BitVec 32 := 0#32
  ![v975.toNat, 0]

def k0_chk109 (v975 : BitVec 32) : Prop :=
  (∀ a, (k0_off164 v975) a + S1x19200.size a ≤ S4200x19200.size a)
instance k0_chk109.dec : ∀ (v975 : BitVec 32), Decidable (k0_chk109 v975) := fun v975 => decidable_of_iff' _ (Iff.of_eq (k0_chk109.eq_1 v975))
theorem k0_off164_inb : ∀ (v975 : BitVec 32) (k0_hw109 : k0_chk109 v975), ∀ a, (k0_off164 v975) a + S1x19200.size a ≤ S4200x19200.size a := fun v975 k0_hw109 => k0_hw109

def k0_off165 (v977 : BitVec 32) : Fin 2 → Nat :=
  let c0_i32_493 : BitVec 32 := 0#32
  ![v977.toNat, 0]

def k0_chk110 (v977 : BitVec 32) : Prop :=
  (∀ a, (k0_off165 v977) a + S1x19200.size a ≤ S4200x19200.size a)
instance k0_chk110.dec : ∀ (v977 : BitVec 32), Decidable (k0_chk110 v977) := fun v977 => decidable_of_iff' _ (Iff.of_eq (k0_chk110.eq_1 v977))
theorem k0_off165_inb : ∀ (v977 : BitVec 32) (k0_hw110 : k0_chk110 v977), ∀ a, (k0_off165 v977) a + S1x19200.size a ≤ S4200x19200.size a := fun v977 k0_hw110 => k0_hw110

def k0_off166 (i : grid0.Coords) : Fin 1 → Nat :=
  let arg0 : BitVec 32 := BitVec.ofNat 32 (i 0).val
  let c64_i32_494 : BitVec 32 := 64#32
  let v990 : BitVec 32 := Scalar.muli arg0 c64_i32_494
  let c55_i32 : BitVec 32 := 55#32
  let v991 : BitVec 32 := Scalar.addi v990 c55_i32
  let v992 : Index := Scalar.indexCast v991
  ![v992.toNat]
def k0_off167 (v993 : BitVec 32) : Fin 2 → Nat :=
  let c0_i32_498 : BitVec 32 := 0#32
  ![v993.toNat, 0]

def k0_chk111 (v993 : BitVec 32) : Prop :=
  (∀ a, (k0_off167 v993) a + S1x19200.size a ≤ S4200x19200.size a)
instance k0_chk111.dec : ∀ (v993 : BitVec 32), Decidable (k0_chk111 v993) := fun v993 => decidable_of_iff' _ (Iff.of_eq (k0_chk111.eq_1 v993))
theorem k0_off167_inb : ∀ (v993 : BitVec 32) (k0_hw111 : k0_chk111 v993), ∀ a, (k0_off167 v993) a + S1x19200.size a ≤ S4200x19200.size a := fun v993 k0_hw111 => k0_hw111

def k0_off168 (v995 : BitVec 32) : Fin 2 → Nat :=
  let c0_i32_502 : BitVec 32 := 0#32
  ![v995.toNat, 0]

def k0_chk112 (v995 : BitVec 32) : Prop :=
  (∀ a, (k0_off168 v995) a + S1x19200.size a ≤ S4200x19200.size a)
instance k0_chk112.dec : ∀ (v995 : BitVec 32), Decidable (k0_chk112 v995) := fun v995 => decidable_of_iff' _ (Iff.of_eq (k0_chk112.eq_1 v995))
theorem k0_off168_inb : ∀ (v995 : BitVec 32) (k0_hw112 : k0_chk112 v995), ∀ a, (k0_off168 v995) a + S1x19200.size a ≤ S4200x19200.size a := fun v995 k0_hw112 => k0_hw112

def k0_off169 (i : grid0.Coords) : Fin 1 → Nat :=
  let arg0 : BitVec 32 := BitVec.ofNat 32 (i 0).val
  let c64_i32_503 : BitVec 32 := 64#32
  let v1008 : BitVec 32 := Scalar.muli arg0 c64_i32_503
  let c56_i32 : BitVec 32 := 56#32
  let v1009 : BitVec 32 := Scalar.addi v1008 c56_i32
  let v1010 : Index := Scalar.indexCast v1009
  ![v1010.toNat]
def k0_off170 (v1011 : BitVec 32) : Fin 2 → Nat :=
  let c0_i32_507 : BitVec 32 := 0#32
  ![v1011.toNat, 0]

def k0_chk113 (v1011 : BitVec 32) : Prop :=
  (∀ a, (k0_off170 v1011) a + S1x19200.size a ≤ S4200x19200.size a)
instance k0_chk113.dec : ∀ (v1011 : BitVec 32), Decidable (k0_chk113 v1011) := fun v1011 => decidable_of_iff' _ (Iff.of_eq (k0_chk113.eq_1 v1011))
theorem k0_off170_inb : ∀ (v1011 : BitVec 32) (k0_hw113 : k0_chk113 v1011), ∀ a, (k0_off170 v1011) a + S1x19200.size a ≤ S4200x19200.size a := fun v1011 k0_hw113 => k0_hw113

def k0_off171 (v1013 : BitVec 32) : Fin 2 → Nat :=
  let c0_i32_511 : BitVec 32 := 0#32
  ![v1013.toNat, 0]

def k0_chk114 (v1013 : BitVec 32) : Prop :=
  (∀ a, (k0_off171 v1013) a + S1x19200.size a ≤ S4200x19200.size a)
instance k0_chk114.dec : ∀ (v1013 : BitVec 32), Decidable (k0_chk114 v1013) := fun v1013 => decidable_of_iff' _ (Iff.of_eq (k0_chk114.eq_1 v1013))
theorem k0_off171_inb : ∀ (v1013 : BitVec 32) (k0_hw114 : k0_chk114 v1013), ∀ a, (k0_off171 v1013) a + S1x19200.size a ≤ S4200x19200.size a := fun v1013 k0_hw114 => k0_hw114

def k0_off172 (i : grid0.Coords) : Fin 1 → Nat :=
  let arg0 : BitVec 32 := BitVec.ofNat 32 (i 0).val
  let c64_i32_512 : BitVec 32 := 64#32
  let v1026 : BitVec 32 := Scalar.muli arg0 c64_i32_512
  let c57_i32 : BitVec 32 := 57#32
  let v1027 : BitVec 32 := Scalar.addi v1026 c57_i32
  let v1028 : Index := Scalar.indexCast v1027
  ![v1028.toNat]
def k0_off173 (v1029 : BitVec 32) : Fin 2 → Nat :=
  let c0_i32_516 : BitVec 32 := 0#32
  ![v1029.toNat, 0]

def k0_chk115 (v1029 : BitVec 32) : Prop :=
  (∀ a, (k0_off173 v1029) a + S1x19200.size a ≤ S4200x19200.size a)
instance k0_chk115.dec : ∀ (v1029 : BitVec 32), Decidable (k0_chk115 v1029) := fun v1029 => decidable_of_iff' _ (Iff.of_eq (k0_chk115.eq_1 v1029))
theorem k0_off173_inb : ∀ (v1029 : BitVec 32) (k0_hw115 : k0_chk115 v1029), ∀ a, (k0_off173 v1029) a + S1x19200.size a ≤ S4200x19200.size a := fun v1029 k0_hw115 => k0_hw115

def k0_off174 (v1031 : BitVec 32) : Fin 2 → Nat :=
  let c0_i32_520 : BitVec 32 := 0#32
  ![v1031.toNat, 0]

def k0_chk116 (v1031 : BitVec 32) : Prop :=
  (∀ a, (k0_off174 v1031) a + S1x19200.size a ≤ S4200x19200.size a)
instance k0_chk116.dec : ∀ (v1031 : BitVec 32), Decidable (k0_chk116 v1031) := fun v1031 => decidable_of_iff' _ (Iff.of_eq (k0_chk116.eq_1 v1031))
theorem k0_off174_inb : ∀ (v1031 : BitVec 32) (k0_hw116 : k0_chk116 v1031), ∀ a, (k0_off174 v1031) a + S1x19200.size a ≤ S4200x19200.size a := fun v1031 k0_hw116 => k0_hw116

def k0_off175 (i : grid0.Coords) : Fin 1 → Nat :=
  let arg0 : BitVec 32 := BitVec.ofNat 32 (i 0).val
  let c64_i32_521 : BitVec 32 := 64#32
  let v1044 : BitVec 32 := Scalar.muli arg0 c64_i32_521
  let c58_i32 : BitVec 32 := 58#32
  let v1045 : BitVec 32 := Scalar.addi v1044 c58_i32
  let v1046 : Index := Scalar.indexCast v1045
  ![v1046.toNat]
def k0_off176 (v1047 : BitVec 32) : Fin 2 → Nat :=
  let c0_i32_525 : BitVec 32 := 0#32
  ![v1047.toNat, 0]

def k0_chk117 (v1047 : BitVec 32) : Prop :=
  (∀ a, (k0_off176 v1047) a + S1x19200.size a ≤ S4200x19200.size a)
instance k0_chk117.dec : ∀ (v1047 : BitVec 32), Decidable (k0_chk117 v1047) := fun v1047 => decidable_of_iff' _ (Iff.of_eq (k0_chk117.eq_1 v1047))
theorem k0_off176_inb : ∀ (v1047 : BitVec 32) (k0_hw117 : k0_chk117 v1047), ∀ a, (k0_off176 v1047) a + S1x19200.size a ≤ S4200x19200.size a := fun v1047 k0_hw117 => k0_hw117

def k0_off177 (v1049 : BitVec 32) : Fin 2 → Nat :=
  let c0_i32_529 : BitVec 32 := 0#32
  ![v1049.toNat, 0]

def k0_chk118 (v1049 : BitVec 32) : Prop :=
  (∀ a, (k0_off177 v1049) a + S1x19200.size a ≤ S4200x19200.size a)
instance k0_chk118.dec : ∀ (v1049 : BitVec 32), Decidable (k0_chk118 v1049) := fun v1049 => decidable_of_iff' _ (Iff.of_eq (k0_chk118.eq_1 v1049))
theorem k0_off177_inb : ∀ (v1049 : BitVec 32) (k0_hw118 : k0_chk118 v1049), ∀ a, (k0_off177 v1049) a + S1x19200.size a ≤ S4200x19200.size a := fun v1049 k0_hw118 => k0_hw118

def k0_off178 (i : grid0.Coords) : Fin 1 → Nat :=
  let arg0 : BitVec 32 := BitVec.ofNat 32 (i 0).val
  let c64_i32_530 : BitVec 32 := 64#32
  let v1062 : BitVec 32 := Scalar.muli arg0 c64_i32_530
  let c59_i32 : BitVec 32 := 59#32
  let v1063 : BitVec 32 := Scalar.addi v1062 c59_i32
  let v1064 : Index := Scalar.indexCast v1063
  ![v1064.toNat]
def k0_off179 (v1065 : BitVec 32) : Fin 2 → Nat :=
  let c0_i32_534 : BitVec 32 := 0#32
  ![v1065.toNat, 0]

def k0_chk119 (v1065 : BitVec 32) : Prop :=
  (∀ a, (k0_off179 v1065) a + S1x19200.size a ≤ S4200x19200.size a)
instance k0_chk119.dec : ∀ (v1065 : BitVec 32), Decidable (k0_chk119 v1065) := fun v1065 => decidable_of_iff' _ (Iff.of_eq (k0_chk119.eq_1 v1065))
theorem k0_off179_inb : ∀ (v1065 : BitVec 32) (k0_hw119 : k0_chk119 v1065), ∀ a, (k0_off179 v1065) a + S1x19200.size a ≤ S4200x19200.size a := fun v1065 k0_hw119 => k0_hw119

def k0_off180 (v1067 : BitVec 32) : Fin 2 → Nat :=
  let c0_i32_538 : BitVec 32 := 0#32
  ![v1067.toNat, 0]

def k0_chk120 (v1067 : BitVec 32) : Prop :=
  (∀ a, (k0_off180 v1067) a + S1x19200.size a ≤ S4200x19200.size a)
instance k0_chk120.dec : ∀ (v1067 : BitVec 32), Decidable (k0_chk120 v1067) := fun v1067 => decidable_of_iff' _ (Iff.of_eq (k0_chk120.eq_1 v1067))
theorem k0_off180_inb : ∀ (v1067 : BitVec 32) (k0_hw120 : k0_chk120 v1067), ∀ a, (k0_off180 v1067) a + S1x19200.size a ≤ S4200x19200.size a := fun v1067 k0_hw120 => k0_hw120

def k0_off181 (i : grid0.Coords) : Fin 1 → Nat :=
  let arg0 : BitVec 32 := BitVec.ofNat 32 (i 0).val
  let c64_i32_539 : BitVec 32 := 64#32
  let v1080 : BitVec 32 := Scalar.muli arg0 c64_i32_539
  let c60_i32 : BitVec 32 := 60#32
  let v1081 : BitVec 32 := Scalar.addi v1080 c60_i32
  let v1082 : Index := Scalar.indexCast v1081
  ![v1082.toNat]
def k0_off182 (v1083 : BitVec 32) : Fin 2 → Nat :=
  let c0_i32_543 : BitVec 32 := 0#32
  ![v1083.toNat, 0]

def k0_chk121 (v1083 : BitVec 32) : Prop :=
  (∀ a, (k0_off182 v1083) a + S1x19200.size a ≤ S4200x19200.size a)
instance k0_chk121.dec : ∀ (v1083 : BitVec 32), Decidable (k0_chk121 v1083) := fun v1083 => decidable_of_iff' _ (Iff.of_eq (k0_chk121.eq_1 v1083))
theorem k0_off182_inb : ∀ (v1083 : BitVec 32) (k0_hw121 : k0_chk121 v1083), ∀ a, (k0_off182 v1083) a + S1x19200.size a ≤ S4200x19200.size a := fun v1083 k0_hw121 => k0_hw121

def k0_off183 (v1085 : BitVec 32) : Fin 2 → Nat :=
  let c0_i32_547 : BitVec 32 := 0#32
  ![v1085.toNat, 0]

def k0_chk122 (v1085 : BitVec 32) : Prop :=
  (∀ a, (k0_off183 v1085) a + S1x19200.size a ≤ S4200x19200.size a)
instance k0_chk122.dec : ∀ (v1085 : BitVec 32), Decidable (k0_chk122 v1085) := fun v1085 => decidable_of_iff' _ (Iff.of_eq (k0_chk122.eq_1 v1085))
theorem k0_off183_inb : ∀ (v1085 : BitVec 32) (k0_hw122 : k0_chk122 v1085), ∀ a, (k0_off183 v1085) a + S1x19200.size a ≤ S4200x19200.size a := fun v1085 k0_hw122 => k0_hw122

def k0_off184 (i : grid0.Coords) : Fin 1 → Nat :=
  let arg0 : BitVec 32 := BitVec.ofNat 32 (i 0).val
  let c64_i32_548 : BitVec 32 := 64#32
  let v1098 : BitVec 32 := Scalar.muli arg0 c64_i32_548
  let c61_i32 : BitVec 32 := 61#32
  let v1099 : BitVec 32 := Scalar.addi v1098 c61_i32
  let v1100 : Index := Scalar.indexCast v1099
  ![v1100.toNat]
def k0_off185 (v1101 : BitVec 32) : Fin 2 → Nat :=
  let c0_i32_552 : BitVec 32 := 0#32
  ![v1101.toNat, 0]

def k0_chk123 (v1101 : BitVec 32) : Prop :=
  (∀ a, (k0_off185 v1101) a + S1x19200.size a ≤ S4200x19200.size a)
instance k0_chk123.dec : ∀ (v1101 : BitVec 32), Decidable (k0_chk123 v1101) := fun v1101 => decidable_of_iff' _ (Iff.of_eq (k0_chk123.eq_1 v1101))
theorem k0_off185_inb : ∀ (v1101 : BitVec 32) (k0_hw123 : k0_chk123 v1101), ∀ a, (k0_off185 v1101) a + S1x19200.size a ≤ S4200x19200.size a := fun v1101 k0_hw123 => k0_hw123

def k0_off186 (v1103 : BitVec 32) : Fin 2 → Nat :=
  let c0_i32_556 : BitVec 32 := 0#32
  ![v1103.toNat, 0]

def k0_chk124 (v1103 : BitVec 32) : Prop :=
  (∀ a, (k0_off186 v1103) a + S1x19200.size a ≤ S4200x19200.size a)
instance k0_chk124.dec : ∀ (v1103 : BitVec 32), Decidable (k0_chk124 v1103) := fun v1103 => decidable_of_iff' _ (Iff.of_eq (k0_chk124.eq_1 v1103))
theorem k0_off186_inb : ∀ (v1103 : BitVec 32) (k0_hw124 : k0_chk124 v1103), ∀ a, (k0_off186 v1103) a + S1x19200.size a ≤ S4200x19200.size a := fun v1103 k0_hw124 => k0_hw124

def k0_off187 (i : grid0.Coords) : Fin 1 → Nat :=
  let arg0 : BitVec 32 := BitVec.ofNat 32 (i 0).val
  let c64_i32_557 : BitVec 32 := 64#32
  let v1116 : BitVec 32 := Scalar.muli arg0 c64_i32_557
  let c62_i32 : BitVec 32 := 62#32
  let v1117 : BitVec 32 := Scalar.addi v1116 c62_i32
  let v1118 : Index := Scalar.indexCast v1117
  ![v1118.toNat]
def k0_off188 (v1119 : BitVec 32) : Fin 2 → Nat :=
  let c0_i32_561 : BitVec 32 := 0#32
  ![v1119.toNat, 0]

def k0_chk125 (v1119 : BitVec 32) : Prop :=
  (∀ a, (k0_off188 v1119) a + S1x19200.size a ≤ S4200x19200.size a)
instance k0_chk125.dec : ∀ (v1119 : BitVec 32), Decidable (k0_chk125 v1119) := fun v1119 => decidable_of_iff' _ (Iff.of_eq (k0_chk125.eq_1 v1119))
theorem k0_off188_inb : ∀ (v1119 : BitVec 32) (k0_hw125 : k0_chk125 v1119), ∀ a, (k0_off188 v1119) a + S1x19200.size a ≤ S4200x19200.size a := fun v1119 k0_hw125 => k0_hw125

def k0_off189 (v1121 : BitVec 32) : Fin 2 → Nat :=
  let c0_i32_565 : BitVec 32 := 0#32
  ![v1121.toNat, 0]

def k0_chk126 (v1121 : BitVec 32) : Prop :=
  (∀ a, (k0_off189 v1121) a + S1x19200.size a ≤ S4200x19200.size a)
instance k0_chk126.dec : ∀ (v1121 : BitVec 32), Decidable (k0_chk126 v1121) := fun v1121 => decidable_of_iff' _ (Iff.of_eq (k0_chk126.eq_1 v1121))
theorem k0_off189_inb : ∀ (v1121 : BitVec 32) (k0_hw126 : k0_chk126 v1121), ∀ a, (k0_off189 v1121) a + S1x19200.size a ≤ S4200x19200.size a := fun v1121 k0_hw126 => k0_hw126

def k0_off190 (i : grid0.Coords) : Fin 1 → Nat :=
  let arg0 : BitVec 32 := BitVec.ofNat 32 (i 0).val
  let c64_i32_566 : BitVec 32 := 64#32
  let v1134 : BitVec 32 := Scalar.muli arg0 c64_i32_566
  let c63_i32 : BitVec 32 := 63#32
  let v1135 : BitVec 32 := Scalar.addi v1134 c63_i32
  let v1136 : Index := Scalar.indexCast v1135
  ![v1136.toNat]
def k0_off191 (v1137 : BitVec 32) : Fin 2 → Nat :=
  let c0_i32_570 : BitVec 32 := 0#32
  ![v1137.toNat, 0]

def k0_chk127 (v1137 : BitVec 32) : Prop :=
  (∀ a, (k0_off191 v1137) a + S1x19200.size a ≤ S4200x19200.size a)
instance k0_chk127.dec : ∀ (v1137 : BitVec 32), Decidable (k0_chk127 v1137) := fun v1137 => decidable_of_iff' _ (Iff.of_eq (k0_chk127.eq_1 v1137))
theorem k0_off191_inb : ∀ (v1137 : BitVec 32) (k0_hw127 : k0_chk127 v1137), ∀ a, (k0_off191 v1137) a + S1x19200.size a ≤ S4200x19200.size a := fun v1137 k0_hw127 => k0_hw127

def k0_off192 (v1139 : BitVec 32) : Fin 2 → Nat :=
  let c0_i32_574 : BitVec 32 := 0#32
  ![v1139.toNat, 0]

def k0_chk128 (v1139 : BitVec 32) : Prop :=
  (∀ a, (k0_off192 v1139) a + S1x19200.size a ≤ S4200x19200.size a)
instance k0_chk128.dec : ∀ (v1139 : BitVec 32), Decidable (k0_chk128 v1139) := fun v1139 => decidable_of_iff' _ (Iff.of_eq (k0_chk128.eq_1 v1139))
theorem k0_off192_inb : ∀ (v1139 : BitVec 32) (k0_hw128 : k0_chk128 v1139), ∀ a, (k0_off192 v1139) a + S1x19200.size a ≤ S4200x19200.size a := fun v1139 k0_hw128 => k0_hw128

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x19200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x19200 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![16, 10], ![false, false]⟩

def k1_cond2 (i : grid1.Coords) : BitVec 1 :=
  let arg1 : BitVec 32 := BitVec.ofNat 32 (i 1).val
  let c9_i32 : BitVec 32 := 9#32
  let v23 : BitVec 1 := Scalar.cmpi .eq arg1 c9_i32
  let v24 : BitVec 32 := Scalar.extui v23
  let c0_i32_17 : BitVec 32 := 0#32
  let v25 : BitVec 1 := Scalar.cmpi .ne v24 c0_i32_17
  v25

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage1_0 : Fin 2 → Memref sig .tc .vmem S512x1920 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x1920 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1920x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1024x512 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S1x512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S512x128 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev stage1_11 : Fin 2 → Memref sig .tc .vmem S512 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, false]

class Facts₀ : Prop where
  slices_S8192x2_S8192x1_0_0 : S8192x2.Slices ![0, 0] S8192x1
  shapeCasts_S8192x1_S8192 : S8192x1.ShapeCasts S8192
  slices_S8192x2_S8192x1_0_1 : S8192x2.Slices ![0, 1] S8192x1
  slices_S8192x3_S8192x1_0_1 : S8192x3.Slices ![0, 1] S8192x1
  slices_S8192x3_S8192x1_0_2 : S8192x3.Slices ![0, 2] S8192x1
  pads_S4200x19000_S4200x19200_000_02000 : S4200x19000.Pads (![0, 0] : Fin 2 → Nat) ![0, 200] ![0, 0] S4200x19200
  h_S_ : 0 < S_.numel
  numel1_S1 : S1.numel = 1
  inb_S64_S1_0 : ∀ a, (![0] : Fin 1 → Nat) a + S1.size a ≤ S64.size a
  squeezes_S1_S_ : S1.Squeezes S_
  inb_S64x19200_S1x19200_0_0 : ∀ a, (![0, 0] : Fin 2 → Nat) a + S1x19200.size a ≤ S64x19200.size a
  squeezes_S1x19200_S19200 : S1x19200.Squeezes S19200
  inb_S64_S1_1 : ∀ a, (![1] : Fin 1 → Nat) a + S1.size a ≤ S64.size a
  inb_S64x19200_S1x19200_1_0 : ∀ a, (![1, 0] : Fin 2 → Nat) a + S1x19200.size a ≤ S64x19200.size a
  inb_S64_S1_2 : ∀ a, (![2] : Fin 1 → Nat) a + S1.size a ≤ S64.size a
  inb_S64x19200_S1x19200_2_0 : ∀ a, (![2, 0] : Fin 2 → Nat) a + S1x19200.size a ≤ S64x19200.size a
  inb_S64_S1_3 : ∀ a, (![3] : Fin 1 → Nat) a + S1.size a ≤ S64.size a
  inb_S64x19200_S1x19200_3_0 : ∀ a, (![3, 0] : Fin 2 → Nat) a + S1x19200.size a ≤ S64x19200.size a
  inb_S64_S1_4 : ∀ a, (![4] : Fin 1 → Nat) a + S1.size a ≤ S64.size a
  inb_S64x19200_S1x19200_4_0 : ∀ a, (![4, 0] : Fin 2 → Nat) a + S1x19200.size a ≤ S64x19200.size a
  inb_S64_S1_5 : ∀ a, (![5] : Fin 1 → Nat) a + S1.size a ≤ S64.size a
  inb_S64x19200_S1x19200_5_0 : ∀ a, (![5, 0] : Fin 2 → Nat) a + S1x19200.size a ≤ S64x19200.size a
  inb_S64_S1_6 : ∀ a, (![6] : Fin 1 → Nat) a + S1.size a ≤ S64.size a
  inb_S64x19200_S1x19200_6_0 : ∀ a, (![6, 0] : Fin 2 → Nat) a + S1x19200.size a ≤ S64x19200.size a
  inb_S64_S1_7 : ∀ a, (![7] : Fin 1 → Nat) a + S1.size a ≤ S64.size a
  inb_S64x19200_S1x19200_7_0 : ∀ a, (![7, 0] : Fin 2 → Nat) a + S1x19200.size a ≤ S64x19200.size a
  inb_S64_S1_8 : ∀ a, (![8] : Fin 1 → Nat) a + S1.size a ≤ S64.size a
  inb_S64x19200_S1x19200_8_0 : ∀ a, (![8, 0] : Fin 2 → Nat) a + S1x19200.size a ≤ S64x19200.size a
  inb_S64_S1_9 : ∀ a, (![9] : Fin 1 → Nat) a + S1.size a ≤ S64.size a
  inb_S64x19200_S1x19200_9_0 : ∀ a, (![9, 0] : Fin 2 → Nat) a + S1x19200.size a ≤ S64x19200.size a
  inb_S64_S1_10 : ∀ a, (![10] : Fin 1 → Nat) a + S1.size a ≤ S64.size a
  inb_S64x19200_S1x19200_10_0 : ∀ a, (![10, 0] : Fin 2 → Nat) a + S1x19200.size a ≤ S64x19200.size a
  inb_S64_S1_11 : ∀ a, (![11] : Fin 1 → Nat) a + S1.size a ≤ S64.size a
  inb_S64x19200_S1x19200_11_0 : ∀ a, (![11, 0] : Fin 2 → Nat) a + S1x19200.size a ≤ S64x19200.size a
  inb_S64_S1_12 : ∀ a, (![12] : Fin 1 → Nat) a + S1.size a ≤ S64.size a
  inb_S64x19200_S1x19200_12_0 : ∀ a, (![12, 0] : Fin 2 → Nat) a + S1x19200.size a ≤ S64x19200.size a
  inb_S64_S1_13 : ∀ a, (![13] : Fin 1 → Nat) a + S1.size a ≤ S64.size a
  inb_S64x19200_S1x19200_13_0 : ∀ a, (![13, 0] : Fin 2 → Nat) a + S1x19200.size a ≤ S64x19200.size a
  inb_S64_S1_14 : ∀ a, (![14] : Fin 1 → Nat) a + S1.size a ≤ S64.size a
  inb_S64x19200_S1x19200_14_0 : ∀ a, (![14, 0] : Fin 2 → Nat) a + S1x19200.size a ≤ S64x19200.size a
  inb_S64_S1_15 : ∀ a, (![15] : Fin 1 → Nat) a + S1.size a ≤ S64.size a
  inb_S64x19200_S1x19200_15_0 : ∀ a, (![15, 0] : Fin 2 → Nat) a + S1x19200.size a ≤ S64x19200.size a
  inb_S64_S1_16 : ∀ a, (![16] : Fin 1 → Nat) a + S1.size a ≤ S64.size a
  inb_S64x19200_S1x19200_16_0 : ∀ a, (![16, 0] : Fin 2 → Nat) a + S1x19200.size a ≤ S64x19200.size a
  inb_S64_S1_17 : ∀ a, (![17] : Fin 1 → Nat) a + S1.size a ≤ S64.size a
  inb_S64x19200_S1x19200_17_0 : ∀ a, (![17, 0] : Fin 2 → Nat) a + S1x19200.size a ≤ S64x19200.size a
  inb_S64_S1_18 : ∀ a, (![18] : Fin 1 → Nat) a + S1.size a ≤ S64.size a
  inb_S64x19200_S1x19200_18_0 : ∀ a, (![18, 0] : Fin 2 → Nat) a + S1x19200.size a ≤ S64x19200.size a
  inb_S64_S1_19 : ∀ a, (![19] : Fin 1 → Nat) a + S1.size a ≤ S64.size a
  inb_S64x19200_S1x19200_19_0 : ∀ a, (![19, 0] : Fin 2 → Nat) a + S1x19200.size a ≤ S64x19200.size a
  inb_S64_S1_20 : ∀ a, (![20] : Fin 1 → Nat) a + S1.size a ≤ S64.size a
  inb_S64x19200_S1x19200_20_0 : ∀ a, (![20, 0] : Fin 2 → Nat) a + S1x19200.size a ≤ S64x19200.size a
  inb_S64_S1_21 : ∀ a, (![21] : Fin 1 → Nat) a + S1.size a ≤ S64.size a
  inb_S64x19200_S1x19200_21_0 : ∀ a, (![21, 0] : Fin 2 → Nat) a + S1x19200.size a ≤ S64x19200.size a
  inb_S64_S1_22 : ∀ a, (![22] : Fin 1 → Nat) a + S1.size a ≤ S64.size a
  inb_S64x19200_S1x19200_22_0 : ∀ a, (![22, 0] : Fin 2 → Nat) a + S1x19200.size a ≤ S64x19200.size a
  inb_S64_S1_23 : ∀ a, (![23] : Fin 1 → Nat) a + S1.size a ≤ S64.size a
  inb_S64x19200_S1x19200_23_0 : ∀ a, (![23, 0] : Fin 2 → Nat) a + S1x19200.size a ≤ S64x19200.size a
  inb_S64_S1_24 : ∀ a, (![24] : Fin 1 → Nat) a + S1.size a ≤ S64.size a
  inb_S64x19200_S1x19200_24_0 : ∀ a, (![24, 0] : Fin 2 → Nat) a + S1x19200.size a ≤ S64x19200.size a
  inb_S64_S1_25 : ∀ a, (![25] : Fin 1 → Nat) a + S1.size a ≤ S64.size a
  inb_S64x19200_S1x19200_25_0 : ∀ a, (![25, 0] : Fin 2 → Nat) a + S1x19200.size a ≤ S64x19200.size a
  inb_S64_S1_26 : ∀ a, (![26] : Fin 1 → Nat) a + S1.size a ≤ S64.size a
  inb_S64x19200_S1x19200_26_0 : ∀ a, (![26, 0] : Fin 2 → Nat) a + S1x19200.size a ≤ S64x19200.size a
  inb_S64_S1_27 : ∀ a, (![27] : Fin 1 → Nat) a + S1.size a ≤ S64.size a
  inb_S64x19200_S1x19200_27_0 : ∀ a, (![27, 0] : Fin 2 → Nat) a + S1x19200.size a ≤ S64x19200.size a
  inb_S64_S1_28 : ∀ a, (![28] : Fin 1 → Nat) a + S1.size a ≤ S64.size a
  inb_S64x19200_S1x19200_28_0 : ∀ a, (![28, 0] : Fin 2 → Nat) a + S1x19200.size a ≤ S64x19200.size a
  inb_S64_S1_29 : ∀ a, (![29] : Fin 1 → Nat) a + S1.size a ≤ S64.size a
  inb_S64x19200_S1x19200_29_0 : ∀ a, (![29, 0] : Fin 2 → Nat) a + S1x19200.size a ≤ S64x19200.size a
  inb_S64_S1_30 : ∀ a, (![30] : Fin 1 → Nat) a + S1.size a ≤ S64.size a
  inb_S64x19200_S1x19200_30_0 : ∀ a, (![30, 0] : Fin 2 → Nat) a + S1x19200.size a ≤ S64x19200.size a
  inb_S64_S1_31 : ∀ a, (![31] : Fin 1 → Nat) a + S1.size a ≤ S64.size a
  inb_S64x19200_S1x19200_31_0 : ∀ a, (![31, 0] : Fin 2 → Nat) a + S1x19200.size a ≤ S64x19200.size a
  inb_S64_S1_32 : ∀ a, (![32] : Fin 1 → Nat) a + S1.size a ≤ S64.size a
  inb_S64x19200_S1x19200_32_0 : ∀ a, (![32, 0] : Fin 2 → Nat) a + S1x19200.size a ≤ S64x19200.size a
  inb_S64_S1_33 : ∀ a, (![33] : Fin 1 → Nat) a + S1.size a ≤ S64.size a
  inb_S64x19200_S1x19200_33_0 : ∀ a, (![33, 0] : Fin 2 → Nat) a + S1x19200.size a ≤ S64x19200.size a
  inb_S64_S1_34 : ∀ a, (![34] : Fin 1 → Nat) a + S1.size a ≤ S64.size a
  inb_S64x19200_S1x19200_34_0 : ∀ a, (![34, 0] : Fin 2 → Nat) a + S1x19200.size a ≤ S64x19200.size a
  inb_S64_S1_35 : ∀ a, (![35] : Fin 1 → Nat) a + S1.size a ≤ S64.size a
  inb_S64x19200_S1x19200_35_0 : ∀ a, (![35, 0] : Fin 2 → Nat) a + S1x19200.size a ≤ S64x19200.size a
  inb_S64_S1_36 : ∀ a, (![36] : Fin 1 → Nat) a + S1.size a ≤ S64.size a
  inb_S64x19200_S1x19200_36_0 : ∀ a, (![36, 0] : Fin 2 → Nat) a + S1x19200.size a ≤ S64x19200.size a
  inb_S64_S1_37 : ∀ a, (![37] : Fin 1 → Nat) a + S1.size a ≤ S64.size a
  inb_S64x19200_S1x19200_37_0 : ∀ a, (![37, 0] : Fin 2 → Nat) a + S1x19200.size a ≤ S64x19200.size a
  inb_S64_S1_38 : ∀ a, (![38] : Fin 1 → Nat) a + S1.size a ≤ S64.size a
  inb_S64x19200_S1x19200_38_0 : ∀ a, (![38, 0] : Fin 2 → Nat) a + S1x19200.size a ≤ S64x19200.size a
  inb_S64_S1_39 : ∀ a, (![39] : Fin 1 → Nat) a + S1.size a ≤ S64.size a
  inb_S64x19200_S1x19200_39_0 : ∀ a, (![39, 0] : Fin 2 → Nat) a + S1x19200.size a ≤ S64x19200.size a
  inb_S64_S1_40 : ∀ a, (![40] : Fin 1 → Nat) a + S1.size a ≤ S64.size a
  inb_S64x19200_S1x19200_40_0 : ∀ a, (![40, 0] : Fin 2 → Nat) a + S1x19200.size a ≤ S64x19200.size a
  inb_S64_S1_41 : ∀ a, (![41] : Fin 1 → Nat) a + S1.size a ≤ S64.size a
  inb_S64x19200_S1x19200_41_0 : ∀ a, (![41, 0] : Fin 2 → Nat) a + S1x19200.size a ≤ S64x19200.size a
  inb_S64_S1_42 : ∀ a, (![42] : Fin 1 → Nat) a + S1.size a ≤ S64.size a
  inb_S64x19200_S1x19200_42_0 : ∀ a, (![42, 0] : Fin 2 → Nat) a + S1x19200.size a ≤ S64x19200.size a
  inb_S64_S1_43 : ∀ a, (![43] : Fin 1 → Nat) a + S1.size a ≤ S64.size a
  inb_S64x19200_S1x19200_43_0 : ∀ a, (![43, 0] : Fin 2 → Nat) a + S1x19200.size a ≤ S64x19200.size a
  inb_S64_S1_44 : ∀ a, (![44] : Fin 1 → Nat) a + S1.size a ≤ S64.size a
  inb_S64x19200_S1x19200_44_0 : ∀ a, (![44, 0] : Fin 2 → Nat) a + S1x19200.size a ≤ S64x19200.size a
  inb_S64_S1_45 : ∀ a, (![45] : Fin 1 → Nat) a + S1.size a ≤ S64.size a
  inb_S64x19200_S1x19200_45_0 : ∀ a, (![45, 0] : Fin 2 → Nat) a + S1x19200.size a ≤ S64x19200.size a
  inb_S64_S1_46 : ∀ a, (![46] : Fin 1 → Nat) a + S1.size a ≤ S64.size a
  inb_S64x19200_S1x19200_46_0 : ∀ a, (![46, 0] : Fin 2 → Nat) a + S1x19200.size a ≤ S64x19200.size a
  inb_S64_S1_47 : ∀ a, (![47] : Fin 1 → Nat) a + S1.size a ≤ S64.size a
  inb_S64x19200_S1x19200_47_0 : ∀ a, (![47, 0] : Fin 2 → Nat) a + S1x19200.size a ≤ S64x19200.size a
  inb_S64_S1_48 : ∀ a, (![48] : Fin 1 → Nat) a + S1.size a ≤ S64.size a
  inb_S64x19200_S1x19200_48_0 : ∀ a, (![48, 0] : Fin 2 → Nat) a + S1x19200.size a ≤ S64x19200.size a
  inb_S64_S1_49 : ∀ a, (![49] : Fin 1 → Nat) a + S1.size a ≤ S64.size a
  inb_S64x19200_S1x19200_49_0 : ∀ a, (![49, 0] : Fin 2 → Nat) a + S1x19200.size a ≤ S64x19200.size a
  inb_S64_S1_50 : ∀ a, (![50] : Fin 1 → Nat) a + S1.size a ≤ S64.size a
  inb_S64x19200_S1x19200_50_0 : ∀ a, (![50, 0] : Fin 2 → Nat) a + S1x19200.size a ≤ S64x19200.size a
  inb_S64_S1_51 : ∀ a, (![51] : Fin 1 → Nat) a + S1.size a ≤ S64.size a
  inb_S64x19200_S1x19200_51_0 : ∀ a, (![51, 0] : Fin 2 → Nat) a + S1x19200.size a ≤ S64x19200.size a
  inb_S64_S1_52 : ∀ a, (![52] : Fin 1 → Nat) a + S1.size a ≤ S64.size a
  inb_S64x19200_S1x19200_52_0 : ∀ a, (![52, 0] : Fin 2 → Nat) a + S1x19200.size a ≤ S64x19200.size a
  inb_S64_S1_53 : ∀ a, (![53] : Fin 1 → Nat) a + S1.size a ≤ S64.size a
  inb_S64x19200_S1x19200_53_0 : ∀ a, (![53, 0] : Fin 2 → Nat) a + S1x19200.size a ≤ S64x19200.size a
  inb_S64_S1_54 : ∀ a, (![54] : Fin 1 → Nat) a + S1.size a ≤ S64.size a
  inb_S64x19200_S1x19200_54_0 : ∀ a, (![54, 0] : Fin 2 → Nat) a + S1x19200.size a ≤ S64x19200.size a
  inb_S64_S1_55 : ∀ a, (![55] : Fin 1 → Nat) a + S1.size a ≤ S64.size a
  inb_S64x19200_S1x19200_55_0 : ∀ a, (![55, 0] : Fin 2 → Nat) a + S1x19200.size a ≤ S64x19200.size a
  inb_S64_S1_56 : ∀ a, (![56] : Fin 1 → Nat) a + S1.size a ≤ S64.size a
  inb_S64x19200_S1x19200_56_0 : ∀ a, (![56, 0] : Fin 2 → Nat) a + S1x19200.size a ≤ S64x19200.size a
  inb_S64_S1_57 : ∀ a, (![57] : Fin 1 → Nat) a + S1.size a ≤ S64.size a
  inb_S64x19200_S1x19200_57_0 : ∀ a, (![57, 0] : Fin 2 → Nat) a + S1x19200.size a ≤ S64x19200.size a
  inb_S64_S1_58 : ∀ a, (![58] : Fin 1 → Nat) a + S1.size a ≤ S64.size a
  inb_S64x19200_S1x19200_58_0 : ∀ a, (![58, 0] : Fin 2 → Nat) a + S1x19200.size a ≤ S64x19200.size a
  inb_S64_S1_59 : ∀ a, (![59] : Fin 1 → Nat) a + S1.size a ≤ S64.size a
  inb_S64x19200_S1x19200_59_0 : ∀ a, (![59, 0] : Fin 2 → Nat) a + S1x19200.size a ≤ S64x19200.size a
  inb_S64_S1_60 : ∀ a, (![60] : Fin 1 → Nat) a + S1.size a ≤ S64.size a
  inb_S64x19200_S1x19200_60_0 : ∀ a, (![60, 0] : Fin 2 → Nat) a + S1x19200.size a ≤ S64x19200.size a
  inb_S64_S1_61 : ∀ a, (![61] : Fin 1 → Nat) a + S1.size a ≤ S64.size a
  inb_S64x19200_S1x19200_61_0 : ∀ a, (![61, 0] : Fin 2 → Nat) a + S1x19200.size a ≤ S64x19200.size a
  inb_S64_S1_62 : ∀ a, (![62] : Fin 1 → Nat) a + S1.size a ≤ S64.size a
  inb_S64x19200_S1x19200_62_0 : ∀ a, (![62, 0] : Fin 2 → Nat) a + S1x19200.size a ≤ S64x19200.size a
  inb_S64_S1_63 : ∀ a, (![63] : Fin 1 → Nat) a + S1.size a ≤ S64.size a
  inb_S64x19200_S1x19200_63_0 : ∀ a, (![63, 0] : Fin 2 → Nat) a + S1x19200.size a ≤ S64x19200.size a
  inb_S4200x19200_S1x19200_0_0 : ∀ a, (![0, 0] : Fin 2 → Nat) a + S1x19200.size a ≤ S4200x19200.size a
  inb_S64x19200_S64x19200_0_0 : ∀ a, (![0, 0] : Fin 2 → Nat) a + S64x19200.size a ≤ S64x19200.size a
  h_S64x19200 : 0 < S64x19200.numel
  bitsLt_bf16_f32 : FTy.bits .bf16 < FTy.bits .f32
  packedbf16_S64x19200_S64x19200_0_0 : (Rect.unit (s := S64x19200) ![0, 0] S64x19200.size inb_S64x19200_S64x19200_0_0).PackedRows (EltTy.packing .bf16)
  slices_S19001x1024_S19000x1024_0_0 : S19001x1024.Slices ![0, 0] S19000x1024
  pads_S19000x1024_S19200x1024_02000_000 : S19000x1024.Pads (![0, 0] : Fin 2 → Nat) ![200, 0] ![0, 0] S19200x1024
  slices_S19001x1024_S1x1024_19000_0 : S19001x1024.Slices ![19000, 0] S1x1024
  shapeCasts_S1024_S1x1024 : S1024.ShapeCasts S1x1024
  shapeCasts_S512_S1x512 : S512.ShapeCasts S1x512
  shapeCasts_S128_S1x128 : S128.ShapeCasts S1x128
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x1920_S512x1920_0_0 : ∀ a, (![0, 0] : Fin 2 → Nat) a + S512x1920.size a ≤ S512x1920.size a
  h_S512x1920 : 0 < S512x1920.numel
  shapeCasts_S512x1920_S512x1920 : S512x1920.ShapeCasts S512x1920
  inb_S1920x1024_S1920x1024_0_0 : ∀ a, (![0, 0] : Fin 2 → Nat) a + S1920x1024.size a ≤ S1920x1024.size a
  h_S1920x1024 : 0 < S1920x1024.numel
  shapeCasts_S1920x1024_S1920x1024 : S1920x1024.ShapeCasts S1920x1024
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S512x1_S512x1024 : S512x1.Broadcasts S512x1024
  broadcasts_S1x1024_S512x1024 : S1x1024.Broadcasts S512x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  reduces_S512x128_S512 : S512x128.Reduces [1] S512
  inb_S512_S512_0 : ∀ a, (![0] : Fin 1 → Nat) a + S512.size a ≤ S512.size a
  h_S512 : 0 < S512.numel
  dot_S512x1920_S1920x1024_S512x1024_1_0_0_1_n_n_wf : DotDims.WF S512x1920 S1920x1024 S512x1024 [1] [0] [0] [1] [] []
  dot_S512x1024_S1024x512_S512x512_1_0_0_1_n_n_wf : DotDims.WF S512x1024 S1024x512 S512x512 [1] [0] [0] [1] [] []
  dot_S512x512_S512x128_S512x128_1_0_0_1_n_n_wf : DotDims.WF S512x512 S512x128 S512x128 [1] [0] [0] [1] [] []
  hcc0_scratch2 : 4 + S64.numel ≤ 150
  hcc0_scratch3 : 68 + S64.numel ≤ 150
  hrank0 : 0 < grid0.rank
  k0_off1_inb : ∀ i : grid0.Coords, ∀ a, (k0_off1 i) a + S1.size a ≤ S8192.size a
  k0_off4_inb : ∀ i : grid0.Coords, ∀ a, (k0_off4 i) a + S1.size a ≤ S8192.size a
  k0_off7_inb : ∀ i : grid0.Coords, ∀ a, (k0_off7 i) a + S1.size a ≤ S8192.size a
  k0_off10_inb : ∀ i : grid0.Coords, ∀ a, (k0_off10 i) a + S1.size a ≤ S8192.size a
  k0_off13_inb : ∀ i : grid0.Coords, ∀ a, (k0_off13 i) a + S1.size a ≤ S8192.size a
  k0_off16_inb : ∀ i : grid0.Coords, ∀ a, (k0_off16 i) a + S1.size a ≤ S8192.size a
  k0_off19_inb : ∀ i : grid0.Coords, ∀ a, (k0_off19 i) a + S1.size a ≤ S8192.size a
  k0_off22_inb : ∀ i : grid0.Coords, ∀ a, (k0_off22 i) a + S1.size a ≤ S8192.size a
  k0_off25_inb : ∀ i : grid0.Coords, ∀ a, (k0_off25 i) a + S1.size a ≤ S8192.size a
  k0_off28_inb : ∀ i : grid0.Coords, ∀ a, (k0_off28 i) a + S1.size a ≤ S8192.size a
  k0_off31_inb : ∀ i : grid0.Coords, ∀ a, (k0_off31 i) a + S1.size a ≤ S8192.size a
  k0_off34_inb : ∀ i : grid0.Coords, ∀ a, (k0_off34 i) a + S1.size a ≤ S8192.size a
  k0_off37_inb : ∀ i : grid0.Coords, ∀ a, (k0_off37 i) a + S1.size a ≤ S8192.size a
  k0_off40_inb : ∀ i : grid0.Coords, ∀ a, (k0_off40 i) a + S1.size a ≤ S8192.size a
  k0_off43_inb : ∀ i : grid0.Coords, ∀ a, (k0_off43 i) a + S1.size a ≤ S8192.size a
  k0_off46_inb : ∀ i : grid0.Coords, ∀ a, (k0_off46 i) a + S1.size a ≤ S8192.size a
  k0_off49_inb : ∀ i : grid0.Coords, ∀ a, (k0_off49 i) a + S1.size a ≤ S8192.size a
  k0_off52_inb : ∀ i : grid0.Coords, ∀ a, (k0_off52 i) a + S1.size a ≤ S8192.size a
  k0_off55_inb : ∀ i : grid0.Coords, ∀ a, (k0_off55 i) a + S1.size a ≤ S8192.size a
  k0_off58_inb : ∀ i : grid0.Coords, ∀ a, (k0_off58 i) a + S1.size a ≤ S8192.size a
  k0_off61_inb : ∀ i : grid0.Coords, ∀ a, (k0_off61 i) a + S1.size a ≤ S8192.size a
  k0_off64_inb : ∀ i : grid0.Coords, ∀ a, (k0_off64 i) a + S1.size a ≤ S8192.size a
  k0_off67_inb : ∀ i : grid0.Coords, ∀ a, (k0_off67 i) a + S1.size a ≤ S8192.size a
  k0_off70_inb : ∀ i : grid0.Coords, ∀ a, (k0_off70 i) a + S1.size a ≤ S8192.size a
  k0_off73_inb : ∀ i : grid0.Coords, ∀ a, (k0_off73 i) a + S1.size a ≤ S8192.size a
  k0_off76_inb : ∀ i : grid0.Coords, ∀ a, (k0_off76 i) a + S1.size a ≤ S8192.size a
  k0_off79_inb : ∀ i : grid0.Coords, ∀ a, (k0_off79 i) a + S1.size a ≤ S8192.size a
  k0_off82_inb : ∀ i : grid0.Coords, ∀ a, (k0_off82 i) a + S1.size a ≤ S8192.size a
  k0_off85_inb : ∀ i : grid0.Coords, ∀ a, (k0_off85 i) a + S1.size a ≤ S8192.size a
  k0_off88_inb : ∀ i : grid0.Coords, ∀ a, (k0_off88 i) a + S1.size a ≤ S8192.size a
  k0_off91_inb : ∀ i : grid0.Coords, ∀ a, (k0_off91 i) a + S1.size a ≤ S8192.size a
  k0_off94_inb : ∀ i : grid0.Coords, ∀ a, (k0_off94 i) a + S1.size a ≤ S8192.size a
  k0_off97_inb : ∀ i : grid0.Coords, ∀ a, (k0_off97 i) a + S1.size a ≤ S8192.size a
  k0_off100_inb : ∀ i : grid0.Coords, ∀ a, (k0_off100 i) a + S1.size a ≤ S8192.size a
  k0_off103_inb : ∀ i : grid0.Coords, ∀ a, (k0_off103 i) a + S1.size a ≤ S8192.size a
  k0_off106_inb : ∀ i : grid0.Coords, ∀ a, (k0_off106 i) a + S1.size a ≤ S8192.size a
  k0_off109_inb : ∀ i : grid0.Coords, ∀ a, (k0_off109 i) a + S1.size a ≤ S8192.size a
  k0_off112_inb : ∀ i : grid0.Coords, ∀ a, (k0_off112 i) a + S1.size a ≤ S8192.size a
  k0_off115_inb : ∀ i : grid0.Coords, ∀ a, (k0_off115 i) a + S1.size a ≤ S8192.size a
  k0_off118_inb : ∀ i : grid0.Coords, ∀ a, (k0_off118 i) a + S1.size a ≤ S8192.size a
  k0_off121_inb : ∀ i : grid0.Coords, ∀ a, (k0_off121 i) a + S1.size a ≤ S8192.size a
  k0_off124_inb : ∀ i : grid0.Coords, ∀ a, (k0_off124 i) a + S1.size a ≤ S8192.size a
  k0_off127_inb : ∀ i : grid0.Coords, ∀ a, (k0_off127 i) a + S1.size a ≤ S8192.size a
  k0_off130_inb : ∀ i : grid0.Coords, ∀ a, (k0_off130 i) a + S1.size a ≤ S8192.size a
  k0_off133_inb : ∀ i : grid0.Coords, ∀ a, (k0_off133 i) a + S1.size a ≤ S8192.size a
  k0_off136_inb : ∀ i : grid0.Coords, ∀ a, (k0_off136 i) a + S1.size a ≤ S8192.size a
  k0_off139_inb : ∀ i : grid0.Coords, ∀ a, (k0_off139 i) a + S1.size a ≤ S8192.size a
  k0_off142_inb : ∀ i : grid0.Coords, ∀ a, (k0_off142 i) a + S1.size a ≤ S8192.size a
  k0_off145_inb : ∀ i : grid0.Coords, ∀ a, (k0_off145 i) a + S1.size a ≤ S8192.size a
  k0_off148_inb : ∀ i : grid0.Coords, ∀ a, (k0_off148 i) a + S1.size a ≤ S8192.size a
  k0_off151_inb : ∀ i : grid0.Coords, ∀ a, (k0_off151 i) a + S1.size a ≤ S8192.size a
  k0_off154_inb : ∀ i : grid0.Coords, ∀ a, (k0_off154 i) a + S1.size a ≤ S8192.size a
  k0_off157_inb : ∀ i : grid0.Coords, ∀ a, (k0_off157 i) a + S1.size a ≤ S8192.size a
  k0_off160_inb : ∀ i : grid0.Coords, ∀ a, (k0_off160 i) a + S1.size a ≤ S8192.size a
  k0_off163_inb : ∀ i : grid0.Coords, ∀ a, (k0_off163 i) a + S1.size a ≤ S8192.size a
  k0_off166_inb : ∀ i : grid0.Coords, ∀ a, (k0_off166 i) a + S1.size a ≤ S8192.size a
  k0_off169_inb : ∀ i : grid0.Coords, ∀ a, (k0_off169 i) a + S1.size a ≤ S8192.size a
  k0_off172_inb : ∀ i : grid0.Coords, ∀ a, (k0_off172 i) a + S1.size a ≤ S8192.size a
  k0_off175_inb : ∀ i : grid0.Coords, ∀ a, (k0_off175 i) a + S1.size a ≤ S8192.size a
  k0_off178_inb : ∀ i : grid0.Coords, ∀ a, (k0_off178 i) a + S1.size a ≤ S8192.size a
  k0_off181_inb : ∀ i : grid0.Coords, ∀ a, (k0_off181 i) a + S1.size a ≤ S8192.size a
  k0_off184_inb : ∀ i : grid0.Coords, ∀ a, (k0_off184 i) a + S1.size a ≤ S8192.size a
  k0_off187_inb : ∀ i : grid0.Coords, ∀ a, (k0_off187 i) a + S1.size a ≤ S8192.size a
  k0_off190_inb : ∀ i : grid0.Coords, ∀ a, (k0_off190 i) a + S1.size a ≤ S8192.size a
  hstage0_0 : ∀ j, (stage0_0 j).IsWhole
  nbuf0_0 : grid0.bufCount reads0_0 false = 2
  hreads0_0 : ∀ i i' : grid0.Coords, (∀ a, reads0_0 a = true → i a = i' a) → cc0_transform_1 i = cc0_transform_1 i'
  hinb0_0 : ∀ (i : grid0.Coords) a, (cc0_transform_1 i a + 1) * S64x19200.size a ≤ S8192x19200.size a
  hwx0_0 : ∀ i : grid0.Coords, EltTy.bits .bf16 = 32 ∨ (Rect.block (s := S8192x19200) S64x19200.size (cc0_transform_1 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_2 i = cc0_transform_2 i'
  hinb0_1 : ∀ (i : grid0.Coords) a, (cc0_transform_2 i a + 1) * S64x19200.size a ≤ S8192x19200.size a
  hwx0_1 : ∀ i : grid0.Coords, EltTy.bits .bf16 = 32 ∨ (Rect.block (s := S8192x19200) S64x19200.size (cc0_transform_2 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1920.size a ≤ S8192x19200.size a
  hwx1_0 : ∀ i : grid1.Coords, EltTy.bits .bf16 = 32 ∨ (Rect.block (s := S8192x19200) S512x1920.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1920.size a ≤ S8192x19200.size a
  hwx1_1 : ∀ i : grid1.Coords, EltTy.bits .bf16 = 32 ∨ (Rect.block (s := S8192x19200) S512x1920.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S8192x1.size a
  hwx1_2 : ∀ i : grid1.Coords, EltTy.bits .f32 = 32 ∨ (Rect.block (s := S8192x1) S512x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1.size a ≤ S8192x1.size a
  hwx1_3 : ∀ i : grid1.Coords, EltTy.bits .f32 = 32 ∨ (Rect.block (s := S8192x1) S512x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1920x1024.size a ≤ S19200x1024.size a
  hwx1_4 : ∀ i : grid1.Coords, EltTy.bits .bf16 = 32 ∨ (Rect.block (s := S19200x1024) S1920x1024.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1024.size a ≤ S1x1024.size a
  hwx1_5 : ∀ i : grid1.Coords, EltTy.bits .f32 = 32 ∨ (Rect.block (s := S1x1024) S1x1024.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1024.size a ≤ S1x1024.size a
  hwx1_6 : ∀ i : grid1.Coords, EltTy.bits .f32 = 32 ∨ (Rect.block (s := S1x1024) S1x1024.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1024x512.size a ≤ S1024x512.size a
  hwx1_7 : ∀ i : grid1.Coords, EltTy.bits .bf16 = 32 ∨ (Rect.block (s := S1024x512) S1024x512.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x512.size a ≤ S1x512.size a
  hwx1_8 : ∀ i : grid1.Coords, EltTy.bits .f32 = 32 ∨ (Rect.block (s := S1x512) S1x512.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S512x128.size a ≤ S512x128.size a
  hwx1_9 : ∀ i : grid1.Coords, EltTy.bits .bf16 = 32 ∨ (Rect.block (s := S512x128) S512x128.size (cc1_transform_9 i) (hinb1_9 i)).WholeWords (EltTy.packing .bf16)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x128.size a ≤ S1x128.size a
  hwx1_10 : ∀ i : grid1.Coords, EltTy.bits .f32 = 32 ∨ (Rect.block (s := S1x128) S1x128.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S512.size a ≤ S8192.size a
  hwx1_11 : ∀ i : grid1.Coords, EltTy.bits .f32 = 32 ∨ (Rect.block (s := S8192) S512.size (cc1_transform_11 i) (hinb1_11 i)).WholeWords (EltTy.packing .f32)

variable [Facts₀]

abbrev cc0_scratch2 : DmaSems sig S64 := SemArray.consecutive 4 S64 hcc0_scratch2
abbrev cc0_scratch3 : DmaSems sig S64 := SemArray.consecutive 68 S64 hcc0_scratch3
def dot_S512x1920_S1920x1024_S512x1024_1_0_0_1_n_n : DotDims S512x1920 S1920x1024 S512x1024 where
  lhsContracting := [1]
  rhsContracting := [0]
  lhsNonContracting := [0]
  rhsNonContracting := [1]
  lhsBatch := []
  rhsBatch := []
  wf := dot_S512x1920_S1920x1024_S512x1024_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf

abbrev spec0_0 : Pipeline.WinSpec sig grid0.rank :=
  Pipeline.WinSpec.ofSpec (Memref.whole main_v7_0) S64x19200.size reads0_0 true false 2 stage0_0 sem0_0 nbuf0_0 hstage0_0

abbrev spec0_1 : Pipeline.WinSpec sig grid0.rank :=
  Pipeline.WinSpec.ofSpec (Memref.whole main_v7_1) S64x19200.size reads0_1 true false 2 stage0_1 sem0_1 nbuf0_1 hstage0_1

abbrev spec0 : Fin 2 → Pipeline.WinSpec sig grid0.rank := fun | 0 => spec0_0 | 1 => spec0_1 | ⟨_ + 2, h⟩ => absurd h (Nat.not_lt.2 (Nat.le_add_left _ _))
theorem hcount0 : ∀ w, grid0.bufCount (spec0 w).reads (spec0 w).sync = (spec0 w).nbuf := fun | 0 => nbuf0_0 | 1 => nbuf0_1 | ⟨_ + 2, h⟩ => absurd h (Nat.not_lt.2 (Nat.le_add_left _ _))
abbrev ix0 (pf : pre0.Contents (Elt F)) : (w : Fin 2) → grid0.Coords → Fin (spec0 w).shape.rank → Nat := fun | 0 => cc0_transform_1 | 1 => cc0_transform_2 | ⟨_ + 2, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | ⟨_ + 2, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | ⟨_ + 2, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | ⟨_ + 2, h⟩ => absurd h (Nat.not_lt.2 (Nat.le_add_left _ _))
abbrev win1_0 : Pipeline.Window sig grid1 :=
  Pipeline.Window.ofSpec (Memref.whole main_v7_0) S512x1920.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7_1) S512x1920.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S512x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v10) S1920x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v11) S1x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v12) S1x1024.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v13) S1024x512.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v14) S1x512.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v15) S512x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v16) S1x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v17) S512.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

abbrev idle1 : Fin 12 → grid1.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun i => !(k1_cond2 i == 1#1) | ⟨_ + 12, h⟩ => absurd h (Nat.not_lt.2 (Nat.le_add_left _ _))

class Facts : Prop extends Facts₀ where
  harr0 : ∀ w, (spec0 w).arr.IsWhole

variable [Facts]
-- ==== ReferenceIdeal.lean ====
abbrev S4200x19000 : Shape := ⟨2, ![4200, 19000]⟩
abbrev S8192x2 : Shape := ⟨2, ![8192, 2]⟩
abbrev S8192x3 : Shape := ⟨2, ![8192, 3]⟩
abbrev S19001x1024 : Shape := ⟨2, ![19001, 1024]⟩
abbrev S1024 : Shape := ⟨1, ![1024]⟩
abbrev S1024x512 : Shape := ⟨2, ![1024, 512]⟩
abbrev S512 : Shape := ⟨1, ![512]⟩
abbrev S512x128 : Shape := ⟨2, ![512, 128]⟩
abbrev S128 : Shape := ⟨1, ![128]⟩
abbrev S8192x1 : Shape := ⟨2, ![8192, 1]⟩
abbrev S8192 : Shape := ⟨1, ![8192]⟩
abbrev S_ : Shape := ⟨0, ![]⟩
abbrev S8192x19000 : Shape := ⟨2, ![8192, 19000]⟩
abbrev S8192x19001 : Shape := ⟨2, ![8192, 19001]⟩
abbrev S8192x1024 : Shape := ⟨2, ![8192, 1024]⟩
abbrev S1x1024 : Shape := ⟨2, ![1, 1024]⟩
abbrev S8192x512 : Shape := ⟨2, ![8192, 512]⟩
abbrev S1x512 : Shape := ⟨2, ![1, 512]⟩
abbrev S8192x128 : Shape := ⟨2, ![8192, 128]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S4200x19000, .f32⟩
  | .hbm, ⟨1, _⟩ => ⟨S8192x2, .i32⟩
  | .hbm, ⟨2, _⟩ => ⟨S8192x3, .f32⟩
  | .hbm, ⟨3, _⟩ => ⟨S19001x1024, .f32⟩
  | .hbm, ⟨4, _⟩ => ⟨S1024, .f32⟩
  | .hbm, ⟨5, _⟩ => ⟨S1024x512, .f32⟩
  | .hbm, ⟨6, _⟩ => ⟨S512, .f32⟩
  | .hbm, ⟨7, _⟩ => ⟨S512x128, .f32⟩
  | .hbm, ⟨8, _⟩ => ⟨S128, .f32⟩
  | .hbm, ⟨9, _⟩ => ⟨S8192x1, .i32⟩
  | .hbm, ⟨10, _⟩ => ⟨S8192, .i32⟩
  | .hbm, ⟨11, _⟩ => ⟨S_, .i32⟩
  | .hbm, ⟨12, _⟩ => ⟨S8192, .i32⟩
  | .hbm, ⟨13, _⟩ => ⟨S8192, .i1⟩
  | .hbm, ⟨14, _⟩ => ⟨S_, .i32⟩
  | .hbm, ⟨15, _⟩ => ⟨S8192, .i32⟩
  | .hbm, ⟨16, _⟩ => ⟨S8192, .i32⟩
  | .hbm, ⟨17, _⟩ => ⟨S8192, .i32⟩
  | .hbm, ⟨18, _⟩ => ⟨S8192x1, .i32⟩
  | .hbm, ⟨19, _⟩ => ⟨S8192x19000, .f32⟩
  | .hbm, ⟨20, _⟩ => ⟨S8192x1, .i32⟩
  | .hbm, ⟨21, _⟩ => ⟨S8192, .i32⟩
  | .hbm, ⟨22, _⟩ => ⟨S_, .i32⟩
  | .hbm, ⟨23, _⟩ => ⟨S8192, .i32⟩
  | .hbm, ⟨24, _⟩ => ⟨S8192, .i1⟩
  | .hbm, ⟨25, _⟩ => ⟨S_, .i32⟩
  | .hbm, ⟨26, _⟩ => ⟨S8192, .i32⟩
  | .hbm, ⟨27, _⟩ => ⟨S8192, .i32⟩
  | .hbm, ⟨28, _⟩ => ⟨S8192, .i32⟩
  | .hbm, ⟨29, _⟩ => ⟨S8192x1, .i32⟩
  | .hbm, ⟨30, _⟩ => ⟨S8192x19000, .f32⟩
  | .hbm, ⟨31, _⟩ => ⟨S8192x1, .f32⟩
  | .hbm, ⟨32, _⟩ => ⟨S8192x19001, .f32⟩
  | .hbm, ⟨33, _⟩ => ⟨S8192x1, .f32⟩
  | .hbm, ⟨34, _⟩ => ⟨S8192x19001, .f32⟩
  | .hbm, ⟨35, _⟩ => ⟨S8192x1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192x1024, .f32⟩
  | .hbm, ⟨41, _⟩ => ⟨S8192x1024, .f32⟩
  | .hbm, ⟨42, _⟩ => ⟨S8192x512, .f32⟩
  | .hbm, ⟨43, _⟩ => ⟨S1x512, .f32⟩
  | .hbm, ⟨44, _⟩ => ⟨S8192x512, .f32⟩
  | .hbm, ⟨45, _⟩ => ⟨S8192x512, .f32⟩
  | .hbm, ⟨46, _⟩ => ⟨S_, .f32⟩
  | .hbm, ⟨47, _⟩ => ⟨S8192x512, .f32⟩
  | .hbm, ⟨48, _⟩ => ⟨S8192x512, .f32⟩
  | .hbm, ⟨49, _⟩ => ⟨S8192x128, .f32⟩
  | .hbm, ⟨50, _⟩ => ⟨S1x128, .f32⟩
  | .hbm, ⟨51, _⟩ => ⟨S8192x128, .f32⟩
  | .hbm, ⟨52, _⟩ => ⟨S8192x128, .f32⟩
  | .hbm, ⟨53, _⟩ => ⟨S8192x1024, .f32⟩
  | .hbm, ⟨54, _⟩ => ⟨S1x1024, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S8192x1024, .f32⟩
  | .hbm, ⟨59, _⟩ => ⟨S8192x1024, .f32⟩
  | .hbm, ⟨60, _⟩ => ⟨S8192x512, .f32⟩
  | .hbm, ⟨61, _⟩ => ⟨S1x512, .f32⟩
  | .hbm, ⟨62, _⟩ => ⟨S8192x512, .f32⟩
  | .hbm, ⟨63, _⟩ => ⟨S8192x512, .f32⟩
  | .hbm, ⟨64, _⟩ => ⟨S_, .f32⟩
  | .hbm, ⟨65, _⟩ => ⟨S8192x512, .f32⟩
  | .hbm, ⟨66, _⟩ => ⟨S8192x512, .f32⟩
  | .hbm, ⟨67, _⟩ => ⟨S8192x128, .f32⟩
  | .hbm, ⟨68, _⟩ => ⟨S1x128, .f32⟩
  | .hbm, ⟨69, _⟩ => ⟨S8192x128, .f32⟩
  | .hbm, ⟨70, _⟩ => ⟨S8192x128, .f32⟩
  | .hbm, ⟨71, _⟩ => ⟨S8192x128, .f32⟩
  | .hbm, ⟨72, _⟩ => ⟨S_, .f32⟩
  | .hbm, ⟨73, _⟩ => ⟨S8192, .f32⟩
  | _, _ => ⟨S4200x19000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_call0_cst : Ref sig .tc := ⟨.hbm, 39, rfl⟩
abbrev main_call0_v0 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_call1_cst : Ref sig .tc := ⟨.hbm, 46, rfl⟩
abbrev main_call1_v0 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_call2_cst : Ref sig .tc := ⟨.hbm, 57, rfl⟩
abbrev main_call2_v0 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_call3_cst : Ref sig .tc := ⟨.hbm, 64, rfl⟩
abbrev main_call3_v0 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst : Ref sig .tc := ⟨.hbm, 72, rfl⟩
abbrev main_v51 : Ref sig .tc := ⟨.hbm, 73, rfl⟩

abbrev nD : Nat := 1
abbrev τ : Topo := Topo.v7x

variable {F : FTy → Type} [FloatOps F]

class Facts₀ : Prop where
  slices_S8192x2_S8192x1_0_0 : S8192x2.Slices ![0, 0] S8192x1
  shapeCasts_S8192x1_S8192 : S8192x1.ShapeCasts S8192
  bcast_S_S8192 : S_.BroadcastsInDim S8192 (![] : Fin 0 → Fin S8192.rank)
  bcast_S8192_S8192x1_0 : S8192.BroadcastsInDim S8192x1 (![0] : Fin 1 → Fin S8192x1.rank)
  slices_S8192x2_S8192x1_0_1 : S8192x2.Slices ![0, 1] S8192x1
  slices_S8192x3_S8192x1_0_1 : S8192x3.Slices ![0, 1] S8192x1
  concatenates_S8192x19000_S8192x1_S8192x19001_d1 : Shape.Concatenates [S8192x19000, S8192x1] S8192x19001 1
  slices_S8192x3_S8192x1_0_2 : S8192x3.Slices ![0, 2] S8192x1
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S_S8192x512 : S_.BroadcastsInDim S8192x512 (![] : Fin 0 → Fin S8192x512.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  reducesTo_S8192x128_S8192_d1 : S8192x128.ReducesTo [1] S8192
  h_S_ : 0 < S_.numel
  gather_S4200x19000_S8192x1_S8192x19000_1_0_n_n_0_1_119000_wf : GatherDims.WF S4200x19000 S8192x1 S8192x19000 [1] [0] [] [0] [] 1 ![1, 19000]
  dot_S8192x19001_S19001x1024_S8192x1024_1_0_0_1_n_n_wf : DotDims.WF S8192x19001 S19001x1024 S8192x1024 [1] [0] [0] [1] [] []
  dot_S8192x1024_S1024x512_S8192x512_1_0_0_1_n_n_wf : DotDims.WF S8192x1024 S1024x512 S8192x512 [1] [0] [0] [1] [] []
  dot_S8192x512_S512x128_S8192x128_1_0_0_1_n_n_wf : DotDims.WF S8192x512 S512x128 S8192x128 [1] [0] [0] [1] [] []

variable [Facts₀]

def gather_S4200x19000_S8192x1_S8192x19000_1_0_n_n_0_1_119000 : GatherDims S4200x19000 S8192x1 S8192x19000 where
  offsetDims := [1]
  collapsedSliceDims := [0]
  operandBatchingDims := []
  startIndicesBatchingDims := []
  startIndexMap := [0]
  indexVectorDim := 1
  sliceSizes := ![1, 19000]
  wf := gather_S4200x19000_S8192x1_S8192x19000_1_0_n_n_0_1_119000_wf
def dot_S8192x19001_S19001x1024_S8192x1024_1_0_0_1_n_n : DotDims S8192x19001 S19001x1024 S8192x1024 where
  lhsContracting := [1]
  rhsContracting := [0]
  lhsNonContracting := [0]
  rhsNonContracting := [1]
  lhsBatch := []
  rhsBatch := []
  wf := dot_S8192x19001_S19001x1024_S8192x1024_1_0_0_1_n_n_wf
def dot_S8192x1024_S1024x512_S8192x512_1_0_0_1_n_n : DotDims S8192x1024 S1024x512 S8192x512 where
  lhsContracting := [1]
  rhsContracting := [0]
  lhsNonContracting := [0]
  rhsNonContracting := [1]
  lhsBatch := []
  rhsBatch := []
  wf := dot_S8192x1024_S1024x512_S8192x512_1_0_0_1_n_n_wf
def dot_S8192x512_S512x128_S8192x128_1_0_0_1_n_n : DotDims S8192x512 S512x128 S8192x128 where
  lhsContracting := [1]
  rhsContracting := [0]
  lhsNonContracting := [0]
  rhsNonContracting := [1]
  lhsBatch := []
  rhsBatch := []
  wf := dot_S8192x512_S512x128_S8192x128_1_0_0_1_n_n_wf

class Facts : Prop extends Facts₀ where

variable [Facts]
-- ==== Proof.IndexRange.lean ====
/-
  The precondition bounds every drug id. Besides the finiteness of the float inputs it asks, of the index array
  drug_pairs : i32[8192, 2], that every word is at least 0 and below 4200 as a signed number (two reductions by
  "and" over the whole array, each of a signed comparison with a constant). A signed word in [0, 4200) has its sign
  bit clear, so the same word read unsigned is below 4200: it names a row of the 4200-row table. Stated for any
  float instance, since the comparisons are over integer words only.
-/
import proofs.«406060_j54142357733864_2_alg».proof.Pre_finite_inputs
import Idealize.ShloMosaic.Lib.ReduceAll
import Idealize.ShloMosaic.Lib.StableHlo.Predicate

namespace Cert.IndexRange

open Idealize.ShloMosaic

/-- A 32-bit word that, read signed, is at least 0 and below `n` (with `n` below 2³¹) is below `n` read unsigned:
    being non-negative clears the sign bit, and then both readings agree. -/
theorem toNat_lt_of_signed_range (w : BitVec 32) (n : ℕ) (hn : n < 2 ^ 31)
    (h0 : IntOp.cmpi .sge w 0#32 = 1#1) (h1 : IntOp.cmpi .slt w (BitVec.ofNat 32 n) = 1#1) : w.toNat < n := by
  have hw : w.toNat < 2 ^ 31 := by
    unfold IntOp.cmpi at h0
    rw [StableHlo.Predicate.ofBool_eq_one_iff] at h0
    simp only [BitVec.sle, decide_eq_true_eq] at h0
    rw [BitVec.toInt_eq_msb_cond, BitVec.toInt_eq_msb_cond] at h0
    by_contra hc
    have hm : w.msb = true := by
      cases hmsb : w.msb with
      | true => rfl
      | false => exact absurd (BitVec.msb_eq_false_iff_two_mul_lt.mp hmsb) (by omega)
    have h32 := w.isLt
    simp [hm] at h0
    omega
  have hb : (BitVec.ofNat 32 n).toNat = n := by
    rw [BitVec.toNat_ofNat]; exact Nat.mod_eq_of_lt (by omega)
  have h := (StableHlo.Predicate.slt_iff_toNat hw (by rw [hb]; exact hn)).1 h1
  rwa [hb] at h

instance : Subsingleton Cert.Pre_finite_inputs.S_.Idx := ⟨fun a b => funext fun d => Fin.elim0 d⟩

open Cert.Pre_finite_inputs in
/-- Where the precondition holds, every word of the index array is below 4200 read unsigned. -/
theorem word_lt {F : FTy → Type} [FloatOps F] [Cert.Pre_finite_inputs.Facts] (a0 : FVec F S4200x19000 .f32) (a1 : IVec S8192x2 32) (a2 : FVec F S8192x3 .f32)
    (a3 : FVec F S19001x1024 .f32) (a4 : FVec F S1024 .f32) (a5 : FVec F S1024x512 .f32) (a6 : FVec F S512 .f32)
    (a7 : FVec F S512x128 .f32) (a8 : FVec F S128 .f32)
    (h : fn (F := F) a0 a1 a2 a3 a4 a5 a6 a7 a8 = fun _ => 1#1) (i : S8192x2.Idx) : (a1 i).toNat < 4200 := by
  have e := congrFun h (fun d => Fin.elim0 d)
  unfold fn fn_part1 fn_part2 at e
  dsimp only at e
  simp only [andi] at e
  obtain ⟨h42, h45⟩ := IntOp.andi_eq_one.1 e
  obtain ⟨-, h41⟩ := IntOp.andi_eq_one.1 h42
  have g0 := Host.reduce_andi_all _ _ _ _ _ h41 i
  have g1 := Host.reduce_andi_all _ _ _ _ _ h45 i
  simp only [cmpi, broadcastInDim, constantI] at g0 g1
  exact toNat_lt_of_signed_range _ 4200 (by decide) g0 g1

open Cert.Pre_finite_inputs in
/-- The same as a signed statement: every word of the index array lies in [0, 4200). -/
theorem word_signed_range {F : FTy → Type} [FloatOps F] [Cert.Pre_finite_inputs.Facts] (a0 : FVec F S4200x19000 .f32) (a1 : IVec S8192x2 32)
    (a2 : FVec F S8192x3 .f32) (a3 : FVec F S19001x1024 .f32) (a4 : FVec F S1024 .f32) (a5 : FVec F S1024x512 .f32) (a6 : FVec F S512 .f32)
    (a7 : FVec F S512x128 .f32) (a8 : FVec F S128 .f32)
    (h : fn (F := F) a0 a1 a2 a3 a4 a5 a6 a7 a8 = fun _ => 1#1) (i : S8192x2.Idx) : 0 ≤ (a1 i).toInt ∧ (a1 i).toInt < 4200 := by
  have hw := word_lt a0 a1 a2 a3 a4 a5 a6 a7 a8 h i
  rw [StableHlo.Predicate.toInt_eq_toNat_of_lt (by omega)]
  omega

end Cert.IndexRange
-- ==== Proof.RefRun.lean ====
/- The reference's run and its read-at-an-index lemmas, gathered for the modules that compare it with the kernel. -/
import proofs.«406060_j54142357733864_2_alg».proof.Proof.Gen.ReferenceIdeal.Run
import proofs.«406060_j54142357733864_2_alg».proof.Proof.Gen.ReferenceIdeal.Read
-- ==== Proof.Spec.lean ====
/-
  The specification of the result, stated with no program in scope: the score of each pair of drugs as ONE function
  of the nine argument arrays over the extended reals, index by index over literal shapes.

  For pair `b` and its drug `s` (`s = 0, 1`) the table row is the index word `pairs(b, s)` read unsigned (held
  below the table's height, so the function is total; for a word in `[0, 4200)` it is the word itself,
  `drugRow_val`), and the three layers are
    hid0 s b n = max ((Σ_{j<19000} table(row, j) · W0(j, n)  +  conc(b, s+1) · W0(19000, n))  +  b0(n)) 0
    hid1 s b p = max ((Σ_{n<1024} hid0 s b n · W1(n, p))  +  b1(p)) 0
    emb  s b q =      (Σ_{p<512}  hid1 s b p · W2(p, q))  +  b2(q)
    score b    = Σ_{q<128} emb 0 b q · emb 1 b q.
  Grouping of the first layer's three summands: the 19000-term sum first, then the concentration term added to it,
  then the bias added to that — `(Σ + c·w) + b0`. Every operation is the extended reals' own (`+`, `*`, `max`),
  which is what each float operation means at the ideal instance; the literal `0` is the extended real zero.
-/
import Idealize.ShloMosaic.PureOps.Ideal
import Idealize.ShloMosaic.Lib.ValueIdx

noncomputable section

open scoped BigOperators

namespace Cert.Spec

open Idealize.ShloMosaic Idealize.ShloMosaic.ValueIdx

/-! ## The arguments' shapes -/

abbrev ShTable : Shape := ⟨2, ![4200, 19000]⟩
abbrev ShPairs : Shape := ⟨2, ![8192, 2]⟩
abbrev ShConc : Shape := ⟨2, ![8192, 3]⟩
abbrev ShW0 : Shape := ⟨2, ![19001, 1024]⟩
abbrev ShB0 : Shape := ⟨1, ![1024]⟩
abbrev ShW1 : Shape := ⟨2, ![1024, 512]⟩
abbrev ShB1 : Shape := ⟨1, ![512]⟩
abbrev ShW2 : Shape := ⟨2, ![512, 128]⟩
abbrev ShB2 : Shape := ⟨1, ![128]⟩
abbrev ShOut : Shape := ⟨1, ![8192]⟩

/-! ## Rows and columns -/

/-- The table row that pair `b`'s drug `s` names: the index word read unsigned, held below the table's height. -/
def drugRow (pairs : IVec ShPairs 32) (s : Fin 2) (b : Fin 8192) : Fin 4200 :=
  ⟨min (pairs (ix2 b s)).toNat 4199, by omega⟩

/-- For an index word below the table's height the row is the word. -/
theorem drugRow_val (pairs : IVec ShPairs 32) (s : Fin 2) (b : Fin 8192) (h : (pairs (ix2 b s)).toNat < 4200) :
    (drugRow pairs s b).val = (pairs (ix2 b s)).toNat := by
  show min (pairs (ix2 b s)).toNat 4199 = _
  omega

/-- Drug `s`'s concentration is column `s + 1` of the concentration array (column 0 is not read). -/
def concCol (s : Fin 2) : Fin 3 := ⟨s.val + 1, by omega⟩

/-- Row `j` of the first weight matrix, among its first 19000 rows (the protein rows). -/
def protRow (j : Fin 19000) : Fin 19001 := ⟨j.val, by omega⟩

/-- The first weight matrix's last row (the concentration's row). -/
def concRow : Fin 19001 := ⟨19000, by omega⟩

/-! ## The layers -/

/-- First hidden layer of drug `s` of pair `b`, unit `n`. -/
def hid0 (table : FVec Ideal ShTable .f32) (pairs : IVec ShPairs 32) (conc : FVec Ideal ShConc .f32)
    (W0 : FVec Ideal ShW0 .f32) (b0 : FVec Ideal ShB0 .f32) (s : Fin 2) (b : Fin 8192) (n : Fin 1024) : EReal :=
  max (((∑ j : Fin 19000, table (ix2 (drugRow pairs s b) j) * W0 (ix2 (protRow j) n))
        + conc (ix2 b (concCol s)) * W0 (ix2 concRow n)) + b0 (ix1 n)) 0

/-- Second hidden layer, unit `p`. -/
def hid1 (table : FVec Ideal ShTable .f32) (pairs : IVec ShPairs 32) (conc : FVec Ideal ShConc .f32)
    (W0 : FVec Ideal ShW0 .f32) (b0 : FVec Ideal ShB0 .f32) (W1 : FVec Ideal ShW1 .f32) (b1 : FVec Ideal ShB1 .f32)
    (s : Fin 2) (b : Fin 8192) (p : Fin 512) : EReal :=
  max ((∑ n : Fin 1024, hid0 table pairs conc W0 b0 s b n * W1 (ix2 n p)) + b1 (ix1 p)) 0

/-- The embedding of drug `s` of pair `b`, coordinate `q` (the last layer has no activation). -/
def emb (table : FVec Ideal ShTable .f32) (pairs : IVec ShPairs 32) (conc : FVec Ideal ShConc .f32)
    (W0 : FVec Ideal ShW0 .f32) (b0 : FVec Ideal ShB0 .f32) (W1 : FVec Ideal ShW1 .f32) (b1 : FVec Ideal ShB1 .f32)
    (W2 : FVec Ideal ShW2 .f32) (b2 : FVec Ideal ShB2 .f32) (s : Fin 2) (b : Fin 8192) (q : Fin 128) : EReal :=
  (∑ p : Fin 512, hid1 table pairs conc W0 b0 W1 b1 s b p * W2 (ix2 p q)) + b2 (ix1 q)

/-- The score of pair `b`: the inner product of its two drugs' embeddings. -/
def score (table : FVec Ideal ShTable .f32) (pairs : IVec ShPairs 32) (conc : FVec Ideal ShConc .f32)
    (W0 : FVec Ideal ShW0 .f32) (b0 : FVec Ideal ShB0 .f32) (W1 : FVec Ideal ShW1 .f32) (b1 : FVec Ideal ShB1 .f32)
    (W2 : FVec Ideal ShW2 .f32) (b2 : FVec Ideal ShB2 .f32) (b : Fin 8192) : EReal :=
  ∑ q : Fin 128, emb table pairs conc W0 b0 W1 b1 W2 b2 0 b q * emb table pairs conc W0 b0 W1 b1 W2 b2 1 b q

/-- The result array: the score of every pair. -/
def G (table : FVec Ideal ShTable .f32) (pairs : IVec ShPairs 32) (conc : FVec Ideal ShConc .f32)
    (W0 : FVec Ideal ShW0 .f32) (b0 : FVec Ideal ShB0 .f32) (W1 : FVec Ideal ShW1 .f32) (b1 : FVec Ideal ShB1 .f32)
    (W2 : FVec Ideal ShW2 .f32) (b2 : FVec Ideal ShB2 .f32) : FVec Ideal ShOut .f32 :=
  fun i => score table pairs conc W0 b0 W1 b1 W2 b2 (i 0)

/-- The result at pair `b` is its score. -/
theorem G_apply (table : FVec Ideal ShTable .f32) (pairs : IVec ShPairs 32) (conc : FVec Ideal ShConc .f32)
    (W0 : FVec Ideal ShW0 .f32) (b0 : FVec Ideal ShB0 .f32) (W1 : FVec Ideal ShW1 .f32) (b1 : FVec Ideal ShB1 .f32)
    (W2 : FVec Ideal ShW2 .f32) (b2 : FVec Ideal ShB2 .f32) (b : Fin 8192) :
    G table pairs conc W0 b0 W1 b1 W2 b2 (ix1 b) = score table pairs conc W0 b0 W1 b1 W2 b2 b := rfl

end Cert.Spec

end
-- ==== Proof.LibRowGather.lean ====
/-
  A row gather read at an index, and the range mask of a filled row take.

  Rows of a two-axis table `x : [N, C]` are gathered at a column `col : [E, 1]` of signed 32-bit start indices, one row per
  entry: result row `e` is the table's row at `col e`, the start index clamped into `[0, N - 1]`. When the entry already
  lies in `[0, N)` the clamp does nothing and the result at `(e, c)` is `x` at row `col e`, column `c`.
-/
import Idealize.ShloMosaic.Lib.ValueIdx
import Idealize.ShloMosaic.Lib.StableHlo.Predicate

noncomputable section

namespace Cert.LibRowGather

open Idealize.ShloMosaic Idealize.ShloMosaic.ValueIdx

/-- The row an in-range signed index word names. -/
def rowOf (N : Nat) (b : BitVec 32) (h : 0 ≤ b.toInt ∧ b.toInt < N) : Fin N := ⟨b.toInt.toNat, by omega⟩

/-- The dimension numbers of a row gather: one start index per result row, naming operand axis 0, which is collapsed;
    the result's axis 1 runs over the operand's whole axis 1. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ :=
  { offsetDims := [1], collapsedSliceDims := [0], operandBatchingDims := [], startIndicesBatchingDims := [],
    startIndexMap := [0], indexVectorDim := 1, sliceSizes := ![1, C], wf := wf }

/-- THE ROW GATHER READ AT `(e, c)`: with the start index of row `e` in `[0, N)`, the table at that row, column `c`. -/
theorem gather_rows_apply {α : Type} {N E C : Nat}
    (wf : GatherDims.WF ⟨2, ![N, C]⟩ ⟨2, ![E, 1]⟩ ⟨2, ![E, C]⟩ [1] [0] [] [0] [] 1 ![1, C])
    (x : (⟨2, ![N, C]⟩ : Shape).Idx → α) (col : IVec ⟨2, ![E, 1]⟩ 32) (e : Fin E) (c : Fin C)
    (h : 0 ≤ (col (ix2 e (0 : Fin 1))).toInt ∧ (col (ix2 e (0 : Fin 1))).toInt < N) :
    Host.gather (rowGatherDims N E C wf) x col (ix2 e c) = x (ix2 (rowOf N _ h) c) := by
  -- the operand index is, on each axis, the clamped start plus the batching coordinate plus the offset coordinate;
  -- there is no batching axis
  unfold Host.gather
  congr 1
  funext a
  refine Fin.ext ?_
  show (rowGatherDims N E C wf).start (ix2 e c) col a + (rowGatherDims N E C wf).batchCoord (ix2 e c) a
    + (rowGatherDims N E C wf).offCoord (ix2 e c) a = _
  rw [GatherDims.batchCoord_eq_zero _ _ _ List.not_mem_nil]
  have ha : a = (0 : Fin 2) ∨ a = (1 : Fin 2) := by
    match a with
    | ⟨0, _⟩ => exact Or.inl rfl
    | ⟨1, _⟩ => exact Or.inr rfl
  rcases ha with rfl | rfl
  · -- axis 0 (collapsed and start-indexed): no offset; the start is row `e`'s index word read signed and clamped into
    -- `[0, N - 1]`, which is the word's value since it already lies in `[0, N)`
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    show min (col (ix2 e (0 : Fin 1))).toInt.toNat (N - 1) = (col (ix2 e (0 : Fin 1))).toInt.toNat
    omega
  · -- axis 1 (kept, not start-indexed): the start is zero and the offset coordinate is the result's column `c`
    have h10 : (1 : Fin 2) ∉ ([0] : List (Fin 2)) := fun h => absurd (List.mem_singleton.mp h) (by decide)
    unfold GatherDims.start
    rw [dif_neg (show (1 : Fin 2) ∉ (rowGatherDims N E C wf).startIndexMap from h10)]
    unfold GatherDims.offCoord
    rw [dif_pos (show (1 : Fin 2) ∈ (rowGatherDims N E C wf).sKept from
      (GatherDims.mem_sKept _ _).mpr ⟨h10, List.not_mem_nil⟩)]
    simp only [Nat.add_zero, Nat.zero_add]
    rfl

/-- A vector laid out as an `[E, 1]` column reads, at row `e`, the vector at `e`. -/
theorem col_apply {α : Type} {E : Nat} (h : (⟨1, ![E]⟩ : Shape).BroadcastsInDim ⟨2, ![E, 1]⟩ ![0])
    (v : (⟨1, ![E]⟩ : Shape).Idx → α) (e : Fin E) :
    broadcastInDim ⟨2, ![E, 1]⟩ ![0] h v (ix2 e (0 : Fin 1)) = v (ix1 e) := by
  simp only [broadcastInDim]
  congr 1
  funext a
  obtain rfl : a = 0 := Subsingleton.elim _ _
  apply Fin.ext
  have hp := e.isLt
  split
  · next h1 => change E = 1 at h1; show (0 : Nat) = e.val; omega
  · rfl

/-- A vector laid out along the rows of an `[E, C]` rectangle (first as a column, then across) reads, at `(e, c)`, the
    vector at `e`. -/
theorem rows_apply {α : Type} {E C : Nat} (h₁ : (⟨1, ![E]⟩ : Shape).BroadcastsInDim ⟨2, ![E, 1]⟩ ![0])
    (h₂ : (⟨2, ![E, 1]⟩ : Shape).BroadcastsInDim ⟨2, ![E, C]⟩ ![0, 1]) (v : (⟨1, ![E]⟩ : Shape).Idx → α) (e : Fin E) (c : Fin C) :
    broadcastInDim ⟨2, ![E, C]⟩ ![0, 1] h₂ (broadcastInDim ⟨2, ![E, 1]⟩ ![0] h₁ v) (ix2 e c) = v (ix1 e) := by
  simp only [broadcastInDim]
  congr 1
  funext a
  obtain rfl : a = 0 := Subsingleton.elim _ _
  apply Fin.ext
  have hp := e.isLt
  split
  · next h1 => change E = 1 at h1; show (0 : Nat) = e.val; omega
  · split
    · next h2 => change E = 1 at h2; show (0 : Nat) = e.val; omega
    · rfl

/-- A one-bit vector laid out along the rows of an `[E, C]` rectangle reads, at `(e, c)`, the vector at `e`. -/
theorem rowbit_apply {α : Type} {E C : Nat} (h : (⟨1, ![E]⟩ : Shape).BroadcastsInDim ⟨2, ![E, C]⟩ ![0])
    (v : (⟨1, ![E]⟩ : Shape).Idx → α) (e : Fin E) (c : Fin C) :
    broadcastInDim ⟨2, ![E, C]⟩ ![0] h v (ix2 e c) = v (ix1 e) := by
  simp only [broadcastInDim]
  congr 1
  funext a
  obtain rfl : a = 0 := Subsingleton.elim _ _
  apply Fin.ext
  have hp := e.isLt
  split
  · next h1 => change E = 1 at h1; show (0 : Nat) = e.val; omega
  · rfl

/-- A signed-non-negative 32-bit word lies below 2³¹ and reads the same signed and unsigned. -/
private theorem toNat_of_toInt_nonneg (x : BitVec 32) (h : 0 ≤ x.toInt) : x.toNat < 2 ^ 31 ∧ x.toInt = x.toNat := by
  have hc := BitVec.toInt_eq_toNat_cond x
  have hx := x.isLt
  split at hc <;> omega

/-- A left fold by `and` from the bit one over bits that are all one is one. -/
private theorem foldl_andi_one {ι : Type} (f : ι → BitVec 1) :
    ∀ l : List ι, (∀ n ∈ l, f n = 1#1) → l.foldl (fun r n => IntOp.andi r (f n)) 1#1 = 1#1
  | [], _ => rfl
  | b :: l, h => by
    have h11 : IntOp.andi 1#1 1#1 = 1#1 := by decide
    rw [List.foldl_cons, h b List.mem_cons_self, h11]
    exact foldl_andi_one f l (fun n hn => h n (List.mem_cons_of_mem _ hn))

/-- An `and`-reduction from the bit one of an array whose every bit is one is one at every result index. -/
private theorem reduce_andi_of_all {s t u : Shape} {axes : List (Fin s.rank)} (x : s.Idx → BitVec 1)
    (init : u.Idx → BitVec 1) (h : s.ReducesTo axes t) (hu : 0 < u.numel) (j : t.Idx)
    (hinit : init (Shape.Idx.first hu) = 1#1) (hx : ∀ i, x i = 1#1) :
    Host.reduce IntOp.andi x init h hu j = 1#1 := by
  rw [Host.reduce_eq_foldl, hinit]
  exact foldl_andi_one x _ (fun i _ => hx i)

section Mask
variable {N E : Nat}
  (hbE : (⟨0, ![]⟩ : Shape).BroadcastsInDim ⟨1, ![E]⟩ ![])
  (hcol : (⟨1, ![E]⟩ : Shape).BroadcastsInDim ⟨2, ![E, 1]⟩ ![0])
  (hbE1 : (⟨0, ![]⟩ : Shape).BroadcastsInDim ⟨2, ![E, 1]⟩ ![])
  (hb11 : (⟨1, ![1]⟩ : Shape).BroadcastsInDim ⟨2, ![1, 1]⟩ ![1])
  (hb11E1 : (⟨2, ![1, 1]⟩ : Shape).BroadcastsInDim ⟨2, ![E, 1]⟩ ![0, 1])
  (hred : (⟨2, ![E, 1]⟩ : Shape).ReducesTo [1] ⟨1, ![E]⟩)
  (h0 : 0 < (⟨0, ![]⟩ : Shape).numel)
  (wN wM : BitVec 32) (a : IVec ⟨1, ![E]⟩ 32)

/-- The index column as printed: a negative entry of `a` wrapped by adding the word `wN`, then laid out as `[E, 1]`. -/
abbrev idxCol : IVec ⟨2, ![E, 1]⟩ 32 :=
  broadcastInDim ⟨2, ![E, 1]⟩ ![0] hcol
    (select (cmpi .slt a (broadcastInDim ⟨1, ![E]⟩ ![] hbE (constantI ⟨0, ![]⟩ 32 0#32)))
      (addi a (broadcastInDim ⟨1, ![E]⟩ ![] hbE (constantI ⟨0, ![]⟩ 32 wN))) a)

/-- The range mask as printed: per row, the column's entry is at least zero and at most the word `wM` (both signed),
    the two tests joined and reduced by `and` along the column's unit axis. -/
abbrev okVec : IVec ⟨1, ![E]⟩ 1 :=
  Host.reduce IntOp.andi
    (andi (cmpi .sge (idxCol hbE hcol wN a) (broadcastInDim ⟨2, ![E, 1]⟩ ![] hbE1 (constantI ⟨0, ![]⟩ 32 0#32)))
      (cmpi .sle (idxCol hbE hcol wN a)
        (broadcastInDim ⟨2, ![E, 1]⟩ ![0, 1] hb11E1 (broadcastInDim ⟨2, ![1, 1]⟩ ![1] hb11 (constantI ⟨1, ![1]⟩ 32 wM)))))
    (constantI ⟨0, ![]⟩ 1 1#1) hred h0

variable (ha : ∀ e : Fin E, 0 ≤ (a (ix1 e)).toInt ∧ (a (ix1 e)).toInt < N)

include ha in
/-- With every index non-negative the wrap does nothing: the column at row `e` is `a e`. -/
theorem idxCol_apply (e : Fin E) : idxCol hbE hcol wN a (ix2 e (0 : Fin 1)) = a (ix1 e) := by
  -- the signed test "entry < 0" is the bit zero, since the entry is non-negative
  have hslt : IntOp.cmpi .slt (a (ix1 e)) 0#32 = 0#1 := by
    have h := (ha e).1
    have h0 : (0#32 : BitVec 32).toInt = 0 := by decide
    have hf : (a (ix1 e)).slt 0#32 = false := by
      simp only [BitVec.slt, h0, decide_eq_false_iff_not, not_lt]; exact h
    show BitVec.ofBool ((a (ix1 e)).slt 0#32) = 0#1
    rw [hf]; rfl
  refine (col_apply hcol _ e).trans ?_
  show Scalar.select (IntOp.cmpi .slt (a (ix1 e)) 0#32) (IntOp.addi (a (ix1 e)) wN) (a (ix1 e)) = a (ix1 e)
  rw [hslt, select_zero]

include ha in
/-- With every index in `[0, N)`, `N` below 2³¹ and `wM` the word of `N - 1`, the mask is one at every row. -/
theorem okVec_apply (hN : N < 2 ^ 31) (hM : wM.toNat = N - 1) (e : Fin E) :
    okVec hbE hcol hbE1 hb11 hb11E1 hred h0 wN wM a (ix1 e) = 1#1 := by
  -- the reduction starts from the bit one, so it is enough that the joined test is one at every entry `(e', 0)`
  refine reduce_andi_of_all _ _ hred h0 _ rfl ?_
  intro i
  obtain ⟨e', z, rfl⟩ : ∃ (e' : Fin E) (z : Fin 1), i = ix2 e' z := ⟨i 0, i 1, eq_ix2 i⟩
  obtain rfl : z = 0 := Subsingleton.elim _ _
  have hcolv := idxCol_apply hbE hcol wN a ha e'
  obtain ⟨hlt, hint⟩ := toNat_of_toInt_nonneg (a (ix1 e')) (ha e').1
  have hup := (ha e').2
  -- both signed tests hold of the entry: it is at least zero and at most N - 1
  have hge : IntOp.cmpi .sge (a (ix1 e')) 0#32 = 1#1 :=
    (StableHlo.Predicate.sge_iff_toNat hlt (by decide)).2 (Nat.zero_le _)
  have hle : IntOp.cmpi .sle (a (ix1 e')) wM = 1#1 :=
    (StableHlo.Predicate.sle_iff_toNat hlt (by omega)).2 (by omega)
  show IntOp.andi (IntOp.cmpi .sge (idxCol hbE hcol wN a (ix2 e' (0 : Fin 1))) 0#32)
    (IntOp.cmpi .sle (idxCol hbE hcol wN a (ix2 e' (0 : Fin 1))) wM) = 1#1
  rw [hcolv, hge, hle]
  decide

end Mask

end Cert.LibRowGather

end
-- ==== Proof.RefIsSpec.lean ====
/-
  The reference is the specification.

  With every index word of the pair array, read signed, in `[0, 4200)`: the wrap of a negative index is the identity, each
  gather reads the table at the row the word names, the joined feature row splits the 19001-term contraction into the
  19000 protein terms plus the concentration term, and layer by layer (both drugs alike) the reference's operations read
  at an index are the specification's layers. So the reference's result, as a function of its nine arguments, is
  `Cert.Spec.G` of them (`ref_is_G`), and every execution of the reference ends with its result array there (`ref_run`).
-/
import proofs.«406060_j54142357733864_2_alg».proof.Proof.RefRun
import proofs.«406060_j54142357733864_2_alg».proof.Proof.Spec
import proofs.«406060_j54142357733864_2_alg».proof.Proof.LibRowGather

noncomputable section

namespace Cert.RefIsSpec

open Idealize.ShloMosaic Idealize.ShloMosaic.ValueIdx Idealize.ShloMosaic.TcCoe Idealize.SL.Sem
open Cert.ReferenceIdeal Cert.ReferenceIdeal.Read Cert.Spec
open scoped BigOperators

variable [Cert.ReferenceIdeal.Facts]

/-- Every index word, read signed, names a table row: it lies in `[0, 4200)`. -/
def InRange (x1 : IVec S8192x2 32) : Prop := ∀ j : S8192x2.Idx, 0 ≤ (x1 j).toInt ∧ (x1 j).toInt < 4200

/-- The wrap of a negative index (add the table's height if the word is negative) leaves a nonnegative word as it is. -/
theorem wrap_nonneg (w : BitVec 32) (h : 0 ≤ w.toInt) :
    Scalar.select (IntOp.cmpi .slt w 0#32) (IntOp.addi w 4200#32) w = w := by
  have hs : w.slt 0#32 = false := by
    simp only [BitVec.slt, BitVec.toInt_zero, decide_eq_false_iff_not, not_lt]
    exact h
  simp only [Scalar.select, IntOp.cmpi, hs]
  rfl

/-- A nonnegative word read signed and read unsigned is one number. -/
theorem toInt_toNat_of_nonneg (w : BitVec 32) (h : 0 ≤ w.toInt) : w.toInt.toNat = w.toNat := by
  rw [BitVec.toInt_eq_toNat_cond] at h ⊢
  have := w.isLt
  split at h <;> split <;> omega

set_option maxHeartbeats 400000 in
/-- The first drug's index column, after the wrap, at pair `b`: the index word itself. -/
theorem col_fst (x1 : IVec S8192x2 32) (hx : InRange x1) (b : Fin 8192) :
    val_main_v7 (F := Ideal) x1 (ix2 b (0 : Fin 1)) = x1 (ix2 b (0 : Fin 2)) := by
  rw [val_main_v7_apply, val_main_v6_apply, val_main_v3_apply, val_main_v5_apply, val_main_v2_apply, val_main_c_apply,
    val_main_v4_apply, val_main_c_0_apply, val_main_v1_apply, val_main_v0_apply]
  have e : idx_main_v0 (idx_main_v1 (idx_main_v7 (ix2 b (0 : Fin 1)))) = ix2 b (0 : Fin 2) := by
    funext a
    match a with
    | ⟨0, _⟩ => exact Fin.ext (Nat.div_one _)
    | ⟨1, _⟩ => rfl
  rw [e]
  exact wrap_nonneg _ (hx _).1

set_option maxHeartbeats 400000 in
/-- The second drug's index column, after the wrap, at pair `b`: the index word itself. -/
theorem col_snd (x1 : IVec S8192x2 32) (hx : InRange x1) (b : Fin 8192) :
    val_main_v16 (F := Ideal) x1 (ix2 b (0 : Fin 1)) = x1 (ix2 b (1 : Fin 2)) := by
  rw [val_main_v16_apply, val_main_v15_apply, val_main_v12_apply, val_main_v14_apply, val_main_v11_apply, val_main_c_1_apply,
    val_main_v13_apply, val_main_c_2_apply, val_main_v10_apply, val_main_v9_apply]
  have e : idx_main_v9 (idx_main_v10 (idx_main_v16 (ix2 b (0 : Fin 1)))) = ix2 b (1 : Fin 2) := by
    funext a
    match a with
    | ⟨0, _⟩ => exact Fin.ext (Nat.div_one _)
    | ⟨1, _⟩ => rfl
  rw [e]
  exact wrap_nonneg _ (hx _).1

/-- A table gathered by rows at a column of in-range index words reads, at `(b, j)`, the table at the row the word
    names (read unsigned and held below the height, as the specification reads it) and column `j`. -/
theorem rows_at (x0 : FVec Ideal S4200x19000 .f32) (col : IVec S8192x1 32) (x1 : IVec S8192x2 32) (s : Fin 2)
    (b : Fin 8192) (j : Fin 19000) (hc : col (ix2 b (0 : Fin 1)) = x1 (ix2 b s)) (hx : InRange x1) :
    Host.gather gather_S4200x19000_S8192x1_S8192x19000_1_0_n_n_0_1_119000 x0 col (ix2 b j)
      = x0 (ix2 (drugRow x1 s b) j) := by
  have h : 0 ≤ (col (ix2 b (0 : Fin 1))).toInt ∧ (col (ix2 b (0 : Fin 1))).toInt < 4200 := by rw [hc]; exact hx _
  refine (Cert.LibRowGather.gather_rows_apply
    Facts₀.gather_S4200x19000_S8192x1_S8192x19000_1_0_n_n_0_1_119000_wf x0 col b j h).trans ?_
  congr 1
  funext a
  match a with
  | ⟨0, _⟩ =>
    refine Fin.ext ?_
    show (col (ix2 b (0 : Fin 1))).toInt.toNat = min (x1 (ix2 b s)).toNat 4199
    have h' := h
    rw [hc] at h' ⊢
    rw [toInt_toNat_of_nonneg _ h'.1]
    have := toInt_toNat_of_nonneg _ h'.1
    omega
  | ⟨1, _⟩ => rfl

/-- A row of 19000 gathered features with one more value behind it: at a protein column, the gathered feature. -/
theorem joined_prot (g : FVec Ideal S8192x19000 .f32) (c : FVec Ideal S8192x1 .f32) (b : Fin 8192) (j : Fin 19000) :
    concatenate S8192x19001 1 [⟨S8192x19000, g⟩, ⟨S8192x1, c⟩] Facts₀.concatenates_S8192x19000_S8192x1_S8192x19001_d1
      (ix2 b (protRow j)) = g (ix2 b j) :=
  concatenate_pair_apply_left (1 : Fin 2) g c _ (ix2 b (protRow j)) rfl (ix2 b j)
    (fun a => match a with | ⟨0, _⟩ => rfl | ⟨1, _⟩ => rfl)

/-- … and at the last column, the value behind. -/
theorem joined_last (g : FVec Ideal S8192x19000 .f32) (c : FVec Ideal S8192x1 .f32) (b : Fin 8192) :
    concatenate S8192x19001 1 [⟨S8192x19000, g⟩, ⟨S8192x1, c⟩] Facts₀.concatenates_S8192x19000_S8192x1_S8192x19001_d1
      (ix2 b concRow) = c (ix2 b (0 : Fin 1)) :=
by
  have key := concatenate_pair_apply_right (t := S8192x19001) (s₁ := S8192x19000) (s₂ := S8192x1) (1 : Fin 2) g c
    Facts₀.concatenates_S8192x19000_S8192x1_S8192x19001_d1 (ix2 b concRow) rfl rfl (ix2 b (0 : Fin 1))
  refine key ?_ ?_
  · intro a
    match a with
    | ⟨0, _⟩ => exact fun _ => rfl
    | ⟨1, _⟩ => exact fun h => absurd rfl h
  · show (0 : Nat) + 19000 = 19000
    rfl

/-- A sum over the 19001 rows of the first weight matrix: its 19000 protein rows, then the last row. -/
theorem sum_rows (f : Fin 19001 → EReal) :
    ∑ k : Fin 19001, f k = (∑ j : Fin 19000, f (protRow j)) + f concRow :=
  Fin.sum_univ_castSucc f

set_option maxHeartbeats 400000 in
/-- The first drug's first hidden layer, as the reference computes it, is the specification's. -/
theorem layer0_fst (x0 : FVec Ideal S4200x19000 .f32) (x1 : IVec S8192x2 32) (x2 : FVec Ideal S8192x3 .f32)
    (x3 : FVec Ideal S19001x1024 .f32) (x4 : FVec Ideal S1024 .f32) (hx : InRange x1) (b : Fin 8192) (n : Fin 1024) :
    val_main_v26 (F := Ideal) x0 x1 x2 x3 x4 (ix2 b n) = hid0 x0 x1 x2 x3 x4 0 b n := by
  rw [val_main_v26_apply, val_main_v25_apply, val_main_v22_apply, val_main_call0_v0_apply, val_main_call0_cst_apply,
    val_main_v24_apply, val_main_v23_apply, sum_rows]
  have el : ∀ k, lidx_main_v22 (ix2 b n) k = ix2 b k := fun k => by
    funext a; match a with | ⟨0, _⟩ => rfl | ⟨1, _⟩ => rfl
  have er : ∀ k, ridx_main_v22 (ix2 b n) k = ix2 k n := fun k => by
    funext a; match a with | ⟨0, _⟩ => rfl | ⟨1, _⟩ => rfl
  have eb : idx_main_v23 (idx_main_v24 (ix2 b n)) = ix1 n := by
    funext a; match a with | ⟨0, _⟩ => rfl
  simp only [el, er, eb]
  unfold val_main_v19
  simp only [joined_prot, joined_last]
  rw [val_main_v18_apply]
  have ec : idx_main_v18 (ix2 b (0 : Fin 1)) = ix2 b (concCol 0) := by
    funext a; match a with | ⟨0, _⟩ => rfl | ⟨1, _⟩ => rfl
  have eg : ∀ j : Fin 19000, val_main_v8 (F := Ideal) x0 x1 (ix2 b j) = x0 (ix2 (drugRow x1 0 b) j) := fun j => by
    unfold val_main_v8
    exact rows_at x0 _ x1 0 b j (col_fst x1 hx b) hx
  simp only [eg, ec, Ideal.maximumf_def, Ideal.addf_def, Ideal.mulf_def, Ideal.ofBits_def, Ideal.ofBits_zero_f32]
  rfl

set_option maxHeartbeats 400000 in
/-- The second drug's first hidden layer likewise. -/
theorem layer0_snd (x0 : FVec Ideal S4200x19000 .f32) (x1 : IVec S8192x2 32) (x2 : FVec Ideal S8192x3 .f32)
    (x3 : FVec Ideal S19001x1024 .f32) (x4 : FVec Ideal S1024 .f32) (hx : InRange x1) (b : Fin 8192) (n : Fin 1024) :
    val_main_v40 (F := Ideal) x0 x1 x2 x3 x4 (ix2 b n) = hid0 x0 x1 x2 x3 x4 1 b n := by
  rw [val_main_v40_apply, val_main_v39_apply, val_main_v36_apply, val_main_call2_v0_apply, val_main_call2_cst_apply,
    val_main_v38_apply, val_main_v37_apply, sum_rows]
  have el : ∀ k, lidx_main_v36 (ix2 b n) k = ix2 b k := fun k => by
    funext a; match a with | ⟨0, _⟩ => rfl | ⟨1, _⟩ => rfl
  have er : ∀ k, ridx_main_v36 (ix2 b n) k = ix2 k n := fun k => by
    funext a; match a with | ⟨0, _⟩ => rfl | ⟨1, _⟩ => rfl
  have eb : idx_main_v37 (idx_main_v38 (ix2 b n)) = ix1 n := by
    funext a; match a with | ⟨0, _⟩ => rfl
  simp only [el, er, eb]
  unfold val_main_v21
  simp only [joined_prot, joined_last]
  rw [val_main_v20_apply]
  have ec : idx_main_v20 (ix2 b (0 : Fin 1)) = ix2 b (concCol 1) := by
    funext a; match a with | ⟨0, _⟩ => rfl | ⟨1, _⟩ => rfl
  have eg : ∀ j : Fin 19000, val_main_v17 (F := Ideal) x0 x1 (ix2 b j) = x0 (ix2 (drugRow x1 1 b) j) := fun j => by
    unfold val_main_v17
    exact rows_at x0 _ x1 1 b j (col_snd x1 hx b) hx
  simp only [eg, ec, Ideal.maximumf_def, Ideal.addf_def, Ideal.mulf_def, Ideal.ofBits_def, Ideal.ofBits_zero_f32]
  rfl

set_option maxHeartbeats 400000 in
/-- The first drug's second hidden layer. -/
theorem layer1_fst (x0 : FVec Ideal S4200x19000 .f32) (x1 : IVec S8192x2 32) (x2 : FVec Ideal S8192x3 .f32)
    (x3 : FVec Ideal S19001x1024 .f32) (x4 : FVec Ideal S1024 .f32) (x5 : FVec Ideal S1024x512 .f32) (x6 : FVec Ideal S512 .f32) (hx : InRange x1) (b : Fin 8192) (p : Fin 512) :
    val_main_v31 (F := Ideal) x0 x1 x2 x3 x4 x5 x6 (ix2 b p) = hid1 x0 x1 x2 x3 x4 x5 x6 0 b p := by
  rw [val_main_v31_apply, val_main_v30_apply, val_main_v27_apply, val_main_call1_v0_apply, val_main_call1_cst_apply,
    val_main_v29_apply, val_main_v28_apply]
  have el : ∀ k, lidx_main_v27 (ix2 b p) k = ix2 b k := fun k => by
    funext a; match a with | ⟨0, _⟩ => rfl | ⟨1, _⟩ => rfl
  have er : ∀ k, ridx_main_v27 (ix2 b p) k = ix2 k p := fun k => by
    funext a; match a with | ⟨0, _⟩ => rfl | ⟨1, _⟩ => rfl
  have eb : idx_main_v28 (idx_main_v29 (ix2 b p)) = ix1 p := by
    funext a; match a with | ⟨0, _⟩ => rfl
  simp only [el, er, eb, layer0_fst x0 x1 x2 x3 x4 hx, Ideal.maximumf_def, Ideal.addf_def, Ideal.mulf_def, Ideal.ofBits_def, Ideal.ofBits_zero_f32]
  rfl

set_option maxHeartbeats 400000 in
/-- The second drug's second hidden layer. -/
theorem layer1_snd (x0 : FVec Ideal S4200x19000 .f32) (x1 : IVec S8192x2 32) (x2 : FVec Ideal S8192x3 .f32)
    (x3 : FVec Ideal S19001x1024 .f32) (x4 : FVec Ideal S1024 .f32) (x5 : FVec Ideal S1024x512 .f32) (x6 : FVec Ideal S512 .f32) (hx : InRange x1) (b : Fin 8192) (p : Fin 512) :
    val_main_v45 (F := Ideal) x0 x1 x2 x3 x4 x5 x6 (ix2 b p) = hid1 x0 x1 x2 x3 x4 x5 x6 1 b p := by
  rw [val_main_v45_apply, val_main_v44_apply, val_main_v41_apply, val_main_call3_v0_apply, val_main_call3_cst_apply,
    val_main_v43_apply, val_main_v42_apply]
  have el : ∀ k, lidx_main_v41 (ix2 b p) k = ix2 b k := fun k => by
    funext a; match a with | ⟨0, _⟩ => rfl | ⟨1, _⟩ => rfl
  have er : ∀ k, ridx_main_v41 (ix2 b p) k = ix2 k p := fun k => by
    funext a; match a with | ⟨0, _⟩ => rfl | ⟨1, _⟩ => rfl
  have eb : idx_main_v42 (idx_main_v43 (ix2 b p)) = ix1 p := by
    funext a; match a with | ⟨0, _⟩ => rfl
  simp only [el, er, eb, layer0_snd x0 x1 x2 x3 x4 hx, Ideal.maximumf_def, Ideal.addf_def, Ideal.mulf_def, Ideal.ofBits_def, Ideal.ofBits_zero_f32]
  rfl

set_option maxHeartbeats 400000 in
/-- The first drug's embedding. -/
theorem layer2_fst (x0 : FVec Ideal S4200x19000 .f32) (x1 : IVec S8192x2 32) (x2 : FVec Ideal S8192x3 .f32)
    (x3 : FVec Ideal S19001x1024 .f32) (x4 : FVec Ideal S1024 .f32) (x5 : FVec Ideal S1024x512 .f32) (x6 : FVec Ideal S512 .f32)
    (x7 : FVec Ideal S512x128 .f32) (x8 : FVec Ideal S128 .f32) (hx : InRange x1) (b : Fin 8192) (q : Fin 128) :
    val_main_v35 (F := Ideal) x0 x1 x2 x3 x4 x5 x6 x7 x8 (ix2 b q) = emb x0 x1 x2 x3 x4 x5 x6 x7 x8 0 b q := by
  rw [val_main_v35_apply, val_main_v32_apply, val_main_v34_apply, val_main_v33_apply]
  have el : ∀ k, lidx_main_v32 (ix2 b q) k = ix2 b k := fun k => by
    funext a; match a with | ⟨0, _⟩ => rfl | ⟨1, _⟩ => rfl
  have er : ∀ k, ridx_main_v32 (ix2 b q) k = ix2 k q := fun k => by
    funext a; match a with | ⟨0, _⟩ => rfl | ⟨1, _⟩ => rfl
  have eb : idx_main_v33 (idx_main_v34 (ix2 b q)) = ix1 q := by
    funext a; match a with | ⟨0, _⟩ => rfl
  simp only [el, er, eb, layer1_fst x0 x1 x2 x3 x4 x5 x6 hx, Ideal.maximumf_def, Ideal.addf_def, Ideal.mulf_def, Ideal.ofBits_def, Ideal.ofBits_zero_f32]
  rfl

set_option maxHeartbeats 400000 in
/-- The second drug's embedding. -/
theorem layer2_snd (x0 : FVec Ideal S4200x19000 .f32) (x1 : IVec S8192x2 32) (x2 : FVec Ideal S8192x3 .f32)
    (x3 : FVec Ideal S19001x1024 .f32) (x4 : FVec Ideal S1024 .f32) (x5 : FVec Ideal S1024x512 .f32) (x6 : FVec Ideal S512 .f32)
    (x7 : FVec Ideal S512x128 .f32) (x8 : FVec Ideal S128 .f32) (hx : InRange x1) (b : Fin 8192) (q : Fin 128) :
    val_main_v49 (F := Ideal) x0 x1 x2 x3 x4 x5 x6 x7 x8 (ix2 b q) = emb x0 x1 x2 x3 x4 x5 x6 x7 x8 1 b q := by
  rw [val_main_v49_apply, val_main_v46_apply, val_main_v48_apply, val_main_v47_apply]
  have el : ∀ k, lidx_main_v46 (ix2 b q) k = ix2 b k := fun k => by
    funext a; match a with | ⟨0, _⟩ => rfl | ⟨1, _⟩ => rfl
  have er : ∀ k, ridx_main_v46 (ix2 b q) k = ix2 k q := fun k => by
    funext a; match a with | ⟨0, _⟩ => rfl | ⟨1, _⟩ => rfl
  have eb : idx_main_v47 (idx_main_v48 (ix2 b q)) = ix1 q := by
    funext a; match a with | ⟨0, _⟩ => rfl
  simp only [el, er, eb, layer1_snd x0 x1 x2 x3 x4 x5 x6 hx, Ideal.maximumf_def, Ideal.addf_def, Ideal.mulf_def, Ideal.ofBits_def, Ideal.ofBits_zero_f32]
  rfl

set_option maxHeartbeats 400000 in
/-- THE REFERENCE IS THE SPECIFICATION: with every index word in range, the reference's result, as a function of the
    nine arguments, is `G` of them. -/
theorem ref_is_G (x0 : FVec Ideal S4200x19000 .f32) (x1 : IVec S8192x2 32) (x2 : FVec Ideal S8192x3 .f32)
    (x3 : FVec Ideal S19001x1024 .f32) (x4 : FVec Ideal S1024 .f32) (x5 : FVec Ideal S1024x512 .f32) (x6 : FVec Ideal S512 .f32)
    (x7 : FVec Ideal S512x128 .f32) (x8 : FVec Ideal S128 .f32) (hx : InRange x1) :
    val_main_v51 (F := Ideal) x0 x1 x2 x3 x4 x5 x6 x7 x8 = G x0 x1 x2 x3 x4 x5 x6 x7 x8 := by
  funext i
  obtain ⟨b, rfl⟩ : ∃ b : Fin 8192, i = ix1 b := ⟨i 0, eq_ix1 (n := 8192) i⟩
  rw [val_main_v51_apply, val_main_cst_apply]
  have ei : ∀ k, idx_main_v51 (ix1 b) k = ix2 b k := fun k => by
    funext a; match a with | ⟨0, _⟩ => rfl | ⟨1, _⟩ => rfl
  simp only [ei, val_main_v50_apply, layer2_fst x0 x1 x2 x3 x4 x5 x6 x7 x8 hx, layer2_snd x0 x1 x2 x3 x4 x5 x6 x7 x8 hx,
    Ideal.maximumf_def, Ideal.addf_def, Ideal.mulf_def, Ideal.ofBits_def, Ideal.ofBits_zero_f32, zero_add]
  rfl

/-- THE REFERENCE'S RUN AGAINST THE SPECIFICATION: from any memory whose index words are in range, every weakly fair
    execution of the reference terminates with its result at `G` of the arguments, the arguments unchanged. -/
theorem ref_run (m : (ℓ : Loc nD τ sig) → Buf (Elt Ideal) ℓ) (ρ : Dev nD → PrngReg)
    (hx : ∀ c : Dev nD, InRange (m ((c.tc : Thread nD τ).loc main_arg1))) :
    θ_run (defs (F := Ideal)) (onTc (τ := τ) (main (F := Ideal))) ⟨m, fun _ => 0, ρ⟩ fun r => ∀ c : Dev nD,
      r.2.mem ((c.tc : Thread nD τ).loc main_v51)
        = G (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono
    (fun _ h c => ⟨(h c).1.trans ((val_main_v51_eq m c).trans (ref_is_G _ _ _ _ _ _ _ _ _ (hx c))), (h c).2⟩)
    (Cert.ReferenceIdeal.Value.run (F := Ideal) m ρ)

end Cert.RefIsSpec

end
-- ==== Proof.FrameDefs.lean ====
/- The run of @main for the frame and the value claims: the two kernel regions as segment records around the
   thread state "every unscoped buffer at the boundary's contents, the generator register at some state, nothing
   owed", the contents the regions leave, and the launch. Stated over ANY proof data of the two pipelines that
   meet the contracts GatherKit / MlpKit below: the definitions and the valuations' facts. -/
import proofs.«406060_j54142357733864_2_alg».proof.Proof.Gen.KernelIdeal.Launch
import proofs.«406060_j54142357733864_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.Gen

variable {F : FTy → Type} [FloatOps F]

local notation "𝕄" => MT nD τ sig Unit (Elt F) ℕ (Pipeline.UD sig nD τ) ℕ

/-- Contents of every TensorCore reference, core by core. -/
abbrev VTy (F : FTy → Type) : Type := (c : Dev nD) → (b : Ref sig .tc) → Buf (Elt F) ((c : Thread nD τ).loc b)

/-! ## The contracts the two pipelines' proof data meet -/

/-- The one operand the gather kernel reads by transfers of its own: the padded table left in HBM. -/
abbrev HbmTab : Finset (Ref sig .tc) := {main_v6}

/-- What the run asks of the gather pipeline's proof data, at admissible table contents `a0` and region-entry
    contents `V`: the arrays are `V`'s, whole shares, nothing owed, no bound on the recorded waits; the invariant
    before the first point comes from the scratch, the generator register, the kernel's own cells at zero, the HBM
    table and the two index tables, and gives them back after the last; and the body obligation. -/
structure GatherKit (a0 : (pcfg0 (F := F)).Adm) (V : VTy F) {K : Type} [Fintype K] (osem : K → SemLoc sig)
    (dat : (c : Dev nD) → Dat τ (Elt F) Unit ℕ (Pipeline.UD sig nD τ) ℕ (cfg0 a0) c) : Prop where
  ho : Pipeline.OwnSemFacts spec0 osem
  hA : ∀ c w, (dat c).A w = V c (Pipeline.arrRef spec0 w)
  hshare : ∀ c w, (dat c).share w = fullShare
  howed : ∀ c t, (dat c).owed t = 0
  hrec : ∀ c t, (dat c).recorded t = Set.univ
  hin : ∀ c, (iprop(Pipeline.ΦD osem spec0 HbmTab V c ∗ Pipeline.prefHeld pre0 c (fun _ => fullShare) a0.1) : sProp 𝕄) ⊢ (dat c).Φ 0
  hout : ∀ c, (dat c).Φ (Fin.last _) ⊢ (iprop(Pipeline.ΦD osem spec0 HbmTab V c ∗ Pipeline.prefHeld pre0 c (fun _ => fullShare) a0.1) : sProp 𝕄)
  hbody : ∀ c, BodyObligationLoose (dat c) (defs₀ (F := F)) Variants.none () Set.univ

/-- What the run asks of the MLP pipeline's proof data at region-entry contents `V`: as above, the invariant a
    tracking one over the scratch accumulators (from the class invariant before the first point, back to it after the
    last). -/
structure MlpKit (V : VTy F) (dat : (c : Dev nD) → Dat τ (Elt F) Unit ℕ (Pipeline.UD sig nD τ) ℕ cfg1 c) : Prop where
  hA : ∀ c w, (dat c).A w = V c (Pipeline.arrRef spec1 w)
  hshare : ∀ c w, (dat c).share w = fullShare
  howed : ∀ c t, (dat c).owed t = 0
  hrec : ∀ c t, (dat c).recorded t = Set.univ
  hin : ∀ c, (Pipeline.ΦA spec1 c : sProp 𝕄) ⊢ (dat c).Φ 0
  hout : ∀ c, (dat c).Φ (Fin.last _) ⊢ (Pipeline.ΦA spec1 c : sProp 𝕄)
  hbody : ∀ c, BodyObligationLoose (dat c) (defs₀ (F := F)) Variants.none () Set.univ

variable (m : (ℓ : Loc nD τ sig) → Buf (Elt F) ℓ) (ρ : Dev nD → PrngReg)

/-! ## The tables' contents -/

/-- The two index tables as the gather region finds them. -/
def tabs : pre0.Contents (Elt F) := fun k => match k with
  | ⟨0, _⟩ => V2 m 0 main_v1
  | ⟨1, _⟩ => V2 m 0 main_v3

/-- They are admissible: the gather's index maps read no table, so its side condition is trivial. -/
abbrev adm0 : (pcfg0 (F := F)).Adm := ⟨tabs m, trivial⟩

/-- Each pipeline's admissible table contents: pipeline 1 has no table. -/
abbrev adm : (p : Fin 2) → (pcfgs (F := F) p).Adm
  | ⟨0, _⟩ => adm0 m
  | ⟨1, _⟩ => cfg1.toPCfg_adm

section Run

variable {K : Type} [Fintype K] (osem : K → SemLoc sig)
variable (dat0 : (c : Dev nD) → Dat τ (Elt F) Unit ℕ (Pipeline.UD sig nD τ) ℕ (cfg0 (adm0 m)) c)
variable (dat1 : (c : Dev nD) → Dat τ (Elt F) Unit ℕ (Pipeline.UD sig nD τ) ℕ cfg1 c)

/-! ## What the regions leave -/

/-- The buffers after the gather region: the two gathered outputs at what the write-backs leave. -/
def W3 (c : Dev nD) : Valuation τ sig (Elt F) :=
  Function.update (Function.update (V2 m c) main_v7_0 ((dat0 c).arrAt 0 (cfg0 (adm0 m)).N)) main_v7_1 ((dat0 c).arrAt 1 (cfg0 (adm0 m)).N)

/-- The unknowns of the generated valuations, as far as the gather region decides them. -/
def outs0 : Outs (F := F) := fun _ r c => W3 m dat0 c r

/-- The unknowns of the generated valuations: after the gather region its two outputs (the HBM table as entered); after
    the MLP region its result. -/
def outs : Outs (F := F) := fun J r c => match J with
  | 7 => Function.update (V6 m (outs0 m dat0) c) main_v17 ((dat1 c).arrAt 11 cfg1.N) r
  | _ => W3 m dat0 c r

/-! ## The proof data family and the thread state -/

/-- Every pipeline's proof data: a literal match, so that the pinned configuration at a numeral reduces. -/
def pdats : (p : Fin 2) → (c : Dev nD) → Dat τ (Elt F) Unit ℕ (Pipeline.UD sig nD τ) ℕ (Pipeline.pin (pcfgs (F := F)) (adm m) p) c
  | ⟨0, _⟩ => fun c => dat0 c
  | ⟨1, _⟩ => fun c => dat1 c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every segment: the generator register at some state, nothing owed. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R (F := F) c

set_option maxHeartbeats 400000

/-! ## The valuations around the regions, read at the buffers the regions touch -/

/-- An update of a valuation at one TensorCore reference is not seen at another. -/
theorem upd_other (W : Valuation τ sig (Elt F)) {r r' : Ref sig .tc} (h : r ≠ r') (x : (Proc.devRef (τ := τ) .tc r').ty.Contents (Elt F)) :
    Function.update W (Proc.devRef .tc r') x (Proc.devRef .tc r) = W (Proc.devRef .tc r) :=
  Function.update_of_ne (StableHlo.devRef_ne_of_ne h) _ _

theorem W3_v7_0 (c : Dev nD) : W3 m dat0 c main_v7_0 = (dat0 c).arrAt 0 (cfg0 (adm0 m)).N :=
  (upd_other _ (by decide : main_v7_0 ≠ main_v7_1) _).trans (Function.update_self ..)

theorem W3_v7_1 (c : Dev nD) : W3 m dat0 c main_v7_1 = (dat0 c).arrAt 1 (cfg0 (adm0 m)).N :=
  Function.update_self ..

theorem W3_other (c : Dev nD) (r : Ref sig .tc) (h0 : r ≠ main_v7_0) (h1 : r ≠ main_v7_1) : W3 m dat0 c r = V2 m c r :=
  (upd_other _ h1 _).trans (upd_other _ h0 _)

/-- The gather's unknowns are read at item 3 alone, where they are the valuation written here. -/
theorem outs_three (r : Ref sig .tc) (c : Dev nD) : outs m dat0 dat1 3 r c = W3 m dat0 c r := rfl

/-- Item 7's unknown is the MLP region's result over its entry contents. -/
theorem outs_seven (r : Ref sig .tc) (c : Dev nD) :
    outs m dat0 dat1 7 r c = Function.update (V6 m (outs0 m dat0) c) main_v17 ((dat1 c).arrAt 11 cfg1.N) r := rfl

/-- After the gather region: the HBM table as entered, -/
theorem V3_v6 (c : Dev nD) : V3 m (outs m dat0 dat1) c main_v6 = V2 m c main_v6 :=
  (Function.update_self (f := Function.update (Function.update (V2 m c) main_v7_0 (outs m dat0 dat1 3 main_v7_0 c)) main_v7_1 (outs m dat0 dat1 3 main_v7_1 c))
      (Proc.devRef (τ := τ) .tc main_v6) (outs m dat0 dat1 3 main_v6 c)).trans
    ((outs_three m dat0 dat1 main_v6 c).trans (W3_other m dat0 c main_v6 (by decide) (by decide)))

/-- the second gathered output at what its write-backs leave, -/
theorem V3_v7_1 (c : Dev nD) : V3 m (outs m dat0 dat1) c main_v7_1 = (dat0 c).arrAt 1 (cfg0 (adm0 m)).N :=
  (upd_other (Function.update (Function.update (V2 m c) main_v7_0 (outs m dat0 dat1 3 main_v7_0 c)) main_v7_1 (outs m dat0 dat1 3 main_v7_1 c))
      (by decide : main_v7_1 ≠ main_v6) (outs m dat0 dat1 3 main_v6 c)).trans
    ((Function.update_self (f := Function.update (V2 m c) main_v7_0 (outs m dat0 dat1 3 main_v7_0 c))
        (Proc.devRef (τ := τ) .tc main_v7_1) (outs m dat0 dat1 3 main_v7_1 c)).trans
      ((outs_three m dat0 dat1 main_v7_1 c).trans (W3_v7_1 m dat0 c)))

/-- the first likewise, -/
theorem V3_v7_0 (c : Dev nD) : V3 m (outs m dat0 dat1) c main_v7_0 = (dat0 c).arrAt 0 (cfg0 (adm0 m)).N :=
  (upd_other (Function.update (Function.update (V2 m c) main_v7_0 (outs m dat0 dat1 3 main_v7_0 c)) main_v7_1 (outs m dat0 dat1 3 main_v7_1 c))
      (by decide : main_v7_0 ≠ main_v6) (outs m dat0 dat1 3 main_v6 c)).trans
    ((upd_other (Function.update (V2 m c) main_v7_0 (outs m dat0 dat1 3 main_v7_0 c)) (by decide : main_v7_0 ≠ main_v7_1) (outs m dat0 dat1 3 main_v7_1 c)).trans
      ((Function.update_self (f := V2 m c) (Proc.devRef (τ := τ) .tc main_v7_0) (outs m dat0 dat1 3 main_v7_0 c)).trans
        ((outs_three m dat0 dat1 main_v7_0 c).trans (W3_v7_0 m dat0 c))))

/-- The generated valuation after the gather region is the one written here, at every TensorCore reference. -/
theorem V3_eq_W3 (c : Dev nD) (r : Ref sig .tc) : V3 m (outs m dat0 dat1) c r = W3 m dat0 c r := by
  rcases Decidable.em (r = main_v6) with h6 | h6
  · rw [h6]; exact (V3_v6 m dat0 dat1 c).trans (W3_other m dat0 c main_v6 (by decide) (by decide)).symm
  rcases Decidable.em (r = main_v7_1) with h1 | h1
  · rw [h1]; exact (V3_v7_1 m dat0 dat1 c).trans (W3_v7_1 m dat0 c).symm
  rcases Decidable.em (r = main_v7_0) with h0 | h0
  · rw [h0]; exact (V3_v7_0 m dat0 dat1 c).trans (W3_v7_0 m dat0 c).symm
  exact (V3_of m _ c r (by simp only [List.mem_cons, List.not_mem_nil, or_false, not_or]; exact ⟨h0, h1, h6⟩)).trans
    (W3_other m dat0 c r h0 h1).symm

/-- Three updates of one valuation at equal values are equal. -/
theorem upd3_congr (W : Valuation τ sig (Elt F)) (a b d : DevRef τ sig) {x x' : a.ty.Contents (Elt F)} (hx : x = x')
    {y y' : b.ty.Contents (Elt F)} (hy : y = y') {z z' : d.ty.Contents (Elt F)} (hz : z = z') :
    Function.update (Function.update (Function.update W a x) b y) d z = Function.update (Function.update (Function.update W a x') b y') d z' := by
  subst hx hy hz; rfl

/-- Only the gather's unknowns reach the later valuations up to the MLP region's entry. -/
theorem V3_outs (c : Dev nD) : V3 m (outs m dat0 dat1) c = V3 m (outs0 m dat0) c :=
  upd3_congr (V2 m c) (Proc.devRef .tc main_v7_0) (Proc.devRef .tc main_v7_1) (Proc.devRef .tc main_v6)
    (outs_three m dat0 dat1 main_v7_0 c) (outs_three m dat0 dat1 main_v7_1 c) (outs_three m dat0 dat1 main_v6 c)

theorem V6_eq (c : Dev nD) : V6 m (outs m dat0 dat1) c = V6 m (outs0 m dat0) c :=
  congrArg (fun W => StableHlo.after hostOps1_2 (StableHlo.after hostOps1_1 (StableHlo.after hostOps1 W))) (V3_outs m dat0 dat1 c)

/-- After the MLP region the result buffer holds what its write-backs leave. -/
theorem V7_v17 (c : Dev nD) : V7 m (outs m dat0 dat1) c main_v17 = (dat1 c).arrAt 11 cfg1.N :=
  (Function.update_self (f := V6 m (outs m dat0 dat1) c) (Proc.devRef (τ := τ) .tc main_v17) (outs m dat0 dat1 7 main_v17 c)).trans
    ((outs_seven m dat0 dat1 main_v17 c).trans
      (Function.update_self (f := V6 m (outs0 m dat0) c) (Proc.devRef (τ := τ) .tc main_v17) ((dat1 c).arrAt 11 cfg1.N)))

/-- The index tables' contents are the region-entry contents of their buffers, on the one core. -/
theorem tabs_eq (c : Dev nD) (k : Fin pre0.K) : tabs m k = V2 m c (pre0.ref k) := by
  obtain rfl : c = 0 := Subsingleton.elim _ _
  match k with
  | ⟨0, _⟩ => rfl
  | ⟨1, _⟩ => rfl

/-! ## The regions' arrays at their exits -/

/-- Every window of the MLP call but the last is an input, and none of their arrays is the result's buffer. -/
theorem inputs1 : ∀ w : Fin 12, w ≠ 11 → (cfg1.win w).isOut = false ∧ Pipeline.arrRef spec1 w ∉ ([main_v17] : List (Ref sig .tc)) := by
  decide

/-- At the MLP region's exit each of its arrays holds what the pipeline leaves there: an input array what it held at
    entry (nothing writes it), the result's buffer what the write-backs leave. -/
theorem hF1 (k1 : MlpKit (fun c b => V6 m (outs0 m dat0) c b) dat1) (c : Dev nD) (w : Fin 12) :
    (pdats m dat0 dat1 1 c).arrAt w cfg1.N = V7 m (outs m dat0 dat1) c (Pipeline.arrRef spec1 w) := by
  by_cases hw : w = 11
  · subst hw; exact (V7_v17 m dat0 dat1 c).symm
  · obtain ⟨h1, h2⟩ := inputs1 w hw
    rw [V7_of m _ c _ h2, V6_eq m dat0 dat1 c]
    exact ((dat1 c).arrAt_in w h1 _).trans (k1.hA c w)

/-- Every other unscoped buffer is as the region found it. -/
theorem hrest1 (c : Dev nD) (b : Ref sig .tc) (hb : b ∉ Finset.univ.image (Pipeline.arrRef spec1)) :
    V7 m (outs m dat0 dat1) c b = V6 m (outs m dat0 dat1) c b :=
  V7_of m _ c b fun hm => by
    rw [List.mem_singleton] at hm; subst hm
    exact hb (Finset.mem_image.mpr ⟨11, Finset.mem_univ _, rfl⟩)

/-- At the gather region's exit its two arrays (both outputs) hold what the write-backs leave. -/
theorem hF0 (c : Dev nD) (w : Fin 2) :
    (pdats m dat0 dat1 0 c).arrAt w (cfg0 (adm0 m)).N = V3 m (outs m dat0 dat1) c (Pipeline.arrRef spec0 w) :=
  match w with
  | ⟨0, _⟩ => (V3_v7_0 m dat0 dat1 c).symm
  | ⟨1, _⟩ => (V3_v7_1 m dat0 dat1 c).symm

/-- Every other unscoped buffer is as the gather region found it: the HBM table by its unknown, the rest untouched. -/
theorem hrest0 (c : Dev nD) (b : Ref sig .tc) (hb : b ∉ Finset.univ.image (Pipeline.arrRef spec0)) :
    V3 m (outs m dat0 dat1) c b = V2 m c b := by
  have h0 : b ≠ main_v7_0 := fun e => hb (Finset.mem_image.mpr ⟨0, Finset.mem_univ _, e.symm⟩)
  have h1 : b ≠ main_v7_1 := fun e => hb (Finset.mem_image.mpr ⟨1, Finset.mem_univ _, e.symm⟩)
  refine (V3_eq_W3 m dat0 dat1 c b).trans (W3_other m dat0 c b h0 h1)

/-! ## The gather region's thread states -/

/-- The unscoped buffers the gather region routes itself: the two index tables and the HBM table. -/
abbrev S0 : Finset (Ref sig .tc) := {main_v1, main_v3, main_v6}

/-- The gather region is entered from every unscoped buffer at the contents after the second host stretch, -/
abbrev entry0 (c : Dev nD) : sProp 𝕄 := iprop(StableHlo.held (c : Thread nD τ) (Pipeline.ucRefs τ sig) (V2 m c) ∗ R (F := F) c)
/-- and left with its two outputs written. -/
abbrev exit0 (c : Dev nD) : sProp 𝕄 := iprop(StableHlo.held (c : Thread nD τ) (Pipeline.ucRefs τ sig) (V3 m (outs m dat0 dat1) c) ∗ R (F := F) c)
/-- Into its invariant go the generator register, its own cells at zero and the HBM table, -/
abbrev keepIn0 (c : Dev nD) : sProp 𝕄 :=
  iprop((∃ r, prngReg c r) ∗ Pipeline.ownSems0 (Ix := Unit) (Name := ℕ) (U := Pipeline.UD sig nD τ) (Lvl := ℕ) (Val := Elt F) (τ := τ) osem c
      ∗ (((c : Thread nD τ).loc main_v6) ↦{fullShare} V2 m c main_v6))
/-- out of it come the register, the HBM table and the two index tables, -/
abbrev keepOut0 (c : Dev nD) : sProp 𝕄 :=
  iprop((∃ r, prngReg c r) ∗ (((c : Thread nD τ).loc main_v6) ↦{fullShare} V2 m c main_v6)
      ∗ Pipeline.prefHeld pre0 c (fun _ => fullShare) (tabs m))
/-- and every other unscoped buffer that is no array of its windows bypasses it. -/
abbrev bypass0 (c : Dev nD) : sProp 𝕄 :=
  bigSep (Pipeline.restRefs sig spec0 \ S0) fun b => ((c : Thread nD τ).loc b) ↦{fullShare} V2 m c b

end Run

end Cert.KernelIdeal.Hand

end
-- ==== Proof.FrameReg0.lean ====
/- The gather region's four entailments around its thread states: the entry sorted into what the pipeline takes,
   the invariant before the first point and after the last, the exit put back together. -/
import proofs.«406060_j54142357733864_2_alg».proof.Proof.FrameDefs

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

variable {K : Type} [Fintype K] (osem : K → SemLoc sig)
variable (dat0 : (c : Dev nD) → Dat τ (Elt F) Unit ℕ (Pipeline.UD sig nD τ) ℕ (cfg0 (adm0 m)) c)
variable (dat1 : (c : Dev nD) → Dat τ (Elt F) Unit ℕ (Pipeline.UD sig nD τ) ℕ cfg1 c)

set_option maxHeartbeats 400000

/-- The buffers the gather region routes itself are unscoped and no array of its windows. -/
theorem S0_sub : S0 ⊆ Pipeline.restRefs sig spec0 := by decide

/-- The unscoped buffers that are no array of the gather's windows: the three it routes itself, and the bypass. -/
theorem rest0_split (c : Dev nD) :
    (Pipeline.unscopedRest (Ix := Unit) (Name := ℕ) (U := Pipeline.UD sig nD τ) (Lvl := ℕ) spec0 c (fun b => V2 m c b) : sProp 𝕄)
      = iprop((bigSep S0 fun b => ((c : Thread nD τ).loc b) ↦{fullShare} V2 m c b) ∗ bypass0 m c) := by
  unfold Pipeline.unscopedRest; exact BI.bigSep_sdiff_split S0_sub

/-- The three, listed. -/
theorem routed0_eq (c : Dev nD) :
    (bigSep S0 (fun b => ((c : Thread nD τ).loc b) ↦{fullShare} V2 m c b) : sProp 𝕄)
      = iprop((((c : Thread nD τ).loc main_v1) ↦{fullShare} V2 m c main_v1) ∗ (((c : Thread nD τ).loc main_v3) ↦{fullShare} V2 m c main_v3)
          ∗ (((c : Thread nD τ).loc main_v6) ↦{fullShare} V2 m c main_v6)) := by
  rw [BI.bigSep_eq_bigSepL_of_eq [main_v1, main_v3, main_v6] (by decide) (by decide)]; rfl

/-- The two index tables held whole at the admissible contents are their buffers at the entry contents. -/
theorem tables0_eq (c : Dev nD) :
    (Pipeline.prefHeld pre0 c (fun _ => fullShare) (tabs m) : sProp 𝕄)
      = iprop((((c : Thread nD τ).loc main_v1) ↦{fullShare} V2 m c main_v1) ∗ (((c : Thread nD τ).loc main_v3) ↦{fullShare} V2 m c main_v3)) := by
  unfold Pipeline.prefHeld
  rw [bigSep_univ_two, tabs_eq m c 0, tabs_eq m c 1]
  rfl

/-- ENTRY: the unscoped buffers at the entry contents split into the two output arrays, the two index tables, what
    the invariant takes (the register, the own cells, the HBM table) and what bypasses the region. -/
theorem entry0_sorts (k0 : GatherKit (adm0 m) (fun c b => V2 m c b) osem dat0) (c : Dev nD) :
    (iprop(entry0 m c ∗ Pipeline.ownSems0 (Ix := Unit) (Name := ℕ) (U := Pipeline.UD sig nD τ) (Lvl := ℕ) (Val := Elt F) (τ := τ) osem c ∗ levAts L lv) : sProp 𝕄)
      ⊢ |={Set.univ}=> iprop((pdats m dat0 dat1 0 c).arrays ((pdats m dat0 dat1 0 c).arrAt · 0)
          ∗ Pipeline.prefHeld (pcfgs (F := F) 0).pre c (fun _ => fullShare) (adm m 0).1
          ∗ (pdats m dat0 dat1 0 c).owesAt () 0 ∗ keepIn0 m osem c ∗ bypass0 m c) := by
  have hsplit := Pipeline.arrays_of_unscopedBufs (p := 0) (pcfgs (F := F)) (adm m) (pdats m dat0 dat1) (launch0 (F := F)).win (launch0 (F := F)).arr_whole c
    (fun w => k0.hshare c w) (fun b => V2 m c b) (fun w => k0.hA c w)
  rw [Pipeline.unscopedBufs_held] at hsplit
  iintro ⟨⟨Hub, Hreg, Howes⟩, Hcells, -⟩
  ihave Hs := hsplit $$ Hub
  icases Hs with ⟨Harr, Hrest⟩
  ihave Hr := (Entails.of_eq (rest0_split m c)) $$ Hrest
  icases Hr with ⟨Hrouted, Hby⟩
  ihave Hl := (Entails.of_eq (routed0_eq m c)) $$ Hrouted
  icases Hl with ⟨Hv1, Hv3, Hv6⟩
  imodintro
  isplitl [Harr]; · iexact Harr
  isplitl [Hv1 Hv3]
  · iapply (Entails.of_eq (tables0_eq m c).symm)
    isplitl [Hv1]; · iexact Hv1
    iexact Hv3
  isplitl [Howes]
  · unfold Pipeline.Dat.owesAt Pipeline.owesWithin
    icases Howes with ⟨%W, Howes⟩; iexists W; isplitr
    · ipureintro; exact fun _ _ => Or.inl ((k0.hrec c 0) ▸ Set.mem_univ _)
    rw [show (pdats m dat0 dat1 0 c).owed 0 = 0 from k0.howed c 0]; iexact Howes
  isplitl [Hreg Hcells Hv6]
  · isplitl [Hreg]; · iexact Hreg
    isplitl [Hcells]; · iexact Hcells
    iexact Hv6
  iexact Hby

/-- The invariant before the first point. -/
theorem inv0_first (k0 : GatherKit (adm0 m) (fun c b => V2 m c b) osem dat0) (c : Dev nD) :
    (iprop(keepIn0 m osem c ∗ Pipeline.prefHeld (pcfgs (F := F) 0).pre c (fun _ => fullShare) (adm m 0).1
        ∗ Pipeline.scopedRest (Pipeline.pin (pcfgs (F := F)) (adm m) 0).spec c) : sProp 𝕄) ⊢ (pdats m dat0 dat1 0 c).Φ 0 := by
  refine .trans ?_ (k0.hin c)
  rw [Pipeline.ΦD_eq, BI.bigSep_singleton]
  iintro ⟨⟨Hreg, Hcells, Hv6⟩, Htabs, Hscoped⟩
  isplitl [Hscoped Hreg Hcells Hv6]
  · isplitl [Hscoped]; · iexact Hscoped
    isplitl [Hreg]; · iexact Hreg
    isplitl [Hcells]; · iexact Hcells
    iexact Hv6
  iexact Htabs

/-- The invariant after the last point gives everything back. -/
theorem inv0_last (k0 : GatherKit (adm0 m) (fun c b => V2 m c b) osem dat0) (c : Dev nD) :
    (pdats m dat0 dat1 0 c).Φ (Fin.last (Pipeline.pin (pcfgs (F := F)) (adm m) 0).N)
      ⊢ (iprop(keepOut0 m c ∗ Pipeline.ownSems0 (Ix := Unit) (Name := ℕ) (U := Pipeline.UD sig nD τ) (Lvl := ℕ) (Val := Elt F) (τ := τ) osem c
          ∗ Pipeline.scopedRest (Pipeline.pin (pcfgs (F := F)) (adm m) 0).spec c) : sProp 𝕄) := by
  refine (k0.hout c).trans ?_
  rw [Pipeline.ΦD_eq, BI.bigSep_singleton]
  iintro ⟨⟨Hscoped, Hreg, Hcells, Hv6⟩, Htabs⟩
  isplitl [Hreg Hv6 Htabs]
  · isplitl [Hreg]; · iexact Hreg
    isplitl [Hv6]; · iexact Hv6
    iexact Htabs
  isplitl [Hcells]; · iexact Hcells
  iexact Hscoped

/-- EXIT: the arrays at their final contents, the tables, the HBM table and the bypassing buffers are every unscoped
    buffer at the contents after the region. -/
theorem exit0_joins (k0 : GatherKit (adm0 m) (fun c b => V2 m c b) osem dat0) (c : Dev nD) :
    (iprop((pdats m dat0 dat1 0 c).arrays ((pdats m dat0 dat1 0 c).arrAt · (Pipeline.pin (pcfgs (F := F)) (adm m) 0).N)
        ∗ (pdats m dat0 dat1 0 c).owesAt () (Fin.last (Pipeline.pin (pcfgs (F := F)) (adm m) 0).N) ∗ keepOut0 m c ∗ bypass0 m c) : sProp 𝕄)
      ⊢ |={Set.univ}=> exit0 m dat0 dat1 c := by
  have hjoin := Pipeline.unscopedBufs_of_arrays (p := 0) (pcfgs (F := F)) (adm m) (Ix := Unit) (Name := ℕ) (U := Pipeline.UD sig nD τ) (Lvl := ℕ)
    (launch0 (F := F)).win (launch0 (F := F)).arr_whole c (pdats m dat0 dat1) (fun w => k0.hshare c w)
    (fun b => V2 m c b) (fun b => V3 m (outs m dat0 dat1) c b) ((pdats m dat0 dat1 0 c).arrAt · (cfg0 (adm0 m)).N)
    (hF0 m dat0 dat1 c) (hrest0 m dat0 dat1 c)
  rw [Pipeline.unscopedBufs_held] at hjoin
  iintro ⟨Harr, Howes, ⟨Hreg, Hv6, Htabs⟩, Hby⟩
  ihave Ht := (Entails.of_eq (tables0_eq m c)) $$ Htabs
  icases Ht with ⟨Hv1, Hv3⟩
  ihave Hrouted := (Entails.of_eq (routed0_eq m c).symm) $$ [Hv1 Hv3 Hv6]
  · isplitl [Hv1]; · iexact Hv1
    isplitl [Hv3]; · iexact Hv3
    iexact Hv6
  ihave Hrest := (Entails.of_eq (rest0_split m c).symm) $$ [Hrouted Hby]
  · isplitl [Hrouted]; · iexact Hrouted
    iexact Hby
  imodintro
  isplitl [Harr Hrest]
  · iapply hjoin; isplitl [Harr] <;> iassumption
  isplitl [Hreg]; · iexact Hreg
  unfold Pipeline.Dat.owesAt Pipeline.owesWithin
  icases Howes with ⟨%W, -, Howes⟩; iexists W
  rw [show (pdats m dat0 dat1 0 c).owed (Fin.last _) = 0 from k0.howed c _]; iexact Howes

end Cert.KernelIdeal.Hand

end
-- ==== Proof.Frame.lean ====
/- The run of @main for the frame and the value claims: the two kernel regions as segment records around the
   thread state "every unscoped buffer at the boundary's contents, the generator register at some state, nothing
   owed", and the launch. Over ANY proof data of the two pipelines that meet the contracts GatherKit / MlpKit. -/
import proofs.«406060_j54142357733864_2_alg».proof.Proof.FrameDefs
import proofs.«406060_j54142357733864_2_alg».proof.Proof.FrameReg0

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

variable {K : Type} [Fintype K] (osem : K → SemLoc sig)
variable (dat0 : (c : Dev nD) → Dat τ (Elt F) Unit ℕ (Pipeline.UD sig nD τ) ℕ (cfg0 (adm0 m)) c)
variable (dat1 : (c : Dev nD) → Dat τ (Elt F) Unit ℕ (Pipeline.UD sig nD τ) ℕ cfg1 c)

set_option maxHeartbeats 400000

/-! ## The regions as segments -/

set_option backward.isDefEq.respectTransparency.types false in
/-- REGION 0 (the gather): its 128 row copies complete on DMA cells of its own, its two index tables are prefetched;
    the four entailments are the gather region's module's. -/
def reg0 (k0 : GatherKit (adm0 m) (fun c b => V2 m c b) osem dat0) :
    Pipeline.RegionSeg (pcfgs (F := F)) (adm m) (pdats m dat0 dat1) () defs₀ 𝒱₀ L lv 0 where
  win := (launch0 (F := F)).win.to₀
  block_pos := (launch0 (F := F)).block_pos
  stage_whole := (launch0 (F := F)).stage_whole
  K := K
  osem := osem
  ho := k0.ho
  hbody c := k0.hbody c
  hwaits := Pipeline.hwaits_of_owed_zero _ _ _ _ L lv 0 fun c t => k0.howed c t
  pre c := entry0 m c
  post c := exit0 m dat0 dat1 c
  X c := keepIn0 m osem c
  Y c := keepOut0 m c
  Z c := bypass0 m c
  hentry c := entry0_sorts m osem dat0 dat1 k0 c
  hin c := inv0_first m osem dat0 dat1 k0 c
  hout c := inv0_last m osem dat0 dat1 k0 c
  hexit c := exit0_joins m osem dat0 dat1 k0 c

set_option backward.isDefEq.respectTransparency.types false in
/-- REGION 1 (the MLP): no cell of its own, no table; the generator register into the class invariant and out, the
    arrays split out of the unscoped buffers and put back with the result written. -/
def reg1 (k1 : MlpKit (fun c b => V6 m (outs0 m dat0) c b) dat1) :
    Pipeline.RegionSeg (pcfgs (F := F)) (adm m) (pdats m dat0 dat1) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := k1.hbody c
  hwaits := Pipeline.hwaits_of_owed_zero _ _ _ _ L lv 1 fun c t => k1.howed c t
  pre c := iprop(StableHlo.held (c : Thread nD τ) (Pipeline.ucRefs τ sig) (V6 m (outs m dat0 dat1) c) ∗ R (F := F) c)
  post c := iprop(StableHlo.held (c : Thread nD τ) (Pipeline.ucRefs τ sig) (V7 m (outs m dat0 dat1) c) ∗ R (F := F) c)
  X c := iprop(∃ r, prngReg c r)
  Y c := iprop(∃ r, prngReg c r)
  Z c := Pipeline.unscopedRest (Ix := Unit) (Name := ℕ) (U := Pipeline.UD sig nD τ) (Lvl := ℕ) spec1 c (fun b => V6 m (outs m dat0 dat1) c b)
  hentry c := by
    rw [Pipeline.ownSems0_none]
    have hA : ∀ w, (pdats m dat0 dat1 1 c).A w = (fun b => V6 m (outs m dat0 dat1) c b) (Pipeline.arrRef spec1 w) := fun w => by
      show _ = V6 m (outs m dat0 dat1) c (Pipeline.arrRef spec1 w)
      rw [V6_eq m dat0 dat1 c]; exact k1.hA c w
    have hsplit := Pipeline.arrays_of_unscopedBufs (p := 1) (pcfgs (F := F)) (adm m) (pdats m dat0 dat1) (launch1 (F := F)).win (launch1 (F := F)).arr_whole c
      (fun w => k1.hshare c w) (fun b => V6 m (outs m dat0 dat1) c b) hA
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr
      · ipureintro; exact fun _ _ => Or.inl ((k1.hrec c 0) ▸ Set.mem_univ _)
      rw [show (pdats m dat0 dat1 1 c).owed 0 = 0 from k1.howed c 0]; iexact HO
    isplitl [Hp]; · iexact Hp
    iexact Hrest
  hin c := by
    refine .trans ?_ (k1.hin c)
    unfold Pipeline.ΦA
    iintro ⟨Hp, -, Hr⟩
    isplitl [Hr]; · iexact Hr
    iexact Hp
  hout c := by
    rw [Pipeline.ownSems0_none]
    refine (k1.hout c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) (adm m) (Ix := Unit) (Name := ℕ) (U := Pipeline.UD sig nD τ) (Lvl := ℕ)
      (launch1 (F := F)).win (launch1 (F := F)).arr_whole c (pdats m dat0 dat1) (fun w => k1.hshare c w)
      (fun b => V6 m (outs m dat0 dat1) c b) (fun b => V7 m (outs m dat0 dat1) c b) ((pdats m dat0 dat1 1 c).arrAt · cfg1.N)
      (hF1 m dat0 dat1 k1 c) (hrest1 m dat0 dat1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m dat0 dat1 1 c).owed (Fin.last _) = 0 from k1.howed c _]; iexact HO

/-! ## The launch -/

/-- The launch element: the pipeline library's at every staging cell, the transfers' counters at nothing. -/
abbrev u₀ : Pipeline.UD sig nD τ :=
  (initOf (Pipeline.cells (Pipeline.pin (pcfgs (F := F)) (adm m)) (cellOf_inj (adm m))) (Pipeline.launchToks (Pipeline.pin (pcfgs (F := F)) (adm m)) (cellOf_inj (adm m))), 1)

/-- It yields the pipeline library's element (the left component), no ghost resource per core. -/
theorem hu₀ : (ownU (u₀ m) : sProp 𝕄) ⊢ |={Set.univ}=> iprop(BI.own (embL (initOf (Pipeline.cells (Pipeline.pin (pcfgs (F := F)) (adm m)) (cellOf_inj (adm m))) (Pipeline.launchToks (Pipeline.pin (pcfgs (F := F)) (adm m)) (cellOf_inj (adm m))))) ∗ bigSep Finset.univ (fun _ : Dev nD => (BI.emp : sProp 𝕄))) := by
  iintro Hu
  ihave Hpair := (ownU_pair _ _) $$ Hu
  icases Hpair with ⟨Hlib, -⟩
  imodintro
  isplitl [Hlib]; · iexact Hlib
  rw [BI.bigSep_emp_const]; iempintro

/-- What the launch deals each core makes the rest state: the register at its launch state, nothing owed. -/
theorem hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
      ⊢ (|={Set.univ}=> bigSep Finset.univ (E (F := F) 0) : sProp 𝕄) := by
  refine Pipeline.initEach L lv fun c => ?_
  iintro ⟨⟨-, Howes, -, Hreg, -⟩, -⟩
  imodintro
  isplitl [Hreg]; · iexists _; iexact Hreg
  iexists ∅; iexact Howes

/-- The rest state owes nothing. -/
theorem hE2 (c : Dev nD) : E (F := F) 2 c ⊢ (iprop(∃ W, owes (c : Thread nD τ) (0 : CellTallies nD τ sig Unit) W) : sProp 𝕄) := by
  iintro ⟨-, Howes⟩; iexact Howes

set_option backward.isDefEq.respectTransparency.types false in
/-- THE FRAME: every weakly fair execution of @main terminates and every argument ends as launched. -/
theorem frame (k0 : GatherKit (adm0 m) (fun c b => V2 m c b) osem dat0) (k1 : MlpKit (fun c b => V6 m (outs0 m dat0) c b) dat1) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Gen.frame_cond m embL () 𝒱₀ L lv (fun _ _ => rfl) ρ (outs m dat0 dat1) (adm m) (pdats m dat0 dat1)
    (0 : Dev nD → CellTallies nD τ sig Unit) (fun _ => iprop(emp)) (u₀ m) (hu₀ m) E (hE0 ρ) hE2
    (reg0 m osem dat0 dat1 k0) (fun _ => .rfl) (fun _ => .rfl)
    (reg1 m dat0 dat1 k1) (fun _ => .rfl) (fun _ => .rfl)

set_option backward.isDefEq.respectTransparency.types false in
/-- THE RUN WITH THE RESULT: the same launch, its post also reading the result buffer: it holds what the MLP region's
    write-backs leave. -/
theorem run_value (k0 : GatherKit (adm0 m) (fun c b => V2 m c b) osem dat0) (k1 : MlpKit (fun c b => V6 m (outs0 m dat0) c b) dat1) :
    θ_run defs (onTc (τ := τ) (main (F := F))) ⟨m, fun _ => 0, ρ⟩ (fun r => ∀ c : Dev nD,
      r.2.mem ((c.tc : Thread nD τ).loc main_v17) = (dat1 c).arrAt 11 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine Pipeline.θ_run_regions_kit_dev (pcfgs (F := F)) (adm m) (pdats m dat0 dat1) () (cellOf_inj (adm m)) embL defs₀ 𝒱₀ L lv m ρ main
    (segs m (outs m dat0 dat1) 𝒱₀ L lv E () (adm m) (pdats m dat0 dat1) (reg0 m osem dat0 dat1 k0) (reg1 m dat0 dat1 k1))
    (fun c Q => by
      rewrite [main_chain c, Pipeline.Seg.run_eq_chain,
        show (segs m (outs m dat0 dat1) 𝒱₀ L lv E () (adm m) (pdats m dat0 dat1) (reg0 m osem dat0 dat1 k0) (reg1 m dat0 dat1 k1) c).map Pipeline.Seg.prog = [
          StableHlo.seq hostOps0,
          StableHlo.seq hostOps0_1,
          Prog.lift (.customCall (Pipeline.entry 0) ()),
          StableHlo.seq hostOps1,
          StableHlo.seq hostOps1_1,
          StableHlo.seq hostOps1_2,
          Prog.lift (.customCall (Pipeline.entry 1) ()) ] from rfl]
      exact .rfl)
    (fun c => by simp only [segs, Pipeline.Seg.pipes_host, Pipeline.Seg.pipes_region, Pipeline.Seg.pipes_nil]; decide)
    (0 : Dev nD → CellTallies nD τ sig Unit) (fun _ _ => rfl) (fun _ => iprop(emp)) (u₀ m) (hu₀ m)
    (T₀ := fun c => iprop(StableHlo.held (c : Thread nD τ) (Pipeline.ucRefs τ sig) (V0 m c) ∗ E (F := F) 0 c))
    (Tₙ := fun c => StableHlo.held (c : Thread nD τ) (Pipeline.ucRefs τ sig) (V7 m (outs m dat0 dat1) c))
    (hch := fun c => ⟨.rfl, .rfl, .rfl, .rfl, .rfl, .rfl, .rfl, BI.sep_mono_r (hE2 c)⟩)
    (hinit := ?_)
    (QY := fun c s => s.mem ((c.tc : Thread nD τ).loc main_v17) = (dat1 c).arrAt 11 cfg1.N ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8))
    (hfin := fun c s' => ?_) (hQ := fun _ h => h)
  · -- the launch: the unscoped buffers are held at the launch contents; the rest makes the first thread state's rest
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
            : sProp 𝕄) := by
      rw [← bigSep_sep']
      exact bigSep_mono fun c _ => by
        rw [← Pipeline.unscopedBufs_held (Ix := Unit) (Name := ℕ) (U := Pipeline.UD sig nD τ) (Lvl := ℕ) c (V0 m c)]; exact BI.Entails.refl _
    iintro ⟨H, Hla⟩
    ihave H' := hsplit $$ H
    icases H' with ⟨Hh, Hr⟩
    imod (hE0 (F := F) ρ) $$ [Hr Hla] with HE
    · isplitl [Hr]; · iexact Hr
      iexact Hla
    imodintro
    rw [bigSep_sep' Finset.univ (fun c : Dev nD => StableHlo.held (c : Thread nD τ) (Pipeline.ucRefs τ sig) (V0 m c)) (E (F := F) 0)]
    isplitl [Hh]; · iexact Hh
    iexact HE
  · -- the end: the result's buffer and each argument's read off the last valuation
    unfold StableHlo.held
    iintro ⟨Hh, HSI⟩
    ihave Hr := (pointsTo_read_all (Pipeline.ucRefs τ sig) (fun b => ((c : Thread nD τ).1, b)) (V7 m (outs m dat0 dat1) c) s') $$ [Hh HSI]
    · isplitl [Hh] <;> iassumption
    icases Hr with ⟨%h, HSI⟩
    imodintro
    isplitr
    · ipureintro
      exact ⟨(h (Proc.devRef .tc main_v17) (Finset.mem_filter.mpr ⟨StableHlo.devRef_mem_tcRefs main_v17, by decide⟩)).trans (V7_v17 m dat0 dat1 c),
        (h (Proc.devRef .tc main_arg0) (Finset.mem_filter.mpr ⟨StableHlo.devRef_mem_tcRefs main_arg0, by decide⟩)).trans (V7_main_arg0 m (outs m dat0 dat1) c),
        (h (Proc.devRef .tc main_arg1) (Finset.mem_filter.mpr ⟨StableHlo.devRef_mem_tcRefs main_arg1, by decide⟩)).trans (V7_main_arg1 m (outs m dat0 dat1) c),
        (h (Proc.devRef .tc main_arg2) (Finset.mem_filter.mpr ⟨StableHlo.devRef_mem_tcRefs main_arg2, by decide⟩)).trans (V7_main_arg2 m (outs m dat0 dat1) c),
        (h (Proc.devRef .tc main_arg3) (Finset.mem_filter.mpr ⟨StableHlo.devRef_mem_tcRefs main_arg3, by decide⟩)).trans (V7_main_arg3 m (outs m dat0 dat1) c),
        (h (Proc.devRef .tc main_arg4) (Finset.mem_filter.mpr ⟨StableHlo.devRef_mem_tcRefs main_arg4, by decide⟩)).trans (V7_main_arg4 m (outs m dat0 dat1) c),
        (h (Proc.devRef .tc main_arg5) (Finset.mem_filter.mpr ⟨StableHlo.devRef_mem_tcRefs main_arg5, by decide⟩)).trans (V7_main_arg5 m (outs m dat0 dat1) c),
        (h (Proc.devRef .tc main_arg6) (Finset.mem_filter.mpr ⟨StableHlo.devRef_mem_tcRefs main_arg6, by decide⟩)).trans (V7_main_arg6 m (outs m dat0 dat1) c),
        (h (Proc.devRef .tc main_arg7) (Finset.mem_filter.mpr ⟨StableHlo.devRef_mem_tcRefs main_arg7, by decide⟩)).trans (V7_main_arg7 m (outs m dat0 dat1) c),
        (h (Proc.devRef .tc main_arg8) (Finset.mem_filter.mpr ⟨StableHlo.devRef_mem_tcRefs main_arg8, by decide⟩)).trans (V7_main_arg8 m (outs m dat0 dat1) c)⟩
    · iexact HSI

end Cert.KernelIdeal.Hand

end
-- ==== Proof.GatherDat.lean ====
/- Region 0 (the row gather): its proof data at the entry contents, its schedule, and the body obligation from the
   kernel's triple. Everything is stated with the prefetched tables' contents a variable. -/
import proofs.«406060_j54142357733864_2_alg».proof.Proof.Gen.KernelIdeal.Launch
import proofs.«406060_j54142357733864_2_alg».proof.Proof.Gen.KernelIdeal.Skeleton
import Idealize.ShloMosaic.Lib.Pipeline.FrameBody
import Idealize.ShloMosaic.Lib.Pipeline.Frame
import Idealize.ShloMosaic.Lib.ValueIdx
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)
open Idealize.ShloMosaic.ValueIdx (ix1 ix2)
open Cert.KernelIdeal.Gen

variable {F : FTy → Type} [FloatOps F]

local notation "𝕄" => MT nD τ sig Unit (Elt F) ℕ (Pipeline.UD sig nD τ) ℕ

/-! ## The gathered rows -/

/-- Position 64·t + r of an index table, for a row r of the block at point t. -/
def wordPos (t : Fin grid0.N) (r : Fin 64) : Fin 8192 :=
  ⟨64 * t.val + r.val, by have h : t.val < 128 := lt_of_lt_of_eq t.isLt N_0; omega⟩

/-- The 64 rows of the table tab that the words 64·t … 64·t+63 of idx name: row r is row (idx (64·t + r)) of tab
    (reduced below 4200, which changes nothing for a word that names a row). -/
def gatherRows (idx : Vec F S8192 .i32) (tab : Vec F S4200x19200 .f32) (t : Fin grid0.N) : Vec F S64x19200 .f32 :=
  fun x => tab (ix2 (⟨(idx (ix1 (wordPos t (x 0))) : BitVec 32).toNat % 4200, Nat.mod_lt _ (by decide)⟩ : Fin 4200) (x 1))

/-! ## The schedule of custom_call 0, the tables' contents a variable -/

variable (a : (pcfg0 (F := F)).Adm)

/-- The current staging memref of each output window at point t. -/
abbrev st0_0 (t : Fin (cfg0 a).N) := ((cfg0 a).win 0).stage ((cfg0 a).slots t 0)
abbrev st0_1 (t : Fin (cfg0 a).N) := ((cfg0 a).win 1).stage ((cfg0 a).slots t 1)

/-- The kernel body at point t, on what the pipeline calls it with. -/
abbrev bodyAt0 (t : Fin (cfg0 a).N) : Prog (TpuEff nD τ sig (Elt F) Λ₀ .tc) PUnit :=
  cc0_gather_kernel (grid0.coords t) (Memref.whole main_v1) (Memref.isWhole_whole _) (Memref.whole main_v3) (Memref.isWhole_whole _)
    (Memref.whole main_v6) (Memref.isWhole_whole _)
    (spec0_0.stage ((cfg0 a).slots t 0)) (hstage0_0 (((cfg0 a).slots t 0).cast nbuf0_0))
    (spec0_1.stage ((cfg0 a).slots t 1)) (hstage0_1 (((cfg0 a).slots t 1).cast nbuf0_1))
    (Memref.whole cc0_scratch0) (Memref.isWhole_whole _) (Memref.whole cc0_scratch1) (Memref.isWhole_whole _) cc0_scratch2 cc0_scratch3

/-- The pipeline's call of the body label at point t is that. -/
theorem body_eq0 (t : Fin (cfg0 a).N) :
    defs₀ (F := F) .tc (cfg0 a).body ((cfg0 a).bodyArgs t ((cfg0 a).slots t)) = bodyAt0 a t := rfl

/-- Both output windows are written back at every point: the block index (t, 0) moves at every step. -/
theorem flush0_0 (t : Fin (cfg0 a).N) : ((cfg0 a).win 0).flush t = true :=
  (by decide +kernel : ∀ t : Fin grid0.N, (true && (decide (t.val + 1 = grid0.N)
    || decide (∃ h : t.val + 1 < grid0.N, cc0_transform_1 (grid0.coords ⟨t.val + 1, h⟩) ≠ cc0_transform_1 (grid0.coords t)))) = true) t
theorem flush0_1 (t : Fin (cfg0 a).N) : ((cfg0 a).win 1).flush t = true :=
  (by decide +kernel : ∀ t : Fin grid0.N, (true && (decide (t.val + 1 = grid0.N)
    || decide (∃ h : t.val + 1 < grid0.N, cc0_transform_2 (grid0.coords ⟨t.val + 1, h⟩) ≠ cc0_transform_2 (grid0.coords t)))) = true) t
/-- Neither is ever fetched: an output. -/
theorem fetch0_0 (t : Fin (cfg0 a).N) : ((cfg0 a).win 0).fetch t = false := rfl
theorem fetch0_1 (t : Fin (cfg0 a).N) : ((cfg0 a).win 1).fetch t = false := rfl

/-! ## The kernel's own cells and the table it reads -/

/-- The kernel's 128 DMA semaphores, one per row copy: cells 4 … 131 of the pool. -/
abbrev osem0 : Fin 128 → SemLoc sig := fun j => SemLoc.dma ⟨4 + j.val, by have := j.isLt; show 4 + j.val < 150; omega⟩
theorem ownSemFacts0 : Pipeline.OwnSemFacts spec0 osem0 := by decide

/-- The operand left in HBM that the row copies read. -/
def H0 : Finset (Ref sig .tc) := {main_v6}
theorem H0_sub : H0 ⊆ Pipeline.restRefsP sig pre0 spec0 := by decide

variable (V : (c : Dev nD) → (b : Ref sig .tc) → Buf (Elt F) ((c : Thread nD τ).loc b))

/-! ## The proof data -/

/-- Region 0's invariant between points: the scoped rest (the two row scratches among it) at some contents, the generator
    register at some state, the 128 own cells at zero, the padded table whole at its entry contents, and both index tables
    whole at the admissible contents. -/
def Phi0 (c : Dev nD) : sProp 𝕄 :=
  iprop(Pipeline.ΦD osem0 spec0 H0 V c
    ∗ Pipeline.prefHeld (Ix := Unit) (Name := ℕ) (U := Pipeline.UD sig nD τ) (Lvl := ℕ) pre0 c (fun _ => fullShare) a.1)

/-- The proof data of pipeline 0 on core c at entry contents V and admissible tables a. -/
def dat0 (c : Dev nD) : Dat τ (Elt F) Unit ℕ (Pipeline.UD sig nD τ) ℕ (cfg0 a) c where
  A w := V c (Pipeline.arrRef spec0 w)
  after w t := match w with
    | ⟨0, _⟩ => k0_pay1 (gatherRows (V c main_v1) (V c main_v6) t)
    | ⟨1, _⟩ => k0_pay2 (gatherRows (V c main_v3) (V c main_v6) t)
  Φ _ := Phi0 a V c
  q _ := fullShare
  owed _ := 0

theorem A_eq0 (c : Dev nD) (w : Fin (cfg0 a).W) : (dat0 a V c).A w = V c (Pipeline.arrRef spec0 w) := by
  dsimp only [dat0]
theorem after0_0 (c : Dev nD) (t : Fin (cfg0 a).N) :
    (dat0 a V c).after 0 t = k0_pay1 (gatherRows (V c main_v1) (V c main_v6) t) := by dsimp only [dat0]; rfl
theorem after0_1 (c : Dev nD) (t : Fin (cfg0 a).N) :
    (dat0 a V c).after 1 t = k0_pay2 (gatherRows (V c main_v3) (V c main_v6) t) := by dsimp only [dat0]; rfl
/-- The same two, the window spelled as a literal of `Fin 2` (as the windows' conjunction lists them). -/
theorem afterW0_0 (c : Dev nD) (t : Fin (cfg0 a).N) :
    (dat0 a V c).after (0 : Fin 2) t = k0_pay1 (gatherRows (V c main_v1) (V c main_v6) t) := by dsimp only [dat0]
theorem afterW0_1 (c : Dev nD) (t : Fin (cfg0 a).N) :
    (dat0 a V c).after (1 : Fin 2) t = k0_pay2 (gatherRows (V c main_v3) (V c main_v6) t) := by dsimp only [dat0]
theorem Phi_eq0 (c : Dev nD) (t : Fin ((cfg0 a).N + 1)) : (dat0 a V c).Φ t = Phi0 a V c := rfl
theorem owed_eq0 (c : Dev nD) (t : Fin ((cfg0 a).N + 1)) : (dat0 a V c).owed t = 0 := rfl
theorem share_eq0 (c : Dev nD) (w : Fin (cfg0 a).W) : (dat0 a V c).share w = fullShare := by
  unfold Dat.share; split <;> rfl

/-! ## The kernel's triple, as the obligation takes it -/

/-- The gather kernel at point t on any whole output memrefs: from the outputs and the two row scratches at anything, the
    128 cells at zero, the padded table and both index tables at the entry contents and the core owing nothing, it runs to
    the continuation holding each output at the truncation of its gathered rows and everything else as it was. -/
def GatherRun (c : Dev nD) : Prop :=
  ∀ (t : Fin grid0.N) (arg4 : Memref sig .tc .vmem S64x19200 .bf16) (harg4 : arg4.IsWhole)
    (arg5 : Memref sig .tc .vmem S64x19200 .bf16) (harg5 : arg5.IsWhole) (W : Waits sig Unit) (K : PUnit → sProp 𝕄),
    iprop((∃ d, owns (c : Thread nD τ) arg4 fullShare d) ∗ (∃ d, owns (c : Thread nD τ) arg5 fullShare d)
        ∗ (∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f)
        ∗ Pipeline.ownSems0 (Ix := Unit) (Name := ℕ) (U := Pipeline.UD sig nD τ) (Lvl := ℕ) (Val := Elt F) (τ := τ) osem0 c
        ∗ (((c : Thread nD τ).loc main_v6) ↦{fullShare} V c main_v6)
        ∗ (((c : Thread nD τ).loc main_v1) ↦{fullShare} V c main_v1)
        ∗ (((c : Thread nD τ).loc main_v3) ↦{fullShare} V c main_v3)
        ∗ owes (c : Thread nD τ) 0 W
        ∗ (iprop(owns (c : Thread nD τ) arg4 fullShare (k0_pay1 (gatherRows (V c main_v1) (V c main_v6) t))
            ∗ owns (c : Thread nD τ) arg5 fullShare (k0_pay2 (gatherRows (V c main_v3) (V c main_v6) t))
            ∗ (∃ f : Buf (Elt F) ((c : Thread nD τ).loc cc0_scratch0), ((c : Thread nD τ).loc cc0_scratch0) ↦{fullShare} f)
            ∗ (∃ f : Buf (Elt F) ((c : Thread nD τ).loc cc0_scratch1), ((c : Thread nD τ).loc cc0_scratch1) ↦{fullShare} f)
            ∗ Pipeline.ownSems0 (Ix := Unit) (Name := ℕ) (U := Pipeline.UD sig nD τ) (Lvl := ℕ) (Val := Elt F) (τ := τ) osem0 c
            ∗ (((c : Thread nD τ).loc main_v6) ↦{fullShare} V c main_v6)
            ∗ (((c : Thread nD τ).loc main_v1) ↦{fullShare} V c main_v1)
            ∗ (((c : Thread nD τ).loc main_v3) ↦{fullShare} V c main_v3)
            ∗ (∃ W', owes (c : Thread nD τ) 0 W')) -∗ K ⟨⟩))
      ⊢ wp frame (wpE (defs₀ (F := F)) Variants.none c none) Set.univ
          (cc0_gather_kernel (grid0.coords t) (Memref.whole main_v1) (Memref.isWhole_whole _) (Memref.whole main_v3) (Memref.isWhole_whole _)
            (Memref.whole main_v6) (Memref.isWhole_whole _) arg4 harg4 arg5 harg5
            (Memref.whole cc0_scratch0) (Memref.isWhole_whole _) (Memref.whole cc0_scratch1) (Memref.isWhole_whole _) cc0_scratch2 cc0_scratch3) K

/-! ## The invariant, conjunct by conjunct -/

/-- The padded table's points-to, listed. -/
theorem hbmPts0_eq (c : Dev nD) :
    (bigSep H0 (fun b => ((c : Thread nD τ).loc b) ↦{fullShare} V c b) : sProp 𝕄)
      = iprop(((c : Thread nD τ).loc main_v6) ↦{fullShare} V c main_v6) := by
  rw [BI.bigSep_eq_bigSepL_of_eq [main_v6] (by decide) (by decide)]; rfl

/-- The two index tables' points-tos, listed. -/
theorem prefHeld0_eq (c : Dev nD) (pf : pre0.Contents (Elt F)) :
    (Pipeline.prefHeld (Ix := Unit) (Name := ℕ) (U := Pipeline.UD sig nD τ) (Lvl := ℕ) pre0 c (fun _ => fullShare) pf : sProp 𝕄)
      = iprop((((c : Thread nD τ).loc (pre0.ref 0)) ↦{fullShare} pf 0) ∗ (((c : Thread nD τ).loc (pre0.ref 1)) ↦{fullShare} pf 1)) := by
  unfold Pipeline.prefHeld; exact bigSep_W0 _

/-! ## The body obligation -/

set_option maxHeartbeats 400000 in
/-- The library's body obligation at every point, from the kernel's triple, for tables whose admissible contents are the
    entry contents of their buffers. The invariant hands the kernel its two row scratches, its cells at zero, the padded
    table and the index tables, and takes them back as they were; whatever the output buffers held is overwritten by the
    truncated gathered rows; the core owes nothing before or after. -/
theorem body_obligation0 (c : Dev nD) (ha : ∀ k, a.1 k = V c (pre0.ref k)) (hrun : GatherRun V c) :
    BodyObligation (dat0 (F := F) a V c) (defs₀ (F := F)) Variants.none () Set.univ := fun t => by
  rw [bigSep_W0, bigSep_W0, body_eq0]
  dsimp only
  unfold bodyAt0
  rw [Phi_eq0, Phi_eq0, afterW0_0, afterW0_1]
  unfold Phi0
  rw [Pipeline.ΦD_eq, scopedRest0_eq, hbmPts0_eq, prefHeld0_eq, ha 0, ha 1]
  unfold Dat.owesAt Pipeline.owesWithin
  rw [owed_eq0, owed_eq0]
  iintro ⟨⟨⟨⟨Hs0, Hs1, Hrest⟩, Hg, Hq, Hh⟩, Hv1, Hv3⟩, ⟨%W, -, HW⟩, ⟨%d0, H0⟩, ⟨%d1, H1⟩⟩
  iapply (hrun t _ _ _ _ W _)
  isplitl [H0]; · iexists _; iexact H0
  isplitl [H1]; · iexists _; iexact H1
  isplitl [Hs0]; · iexact Hs0
  isplitl [Hs1]; · iexact Hs1
  isplitl [Hq]; · iexact Hq
  isplitl [Hh]; · iexact Hh
  isplitl [Hv1]; · iexact Hv1
  isplitl [Hv3]; · iexact Hv3
  isplitl [HW]; · iexact HW
  iintro ⟨H0, H1, Hs0, Hs1, Hq, Hh, Hv1, Hv3, ⟨%W', HW'⟩⟩
  isplitl [Hs0 Hs1 Hrest Hg Hq Hh Hv1 Hv3]
  · isplitl [Hs0 Hs1 Hrest Hg Hq Hh]
    · isplitl [Hs0 Hs1 Hrest]
      · isplitl [Hs0]; · iexact Hs0
        isplitl [Hs1]; · iexact Hs1
        iexact Hrest
      isplitl [Hg]; · iexact Hg
      isplitl [Hq]; · iexact Hq
      iexact Hh
    isplitl [Hv1]; · iexact Hv1
    iexact Hv3
  isplitl [HW']
  · iexists W'; isplitr; · ipureintro; exact fun _ _ => Or.inl trivial
    iexact HW'
  isplitl [H0]; · iexact H0
  iexact H1

theorem body_obligation0_loose (c : Dev nD) (ha : ∀ k, a.1 k = V c (pre0.ref k)) (hrun : GatherRun V c) :
    BodyObligationLoose (dat0 (F := F) a V c) (defs₀ (F := F)) Variants.none () Set.univ :=
  (body_obligation0 a V c ha hrun).loose

end Cert.KernelIdeal.Hand

end
-- ==== Proof.GatherGlue.lean ====
/- The glue between two spellings of what the row-gather kernel holds. The pipeline hands the kernel the
   padded table whole, its 128 transfer cells as one product over their index type, and its scratch
   buffers as whole points-tos; the kernel's run holds the table as one read share per cell (so that 128
   row copies may read it at once), each cell as a hypothesis of its own, and each buffer through its
   memref. Both directions of each conversion are stated here, and the run in the pipeline's form is
   derived from the run in the kernel's form. -/
import proofs.«406060_j54142357733864_2_alg».proof.Proof.Gen.KernelIdeal.Launch
import proofs.«406060_j54142357733864_2_alg».proof.Proof.Gen.KernelIdeal.Skeleton
import proofs.«406060_j54142357733864_2_alg».proof.Proof.GatherDat
import Idealize.ShloMosaic.Lib.Pipeline.Kit
import Idealize.ShloMosaic.Lib.Pipeline.Frame
import Idealize.ShloMosaic.Lib.Transfers
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (Pipeline.UD sig nD τ) ℕ

/-! ## A product listed in front of a rest -/

/-- `Φ a ∗ Φ b ∗ … ∗ Φ z ∗ R`: the list's conjuncts, one after the other, in front of `R`. -/
def sepOnto {I : Type} : List I → (I → sProp 𝕄) → sProp 𝕄 → sProp 𝕄
  | [], _, R => R
  | i :: l, Φ, R => iprop(Φ i ∗ sepOnto l Φ R)

/-- It is the list's product beside the rest. -/
theorem sepOnto_equiv {I : Type} (l : List I) (Φ : I → sProp 𝕄) (R : sProp 𝕄) :
    sepOnto l Φ R ⊣⊢ iprop(bigSepL l Φ ∗ R) := by
  induction l with
  | nil => exact ⟨BIClass.emp_sep.2, BIClass.emp_sep.1⟩
  | cons i l ih =>
    rw [bigSepL_cons]
    constructor
    · show iprop(Φ i ∗ sepOnto l Φ R) ⊢ iprop((Φ i ∗ bigSepL l Φ) ∗ R)
      refine BIBase.Entails.trans (sep_mono_right ih.1) ?_
      iintro ⟨H, HL, HR⟩
      isplitl [H HL]
      · isplitl [H]; · iexact H
        iexact HL
      iexact HR
    · show iprop((Φ i ∗ bigSepL l Φ) ∗ R) ⊢ iprop(Φ i ∗ sepOnto l Φ R)
      refine BIBase.Entails.trans ?_ (sep_mono_right ih.2)
      iintro ⟨⟨H, HL⟩, HR⟩
      isplitl [H]; · iexact H
      isplitl [HL]; · iexact HL
      iexact HR

/-! ## The table as one read share per cell -/

/-- The numbers of the kernel's transfer cells: 4 … 131. -/
def cellNums : List ℕ := [4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 76, 77, 78, 79, 80, 81, 82, 83, 84, 85, 86, 87, 88, 89, 90, 91, 92, 93, 94, 95, 96, 97, 98, 99, 100, 101, 102, 103, 104, 105, 106, 107, 108, 109, 110, 111, 112, 113, 114, 115, 116, 117, 118, 119, 120, 121, 122, 123, 124, 125, 126, 127, 128, 129, 130, 131]

/-- Read share number `k` of a memref's elements at contents `f`. -/
abbrev rowTok (c : Dev nD) {sp : Space} {s : Shape} {e : EltTy} (M : Memref sig .tc sp s e)
    (f : Buf (Elt F) (M.view.loc (c : Thread nD τ))) (k : ℕ) : sProp 𝕄 :=
  M.view.loc (c : Thread nD τ) ↦[M.view.set]{Transfers.shareTokN fullShare k} f

/-- What the kernel's run does not take: the share left after 132 halvings, and the four read
    shares numbered below the kernel's first cell. -/
def tokKept (c : Dev nD) {sp : Space} {s : Shape} {e : EltTy} (M : Memref sig .tc sp s e)
    (f : Buf (Elt F) (M.view.loc (c : Thread nD τ))) : sProp 𝕄 :=
  iprop((M.view.loc (c : Thread nD τ) ↦[M.view.set]{Transfers.shareDrop fullShare 132} f)
    ∗ rowTok c M f 0 ∗ rowTok c M f 1 ∗ rowTok c M f 2 ∗ rowTok c M f 3)

/-- A memref's elements at the full share are the kept part and the 128 read shares numbered by the
    cells. -/
theorem toks_equiv (c : Dev nD) {sp : Space} {s : Shape} {e : EltTy} (M : Memref sig .tc sp s e)
    (f : Buf (Elt F) (M.view.loc (c : Thread nD τ))) :
    (M.view.loc (c : Thread nD τ) ↦[M.view.set]{fullShare} f : sProp 𝕄)
      ⊣⊢ iprop(tokKept c M f ∗ bigSepL cellNums (rowTok c M f)) := by
  have h := Transfers.pointsTo_toks_range (Ix := Unit) (Name := ℕ) (U := Pipeline.UD sig nD τ) (Lvl := ℕ) (Val := Elt F)
    (ℓ := M.view.loc (c : Thread nD τ)) (S := M.view.set) (f := f) fullShare 132
  rw [bigSep_eq_bigSepL_of_eq (List.range 132) (List.toFinset_range 132).symm List.nodup_range] at h
  have e : bigSepL (List.range 132) (fun k => (M.view.loc (c : Thread nD τ) ↦[M.view.set]{Transfers.shareTokN fullShare k} f : sProp 𝕄))
      = iprop(rowTok c M f 0 ∗ rowTok c M f 1 ∗ rowTok c M f 2 ∗ rowTok c M f 3 ∗ bigSepL cellNums (rowTok c M f)) := rfl
  rw [e] at h
  unfold tokKept
  constructor
  · refine BIBase.Entails.trans h.1 ?_
    iintro ⟨Hd, H0, H1, H2, H3, HL⟩
    isplitr [HL]
    · isplitl [Hd]; · iexact Hd
      isplitl [H0]; · iexact H0
      isplitl [H1]; · iexact H1
      isplitl [H2]; · iexact H2
      iexact H3
    iexact HL
  · refine BIBase.Entails.trans ?_ h.2
    iintro ⟨⟨Hd, H0, H1, H2, H3⟩, HL⟩
    isplitl [Hd]; · iexact Hd
    isplitl [H0]; · iexact H0
    isplitl [H1]; · iexact H1
    isplitl [H2]; · iexact H2
    isplitl [H3]; · iexact H3
    iexact HL

/-! ## The cells one by one -/

/-- The kernel's transfer cells, as the semaphores they are. -/
def cellSems : List (DmaSem sig) := [4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 76, 77, 78, 79, 80, 81, 82, 83, 84, 85, 86, 87, 88, 89, 90, 91, 92, 93, 94, 95, 96, 97, 98, 99, 100, 101, 102, 103, 104, 105, 106, 107, 108, 109, 110, 111, 112, 113, 114, 115, 116, 117, 118, 119, 120, 121, 122, 123, 124, 125, 126, 127, 128, 129, 130, 131]

/-- Cell `k` at zero. -/
abbrev rowCell (c : Dev nD) (k : DmaSem sig) : sProp 𝕄 := semVal ((c : Thread nD τ), SemLoc.dma k) 0

/-- The product of the 128 cells at zero over their index type is the list of them. -/
theorem cells_eq (c : Dev nD) :
    (Pipeline.ownSems0 (Ix := Unit) (Name := ℕ) (U := Pipeline.UD sig nD τ) (Lvl := ℕ) (Val := Elt F) (τ := τ) osem0 c : sProp 𝕄)
      = bigSepL cellSems (rowCell c) := by
  rw [Pipeline.ownSems0_eq_of_list c osem0 (List.finRange 128) (by decide) (List.nodup_finRange 128)]
  rfl

/-! ## A whole buffer through its memref -/

/-- The whole memref's elements are the buffer's. -/
theorem whole_pts (c : Dev nD) (b : Ref sig .tc) (q : PosShare TreeShare) (f : Buf (Elt F) ((c : Thread nD τ).loc b)) :
    ((Memref.whole b).view.loc (c : Thread nD τ) ↦[(Memref.whole b).view.set]{q} f : sProp 𝕄)
      = (((c : Thread nD τ).loc b) ↦{q} f) := by
  simp only [View.set_whole]

/-- A memref owned at something is its elements held at some contents. -/
theorem some_owns_eq (c : Dev nD) {sp : Space} {s : Shape} {e : EltTy} (M : Memref sig .tc sp s e) (q : PosShare TreeShare) :
    (iprop(∃ d, owns (c : Thread nD τ) M q d) : sProp 𝕄)
      = iprop(∃ f, M.view.loc (c : Thread nD τ) ↦[M.view.set]{q} f) := by
  have h₁ : (iprop(∃ d, owns (c : Thread nD τ) M q d) : sProp 𝕄)
      ⊢ iprop(∃ f, M.view.loc (c : Thread nD τ) ↦[M.view.set]{q} f) := by
    unfold owns; iintro ⟨%d, %f, -, H⟩; iexists f; iexact H
  have h₂ : (iprop(∃ f, M.view.loc (c : Thread nD τ) ↦[M.view.set]{q} f) : sProp 𝕄)
      ⊢ iprop(∃ d, owns (c : Thread nD τ) M q d) := by
    iintro ⟨%f, H⟩; iexists (M.view.read (Elt F) f); unfold owns; iexists f
    isplitr; · ipureintro; rfl
    iexact H
  exact BI.equiv_iff.mp ⟨h₁, h₂⟩

/-- A whole buffer held at some contents is its whole memref owned at something. -/
theorem some_whole_eq (c : Dev nD) (b : Ref sig .tc) (q : PosShare TreeShare) :
    (iprop(∃ f : Buf (Elt F) ((c : Thread nD τ).loc b), ((c : Thread nD τ).loc b) ↦{q} f) : sProp 𝕄)
      = iprop(∃ d, owns (c : Thread nD τ) (Memref.whole b) q d) := by
  simp only [owns_whole]

/-! ## The run in the kernel's form, and in the pipeline's -/

/-- The gather kernel's triple as its run states it: over any whole memrefs, the two index tables and
    the four buffers held through their memrefs, the table as the 128 read shares numbered by the cells,
    the 128 cells one by one, every index word naming a row; afterwards the same, each output owned at
    the truncation of its gathered rows and each row scratch at some contents. -/
def GatherExec (c : Dev nD) : Prop :=
  ∀ (t : Fin grid0.N) (arg1 : Memref sig .tc .smem S8192 .i32) (harg1 : arg1.IsWhole) (arg2 : Memref sig .tc .smem S8192 .i32) (harg2 : arg2.IsWhole)
    (arg3 : Memref sig .tc .hbm S4200x19200 .f32) (harg3 : arg3.IsWhole)
    (arg4 : Memref sig .tc .vmem S64x19200 .bf16) (harg4 : arg4.IsWhole) (arg5 : Memref sig .tc .vmem S64x19200 .bf16) (harg5 : arg5.IsWhole)
    (arg6 : Memref sig .tc .vmem S64x19200 .f32) (harg6 : arg6.IsWhole) (arg7 : Memref sig .tc .vmem S64x19200 .f32) (harg7 : arg7.IsWhole)
    (f1 : Buf (Elt F) (arg1.view.loc (c : Thread nD τ))) (f2 : Buf (Elt F) (arg2.view.loc (c : Thread nD τ)))
    (f3 : Buf (Elt F) (arg3.view.loc (c : Thread nD τ)))
    (f4 : Buf (Elt F) (arg4.view.loc (c : Thread nD τ))) (f5 : Buf (Elt F) (arg5.view.loc (c : Thread nD τ)))
    (f6 : Buf (Elt F) (arg6.view.loc (c : Thread nD τ))) (f7 : Buf (Elt F) (arg7.view.loc (c : Thread nD τ)))
    (hw1 : ∀ r j, (arg1.view.readAt (Elt F) r f1 j).toNat < 4200) (hw2 : ∀ r j, (arg2.view.readAt (Elt F) r f2 j).toNat < 4200)
    (W : Waits sig Unit) (K : PUnit → sProp 𝕄),
    iprop((arg1.view.loc (c : Thread nD τ) ↦[arg1.view.set]{fullShare} f1) ∗ (arg2.view.loc (c : Thread nD τ) ↦[arg2.view.set]{fullShare} f2)
        ∗ sepOnto cellNums (rowTok c arg3 f3)
          iprop((arg4.view.loc (c : Thread nD τ) ↦[arg4.view.set]{fullShare} f4) ∗ (arg5.view.loc (c : Thread nD τ) ↦[arg5.view.set]{fullShare} f5)
            ∗ (arg6.view.loc (c : Thread nD τ) ↦[arg6.view.set]{fullShare} f6) ∗ (arg7.view.loc (c : Thread nD τ) ↦[arg7.view.set]{fullShare} f7)
            ∗ sepOnto cellSems (rowCell c)
              iprop(owes (c : Thread nD τ) 0 W
                ∗ (iprop((arg1.view.loc (c : Thread nD τ) ↦[arg1.view.set]{fullShare} f1) ∗ (arg2.view.loc (c : Thread nD τ) ↦[arg2.view.set]{fullShare} f2)
                    ∗ sepOnto cellNums (rowTok c arg3 f3)
                      iprop(owns (c : Thread nD τ) arg4 fullShare (k0_pay1 (gatherRows (arg1.view.read (Elt F) f1) (arg3.view.read (Elt F) f3) t))
                        ∗ owns (c : Thread nD τ) arg5 fullShare (k0_pay2 (gatherRows (arg2.view.read (Elt F) f2) (arg3.view.read (Elt F) f3) t))
                        ∗ (∃ g : Buf (Elt F) (arg6.view.loc (c : Thread nD τ)), arg6.view.loc (c : Thread nD τ) ↦[arg6.view.set]{fullShare} g)
                        ∗ (∃ g : Buf (Elt F) (arg7.view.loc (c : Thread nD τ)), arg7.view.loc (c : Thread nD τ) ↦[arg7.view.set]{fullShare} g)
                        ∗ sepOnto cellSems (rowCell c) iprop(∃ W', owes (c : Thread nD τ) 0 W'))) -∗ K ⟨⟩))))
      ⊢ wp frame (wpE (defs₀ (F := F)) Variants.none c none) Set.univ
          (cc0_gather_kernel (grid0.coords t) arg1 harg1 arg2 harg2 arg3 harg3 arg4 harg4 arg5 harg5 arg6 harg6 arg7 harg7 cc0_scratch2 cc0_scratch3) K

variable (V : (c : Dev nD) → (b : Ref sig .tc) → Buf (Elt F) ((c : Thread nD τ).loc b))

set_option maxHeartbeats 400000 in
/-- From the run in the kernel's form, the run in the pipeline's: the table is split into the kept part
    and the cells' read shares and joined again afterwards, the cells are listed and gathered again, and
    each whole buffer is read through its whole memref. The index tables' words are below 4200. -/
theorem gatherRun_of_exec (c : Dev nD) (hex : GatherExec (F := F) c)
    (hidx1 : ∀ x : S8192.Idx, ((V c main_v1 : Vec F S8192 .i32) x).toNat < 4200)
    (hidx3 : ∀ x : S8192.Idx, ((V c main_v3 : Vec F S8192 .i32) x).toNat < 4200) : GatherRun V c := by
  intro t arg4 harg4 arg5 harg5 W K
  rw [cells_eq, some_owns_eq c arg4, some_owns_eq c arg5]
  iintro ⟨⟨%f4, H4⟩, ⟨%f5, H5⟩, ⟨%f6, H6⟩, ⟨%f7, H7⟩, Hq, Hh, Hv1, Hv3, HW, Hk⟩
  ihave Hh := (BIBase.Entails.trans (BIBase.Entails.of_eq (whole_pts c main_v6 fullShare (V c main_v6)).symm)
    (toks_equiv c (Memref.whole main_v6) (V c main_v6)).1) $$ Hh
  icases Hh with ⟨Hkept, HT⟩
  ihave Hv1 := (BIBase.Entails.of_eq (whole_pts c main_v1 fullShare (V c main_v1)).symm) $$ Hv1
  ihave Hv3 := (BIBase.Entails.of_eq (whole_pts c main_v3 fullShare (V c main_v3)).symm) $$ Hv3
  ihave H6 := (BIBase.Entails.of_eq (whole_pts c cc0_scratch0 fullShare f6).symm) $$ H6
  ihave H7 := (BIBase.Entails.of_eq (whole_pts c cc0_scratch1 fullShare f7).symm) $$ H7
  iapply (hex t (Memref.whole main_v1) (Memref.isWhole_whole _) (Memref.whole main_v3) (Memref.isWhole_whole _)
    (Memref.whole main_v6) (Memref.isWhole_whole _) arg4 harg4 arg5 harg5
    (Memref.whole cc0_scratch0) (Memref.isWhole_whole _) (Memref.whole cc0_scratch1) (Memref.isWhole_whole _)
    (V c main_v1) (V c main_v3) (V c main_v6) f4 f5 f6 f7
    (fun r j => by rw [View.readAt_apply]; exact hidx1 _) (fun r j => by rw [View.readAt_apply]; exact hidx3 _) W K)
  isplitl [Hv1]; · iexact Hv1
  isplitl [Hv3]; · iexact Hv3
  iapply (sepOnto_equiv _ _ _).2
  isplitl [HT]; · iexact HT
  isplitl [H4]; · iexact H4
  isplitl [H5]; · iexact H5
  isplitl [H6]; · iexact H6
  isplitl [H7]; · iexact H7
  iapply (sepOnto_equiv _ _ _).2
  isplitl [Hq]; · iexact Hq
  isplitl [HW]; · iexact HW
  iintro ⟨Hv1, Hv3, Hrest⟩
  ihave Hrest := (sepOnto_equiv _ _ _).1 $$ Hrest
  icases Hrest with ⟨HT, H4, H5, ⟨%g6, H6⟩, ⟨%g7, H7⟩, Hc⟩
  ihave Hc := (sepOnto_equiv _ _ _).1 $$ Hc
  icases Hc with ⟨Hq, HW⟩
  iapply Hk
  isplitl [H4]; · iexact H4
  isplitl [H5]; · iexact H5
  isplitl [H6]
  · iexists g6; iapply (BIBase.Entails.of_eq (whole_pts c cc0_scratch0 fullShare g6)); iexact H6
  isplitl [H7]
  · iexists g7; iapply (BIBase.Entails.of_eq (whole_pts c cc0_scratch1 fullShare g7)); iexact H7
  isplitl [Hq]; · iexact Hq
  isplitl [Hkept HT]
  · iapply (BIBase.Entails.trans (toks_equiv c (Memref.whole main_v6) (V c main_v6)).2
      (BIBase.Entails.of_eq (whole_pts c main_v6 fullShare (V c main_v6))))
    isplitl [Hkept]; · iexact Hkept
    iexact HT
  isplitl [Hv1]
  · iapply (BIBase.Entails.of_eq (whole_pts c main_v1 fullShare (V c main_v1))); iexact Hv1
  isplitl [Hv3]
  · iapply (BIBase.Entails.of_eq (whole_pts c main_v3 fullShare (V c main_v3))); iexact Hv3
  iexact HW

end Cert.KernelIdeal.Hand

end
-- ==== Proof.MlpRuns.lean ====
/- The kernel-function triples of the second pallas_call (the tiled two-stream MLP), one per control
   case of its body. The grid coordinate k = i 1 ranges over the ten tiles of the contraction axis:
   at k = 0 both accumulators are zeroed before the tile's product is added; at every k the product
   of the activations' tile with the weight tile is added to each accumulator; at k = 9 the epilogue
   (rank-one correction, bias, rectifier, two further layers, row-wise inner product) is stored into
   the result block. Each case is stated over symbolic whole memrefs, the inputs owned at the values
   read, the two accumulators owned at explicit new values afterwards, through the skeleton's payload
   names. -/
import proofs.«406060_j54142357733864_2_alg».proof.Proof.Gen.KernelIdeal.Launch
import proofs.«406060_j54142357733864_2_alg».proof.Proof.Gen.KernelIdeal.Skeleton
import proofs.«406060_j54142357733864_2_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (Pipeline.UD sig nD τ) ℕ

/-! ## The branch conditions over the contraction coordinate -/

/-- The first conditional's test as the skeleton spells it: the coordinate's word equals zero. -/
abbrev isFirst (i : grid1.Coords) : Prop :=
  (Scalar.cmpi .ne (Scalar.extui (Scalar.cmpi .eq (BitVec.ofNat 32 (i 1).val) 0#32)) 0#32) = 1#1

/-- The second conditional's test: the coordinate's word equals nine. -/
abbrev isLast (i : grid1.Coords) : Prop := k1_cond2 i = 1#1

theorem isFirst_iff (i : grid1.Coords) : isFirst i ↔ (i 1).val = 0 := by
  have h : ∀ j : Fin 10, (Scalar.cmpi .ne (Scalar.extui (Scalar.cmpi .eq (BitVec.ofNat 32 j.val) 0#32)) 0#32) = 1#1 ↔ j.val = 0 := by
    decide
  exact h (i 1)

theorem isLast_iff (i : grid1.Coords) : isLast i ↔ (i 1).val = 9 := by
  have h : ∀ j : Fin 10, (Scalar.cmpi .ne (Scalar.extui (Scalar.cmpi .eq (BitVec.ofNat 32 j.val) 9#32)) 0#32) = 1#1 ↔ j.val = 9 := by
    decide
  exact h (i 1)

/-! ## What one point leaves in the accumulators and in the result block -/

/-- The first accumulator after a point that found it at `a`: `a` plus the product of the first
    stream's tile `x` with the weight tile `w`. -/
def accStep1 (a : Vec F S512x1024 .f32) (x : Vec F S512x1920 .bf16) (w : Vec F S1920x1024 .bf16) : Vec F S512x1024 .f32 :=
  k1_pay3 a x w

/-- The second accumulator after a point that found it at `a`, over the second stream's tile. -/
def accStep2 (a : Vec F S512x1024 .f32) (x : Vec F S512x1920 .bf16) (w : Vec F S1920x1024 .bf16) : Vec F S512x1024 .f32 :=
  k1_pay4 a x w

/-- The first accumulator after the first point of a row of tiles: the step from the zero fill. -/
def accReset1 (x : Vec F S512x1920 .bf16) (w : Vec F S1920x1024 .bf16) : Vec F S512x1024 .f32 :=
  accStep1 (k1_pay1 (F := F)) x w

/-- The second accumulator after the first point of a row of tiles. -/
def accReset2 (x : Vec F S512x1920 .bf16) (w : Vec F S1920x1024 .bf16) : Vec F S512x1024 .f32 :=
  accStep2 (k1_pay2 (F := F)) x w

/-- The result block the last point stores, from the two accumulators as that point's own step left
    them (`b1`, `b2`), the two concentration columns and the small operands. -/
def mlpOut (b1 b2 : Vec F S512x1024 .f32) (c1 c2 : Vec F S512x1 .f32) (w0c b0 : Vec F S1x1024 .f32)
    (w1 : Vec F S1024x512 .bf16) (bb1 : Vec F S1x512 .f32) (w2 : Vec F S512x128 .bf16) (bb2 : Vec F S1x128 .f32) : Vec F S512 .f32 :=
  k1_pay5 (k1_pay6 b2 c2 w0c b0) (k1_pay7 b1 c1 w0c b0 w1) (k1_pay8 bb1) w1 bb1 w2 bb2 w2 bb2

/-- The eleven input windows' memrefs owned at the values the point reads. -/
def mlpIns (c : Dev nD) (arg2 : Memref sig .tc .vmem S512x1920 .bf16) (harg2 : arg2.IsWhole) (arg3 : Memref sig .tc .vmem S512x1920 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S1920x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x512 .bf16) (harg9 : arg9.IsWhole) (arg10 : Memref sig .tc .vmem S1x512 .f32) (harg10 : arg10.IsWhole) (arg11 : Memref sig .tc .vmem S512x128 .bf16) (harg11 : arg11.IsWhole) (arg12 : Memref sig .tc .vmem S1x128 .f32) (harg12 : arg12.IsWhole)
    (x0 x1 : Vec F S512x1920 .bf16) (x2 x3 : Vec F S512x1 .f32) (x4 : Vec F S1920x1024 .bf16) (x5 x6 : Vec F S1x1024 .f32) (x7 : Vec F S1024x512 .bf16) (x8 : Vec F S1x512 .f32) (x9 : Vec F S512x128 .bf16) (x10 : Vec F S1x128 .f32) : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare x4 ∗ owns (c : Thread nD τ) arg7 fullShare x5
    ∗ owns (c : Thread nD τ) arg8 fullShare x6 ∗ owns (c : Thread nD τ) arg9 fullShare x7 ∗ owns (c : Thread nD τ) arg10 fullShare x8
    ∗ owns (c : Thread nD τ) arg11 fullShare x9 ∗ owns (c : Thread nD τ) arg12 fullShare x10)

/-! ## Whole-buffer loads and stores -/

/-- The offsets `![0, 0]` are the zero offsets. -/
theorem off00 : (![0, 0] : Fin 2 → ℕ) = fun _ => 0 := by
  funext a; fin_cases a <;> rfl

/-- So is `![0]`. -/
theorem off0 : (![0] : Fin 1 → ℕ) = fun _ => 0 := by
  funext a; fin_cases a; rfl

/-- A load of the whole shape at zero offsets, off a whole memref whose contents read `X`, reads `X`. -/
theorem load_whole {sp : Space} {s : Shape} {e : EltTy} (M : Memref sig .tc sp s e) (f : M.view.ty.Contents (Elt F))
    {off : Fin s.rank → ℕ} (ho : off = fun _ => 0) (inb : ∀ a, off a + s.size a ≤ s.size a) (X : s.Idx → Elt F e)
    (hf : M.view.read (Elt F) f = X) :
    View.readAt (Elt F) M.view (Rect.unit off s.size inb).toLoadRect f = X := by
  rw [View.readAt_eq_ld, hf, View.ld_unit_zero ho]

/-- A store of the whole shape at zero offsets, made last, leaves its payload to be read. -/
theorem store_whole {sp : Space} {s : Shape} {e : EltTy} (M : Memref sig .tc sp s e) (f : M.view.ty.Contents (Elt F))
    {off : Fin s.rank → ℕ} (ho : off = fun _ => 0) (inb : ∀ a, off a + s.size a ≤ s.size a) (w : s.Idx → Elt F e)
    (L : List (View.Piece (Elt F) s e)) :
    M.view.read (Elt F) (M.view.writes (Elt F) f (⟨Rect.unit off s.size inb, w⟩ :: L)) = w := by
  subst ho; funext y
  have e := View.read_writes_cons_emb M.view f (Rect.whole s) w L y
  rw [Rect.emb_whole_apply] at e
  exact e

/-! ## The three runs -/

set_option maxHeartbeats 400000 in
/-- k = 0: the accumulators, found at anything, are zeroed and take the first tile's product; the
    result block's memref is handed back as found. The zero fill is read back through the one store
    that covers the accumulator, so the step's first operand is the fill itself. -/
theorem mlp_run_first (c : Dev nD) (i : grid1.Coords) (arg2 : Memref sig .tc .vmem S512x1920 .bf16) (harg2 : arg2.IsWhole) (arg3 : Memref sig .tc .vmem S512x1920 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S1920x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x512 .bf16) (harg9 : arg9.IsWhole) (arg10 : Memref sig .tc .vmem S1x512 .f32) (harg10 : arg10.IsWhole) (arg11 : Memref sig .tc .vmem S512x128 .bf16) (harg11 : arg11.IsWhole) (arg12 : Memref sig .tc .vmem S1x128 .f32) (harg12 : arg12.IsWhole) (arg13 : Memref sig .tc .vmem S512 .f32) (harg13 : arg13.IsWhole) (arg14 : Memref sig .tc .vmem S512x1024 .f32) (harg14 : arg14.IsWhole) (arg15 : Memref sig .tc .vmem S512x1024 .f32) (harg15 : arg15.IsWhole)
    (hk : (i 1).val = 0) (x0 x1 : Vec F S512x1920 .bf16) (x2 x3 : Vec F S512x1 .f32) (x4 : Vec F S1920x1024 .bf16) (x5 x6 : Vec F S1x1024 .f32) (x7 : Vec F S1024x512 .bf16) (x8 : Vec F S1x512 .f32) (x9 : Vec F S512x128 .bf16) (x10 : Vec F S1x128 .f32) (d11 : Vec F S512 .f32) (K : PUnit → sProp 𝕄) :
    iprop(mlpIns c arg2 harg2 arg3 harg3 arg4 harg4 arg5 harg5 arg6 harg6 arg7 harg7 arg8 harg8 arg9 harg9 arg10 harg10 arg11 harg11 arg12 harg12 x0 x1 x2 x3 x4 x5 x6 x7 x8 x9 x10 ∗ owns (c : Thread nD τ) arg13 fullShare d11
        ∗ (∃ a1, owns (c : Thread nD τ) arg14 fullShare a1) ∗ (∃ a2, owns (c : Thread nD τ) arg15 fullShare a2)
        ∗ (iprop(mlpIns c arg2 harg2 arg3 harg3 arg4 harg4 arg5 harg5 arg6 harg6 arg7 harg7 arg8 harg8 arg9 harg9 arg10 harg10 arg11 harg11 arg12 harg12 x0 x1 x2 x3 x4 x5 x6 x7 x8 x9 x10 ∗ owns (c : Thread nD τ) arg13 fullShare d11
            ∗ owns (c : Thread nD τ) arg14 fullShare (accReset1 x0 x4) ∗ owns (c : Thread nD τ) arg15 fullShare (accReset2 x1 x4)) -∗ K ⟨⟩))
      ⊢ wp frame (wpE (defs₀ (F := F)) Variants.none c none) Set.univ (cc1_mlp_kernel i arg2 harg2 arg3 harg3 arg4 harg4 arg5 harg5 arg6 harg6 arg7 harg7 arg8 harg8 arg9 harg9 arg10 harg10 arg11 harg11 arg12 harg12 arg13 harg13 arg14 harg14 arg15 harg15) K := by
  have hc0 : isFirst i := (isFirst_iff i).mpr hk
  have hc1 : ¬ isLast i := fun h => by have := (isLast_iff i).mp h; omega
  unfold mlpIns
  simp only [cc1_mlp_kernel_eq_skeleton]; unfold cc1_mlp_kernel_skel
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨%f11, %hf11, H11⟩, ⟨%a1, %fa1, -, HA1⟩, ⟨%a2, %fa2, -, HA2⟩, Hk⟩
  obtain rfl := harg2.eq_unread hf0; obtain rfl := harg3.eq_unread hf1; obtain rfl := harg6.eq_unread hf4
  sl_exec (disch := first | exact hc0 | exact hc1)
  sl_step
  iapply Hk
  isplitl [H0 H1 H2 H3 H4 H5 H6 H7 H8 H9 H10]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact hf2
      iexact H2
    isplitl [H3]
    · iexists _; isplitr; · ipureintro; exact hf3
      iexact H3
    isplitl [H4]
    · iexists _; isplitr; · ipureintro; exact harg6.read_unread _
      iexact H4
    isplitl [H5]
    · iexists _; isplitr; · ipureintro; exact hf5
      iexact H5
    isplitl [H6]
    · iexists _; isplitr; · ipureintro; exact hf6
      iexact H6
    isplitl [H7]
    · iexists _; isplitr; · ipureintro; exact hf7
      iexact H7
    isplitl [H8]
    · iexists _; isplitr; · ipureintro; exact hf8
      iexact H8
    isplitl [H9]
    · iexists _; isplitr; · ipureintro; exact hf9
      iexact H9
    iexists _; isplitr; · ipureintro; exact hf10
    iexact H10
  isplitl [H11]
  · iexists _; isplitr; · ipureintro; exact hf11
    iexact H11
  isplitl [HA1]
  · iexists _; isplitr
    swap; · iexact HA1
    ipureintro
    rw [store_whole arg14 _ off00, load_whole arg2 _ off00 _ x0 hf0, load_whole arg6 _ off00 _ x4 hf4]
    sl_unfold_run_names
    rw [View.readCov_unit_zero arg14.view off00]
    rfl
  iexists _; isplitr
  swap; · iexact HA2
  ipureintro
  rw [store_whole arg15 _ off00, load_whole arg3 _ off00 _ x1 hf1, load_whole arg6 _ off00 _ x4 hf4]
  sl_unfold_run_names
  rw [View.readCov_unit_zero arg15.view off00]
  rfl

set_option maxHeartbeats 400000 in
/-- 0 < k < 9: each accumulator takes its tile's product; the result block's memref is handed back as
    found. Neither conditional's region runs. -/
theorem mlp_run_mid (c : Dev nD) (i : grid1.Coords) (arg2 : Memref sig .tc .vmem S512x1920 .bf16) (harg2 : arg2.IsWhole) (arg3 : Memref sig .tc .vmem S512x1920 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S1920x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x512 .bf16) (harg9 : arg9.IsWhole) (arg10 : Memref sig .tc .vmem S1x512 .f32) (harg10 : arg10.IsWhole) (arg11 : Memref sig .tc .vmem S512x128 .bf16) (harg11 : arg11.IsWhole) (arg12 : Memref sig .tc .vmem S1x128 .f32) (harg12 : arg12.IsWhole) (arg13 : Memref sig .tc .vmem S512 .f32) (harg13 : arg13.IsWhole) (arg14 : Memref sig .tc .vmem S512x1024 .f32) (harg14 : arg14.IsWhole) (arg15 : Memref sig .tc .vmem S512x1024 .f32) (harg15 : arg15.IsWhole)
    (hk0 : (i 1).val ≠ 0) (hk9 : (i 1).val ≠ 9) (x0 x1 : Vec F S512x1920 .bf16) (x2 x3 : Vec F S512x1 .f32) (x4 : Vec F S1920x1024 .bf16) (x5 x6 : Vec F S1x1024 .f32) (x7 : Vec F S1024x512 .bf16) (x8 : Vec F S1x512 .f32) (x9 : Vec F S512x128 .bf16) (x10 : Vec F S1x128 .f32) (a1 a2 : Vec F S512x1024 .f32) (d11 : Vec F S512 .f32) (K : PUnit → sProp 𝕄) :
    iprop(mlpIns c arg2 harg2 arg3 harg3 arg4 harg4 arg5 harg5 arg6 harg6 arg7 harg7 arg8 harg8 arg9 harg9 arg10 harg10 arg11 harg11 arg12 harg12 x0 x1 x2 x3 x4 x5 x6 x7 x8 x9 x10 ∗ owns (c : Thread nD τ) arg13 fullShare d11
        ∗ owns (c : Thread nD τ) arg14 fullShare a1 ∗ owns (c : Thread nD τ) arg15 fullShare a2
        ∗ (iprop(mlpIns c arg2 harg2 arg3 harg3 arg4 harg4 arg5 harg5 arg6 harg6 arg7 harg7 arg8 harg8 arg9 harg9 arg10 harg10 arg11 harg11 arg12 harg12 x0 x1 x2 x3 x4 x5 x6 x7 x8 x9 x10 ∗ owns (c : Thread nD τ) arg13 fullShare d11
            ∗ owns (c : Thread nD τ) arg14 fullShare (accStep1 a1 x0 x4) ∗ owns (c : Thread nD τ) arg15 fullShare (accStep2 a2 x1 x4)) -∗ K ⟨⟩))
      ⊢ wp frame (wpE (defs₀ (F := F)) Variants.none c none) Set.univ (cc1_mlp_kernel i arg2 harg2 arg3 harg3 arg4 harg4 arg5 harg5 arg6 harg6 arg7 harg7 arg8 harg8 arg9 harg9 arg10 harg10 arg11 harg11 arg12 harg12 arg13 harg13 arg14 harg14 arg15 harg15) K := by
  have hc0 : ¬ isFirst i := fun h => hk0 ((isFirst_iff i).mp h)
  have hc1 : ¬ isLast i := fun h => hk9 ((isLast_iff i).mp h)
  unfold mlpIns
  simp only [cc1_mlp_kernel_eq_skeleton]; unfold cc1_mlp_kernel_skel
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨%f11, %hf11, H11⟩, ⟨%fa1, %hfa1, HA1⟩, ⟨%fa2, %hfa2, HA2⟩, Hk⟩
  obtain rfl := harg2.eq_unread hf0; obtain rfl := harg3.eq_unread hf1; obtain rfl := harg6.eq_unread hf4
  obtain rfl := harg14.eq_unread hfa1; obtain rfl := harg15.eq_unread hfa2
  sl_exec (disch := first | exact hc0 | exact hc1)
  sl_step
  iapply Hk
  isplitl [H0 H1 H2 H3 H4 H5 H6 H7 H8 H9 H10]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact hf2
      iexact H2
    isplitl [H3]
    · iexists _; isplitr; · ipureintro; exact hf3
      iexact H3
    isplitl [H4]
    · iexists _; isplitr; · ipureintro; exact harg6.read_unread _
      iexact H4
    isplitl [H5]
    · iexists _; isplitr; · ipureintro; exact hf5
      iexact H5
    isplitl [H6]
    · iexists _; isplitr; · ipureintro; exact hf6
      iexact H6
    isplitl [H7]
    · iexists _; isplitr; · ipureintro; exact hf7
      iexact H7
    isplitl [H8]
    · iexists _; isplitr; · ipureintro; exact hf8
      iexact H8
    isplitl [H9]
    · iexists _; isplitr; · ipureintro; exact hf9
      iexact H9
    iexists _; isplitr; · ipureintro; exact hf10
    iexact H10
  isplitl [H11]
  · iexists _; isplitr; · ipureintro; exact hf11
    iexact H11
  isplitl [HA1]
  · iexists _; isplitr
    swap; · iexact HA1
    ipureintro
    rw [store_whole arg14 _ off00, load_whole arg14 _ off00 _ a1 hfa1, load_whole arg2 _ off00 _ x0 hf0,
      load_whole arg6 _ off00 _ x4 hf4]
    rfl
  iexists _; isplitr
  swap; · iexact HA2
  ipureintro
  rw [store_whole arg15 _ off00, load_whole arg15 _ off00 _ a2 hfa2, load_whole arg3 _ off00 _ x1 hf1,
    load_whole arg6 _ off00 _ x4 hf4]
  rfl

set_option maxHeartbeats 400000 in
/-- k = 9: each accumulator takes the last tile's product, and the epilogue over the two finished
    accumulators (each read back through the covering store of this point's own step) is stored into
    the result block, found at anything. -/
theorem mlp_run_last (c : Dev nD) (i : grid1.Coords) (arg2 : Memref sig .tc .vmem S512x1920 .bf16) (harg2 : arg2.IsWhole) (arg3 : Memref sig .tc .vmem S512x1920 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S1920x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x512 .bf16) (harg9 : arg9.IsWhole) (arg10 : Memref sig .tc .vmem S1x512 .f32) (harg10 : arg10.IsWhole) (arg11 : Memref sig .tc .vmem S512x128 .bf16) (harg11 : arg11.IsWhole) (arg12 : Memref sig .tc .vmem S1x128 .f32) (harg12 : arg12.IsWhole) (arg13 : Memref sig .tc .vmem S512 .f32) (harg13 : arg13.IsWhole) (arg14 : Memref sig .tc .vmem S512x1024 .f32) (harg14 : arg14.IsWhole) (arg15 : Memref sig .tc .vmem S512x1024 .f32) (harg15 : arg15.IsWhole)
    (hk : (i 1).val = 9) (x0 x1 : Vec F S512x1920 .bf16) (x2 x3 : Vec F S512x1 .f32) (x4 : Vec F S1920x1024 .bf16) (x5 x6 : Vec F S1x1024 .f32) (x7 : Vec F S1024x512 .bf16) (x8 : Vec F S1x512 .f32) (x9 : Vec F S512x128 .bf16) (x10 : Vec F S1x128 .f32) (a1 a2 : Vec F S512x1024 .f32) (K : PUnit → sProp 𝕄) :
    iprop(mlpIns c arg2 harg2 arg3 harg3 arg4 harg4 arg5 harg5 arg6 harg6 arg7 harg7 arg8 harg8 arg9 harg9 arg10 harg10 arg11 harg11 arg12 harg12 x0 x1 x2 x3 x4 x5 x6 x7 x8 x9 x10 ∗ (∃ d11, owns (c : Thread nD τ) arg13 fullShare d11)
        ∗ owns (c : Thread nD τ) arg14 fullShare a1 ∗ owns (c : Thread nD τ) arg15 fullShare a2
        ∗ (iprop(mlpIns c arg2 harg2 arg3 harg3 arg4 harg4 arg5 harg5 arg6 harg6 arg7 harg7 arg8 harg8 arg9 harg9 arg10 harg10 arg11 harg11 arg12 harg12 x0 x1 x2 x3 x4 x5 x6 x7 x8 x9 x10
            ∗ owns (c : Thread nD τ) arg13 fullShare (mlpOut (accStep1 a1 x0 x4) (accStep2 a2 x1 x4) x2 x3 x5 x6 x7 x8 x9 x10)
            ∗ owns (c : Thread nD τ) arg14 fullShare (accStep1 a1 x0 x4) ∗ owns (c : Thread nD τ) arg15 fullShare (accStep2 a2 x1 x4)) -∗ K ⟨⟩))
      ⊢ wp frame (wpE (defs₀ (F := F)) Variants.none c none) Set.univ (cc1_mlp_kernel i arg2 harg2 arg3 harg3 arg4 harg4 arg5 harg5 arg6 harg6 arg7 harg7 arg8 harg8 arg9 harg9 arg10 harg10 arg11 harg11 arg12 harg12 arg13 harg13 arg14 harg14 arg15 harg15) K := by
  have hc0 : ¬ isFirst i := fun h => by have := (isFirst_iff i).mp h; omega
  have hc1 : isLast i := (isLast_iff i).mpr hk
  unfold mlpIns
  simp only [cc1_mlp_kernel_eq_skeleton]; unfold cc1_mlp_kernel_skel
  simp only [k1_part1_eq_skeleton]
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨%d11, %f11, -, H11⟩, ⟨%fa1, %hfa1, HA1⟩, ⟨%fa2, %hfa2, HA2⟩, Hk⟩
  sl_exec (disch := first | exact hc0 | exact hc1)
  sl_step
  iapply Hk
  isplitl [H0 H1 H2 H3 H4 H5 H6 H7 H8 H9 H10]
  · isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _; isplitr; · ipureintro; exact hf7
      iexact H7
    isplitl [H8]
    · iexists _; isplitr; · ipureintro; exact hf8
      iexact H8
    isplitl [H9]
    · iexists _; isplitr; · ipureintro; exact hf9
      iexact H9
    iexists _; isplitr; · ipureintro; exact hf10
    iexact H10
  isplitl [H11]
  · iexists _; isplitr
    swap; · iexact H11
    ipureintro
    rw [store_whole arg13 _ off0]
    sl_unfold_run_names
    rw [View.readCov_unit_zero arg14.view off00, View.readCov_unit_zero arg15.view off00]
    simp only [load_whole arg2 _ off00 _ x0 hf0, load_whole arg3 _ off00 _ x1 hf1, load_whole arg4 _ off00 _ x2 hf2,
      load_whole arg5 _ off00 _ x3 hf3, load_whole arg6 _ off00 _ x4 hf4, load_whole arg7 _ off00 _ x5 hf5,
      load_whole arg8 _ off00 _ x6 hf6, load_whole arg9 _ off00 _ x7 hf7, load_whole arg10 _ off00 _ x8 hf8,
      load_whole arg11 _ off00 _ x9 hf9, load_whole arg12 _ off00 _ x10 hf10, load_whole arg14 _ off00 _ a1 hfa1,
      load_whole arg15 _ off00 _ a2 hfa2]
    rfl
  isplitl [HA1]
  · iexists _; isplitr
    swap; · iexact HA1
    ipureintro
    sl_unfold_run_names
    rw [store_whole arg14 _ off00, load_whole arg14 _ off00 _ a1 hfa1, load_whole arg2 _ off00 _ x0 hf0,
      load_whole arg6 _ off00 _ x4 hf4]
    rfl
  iexists _; isplitr
  swap; · iexact HA2
  ipureintro
  sl_unfold_run_names
  rw [store_whole arg15 _ off00, load_whole arg15 _ off00 _ a2 hfa2, load_whole arg3 _ off00 _ x1 hf1,
    load_whole arg6 _ off00 _ x4 hf4]
  rfl

end Cert.KernelIdeal.Hand

end
-- ==== Proof.MlpDat.lean ====
/- Region 1 of @main (the second pallas_call, the MLP over a grid of 16 row blocks by 10 column steps of the
   first layer's weight): the pipeline's proof data and the body obligation, stated at a parameter `V` — the
   contents of the core's unscoped buffers when the region is entered.

   At point `t` the row block is `t / 10` and the column step is `k = t % 10`. Two scratch accumulators are carried from
   point to point: cleared at `k = 0`, each then takes the product of a feature block with the weight block of the
   step; at `k = 9` the two sums go through the rest of the network and the row block's 512 results are stored
   into the output window, which the pipeline writes back at exactly those points. -/
import proofs.«406060_j54142357733864_2_alg».proof.Proof.Gen.KernelIdeal.Launch
import proofs.«406060_j54142357733864_2_alg».proof.Proof.Gen.KernelIdeal.Skeleton
import proofs.«406060_j54142357733864_2_alg».proof.Proof.Gen.KernelIdeal.Points
import proofs.«406060_j54142357733864_2_alg».proof.Proof.MlpRuns
import Idealize.ShloMosaic.Lib.Pipeline.FrameBody
import Idealize.ShloMosaic.Lib.Pipeline.Frame
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The grid: row block and column step of a point -/

/-- There are 160 points, -/
theorem N1_eq : cfg1.N = 160 := N_1
/-- and the column step of point `t` is `t % 10`. -/
theorem step_eq (t : Fin cfg1.N) : ((grid1.coords t) 1).val = t.val % 10 :=
  (by decide +kernel : ∀ t : Fin grid1.N, ((grid1.coords t) 1).val = t.val % 10) t

/-! ## The input blocks -/

/-- The block of window `w` at point `t`, read off the window's array as the region finds it. -/
def iblk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- The operands of the network at point `t`, each at its block's shape: the two feature blocks, the two
    concentration columns, the step's block of the first layer's weight, and the small operands held whole. -/
abbrev featA (c : Dev nD) (t : Fin cfg1.N) : Vec F S512x1920 .bf16 := iblk1 V c 0 t
abbrev featB (c : Dev nD) (t : Fin cfg1.N) : Vec F S512x1920 .bf16 := iblk1 V c 1 t
abbrev concA (c : Dev nD) (t : Fin cfg1.N) : Vec F S512x1 .f32 := iblk1 V c 2 t
abbrev concB (c : Dev nD) (t : Fin cfg1.N) : Vec F S512x1 .f32 := iblk1 V c 3 t
abbrev wgt0 (c : Dev nD) (t : Fin cfg1.N) : Vec F S1920x1024 .bf16 := iblk1 V c 4 t
abbrev wgt0c (c : Dev nD) (t : Fin cfg1.N) : Vec F S1x1024 .f32 := iblk1 V c 5 t
abbrev bias0 (c : Dev nD) (t : Fin cfg1.N) : Vec F S1x1024 .f32 := iblk1 V c 6 t
abbrev wgt1 (c : Dev nD) (t : Fin cfg1.N) : Vec F S1024x512 .bf16 := iblk1 V c 7 t
abbrev bias1 (c : Dev nD) (t : Fin cfg1.N) : Vec F S1x512 .f32 := iblk1 V c 8 t
abbrev wgt2 (c : Dev nD) (t : Fin cfg1.N) : Vec F S512x128 .bf16 := iblk1 V c 9 t
abbrev bias2 (c : Dev nD) (t : Fin cfg1.N) : Vec F S1x128 .f32 := iblk1 V c 10 t

/-- An input window's current staging buffer holds the window's block at every point, whether the pipeline fetched
    it there or not (an unfetched window's block index has not moved), for any proof data that reads its arrays off
    `V` and whose body leaves the inputs' blocks in place. One statement per window: each is uncut and never idle. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t := by
  have hkeep : ∀ u, (cfg1.win 0).cut (cfg1.grid.coords u) (dat.after 0 u) = dat.blockOf 0 u := fun u => by
    rw [hafter]; unfold Dat.blockOf iblk1; rw [hA]; try rfl
  rw [dat.before_in_eq_fetched 0 rfl (fun _ => rfl) (fun _ _ _ => rfl) hkeep t d]
  unfold Dat.fetched Dat.blockOf iblk1; rw [hA]; try rfl
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t := by
  have hkeep : ∀ u, (cfg1.win 1).cut (cfg1.grid.coords u) (dat.after 1 u) = dat.blockOf 1 u := fun u => by
    rw [hafter]; unfold Dat.blockOf iblk1; rw [hA]; try rfl
  rw [dat.before_in_eq_fetched 1 rfl (fun _ => rfl) (fun _ _ _ => rfl) hkeep t d]
  unfold Dat.fetched Dat.blockOf iblk1; rw [hA]; try rfl
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t := by
  have hkeep : ∀ u, (cfg1.win 2).cut (cfg1.grid.coords u) (dat.after 2 u) = dat.blockOf 2 u := fun u => by
    rw [hafter]; unfold Dat.blockOf iblk1; rw [hA]; try rfl
  rw [dat.before_in_eq_fetched 2 rfl (fun _ => rfl) (fun _ _ _ => rfl) hkeep t d]
  unfold Dat.fetched Dat.blockOf iblk1; rw [hA]; try rfl
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t := by
  have hkeep : ∀ u, (cfg1.win 3).cut (cfg1.grid.coords u) (dat.after 3 u) = dat.blockOf 3 u := fun u => by
    rw [hafter]; unfold Dat.blockOf iblk1; rw [hA]; try rfl
  rw [dat.before_in_eq_fetched 3 rfl (fun _ => rfl) (fun _ _ _ => rfl) hkeep t d]
  unfold Dat.fetched Dat.blockOf iblk1; rw [hA]; try rfl
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t := by
  have hkeep : ∀ u, (cfg1.win 4).cut (cfg1.grid.coords u) (dat.after 4 u) = dat.blockOf 4 u := fun u => by
    rw [hafter]; unfold Dat.blockOf iblk1; rw [hA]; try rfl
  rw [dat.before_in_eq_fetched 4 rfl (fun _ => rfl) (fun _ _ _ => rfl) hkeep t d]
  unfold Dat.fetched Dat.blockOf iblk1; rw [hA]; try rfl
theorem before1_5_of {c : Dev nD} (dat : Dat τ (Elt F) Unit ℕ (Pipeline.UD sig nD τ) ℕ cfg1 c) (hA : dat.A 5 = V c (Pipeline.arrRef spec1 5))
    (hafter : ∀ t, dat.after 5 t = iblk1 V c 5 t) (t : Fin cfg1.N) (d) : dat.before 5 t d = iblk1 V c 5 t := by
  have hkeep : ∀ u, (cfg1.win 5).cut (cfg1.grid.coords u) (dat.after 5 u) = dat.blockOf 5 u := fun u => by
    rw [hafter]; unfold Dat.blockOf iblk1; rw [hA]; try rfl
  rw [dat.before_in_eq_fetched 5 rfl (fun _ => rfl) (fun _ _ _ => rfl) hkeep t d]
  unfold Dat.fetched Dat.blockOf iblk1; rw [hA]; try rfl
theorem before1_6_of {c : Dev nD} (dat : Dat τ (Elt F) Unit ℕ (Pipeline.UD sig nD τ) ℕ cfg1 c) (hA : dat.A 6 = V c (Pipeline.arrRef spec1 6))
    (hafter : ∀ t, dat.after 6 t = iblk1 V c 6 t) (t : Fin cfg1.N) (d) : dat.before 6 t d = iblk1 V c 6 t := by
  have hkeep : ∀ u, (cfg1.win 6).cut (cfg1.grid.coords u) (dat.after 6 u) = dat.blockOf 6 u := fun u => by
    rw [hafter]; unfold Dat.blockOf iblk1; rw [hA]; try rfl
  rw [dat.before_in_eq_fetched 6 rfl (fun _ => rfl) (fun _ _ _ => rfl) hkeep t d]
  unfold Dat.fetched Dat.blockOf iblk1; rw [hA]; try rfl
theorem before1_7_of {c : Dev nD} (dat : Dat τ (Elt F) Unit ℕ (Pipeline.UD sig nD τ) ℕ cfg1 c) (hA : dat.A 7 = V c (Pipeline.arrRef spec1 7))
    (hafter : ∀ t, dat.after 7 t = iblk1 V c 7 t) (t : Fin cfg1.N) (d) : dat.before 7 t d = iblk1 V c 7 t := by
  have hkeep : ∀ u, (cfg1.win 7).cut (cfg1.grid.coords u) (dat.after 7 u) = dat.blockOf 7 u := fun u => by
    rw [hafter]; unfold Dat.blockOf iblk1; rw [hA]; try rfl
  rw [dat.before_in_eq_fetched 7 rfl (fun _ => rfl) (fun _ _ _ => rfl) hkeep t d]
  unfold Dat.fetched Dat.blockOf iblk1; rw [hA]; try rfl
theorem before1_8_of {c : Dev nD} (dat : Dat τ (Elt F) Unit ℕ (Pipeline.UD sig nD τ) ℕ cfg1 c) (hA : dat.A 8 = V c (Pipeline.arrRef spec1 8))
    (hafter : ∀ t, dat.after 8 t = iblk1 V c 8 t) (t : Fin cfg1.N) (d) : dat.before 8 t d = iblk1 V c 8 t := by
  have hkeep : ∀ u, (cfg1.win 8).cut (cfg1.grid.coords u) (dat.after 8 u) = dat.blockOf 8 u := fun u => by
    rw [hafter]; unfold Dat.blockOf iblk1; rw [hA]; try rfl
  rw [dat.before_in_eq_fetched 8 rfl (fun _ => rfl) (fun _ _ _ => rfl) hkeep t d]
  unfold Dat.fetched Dat.blockOf iblk1; rw [hA]; try rfl
theorem before1_9_of {c : Dev nD} (dat : Dat τ (Elt F) Unit ℕ (Pipeline.UD sig nD τ) ℕ cfg1 c) (hA : dat.A 9 = V c (Pipeline.arrRef spec1 9))
    (hafter : ∀ t, dat.after 9 t = iblk1 V c 9 t) (t : Fin cfg1.N) (d) : dat.before 9 t d = iblk1 V c 9 t := by
  have hkeep : ∀ u, (cfg1.win 9).cut (cfg1.grid.coords u) (dat.after 9 u) = dat.blockOf 9 u := fun u => by
    rw [hafter]; unfold Dat.blockOf iblk1; rw [hA]; try rfl
  rw [dat.before_in_eq_fetched 9 rfl (fun _ => rfl) (fun _ _ _ => rfl) hkeep t d]
  unfold Dat.fetched Dat.blockOf iblk1; rw [hA]; try rfl
theorem before1_10_of {c : Dev nD} (dat : Dat τ (Elt F) Unit ℕ (Pipeline.UD sig nD τ) ℕ cfg1 c) (hA : dat.A 10 = V c (Pipeline.arrRef spec1 10))
    (hafter : ∀ t, dat.after 10 t = iblk1 V c 10 t) (t : Fin cfg1.N) (d) : dat.before 10 t d = iblk1 V c 10 t := by
  have hkeep : ∀ u, (cfg1.win 10).cut (cfg1.grid.coords u) (dat.after 10 u) = dat.blockOf 10 u := fun u => by
    rw [hafter]; unfold Dat.blockOf iblk1; rw [hA]; try rfl
  rw [dat.before_in_eq_fetched 10 rfl (fun _ => rfl) (fun _ _ _ => rfl) hkeep t d]
  unfold Dat.fetched Dat.blockOf iblk1; rw [hA]; try rfl

/-! ## The accumulators and the result block, point by point -/

/-- What the first scratch accumulator holds after the body at point `n`: at the first step of a row block the
    step's product over the zero fill, at a later step the product added to what the point before left. -/
def acc1At (c : Dev nD) : (n : ℕ) → n < cfg1.N → Vec F S512x1024 .f32
  | 0, h => accReset1 (featA V c ⟨0, h⟩) (wgt0 V c ⟨0, h⟩)
  | n + 1, h =>
    if (n + 1) % 10 = 0 then accReset1 (featA V c ⟨n + 1, h⟩) (wgt0 V c ⟨n + 1, h⟩)
    else accStep1 (acc1At c n (Nat.lt_of_succ_lt h)) (featA V c ⟨n + 1, h⟩) (wgt0 V c ⟨n + 1, h⟩)

/-- The same for the second accumulator, over the second feature block. -/
def acc2At (c : Dev nD) : (n : ℕ) → n < cfg1.N → Vec F S512x1024 .f32
  | 0, h => accReset2 (featB V c ⟨0, h⟩) (wgt0 V c ⟨0, h⟩)
  | n + 1, h =>
    if (n + 1) % 10 = 0 then accReset2 (featB V c ⟨n + 1, h⟩) (wgt0 V c ⟨n + 1, h⟩)
    else accStep2 (acc2At c n (Nat.lt_of_succ_lt h)) (featB V c ⟨n + 1, h⟩) (wgt0 V c ⟨n + 1, h⟩)

theorem acc1At_first (c : Dev nD) (t : Fin cfg1.N) (h : t.val % 10 = 0) :
    acc1At V c t.val t.isLt = accReset1 (featA V c t) (wgt0 V c t) := by
  obtain ⟨n, hn⟩ := t
  cases n with
  | zero => rfl
  | succ n => exact if_pos h
theorem acc1At_next (c : Dev nD) (t : Fin cfg1.N) (h : t.val % 10 ≠ 0) :
    acc1At V c t.val t.isLt
      = accStep1 (acc1At V c (t.val - 1) (Nat.lt_of_le_of_lt (Nat.sub_le _ _) t.isLt)) (featA V c t) (wgt0 V c t) := by
  obtain ⟨n, hn⟩ := t
  cases n with
  | zero => exact absurd (Nat.zero_mod _) h
  | succ n => exact if_neg h
theorem acc2At_first (c : Dev nD) (t : Fin cfg1.N) (h : t.val % 10 = 0) :
    acc2At V c t.val t.isLt = accReset2 (featB V c t) (wgt0 V c t) := by
  obtain ⟨n, hn⟩ := t
  cases n with
  | zero => rfl
  | succ n => exact if_pos h
theorem acc2At_next (c : Dev nD) (t : Fin cfg1.N) (h : t.val % 10 ≠ 0) :
    acc2At V c t.val t.isLt
      = accStep2 (acc2At V c (t.val - 1) (Nat.lt_of_le_of_lt (Nat.sub_le _ _) t.isLt)) (featB V c t) (wgt0 V c t) := by
  obtain ⟨n, hn⟩ := t
  cases n with
  | zero => exact absurd (Nat.zero_mod _) h
  | succ n => exact if_neg h

/-- The rest of the network over the two accumulators as point `n` leaves them. At a last step (`n % 10 = 9`) this
    is what the body stores into the output window's staging buffer, and only there is it read: at every other
    point the window is idle and not written back, and its buffer is handed back as it was found. -/
def outAt (c : Dev nD) (n : ℕ) (h : n < cfg1.N) : Vec F S512 .f32 :=
  mlpOut (acc1At V c n h) (acc2At V c n h) (concA V c ⟨n, h⟩) (concB V c ⟨n, h⟩) (wgt0c V c ⟨n, h⟩) (bias0 V c ⟨n, h⟩)
    (wgt1 V c ⟨n, h⟩) (bias1 V c ⟨n, h⟩) (wgt2 V c ⟨n, h⟩) (bias2 V c ⟨n, h⟩)

/-- At a last step, spelled over what the point before left in the accumulators. -/
theorem outAt_last (c : Dev nD) (t : Fin cfg1.N) (h : t.val % 10 = 9) :
    outAt V c t.val t.isLt
      = mlpOut (accStep1 (acc1At V c (t.val - 1) (Nat.lt_of_le_of_lt (Nat.sub_le _ _) t.isLt)) (featA V c t) (wgt0 V c t))
          (accStep2 (acc2At V c (t.val - 1) (Nat.lt_of_le_of_lt (Nat.sub_le _ _) t.isLt)) (featB V c t) (wgt0 V c t))
          (concA V c t) (concB V c t) (wgt0c V c t) (bias0 V c t) (wgt1 V c t) (bias1 V c t) (wgt2 V c t) (bias2 V c t) := by
  have h0 : t.val % 10 ≠ 0 := by omega
  unfold outAt
  rw [acc1At_next V c t h0, acc2At_next V c t h0]

/-! ## The invariant: the scoped rest with the two accumulators named -/

/-- The core's scoped buffers that are no staging buffer of this call — the first call's staging buffers and scratch,
    each at some contents, then this call's two scratch accumulators as `S0`, `S1` say — and the generator register at
    some state. -/
def scoped1 (c : Dev nD) (S0 S1 : sProp 𝕄) : sProp 𝕄 :=
  iprop(((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)
      ∗ S0 ∗ S1) ∗ ∃ r, prngReg c r)

/-- It is monotone in what it says of the two accumulators. -/
theorem scoped1_mono (c : Dev nD) {S0 S1 S0' S1' : sProp 𝕄} (h0 : S0 ⊢ S0') (h1 : S1 ⊢ S1') :
    scoped1 c S0 S1 ⊢ scoped1 c S0' S1' := by
  unfold scoped1
  exact BI.sep_mono_l (BI.sep_mono_r (BI.sep_mono_r (BI.sep_mono_r (BI.sep_mono_r (BI.sep_mono_r (BI.sep_mono_r (BI.sep_mono h0 h1)))))))

/-- With both accumulators at anything this is the invariant of a body that carries nothing. -/
theorem PhiA1_eq (c : Dev nD) :
    (Pipeline.ΦA spec1 c : sProp 𝕄)
      = scoped1 c (iprop(∃ d, owns (c : Thread nD τ) (Memref.whole cc1_scratch0) fullShare d))
          (iprop(∃ d, owns (c : Thread nD τ) (Memref.whole cc1_scratch1) fullShare d)) := by
  unfold Pipeline.ΦA scoped1; rw [scopedRest1_eq]; simp only [owns_whole]; try rfl

/-- The invariant before position `n`: before the first point both accumulators hold anything; afterwards each holds
    what the point before left in it. -/
def Phi1 (c : Dev nD) : (n : ℕ) → n ≤ cfg1.N → sProp 𝕄
  | 0, _ => Pipeline.ΦA spec1 c
  | n + 1, h => scoped1 c (owns (c : Thread nD τ) (Memref.whole cc1_scratch0) fullShare (acc1At V c n h))
      (owns (c : Thread nD τ) (Memref.whole cc1_scratch1) fullShare (acc2At V c n h))

theorem Phi1_zero (c : Dev nD) (n : ℕ) (h : n ≤ cfg1.N) (hz : n = 0) : Phi1 V c n h = Pipeline.ΦA spec1 c := by
  subst hz; rfl
theorem Phi1_succ (c : Dev nD) (n : ℕ) (h : n < cfg1.N) :
    Phi1 V c (n + 1) h = scoped1 c (owns (c : Thread nD τ) (Memref.whole cc1_scratch0) fullShare (acc1At V c n h))
      (owns (c : Thread nD τ) (Memref.whole cc1_scratch1) fullShare (acc2At V c n h)) := rfl
theorem Phi1_pos (c : Dev nD) (n : ℕ) (h : n ≤ cfg1.N) (hz : n ≠ 0) :
    Phi1 V c n h = scoped1 c (owns (c : Thread nD τ) (Memref.whole cc1_scratch0) fullShare (acc1At V c (n - 1) (by omega)))
      (owns (c : Thread nD τ) (Memref.whole cc1_scratch1) fullShare (acc2At V c (n - 1) (by omega))) := by
  cases n with
  | zero => exact absurd rfl hz
  | succ n => rfl

/-- Whatever the accumulators are known to hold, the invariant gives back the one that names nothing. -/
theorem Phi1_forget (c : Dev nD) (n : ℕ) (h : n ≤ cfg1.N) : Phi1 V c n h ⊢ Pipeline.ΦA spec1 c := by
  cases n with
  | zero => exact .rfl
  | succ n =>
    rw [Phi1_succ, PhiA1_eq]
    refine scoped1_mono c ?_ ?_
    · iintro H; iexists _; iexact H
    · iintro H; iexists _; iexact H

/-- Opening the invariant before position `n`: the two accumulators hold some contents, and after the first point
    those are what the point before left. -/
theorem Phi1_open (c : Dev nD) (n : ℕ) (h : n ≤ cfg1.N) :
    Phi1 V c n h ⊢ iprop(∃ a1 a2, ⌜∀ hz : n ≠ 0, a1 = acc1At V c (n - 1) (by omega) ∧ a2 = acc2At V c (n - 1) (by omega)⌝
      ∗ scoped1 c (owns (c : Thread nD τ) (Memref.whole cc1_scratch0) fullShare a1) (owns (c : Thread nD τ) (Memref.whole cc1_scratch1) fullShare a2)) := by
  cases n with
  | zero =>
    rw [Phi1_zero V c 0 h rfl, PhiA1_eq]; unfold scoped1
    iintro ⟨⟨R1, R2, R3, R4, R5, R6, ⟨%a1, HS0⟩, ⟨%a2, HS1⟩⟩, Hg⟩
    iexists a1, a2
    isplitr
    · ipureintro; intro hz; exact absurd rfl hz
    isplitr [Hg]
    ·
      isplitl [R1]; · iexact R1
      isplitl [R2]; · iexact R2
      isplitl [R3]; · iexact R3
      isplitl [R4]; · iexact R4
      isplitl [R5]; · iexact R5
      isplitl [R6]; · iexact R6
      isplitl [HS0]; · iexact HS0
      iexact HS1
    iexact Hg
  | succ n =>
    rw [Phi1_succ]
    iintro H
    iexists acc1At V c n h, acc2At V c n h
    isplitr
    · ipureintro; intro _; exact ⟨rfl, rfl⟩
    iexact H

/-! ## The proof data -/

/-- Region 1's proof data on core `c`: the arrays as the region finds them; after the body each input's staging buffer
    at its block and the output's at `outAt`; the invariant `Phi1`; full shares; nothing owed. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => outAt V c t.val t.isLt
  Φ t := Phi1 V c t.val (Nat.le_of_lt_succ t.isLt)
  q _ := fullShare
  owed _ := 0

theorem dat1_A (c : Dev nD) (w : Fin cfg1.W) : (dat1 V c).A w = V c (Pipeline.arrRef spec1 w) := by
  dsimp only [dat1]
theorem dat1_after_0 (c : Dev nD) (t : Fin cfg1.N) : (dat1 V c).after 0 t = iblk1 V c 0 t := by dsimp only [dat1]
theorem dat1_after_1 (c : Dev nD) (t : Fin cfg1.N) : (dat1 V c).after 1 t = iblk1 V c 1 t := by dsimp only [dat1]
theorem dat1_after_2 (c : Dev nD) (t : Fin cfg1.N) : (dat1 V c).after 2 t = iblk1 V c 2 t := by dsimp only [dat1]
theorem dat1_after_3 (c : Dev nD) (t : Fin cfg1.N) : (dat1 V c).after 3 t = iblk1 V c 3 t := by dsimp only [dat1]
theorem dat1_after_4 (c : Dev nD) (t : Fin cfg1.N) : (dat1 V c).after 4 t = iblk1 V c 4 t := by dsimp only [dat1]
theorem dat1_after_5 (c : Dev nD) (t : Fin cfg1.N) : (dat1 V c).after 5 t = iblk1 V c 5 t := by dsimp only [dat1]
theorem dat1_after_6 (c : Dev nD) (t : Fin cfg1.N) : (dat1 V c).after 6 t = iblk1 V c 6 t := by dsimp only [dat1]
theorem dat1_after_7 (c : Dev nD) (t : Fin cfg1.N) : (dat1 V c).after 7 t = iblk1 V c 7 t := by dsimp only [dat1]
theorem dat1_after_8 (c : Dev nD) (t : Fin cfg1.N) : (dat1 V c).after 8 t = iblk1 V c 8 t := by dsimp only [dat1]
theorem dat1_after_9 (c : Dev nD) (t : Fin cfg1.N) : (dat1 V c).after 9 t = iblk1 V c 9 t := by dsimp only [dat1]
theorem dat1_after_10 (c : Dev nD) (t : Fin cfg1.N) : (dat1 V c).after 10 t = iblk1 V c 10 t := by dsimp only [dat1]
theorem dat1_after_11 (c : Dev nD) (t : Fin cfg1.N) : (dat1 V c).after 11 t = outAt V c t.val t.isLt := by dsimp only [dat1]
theorem dat1_Phi (c : Dev nD) (t : Fin (cfg1.N + 1)) : (dat1 V c).Φ t = Phi1 V c t.val (Nat.le_of_lt_succ t.isLt) := by
  dsimp only [dat1]
theorem dat1_Phi_castSucc (c : Dev nD) (t : Fin cfg1.N) : (dat1 V c).Φ t.castSucc = Phi1 V c t.val (Nat.le_of_lt t.isLt) := by
  dsimp only [dat1]; simp only [Fin.coe_castSucc]

/-- The invariant before the first point is the one the launch hands over, -/
theorem dat1_Phi_in (c : Dev nD) : Pipeline.ΦA spec1 c ⊢ (dat1 V c).Φ 0 := by
  rw [dat1_Phi]; exact .rfl
/-- and after the last point it gives that one back. -/
theorem dat1_Phi_out (c : Dev nD) : (dat1 V c).Φ (Fin.last cfg1.N) ⊢ Pipeline.ΦA spec1 c := by
  rw [dat1_Phi]; exact Phi1_forget V c _ _

theorem before1_0 (c : Dev nD) (t : Fin cfg1.N) (d) : (dat1 V c).before 0 t d = iblk1 V c 0 t :=
  before1_0_of V (dat1 V c) (dat1_A V c 0) (dat1_after_0 V c) t d
theorem before1_1 (c : Dev nD) (t : Fin cfg1.N) (d) : (dat1 V c).before 1 t d = iblk1 V c 1 t :=
  before1_1_of V (dat1 V c) (dat1_A V c 1) (dat1_after_1 V c) t d
theorem before1_2 (c : Dev nD) (t : Fin cfg1.N) (d) : (dat1 V c).before 2 t d = iblk1 V c 2 t :=
  before1_2_of V (dat1 V c) (dat1_A V c 2) (dat1_after_2 V c) t d
theorem before1_3 (c : Dev nD) (t : Fin cfg1.N) (d) : (dat1 V c).before 3 t d = iblk1 V c 3 t :=
  before1_3_of V (dat1 V c) (dat1_A V c 3) (dat1_after_3 V c) t d
theorem before1_4 (c : Dev nD) (t : Fin cfg1.N) (d) : (dat1 V c).before 4 t d = iblk1 V c 4 t :=
  before1_4_of V (dat1 V c) (dat1_A V c 4) (dat1_after_4 V c) t d
theorem before1_5 (c : Dev nD) (t : Fin cfg1.N) (d) : (dat1 V c).before 5 t d = iblk1 V c 5 t :=
  before1_5_of V (dat1 V c) (dat1_A V c 5) (dat1_after_5 V c) t d
theorem before1_6 (c : Dev nD) (t : Fin cfg1.N) (d) : (dat1 V c).before 6 t d = iblk1 V c 6 t :=
  before1_6_of V (dat1 V c) (dat1_A V c 6) (dat1_after_6 V c) t d
theorem before1_7 (c : Dev nD) (t : Fin cfg1.N) (d) : (dat1 V c).before 7 t d = iblk1 V c 7 t :=
  before1_7_of V (dat1 V c) (dat1_A V c 7) (dat1_after_7 V c) t d
theorem before1_8 (c : Dev nD) (t : Fin cfg1.N) (d) : (dat1 V c).before 8 t d = iblk1 V c 8 t :=
  before1_8_of V (dat1 V c) (dat1_A V c 8) (dat1_after_8 V c) t d
theorem before1_9 (c : Dev nD) (t : Fin cfg1.N) (d) : (dat1 V c).before 9 t d = iblk1 V c 9 t :=
  before1_9_of V (dat1 V c) (dat1_A V c 9) (dat1_after_9 V c) t d
theorem before1_10 (c : Dev nD) (t : Fin cfg1.N) (d) : (dat1 V c).before 10 t d = iblk1 V c 10 t :=
  before1_10_of V (dat1 V c) (dat1_A V c 10) (dat1_after_10 V c) t d

/-! ## The body at a point -/

/-- What one point makes of the first accumulator found at `a`: at column step 0 the step from the zero fill, at a
    later step the step from `a`. -/
def stepOf1 (k : ℕ) (a : Vec F S512x1024 .f32) (x : Vec F S512x1920 .bf16) (w : Vec F S1920x1024 .bf16) : Vec F S512x1024 .f32 :=
  if k = 0 then accReset1 x w else accStep1 a x w
/-- The same for the second accumulator. -/
def stepOf2 (k : ℕ) (a : Vec F S512x1024 .f32) (x : Vec F S512x1920 .bf16) (w : Vec F S1920x1024 .bf16) : Vec F S512x1024 .f32 :=
  if k = 0 then accReset2 x w else accStep2 a x w

/-- The inputs' current staging buffers at point `t`, each holding its window's block. -/
def insAt (c : Dev nD) (t : Fin cfg1.N) : sProp 𝕄 :=
  mlpIns c (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (featA V c t) (featB V c t) (concA V c t) (concB V c t) (wgt0 V c t) (wgt0c V c t) (bias0 V c t) (wgt1 V c t) (bias1 V c t) (wgt2 V c t) (bias2 V c t)

set_option maxHeartbeats 1000000 in
/-- The body at point `t`, the three cases of the column step in one statement: from the inputs at their blocks, the
    output's buffer at `d11` and the accumulators at `a1`, `a2`, it leaves the inputs as they were, each accumulator one step
    further, and the output's buffer at the rest of the network over the stepped accumulators if this is a last
    step, as it was otherwise. -/
theorem run_point (c : Dev nD) (t : Fin cfg1.N) (a1 a2 : Vec F S512x1024 .f32) (d11 : Vec F S512 .f32) (K : PUnit → sProp 𝕄) :
    iprop(insAt V c t ∗ owns (c : Thread nD τ) (win1_11.stage (cfg1.slots t 11)) fullShare d11 ∗ owns (c : Thread nD τ) (Memref.whole cc1_scratch0) fullShare a1 ∗ owns (c : Thread nD τ) (Memref.whole cc1_scratch1) fullShare a2
        ∗ (iprop(insAt V c t
            ∗ owns (c : Thread nD τ) (win1_11.stage (cfg1.slots t 11)) fullShare (if t.val % 10 = 9 then mlpOut (stepOf1 (t.val % 10) a1 (featA V c t) (wgt0 V c t)) (stepOf2 (t.val % 10) a2 (featB V c t) (wgt0 V c t)) (concA V c t) (concB V c t) (wgt0c V c t) (bias0 V c t) (wgt1 V c t) (bias1 V c t) (wgt2 V c t) (bias2 V c t) else d11)
            ∗ owns (c : Thread nD τ) (Memref.whole cc1_scratch0) fullShare (stepOf1 (t.val % 10) a1 (featA V c t) (wgt0 V c t)) ∗ owns (c : Thread nD τ) (Memref.whole cc1_scratch1) fullShare (stepOf2 (t.val % 10) a2 (featB V c t) (wgt0 V c t))) -∗ K ⟨⟩))
      ⊢ wp frame (wpE (defs₀ (F := F)) Variants.none c none) Set.univ (bodyAt1 t) K := by
  unfold bodyAt1 insAt
  have hk := step_eq t
  by_cases h0 : t.val % 10 = 0
  · have h9 : ¬ t.val % 10 = 9 := by omega
    simp only [stepOf1, stepOf2, if_pos h0, if_neg h9]
    iintro ⟨HI, H11, HS0, HS1, HK⟩
    iapply (mlp_run_first c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (win1_11.stage (cfg1.slots t 11)) (hstage1_11 ((cfg1.slots t 11).cast nbuf1_11)) (Memref.whole cc1_scratch0) (Memref.isWhole_whole _) (Memref.whole cc1_scratch1) (Memref.isWhole_whole _) (hk.trans h0) (featA V c t) (featB V c t) (concA V c t) (concB V c t) (wgt0 V c t) (wgt0c V c t) (bias0 V c t) (wgt1 V c t) (bias1 V c t) (wgt2 V c t) (bias2 V c t) d11 K)
    isplitl [HI]; · iexact HI
    isplitl [H11]; · iexact H11
    isplitl [HS0]; · iexists _; iexact HS0
    isplitl [HS1]; · iexists _; iexact HS1
    iexact HK
  · by_cases h9 : t.val % 10 = 9
    · simp only [stepOf1, stepOf2, if_neg h0, if_pos h9]
      iintro ⟨HI, H11, HS0, HS1, HK⟩
      iapply (mlp_run_last c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (win1_11.stage (cfg1.slots t 11)) (hstage1_11 ((cfg1.slots t 11).cast nbuf1_11)) (Memref.whole cc1_scratch0) (Memref.isWhole_whole _) (Memref.whole cc1_scratch1) (Memref.isWhole_whole _) (hk.trans h9) (featA V c t) (featB V c t) (concA V c t) (concB V c t) (wgt0 V c t) (wgt0c V c t) (bias0 V c t) (wgt1 V c t) (bias1 V c t) (wgt2 V c t) (bias2 V c t) a1 a2 K)
      isplitl [HI]; · iexact HI
      isplitl [H11]; · iexists _; iexact H11
      isplitl [HS0]; · iexact HS0
      isplitl [HS1]; · iexact HS1
      iexact HK
    · simp only [stepOf1, stepOf2, if_neg h0, if_neg h9]
      iintro ⟨HI, H11, HS0, HS1, HK⟩
      iapply (mlp_run_mid c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (win1_11.stage (cfg1.slots t 11)) (hstage1_11 ((cfg1.slots t 11).cast nbuf1_11)) (Memref.whole cc1_scratch0) (Memref.isWhole_whole _) (Memref.whole cc1_scratch1) (Memref.isWhole_whole _) (fun h => h0 (hk.symm.trans h)) (fun h => h9 (hk.symm.trans h)) (featA V c t) (featB V c t) (concA V c t) (concB V c t) (wgt0 V c t) (wgt0c V c t) (bias0 V c t) (wgt1 V c t) (bias1 V c t) (wgt2 V c t) (bias2 V c t) a1 a2 d11 K)
      isplitl [HI]; · iexact HI
      isplitl [H11]; · iexact H11
      isplitl [HS0]; · iexact HS0
      isplitl [HS1]; · iexact HS1
      iexact HK

/-- How the output window's buffer is handed back at point `t`, found at `before 11 t d`: at a last step the window is live and
    the buffer holds `outAt`; at any other step the window is idle and not written back, and the buffer is as found. -/
theorem leaves1_11 (c : Dev nD) (t : Fin cfg1.N) (d : (cfg1.win 11).block.Idx → Elt F (cfg1.win 11).elt) :
    owns (c : Thread nD τ) (st1_11 t) fullShare (if t.val % 10 = 9 then outAt V c t.val t.isLt else (dat1 V c).before 11 t d)
      ⊢ (dat1 V c).leavesExact 11 t := by
  have hk := step_eq t
  by_cases h9 : t.val % 10 = 9
  · have hlive : cfg1.idle 11 (cfg1.grid.coords t) = false := by
      show (!(k1_cond2 (grid1.coords t) == 1#1)) = false
      rw [Bool.not_eq_false', beq_iff_eq]
      exact (isLast_iff _).mpr (hk.trans h9)
    rw [if_pos h9]; unfold Dat.leavesExact; rw [hlive, dat1_after_11]
  · have hidle : cfg1.idle 11 (cfg1.grid.coords t) = true := by
      show (!(k1_cond2 (grid1.coords t) == 1#1)) = true
      rw [Bool.not_eq_true', beq_eq_false_iff_ne]
      exact fun h => h9 (hk.symm.trans ((isLast_iff _).mp h))
    have hnf : (cfg1.win 11).flush t = false := Bool.eq_false_iff.mpr fun h => h9 ((flush1_11 t).mp h)
    rw [if_neg h9, Dat.leavesExact_idle (dat1 V c) 11 t hidle hnf]
    iintro H; iexists d; iexact H

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d)))

/-- and what it returns: the inputs' buffers at their blocks, the output's as its window is left at the point. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ (dat1 V c).leavesExact 11 t)

set_option maxHeartbeats 1000000 in
/-- The body at any point. The inputs' buffers hold their blocks; the invariant hands over the accumulators at what
    the point before left (at anything before the first point); the body's run steps each accumulator, which is what
    the recursion says it holds after the point; the invariant and the core's dues pass through otherwise unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1
  simp only [before1_0 V c t, dat1_after_0 V c t, before1_1 V c t, dat1_after_1 V c t, before1_2 V c t, dat1_after_2 V c t, before1_3 V c t, dat1_after_3 V c t, before1_4 V c t, dat1_after_4 V c t, before1_5 V c t, dat1_after_5 V c t, before1_6 V c t, dat1_after_6 V c t, before1_7 V c t, dat1_after_7 V c t, before1_8 V c t, dat1_after_8 V c t, before1_9 V c t, dat1_after_9 V c t, before1_10 V c t, dat1_after_10 V c t]
  rw [show (dat1 V c).owesAt () t.succ = (dat1 V c).owesAt () t.castSucc from rfl,
    show (dat1 V c).Φ t.succ = Phi1 V c (t.val + 1) t.isLt from rfl, Phi1_succ, dat1_Phi_castSucc]
  refine (sep_mono_left (Phi1_open V c t.val (Nat.le_of_lt t.isLt))).trans ?_
  iintro ⟨⟨%a1, %a2, %ha, HΦ⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  have e1 : stepOf1 (t.val % 10) a1 (featA V c t) (wgt0 V c t) = acc1At V c t.val t.isLt := by
    unfold stepOf1
    by_cases h0 : t.val % 10 = 0
    · rw [if_pos h0, acc1At_first V c t h0]
    · rw [if_neg h0, acc1At_next V c t h0, (ha (by omega)).1]
  have e2 : stepOf2 (t.val % 10) a2 (featB V c t) (wgt0 V c t) = acc2At V c t.val t.isLt := by
    unfold stepOf2
    by_cases h0 : t.val % 10 = 0
    · rw [if_pos h0, acc2At_first V c t h0]
    · rw [if_neg h0, acc2At_next V c t h0, (ha (by omega)).2]
  unfold scoped1
  icases HΦ with ⟨⟨R1, R2, R3, R4, R5, R6, HS0, HS1⟩, Hg⟩
  iapply (run_point V c t a1 a2 ((dat1 V c).before 11 t d11) _)
  rw [e1, e2]
  isplitl [H0 H1 H2 H3 H4 H5 H6 H7 H8 H9 H10]
  · unfold insAt mlpIns
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  isplitl [H11]; · iexact H11
  isplitl [HS0]; · iexact HS0
  isplitl [HS1]; · iexact HS1
  iintro ⟨HI, H11, HS0, HS1⟩
  unfold insAt mlpIns
  icases HI with ⟨H0, H1, H2, H3, H4, H5, H6, H7, H8, H9, H10⟩
  isplitl [R1 R2 R3 R4 R5 R6 HS0 HS1 Hg]
  · isplitr [Hg]
    ·
      isplitl [R1]; · iexact R1
      isplitl [R2]; · iexact R2
      isplitl [R3]; · iexact R3
      isplitl [R4]; · iexact R4
      isplitl [R5]; · iexact R5
      isplitl [R6]; · iexact R6
      isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iapply (leaves1_11 V c t d11)
  iexact H11

/-- The body obligation of region 1 at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Tables.lean ====
/-
  What the two prefetched index tables hold when the gather region is entered. The host slices column 0 (column 1)
  out of drug_pairs : i32[8192, 2] as an [8192, 1] array and reshapes it to [8192]; nothing afterwards writes
  those buffers before the region. So entry b of the first table is drug_pairs[b, 0] and entry b of the second is
  drug_pairs[b, 1], as the launch memory holds them. For any float instance: only integer words move.
-/
import proofs.«406060_j54142357733864_2_alg».proof.Proof.Gen.KernelIdeal.Regions
import Idealize.ShloMosaic.Lib.StableHlo.Run
import Idealize.ShloMosaic.Lib.ValueIdx
import Idealize.ShloMosaic.Lib.Pipeline.Value

noncomputable section

namespace Cert.KernelIdeal.Hand

open Idealize.ShloMosaic Idealize.ShloMosaic.TcCoe Idealize.SL.Sem Cert.KernelIdeal Cert.KernelIdeal.Gen ValueIdx

variable {F : FTy → Type} [FloatOps F]
variable (m : (ℓ : Loc nD τ sig) → Buf (Elt F) ℓ)

/-- The first table at the region's entry: entry `b` is `drug_pairs[b, 0]` of the launch memory. -/
theorem idx0_apply (c : Dev nD) (b : Fin 8192) :
    V2 m c (Proc.devRef .tc main_v1) (ix1 b) = m ((c : Thread nD τ).loc main_arg1) (ix2 b 0) := by
  rw [V2_of m c main_v1 (by decide)]
  have e : V1 m c (Proc.devRef .tc main_v1)
      = (shapeCast S8192 (extractStridedSlice S8192x1 ![0, 0] (m ((c : Thread nD τ).loc main_arg1)) slices_S8192x2_S8192x1_0_0)
          shapeCasts_S8192x1_S8192 : S8192.Idx → BitVec 32) := by
    dsimp only [V1, V0, hostOps0]; after_results; rfl
  rw [e]
  refine (shapeCast_apply _ _ (ix1 b) (ix2 b (0 : Fin 1)) ?_).trans ?_
  · rw [Shape.rowMajor_val_two, Shape.rowMajor_val_one]; show b.val * 1 + 0 = b.val; omega
  · exact extractStridedSlice_apply _ _ _ (ix2 b (0 : Fin 1)) (ix2 b (0 : Fin 2)) (fun a => by
      match a with
      | ⟨0, _⟩ => show b.val = 0 + b.val; omega
      | ⟨1, _⟩ => rfl)

/-- The second table at the region's entry: entry `b` is `drug_pairs[b, 1]` of the launch memory. -/
theorem idx1_apply (c : Dev nD) (b : Fin 8192) :
    V2 m c (Proc.devRef .tc main_v3) (ix1 b) = m ((c : Thread nD τ).loc main_arg1) (ix2 b 1) := by
  rw [V2_of m c main_v3 (by decide)]
  have e : V1 m c (Proc.devRef .tc main_v3)
      = (shapeCast S8192 (extractStridedSlice S8192x1 ![0, 1] (m ((c : Thread nD τ).loc main_arg1)) slices_S8192x2_S8192x1_0_1)
          shapeCasts_S8192x1_S8192 : S8192.Idx → BitVec 32) := by
    dsimp only [V1, V0, hostOps0]; after_results; rfl
  rw [e]
  refine (shapeCast_apply _ _ (ix1 b) (ix2 b (0 : Fin 1)) ?_).trans ?_
  · rw [Shape.rowMajor_val_two, Shape.rowMajor_val_one]; show b.val * 1 + 0 = b.val; omega
  · exact extractStridedSlice_apply _ _ _ (ix2 b (0 : Fin 1)) (ix2 b (1 : Fin 2)) (fun a => by
      match a with
      | ⟨0, _⟩ => show b.val = 0 + b.val; omega
      | ⟨1, _⟩ => rfl)

end Cert.KernelIdeal.Hand

end
-- ==== Proof.Certify.lean ====
/-
  The two pipelines' proof data, instantiated at the program's own memory, meet the contracts the
  run of @main asks of them: the gather's data at the contents the first host operations leave
  (given the gather kernel's run and that every index word names a row of the table), the network's
  data at the contents the later host operations leave after the gather's write-backs. With them the
  run terminates with the arguments unchanged and the result buffer holding what the network's
  write-backs leave.
-/
import proofs.«406060_j54142357733864_2_alg».proof.Proof.FrameDefs
import proofs.«406060_j54142357733864_2_alg».proof.Proof.Frame
import proofs.«406060_j54142357733864_2_alg».proof.Proof.GatherDat
import proofs.«406060_j54142357733864_2_alg».proof.Proof.GatherGlue
import proofs.«406060_j54142357733864_2_alg».proof.Proof.MlpDat
import proofs.«406060_j54142357733864_2_alg».proof.Proof.Tables

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.Gen

variable {F : FTy → Type} [FloatOps F]

local notation "𝕄" => MT nD τ sig Unit (Elt F) ℕ (Pipeline.UD sig nD τ) ℕ

section Certify

variable (m : (ℓ : Loc nD τ sig) → Buf (Elt F) ℓ) (ρ : Dev nD → PrngReg)

/-- The gather pipeline's proof data, at the contents the first host operations leave. -/
abbrev gdat (c : Dev nD) : Dat τ (Elt F) Unit ℕ (Pipeline.UD sig nD τ) ℕ (cfg0 (adm0 m)) c :=
  dat0 (adm0 m) (fun c b => V2 m c b) c

/-- The network pipeline's proof data, at the contents the later host operations leave once the gather
    has written its two outputs back. -/
abbrev mdat (c : Dev nD) : Dat τ (Elt F) Unit ℕ (Pipeline.UD sig nD τ) ℕ cfg1 c :=
  dat1 (fun c b => V6 m (outs0 m (gdat m)) c b) c

/-- Every word of the first index table, as the gather finds it, names a row of the table. -/
theorem tab0_lt (hidx : ∀ (c : Dev nD) (i : S8192x2.Idx), (m ((c : Thread nD τ).loc main_arg1) i : BitVec 32).toNat < 4200)
    (c : Dev nD) (x : S8192.Idx) : ((V2 m c main_v1 : Vec F S8192 .i32) x).toNat < 4200 := by
  have e : (V2 m c main_v1 : Vec F S8192 .i32) x = m ((c : Thread nD τ).loc main_arg1) (ValueIdx.ix2 (x 0) 0) :=
    (congrArg (V2 m c main_v1 : Vec F S8192 .i32) (ValueIdx.eq_ix1 x)).trans (idx0_apply m c (x 0))
  exact lt_of_eq_of_lt (congrArg BitVec.toNat e) (hidx c _)

/-- Every word of the second index table likewise. -/
theorem tab1_lt (hidx : ∀ (c : Dev nD) (i : S8192x2.Idx), (m ((c : Thread nD τ).loc main_arg1) i : BitVec 32).toNat < 4200)
    (c : Dev nD) (x : S8192.Idx) : ((V2 m c main_v3 : Vec F S8192 .i32) x).toNat < 4200 := by
  have e : (V2 m c main_v3 : Vec F S8192 .i32) x = m ((c : Thread nD τ).loc main_arg1) (ValueIdx.ix2 (x 0) 1) :=
    (congrArg (V2 m c main_v3 : Vec F S8192 .i32) (ValueIdx.eq_ix1 x)).trans (idx1_apply m c (x 0))
  exact lt_of_eq_of_lt (congrArg BitVec.toNat e) (hidx c _)

/-- The gather's proof data meet the run's contract, given the kernel's run on every core and index
    words that name rows. -/
theorem gatherKit (hex : ∀ c : Dev nD, GatherExec (F := F) c)
    (hidx : ∀ (c : Dev nD) (i : S8192x2.Idx), (m ((c : Thread nD τ).loc main_arg1) i : BitVec 32).toNat < 4200) :
    GatherKit (adm0 m) (fun c b => V2 m c b) osem0 (gdat m) where
  ho := ownSemFacts0
  hA c w := A_eq0 (adm0 m) (fun c b => V2 m c b) c w
  hshare c w := share_eq0 (adm0 m) (fun c b => V2 m c b) c w
  howed c t := rfl
  hrec c t := rfl
  hin c := by rw [Phi_eq0]; exact .rfl
  hout c := by rw [Phi_eq0]; exact .rfl
  hbody c := body_obligation0_loose (adm0 m) (fun c b => V2 m c b) c (fun k => tabs_eq m c k)
    (gatherRun_of_exec (fun c b => V2 m c b) c (hex c) (tab0_lt m hidx c) (tab1_lt m hidx c))

/-- The network's proof data meet the run's contract. -/
theorem mlpKit : MlpKit (fun c b => V6 m (outs0 m (gdat m)) c b) (mdat m) where
  hA c w := dat1_A _ c w
  hshare c w := by unfold Dat.share; split <;> rfl
  howed c t := rfl
  hrec c t := rfl
  hin c := dat1_Phi_in _ c
  hout c := dat1_Phi_out _ c
  hbody c := (body_obligation1 _ c).loose

/-- THE FRAME at the program's own proof data: @main terminates and every argument ends as launched. -/
theorem frame_main (hex : ∀ c : Dev nD, GatherExec (F := F) c)
    (hidx : ∀ (c : Dev nD) (i : S8192x2.Idx), (m ((c : Thread nD τ).loc main_arg1) i : BitVec 32).toNat < 4200) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame m ρ osem0 (gdat m) (mdat m) (gatherKit m hex hidx) (mlpKit m)

/-- THE RUN WITH THE RESULT at the program's own proof data: the result buffer ends holding what the
    network's write-backs leave, and every argument ends as launched. -/
theorem value_main (hex : ∀ c : Dev nD, GatherExec (F := F) c)
    (hidx : ∀ (c : Dev nD) (i : S8192x2.Idx), (m ((c : Thread nD τ).loc main_arg1) i : BitVec 32).toNat < 4200) :
    θ_run defs (onTc (τ := τ) (main (F := F))) ⟨m, fun _ => 0, ρ⟩ (fun r => ∀ c : Dev nD,
      r.2.mem ((c.tc : Thread nD τ).loc main_v17) = (mdat m c).arrAt 11 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  run_value m ρ osem0 (gdat m) (mdat m) (gatherKit m hex hidx) (mlpKit m)

end Certify

end Cert.KernelIdeal.Hand

end
-- ==== Proof.WordLevel.FrameDefs.lean ====
/- The run of @main for the frame and the value claims: the two kernel regions as segment records around the
   thread state "every unscoped buffer at the boundary's contents, the generator register at some state, nothing
   owed", the contents the regions leave, and the launch. Stated over ANY proof data of the two pipelines that
   meet the contracts GatherKit / MlpKit below: the definitions and the valuations' facts. -/
import proofs.«406060_j54142357733864_2_alg».proof.Proof.Gen.Kernel.Launch
import proofs.«406060_j54142357733864_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel.Gen

variable {F : FTy → Type} [FloatOps F]

local notation "𝕄" => MT nD τ sig Unit (Elt F) ℕ (Pipeline.UD sig nD τ) ℕ

/-- Contents of every TensorCore reference, core by core. -/
abbrev VTy (F : FTy → Type) : Type := (c : Dev nD) → (b : Ref sig .tc) → Buf (Elt F) ((c : Thread nD τ).loc b)

/-! ## The contracts the two pipelines' proof data meet -/

/-- The one operand the gather kernel reads by transfers of its own: the padded table left in HBM. -/
abbrev HbmTab : Finset (Ref sig .tc) := {main_v6}

/-- What the run asks of the gather pipeline's proof data, at admissible table contents `a0` and region-entry
    contents `V`: the arrays are `V`'s, whole shares, nothing owed, no bound on the recorded waits; the invariant
    before the first point comes from the scratch, the generator register, the kernel's own cells at zero, the HBM
    table and the two index tables, and gives them back after the last; and the body obligation. -/
structure GatherKit (a0 : (pcfg0 (F := F)).Adm) (V : VTy F) {K : Type} [Fintype K] (osem : K → SemLoc sig)
    (dat : (c : Dev nD) → Dat τ (Elt F) Unit ℕ (Pipeline.UD sig nD τ) ℕ (cfg0 a0) c) : Prop where
  ho : Pipeline.OwnSemFacts spec0 osem
  hA : ∀ c w, (dat c).A w = V c (Pipeline.arrRef spec0 w)
  hshare : ∀ c w, (dat c).share w = fullShare
  howed : ∀ c t, (dat c).owed t = 0
  hrec : ∀ c t, (dat c).recorded t = Set.univ
  hin : ∀ c, (iprop(Pipeline.ΦD osem spec0 HbmTab V c ∗ Pipeline.prefHeld pre0 c (fun _ => fullShare) a0.1) : sProp 𝕄) ⊢ (dat c).Φ 0
  hout : ∀ c, (dat c).Φ (Fin.last _) ⊢ (iprop(Pipeline.ΦD osem spec0 HbmTab V c ∗ Pipeline.prefHeld pre0 c (fun _ => fullShare) a0.1) : sProp 𝕄)
  hbody : ∀ c, BodyObligationLoose (dat c) (defs₀ (F := F)) Variants.none () Set.univ

/-- What the run asks of the MLP pipeline's proof data at region-entry contents `V`: as above, the invariant a
    tracking one over the scratch accumulators (from the class invariant before the first point, back to it after the
    last). -/
structure MlpKit (V : VTy F) (dat : (c : Dev nD) → Dat τ (Elt F) Unit ℕ (Pipeline.UD sig nD τ) ℕ cfg1 c) : Prop where
  hA : ∀ c w, (dat c).A w = V c (Pipeline.arrRef spec1 w)
  hshare : ∀ c w, (dat c).share w = fullShare
  howed : ∀ c t, (dat c).owed t = 0
  hrec : ∀ c t, (dat c).recorded t = Set.univ
  hin : ∀ c, (Pipeline.ΦA spec1 c : sProp 𝕄) ⊢ (dat c).Φ 0
  hout : ∀ c, (dat c).Φ (Fin.last _) ⊢ (Pipeline.ΦA spec1 c : sProp 𝕄)
  hbody : ∀ c, BodyObligationLoose (dat c) (defs₀ (F := F)) Variants.none () Set.univ

variable (m : (ℓ : Loc nD τ sig) → Buf (Elt F) ℓ) (ρ : Dev nD → PrngReg)

/-! ## The tables' contents -/

/-- The two index tables as the gather region finds them. -/
def tabs : pre0.Contents (Elt F) := fun k => match k with
  | ⟨0, _⟩ => V2 m 0 main_v1
  | ⟨1, _⟩ => V2 m 0 main_v3

/-- They are admissible: the gather's index maps read no table, so its side condition is trivial. -/
abbrev adm0 : (pcfg0 (F := F)).Adm := ⟨tabs m, trivial⟩

/-- Each pipeline's admissible table contents: pipeline 1 has no table. -/
abbrev adm : (p : Fin 2) → (pcfgs (F := F) p).Adm
  | ⟨0, _⟩ => adm0 m
  | ⟨1, _⟩ => cfg1.toPCfg_adm

section Run

variable {K : Type} [Fintype K] (osem : K → SemLoc sig)
variable (dat0 : (c : Dev nD) → Dat τ (Elt F) Unit ℕ (Pipeline.UD sig nD τ) ℕ (cfg0 (adm0 m)) c)
variable (dat1 : (c : Dev nD) → Dat τ (Elt F) Unit ℕ (Pipeline.UD sig nD τ) ℕ cfg1 c)

/-! ## What the regions leave -/

/-- The buffers after the gather region: the two gathered outputs at what the write-backs leave. -/
def W3 (c : Dev nD) : Valuation τ sig (Elt F) :=
  Function.update (Function.update (V2 m c) main_v7_0 ((dat0 c).arrAt 0 (cfg0 (adm0 m)).N)) main_v7_1 ((dat0 c).arrAt 1 (cfg0 (adm0 m)).N)

/-- The unknowns of the generated valuations, as far as the gather region decides them. -/
def outs0 : Outs (F := F) := fun _ r c => W3 m dat0 c r

/-- The unknowns of the generated valuations: after the gather region its two outputs (the HBM table as entered); after
    the MLP region its result. -/
def outs : Outs (F := F) := fun J r c => match J with
  | 7 => Function.update (V6 m (outs0 m dat0) c) main_v17 ((dat1 c).arrAt 11 cfg1.N) r
  | _ => W3 m dat0 c r

/-! ## The proof data family and the thread state -/

/-- Every pipeline's proof data: a literal match, so that the pinned configuration at a numeral reduces. -/
def pdats : (p : Fin 2) → (c : Dev nD) → Dat τ (Elt F) Unit ℕ (Pipeline.UD sig nD τ) ℕ (Pipeline.pin (pcfgs (F := F)) (adm m) p) c
  | ⟨0, _⟩ => fun c => dat0 c
  | ⟨1, _⟩ => fun c => dat1 c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every segment: the generator register at some state, nothing owed. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R (F := F) c

set_option maxHeartbeats 400000

/-! ## The valuations around the regions, read at the buffers the regions touch -/

/-- An update of a valuation at one TensorCore reference is not seen at another. -/
theorem upd_other (W : Valuation τ sig (Elt F)) {r r' : Ref sig .tc} (h : r ≠ r') (x : (Proc.devRef (τ := τ) .tc r').ty.Contents (Elt F)) :
    Function.update W (Proc.devRef .tc r') x (Proc.devRef .tc r) = W (Proc.devRef .tc r) :=
  Function.update_of_ne (StableHlo.devRef_ne_of_ne h) _ _

theorem W3_v7_0 (c : Dev nD) : W3 m dat0 c main_v7_0 = (dat0 c).arrAt 0 (cfg0 (adm0 m)).N :=
  (upd_other _ (by decide : main_v7_0 ≠ main_v7_1) _).trans (Function.update_self ..)

theorem W3_v7_1 (c : Dev nD) : W3 m dat0 c main_v7_1 = (dat0 c).arrAt 1 (cfg0 (adm0 m)).N :=
  Function.update_self ..

theorem W3_other (c : Dev nD) (r : Ref sig .tc) (h0 : r ≠ main_v7_0) (h1 : r ≠ main_v7_1) : W3 m dat0 c r = V2 m c r :=
  (upd_other _ h1 _).trans (upd_other _ h0 _)

/-- The gather's unknowns are read at item 3 alone, where they are the valuation written here. -/
theorem outs_three (r : Ref sig .tc) (c : Dev nD) : outs m dat0 dat1 3 r c = W3 m dat0 c r := rfl

/-- Item 7's unknown is the MLP region's result over its entry contents. -/
theorem outs_seven (r : Ref sig .tc) (c : Dev nD) :
    outs m dat0 dat1 7 r c = Function.update (V6 m (outs0 m dat0) c) main_v17 ((dat1 c).arrAt 11 cfg1.N) r := rfl

/-- After the gather region: the HBM table as entered, -/
theorem V3_v6 (c : Dev nD) : V3 m (outs m dat0 dat1) c main_v6 = V2 m c main_v6 :=
  (Function.update_self (f := Function.update (Function.update (V2 m c) main_v7_0 (outs m dat0 dat1 3 main_v7_0 c)) main_v7_1 (outs m dat0 dat1 3 main_v7_1 c))
      (Proc.devRef (τ := τ) .tc main_v6) (outs m dat0 dat1 3 main_v6 c)).trans
    ((outs_three m dat0 dat1 main_v6 c).trans (W3_other m dat0 c main_v6 (by decide) (by decide)))

/-- the second gathered output at what its write-backs leave, -/
theorem V3_v7_1 (c : Dev nD) : V3 m (outs m dat0 dat1) c main_v7_1 = (dat0 c).arrAt 1 (cfg0 (adm0 m)).N :=
  (upd_other (Function.update (Function.update (V2 m c) main_v7_0 (outs m dat0 dat1 3 main_v7_0 c)) main_v7_1 (outs m dat0 dat1 3 main_v7_1 c))
      (by decide : main_v7_1 ≠ main_v6) (outs m dat0 dat1 3 main_v6 c)).trans
    ((Function.update_self (f := Function.update (V2 m c) main_v7_0 (outs m dat0 dat1 3 main_v7_0 c))
        (Proc.devRef (τ := τ) .tc main_v7_1) (outs m dat0 dat1 3 main_v7_1 c)).trans
      ((outs_three m dat0 dat1 main_v7_1 c).trans (W3_v7_1 m dat0 c)))

/-- the first likewise, -/
theorem V3_v7_0 (c : Dev nD) : V3 m (outs m dat0 dat1) c main_v7_0 = (dat0 c).arrAt 0 (cfg0 (adm0 m)).N :=
  (upd_other (Function.update (Function.update (V2 m c) main_v7_0 (outs m dat0 dat1 3 main_v7_0 c)) main_v7_1 (outs m dat0 dat1 3 main_v7_1 c))
      (by decide : main_v7_0 ≠ main_v6) (outs m dat0 dat1 3 main_v6 c)).trans
    ((upd_other (Function.update (V2 m c) main_v7_0 (outs m dat0 dat1 3 main_v7_0 c)) (by decide : main_v7_0 ≠ main_v7_1) (outs m dat0 dat1 3 main_v7_1 c)).trans
      ((Function.update_self (f := V2 m c) (Proc.devRef (τ := τ) .tc main_v7_0) (outs m dat0 dat1 3 main_v7_0 c)).trans
        ((outs_three m dat0 dat1 main_v7_0 c).trans (W3_v7_0 m dat0 c))))

/-- The generated valuation after the gather region is the one written here, at every TensorCore reference. -/
theorem V3_eq_W3 (c : Dev nD) (r : Ref sig .tc) : V3 m (outs m dat0 dat1) c r = W3 m dat0 c r := by
  rcases Decidable.em (r = main_v6) with h6 | h6
  · rw [h6]; exact (V3_v6 m dat0 dat1 c).trans (W3_other m dat0 c main_v6 (by decide) (by decide)).symm
  rcases Decidable.em (r = main_v7_1) with h1 | h1
  · rw [h1]; exact (V3_v7_1 m dat0 dat1 c).trans (W3_v7_1 m dat0 c).symm
  rcases Decidable.em (r = main_v7_0) with h0 | h0
  · rw [h0]; exact (V3_v7_0 m dat0 dat1 c).trans (W3_v7_0 m dat0 c).symm
  exact (V3_of m _ c r (by simp only [List.mem_cons, List.not_mem_nil, or_false, not_or]; exact ⟨h0, h1, h6⟩)).trans
    (W3_other m dat0 c r h0 h1).symm

/-- Three updates of one valuation at equal values are equal. -/
theorem upd3_congr (W : Valuation τ sig (Elt F)) (a b d : DevRef τ sig) {x x' : a.ty.Contents (Elt F)} (hx : x = x')
    {y y' : b.ty.Contents (Elt F)} (hy : y = y') {z z' : d.ty.Contents (Elt F)} (hz : z = z') :
    Function.update (Function.update (Function.update W a x) b y) d z = Function.update (Function.update (Function.update W a x') b y') d z' := by
  subst hx hy hz; rfl

/-- Only the gather's unknowns reach the later valuations up to the MLP region's entry. -/
theorem V3_outs (c : Dev nD) : V3 m (outs m dat0 dat1) c = V3 m (outs0 m dat0) c :=
  upd3_congr (V2 m c) (Proc.devRef .tc main_v7_0) (Proc.devRef .tc main_v7_1) (Proc.devRef .tc main_v6)
    (outs_three m dat0 dat1 main_v7_0 c) (outs_three m dat0 dat1 main_v7_1 c) (outs_three m dat0 dat1 main_v6 c)

theorem V6_eq (c : Dev nD) : V6 m (outs m dat0 dat1) c = V6 m (outs0 m dat0) c :=
  congrArg (fun W => StableHlo.after hostOps1_2 (StableHlo.after hostOps1_1 (StableHlo.after hostOps1 W))) (V3_outs m dat0 dat1 c)

/-- After the MLP region the result buffer holds what its write-backs leave. -/
theorem V7_v17 (c : Dev nD) : V7 m (outs m dat0 dat1) c main_v17 = (dat1 c).arrAt 11 cfg1.N :=
  (Function.update_self (f := V6 m (outs m dat0 dat1) c) (Proc.devRef (τ := τ) .tc main_v17) (outs m dat0 dat1 7 main_v17 c)).trans
    ((outs_seven m dat0 dat1 main_v17 c).trans
      (Function.update_self (f := V6 m (outs0 m dat0) c) (Proc.devRef (τ := τ) .tc main_v17) ((dat1 c).arrAt 11 cfg1.N)))

/-- The index tables' contents are the region-entry contents of their buffers, on the one core. -/
theorem tabs_eq (c : Dev nD) (k : Fin pre0.K) : tabs m k = V2 m c (pre0.ref k) := by
  obtain rfl : c = 0 := Subsingleton.elim _ _
  match k with
  | ⟨0, _⟩ => rfl
  | ⟨1, _⟩ => rfl

/-! ## The regions' arrays at their exits -/

/-- Every window of the MLP call but the last is an input, and none of their arrays is the result's buffer. -/
theorem inputs1 : ∀ w : Fin 12, w ≠ 11 → (cfg1.win w).isOut = false ∧ Pipeline.arrRef spec1 w ∉ ([main_v17] : List (Ref sig .tc)) := by
  decide

/-- At the MLP region's exit each of its arrays holds what the pipeline leaves there: an input array what it held at
    entry (nothing writes it), the result's buffer what the write-backs leave. -/
theorem hF1 (k1 : MlpKit (fun c b => V6 m (outs0 m dat0) c b) dat1) (c : Dev nD) (w : Fin 12) :
    (pdats m dat0 dat1 1 c).arrAt w cfg1.N = V7 m (outs m dat0 dat1) c (Pipeline.arrRef spec1 w) := by
  by_cases hw : w = 11
  · subst hw; exact (V7_v17 m dat0 dat1 c).symm
  · obtain ⟨h1, h2⟩ := inputs1 w hw
    rw [V7_of m _ c _ h2, V6_eq m dat0 dat1 c]
    exact ((dat1 c).arrAt_in w h1 _).trans (k1.hA c w)

/-- Every other unscoped buffer is as the region found it. -/
theorem hrest1 (c : Dev nD) (b : Ref sig .tc) (hb : b ∉ Finset.univ.image (Pipeline.arrRef spec1)) :
    V7 m (outs m dat0 dat1) c b = V6 m (outs m dat0 dat1) c b :=
  V7_of m _ c b fun hm => by
    rw [List.mem_singleton] at hm; subst hm
    exact hb (Finset.mem_image.mpr ⟨11, Finset.mem_univ _, rfl⟩)

/-- At the gather region's exit its two arrays (both outputs) hold what the write-backs leave. -/
theorem hF0 (c : Dev nD) (w : Fin 2) :
    (pdats m dat0 dat1 0 c).arrAt w (cfg0 (adm0 m)).N = V3 m (outs m dat0 dat1) c (Pipeline.arrRef spec0 w) :=
  match w with
  | ⟨0, _⟩ => (V3_v7_0 m dat0 dat1 c).symm
  | ⟨1, _⟩ => (V3_v7_1 m dat0 dat1 c).symm

/-- Every other unscoped buffer is as the gather region found it: the HBM table by its unknown, the rest untouched. -/
theorem hrest0 (c : Dev nD) (b : Ref sig .tc) (hb : b ∉ Finset.univ.image (Pipeline.arrRef spec0)) :
    V3 m (outs m dat0 dat1) c b = V2 m c b := by
  have h0 : b ≠ main_v7_0 := fun e => hb (Finset.mem_image.mpr ⟨0, Finset.mem_univ _, e.symm⟩)
  have h1 : b ≠ main_v7_1 := fun e => hb (Finset.mem_image.mpr ⟨1, Finset.mem_univ _, e.symm⟩)
  refine (V3_eq_W3 m dat0 dat1 c b).trans (W3_other m dat0 c b h0 h1)

/-! ## The gather region's thread states -/

/-- The unscoped buffers the gather region routes itself: the two index tables and the HBM table. -/
abbrev S0 : Finset (Ref sig .tc) := {main_v1, main_v3, main_v6}

/-- The gather region is entered from every unscoped buffer at the contents after the second host stretch, -/
abbrev entry0 (c : Dev nD) : sProp 𝕄 := iprop(StableHlo.held (c : Thread nD τ) (Pipeline.ucRefs τ sig) (V2 m c) ∗ R (F := F) c)
/-- and left with its two outputs written. -/
abbrev exit0 (c : Dev nD) : sProp 𝕄 := iprop(StableHlo.held (c : Thread nD τ) (Pipeline.ucRefs τ sig) (V3 m (outs m dat0 dat1) c) ∗ R (F := F) c)
/-- Into its invariant go the generator register, its own cells at zero and the HBM table, -/
abbrev keepIn0 (c : Dev nD) : sProp 𝕄 :=
  iprop((∃ r, prngReg c r) ∗ Pipeline.ownSems0 (Ix := Unit) (Name := ℕ) (U := Pipeline.UD sig nD τ) (Lvl := ℕ) (Val := Elt F) (τ := τ) osem c
      ∗ (((c : Thread nD τ).loc main_v6) ↦{fullShare} V2 m c main_v6))
/-- out of it come the register, the HBM table and the two index tables, -/
abbrev keepOut0 (c : Dev nD) : sProp 𝕄 :=
  iprop((∃ r, prngReg c r) ∗ (((c : Thread nD τ).loc main_v6) ↦{fullShare} V2 m c main_v6)
      ∗ Pipeline.prefHeld pre0 c (fun _ => fullShare) (tabs m))
/-- and every other unscoped buffer that is no array of its windows bypasses it. -/
abbrev bypass0 (c : Dev nD) : sProp 𝕄 :=
  bigSep (Pipeline.restRefs sig spec0 \ S0) fun b => ((c : Thread nD τ).loc b) ↦{fullShare} V2 m c b

end Run

end Cert.Kernel.Hand

end
-- ==== Proof.WordLevel.FrameReg0.lean ====
/- The gather region's four entailments around its thread states: the entry sorted into what the pipeline takes,
   the invariant before the first point and after the last, the exit put back together. -/
import proofs.«406060_j54142357733864_2_alg».proof.Proof.WordLevel.FrameDefs

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

variable {K : Type} [Fintype K] (osem : K → SemLoc sig)
variable (dat0 : (c : Dev nD) → Dat τ (Elt F) Unit ℕ (Pipeline.UD sig nD τ) ℕ (cfg0 (adm0 m)) c)
variable (dat1 : (c : Dev nD) → Dat τ (Elt F) Unit ℕ (Pipeline.UD sig nD τ) ℕ cfg1 c)

set_option maxHeartbeats 400000

/-- The buffers the gather region routes itself are unscoped and no array of its windows. -/
theorem S0_sub : S0 ⊆ Pipeline.restRefs sig spec0 := by decide

/-- The unscoped buffers that are no array of the gather's windows: the three it routes itself, and the bypass. -/
theorem rest0_split (c : Dev nD) :
    (Pipeline.unscopedRest (Ix := Unit) (Name := ℕ) (U := Pipeline.UD sig nD τ) (Lvl := ℕ) spec0 c (fun b => V2 m c b) : sProp 𝕄)
      = iprop((bigSep S0 fun b => ((c : Thread nD τ).loc b) ↦{fullShare} V2 m c b) ∗ bypass0 m c) := by
  unfold Pipeline.unscopedRest; exact BI.bigSep_sdiff_split S0_sub

/-- The three, listed. -/
theorem routed0_eq (c : Dev nD) :
    (bigSep S0 (fun b => ((c : Thread nD τ).loc b) ↦{fullShare} V2 m c b) : sProp 𝕄)
      = iprop((((c : Thread nD τ).loc main_v1) ↦{fullShare} V2 m c main_v1) ∗ (((c : Thread nD τ).loc main_v3) ↦{fullShare} V2 m c main_v3)
          ∗ (((c : Thread nD τ).loc main_v6) ↦{fullShare} V2 m c main_v6)) := by
  rw [BI.bigSep_eq_bigSepL_of_eq [main_v1, main_v3, main_v6] (by decide) (by decide)]; rfl

/-- The two index tables held whole at the admissible contents are their buffers at the entry contents. -/
theorem tables0_eq (c : Dev nD) :
    (Pipeline.prefHeld pre0 c (fun _ => fullShare) (tabs m) : sProp 𝕄)
      = iprop((((c : Thread nD τ).loc main_v1) ↦{fullShare} V2 m c main_v1) ∗ (((c : Thread nD τ).loc main_v3) ↦{fullShare} V2 m c main_v3)) := by
  unfold Pipeline.prefHeld
  rw [bigSep_univ_two, tabs_eq m c 0, tabs_eq m c 1]
  rfl

/-- ENTRY: the unscoped buffers at the entry contents split into the two output arrays, the two index tables, what
    the invariant takes (the register, the own cells, the HBM table) and what bypasses the region. -/
theorem entry0_sorts (k0 : GatherKit (adm0 m) (fun c b => V2 m c b) osem dat0) (c : Dev nD) :
    (iprop(entry0 m c ∗ Pipeline.ownSems0 (Ix := Unit) (Name := ℕ) (U := Pipeline.UD sig nD τ) (Lvl := ℕ) (Val := Elt F) (τ := τ) osem c ∗ levAts L lv) : sProp 𝕄)
      ⊢ |={Set.univ}=> iprop((pdats m dat0 dat1 0 c).arrays ((pdats m dat0 dat1 0 c).arrAt · 0)
          ∗ Pipeline.prefHeld (pcfgs (F := F) 0).pre c (fun _ => fullShare) (adm m 0).1
          ∗ (pdats m dat0 dat1 0 c).owesAt () 0 ∗ keepIn0 m osem c ∗ bypass0 m c) := by
  have hsplit := Pipeline.arrays_of_unscopedBufs (p := 0) (pcfgs (F := F)) (adm m) (pdats m dat0 dat1) (launch0 (F := F)).win (launch0 (F := F)).arr_whole c
    (fun w => k0.hshare c w) (fun b => V2 m c b) (fun w => k0.hA c w)
  rw [Pipeline.unscopedBufs_held] at hsplit
  iintro ⟨⟨Hub, Hreg, Howes⟩, Hcells, -⟩
  ihave Hs := hsplit $$ Hub
  icases Hs with ⟨Harr, Hrest⟩
  ihave Hr := (Entails.of_eq (rest0_split m c)) $$ Hrest
  icases Hr with ⟨Hrouted, Hby⟩
  ihave Hl := (Entails.of_eq (routed0_eq m c)) $$ Hrouted
  icases Hl with ⟨Hv1, Hv3, Hv6⟩
  imodintro
  isplitl [Harr]; · iexact Harr
  isplitl [Hv1 Hv3]
  · iapply (Entails.of_eq (tables0_eq m c).symm)
    isplitl [Hv1]; · iexact Hv1
    iexact Hv3
  isplitl [Howes]
  · unfold Pipeline.Dat.owesAt Pipeline.owesWithin
    icases Howes with ⟨%W, Howes⟩; iexists W; isplitr
    · ipureintro; exact fun _ _ => Or.inl ((k0.hrec c 0) ▸ Set.mem_univ _)
    rw [show (pdats m dat0 dat1 0 c).owed 0 = 0 from k0.howed c 0]; iexact Howes
  isplitl [Hreg Hcells Hv6]
  · isplitl [Hreg]; · iexact Hreg
    isplitl [Hcells]; · iexact Hcells
    iexact Hv6
  iexact Hby

/-- The invariant before the first point. -/
theorem inv0_first (k0 : GatherKit (adm0 m) (fun c b => V2 m c b) osem dat0) (c : Dev nD) :
    (iprop(keepIn0 m osem c ∗ Pipeline.prefHeld (pcfgs (F := F) 0).pre c (fun _ => fullShare) (adm m 0).1
        ∗ Pipeline.scopedRest (Pipeline.pin (pcfgs (F := F)) (adm m) 0).spec c) : sProp 𝕄) ⊢ (pdats m dat0 dat1 0 c).Φ 0 := by
  refine .trans ?_ (k0.hin c)
  rw [Pipeline.ΦD_eq, BI.bigSep_singleton]
  iintro ⟨⟨Hreg, Hcells, Hv6⟩, Htabs, Hscoped⟩
  isplitl [Hscoped Hreg Hcells Hv6]
  · isplitl [Hscoped]; · iexact Hscoped
    isplitl [Hreg]; · iexact Hreg
    isplitl [Hcells]; · iexact Hcells
    iexact Hv6
  iexact Htabs

/-- The invariant after the last point gives everything back. -/
theorem inv0_last (k0 : GatherKit (adm0 m) (fun c b => V2 m c b) osem dat0) (c : Dev nD) :
    (pdats m dat0 dat1 0 c).Φ (Fin.last (Pipeline.pin (pcfgs (F := F)) (adm m) 0).N)
      ⊢ (iprop(keepOut0 m c ∗ Pipeline.ownSems0 (Ix := Unit) (Name := ℕ) (U := Pipeline.UD sig nD τ) (Lvl := ℕ) (Val := Elt F) (τ := τ) osem c
          ∗ Pipeline.scopedRest (Pipeline.pin (pcfgs (F := F)) (adm m) 0).spec c) : sProp 𝕄) := by
  refine (k0.hout c).trans ?_
  rw [Pipeline.ΦD_eq, BI.bigSep_singleton]
  iintro ⟨⟨Hscoped, Hreg, Hcells, Hv6⟩, Htabs⟩
  isplitl [Hreg Hv6 Htabs]
  · isplitl [Hreg]; · iexact Hreg
    isplitl [Hv6]; · iexact Hv6
    iexact Htabs
  isplitl [Hcells]; · iexact Hcells
  iexact Hscoped

/-- EXIT: the arrays at their final contents, the tables, the HBM table and the bypassing buffers are every unscoped
    buffer at the contents after the region. -/
theorem exit0_joins (k0 : GatherKit (adm0 m) (fun c b => V2 m c b) osem dat0) (c : Dev nD) :
    (iprop((pdats m dat0 dat1 0 c).arrays ((pdats m dat0 dat1 0 c).arrAt · (Pipeline.pin (pcfgs (F := F)) (adm m) 0).N)
        ∗ (pdats m dat0 dat1 0 c).owesAt () (Fin.last (Pipeline.pin (pcfgs (F := F)) (adm m) 0).N) ∗ keepOut0 m c ∗ bypass0 m c) : sProp 𝕄)
      ⊢ |={Set.univ}=> exit0 m dat0 dat1 c := by
  have hjoin := Pipeline.unscopedBufs_of_arrays (p := 0) (pcfgs (F := F)) (adm m) (Ix := Unit) (Name := ℕ) (U := Pipeline.UD sig nD τ) (Lvl := ℕ)
    (launch0 (F := F)).win (launch0 (F := F)).arr_whole c (pdats m dat0 dat1) (fun w => k0.hshare c w)
    (fun b => V2 m c b) (fun b => V3 m (outs m dat0 dat1) c b) ((pdats m dat0 dat1 0 c).arrAt · (cfg0 (adm0 m)).N)
    (hF0 m dat0 dat1 c) (hrest0 m dat0 dat1 c)
  rw [Pipeline.unscopedBufs_held] at hjoin
  iintro ⟨Harr, Howes, ⟨Hreg, Hv6, Htabs⟩, Hby⟩
  ihave Ht := (Entails.of_eq (tables0_eq m c)) $$ Htabs
  icases Ht with ⟨Hv1, Hv3⟩
  ihave Hrouted := (Entails.of_eq (routed0_eq m c).symm) $$ [Hv1 Hv3 Hv6]
  · isplitl [Hv1]; · iexact Hv1
    isplitl [Hv3]; · iexact Hv3
    iexact Hv6
  ihave Hrest := (Entails.of_eq (rest0_split m c).symm) $$ [Hrouted Hby]
  · isplitl [Hrouted]; · iexact Hrouted
    iexact Hby
  imodintro
  isplitl [Harr Hrest]
  · iapply hjoin; isplitl [Harr] <;> iassumption
  isplitl [Hreg]; · iexact Hreg
  unfold Pipeline.Dat.owesAt Pipeline.owesWithin
  icases Howes with ⟨%W, -, Howes⟩; iexists W
  rw [show (pdats m dat0 dat1 0 c).owed (Fin.last _) = 0 from k0.howed c _]; iexact Howes

end Cert.Kernel.Hand

end
-- ==== Proof.WordLevel.Frame.lean ====
/- The run of @main for the frame and the value claims: the two kernel regions as segment records around the
   thread state "every unscoped buffer at the boundary's contents, the generator register at some state, nothing
   owed", and the launch. Over ANY proof data of the two pipelines that meet the contracts GatherKit / MlpKit. -/
import proofs.«406060_j54142357733864_2_alg».proof.Proof.WordLevel.FrameDefs
import proofs.«406060_j54142357733864_2_alg».proof.Proof.WordLevel.FrameReg0

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

variable {K : Type} [Fintype K] (osem : K → SemLoc sig)
variable (dat0 : (c : Dev nD) → Dat τ (Elt F) Unit ℕ (Pipeline.UD sig nD τ) ℕ (cfg0 (adm0 m)) c)
variable (dat1 : (c : Dev nD) → Dat τ (Elt F) Unit ℕ (Pipeline.UD sig nD τ) ℕ cfg1 c)

set_option maxHeartbeats 400000

/-! ## The regions as segments -/

set_option backward.isDefEq.respectTransparency.types false in
/-- REGION 0 (the gather): its 128 row copies complete on DMA cells of its own, its two index tables are prefetched;
    the four entailments are the gather region's module's. -/
def reg0 (k0 : GatherKit (adm0 m) (fun c b => V2 m c b) osem dat0) :
    Pipeline.RegionSeg (pcfgs (F := F)) (adm m) (pdats m dat0 dat1) () defs₀ 𝒱₀ L lv 0 where
  win := (launch0 (F := F)).win.to₀
  block_pos := (launch0 (F := F)).block_pos
  stage_whole := (launch0 (F := F)).stage_whole
  K := K
  osem := osem
  ho := k0.ho
  hbody c := k0.hbody c
  hwaits := Pipeline.hwaits_of_owed_zero _ _ _ _ L lv 0 fun c t => k0.howed c t
  pre c := entry0 m c
  post c := exit0 m dat0 dat1 c
  X c := keepIn0 m osem c
  Y c := keepOut0 m c
  Z c := bypass0 m c
  hentry c := entry0_sorts m osem dat0 dat1 k0 c
  hin c := inv0_first m osem dat0 dat1 k0 c
  hout c := inv0_last m osem dat0 dat1 k0 c
  hexit c := exit0_joins m osem dat0 dat1 k0 c

set_option backward.isDefEq.respectTransparency.types false in
/-- REGION 1 (the MLP): no cell of its own, no table; the generator register into the class invariant and out, the
    arrays split out of the unscoped buffers and put back with the result written. -/
def reg1 (k1 : MlpKit (fun c b => V6 m (outs0 m dat0) c b) dat1) :
    Pipeline.RegionSeg (pcfgs (F := F)) (adm m) (pdats m dat0 dat1) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := k1.hbody c
  hwaits := Pipeline.hwaits_of_owed_zero _ _ _ _ L lv 1 fun c t => k1.howed c t
  pre c := iprop(StableHlo.held (c : Thread nD τ) (Pipeline.ucRefs τ sig) (V6 m (outs m dat0 dat1) c) ∗ R (F := F) c)
  post c := iprop(StableHlo.held (c : Thread nD τ) (Pipeline.ucRefs τ sig) (V7 m (outs m dat0 dat1) c) ∗ R (F := F) c)
  X c := iprop(∃ r, prngReg c r)
  Y c := iprop(∃ r, prngReg c r)
  Z c := Pipeline.unscopedRest (Ix := Unit) (Name := ℕ) (U := Pipeline.UD sig nD τ) (Lvl := ℕ) spec1 c (fun b => V6 m (outs m dat0 dat1) c b)
  hentry c := by
    rw [Pipeline.ownSems0_none]
    have hA : ∀ w, (pdats m dat0 dat1 1 c).A w = (fun b => V6 m (outs m dat0 dat1) c b) (Pipeline.arrRef spec1 w) := fun w => by
      show _ = V6 m (outs m dat0 dat1) c (Pipeline.arrRef spec1 w)
      rw [V6_eq m dat0 dat1 c]; exact k1.hA c w
    have hsplit := Pipeline.arrays_of_unscopedBufs (p := 1) (pcfgs (F := F)) (adm m) (pdats m dat0 dat1) (launch1 (F := F)).win (launch1 (F := F)).arr_whole c
      (fun w => k1.hshare c w) (fun b => V6 m (outs m dat0 dat1) c b) hA
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr
      · ipureintro; exact fun _ _ => Or.inl ((k1.hrec c 0) ▸ Set.mem_univ _)
      rw [show (pdats m dat0 dat1 1 c).owed 0 = 0 from k1.howed c 0]; iexact HO
    isplitl [Hp]; · iexact Hp
    iexact Hrest
  hin c := by
    refine .trans ?_ (k1.hin c)
    unfold Pipeline.ΦA
    iintro ⟨Hp, -, Hr⟩
    isplitl [Hr]; · iexact Hr
    iexact Hp
  hout c := by
    rw [Pipeline.ownSems0_none]
    refine (k1.hout c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) (adm m) (Ix := Unit) (Name := ℕ) (U := Pipeline.UD sig nD τ) (Lvl := ℕ)
      (launch1 (F := F)).win (launch1 (F := F)).arr_whole c (pdats m dat0 dat1) (fun w => k1.hshare c w)
      (fun b => V6 m (outs m dat0 dat1) c b) (fun b => V7 m (outs m dat0 dat1) c b) ((pdats m dat0 dat1 1 c).arrAt · cfg1.N)
      (hF1 m dat0 dat1 k1 c) (hrest1 m dat0 dat1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m dat0 dat1 1 c).owed (Fin.last _) = 0 from k1.howed c _]; iexact HO

/-! ## The launch -/

/-- The launch element: the pipeline library's at every staging cell, the transfers' counters at nothing. -/
abbrev u₀ : Pipeline.UD sig nD τ :=
  (initOf (Pipeline.cells (Pipeline.pin (pcfgs (F := F)) (adm m)) (cellOf_inj (adm m))) (Pipeline.launchToks (Pipeline.pin (pcfgs (F := F)) (adm m)) (cellOf_inj (adm m))), 1)

/-- It yields the pipeline library's element (the left component), no ghost resource per core. -/
theorem hu₀ : (ownU (u₀ m) : sProp 𝕄) ⊢ |={Set.univ}=> iprop(BI.own (embL (initOf (Pipeline.cells (Pipeline.pin (pcfgs (F := F)) (adm m)) (cellOf_inj (adm m))) (Pipeline.launchToks (Pipeline.pin (pcfgs (F := F)) (adm m)) (cellOf_inj (adm m))))) ∗ bigSep Finset.univ (fun _ : Dev nD => (BI.emp : sProp 𝕄))) := by
  iintro Hu
  ihave Hpair := (ownU_pair _ _) $$ Hu
  icases Hpair with ⟨Hlib, -⟩
  imodintro
  isplitl [Hlib]; · iexact Hlib
  rw [BI.bigSep_emp_const]; iempintro

/-- What the launch deals each core makes the rest state: the register at its launch state, nothing owed. -/
theorem hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
      ⊢ (|={Set.univ}=> bigSep Finset.univ (E (F := F) 0) : sProp 𝕄) := by
  refine Pipeline.initEach L lv fun c => ?_
  iintro ⟨⟨-, Howes, -, Hreg, -⟩, -⟩
  imodintro
  isplitl [Hreg]; · iexists _; iexact Hreg
  iexists ∅; iexact Howes

/-- The rest state owes nothing. -/
theorem hE2 (c : Dev nD) : E (F := F) 2 c ⊢ (iprop(∃ W, owes (c : Thread nD τ) (0 : CellTallies nD τ sig Unit) W) : sProp 𝕄) := by
  iintro ⟨-, Howes⟩; iexact Howes

set_option backward.isDefEq.respectTransparency.types false in
/-- THE FRAME: every weakly fair execution of @main terminates and every argument ends as launched. -/
theorem frame (k0 : GatherKit (adm0 m) (fun c b => V2 m c b) osem dat0) (k1 : MlpKit (fun c b => V6 m (outs0 m dat0) c b) dat1) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Gen.frame_cond m embL () 𝒱₀ L lv (fun _ _ => rfl) ρ (outs m dat0 dat1) (adm m) (pdats m dat0 dat1)
    (0 : Dev nD → CellTallies nD τ sig Unit) (fun _ => iprop(emp)) (u₀ m) (hu₀ m) E (hE0 ρ) hE2
    (reg0 m osem dat0 dat1 k0) (fun _ => .rfl) (fun _ => .rfl)
    (reg1 m dat0 dat1 k1) (fun _ => .rfl) (fun _ => .rfl)

set_option backward.isDefEq.respectTransparency.types false in
/-- THE RUN WITH THE RESULT: the same launch, its post also reading the result buffer: it holds what the MLP region's
    write-backs leave. -/
theorem run_value (k0 : GatherKit (adm0 m) (fun c b => V2 m c b) osem dat0) (k1 : MlpKit (fun c b => V6 m (outs0 m dat0) c b) dat1) :
    θ_run defs (onTc (τ := τ) (main (F := F))) ⟨m, fun _ => 0, ρ⟩ (fun r => ∀ c : Dev nD,
      r.2.mem ((c.tc : Thread nD τ).loc main_v17) = (dat1 c).arrAt 11 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine Pipeline.θ_run_regions_kit_dev (pcfgs (F := F)) (adm m) (pdats m dat0 dat1) () (cellOf_inj (adm m)) embL defs₀ 𝒱₀ L lv m ρ main
    (segs m (outs m dat0 dat1) 𝒱₀ L lv E () (adm m) (pdats m dat0 dat1) (reg0 m osem dat0 dat1 k0) (reg1 m dat0 dat1 k1))
    (fun c Q => by
      rewrite [main_chain c, Pipeline.Seg.run_eq_chain,
        show (segs m (outs m dat0 dat1) 𝒱₀ L lv E () (adm m) (pdats m dat0 dat1) (reg0 m osem dat0 dat1 k0) (reg1 m dat0 dat1 k1) c).map Pipeline.Seg.prog = [
          StableHlo.seq hostOps0,
          StableHlo.seq hostOps0_1,
          Prog.lift (.customCall (Pipeline.entry 0) ()),
          StableHlo.seq hostOps1,
          StableHlo.seq hostOps1_1,
          StableHlo.seq hostOps1_2,
          Prog.lift (.customCall (Pipeline.entry 1) ()) ] from rfl]
      exact .rfl)
    (fun c => by simp only [segs, Pipeline.Seg.pipes_host, Pipeline.Seg.pipes_region, Pipeline.Seg.pipes_nil]; decide)
    (0 : Dev nD → CellTallies nD τ sig Unit) (fun _ _ => rfl) (fun _ => iprop(emp)) (u₀ m) (hu₀ m)
    (T₀ := fun c => iprop(StableHlo.held (c : Thread nD τ) (Pipeline.ucRefs τ sig) (V0 m c) ∗ E (F := F) 0 c))
    (Tₙ := fun c => StableHlo.held (c : Thread nD τ) (Pipeline.ucRefs τ sig) (V7 m (outs m dat0 dat1) c))
    (hch := fun c => ⟨.rfl, .rfl, .rfl, .rfl, .rfl, .rfl, .rfl, BI.sep_mono_r (hE2 c)⟩)
    (hinit := ?_)
    (QY := fun c s => s.mem ((c.tc : Thread nD τ).loc main_v17) = (dat1 c).arrAt 11 cfg1.N ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8))
    (hfin := fun c s' => ?_) (hQ := fun _ h => h)
  · -- the launch: the unscoped buffers are held at the launch contents; the rest makes the first thread state's rest
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
            : sProp 𝕄) := by
      rw [← bigSep_sep']
      exact bigSep_mono fun c _ => by
        rw [← Pipeline.unscopedBufs_held (Ix := Unit) (Name := ℕ) (U := Pipeline.UD sig nD τ) (Lvl := ℕ) c (V0 m c)]; exact BI.Entails.refl _
    iintro ⟨H, Hla⟩
    ihave H' := hsplit $$ H
    icases H' with ⟨Hh, Hr⟩
    imod (hE0 (F := F) ρ) $$ [Hr Hla] with HE
    · isplitl [Hr]; · iexact Hr
      iexact Hla
    imodintro
    rw [bigSep_sep' Finset.univ (fun c : Dev nD => StableHlo.held (c : Thread nD τ) (Pipeline.ucRefs τ sig) (V0 m c)) (E (F := F) 0)]
    isplitl [Hh]; · iexact Hh
    iexact HE
  · -- the end: the result's buffer and each argument's read off the last valuation
    unfold StableHlo.held
    iintro ⟨Hh, HSI⟩
    ihave Hr := (pointsTo_read_all (Pipeline.ucRefs τ sig) (fun b => ((c : Thread nD τ).1, b)) (V7 m (outs m dat0 dat1) c) s') $$ [Hh HSI]
    · isplitl [Hh] <;> iassumption
    icases Hr with ⟨%h, HSI⟩
    imodintro
    isplitr
    · ipureintro
      exact ⟨(h (Proc.devRef .tc main_v17) (Finset.mem_filter.mpr ⟨StableHlo.devRef_mem_tcRefs main_v17, by decide⟩)).trans (V7_v17 m dat0 dat1 c),
        (h (Proc.devRef .tc main_arg0) (Finset.mem_filter.mpr ⟨StableHlo.devRef_mem_tcRefs main_arg0, by decide⟩)).trans (V7_main_arg0 m (outs m dat0 dat1) c),
        (h (Proc.devRef .tc main_arg1) (Finset.mem_filter.mpr ⟨StableHlo.devRef_mem_tcRefs main_arg1, by decide⟩)).trans (V7_main_arg1 m (outs m dat0 dat1) c),
        (h (Proc.devRef .tc main_arg2) (Finset.mem_filter.mpr ⟨StableHlo.devRef_mem_tcRefs main_arg2, by decide⟩)).trans (V7_main_arg2 m (outs m dat0 dat1) c),
        (h (Proc.devRef .tc main_arg3) (Finset.mem_filter.mpr ⟨StableHlo.devRef_mem_tcRefs main_arg3, by decide⟩)).trans (V7_main_arg3 m (outs m dat0 dat1) c),
        (h (Proc.devRef .tc main_arg4) (Finset.mem_filter.mpr ⟨StableHlo.devRef_mem_tcRefs main_arg4, by decide⟩)).trans (V7_main_arg4 m (outs m dat0 dat1) c),
        (h (Proc.devRef .tc main_arg5) (Finset.mem_filter.mpr ⟨StableHlo.devRef_mem_tcRefs main_arg5, by decide⟩)).trans (V7_main_arg5 m (outs m dat0 dat1) c),
        (h (Proc.devRef .tc main_arg6) (Finset.mem_filter.mpr ⟨StableHlo.devRef_mem_tcRefs main_arg6, by decide⟩)).trans (V7_main_arg6 m (outs m dat0 dat1) c),
        (h (Proc.devRef .tc main_arg7) (Finset.mem_filter.mpr ⟨StableHlo.devRef_mem_tcRefs main_arg7, by decide⟩)).trans (V7_main_arg7 m (outs m dat0 dat1) c),
        (h (Proc.devRef .tc main_arg8) (Finset.mem_filter.mpr ⟨StableHlo.devRef_mem_tcRefs main_arg8, by decide⟩)).trans (V7_main_arg8 m (outs m dat0 dat1) c)⟩
    · iexact HSI

end Cert.Kernel.Hand

end
-- ==== Proof.WordLevel.GatherDat.lean ====
/- Region 0 (the row gather): its proof data at the entry contents, its schedule, and the body obligation from the
   kernel's triple. Everything is stated with the prefetched tables' contents a variable. -/
import proofs.«406060_j54142357733864_2_alg».proof.Proof.Gen.Kernel.Launch
import proofs.«406060_j54142357733864_2_alg».proof.Proof.Gen.Kernel.Skeleton
import Idealize.ShloMosaic.Lib.Pipeline.FrameBody
import Idealize.ShloMosaic.Lib.Pipeline.Frame
import Idealize.ShloMosaic.Lib.ValueIdx
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)
open Idealize.ShloMosaic.ValueIdx (ix1 ix2)
open Cert.Kernel.Gen

variable {F : FTy → Type} [FloatOps F]

local notation "𝕄" => MT nD τ sig Unit (Elt F) ℕ (Pipeline.UD sig nD τ) ℕ

/-! ## The gathered rows -/

/-- Position 64·t + r of an index table, for a row r of the block at point t. -/
def wordPos (t : Fin grid0.N) (r : Fin 64) : Fin 8192 :=
  ⟨64 * t.val + r.val, by have h : t.val < 128 := lt_of_lt_of_eq t.isLt N_0; omega⟩

/-- The 64 rows of the table tab that the words 64·t … 64·t+63 of idx name: row r is row (idx (64·t + r)) of tab
    (reduced below 4200, which changes nothing for a word that names a row). -/
def gatherRows (idx : Vec F S8192 .i32) (tab : Vec F S4200x19200 .f32) (t : Fin grid0.N) : Vec F S64x19200 .f32 :=
  fun x => tab (ix2 (⟨(idx (ix1 (wordPos t (x 0))) : BitVec 32).toNat % 4200, Nat.mod_lt _ (by decide)⟩ : Fin 4200) (x 1))

/-! ## The schedule of custom_call 0, the tables' contents a variable -/

variable (a : (pcfg0 (F := F)).Adm)

/-- The current staging memref of each output window at point t. -/
abbrev st0_0 (t : Fin (cfg0 a).N) := ((cfg0 a).win 0).stage ((cfg0 a).slots t 0)
abbrev st0_1 (t : Fin (cfg0 a).N) := ((cfg0 a).win 1).stage ((cfg0 a).slots t 1)

/-- The kernel body at point t, on what the pipeline calls it with. -/
abbrev bodyAt0 (t : Fin (cfg0 a).N) : Prog (TpuEff nD τ sig (Elt F) Λ₀ .tc) PUnit :=
  cc0_gather_kernel (grid0.coords t) (Memref.whole main_v1) (Memref.isWhole_whole _) (Memref.whole main_v3) (Memref.isWhole_whole _)
    (Memref.whole main_v6) (Memref.isWhole_whole _)
    (spec0_0.stage ((cfg0 a).slots t 0)) (hstage0_0 (((cfg0 a).slots t 0).cast nbuf0_0))
    (spec0_1.stage ((cfg0 a).slots t 1)) (hstage0_1 (((cfg0 a).slots t 1).cast nbuf0_1))
    (Memref.whole cc0_scratch0) (Memref.isWhole_whole _) (Memref.whole cc0_scratch1) (Memref.isWhole_whole _) cc0_scratch2 cc0_scratch3

/-- The pipeline's call of the body label at point t is that. -/
theorem body_eq0 (t : Fin (cfg0 a).N) :
    defs₀ (F := F) .tc (cfg0 a).body ((cfg0 a).bodyArgs t ((cfg0 a).slots t)) = bodyAt0 a t := rfl

/-- Both output windows are written back at every point: the block index (t, 0) moves at every step. -/
theorem flush0_0 (t : Fin (cfg0 a).N) : ((cfg0 a).win 0).flush t = true :=
  (by decide +kernel : ∀ t : Fin grid0.N, (true && (decide (t.val + 1 = grid0.N)
    || decide (∃ h : t.val + 1 < grid0.N, cc0_transform_1 (grid0.coords ⟨t.val + 1, h⟩) ≠ cc0_transform_1 (grid0.coords t)))) = true) t
theorem flush0_1 (t : Fin (cfg0 a).N) : ((cfg0 a).win 1).flush t = true :=
  (by decide +kernel : ∀ t : Fin grid0.N, (true && (decide (t.val + 1 = grid0.N)
    || decide (∃ h : t.val + 1 < grid0.N, cc0_transform_2 (grid0.coords ⟨t.val + 1, h⟩) ≠ cc0_transform_2 (grid0.coords t)))) = true) t
/-- Neither is ever fetched: an output. -/
theorem fetch0_0 (t : Fin (cfg0 a).N) : ((cfg0 a).win 0).fetch t = false := rfl
theorem fetch0_1 (t : Fin (cfg0 a).N) : ((cfg0 a).win 1).fetch t = false := rfl

/-! ## The kernel's own cells and the table it reads -/

/-- The kernel's 128 DMA semaphores, one per row copy: cells 4 … 131 of the pool. -/
abbrev osem0 : Fin 128 → SemLoc sig := fun j => SemLoc.dma ⟨4 + j.val, by have := j.isLt; show 4 + j.val < 150; omega⟩
theorem ownSemFacts0 : Pipeline.OwnSemFacts spec0 osem0 := by decide

/-- The operand left in HBM that the row copies read. -/
def H0 : Finset (Ref sig .tc) := {main_v6}
theorem H0_sub : H0 ⊆ Pipeline.restRefsP sig pre0 spec0 := by decide

variable (V : (c : Dev nD) → (b : Ref sig .tc) → Buf (Elt F) ((c : Thread nD τ).loc b))

/-! ## The proof data -/

/-- Region 0's invariant between points: the scoped rest (the two row scratches among it) at some contents, the generator
    register at some state, the 128 own cells at zero, the padded table whole at its entry contents, and both index tables
    whole at the admissible contents. -/
def Phi0 (c : Dev nD) : sProp 𝕄 :=
  iprop(Pipeline.ΦD osem0 spec0 H0 V c
    ∗ Pipeline.prefHeld (Ix := Unit) (Name := ℕ) (U := Pipeline.UD sig nD τ) (Lvl := ℕ) pre0 c (fun _ => fullShare) a.1)

/-- The proof data of pipeline 0 on core c at entry contents V and admissible tables a. -/
def dat0 (c : Dev nD) : Dat τ (Elt F) Unit ℕ (Pipeline.UD sig nD τ) ℕ (cfg0 a) c where
  A w := V c (Pipeline.arrRef spec0 w)
  after w t := match w with
    | ⟨0, _⟩ => k0_pay1 (gatherRows (V c main_v1) (V c main_v6) t)
    | ⟨1, _⟩ => k0_pay2 (gatherRows (V c main_v3) (V c main_v6) t)
  Φ _ := Phi0 a V c
  q _ := fullShare
  owed _ := 0

theorem A_eq0 (c : Dev nD) (w : Fin (cfg0 a).W) : (dat0 a V c).A w = V c (Pipeline.arrRef spec0 w) := by
  dsimp only [dat0]
theorem after0_0 (c : Dev nD) (t : Fin (cfg0 a).N) :
    (dat0 a V c).after 0 t = k0_pay1 (gatherRows (V c main_v1) (V c main_v6) t) := by dsimp only [dat0]; rfl
theorem after0_1 (c : Dev nD) (t : Fin (cfg0 a).N) :
    (dat0 a V c).after 1 t = k0_pay2 (gatherRows (V c main_v3) (V c main_v6) t) := by dsimp only [dat0]; rfl
/-- The same two, the window spelled as a literal of `Fin 2` (as the windows' conjunction lists them). -/
theorem afterW0_0 (c : Dev nD) (t : Fin (cfg0 a).N) :
    (dat0 a V c).after (0 : Fin 2) t = k0_pay1 (gatherRows (V c main_v1) (V c main_v6) t) := by dsimp only [dat0]
theorem afterW0_1 (c : Dev nD) (t : Fin (cfg0 a).N) :
    (dat0 a V c).after (1 : Fin 2) t = k0_pay2 (gatherRows (V c main_v3) (V c main_v6) t) := by dsimp only [dat0]
theorem Phi_eq0 (c : Dev nD) (t : Fin ((cfg0 a).N + 1)) : (dat0 a V c).Φ t = Phi0 a V c := rfl
theorem owed_eq0 (c : Dev nD) (t : Fin ((cfg0 a).N + 1)) : (dat0 a V c).owed t = 0 := rfl
theorem share_eq0 (c : Dev nD) (w : Fin (cfg0 a).W) : (dat0 a V c).share w = fullShare := by
  unfold Dat.share; split <;> rfl

/-! ## The kernel's triple, as the obligation takes it -/

/-- The gather kernel at point t on any whole output memrefs: from the outputs and the two row scratches at anything, the
    128 cells at zero, the padded table and both index tables at the entry contents and the core owing nothing, it runs to
    the continuation holding each output at the truncation of its gathered rows and everything else as it was. -/
def GatherRun (c : Dev nD) : Prop :=
  ∀ (t : Fin grid0.N) (arg4 : Memref sig .tc .vmem S64x19200 .bf16) (harg4 : arg4.IsWhole)
    (arg5 : Memref sig .tc .vmem S64x19200 .bf16) (harg5 : arg5.IsWhole) (W : Waits sig Unit) (K : PUnit → sProp 𝕄),
    iprop((∃ d, owns (c : Thread nD τ) arg4 fullShare d) ∗ (∃ d, owns (c : Thread nD τ) arg5 fullShare d)
        ∗ (∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f)
        ∗ Pipeline.ownSems0 (Ix := Unit) (Name := ℕ) (U := Pipeline.UD sig nD τ) (Lvl := ℕ) (Val := Elt F) (τ := τ) osem0 c
        ∗ (((c : Thread nD τ).loc main_v6) ↦{fullShare} V c main_v6)
        ∗ (((c : Thread nD τ).loc main_v1) ↦{fullShare} V c main_v1)
        ∗ (((c : Thread nD τ).loc main_v3) ↦{fullShare} V c main_v3)
        ∗ owes (c : Thread nD τ) 0 W
        ∗ (iprop(owns (c : Thread nD τ) arg4 fullShare (k0_pay1 (gatherRows (V c main_v1) (V c main_v6) t))
            ∗ owns (c : Thread nD τ) arg5 fullShare (k0_pay2 (gatherRows (V c main_v3) (V c main_v6) t))
            ∗ (∃ f : Buf (Elt F) ((c : Thread nD τ).loc cc0_scratch0), ((c : Thread nD τ).loc cc0_scratch0) ↦{fullShare} f)
            ∗ (∃ f : Buf (Elt F) ((c : Thread nD τ).loc cc0_scratch1), ((c : Thread nD τ).loc cc0_scratch1) ↦{fullShare} f)
            ∗ Pipeline.ownSems0 (Ix := Unit) (Name := ℕ) (U := Pipeline.UD sig nD τ) (Lvl := ℕ) (Val := Elt F) (τ := τ) osem0 c
            ∗ (((c : Thread nD τ).loc main_v6) ↦{fullShare} V c main_v6)
            ∗ (((c : Thread nD τ).loc main_v1) ↦{fullShare} V c main_v1)
            ∗ (((c : Thread nD τ).loc main_v3) ↦{fullShare} V c main_v3)
            ∗ (∃ W', owes (c : Thread nD τ) 0 W')) -∗ K ⟨⟩))
      ⊢ wp frame (wpE (defs₀ (F := F)) Variants.none c none) Set.univ
          (cc0_gather_kernel (grid0.coords t) (Memref.whole main_v1) (Memref.isWhole_whole _) (Memref.whole main_v3) (Memref.isWhole_whole _)
            (Memref.whole main_v6) (Memref.isWhole_whole _) arg4 harg4 arg5 harg5
            (Memref.whole cc0_scratch0) (Memref.isWhole_whole _) (Memref.whole cc0_scratch1) (Memref.isWhole_whole _) cc0_scratch2 cc0_scratch3) K

/-! ## The invariant, conjunct by conjunct -/

/-- The padded table's points-to, listed. -/
theorem hbmPts0_eq (c : Dev nD) :
    (bigSep H0 (fun b => ((c : Thread nD τ).loc b) ↦{fullShare} V c b) : sProp 𝕄)
      = iprop(((c : Thread nD τ).loc main_v6) ↦{fullShare} V c main_v6) := by
  rw [BI.bigSep_eq_bigSepL_of_eq [main_v6] (by decide) (by decide)]; rfl

/-- The two index tables' points-tos, listed. -/
theorem prefHeld0_eq (c : Dev nD) (pf : pre0.Contents (Elt F)) :
    (Pipeline.prefHeld (Ix := Unit) (Name := ℕ) (U := Pipeline.UD sig nD τ) (Lvl := ℕ) pre0 c (fun _ => fullShare) pf : sProp 𝕄)
      = iprop((((c : Thread nD τ).loc (pre0.ref 0)) ↦{fullShare} pf 0) ∗ (((c : Thread nD τ).loc (pre0.ref 1)) ↦{fullShare} pf 1)) := by
  unfold Pipeline.prefHeld; exact bigSep_W0 _

/-! ## The body obligation -/

set_option maxHeartbeats 400000 in
/-- The library's body obligation at every point, from the kernel's triple, for tables whose admissible contents are the
    entry contents of their buffers. The invariant hands the kernel its two row scratches, its cells at zero, the padded
    table and the index tables, and takes them back as they were; whatever the output buffers held is overwritten by the
    truncated gathered rows; the core owes nothing before or after. -/
theorem body_obligation0 (c : Dev nD) (ha : ∀ k, a.1 k = V c (pre0.ref k)) (hrun : GatherRun V c) :
    BodyObligation (dat0 (F := F) a V c) (defs₀ (F := F)) Variants.none () Set.univ := fun t => by
  rw [bigSep_W0, bigSep_W0, body_eq0]
  dsimp only
  unfold bodyAt0
  rw [Phi_eq0, Phi_eq0, afterW0_0, afterW0_1]
  unfold Phi0
  rw [Pipeline.ΦD_eq, scopedRest0_eq, hbmPts0_eq, prefHeld0_eq, ha 0, ha 1]
  unfold Dat.owesAt Pipeline.owesWithin
  rw [owed_eq0, owed_eq0]
  iintro ⟨⟨⟨⟨Hs0, Hs1, Hrest⟩, Hg, Hq, Hh⟩, Hv1, Hv3⟩, ⟨%W, -, HW⟩, ⟨%d0, H0⟩, ⟨%d1, H1⟩⟩
  iapply (hrun t _ _ _ _ W _)
  isplitl [H0]; · iexists _; iexact H0
  isplitl [H1]; · iexists _; iexact H1
  isplitl [Hs0]; · iexact Hs0
  isplitl [Hs1]; · iexact Hs1
  isplitl [Hq]; · iexact Hq
  isplitl [Hh]; · iexact Hh
  isplitl [Hv1]; · iexact Hv1
  isplitl [Hv3]; · iexact Hv3
  isplitl [HW]; · iexact HW
  iintro ⟨H0, H1, Hs0, Hs1, Hq, Hh, Hv1, Hv3, ⟨%W', HW'⟩⟩
  isplitl [Hs0 Hs1 Hrest Hg Hq Hh Hv1 Hv3]
  · isplitl [Hs0 Hs1 Hrest Hg Hq Hh]
    · isplitl [Hs0 Hs1 Hrest]
      · isplitl [Hs0]; · iexact Hs0
        isplitl [Hs1]; · iexact Hs1
        iexact Hrest
      isplitl [Hg]; · iexact Hg
      isplitl [Hq]; · iexact Hq
      iexact Hh
    isplitl [Hv1]; · iexact Hv1
    iexact Hv3
  isplitl [HW']
  · iexists W'; isplitr; · ipureintro; exact fun _ _ => Or.inl trivial
    iexact HW'
  isplitl [H0]; · iexact H0
  iexact H1

theorem body_obligation0_loose (c : Dev nD) (ha : ∀ k, a.1 k = V c (pre0.ref k)) (hrun : GatherRun V c) :
    BodyObligationLoose (dat0 (F := F) a V c) (defs₀ (F := F)) Variants.none () Set.univ :=
  (body_obligation0 a V c ha hrun).loose

end Cert.Kernel.Hand

end
-- ==== Proof.WordLevel.GatherGlue.lean ====
/- The glue between two spellings of what the row-gather kernel holds. The pipeline hands the kernel the
   padded table whole, its 128 transfer cells as one product over their index type, and its scratch
   buffers as whole points-tos; the kernel's run holds the table as one read share per cell (so that 128
   row copies may read it at once), each cell as a hypothesis of its own, and each buffer through its
   memref. Both directions of each conversion are stated here, and the run in the pipeline's form is
   derived from the run in the kernel's form. -/
import proofs.«406060_j54142357733864_2_alg».proof.Proof.Gen.Kernel.Launch
import proofs.«406060_j54142357733864_2_alg».proof.Proof.Gen.Kernel.Skeleton
import proofs.«406060_j54142357733864_2_alg».proof.Proof.WordLevel.GatherDat
import Idealize.ShloMosaic.Lib.Pipeline.Kit
import Idealize.ShloMosaic.Lib.Pipeline.Frame
import Idealize.ShloMosaic.Lib.Transfers
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen

variable {F : FTy → Type} [FloatOps F]

local notation "𝕄" => MT nD τ sig Unit (Elt F) ℕ (Pipeline.UD sig nD τ) ℕ

/-! ## A product listed in front of a rest -/

/-- `Φ a ∗ Φ b ∗ … ∗ Φ z ∗ R`: the list's conjuncts, one after the other, in front of `R`. -/
def sepOnto {I : Type} : List I → (I → sProp 𝕄) → sProp 𝕄 → sProp 𝕄
  | [], _, R => R
  | i :: l, Φ, R => iprop(Φ i ∗ sepOnto l Φ R)

/-- It is the list's product beside the rest. -/
theorem sepOnto_equiv {I : Type} (l : List I) (Φ : I → sProp 𝕄) (R : sProp 𝕄) :
    sepOnto l Φ R ⊣⊢ iprop(bigSepL l Φ ∗ R) := by
  induction l with
  | nil => exact ⟨BIClass.emp_sep.2, BIClass.emp_sep.1⟩
  | cons i l ih =>
    rw [bigSepL_cons]
    constructor
    · show iprop(Φ i ∗ sepOnto l Φ R) ⊢ iprop((Φ i ∗ bigSepL l Φ) ∗ R)
      refine BIBase.Entails.trans (sep_mono_right ih.1) ?_
      iintro ⟨H, HL, HR⟩
      isplitl [H HL]
      · isplitl [H]; · iexact H
        iexact HL
      iexact HR
    · show iprop((Φ i ∗ bigSepL l Φ) ∗ R) ⊢ iprop(Φ i ∗ sepOnto l Φ R)
      refine BIBase.Entails.trans ?_ (sep_mono_right ih.2)
      iintro ⟨⟨H, HL⟩, HR⟩
      isplitl [H]; · iexact H
      isplitl [HL]; · iexact HL
      iexact HR

/-! ## The table as one read share per cell -/

/-- The numbers of the kernel's transfer cells: 4 … 131. -/
def cellNums : List ℕ := [4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 76, 77, 78, 79, 80, 81, 82, 83, 84, 85, 86, 87, 88, 89, 90, 91, 92, 93, 94, 95, 96, 97, 98, 99, 100, 101, 102, 103, 104, 105, 106, 107, 108, 109, 110, 111, 112, 113, 114, 115, 116, 117, 118, 119, 120, 121, 122, 123, 124, 125, 126, 127, 128, 129, 130, 131]

/-- Read share number `k` of a memref's elements at contents `f`. -/
abbrev rowTok (c : Dev nD) {sp : Space} {s : Shape} {e : EltTy} (M : Memref sig .tc sp s e)
    (f : Buf (Elt F) (M.view.loc (c : Thread nD τ))) (k : ℕ) : sProp 𝕄 :=
  M.view.loc (c : Thread nD τ) ↦[M.view.set]{Transfers.shareTokN fullShare k} f

/-- What the kernel's run does not take: the share left after 132 halvings, and the four read
    shares numbered below the kernel's first cell. -/
def tokKept (c : Dev nD) {sp : Space} {s : Shape} {e : EltTy} (M : Memref sig .tc sp s e)
    (f : Buf (Elt F) (M.view.loc (c : Thread nD τ))) : sProp 𝕄 :=
  iprop((M.view.loc (c : Thread nD τ) ↦[M.view.set]{Transfers.shareDrop fullShare 132} f)
    ∗ rowTok c M f 0 ∗ rowTok c M f 1 ∗ rowTok c M f 2 ∗ rowTok c M f 3)

/-- A memref's elements at the full share are the kept part and the 128 read shares numbered by the
    cells. -/
theorem toks_equiv (c : Dev nD) {sp : Space} {s : Shape} {e : EltTy} (M : Memref sig .tc sp s e)
    (f : Buf (Elt F) (M.view.loc (c : Thread nD τ))) :
    (M.view.loc (c : Thread nD τ) ↦[M.view.set]{fullShare} f : sProp 𝕄)
      ⊣⊢ iprop(tokKept c M f ∗ bigSepL cellNums (rowTok c M f)) := by
  have h := Transfers.pointsTo_toks_range (Ix := Unit) (Name := ℕ) (U := Pipeline.UD sig nD τ) (Lvl := ℕ) (Val := Elt F)
    (ℓ := M.view.loc (c : Thread nD τ)) (S := M.view.set) (f := f) fullShare 132
  rw [bigSep_eq_bigSepL_of_eq (List.range 132) (List.toFinset_range 132).symm List.nodup_range] at h
  have e : bigSepL (List.range 132) (fun k => (M.view.loc (c : Thread nD τ) ↦[M.view.set]{Transfers.shareTokN fullShare k} f : sProp 𝕄))
      = iprop(rowTok c M f 0 ∗ rowTok c M f 1 ∗ rowTok c M f 2 ∗ rowTok c M f 3 ∗ bigSepL cellNums (rowTok c M f)) := rfl
  rw [e] at h
  unfold tokKept
  constructor
  · refine BIBase.Entails.trans h.1 ?_
    iintro ⟨Hd, H0, H1, H2, H3, HL⟩
    isplitr [HL]
    · isplitl [Hd]; · iexact Hd
      isplitl [H0]; · iexact H0
      isplitl [H1]; · iexact H1
      isplitl [H2]; · iexact H2
      iexact H3
    iexact HL
  · refine BIBase.Entails.trans ?_ h.2
    iintro ⟨⟨Hd, H0, H1, H2, H3⟩, HL⟩
    isplitl [Hd]; · iexact Hd
    isplitl [H0]; · iexact H0
    isplitl [H1]; · iexact H1
    isplitl [H2]; · iexact H2
    isplitl [H3]; · iexact H3
    iexact HL

/-! ## The cells one by one -/

/-- The kernel's transfer cells, as the semaphores they are. -/
def cellSems : List (DmaSem sig) := [4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 76, 77, 78, 79, 80, 81, 82, 83, 84, 85, 86, 87, 88, 89, 90, 91, 92, 93, 94, 95, 96, 97, 98, 99, 100, 101, 102, 103, 104, 105, 106, 107, 108, 109, 110, 111, 112, 113, 114, 115, 116, 117, 118, 119, 120, 121, 122, 123, 124, 125, 126, 127, 128, 129, 130, 131]

/-- Cell `k` at zero. -/
abbrev rowCell (c : Dev nD) (k : DmaSem sig) : sProp 𝕄 := semVal ((c : Thread nD τ), SemLoc.dma k) 0

/-- The product of the 128 cells at zero over their index type is the list of them. -/
theorem cells_eq (c : Dev nD) :
    (Pipeline.ownSems0 (Ix := Unit) (Name := ℕ) (U := Pipeline.UD sig nD τ) (Lvl := ℕ) (Val := Elt F) (τ := τ) osem0 c : sProp 𝕄)
      = bigSepL cellSems (rowCell c) := by
  rw [Pipeline.ownSems0_eq_of_list c osem0 (List.finRange 128) (by decide) (List.nodup_finRange 128)]
  rfl

/-! ## A whole buffer through its memref -/

/-- The whole memref's elements are the buffer's. -/
theorem whole_pts (c : Dev nD) (b : Ref sig .tc) (q : PosShare TreeShare) (f : Buf (Elt F) ((c : Thread nD τ).loc b)) :
    ((Memref.whole b).view.loc (c : Thread nD τ) ↦[(Memref.whole b).view.set]{q} f : sProp 𝕄)
      = (((c : Thread nD τ).loc b) ↦{q} f) := by
  simp only [View.set_whole]

/-- A memref owned at something is its elements held at some contents. -/
theorem some_owns_eq (c : Dev nD) {sp : Space} {s : Shape} {e : EltTy} (M : Memref sig .tc sp s e) (q : PosShare TreeShare) :
    (iprop(∃ d, owns (c : Thread nD τ) M q d) : sProp 𝕄)
      = iprop(∃ f, M.view.loc (c : Thread nD τ) ↦[M.view.set]{q} f) := by
  have h₁ : (iprop(∃ d, owns (c : Thread nD τ) M q d) : sProp 𝕄)
      ⊢ iprop(∃ f, M.view.loc (c : Thread nD τ) ↦[M.view.set]{q} f) := by
    unfold owns; iintro ⟨%d, %f, -, H⟩; iexists f; iexact H
  have h₂ : (iprop(∃ f, M.view.loc (c : Thread nD τ) ↦[M.view.set]{q} f) : sProp 𝕄)
      ⊢ iprop(∃ d, owns (c : Thread nD τ) M q d) := by
    iintro ⟨%f, H⟩; iexists (M.view.read (Elt F) f); unfold owns; iexists f
    isplitr; · ipureintro; rfl
    iexact H
  exact BI.equiv_iff.mp ⟨h₁, h₂⟩

/-- A whole buffer held at some contents is its whole memref owned at something. -/
theorem some_whole_eq (c : Dev nD) (b : Ref sig .tc) (q : PosShare TreeShare) :
    (iprop(∃ f : Buf (Elt F) ((c : Thread nD τ).loc b), ((c : Thread nD τ).loc b) ↦{q} f) : sProp 𝕄)
      = iprop(∃ d, owns (c : Thread nD τ) (Memref.whole b) q d) := by
  simp only [owns_whole]

/-! ## The run in the kernel's form, and in the pipeline's -/

/-- The gather kernel's triple as its run states it: over any whole memrefs, the two index tables and
    the four buffers held through their memrefs, the table as the 128 read shares numbered by the cells,
    the 128 cells one by one, every index word naming a row; afterwards the same, each output owned at
    the truncation of its gathered rows and each row scratch at some contents. -/
def GatherExec (c : Dev nD) : Prop :=
  ∀ (t : Fin grid0.N) (arg1 : Memref sig .tc .smem S8192 .i32) (harg1 : arg1.IsWhole) (arg2 : Memref sig .tc .smem S8192 .i32) (harg2 : arg2.IsWhole)
    (arg3 : Memref sig .tc .hbm S4200x19200 .f32) (harg3 : arg3.IsWhole)
    (arg4 : Memref sig .tc .vmem S64x19200 .bf16) (harg4 : arg4.IsWhole) (arg5 : Memref sig .tc .vmem S64x19200 .bf16) (harg5 : arg5.IsWhole)
    (arg6 : Memref sig .tc .vmem S64x19200 .f32) (harg6 : arg6.IsWhole) (arg7 : Memref sig .tc .vmem S64x19200 .f32) (harg7 : arg7.IsWhole)
    (f1 : Buf (Elt F) (arg1.view.loc (c : Thread nD τ))) (f2 : Buf (Elt F) (arg2.view.loc (c : Thread nD τ)))
    (f3 : Buf (Elt F) (arg3.view.loc (c : Thread nD τ)))
    (f4 : Buf (Elt F) (arg4.view.loc (c : Thread nD τ))) (f5 : Buf (Elt F) (arg5.view.loc (c : Thread nD τ)))
    (f6 : Buf (Elt F) (arg6.view.loc (c : Thread nD τ))) (f7 : Buf (Elt F) (arg7.view.loc (c : Thread nD τ)))
    (hw1 : ∀ r j, (arg1.view.readAt (Elt F) r f1 j).toNat < 4200) (hw2 : ∀ r j, (arg2.view.readAt (Elt F) r f2 j).toNat < 4200)
    (W : Waits sig Unit) (K : PUnit → sProp 𝕄),
    iprop((arg1.view.loc (c : Thread nD τ) ↦[arg1.view.set]{fullShare} f1) ∗ (arg2.view.loc (c : Thread nD τ) ↦[arg2.view.set]{fullShare} f2)
        ∗ sepOnto cellNums (rowTok c arg3 f3)
          iprop((arg4.view.loc (c : Thread nD τ) ↦[arg4.view.set]{fullShare} f4) ∗ (arg5.view.loc (c : Thread nD τ) ↦[arg5.view.set]{fullShare} f5)
            ∗ (arg6.view.loc (c : Thread nD τ) ↦[arg6.view.set]{fullShare} f6) ∗ (arg7.view.loc (c : Thread nD τ) ↦[arg7.view.set]{fullShare} f7)
            ∗ sepOnto cellSems (rowCell c)
              iprop(owes (c : Thread nD τ) 0 W
                ∗ (iprop((arg1.view.loc (c : Thread nD τ) ↦[arg1.view.set]{fullShare} f1) ∗ (arg2.view.loc (c : Thread nD τ) ↦[arg2.view.set]{fullShare} f2)
                    ∗ sepOnto cellNums (rowTok c arg3 f3)
                      iprop(owns (c : Thread nD τ) arg4 fullShare (k0_pay1 (gatherRows (arg1.view.read (Elt F) f1) (arg3.view.read (Elt F) f3) t))
                        ∗ owns (c : Thread nD τ) arg5 fullShare (k0_pay2 (gatherRows (arg2.view.read (Elt F) f2) (arg3.view.read (Elt F) f3) t))
                        ∗ (∃ g : Buf (Elt F) (arg6.view.loc (c : Thread nD τ)), arg6.view.loc (c : Thread nD τ) ↦[arg6.view.set]{fullShare} g)
                        ∗ (∃ g : Buf (Elt F) (arg7.view.loc (c : Thread nD τ)), arg7.view.loc (c : Thread nD τ) ↦[arg7.view.set]{fullShare} g)
                        ∗ sepOnto cellSems (rowCell c) iprop(∃ W', owes (c : Thread nD τ) 0 W'))) -∗ K ⟨⟩))))
      ⊢ wp frame (wpE (defs₀ (F := F)) Variants.none c none) Set.univ
          (cc0_gather_kernel (grid0.coords t) arg1 harg1 arg2 harg2 arg3 harg3 arg4 harg4 arg5 harg5 arg6 harg6 arg7 harg7 cc0_scratch2 cc0_scratch3) K

variable (V : (c : Dev nD) → (b : Ref sig .tc) → Buf (Elt F) ((c : Thread nD τ).loc b))

set_option maxHeartbeats 400000 in
/-- From the run in the kernel's form, the run in the pipeline's: the table is split into the kept part
    and the cells' read shares and joined again afterwards, the cells are listed and gathered again, and
    each whole buffer is read through its whole memref. The index tables' words are below 4200. -/
theorem gatherRun_of_exec (c : Dev nD) (hex : GatherExec (F := F) c)
    (hidx1 : ∀ x : S8192.Idx, ((V c main_v1 : Vec F S8192 .i32) x).toNat < 4200)
    (hidx3 : ∀ x : S8192.Idx, ((V c main_v3 : Vec F S8192 .i32) x).toNat < 4200) : GatherRun V c := by
  intro t arg4 harg4 arg5 harg5 W K
  rw [cells_eq, some_owns_eq c arg4, some_owns_eq c arg5]
  iintro ⟨⟨%f4, H4⟩, ⟨%f5, H5⟩, ⟨%f6, H6⟩, ⟨%f7, H7⟩, Hq, Hh, Hv1, Hv3, HW, Hk⟩
  ihave Hh := (BIBase.Entails.trans (BIBase.Entails.of_eq (whole_pts c main_v6 fullShare (V c main_v6)).symm)
    (toks_equiv c (Memref.whole main_v6) (V c main_v6)).1) $$ Hh
  icases Hh with ⟨Hkept, HT⟩
  ihave Hv1 := (BIBase.Entails.of_eq (whole_pts c main_v1 fullShare (V c main_v1)).symm) $$ Hv1
  ihave Hv3 := (BIBase.Entails.of_eq (whole_pts c main_v3 fullShare (V c main_v3)).symm) $$ Hv3
  ihave H6 := (BIBase.Entails.of_eq (whole_pts c cc0_scratch0 fullShare f6).symm) $$ H6
  ihave H7 := (BIBase.Entails.of_eq (whole_pts c cc0_scratch1 fullShare f7).symm) $$ H7
  iapply (hex t (Memref.whole main_v1) (Memref.isWhole_whole _) (Memref.whole main_v3) (Memref.isWhole_whole _)
    (Memref.whole main_v6) (Memref.isWhole_whole _) arg4 harg4 arg5 harg5
    (Memref.whole cc0_scratch0) (Memref.isWhole_whole _) (Memref.whole cc0_scratch1) (Memref.isWhole_whole _)
    (V c main_v1) (V c main_v3) (V c main_v6) f4 f5 f6 f7
    (fun r j => by rw [View.readAt_apply]; exact hidx1 _) (fun r j => by rw [View.readAt_apply]; exact hidx3 _) W K)
  isplitl [Hv1]; · iexact Hv1
  isplitl [Hv3]; · iexact Hv3
  iapply (sepOnto_equiv _ _ _).2
  isplitl [HT]; · iexact HT
  isplitl [H4]; · iexact H4
  isplitl [H5]; · iexact H5
  isplitl [H6]; · iexact H6
  isplitl [H7]; · iexact H7
  iapply (sepOnto_equiv _ _ _).2
  isplitl [Hq]; · iexact Hq
  isplitl [HW]; · iexact HW
  iintro ⟨Hv1, Hv3, Hrest⟩
  ihave Hrest := (sepOnto_equiv _ _ _).1 $$ Hrest
  icases Hrest with ⟨HT, H4, H5, ⟨%g6, H6⟩, ⟨%g7, H7⟩, Hc⟩
  ihave Hc := (sepOnto_equiv _ _ _).1 $$ Hc
  icases Hc with ⟨Hq, HW⟩
  iapply Hk
  isplitl [H4]; · iexact H4
  isplitl [H5]; · iexact H5
  isplitl [H6]
  · iexists g6; iapply (BIBase.Entails.of_eq (whole_pts c cc0_scratch0 fullShare g6)); iexact H6
  isplitl [H7]
  · iexists g7; iapply (BIBase.Entails.of_eq (whole_pts c cc0_scratch1 fullShare g7)); iexact H7
  isplitl [Hq]; · iexact Hq
  isplitl [Hkept HT]
  · iapply (BIBase.Entails.trans (toks_equiv c (Memref.whole main_v6) (V c main_v6)).2
      (BIBase.Entails.of_eq (whole_pts c main_v6 fullShare (V c main_v6))))
    isplitl [Hkept]; · iexact Hkept
    iexact HT
  isplitl [Hv1]
  · iapply (BIBase.Entails.of_eq (whole_pts c main_v1 fullShare (V c main_v1))); iexact Hv1
  isplitl [Hv3]
  · iapply (BIBase.Entails.of_eq (whole_pts c main_v3 fullShare (V c main_v3))); iexact Hv3
  iexact HW

end Cert.Kernel.Hand

end
-- ==== Proof.WordLevel.MlpRuns.lean ====
/- The kernel-function triples of the second pallas_call (the tiled two-stream MLP), one per control
   case of its body. The grid coordinate k = i 1 ranges over the ten tiles of the contraction axis:
   at k = 0 both accumulators are zeroed before the tile's product is added; at every k the product
   of the activations' tile with the weight tile is added to each accumulator; at k = 9 the epilogue
   (rank-one correction, bias, rectifier, two further layers, row-wise inner product) is stored into
   the result block. Each case is stated over symbolic whole memrefs, the inputs owned at the values
   read, the two accumulators owned at explicit new values afterwards, through the skeleton's payload
   names. -/
import proofs.«406060_j54142357733864_2_alg».proof.Proof.Gen.Kernel.Launch
import proofs.«406060_j54142357733864_2_alg».proof.Proof.Gen.Kernel.Skeleton
import proofs.«406060_j54142357733864_2_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen

variable {F : FTy → Type} [FloatOps F]

local notation "𝕄" => MT nD τ sig Unit (Elt F) ℕ (Pipeline.UD sig nD τ) ℕ

/-! ## The branch conditions over the contraction coordinate -/

/-- The first conditional's test as the skeleton spells it: the coordinate's word equals zero. -/
abbrev isFirst (i : grid1.Coords) : Prop :=
  (Scalar.cmpi .ne (Scalar.extui (Scalar.cmpi .eq (BitVec.ofNat 32 (i 1).val) 0#32)) 0#32) = 1#1

/-- The second conditional's test: the coordinate's word equals nine. -/
abbrev isLast (i : grid1.Coords) : Prop := k1_cond2 i = 1#1

theorem isFirst_iff (i : grid1.Coords) : isFirst i ↔ (i 1).val = 0 := by
  have h : ∀ j : Fin 10, (Scalar.cmpi .ne (Scalar.extui (Scalar.cmpi .eq (BitVec.ofNat 32 j.val) 0#32)) 0#32) = 1#1 ↔ j.val = 0 := by
    decide
  exact h (i 1)

theorem isLast_iff (i : grid1.Coords) : isLast i ↔ (i 1).val = 9 := by
  have h : ∀ j : Fin 10, (Scalar.cmpi .ne (Scalar.extui (Scalar.cmpi .eq (BitVec.ofNat 32 j.val) 9#32)) 0#32) = 1#1 ↔ j.val = 9 := by
    decide
  exact h (i 1)

/-! ## What one point leaves in the accumulators and in the result block -/

/-- The first accumulator after a point that found it at `a`: `a` plus the product of the first
    stream's tile `x` with the weight tile `w`. -/
def accStep1 (a : Vec F S512x1024 .f32) (x : Vec F S512x1920 .bf16) (w : Vec F S1920x1024 .bf16) : Vec F S512x1024 .f32 :=
  k1_pay3 a x w

/-- The second accumulator after a point that found it at `a`, over the second stream's tile. -/
def accStep2 (a : Vec F S512x1024 .f32) (x : Vec F S512x1920 .bf16) (w : Vec F S1920x1024 .bf16) : Vec F S512x1024 .f32 :=
  k1_pay4 a x w

/-- The first accumulator after the first point of a row of tiles: the step from the zero fill. -/
def accReset1 (x : Vec F S512x1920 .bf16) (w : Vec F S1920x1024 .bf16) : Vec F S512x1024 .f32 :=
  accStep1 (k1_pay1 (F := F)) x w

/-- The second accumulator after the first point of a row of tiles. -/
def accReset2 (x : Vec F S512x1920 .bf16) (w : Vec F S1920x1024 .bf16) : Vec F S512x1024 .f32 :=
  accStep2 (k1_pay2 (F := F)) x w

/-- The result block the last point stores, from the two accumulators as that point's own step left
    them (`b1`, `b2`), the two concentration columns and the small operands. -/
def mlpOut (b1 b2 : Vec F S512x1024 .f32) (c1 c2 : Vec F S512x1 .f32) (w0c b0 : Vec F S1x1024 .f32)
    (w1 : Vec F S1024x512 .bf16) (bb1 : Vec F S1x512 .f32) (w2 : Vec F S512x128 .bf16) (bb2 : Vec F S1x128 .f32) : Vec F S512 .f32 :=
  k1_pay5 (k1_pay6 b2 c2 w0c b0) (k1_pay7 b1 c1 w0c b0 w1) (k1_pay8 bb1) w1 bb1 w2 bb2 w2 bb2

/-- The eleven input windows' memrefs owned at the values the point reads. -/
def mlpIns (c : Dev nD) (arg2 : Memref sig .tc .vmem S512x1920 .bf16) (harg2 : arg2.IsWhole) (arg3 : Memref sig .tc .vmem S512x1920 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S1920x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x512 .bf16) (harg9 : arg9.IsWhole) (arg10 : Memref sig .tc .vmem S1x512 .f32) (harg10 : arg10.IsWhole) (arg11 : Memref sig .tc .vmem S512x128 .bf16) (harg11 : arg11.IsWhole) (arg12 : Memref sig .tc .vmem S1x128 .f32) (harg12 : arg12.IsWhole)
    (x0 x1 : Vec F S512x1920 .bf16) (x2 x3 : Vec F S512x1 .f32) (x4 : Vec F S1920x1024 .bf16) (x5 x6 : Vec F S1x1024 .f32) (x7 : Vec F S1024x512 .bf16) (x8 : Vec F S1x512 .f32) (x9 : Vec F S512x128 .bf16) (x10 : Vec F S1x128 .f32) : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare x4 ∗ owns (c : Thread nD τ) arg7 fullShare x5
    ∗ owns (c : Thread nD τ) arg8 fullShare x6 ∗ owns (c : Thread nD τ) arg9 fullShare x7 ∗ owns (c : Thread nD τ) arg10 fullShare x8
    ∗ owns (c : Thread nD τ) arg11 fullShare x9 ∗ owns (c : Thread nD τ) arg12 fullShare x10)

/-! ## Whole-buffer loads and stores -/

/-- The offsets `![0, 0]` are the zero offsets. -/
theorem off00 : (![0, 0] : Fin 2 → ℕ) = fun _ => 0 := by
  funext a; fin_cases a <;> rfl

/-- So is `![0]`. -/
theorem off0 : (![0] : Fin 1 → ℕ) = fun _ => 0 := by
  funext a; fin_cases a; rfl

/-- A load of the whole shape at zero offsets, off a whole memref whose contents read `X`, reads `X`. -/
theorem load_whole {sp : Space} {s : Shape} {e : EltTy} (M : Memref sig .tc sp s e) (f : M.view.ty.Contents (Elt F))
    {off : Fin s.rank → ℕ} (ho : off = fun _ => 0) (inb : ∀ a, off a + s.size a ≤ s.size a) (X : s.Idx → Elt F e)
    (hf : M.view.read (Elt F) f = X) :
    View.readAt (Elt F) M.view (Rect.unit off s.size inb).toLoadRect f = X := by
  rw [View.readAt_eq_ld, hf, View.ld_unit_zero ho]

/-- A store of the whole shape at zero offsets, made last, leaves its payload to be read. -/
theorem store_whole {sp : Space} {s : Shape} {e : EltTy} (M : Memref sig .tc sp s e) (f : M.view.ty.Contents (Elt F))
    {off : Fin s.rank → ℕ} (ho : off = fun _ => 0) (inb : ∀ a, off a + s.size a ≤ s.size a) (w : s.Idx → Elt F e)
    (L : List (View.Piece (Elt F) s e)) :
    M.view.read (Elt F) (M.view.writes (Elt F) f (⟨Rect.unit off s.size inb, w⟩ :: L)) = w := by
  subst ho; funext y
  have e := View.read_writes_cons_emb M.view f (Rect.whole s) w L y
  rw [Rect.emb_whole_apply] at e
  exact e

/-! ## The three runs -/

set_option maxHeartbeats 400000 in
/-- k = 0: the accumulators, found at anything, are zeroed and take the first tile's product; the
    result block's memref is handed back as found. The zero fill is read back through the one store
    that covers the accumulator, so the step's first operand is the fill itself. -/
theorem mlp_run_first (c : Dev nD) (i : grid1.Coords) (arg2 : Memref sig .tc .vmem S512x1920 .bf16) (harg2 : arg2.IsWhole) (arg3 : Memref sig .tc .vmem S512x1920 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S1920x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x512 .bf16) (harg9 : arg9.IsWhole) (arg10 : Memref sig .tc .vmem S1x512 .f32) (harg10 : arg10.IsWhole) (arg11 : Memref sig .tc .vmem S512x128 .bf16) (harg11 : arg11.IsWhole) (arg12 : Memref sig .tc .vmem S1x128 .f32) (harg12 : arg12.IsWhole) (arg13 : Memref sig .tc .vmem S512 .f32) (harg13 : arg13.IsWhole) (arg14 : Memref sig .tc .vmem S512x1024 .f32) (harg14 : arg14.IsWhole) (arg15 : Memref sig .tc .vmem S512x1024 .f32) (harg15 : arg15.IsWhole)
    (hk : (i 1).val = 0) (x0 x1 : Vec F S512x1920 .bf16) (x2 x3 : Vec F S512x1 .f32) (x4 : Vec F S1920x1024 .bf16) (x5 x6 : Vec F S1x1024 .f32) (x7 : Vec F S1024x512 .bf16) (x8 : Vec F S1x512 .f32) (x9 : Vec F S512x128 .bf16) (x10 : Vec F S1x128 .f32) (d11 : Vec F S512 .f32) (K : PUnit → sProp 𝕄) :
    iprop(mlpIns c arg2 harg2 arg3 harg3 arg4 harg4 arg5 harg5 arg6 harg6 arg7 harg7 arg8 harg8 arg9 harg9 arg10 harg10 arg11 harg11 arg12 harg12 x0 x1 x2 x3 x4 x5 x6 x7 x8 x9 x10 ∗ owns (c : Thread nD τ) arg13 fullShare d11
        ∗ (∃ a1, owns (c : Thread nD τ) arg14 fullShare a1) ∗ (∃ a2, owns (c : Thread nD τ) arg15 fullShare a2)
        ∗ (iprop(mlpIns c arg2 harg2 arg3 harg3 arg4 harg4 arg5 harg5 arg6 harg6 arg7 harg7 arg8 harg8 arg9 harg9 arg10 harg10 arg11 harg11 arg12 harg12 x0 x1 x2 x3 x4 x5 x6 x7 x8 x9 x10 ∗ owns (c : Thread nD τ) arg13 fullShare d11
            ∗ owns (c : Thread nD τ) arg14 fullShare (accReset1 x0 x4) ∗ owns (c : Thread nD τ) arg15 fullShare (accReset2 x1 x4)) -∗ K ⟨⟩))
      ⊢ wp frame (wpE (defs₀ (F := F)) Variants.none c none) Set.univ (cc1_mlp_kernel i arg2 harg2 arg3 harg3 arg4 harg4 arg5 harg5 arg6 harg6 arg7 harg7 arg8 harg8 arg9 harg9 arg10 harg10 arg11 harg11 arg12 harg12 arg13 harg13 arg14 harg14 arg15 harg15) K := by
  have hc0 : isFirst i := (isFirst_iff i).mpr hk
  have hc1 : ¬ isLast i := fun h => by have := (isLast_iff i).mp h; omega
  unfold mlpIns
  simp only [cc1_mlp_kernel_eq_skeleton]; unfold cc1_mlp_kernel_skel
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨%f11, %hf11, H11⟩, ⟨%a1, %fa1, -, HA1⟩, ⟨%a2, %fa2, -, HA2⟩, Hk⟩
  obtain rfl := harg2.eq_unread hf0; obtain rfl := harg3.eq_unread hf1; obtain rfl := harg6.eq_unread hf4
  sl_exec (disch := first | exact hc0 | exact hc1)
  sl_step
  iapply Hk
  isplitl [H0 H1 H2 H3 H4 H5 H6 H7 H8 H9 H10]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact hf2
      iexact H2
    isplitl [H3]
    · iexists _; isplitr; · ipureintro; exact hf3
      iexact H3
    isplitl [H4]
    · iexists _; isplitr; · ipureintro; exact harg6.read_unread _
      iexact H4
    isplitl [H5]
    · iexists _; isplitr; · ipureintro; exact hf5
      iexact H5
    isplitl [H6]
    · iexists _; isplitr; · ipureintro; exact hf6
      iexact H6
    isplitl [H7]
    · iexists _; isplitr; · ipureintro; exact hf7
      iexact H7
    isplitl [H8]
    · iexists _; isplitr; · ipureintro; exact hf8
      iexact H8
    isplitl [H9]
    · iexists _; isplitr; · ipureintro; exact hf9
      iexact H9
    iexists _; isplitr; · ipureintro; exact hf10
    iexact H10
  isplitl [H11]
  · iexists _; isplitr; · ipureintro; exact hf11
    iexact H11
  isplitl [HA1]
  · iexists _; isplitr
    swap; · iexact HA1
    ipureintro
    rw [store_whole arg14 _ off00, load_whole arg2 _ off00 _ x0 hf0, load_whole arg6 _ off00 _ x4 hf4]
    sl_unfold_run_names
    rw [View.readCov_unit_zero arg14.view off00]
    rfl
  iexists _; isplitr
  swap; · iexact HA2
  ipureintro
  rw [store_whole arg15 _ off00, load_whole arg3 _ off00 _ x1 hf1, load_whole arg6 _ off00 _ x4 hf4]
  sl_unfold_run_names
  rw [View.readCov_unit_zero arg15.view off00]
  rfl

set_option maxHeartbeats 400000 in
/-- 0 < k < 9: each accumulator takes its tile's product; the result block's memref is handed back as
    found. Neither conditional's region runs. -/
theorem mlp_run_mid (c : Dev nD) (i : grid1.Coords) (arg2 : Memref sig .tc .vmem S512x1920 .bf16) (harg2 : arg2.IsWhole) (arg3 : Memref sig .tc .vmem S512x1920 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S1920x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x512 .bf16) (harg9 : arg9.IsWhole) (arg10 : Memref sig .tc .vmem S1x512 .f32) (harg10 : arg10.IsWhole) (arg11 : Memref sig .tc .vmem S512x128 .bf16) (harg11 : arg11.IsWhole) (arg12 : Memref sig .tc .vmem S1x128 .f32) (harg12 : arg12.IsWhole) (arg13 : Memref sig .tc .vmem S512 .f32) (harg13 : arg13.IsWhole) (arg14 : Memref sig .tc .vmem S512x1024 .f32) (harg14 : arg14.IsWhole) (arg15 : Memref sig .tc .vmem S512x1024 .f32) (harg15 : arg15.IsWhole)
    (hk0 : (i 1).val ≠ 0) (hk9 : (i 1).val ≠ 9) (x0 x1 : Vec F S512x1920 .bf16) (x2 x3 : Vec F S512x1 .f32) (x4 : Vec F S1920x1024 .bf16) (x5 x6 : Vec F S1x1024 .f32) (x7 : Vec F S1024x512 .bf16) (x8 : Vec F S1x512 .f32) (x9 : Vec F S512x128 .bf16) (x10 : Vec F S1x128 .f32) (a1 a2 : Vec F S512x1024 .f32) (d11 : Vec F S512 .f32) (K : PUnit → sProp 𝕄) :
    iprop(mlpIns c arg2 harg2 arg3 harg3 arg4 harg4 arg5 harg5 arg6 harg6 arg7 harg7 arg8 harg8 arg9 harg9 arg10 harg10 arg11 harg11 arg12 harg12 x0 x1 x2 x3 x4 x5 x6 x7 x8 x9 x10 ∗ owns (c : Thread nD τ) arg13 fullShare d11
        ∗ owns (c : Thread nD τ) arg14 fullShare a1 ∗ owns (c : Thread nD τ) arg15 fullShare a2
        ∗ (iprop(mlpIns c arg2 harg2 arg3 harg3 arg4 harg4 arg5 harg5 arg6 harg6 arg7 harg7 arg8 harg8 arg9 harg9 arg10 harg10 arg11 harg11 arg12 harg12 x0 x1 x2 x3 x4 x5 x6 x7 x8 x9 x10 ∗ owns (c : Thread nD τ) arg13 fullShare d11
            ∗ owns (c : Thread nD τ) arg14 fullShare (accStep1 a1 x0 x4) ∗ owns (c : Thread nD τ) arg15 fullShare (accStep2 a2 x1 x4)) -∗ K ⟨⟩))
      ⊢ wp frame (wpE (defs₀ (F := F)) Variants.none c none) Set.univ (cc1_mlp_kernel i arg2 harg2 arg3 harg3 arg4 harg4 arg5 harg5 arg6 harg6 arg7 harg7 arg8 harg8 arg9 harg9 arg10 harg10 arg11 harg11 arg12 harg12 arg13 harg13 arg14 harg14 arg15 harg15) K := by
  have hc0 : ¬ isFirst i := fun h => hk0 ((isFirst_iff i).mp h)
  have hc1 : ¬ isLast i := fun h => hk9 ((isLast_iff i).mp h)
  unfold mlpIns
  simp only [cc1_mlp_kernel_eq_skeleton]; unfold cc1_mlp_kernel_skel
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨%f11, %hf11, H11⟩, ⟨%fa1, %hfa1, HA1⟩, ⟨%fa2, %hfa2, HA2⟩, Hk⟩
  obtain rfl := harg2.eq_unread hf0; obtain rfl := harg3.eq_unread hf1; obtain rfl := harg6.eq_unread hf4
  obtain rfl := harg14.eq_unread hfa1; obtain rfl := harg15.eq_unread hfa2
  sl_exec (disch := first | exact hc0 | exact hc1)
  sl_step
  iapply Hk
  isplitl [H0 H1 H2 H3 H4 H5 H6 H7 H8 H9 H10]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact hf2
      iexact H2
    isplitl [H3]
    · iexists _; isplitr; · ipureintro; exact hf3
      iexact H3
    isplitl [H4]
    · iexists _; isplitr; · ipureintro; exact harg6.read_unread _
      iexact H4
    isplitl [H5]
    · iexists _; isplitr; · ipureintro; exact hf5
      iexact H5
    isplitl [H6]
    · iexists _; isplitr; · ipureintro; exact hf6
      iexact H6
    isplitl [H7]
    · iexists _; isplitr; · ipureintro; exact hf7
      iexact H7
    isplitl [H8]
    · iexists _; isplitr; · ipureintro; exact hf8
      iexact H8
    isplitl [H9]
    · iexists _; isplitr; · ipureintro; exact hf9
      iexact H9
    iexists _; isplitr; · ipureintro; exact hf10
    iexact H10
  isplitl [H11]
  · iexists _; isplitr; · ipureintro; exact hf11
    iexact H11
  isplitl [HA1]
  · iexists _; isplitr
    swap; · iexact HA1
    ipureintro
    rw [store_whole arg14 _ off00, load_whole arg14 _ off00 _ a1 hfa1, load_whole arg2 _ off00 _ x0 hf0,
      load_whole arg6 _ off00 _ x4 hf4]
    rfl
  iexists _; isplitr
  swap; · iexact HA2
  ipureintro
  rw [store_whole arg15 _ off00, load_whole arg15 _ off00 _ a2 hfa2, load_whole arg3 _ off00 _ x1 hf1,
    load_whole arg6 _ off00 _ x4 hf4]
  rfl

set_option maxHeartbeats 400000 in
/-- k = 9: each accumulator takes the last tile's product, and the epilogue over the two finished
    accumulators (each read back through the covering store of this point's own step) is stored into
    the result block, found at anything. -/
theorem mlp_run_last (c : Dev nD) (i : grid1.Coords) (arg2 : Memref sig .tc .vmem S512x1920 .bf16) (harg2 : arg2.IsWhole) (arg3 : Memref sig .tc .vmem S512x1920 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S1920x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x512 .bf16) (harg9 : arg9.IsWhole) (arg10 : Memref sig .tc .vmem S1x512 .f32) (harg10 : arg10.IsWhole) (arg11 : Memref sig .tc .vmem S512x128 .bf16) (harg11 : arg11.IsWhole) (arg12 : Memref sig .tc .vmem S1x128 .f32) (harg12 : arg12.IsWhole) (arg13 : Memref sig .tc .vmem S512 .f32) (harg13 : arg13.IsWhole) (arg14 : Memref sig .tc .vmem S512x1024 .f32) (harg14 : arg14.IsWhole) (arg15 : Memref sig .tc .vmem S512x1024 .f32) (harg15 : arg15.IsWhole)
    (hk : (i 1).val = 9) (x0 x1 : Vec F S512x1920 .bf16) (x2 x3 : Vec F S512x1 .f32) (x4 : Vec F S1920x1024 .bf16) (x5 x6 : Vec F S1x1024 .f32) (x7 : Vec F S1024x512 .bf16) (x8 : Vec F S1x512 .f32) (x9 : Vec F S512x128 .bf16) (x10 : Vec F S1x128 .f32) (a1 a2 : Vec F S512x1024 .f32) (K : PUnit → sProp 𝕄) :
    iprop(mlpIns c arg2 harg2 arg3 harg3 arg4 harg4 arg5 harg5 arg6 harg6 arg7 harg7 arg8 harg8 arg9 harg9 arg10 harg10 arg11 harg11 arg12 harg12 x0 x1 x2 x3 x4 x5 x6 x7 x8 x9 x10 ∗ (∃ d11, owns (c : Thread nD τ) arg13 fullShare d11)
        ∗ owns (c : Thread nD τ) arg14 fullShare a1 ∗ owns (c : Thread nD τ) arg15 fullShare a2
        ∗ (iprop(mlpIns c arg2 harg2 arg3 harg3 arg4 harg4 arg5 harg5 arg6 harg6 arg7 harg7 arg8 harg8 arg9 harg9 arg10 harg10 arg11 harg11 arg12 harg12 x0 x1 x2 x3 x4 x5 x6 x7 x8 x9 x10
            ∗ owns (c : Thread nD τ) arg13 fullShare (mlpOut (accStep1 a1 x0 x4) (accStep2 a2 x1 x4) x2 x3 x5 x6 x7 x8 x9 x10)
            ∗ owns (c : Thread nD τ) arg14 fullShare (accStep1 a1 x0 x4) ∗ owns (c : Thread nD τ) arg15 fullShare (accStep2 a2 x1 x4)) -∗ K ⟨⟩))
      ⊢ wp frame (wpE (defs₀ (F := F)) Variants.none c none) Set.univ (cc1_mlp_kernel i arg2 harg2 arg3 harg3 arg4 harg4 arg5 harg5 arg6 harg6 arg7 harg7 arg8 harg8 arg9 harg9 arg10 harg10 arg11 harg11 arg12 harg12 arg13 harg13 arg14 harg14 arg15 harg15) K := by
  have hc0 : ¬ isFirst i := fun h => by have := (isFirst_iff i).mp h; omega
  have hc1 : isLast i := (isLast_iff i).mpr hk
  unfold mlpIns
  simp only [cc1_mlp_kernel_eq_skeleton]; unfold cc1_mlp_kernel_skel
  simp only [k1_part1_eq_skeleton]
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨%d11, %f11, -, H11⟩, ⟨%fa1, %hfa1, HA1⟩, ⟨%fa2, %hfa2, HA2⟩, Hk⟩
  sl_exec (disch := first | exact hc0 | exact hc1)
  sl_step
  iapply Hk
  isplitl [H0 H1 H2 H3 H4 H5 H6 H7 H8 H9 H10]
  · isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _; isplitr; · ipureintro; exact hf7
      iexact H7
    isplitl [H8]
    · iexists _; isplitr; · ipureintro; exact hf8
      iexact H8
    isplitl [H9]
    · iexists _; isplitr; · ipureintro; exact hf9
      iexact H9
    iexists _; isplitr; · ipureintro; exact hf10
    iexact H10
  isplitl [H11]
  · iexists _; isplitr
    swap; · iexact H11
    ipureintro
    rw [store_whole arg13 _ off0]
    sl_unfold_run_names
    rw [View.readCov_unit_zero arg14.view off00, View.readCov_unit_zero arg15.view off00]
    simp only [load_whole arg2 _ off00 _ x0 hf0, load_whole arg3 _ off00 _ x1 hf1, load_whole arg4 _ off00 _ x2 hf2,
      load_whole arg5 _ off00 _ x3 hf3, load_whole arg6 _ off00 _ x4 hf4, load_whole arg7 _ off00 _ x5 hf5,
      load_whole arg8 _ off00 _ x6 hf6, load_whole arg9 _ off00 _ x7 hf7, load_whole arg10 _ off00 _ x8 hf8,
      load_whole arg11 _ off00 _ x9 hf9, load_whole arg12 _ off00 _ x10 hf10, load_whole arg14 _ off00 _ a1 hfa1,
      load_whole arg15 _ off00 _ a2 hfa2]
    rfl
  isplitl [HA1]
  · iexists _; isplitr
    swap; · iexact HA1
    ipureintro
    sl_unfold_run_names
    rw [store_whole arg14 _ off00, load_whole arg14 _ off00 _ a1 hfa1, load_whole arg2 _ off00 _ x0 hf0,
      load_whole arg6 _ off00 _ x4 hf4]
    rfl
  iexists _; isplitr
  swap; · iexact HA2
  ipureintro
  sl_unfold_run_names
  rw [store_whole arg15 _ off00, load_whole arg15 _ off00 _ a2 hfa2, load_whole arg3 _ off00 _ x1 hf1,
    load_whole arg6 _ off00 _ x4 hf4]
  rfl

end Cert.Kernel.Hand

end
-- ==== Proof.WordLevel.MlpDat.lean ====
/- Region 1 of @main (the second pallas_call, the MLP over a grid of 16 row blocks by 10 column steps of the
   first layer's weight): the pipeline's proof data and the body obligation, stated at a parameter `V` — the
   contents of the core's unscoped buffers when the region is entered.

   At point `t` the row block is `t / 10` and the column step is `k = t % 10`. Two scratch accumulators are carried from
   point to point: cleared at `k = 0`, each then takes the product of a feature block with the weight block of the
   step; at `k = 9` the two sums go through the rest of the network and the row block's 512 results are stored
   into the output window, which the pipeline writes back at exactly those points. -/
import proofs.«406060_j54142357733864_2_alg».proof.Proof.Gen.Kernel.Launch
import proofs.«406060_j54142357733864_2_alg».proof.Proof.Gen.Kernel.Skeleton
import proofs.«406060_j54142357733864_2_alg».proof.Proof.Gen.Kernel.Points
import proofs.«406060_j54142357733864_2_alg».proof.Proof.WordLevel.MlpRuns
import Idealize.ShloMosaic.Lib.Pipeline.FrameBody
import Idealize.ShloMosaic.Lib.Pipeline.Frame
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The grid: row block and column step of a point -/

/-- There are 160 points, -/
theorem N1_eq : cfg1.N = 160 := N_1
/-- and the column step of point `t` is `t % 10`. -/
theorem step_eq (t : Fin cfg1.N) : ((grid1.coords t) 1).val = t.val % 10 :=
  (by decide +kernel : ∀ t : Fin grid1.N, ((grid1.coords t) 1).val = t.val % 10) t

/-! ## The input blocks -/

/-- The block of window `w` at point `t`, read off the window's array as the region finds it. -/
def iblk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- The operands of the network at point `t`, each at its block's shape: the two feature blocks, the two
    concentration columns, the step's block of the first layer's weight, and the small operands held whole. -/
abbrev featA (c : Dev nD) (t : Fin cfg1.N) : Vec F S512x1920 .bf16 := iblk1 V c 0 t
abbrev featB (c : Dev nD) (t : Fin cfg1.N) : Vec F S512x1920 .bf16 := iblk1 V c 1 t
abbrev concA (c : Dev nD) (t : Fin cfg1.N) : Vec F S512x1 .f32 := iblk1 V c 2 t
abbrev concB (c : Dev nD) (t : Fin cfg1.N) : Vec F S512x1 .f32 := iblk1 V c 3 t
abbrev wgt0 (c : Dev nD) (t : Fin cfg1.N) : Vec F S1920x1024 .bf16 := iblk1 V c 4 t
abbrev wgt0c (c : Dev nD) (t : Fin cfg1.N) : Vec F S1x1024 .f32 := iblk1 V c 5 t
abbrev bias0 (c : Dev nD) (t : Fin cfg1.N) : Vec F S1x1024 .f32 := iblk1 V c 6 t
abbrev wgt1 (c : Dev nD) (t : Fin cfg1.N) : Vec F S1024x512 .bf16 := iblk1 V c 7 t
abbrev bias1 (c : Dev nD) (t : Fin cfg1.N) : Vec F S1x512 .f32 := iblk1 V c 8 t
abbrev wgt2 (c : Dev nD) (t : Fin cfg1.N) : Vec F S512x128 .bf16 := iblk1 V c 9 t
abbrev bias2 (c : Dev nD) (t : Fin cfg1.N) : Vec F S1x128 .f32 := iblk1 V c 10 t

/-- An input window's current staging buffer holds the window's block at every point, whether the pipeline fetched
    it there or not (an unfetched window's block index has not moved), for any proof data that reads its arrays off
    `V` and whose body leaves the inputs' blocks in place. One statement per window: each is uncut and never idle. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t := by
  have hkeep : ∀ u, (cfg1.win 0).cut (cfg1.grid.coords u) (dat.after 0 u) = dat.blockOf 0 u := fun u => by
    rw [hafter]; unfold Dat.blockOf iblk1; rw [hA]; try rfl
  rw [dat.before_in_eq_fetched 0 rfl (fun _ => rfl) (fun _ _ _ => rfl) hkeep t d]
  unfold Dat.fetched Dat.blockOf iblk1; rw [hA]; try rfl
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t := by
  have hkeep : ∀ u, (cfg1.win 1).cut (cfg1.grid.coords u) (dat.after 1 u) = dat.blockOf 1 u := fun u => by
    rw [hafter]; unfold Dat.blockOf iblk1; rw [hA]; try rfl
  rw [dat.before_in_eq_fetched 1 rfl (fun _ => rfl) (fun _ _ _ => rfl) hkeep t d]
  unfold Dat.fetched Dat.blockOf iblk1; rw [hA]; try rfl
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t := by
  have hkeep : ∀ u, (cfg1.win 2).cut (cfg1.grid.coords u) (dat.after 2 u) = dat.blockOf 2 u := fun u => by
    rw [hafter]; unfold Dat.blockOf iblk1; rw [hA]; try rfl
  rw [dat.before_in_eq_fetched 2 rfl (fun _ => rfl) (fun _ _ _ => rfl) hkeep t d]
  unfold Dat.fetched Dat.blockOf iblk1; rw [hA]; try rfl
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t := by
  have hkeep : ∀ u, (cfg1.win 3).cut (cfg1.grid.coords u) (dat.after 3 u) = dat.blockOf 3 u := fun u => by
    rw [hafter]; unfold Dat.blockOf iblk1; rw [hA]; try rfl
  rw [dat.before_in_eq_fetched 3 rfl (fun _ => rfl) (fun _ _ _ => rfl) hkeep t d]
  unfold Dat.fetched Dat.blockOf iblk1; rw [hA]; try rfl
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t := by
  have hkeep : ∀ u, (cfg1.win 4).cut (cfg1.grid.coords u) (dat.after 4 u) = dat.blockOf 4 u := fun u => by
    rw [hafter]; unfold Dat.blockOf iblk1; rw [hA]; try rfl
  rw [dat.before_in_eq_fetched 4 rfl (fun _ => rfl) (fun _ _ _ => rfl) hkeep t d]
  unfold Dat.fetched Dat.blockOf iblk1; rw [hA]; try rfl
theorem before1_5_of {c : Dev nD} (dat : Dat τ (Elt F) Unit ℕ (Pipeline.UD sig nD τ) ℕ cfg1 c) (hA : dat.A 5 = V c (Pipeline.arrRef spec1 5))
    (hafter : ∀ t, dat.after 5 t = iblk1 V c 5 t) (t : Fin cfg1.N) (d) : dat.before 5 t d = iblk1 V c 5 t := by
  have hkeep : ∀ u, (cfg1.win 5).cut (cfg1.grid.coords u) (dat.after 5 u) = dat.blockOf 5 u := fun u => by
    rw [hafter]; unfold Dat.blockOf iblk1; rw [hA]; try rfl
  rw [dat.before_in_eq_fetched 5 rfl (fun _ => rfl) (fun _ _ _ => rfl) hkeep t d]
  unfold Dat.fetched Dat.blockOf iblk1; rw [hA]; try rfl
theorem before1_6_of {c : Dev nD} (dat : Dat τ (Elt F) Unit ℕ (Pipeline.UD sig nD τ) ℕ cfg1 c) (hA : dat.A 6 = V c (Pipeline.arrRef spec1 6))
    (hafter : ∀ t, dat.after 6 t = iblk1 V c 6 t) (t : Fin cfg1.N) (d) : dat.before 6 t d = iblk1 V c 6 t := by
  have hkeep : ∀ u, (cfg1.win 6).cut (cfg1.grid.coords u) (dat.after 6 u) = dat.blockOf 6 u := fun u => by
    rw [hafter]; unfold Dat.blockOf iblk1; rw [hA]; try rfl
  rw [dat.before_in_eq_fetched 6 rfl (fun _ => rfl) (fun _ _ _ => rfl) hkeep t d]
  unfold Dat.fetched Dat.blockOf iblk1; rw [hA]; try rfl
theorem before1_7_of {c : Dev nD} (dat : Dat τ (Elt F) Unit ℕ (Pipeline.UD sig nD τ) ℕ cfg1 c) (hA : dat.A 7 = V c (Pipeline.arrRef spec1 7))
    (hafter : ∀ t, dat.after 7 t = iblk1 V c 7 t) (t : Fin cfg1.N) (d) : dat.before 7 t d = iblk1 V c 7 t := by
  have hkeep : ∀ u, (cfg1.win 7).cut (cfg1.grid.coords u) (dat.after 7 u) = dat.blockOf 7 u := fun u => by
    rw [hafter]; unfold Dat.blockOf iblk1; rw [hA]; try rfl
  rw [dat.before_in_eq_fetched 7 rfl (fun _ => rfl) (fun _ _ _ => rfl) hkeep t d]
  unfold Dat.fetched Dat.blockOf iblk1; rw [hA]; try rfl
theorem before1_8_of {c : Dev nD} (dat : Dat τ (Elt F) Unit ℕ (Pipeline.UD sig nD τ) ℕ cfg1 c) (hA : dat.A 8 = V c (Pipeline.arrRef spec1 8))
    (hafter : ∀ t, dat.after 8 t = iblk1 V c 8 t) (t : Fin cfg1.N) (d) : dat.before 8 t d = iblk1 V c 8 t := by
  have hkeep : ∀ u, (cfg1.win 8).cut (cfg1.grid.coords u) (dat.after 8 u) = dat.blockOf 8 u := fun u => by
    rw [hafter]; unfold Dat.blockOf iblk1; rw [hA]; try rfl
  rw [dat.before_in_eq_fetched 8 rfl (fun _ => rfl) (fun _ _ _ => rfl) hkeep t d]
  unfold Dat.fetched Dat.blockOf iblk1; rw [hA]; try rfl
theorem before1_9_of {c : Dev nD} (dat : Dat τ (Elt F) Unit ℕ (Pipeline.UD sig nD τ) ℕ cfg1 c) (hA : dat.A 9 = V c (Pipeline.arrRef spec1 9))
    (hafter : ∀ t, dat.after 9 t = iblk1 V c 9 t) (t : Fin cfg1.N) (d) : dat.before 9 t d = iblk1 V c 9 t := by
  have hkeep : ∀ u, (cfg1.win 9).cut (cfg1.grid.coords u) (dat.after 9 u) = dat.blockOf 9 u := fun u => by
    rw [hafter]; unfold Dat.blockOf iblk1; rw [hA]; try rfl
  rw [dat.before_in_eq_fetched 9 rfl (fun _ => rfl) (fun _ _ _ => rfl) hkeep t d]
  unfold Dat.fetched Dat.blockOf iblk1; rw [hA]; try rfl
theorem before1_10_of {c : Dev nD} (dat : Dat τ (Elt F) Unit ℕ (Pipeline.UD sig nD τ) ℕ cfg1 c) (hA : dat.A 10 = V c (Pipeline.arrRef spec1 10))
    (hafter : ∀ t, dat.after 10 t = iblk1 V c 10 t) (t : Fin cfg1.N) (d) : dat.before 10 t d = iblk1 V c 10 t := by
  have hkeep : ∀ u, (cfg1.win 10).cut (cfg1.grid.coords u) (dat.after 10 u) = dat.blockOf 10 u := fun u => by
    rw [hafter]; unfold Dat.blockOf iblk1; rw [hA]; try rfl
  rw [dat.before_in_eq_fetched 10 rfl (fun _ => rfl) (fun _ _ _ => rfl) hkeep t d]
  unfold Dat.fetched Dat.blockOf iblk1; rw [hA]; try rfl

/-! ## The accumulators and the result block, point by point -/

/-- What the first scratch accumulator holds after the body at point `n`: at the first step of a row block the
    step's product over the zero fill, at a later step the product added to what the point before left. -/
def acc1At (c : Dev nD) : (n : ℕ) → n < cfg1.N → Vec F S512x1024 .f32
  | 0, h => accReset1 (featA V c ⟨0, h⟩) (wgt0 V c ⟨0, h⟩)
  | n + 1, h =>
    if (n + 1) % 10 = 0 then accReset1 (featA V c ⟨n + 1, h⟩) (wgt0 V c ⟨n + 1, h⟩)
    else accStep1 (acc1At c n (Nat.lt_of_succ_lt h)) (featA V c ⟨n + 1, h⟩) (wgt0 V c ⟨n + 1, h⟩)

/-- The same for the second accumulator, over the second feature block. -/
def acc2At (c : Dev nD) : (n : ℕ) → n < cfg1.N → Vec F S512x1024 .f32
  | 0, h => accReset2 (featB V c ⟨0, h⟩) (wgt0 V c ⟨0, h⟩)
  | n + 1, h =>
    if (n + 1) % 10 = 0 then accReset2 (featB V c ⟨n + 1, h⟩) (wgt0 V c ⟨n + 1, h⟩)
    else accStep2 (acc2At c n (Nat.lt_of_succ_lt h)) (featB V c ⟨n + 1, h⟩) (wgt0 V c ⟨n + 1, h⟩)

theorem acc1At_first (c : Dev nD) (t : Fin cfg1.N) (h : t.val % 10 = 0) :
    acc1At V c t.val t.isLt = accReset1 (featA V c t) (wgt0 V c t) := by
  obtain ⟨n, hn⟩ := t
  cases n with
  | zero => rfl
  | succ n => exact if_pos h
theorem acc1At_next (c : Dev nD) (t : Fin cfg1.N) (h : t.val % 10 ≠ 0) :
    acc1At V c t.val t.isLt
      = accStep1 (acc1At V c (t.val - 1) (Nat.lt_of_le_of_lt (Nat.sub_le _ _) t.isLt)) (featA V c t) (wgt0 V c t) := by
  obtain ⟨n, hn⟩ := t
  cases n with
  | zero => exact absurd (Nat.zero_mod _) h
  | succ n => exact if_neg h
theorem acc2At_first (c : Dev nD) (t : Fin cfg1.N) (h : t.val % 10 = 0) :
    acc2At V c t.val t.isLt = accReset2 (featB V c t) (wgt0 V c t) := by
  obtain ⟨n, hn⟩ := t
  cases n with
  | zero => rfl
  | succ n => exact if_pos h
theorem acc2At_next (c : Dev nD) (t : Fin cfg1.N) (h : t.val % 10 ≠ 0) :
    acc2At V c t.val t.isLt
      = accStep2 (acc2At V c (t.val - 1) (Nat.lt_of_le_of_lt (Nat.sub_le _ _) t.isLt)) (featB V c t) (wgt0 V c t) := by
  obtain ⟨n, hn⟩ := t
  cases n with
  | zero => exact absurd (Nat.zero_mod _) h
  | succ n => exact if_neg h

/-- The rest of the network over the two accumulators as point `n` leaves them. At a last step (`n % 10 = 9`) this
    is what the body stores into the output window's staging buffer, and only there is it read: at every other
    point the window is idle and not written back, and its buffer is handed back as it was found. -/
def outAt (c : Dev nD) (n : ℕ) (h : n < cfg1.N) : Vec F S512 .f32 :=
  mlpOut (acc1At V c n h) (acc2At V c n h) (concA V c ⟨n, h⟩) (concB V c ⟨n, h⟩) (wgt0c V c ⟨n, h⟩) (bias0 V c ⟨n, h⟩)
    (wgt1 V c ⟨n, h⟩) (bias1 V c ⟨n, h⟩) (wgt2 V c ⟨n, h⟩) (bias2 V c ⟨n, h⟩)

/-- At a last step, spelled over what the point before left in the accumulators. -/
theorem outAt_last (c : Dev nD) (t : Fin cfg1.N) (h : t.val % 10 = 9) :
    outAt V c t.val t.isLt
      = mlpOut (accStep1 (acc1At V c (t.val - 1) (Nat.lt_of_le_of_lt (Nat.sub_le _ _) t.isLt)) (featA V c t) (wgt0 V c t))
          (accStep2 (acc2At V c (t.val - 1) (Nat.lt_of_le_of_lt (Nat.sub_le _ _) t.isLt)) (featB V c t) (wgt0 V c t))
          (concA V c t) (concB V c t) (wgt0c V c t) (bias0 V c t) (wgt1 V c t) (bias1 V c t) (wgt2 V c t) (bias2 V c t) := by
  have h0 : t.val % 10 ≠ 0 := by omega
  unfold outAt
  rw [acc1At_next V c t h0, acc2At_next V c t h0]

/-! ## The invariant: the scoped rest with the two accumulators named -/

/-- The core's scoped buffers that are no staging buffer of this call — the first call's staging buffers and scratch,
    each at some contents, then this call's two scratch accumulators as `S0`, `S1` say — and the generator register at
    some state. -/
def scoped1 (c : Dev nD) (S0 S1 : sProp 𝕄) : sProp 𝕄 :=
  iprop(((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)
      ∗ S0 ∗ S1) ∗ ∃ r, prngReg c r)

/-- It is monotone in what it says of the two accumulators. -/
theorem scoped1_mono (c : Dev nD) {S0 S1 S0' S1' : sProp 𝕄} (h0 : S0 ⊢ S0') (h1 : S1 ⊢ S1') :
    scoped1 c S0 S1 ⊢ scoped1 c S0' S1' := by
  unfold scoped1
  exact BI.sep_mono_l (BI.sep_mono_r (BI.sep_mono_r (BI.sep_mono_r (BI.sep_mono_r (BI.sep_mono_r (BI.sep_mono_r (BI.sep_mono h0 h1)))))))

/-- With both accumulators at anything this is the invariant of a body that carries nothing. -/
theorem PhiA1_eq (c : Dev nD) :
    (Pipeline.ΦA spec1 c : sProp 𝕄)
      = scoped1 c (iprop(∃ d, owns (c : Thread nD τ) (Memref.whole cc1_scratch0) fullShare d))
          (iprop(∃ d, owns (c : Thread nD τ) (Memref.whole cc1_scratch1) fullShare d)) := by
  unfold Pipeline.ΦA scoped1; rw [scopedRest1_eq]; simp only [owns_whole]; try rfl

/-- The invariant before position `n`: before the first point both accumulators hold anything; afterwards each holds
    what the point before left in it. -/
def Phi1 (c : Dev nD) : (n : ℕ) → n ≤ cfg1.N → sProp 𝕄
  | 0, _ => Pipeline.ΦA spec1 c
  | n + 1, h => scoped1 c (owns (c : Thread nD τ) (Memref.whole cc1_scratch0) fullShare (acc1At V c n h))
      (owns (c : Thread nD τ) (Memref.whole cc1_scratch1) fullShare (acc2At V c n h))

theorem Phi1_zero (c : Dev nD) (n : ℕ) (h : n ≤ cfg1.N) (hz : n = 0) : Phi1 V c n h = Pipeline.ΦA spec1 c := by
  subst hz; rfl
theorem Phi1_succ (c : Dev nD) (n : ℕ) (h : n < cfg1.N) :
    Phi1 V c (n + 1) h = scoped1 c (owns (c : Thread nD τ) (Memref.whole cc1_scratch0) fullShare (acc1At V c n h))
      (owns (c : Thread nD τ) (Memref.whole cc1_scratch1) fullShare (acc2At V c n h)) := rfl
theorem Phi1_pos (c : Dev nD) (n : ℕ) (h : n ≤ cfg1.N) (hz : n ≠ 0) :
    Phi1 V c n h = scoped1 c (owns (c : Thread nD τ) (Memref.whole cc1_scratch0) fullShare (acc1At V c (n - 1) (by omega)))
      (owns (c : Thread nD τ) (Memref.whole cc1_scratch1) fullShare (acc2At V c (n - 1) (by omega))) := by
  cases n with
  | zero => exact absurd rfl hz
  | succ n => rfl

/-- Whatever the accumulators are known to hold, the invariant gives back the one that names nothing. -/
theorem Phi1_forget (c : Dev nD) (n : ℕ) (h : n ≤ cfg1.N) : Phi1 V c n h ⊢ Pipeline.ΦA spec1 c := by
  cases n with
  | zero => exact .rfl
  | succ n =>
    rw [Phi1_succ, PhiA1_eq]
    refine scoped1_mono c ?_ ?_
    · iintro H; iexists _; iexact H
    · iintro H; iexists _; iexact H

/-- Opening the invariant before position `n`: the two accumulators hold some contents, and after the first point
    those are what the point before left. -/
theorem Phi1_open (c : Dev nD) (n : ℕ) (h : n ≤ cfg1.N) :
    Phi1 V c n h ⊢ iprop(∃ a1 a2, ⌜∀ hz : n ≠ 0, a1 = acc1At V c (n - 1) (by omega) ∧ a2 = acc2At V c (n - 1) (by omega)⌝
      ∗ scoped1 c (owns (c : Thread nD τ) (Memref.whole cc1_scratch0) fullShare a1) (owns (c : Thread nD τ) (Memref.whole cc1_scratch1) fullShare a2)) := by
  cases n with
  | zero =>
    rw [Phi1_zero V c 0 h rfl, PhiA1_eq]; unfold scoped1
    iintro ⟨⟨R1, R2, R3, R4, R5, R6, ⟨%a1, HS0⟩, ⟨%a2, HS1⟩⟩, Hg⟩
    iexists a1, a2
    isplitr
    · ipureintro; intro hz; exact absurd rfl hz
    isplitr [Hg]
    ·
      isplitl [R1]; · iexact R1
      isplitl [R2]; · iexact R2
      isplitl [R3]; · iexact R3
      isplitl [R4]; · iexact R4
      isplitl [R5]; · iexact R5
      isplitl [R6]; · iexact R6
      isplitl [HS0]; · iexact HS0
      iexact HS1
    iexact Hg
  | succ n =>
    rw [Phi1_succ]
    iintro H
    iexists acc1At V c n h, acc2At V c n h
    isplitr
    · ipureintro; intro _; exact ⟨rfl, rfl⟩
    iexact H

/-! ## The proof data -/

/-- Region 1's proof data on core `c`: the arrays as the region finds them; after the body each input's staging buffer
    at its block and the output's at `outAt`; the invariant `Phi1`; full shares; nothing owed. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => outAt V c t.val t.isLt
  Φ t := Phi1 V c t.val (Nat.le_of_lt_succ t.isLt)
  q _ := fullShare
  owed _ := 0

theorem dat1_A (c : Dev nD) (w : Fin cfg1.W) : (dat1 V c).A w = V c (Pipeline.arrRef spec1 w) := by
  dsimp only [dat1]
theorem dat1_after_0 (c : Dev nD) (t : Fin cfg1.N) : (dat1 V c).after 0 t = iblk1 V c 0 t := by dsimp only [dat1]
theorem dat1_after_1 (c : Dev nD) (t : Fin cfg1.N) : (dat1 V c).after 1 t = iblk1 V c 1 t := by dsimp only [dat1]
theorem dat1_after_2 (c : Dev nD) (t : Fin cfg1.N) : (dat1 V c).after 2 t = iblk1 V c 2 t := by dsimp only [dat1]
theorem dat1_after_3 (c : Dev nD) (t : Fin cfg1.N) : (dat1 V c).after 3 t = iblk1 V c 3 t := by dsimp only [dat1]
theorem dat1_after_4 (c : Dev nD) (t : Fin cfg1.N) : (dat1 V c).after 4 t = iblk1 V c 4 t := by dsimp only [dat1]
theorem dat1_after_5 (c : Dev nD) (t : Fin cfg1.N) : (dat1 V c).after 5 t = iblk1 V c 5 t := by dsimp only [dat1]
theorem dat1_after_6 (c : Dev nD) (t : Fin cfg1.N) : (dat1 V c).after 6 t = iblk1 V c 6 t := by dsimp only [dat1]
theorem dat1_after_7 (c : Dev nD) (t : Fin cfg1.N) : (dat1 V c).after 7 t = iblk1 V c 7 t := by dsimp only [dat1]
theorem dat1_after_8 (c : Dev nD) (t : Fin cfg1.N) : (dat1 V c).after 8 t = iblk1 V c 8 t := by dsimp only [dat1]
theorem dat1_after_9 (c : Dev nD) (t : Fin cfg1.N) : (dat1 V c).after 9 t = iblk1 V c 9 t := by dsimp only [dat1]
theorem dat1_after_10 (c : Dev nD) (t : Fin cfg1.N) : (dat1 V c).after 10 t = iblk1 V c 10 t := by dsimp only [dat1]
theorem dat1_after_11 (c : Dev nD) (t : Fin cfg1.N) : (dat1 V c).after 11 t = outAt V c t.val t.isLt := by dsimp only [dat1]
theorem dat1_Phi (c : Dev nD) (t : Fin (cfg1.N + 1)) : (dat1 V c).Φ t = Phi1 V c t.val (Nat.le_of_lt_succ t.isLt) := by
  dsimp only [dat1]
theorem dat1_Phi_castSucc (c : Dev nD) (t : Fin cfg1.N) : (dat1 V c).Φ t.castSucc = Phi1 V c t.val (Nat.le_of_lt t.isLt) := by
  dsimp only [dat1]; simp only [Fin.coe_castSucc]

/-- The invariant before the first point is the one the launch hands over, -/
theorem dat1_Phi_in (c : Dev nD) : Pipeline.ΦA spec1 c ⊢ (dat1 V c).Φ 0 := by
  rw [dat1_Phi]; exact .rfl
/-- and after the last point it gives that one back. -/
theorem dat1_Phi_out (c : Dev nD) : (dat1 V c).Φ (Fin.last cfg1.N) ⊢ Pipeline.ΦA spec1 c := by
  rw [dat1_Phi]; exact Phi1_forget V c _ _

theorem before1_0 (c : Dev nD) (t : Fin cfg1.N) (d) : (dat1 V c).before 0 t d = iblk1 V c 0 t :=
  before1_0_of V (dat1 V c) (dat1_A V c 0) (dat1_after_0 V c) t d
theorem before1_1 (c : Dev nD) (t : Fin cfg1.N) (d) : (dat1 V c).before 1 t d = iblk1 V c 1 t :=
  before1_1_of V (dat1 V c) (dat1_A V c 1) (dat1_after_1 V c) t d
theorem before1_2 (c : Dev nD) (t : Fin cfg1.N) (d) : (dat1 V c).before 2 t d = iblk1 V c 2 t :=
  before1_2_of V (dat1 V c) (dat1_A V c 2) (dat1_after_2 V c) t d
theorem before1_3 (c : Dev nD) (t : Fin cfg1.N) (d) : (dat1 V c).before 3 t d = iblk1 V c 3 t :=
  before1_3_of V (dat1 V c) (dat1_A V c 3) (dat1_after_3 V c) t d
theorem before1_4 (c : Dev nD) (t : Fin cfg1.N) (d) : (dat1 V c).before 4 t d = iblk1 V c 4 t :=
  before1_4_of V (dat1 V c) (dat1_A V c 4) (dat1_after_4 V c) t d
theorem before1_5 (c : Dev nD) (t : Fin cfg1.N) (d) : (dat1 V c).before 5 t d = iblk1 V c 5 t :=
  before1_5_of V (dat1 V c) (dat1_A V c 5) (dat1_after_5 V c) t d
theorem before1_6 (c : Dev nD) (t : Fin cfg1.N) (d) : (dat1 V c).before 6 t d = iblk1 V c 6 t :=
  before1_6_of V (dat1 V c) (dat1_A V c 6) (dat1_after_6 V c) t d
theorem before1_7 (c : Dev nD) (t : Fin cfg1.N) (d) : (dat1 V c).before 7 t d = iblk1 V c 7 t :=
  before1_7_of V (dat1 V c) (dat1_A V c 7) (dat1_after_7 V c) t d
theorem before1_8 (c : Dev nD) (t : Fin cfg1.N) (d) : (dat1 V c).before 8 t d = iblk1 V c 8 t :=
  before1_8_of V (dat1 V c) (dat1_A V c 8) (dat1_after_8 V c) t d
theorem before1_9 (c : Dev nD) (t : Fin cfg1.N) (d) : (dat1 V c).before 9 t d = iblk1 V c 9 t :=
  before1_9_of V (dat1 V c) (dat1_A V c 9) (dat1_after_9 V c) t d
theorem before1_10 (c : Dev nD) (t : Fin cfg1.N) (d) : (dat1 V c).before 10 t d = iblk1 V c 10 t :=
  before1_10_of V (dat1 V c) (dat1_A V c 10) (dat1_after_10 V c) t d

/-! ## The body at a point -/

/-- What one point makes of the first accumulator found at `a`: at column step 0 the step from the zero fill, at a
    later step the step from `a`. -/
def stepOf1 (k : ℕ) (a : Vec F S512x1024 .f32) (x : Vec F S512x1920 .bf16) (w : Vec F S1920x1024 .bf16) : Vec F S512x1024 .f32 :=
  if k = 0 then accReset1 x w else accStep1 a x w
/-- The same for the second accumulator. -/
def stepOf2 (k : ℕ) (a : Vec F S512x1024 .f32) (x : Vec F S512x1920 .bf16) (w : Vec F S1920x1024 .bf16) : Vec F S512x1024 .f32 :=
  if k = 0 then accReset2 x w else accStep2 a x w

/-- The inputs' current staging buffers at point `t`, each holding its window's block. -/
def insAt (c : Dev nD) (t : Fin cfg1.N) : sProp 𝕄 :=
  mlpIns c (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (featA V c t) (featB V c t) (concA V c t) (concB V c t) (wgt0 V c t) (wgt0c V c t) (bias0 V c t) (wgt1 V c t) (bias1 V c t) (wgt2 V c t) (bias2 V c t)

set_option maxHeartbeats 1000000 in
/-- The body at point `t`, the three cases of the column step in one statement: from the inputs at their blocks, the
    output's buffer at `d11` and the accumulators at `a1`, `a2`, it leaves the inputs as they were, each accumulator one step
    further, and the output's buffer at the rest of the network over the stepped accumulators if this is a last
    step, as it was otherwise. -/
theorem run_point (c : Dev nD) (t : Fin cfg1.N) (a1 a2 : Vec F S512x1024 .f32) (d11 : Vec F S512 .f32) (K : PUnit → sProp 𝕄) :
    iprop(insAt V c t ∗ owns (c : Thread nD τ) (win1_11.stage (cfg1.slots t 11)) fullShare d11 ∗ owns (c : Thread nD τ) (Memref.whole cc1_scratch0) fullShare a1 ∗ owns (c : Thread nD τ) (Memref.whole cc1_scratch1) fullShare a2
        ∗ (iprop(insAt V c t
            ∗ owns (c : Thread nD τ) (win1_11.stage (cfg1.slots t 11)) fullShare (if t.val % 10 = 9 then mlpOut (stepOf1 (t.val % 10) a1 (featA V c t) (wgt0 V c t)) (stepOf2 (t.val % 10) a2 (featB V c t) (wgt0 V c t)) (concA V c t) (concB V c t) (wgt0c V c t) (bias0 V c t) (wgt1 V c t) (bias1 V c t) (wgt2 V c t) (bias2 V c t) else d11)
            ∗ owns (c : Thread nD τ) (Memref.whole cc1_scratch0) fullShare (stepOf1 (t.val % 10) a1 (featA V c t) (wgt0 V c t)) ∗ owns (c : Thread nD τ) (Memref.whole cc1_scratch1) fullShare (stepOf2 (t.val % 10) a2 (featB V c t) (wgt0 V c t))) -∗ K ⟨⟩))
      ⊢ wp frame (wpE (defs₀ (F := F)) Variants.none c none) Set.univ (bodyAt1 t) K := by
  unfold bodyAt1 insAt
  have hk := step_eq t
  by_cases h0 : t.val % 10 = 0
  · have h9 : ¬ t.val % 10 = 9 := by omega
    simp only [stepOf1, stepOf2, if_pos h0, if_neg h9]
    iintro ⟨HI, H11, HS0, HS1, HK⟩
    iapply (mlp_run_first c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (win1_11.stage (cfg1.slots t 11)) (hstage1_11 ((cfg1.slots t 11).cast nbuf1_11)) (Memref.whole cc1_scratch0) (Memref.isWhole_whole _) (Memref.whole cc1_scratch1) (Memref.isWhole_whole _) (hk.trans h0) (featA V c t) (featB V c t) (concA V c t) (concB V c t) (wgt0 V c t) (wgt0c V c t) (bias0 V c t) (wgt1 V c t) (bias1 V c t) (wgt2 V c t) (bias2 V c t) d11 K)
    isplitl [HI]; · iexact HI
    isplitl [H11]; · iexact H11
    isplitl [HS0]; · iexists _; iexact HS0
    isplitl [HS1]; · iexists _; iexact HS1
    iexact HK
  · by_cases h9 : t.val % 10 = 9
    · simp only [stepOf1, stepOf2, if_neg h0, if_pos h9]
      iintro ⟨HI, H11, HS0, HS1, HK⟩
      iapply (mlp_run_last c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (win1_11.stage (cfg1.slots t 11)) (hstage1_11 ((cfg1.slots t 11).cast nbuf1_11)) (Memref.whole cc1_scratch0) (Memref.isWhole_whole _) (Memref.whole cc1_scratch1) (Memref.isWhole_whole _) (hk.trans h9) (featA V c t) (featB V c t) (concA V c t) (concB V c t) (wgt0 V c t) (wgt0c V c t) (bias0 V c t) (wgt1 V c t) (bias1 V c t) (wgt2 V c t) (bias2 V c t) a1 a2 K)
      isplitl [HI]; · iexact HI
      isplitl [H11]; · iexists _; iexact H11
      isplitl [HS0]; · iexact HS0
      isplitl [HS1]; · iexact HS1
      iexact HK
    · simp only [stepOf1, stepOf2, if_neg h0, if_neg h9]
      iintro ⟨HI, H11, HS0, HS1, HK⟩
      iapply (mlp_run_mid c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (win1_11.stage (cfg1.slots t 11)) (hstage1_11 ((cfg1.slots t 11).cast nbuf1_11)) (Memref.whole cc1_scratch0) (Memref.isWhole_whole _) (Memref.whole cc1_scratch1) (Memref.isWhole_whole _) (fun h => h0 (hk.symm.trans h)) (fun h => h9 (hk.symm.trans h)) (featA V c t) (featB V c t) (concA V c t) (concB V c t) (wgt0 V c t) (wgt0c V c t) (bias0 V c t) (wgt1 V c t) (bias1 V c t) (wgt2 V c t) (bias2 V c t) a1 a2 d11 K)
      isplitl [HI]; · iexact HI
      isplitl [H11]; · iexact H11
      isplitl [HS0]; · iexact HS0
      isplitl [HS1]; · iexact HS1
      iexact HK

/-- How the output window's buffer is handed back at point `t`, found at `before 11 t d`: at a last step the window is live and
    the buffer holds `outAt`; at any other step the window is idle and not written back, and the buffer is as found. -/
theorem leaves1_11 (c : Dev nD) (t : Fin cfg1.N) (d : (cfg1.win 11).block.Idx → Elt F (cfg1.win 11).elt) :
    owns (c : Thread nD τ) (st1_11 t) fullShare (if t.val % 10 = 9 then outAt V c t.val t.isLt else (dat1 V c).before 11 t d)
      ⊢ (dat1 V c).leavesExact 11 t := by
  have hk := step_eq t
  by_cases h9 : t.val % 10 = 9
  · have hlive : cfg1.idle 11 (cfg1.grid.coords t) = false := by
      show (!(k1_cond2 (grid1.coords t) == 1#1)) = false
      rw [Bool.not_eq_false', beq_iff_eq]
      exact (isLast_iff _).mpr (hk.trans h9)
    rw [if_pos h9]; unfold Dat.leavesExact; rw [hlive, dat1_after_11]
  · have hidle : cfg1.idle 11 (cfg1.grid.coords t) = true := by
      show (!(k1_cond2 (grid1.coords t) == 1#1)) = true
      rw [Bool.not_eq_true', beq_eq_false_iff_ne]
      exact fun h => h9 (hk.symm.trans ((isLast_iff _).mp h))
    have hnf : (cfg1.win 11).flush t = false := Bool.eq_false_iff.mpr fun h => h9 ((flush1_11 t).mp h)
    rw [if_neg h9, Dat.leavesExact_idle (dat1 V c) 11 t hidle hnf]
    iintro H; iexists d; iexact H

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d)))

/-- and what it returns: the inputs' buffers at their blocks, the output's as its window is left at the point. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ (dat1 V c).leavesExact 11 t)

set_option maxHeartbeats 1000000 in
/-- The body at any point. The inputs' buffers hold their blocks; the invariant hands over the accumulators at what
    the point before left (at anything before the first point); the body's run steps each accumulator, which is what
    the recursion says it holds after the point; the invariant and the core's dues pass through otherwise unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1
  simp only [before1_0 V c t, dat1_after_0 V c t, before1_1 V c t, dat1_after_1 V c t, before1_2 V c t, dat1_after_2 V c t, before1_3 V c t, dat1_after_3 V c t, before1_4 V c t, dat1_after_4 V c t, before1_5 V c t, dat1_after_5 V c t, before1_6 V c t, dat1_after_6 V c t, before1_7 V c t, dat1_after_7 V c t, before1_8 V c t, dat1_after_8 V c t, before1_9 V c t, dat1_after_9 V c t, before1_10 V c t, dat1_after_10 V c t]
  rw [show (dat1 V c).owesAt () t.succ = (dat1 V c).owesAt () t.castSucc from rfl,
    show (dat1 V c).Φ t.succ = Phi1 V c (t.val + 1) t.isLt from rfl, Phi1_succ, dat1_Phi_castSucc]
  refine (sep_mono_left (Phi1_open V c t.val (Nat.le_of_lt t.isLt))).trans ?_
  iintro ⟨⟨%a1, %a2, %ha, HΦ⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  have e1 : stepOf1 (t.val % 10) a1 (featA V c t) (wgt0 V c t) = acc1At V c t.val t.isLt := by
    unfold stepOf1
    by_cases h0 : t.val % 10 = 0
    · rw [if_pos h0, acc1At_first V c t h0]
    · rw [if_neg h0, acc1At_next V c t h0, (ha (by omega)).1]
  have e2 : stepOf2 (t.val % 10) a2 (featB V c t) (wgt0 V c t) = acc2At V c t.val t.isLt := by
    unfold stepOf2
    by_cases h0 : t.val % 10 = 0
    · rw [if_pos h0, acc2At_first V c t h0]
    · rw [if_neg h0, acc2At_next V c t h0, (ha (by omega)).2]
  unfold scoped1
  icases HΦ with ⟨⟨R1, R2, R3, R4, R5, R6, HS0, HS1⟩, Hg⟩
  iapply (run_point V c t a1 a2 ((dat1 V c).before 11 t d11) _)
  rw [e1, e2]
  isplitl [H0 H1 H2 H3 H4 H5 H6 H7 H8 H9 H10]
  · unfold insAt mlpIns
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  isplitl [H11]; · iexact H11
  isplitl [HS0]; · iexact HS0
  isplitl [HS1]; · iexact HS1
  iintro ⟨HI, H11, HS0, HS1⟩
  unfold insAt mlpIns
  icases HI with ⟨H0, H1, H2, H3, H4, H5, H6, H7, H8, H9, H10⟩
  isplitl [R1 R2 R3 R4 R5 R6 HS0 HS1 Hg]
  · isplitr [Hg]
    ·
      isplitl [R1]; · iexact R1
      isplitl [R2]; · iexact R2
      isplitl [R3]; · iexact R3
      isplitl [R4]; · iexact R4
      isplitl [R5]; · iexact R5
      isplitl [R6]; · iexact R6
      isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iapply (leaves1_11 V c t d11)
  iexact H11

/-- The body obligation of region 1 at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.WordLevel.Tables.lean ====
/-
  What the two prefetched index tables hold when the gather region is entered. The host slices column 0 (column 1)
  out of drug_pairs : i32[8192, 2] as an [8192, 1] array and reshapes it to [8192]; nothing afterwards writes
  those buffers before the region. So entry b of the first table is drug_pairs[b, 0] and entry b of the second is
  drug_pairs[b, 1], as the launch memory holds them. For any float instance: only integer words move.
-/
import proofs.«406060_j54142357733864_2_alg».proof.Proof.Gen.Kernel.Regions
import Idealize.ShloMosaic.Lib.StableHlo.Run
import Idealize.ShloMosaic.Lib.ValueIdx
import Idealize.ShloMosaic.Lib.Pipeline.Value

noncomputable section

namespace Cert.Kernel.Hand

open Idealize.ShloMosaic Idealize.ShloMosaic.TcCoe Idealize.SL.Sem Cert.Kernel Cert.Kernel.Gen ValueIdx

variable {F : FTy → Type} [FloatOps F]
variable (m : (ℓ : Loc nD τ sig) → Buf (Elt F) ℓ)

/-- The first table at the region's entry: entry `b` is `drug_pairs[b, 0]` of the launch memory. -/
theorem idx0_apply (c : Dev nD) (b : Fin 8192) :
    V2 m c (Proc.devRef .tc main_v1) (ix1 b) = m ((c : Thread nD τ).loc main_arg1) (ix2 b 0) := by
  rw [V2_of m c main_v1 (by decide)]
  have e : V1 m c (Proc.devRef .tc main_v1)
      = (shapeCast S8192 (extractStridedSlice S8192x1 ![0, 0] (m ((c : Thread nD τ).loc main_arg1)) slices_S8192x2_S8192x1_0_0)
          shapeCasts_S8192x1_S8192 : S8192.Idx → BitVec 32) := by
    dsimp only [V1, V0, hostOps0]; after_results; rfl
  rw [e]
  refine (shapeCast_apply _ _ (ix1 b) (ix2 b (0 : Fin 1)) ?_).trans ?_
  · rw [Shape.rowMajor_val_two, Shape.rowMajor_val_one]; show b.val * 1 + 0 = b.val; omega
  · exact extractStridedSlice_apply _ _ _ (ix2 b (0 : Fin 1)) (ix2 b (0 : Fin 2)) (fun a => by
      match a with
      | ⟨0, _⟩ => show b.val = 0 + b.val; omega
      | ⟨1, _⟩ => rfl)

/-- The second table at the region's entry: entry `b` is `drug_pairs[b, 1]` of the launch memory. -/
theorem idx1_apply (c : Dev nD) (b : Fin 8192) :
    V2 m c (Proc.devRef .tc main_v3) (ix1 b) = m ((c : Thread nD τ).loc main_arg1) (ix2 b 1) := by
  rw [V2_of m c main_v3 (by decide)]
  have e : V1 m c (Proc.devRef .tc main_v3)
      = (shapeCast S8192 (extractStridedSlice S8192x1 ![0, 1] (m ((c : Thread nD τ).loc main_arg1)) slices_S8192x2_S8192x1_0_1)
          shapeCasts_S8192x1_S8192 : S8192.Idx → BitVec 32) := by
    dsimp only [V1, V0, hostOps0]; after_results; rfl
  rw [e]
  refine (shapeCast_apply _ _ (ix1 b) (ix2 b (0 : Fin 1)) ?_).trans ?_
  · rw [Shape.rowMajor_val_two, Shape.rowMajor_val_one]; show b.val * 1 + 0 = b.val; omega
  · exact extractStridedSlice_apply _ _ _ (ix2 b (0 : Fin 1)) (ix2 b (1 : Fin 2)) (fun a => by
      match a with
      | ⟨0, _⟩ => show b.val = 0 + b.val; omega
      | ⟨1, _⟩ => rfl)

end Cert.Kernel.Hand

end
-- ==== Proof.WordLevel.Certify.lean ====
/-
  The two pipelines' proof data, instantiated at the program's own memory, meet the contracts the
  run of @main asks of them: the gather's data at the contents the first host operations leave
  (given the gather kernel's run and that every index word names a row of the table), the network's
  data at the contents the later host operations leave after the gather's write-backs. With them the
  run terminates with the arguments unchanged and the result buffer holding what the network's
  write-backs leave.
-/
import proofs.«406060_j54142357733864_2_alg».proof.Proof.WordLevel.FrameDefs
import proofs.«406060_j54142357733864_2_alg».proof.Proof.WordLevel.Frame
import proofs.«406060_j54142357733864_2_alg».proof.Proof.WordLevel.GatherDat
import proofs.«406060_j54142357733864_2_alg».proof.Proof.WordLevel.GatherGlue
import proofs.«406060_j54142357733864_2_alg».proof.Proof.WordLevel.MlpDat
import proofs.«406060_j54142357733864_2_alg».proof.Proof.WordLevel.Tables

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel.Gen

variable {F : FTy → Type} [FloatOps F]

local notation "𝕄" => MT nD τ sig Unit (Elt F) ℕ (Pipeline.UD sig nD τ) ℕ

section Certify

variable (m : (ℓ : Loc nD τ sig) → Buf (Elt F) ℓ) (ρ : Dev nD → PrngReg)

/-- The gather pipeline's proof data, at the contents the first host operations leave. -/
abbrev gdat (c : Dev nD) : Dat τ (Elt F) Unit ℕ (Pipeline.UD sig nD τ) ℕ (cfg0 (adm0 m)) c :=
  dat0 (adm0 m) (fun c b => V2 m c b) c

/-- The network pipeline's proof data, at the contents the later host operations leave once the gather
    has written its two outputs back. -/
abbrev mdat (c : Dev nD) : Dat τ (Elt F) Unit ℕ (Pipeline.UD sig nD τ) ℕ cfg1 c :=
  dat1 (fun c b => V6 m (outs0 m (gdat m)) c b) c

/-- Every word of the first index table, as the gather finds it, names a row of the table. -/
theorem tab0_lt (hidx : ∀ (c : Dev nD) (i : S8192x2.Idx), (m ((c : Thread nD τ).loc main_arg1) i : BitVec 32).toNat < 4200)
    (c : Dev nD) (x : S8192.Idx) : ((V2 m c main_v1 : Vec F S8192 .i32) x).toNat < 4200 := by
  have e : (V2 m c main_v1 : Vec F S8192 .i32) x = m ((c : Thread nD τ).loc main_arg1) (ValueIdx.ix2 (x 0) 0) :=
    (congrArg (V2 m c main_v1 : Vec F S8192 .i32) (ValueIdx.eq_ix1 x)).trans (idx0_apply m c (x 0))
  exact lt_of_eq_of_lt (congrArg BitVec.toNat e) (hidx c _)

/-- Every word of the second index table likewise. -/
theorem tab1_lt (hidx : ∀ (c : Dev nD) (i : S8192x2.Idx), (m ((c : Thread nD τ).loc main_arg1) i : BitVec 32).toNat < 4200)
    (c : Dev nD) (x : S8192.Idx) : ((V2 m c main_v3 : Vec F S8192 .i32) x).toNat < 4200 := by
  have e : (V2 m c main_v3 : Vec F S8192 .i32) x = m ((c : Thread nD τ).loc main_arg1) (ValueIdx.ix2 (x 0) 1) :=
    (congrArg (V2 m c main_v3 : Vec F S8192 .i32) (ValueIdx.eq_ix1 x)).trans (idx1_apply m c (x 0))
  exact lt_of_eq_of_lt (congrArg BitVec.toNat e) (hidx c _)

/-- The gather's proof data meet the run's contract, given the kernel's run on every core and index
    words that name rows. -/
theorem gatherKit (hex : ∀ c : Dev nD, GatherExec (F := F) c)
    (hidx : ∀ (c : Dev nD) (i : S8192x2.Idx), (m ((c : Thread nD τ).loc main_arg1) i : BitVec 32).toNat < 4200) :
    GatherKit (adm0 m) (fun c b => V2 m c b) osem0 (gdat m) where
  ho := ownSemFacts0
  hA c w := A_eq0 (adm0 m) (fun c b => V2 m c b) c w
  hshare c w := share_eq0 (adm0 m) (fun c b => V2 m c b) c w
  howed c t := rfl
  hrec c t := rfl
  hin c := by rw [Phi_eq0]; exact .rfl
  hout c := by rw [Phi_eq0]; exact .rfl
  hbody c := body_obligation0_loose (adm0 m) (fun c b => V2 m c b) c (fun k => tabs_eq m c k)
    (gatherRun_of_exec (fun c b => V2 m c b) c (hex c) (tab0_lt m hidx c) (tab1_lt m hidx c))

/-- The network's proof data meet the run's contract. -/
theorem mlpKit : MlpKit (fun c b => V6 m (outs0 m (gdat m)) c b) (mdat m) where
  hA c w := dat1_A _ c w
  hshare c w := by unfold Dat.share; split <;> rfl
  howed c t := rfl
  hrec c t := rfl
  hin c := dat1_Phi_in _ c
  hout c := dat1_Phi_out _ c
  hbody c := (body_obligation1 _ c).loose

/-- THE FRAME at the program's own proof data: @main terminates and every argument ends as launched. -/
theorem frame_main (hex : ∀ c : Dev nD, GatherExec (F := F) c)
    (hidx : ∀ (c : Dev nD) (i : S8192x2.Idx), (m ((c : Thread nD τ).loc main_arg1) i : BitVec 32).toNat < 4200) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame m ρ osem0 (gdat m) (mdat m) (gatherKit m hex hidx) (mlpKit m)

/-- THE RUN WITH THE RESULT at the program's own proof data: the result buffer ends holding what the
    network's write-backs leave, and every argument ends as launched. -/
theorem value_main (hex : ∀ c : Dev nD, GatherExec (F := F) c)
    (hidx : ∀ (c : Dev nD) (i : S8192x2.Idx), (m ((c : Thread nD τ).loc main_arg1) i : BitVec 32).toNat < 4200) :
    θ_run defs (onTc (τ := τ) (main (F := F))) ⟨m, fun _ => 0, ρ⟩ (fun r => ∀ c : Dev nD,
      r.2.mem ((c.tc : Thread nD τ).loc main_v17) = (mdat m c).arrAt 11 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  run_value m ρ osem0 (gdat m) (mdat m) (gatherKit m hex hidx) (mlpKit m)

end Certify

end Cert.Kernel.Hand

end
-- ==== Proof.GatherRows.lean ====
/- The row pieces of a 64-row scratch buffer. The row copies of the gather kernel each land in one row of
   a scratch buffer, seen through the squeezed slice of that row; so the run holds the buffer as its 64
   rows, each by its own elements. Here: a buffer held whole is its 64 rows; the 64 rows, each written
   whole with its own payload, are the buffer held whole at contents that read, at (k, j), payload k
   at j. -/
import proofs.«406060_j54142357733864_2_alg».proof.Proof.GatherGlue
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2)
open Cert.KernelIdeal.Gen

variable {F : FTy → Type} [FloatOps F]

local notation "𝕄" => MT nD τ sig Unit (Elt F) ℕ (Pipeline.UD sig nD τ) ℕ

/-! ## One row through its squeezed slice -/

/-- Row `k` of 64, all 19200 columns, lies within the 64 × 19200 shape. -/
theorem rowInb (k : Fin 64) : ∀ a, (![k.val, 0] : Fin 2 → ℕ) a + S1x19200.size a ≤ S64x19200.size a := by
  intro a
  match a with
  | ⟨0, _⟩ => show k.val + 1 ≤ 64; omega
  | ⟨1, _⟩ => show 0 + 19200 ≤ 19200; omega

/-- Row `k` of a 64 × 19200 memref as a memref of 19200 elements: the slice of that row, its leading
    axis of extent one dropped. -/
abbrev rowM {sp : Space} (M : Memref sig .tc sp S64x19200 .f32) (k : Fin 64) : Memref sig .tc sp S19200 .f32 :=
  (M.slice (Rect.unit ![k.val, 0] S1x19200.size (rowInb k)) (fun _ => rfl)).squeeze S19200 squeezes_S1x19200_S19200

/-- Element `y` of row `k` is the buffer's element under index (k, y). -/
theorem rowM_emb {sp : Space} (M : Memref sig .tc sp S64x19200 .f32) (k : Fin 64) (y : S19200.Idx) :
    (rowM M k).view.emb y = M.view.emb (ix2 k (y 0)) := by
  show M.view.emb ((Rect.unit (s := S64x19200) ![k.val, 0] S1x19200.size (rowInb k)).emb
    (Shape.reshapeEquiv squeezes_S1x19200_S19200.numel_eq y)) = M.view.emb (ix2 k (y 0))
  congr 1
  have hy : Shape.reshapeEquiv squeezes_S1x19200_S19200.numel_eq y = Fin.cons ⟨0, Nat.one_pos⟩ y :=
    Shape.reshapeEquiv_cons_one (n := 1) (d := ![19200]) _ y
  rw [hy]
  funext a
  apply Fin.ext
  match a with
  | ⟨0, _⟩ => show k.val + 1 * 0 = k.val; omega
  | ⟨1, _⟩ => show 0 + 1 * (y 0).val = (y 0).val; omega

/-- The rows' elements make up the buffer's. -/
theorem rowM_biUnion {sp : Space} (M : Memref sig .tc sp S64x19200 .f32) :
    Finset.univ.biUnion (fun k : Fin 64 => (rowM M k).view.set) = M.view.set := by
  ext i
  constructor
  · intro hi
    obtain ⟨k, -, hk⟩ := Finset.mem_biUnion.mp hi
    obtain ⟨y, -, rfl⟩ := Finset.mem_map.mp hk
    rw [rowM_emb]; exact M.view.emb_mem_set _
  · intro hi
    obtain ⟨x, -, rfl⟩ := Finset.mem_map.mp hi
    refine Finset.mem_biUnion.mpr ⟨x 0, Finset.mem_univ _, ?_⟩
    have hx : M.view.emb x = (rowM M (x 0)).view.emb (ix1 (x 1)) :=
      (congrArg M.view.emb (ValueIdx.eq_ix2 x)).trans (rowM_emb M (x 0) (ix1 (x 1))).symm
    rw [hx]; exact (rowM M (x 0)).view.emb_mem_set _

/-- Two different rows share no element. -/
theorem rowM_disjoint {sp : Space} (M : Memref sig .tc sp S64x19200 .f32) {k k' : Fin 64} (h : k ≠ k') :
    Disjoint (rowM M k).view.set (rowM M k').view.set := by
  rw [Finset.disjoint_left]
  intro i hi hi'
  obtain ⟨y, -, rfl⟩ := Finset.mem_map.mp hi
  obtain ⟨y', -, e⟩ := Finset.mem_map.mp hi'
  rw [rowM_emb, rowM_emb] at e
  have e' := M.view.emb.injective e
  exact h (congrFun e' 0).symm

/-! ## The buffer as its rows -/

/-- The rows' numbers, in order. -/
def rowNums : List (Fin 64) := [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63]

/-- A memref's elements held at a share are its 64 rows held at that share, at the same contents. -/
theorem rows_eq (c : Dev nD) {sp : Space} (M : Memref sig .tc sp S64x19200 .f32) (q : PosShare TreeShare)
    (f : Buf (Elt F) (M.view.loc (c : Thread nD τ))) :
    (M.view.loc (c : Thread nD τ) ↦[M.view.set]{q} f : sProp 𝕄)
      = bigSepL rowNums (fun k => (M.view.loc (c : Thread nD τ) ↦[(rowM M k).view.set]{q} f : sProp 𝕄)) := by
  rw [← rowM_biUnion M, pointsTo_biUnion Finset.univ _ (fun k _ k' _ h => rowM_disjoint M h)]
  exact bigSep_univ_eq_bigSepL rowNums (by decide) (by decide) _

/-- The contents that hold, on row `k`, the payload `P k`: the payloads written whole over `f`. -/
def joinRows {sp : Space} (M : Memref sig .tc sp S64x19200 .f32) (f : M.view.ty.Contents (Elt F))
    (P : Fin 64 → S19200.Idx → Elt F .f32) : M.view.ty.Contents (Elt F) :=
  M.view.write (Elt F) f (fun x => P (x 0) (ix1 (x 1))) Finset.univ

/-- They read, at (k, j), payload `k` at `j`. -/
theorem read_joinRows {sp : Space} (M : Memref sig .tc sp S64x19200 .f32) (f : M.view.ty.Contents (Elt F))
    (P : Fin 64 → S19200.Idx → Elt F .f32) (x : S64x19200.Idx) :
    M.view.read (Elt F) (joinRows M f P) x = P (x 0) (ix1 (x 1)) := by
  unfold joinRows; rw [View.read_write_univ]

/-- On row `k`, the row written whole with `P k` and the joined contents agree. -/
theorem joinRows_on_row {sp : Space} (M : Memref sig .tc sp S64x19200 .f32) (f : M.view.ty.Contents (Elt F))
    (P : Fin 64 → S19200.Idx → Elt F .f32) (k : Fin 64) (i : M.view.ty.Idx) (hi : i ∈ (rowM M k).view.set) :
    (rowM M k).view.writes (Elt F) f [⟨Rect.whole S19200, P k⟩] i = joinRows M f P i := by
  obtain ⟨y, -, rfl⟩ := Finset.mem_map.mp hi
  have e : (rowM M k).view.emb y = ((rowM M k).view.slice (Rect.whole S19200)).emb y := by simp
  have h1 : (rowM M k).view.writes (Elt F) f [⟨Rect.whole S19200, P k⟩] ((rowM M k).view.emb y)
      = _root_.cast (congrArg (Elt F) ((rowM M k).view.slice (Rect.whole S19200)).elt_eq.symm) (P k y) := by
    rw [View.writes_singleton]
    conv_lhs => rw [e]
    exact View.write_emb_of_mem _ _ (Finset.mem_univ y)
  have h2 : joinRows M f P ((rowM M k).view.emb y)
      = _root_.cast (congrArg (Elt F) M.view.elt_eq.symm) (P k (ix1 (y 0))) := by
    rw [rowM_emb]; unfold joinRows
    exact View.write_emb_of_mem _ _ (Finset.mem_univ _)
  rw [h1, h2]
  exact congrArg (fun z => _root_.cast (congrArg (Elt F) M.view.elt_eq.symm) (P k z)) (ValueIdx.eq_ix1 y)

/-- The 64 rows, each held by its own elements and written whole with its payload, are the buffer held
    whole at the joined contents. -/
theorem rows_join_list (c : Dev nD) {sp : Space} (M : Memref sig .tc sp S64x19200 .f32)
    (f : Buf (Elt F) (M.view.loc (c : Thread nD τ))) (P : Fin 64 → S19200.Idx → Elt F .f32) :
    bigSepL rowNums (fun k => (M.view.loc (c : Thread nD τ) ↦[(rowM M k).view.set]{fullShare}
        (rowM M k).view.writes (Elt F) f [⟨Rect.whole S19200, P k⟩] : sProp 𝕄))
      ⊢ (M.view.loc (c : Thread nD τ) ↦[M.view.set]{fullShare} joinRows M f P : sProp 𝕄) := by
  rw [← bigSep_univ_eq_bigSepL rowNums (by decide) (by decide)]
  have hj := pointsTo_biUnion_join (Ix := Unit) (Name := ℕ) (U := Pipeline.UD sig nD τ) (Lvl := ℕ) (Val := Elt F)
    (ℓ := M.view.loc (c : Thread nD τ)) (q := fullShare) Finset.univ (fun k : Fin 64 => (rowM M k).view.set)
    (fun k => (rowM M k).view.writes (Elt F) f [⟨Rect.whole S19200, P k⟩]) f (fun k _ k' _ h => rowM_disjoint M h)
  refine BIBase.Entails.trans hj ?_
  iintro ⟨%g, %hg, H⟩
  have hc : ∀ i ∈ Finset.univ.biUnion (fun k : Fin 64 => (rowM M k).view.set), g i = joinRows M f P i := fun i hi => by
    obtain ⟨k, -, hk⟩ := Finset.mem_biUnion.mp hi
    rw [hg k (Finset.mem_univ k) i hk]
    exact joinRows_on_row M f P k i hk
  rw [← rowM_biUnion M, ← pointsTo_congr hc]
  iexact H

/-! ## The same over the rows one by one, each through its own slice -/

/-- Row `k` through the slice at offsets (k, 0), with the in-bounds evidence at hand. -/
abbrev rowA {sp : Space} (M : Memref sig .tc sp S64x19200 .f32) (k : ℕ)
    (hk : ∀ a, (![k, 0] : Fin 2 → ℕ) a + S1x19200.size a ≤ S64x19200.size a) : Memref sig .tc sp S19200 .f32 :=
  (M.slice (Rect.unit ![k, 0] S1x19200.size hk) (fun _ => rfl)).squeeze S19200 squeezes_S1x19200_S19200

/-- A buffer held whole is its 64 rows, each by its own elements, one after the other. -/
theorem rows_split (c : Dev nD) {sp : Space} (M : Memref sig .tc sp S64x19200 .f32)
    (f : Buf (Elt F) (M.view.loc (c : Thread nD τ))) :
    (M.view.loc (c : Thread nD τ) ↦[M.view.set]{fullShare} f : sProp 𝕄)
      ⊢ iprop(((rowA M 0 inb_S64x19200_S1x19200_0_0).view.loc (c : Thread nD τ) ↦[(rowA M 0 inb_S64x19200_S1x19200_0_0).view.set]{fullShare} f)
        ∗ ((rowA M 1 inb_S64x19200_S1x19200_1_0).view.loc (c : Thread nD τ) ↦[(rowA M 1 inb_S64x19200_S1x19200_1_0).view.set]{fullShare} f)
        ∗ ((rowA M 2 inb_S64x19200_S1x19200_2_0).view.loc (c : Thread nD τ) ↦[(rowA M 2 inb_S64x19200_S1x19200_2_0).view.set]{fullShare} f)
        ∗ ((rowA M 3 inb_S64x19200_S1x19200_3_0).view.loc (c : Thread nD τ) ↦[(rowA M 3 inb_S64x19200_S1x19200_3_0).view.set]{fullShare} f)
        ∗ ((rowA M 4 inb_S64x19200_S1x19200_4_0).view.loc (c : Thread nD τ) ↦[(rowA M 4 inb_S64x19200_S1x19200_4_0).view.set]{fullShare} f)
        ∗ ((rowA M 5 inb_S64x19200_S1x19200_5_0).view.loc (c : Thread nD τ) ↦[(rowA M 5 inb_S64x19200_S1x19200_5_0).view.set]{fullShare} f)
        ∗ ((rowA M 6 inb_S64x19200_S1x19200_6_0).view.loc (c : Thread nD τ) ↦[(rowA M 6 inb_S64x19200_S1x19200_6_0).view.set]{fullShare} f)
        ∗ ((rowA M 7 inb_S64x19200_S1x19200_7_0).view.loc (c : Thread nD τ) ↦[(rowA M 7 inb_S64x19200_S1x19200_7_0).view.set]{fullShare} f)
        ∗ ((rowA M 8 inb_S64x19200_S1x19200_8_0).view.loc (c : Thread nD τ) ↦[(rowA M 8 inb_S64x19200_S1x19200_8_0).view.set]{fullShare} f)
        ∗ ((rowA M 9 inb_S64x19200_S1x19200_9_0).view.loc (c : Thread nD τ) ↦[(rowA M 9 inb_S64x19200_S1x19200_9_0).view.set]{fullShare} f)
        ∗ ((rowA M 10 inb_S64x19200_S1x19200_10_0).view.loc (c : Thread nD τ) ↦[(rowA M 10 inb_S64x19200_S1x19200_10_0).view.set]{fullShare} f)
        ∗ ((rowA M 11 inb_S64x19200_S1x19200_11_0).view.loc (c : Thread nD τ) ↦[(rowA M 11 inb_S64x19200_S1x19200_11_0).view.set]{fullShare} f)
        ∗ ((rowA M 12 inb_S64x19200_S1x19200_12_0).view.loc (c : Thread nD τ) ↦[(rowA M 12 inb_S64x19200_S1x19200_12_0).view.set]{fullShare} f)
        ∗ ((rowA M 13 inb_S64x19200_S1x19200_13_0).view.loc (c : Thread nD τ) ↦[(rowA M 13 inb_S64x19200_S1x19200_13_0).view.set]{fullShare} f)
        ∗ ((rowA M 14 inb_S64x19200_S1x19200_14_0).view.loc (c : Thread nD τ) ↦[(rowA M 14 inb_S64x19200_S1x19200_14_0).view.set]{fullShare} f)
        ∗ ((rowA M 15 inb_S64x19200_S1x19200_15_0).view.loc (c : Thread nD τ) ↦[(rowA M 15 inb_S64x19200_S1x19200_15_0).view.set]{fullShare} f)
        ∗ ((rowA M 16 inb_S64x19200_S1x19200_16_0).view.loc (c : Thread nD τ) ↦[(rowA M 16 inb_S64x19200_S1x19200_16_0).view.set]{fullShare} f)
        ∗ ((rowA M 17 inb_S64x19200_S1x19200_17_0).view.loc (c : Thread nD τ) ↦[(rowA M 17 inb_S64x19200_S1x19200_17_0).view.set]{fullShare} f)
        ∗ ((rowA M 18 inb_S64x19200_S1x19200_18_0).view.loc (c : Thread nD τ) ↦[(rowA M 18 inb_S64x19200_S1x19200_18_0).view.set]{fullShare} f)
        ∗ ((rowA M 19 inb_S64x19200_S1x19200_19_0).view.loc (c : Thread nD τ) ↦[(rowA M 19 inb_S64x19200_S1x19200_19_0).view.set]{fullShare} f)
        ∗ ((rowA M 20 inb_S64x19200_S1x19200_20_0).view.loc (c : Thread nD τ) ↦[(rowA M 20 inb_S64x19200_S1x19200_20_0).view.set]{fullShare} f)
        ∗ ((rowA M 21 inb_S64x19200_S1x19200_21_0).view.loc (c : Thread nD τ) ↦[(rowA M 21 inb_S64x19200_S1x19200_21_0).view.set]{fullShare} f)
        ∗ ((rowA M 22 inb_S64x19200_S1x19200_22_0).view.loc (c : Thread nD τ) ↦[(rowA M 22 inb_S64x19200_S1x19200_22_0).view.set]{fullShare} f)
        ∗ ((rowA M 23 inb_S64x19200_S1x19200_23_0).view.loc (c : Thread nD τ) ↦[(rowA M 23 inb_S64x19200_S1x19200_23_0).view.set]{fullShare} f)
        ∗ ((rowA M 24 inb_S64x19200_S1x19200_24_0).view.loc (c : Thread nD τ) ↦[(rowA M 24 inb_S64x19200_S1x19200_24_0).view.set]{fullShare} f)
        ∗ ((rowA M 25 inb_S64x19200_S1x19200_25_0).view.loc (c : Thread nD τ) ↦[(rowA M 25 inb_S64x19200_S1x19200_25_0).view.set]{fullShare} f)
        ∗ ((rowA M 26 inb_S64x19200_S1x19200_26_0).view.loc (c : Thread nD τ) ↦[(rowA M 26 inb_S64x19200_S1x19200_26_0).view.set]{fullShare} f)
        ∗ ((rowA M 27 inb_S64x19200_S1x19200_27_0).view.loc (c : Thread nD τ) ↦[(rowA M 27 inb_S64x19200_S1x19200_27_0).view.set]{fullShare} f)
        ∗ ((rowA M 28 inb_S64x19200_S1x19200_28_0).view.loc (c : Thread nD τ) ↦[(rowA M 28 inb_S64x19200_S1x19200_28_0).view.set]{fullShare} f)
        ∗ ((rowA M 29 inb_S64x19200_S1x19200_29_0).view.loc (c : Thread nD τ) ↦[(rowA M 29 inb_S64x19200_S1x19200_29_0).view.set]{fullShare} f)
        ∗ ((rowA M 30 inb_S64x19200_S1x19200_30_0).view.loc (c : Thread nD τ) ↦[(rowA M 30 inb_S64x19200_S1x19200_30_0).view.set]{fullShare} f)
        ∗ ((rowA M 31 inb_S64x19200_S1x19200_31_0).view.loc (c : Thread nD τ) ↦[(rowA M 31 inb_S64x19200_S1x19200_31_0).view.set]{fullShare} f)
        ∗ ((rowA M 32 inb_S64x19200_S1x19200_32_0).view.loc (c : Thread nD τ) ↦[(rowA M 32 inb_S64x19200_S1x19200_32_0).view.set]{fullShare} f)
        ∗ ((rowA M 33 inb_S64x19200_S1x19200_33_0).view.loc (c : Thread nD τ) ↦[(rowA M 33 inb_S64x19200_S1x19200_33_0).view.set]{fullShare} f)
        ∗ ((rowA M 34 inb_S64x19200_S1x19200_34_0).view.loc (c : Thread nD τ) ↦[(rowA M 34 inb_S64x19200_S1x19200_34_0).view.set]{fullShare} f)
        ∗ ((rowA M 35 inb_S64x19200_S1x19200_35_0).view.loc (c : Thread nD τ) ↦[(rowA M 35 inb_S64x19200_S1x19200_35_0).view.set]{fullShare} f)
        ∗ ((rowA M 36 inb_S64x19200_S1x19200_36_0).view.loc (c : Thread nD τ) ↦[(rowA M 36 inb_S64x19200_S1x19200_36_0).view.set]{fullShare} f)
        ∗ ((rowA M 37 inb_S64x19200_S1x19200_37_0).view.loc (c : Thread nD τ) ↦[(rowA M 37 inb_S64x19200_S1x19200_37_0).view.set]{fullShare} f)
        ∗ ((rowA M 38 inb_S64x19200_S1x19200_38_0).view.loc (c : Thread nD τ) ↦[(rowA M 38 inb_S64x19200_S1x19200_38_0).view.set]{fullShare} f)
        ∗ ((rowA M 39 inb_S64x19200_S1x19200_39_0).view.loc (c : Thread nD τ) ↦[(rowA M 39 inb_S64x19200_S1x19200_39_0).view.set]{fullShare} f)
        ∗ ((rowA M 40 inb_S64x19200_S1x19200_40_0).view.loc (c : Thread nD τ) ↦[(rowA M 40 inb_S64x19200_S1x19200_40_0).view.set]{fullShare} f)
        ∗ ((rowA M 41 inb_S64x19200_S1x19200_41_0).view.loc (c : Thread nD τ) ↦[(rowA M 41 inb_S64x19200_S1x19200_41_0).view.set]{fullShare} f)
        ∗ ((rowA M 42 inb_S64x19200_S1x19200_42_0).view.loc (c : Thread nD τ) ↦[(rowA M 42 inb_S64x19200_S1x19200_42_0).view.set]{fullShare} f)
        ∗ ((rowA M 43 inb_S64x19200_S1x19200_43_0).view.loc (c : Thread nD τ) ↦[(rowA M 43 inb_S64x19200_S1x19200_43_0).view.set]{fullShare} f)
        ∗ ((rowA M 44 inb_S64x19200_S1x19200_44_0).view.loc (c : Thread nD τ) ↦[(rowA M 44 inb_S64x19200_S1x19200_44_0).view.set]{fullShare} f)
        ∗ ((rowA M 45 inb_S64x19200_S1x19200_45_0).view.loc (c : Thread nD τ) ↦[(rowA M 45 inb_S64x19200_S1x19200_45_0).view.set]{fullShare} f)
        ∗ ((rowA M 46 inb_S64x19200_S1x19200_46_0).view.loc (c : Thread nD τ) ↦[(rowA M 46 inb_S64x19200_S1x19200_46_0).view.set]{fullShare} f)
        ∗ ((rowA M 47 inb_S64x19200_S1x19200_47_0).view.loc (c : Thread nD τ) ↦[(rowA M 47 inb_S64x19200_S1x19200_47_0).view.set]{fullShare} f)
        ∗ ((rowA M 48 inb_S64x19200_S1x19200_48_0).view.loc (c : Thread nD τ) ↦[(rowA M 48 inb_S64x19200_S1x19200_48_0).view.set]{fullShare} f)
        ∗ ((rowA M 49 inb_S64x19200_S1x19200_49_0).view.loc (c : Thread nD τ) ↦[(rowA M 49 inb_S64x19200_S1x19200_49_0).view.set]{fullShare} f)
        ∗ ((rowA M 50 inb_S64x19200_S1x19200_50_0).view.loc (c : Thread nD τ) ↦[(rowA M 50 inb_S64x19200_S1x19200_50_0).view.set]{fullShare} f)
        ∗ ((rowA M 51 inb_S64x19200_S1x19200_51_0).view.loc (c : Thread nD τ) ↦[(rowA M 51 inb_S64x19200_S1x19200_51_0).view.set]{fullShare} f)
        ∗ ((rowA M 52 inb_S64x19200_S1x19200_52_0).view.loc (c : Thread nD τ) ↦[(rowA M 52 inb_S64x19200_S1x19200_52_0).view.set]{fullShare} f)
        ∗ ((rowA M 53 inb_S64x19200_S1x19200_53_0).view.loc (c : Thread nD τ) ↦[(rowA M 53 inb_S64x19200_S1x19200_53_0).view.set]{fullShare} f)
        ∗ ((rowA M 54 inb_S64x19200_S1x19200_54_0).view.loc (c : Thread nD τ) ↦[(rowA M 54 inb_S64x19200_S1x19200_54_0).view.set]{fullShare} f)
        ∗ ((rowA M 55 inb_S64x19200_S1x19200_55_0).view.loc (c : Thread nD τ) ↦[(rowA M 55 inb_S64x19200_S1x19200_55_0).view.set]{fullShare} f)
        ∗ ((rowA M 56 inb_S64x19200_S1x19200_56_0).view.loc (c : Thread nD τ) ↦[(rowA M 56 inb_S64x19200_S1x19200_56_0).view.set]{fullShare} f)
        ∗ ((rowA M 57 inb_S64x19200_S1x19200_57_0).view.loc (c : Thread nD τ) ↦[(rowA M 57 inb_S64x19200_S1x19200_57_0).view.set]{fullShare} f)
        ∗ ((rowA M 58 inb_S64x19200_S1x19200_58_0).view.loc (c : Thread nD τ) ↦[(rowA M 58 inb_S64x19200_S1x19200_58_0).view.set]{fullShare} f)
        ∗ ((rowA M 59 inb_S64x19200_S1x19200_59_0).view.loc (c : Thread nD τ) ↦[(rowA M 59 inb_S64x19200_S1x19200_59_0).view.set]{fullShare} f)
        ∗ ((rowA M 60 inb_S64x19200_S1x19200_60_0).view.loc (c : Thread nD τ) ↦[(rowA M 60 inb_S64x19200_S1x19200_60_0).view.set]{fullShare} f)
        ∗ ((rowA M 61 inb_S64x19200_S1x19200_61_0).view.loc (c : Thread nD τ) ↦[(rowA M 61 inb_S64x19200_S1x19200_61_0).view.set]{fullShare} f)
        ∗ ((rowA M 62 inb_S64x19200_S1x19200_62_0).view.loc (c : Thread nD τ) ↦[(rowA M 62 inb_S64x19200_S1x19200_62_0).view.set]{fullShare} f)
        ∗ ((rowA M 63 inb_S64x19200_S1x19200_63_0).view.loc (c : Thread nD τ) ↦[(rowA M 63 inb_S64x19200_S1x19200_63_0).view.set]{fullShare} f)) := by
  rw [rows_eq c M fullShare f]
  exact BIBase.Entails.of_eq rfl

-- sixty-four pieces, each unfolded through its slice and its dropped axis, against the listed product
set_option maxHeartbeats 1000000 in
/-- The 64 rows one after the other, row `k` written whole with `P k`, are the buffer held whole at
    the joined contents. -/
theorem rows_join (c : Dev nD) {sp : Space} (M : Memref sig .tc sp S64x19200 .f32)
    (f : Buf (Elt F) (M.view.loc (c : Thread nD τ))) (P : Fin 64 → S19200.Idx → Elt F .f32) :
    iprop(((rowA M 0 inb_S64x19200_S1x19200_0_0).view.loc (c : Thread nD τ) ↦[(rowA M 0 inb_S64x19200_S1x19200_0_0).view.set]{fullShare} (rowA M 0 inb_S64x19200_S1x19200_0_0).view.writes (Elt F) f [⟨Rect.whole S19200, P 0⟩])
        ∗ ((rowA M 1 inb_S64x19200_S1x19200_1_0).view.loc (c : Thread nD τ) ↦[(rowA M 1 inb_S64x19200_S1x19200_1_0).view.set]{fullShare} (rowA M 1 inb_S64x19200_S1x19200_1_0).view.writes (Elt F) f [⟨Rect.whole S19200, P 1⟩])
        ∗ ((rowA M 2 inb_S64x19200_S1x19200_2_0).view.loc (c : Thread nD τ) ↦[(rowA M 2 inb_S64x19200_S1x19200_2_0).view.set]{fullShare} (rowA M 2 inb_S64x19200_S1x19200_2_0).view.writes (Elt F) f [⟨Rect.whole S19200, P 2⟩])
        ∗ ((rowA M 3 inb_S64x19200_S1x19200_3_0).view.loc (c : Thread nD τ) ↦[(rowA M 3 inb_S64x19200_S1x19200_3_0).view.set]{fullShare} (rowA M 3 inb_S64x19200_S1x19200_3_0).view.writes (Elt F) f [⟨Rect.whole S19200, P 3⟩])
        ∗ ((rowA M 4 inb_S64x19200_S1x19200_4_0).view.loc (c : Thread nD τ) ↦[(rowA M 4 inb_S64x19200_S1x19200_4_0).view.set]{fullShare} (rowA M 4 inb_S64x19200_S1x19200_4_0).view.writes (Elt F) f [⟨Rect.whole S19200, P 4⟩])
        ∗ ((rowA M 5 inb_S64x19200_S1x19200_5_0).view.loc (c : Thread nD τ) ↦[(rowA M 5 inb_S64x19200_S1x19200_5_0).view.set]{fullShare} (rowA M 5 inb_S64x19200_S1x19200_5_0).view.writes (Elt F) f [⟨Rect.whole S19200, P 5⟩])
        ∗ ((rowA M 6 inb_S64x19200_S1x19200_6_0).view.loc (c : Thread nD τ) ↦[(rowA M 6 inb_S64x19200_S1x19200_6_0).view.set]{fullShare} (rowA M 6 inb_S64x19200_S1x19200_6_0).view.writes (Elt F) f [⟨Rect.whole S19200, P 6⟩])
        ∗ ((rowA M 7 inb_S64x19200_S1x19200_7_0).view.loc (c : Thread nD τ) ↦[(rowA M 7 inb_S64x19200_S1x19200_7_0).view.set]{fullShare} (rowA M 7 inb_S64x19200_S1x19200_7_0).view.writes (Elt F) f [⟨Rect.whole S19200, P 7⟩])
        ∗ ((rowA M 8 inb_S64x19200_S1x19200_8_0).view.loc (c : Thread nD τ) ↦[(rowA M 8 inb_S64x19200_S1x19200_8_0).view.set]{fullShare} (rowA M 8 inb_S64x19200_S1x19200_8_0).view.writes (Elt F) f [⟨Rect.whole S19200, P 8⟩])
        ∗ ((rowA M 9 inb_S64x19200_S1x19200_9_0).view.loc (c : Thread nD τ) ↦[(rowA M 9 inb_S64x19200_S1x19200_9_0).view.set]{fullShare} (rowA M 9 inb_S64x19200_S1x19200_9_0).view.writes (Elt F) f [⟨Rect.whole S19200, P 9⟩])
        ∗ ((rowA M 10 inb_S64x19200_S1x19200_10_0).view.loc (c : Thread nD τ) ↦[(rowA M 10 inb_S64x19200_S1x19200_10_0).view.set]{fullShare} (rowA M 10 inb_S64x19200_S1x19200_10_0).view.writes (Elt F) f [⟨Rect.whole S19200, P 10⟩])
        ∗ ((rowA M 11 inb_S64x19200_S1x19200_11_0).view.loc (c : Thread nD τ) ↦[(rowA M 11 inb_S64x19200_S1x19200_11_0).view.set]{fullShare} (rowA M 11 inb_S64x19200_S1x19200_11_0).view.writes (Elt F) f [⟨Rect.whole S19200, P 11⟩])
        ∗ ((rowA M 12 inb_S64x19200_S1x19200_12_0).view.loc (c : Thread nD τ) ↦[(rowA M 12 inb_S64x19200_S1x19200_12_0).view.set]{fullShare} (rowA M 12 inb_S64x19200_S1x19200_12_0).view.writes (Elt F) f [⟨Rect.whole S19200, P 12⟩])
        ∗ ((rowA M 13 inb_S64x19200_S1x19200_13_0).view.loc (c : Thread nD τ) ↦[(rowA M 13 inb_S64x19200_S1x19200_13_0).view.set]{fullShare} (rowA M 13 inb_S64x19200_S1x19200_13_0).view.writes (Elt F) f [⟨Rect.whole S19200, P 13⟩])
        ∗ ((rowA M 14 inb_S64x19200_S1x19200_14_0).view.loc (c : Thread nD τ) ↦[(rowA M 14 inb_S64x19200_S1x19200_14_0).view.set]{fullShare} (rowA M 14 inb_S64x19200_S1x19200_14_0).view.writes (Elt F) f [⟨Rect.whole S19200, P 14⟩])
        ∗ ((rowA M 15 inb_S64x19200_S1x19200_15_0).view.loc (c : Thread nD τ) ↦[(rowA M 15 inb_S64x19200_S1x19200_15_0).view.set]{fullShare} (rowA M 15 inb_S64x19200_S1x19200_15_0).view.writes (Elt F) f [⟨Rect.whole S19200, P 15⟩])
        ∗ ((rowA M 16 inb_S64x19200_S1x19200_16_0).view.loc (c : Thread nD τ) ↦[(rowA M 16 inb_S64x19200_S1x19200_16_0).view.set]{fullShare} (rowA M 16 inb_S64x19200_S1x19200_16_0).view.writes (Elt F) f [⟨Rect.whole S19200, P 16⟩])
        ∗ ((rowA M 17 inb_S64x19200_S1x19200_17_0).view.loc (c : Thread nD τ) ↦[(rowA M 17 inb_S64x19200_S1x19200_17_0).view.set]{fullShare} (rowA M 17 inb_S64x19200_S1x19200_17_0).view.writes (Elt F) f [⟨Rect.whole S19200, P 17⟩])
        ∗ ((rowA M 18 inb_S64x19200_S1x19200_18_0).view.loc (c : Thread nD τ) ↦[(rowA M 18 inb_S64x19200_S1x19200_18_0).view.set]{fullShare} (rowA M 18 inb_S64x19200_S1x19200_18_0).view.writes (Elt F) f [⟨Rect.whole S19200, P 18⟩])
        ∗ ((rowA M 19 inb_S64x19200_S1x19200_19_0).view.loc (c : Thread nD τ) ↦[(rowA M 19 inb_S64x19200_S1x19200_19_0).view.set]{fullShare} (rowA M 19 inb_S64x19200_S1x19200_19_0).view.writes (Elt F) f [⟨Rect.whole S19200, P 19⟩])
        ∗ ((rowA M 20 inb_S64x19200_S1x19200_20_0).view.loc (c : Thread nD τ) ↦[(rowA M 20 inb_S64x19200_S1x19200_20_0).view.set]{fullShare} (rowA M 20 inb_S64x19200_S1x19200_20_0).view.writes (Elt F) f [⟨Rect.whole S19200, P 20⟩])
        ∗ ((rowA M 21 inb_S64x19200_S1x19200_21_0).view.loc (c : Thread nD τ) ↦[(rowA M 21 inb_S64x19200_S1x19200_21_0).view.set]{fullShare} (rowA M 21 inb_S64x19200_S1x19200_21_0).view.writes (Elt F) f [⟨Rect.whole S19200, P 21⟩])
        ∗ ((rowA M 22 inb_S64x19200_S1x19200_22_0).view.loc (c : Thread nD τ) ↦[(rowA M 22 inb_S64x19200_S1x19200_22_0).view.set]{fullShare} (rowA M 22 inb_S64x19200_S1x19200_22_0).view.writes (Elt F) f [⟨Rect.whole S19200, P 22⟩])
        ∗ ((rowA M 23 inb_S64x19200_S1x19200_23_0).view.loc (c : Thread nD τ) ↦[(rowA M 23 inb_S64x19200_S1x19200_23_0).view.set]{fullShare} (rowA M 23 inb_S64x19200_S1x19200_23_0).view.writes (Elt F) f [⟨Rect.whole S19200, P 23⟩])
        ∗ ((rowA M 24 inb_S64x19200_S1x19200_24_0).view.loc (c : Thread nD τ) ↦[(rowA M 24 inb_S64x19200_S1x19200_24_0).view.set]{fullShare} (rowA M 24 inb_S64x19200_S1x19200_24_0).view.writes (Elt F) f [⟨Rect.whole S19200, P 24⟩])
        ∗ ((rowA M 25 inb_S64x19200_S1x19200_25_0).view.loc (c : Thread nD τ) ↦[(rowA M 25 inb_S64x19200_S1x19200_25_0).view.set]{fullShare} (rowA M 25 inb_S64x19200_S1x19200_25_0).view.writes (Elt F) f [⟨Rect.whole S19200, P 25⟩])
        ∗ ((rowA M 26 inb_S64x19200_S1x19200_26_0).view.loc (c : Thread nD τ) ↦[(rowA M 26 inb_S64x19200_S1x19200_26_0).view.set]{fullShare} (rowA M 26 inb_S64x19200_S1x19200_26_0).view.writes (Elt F) f [⟨Rect.whole S19200, P 26⟩])
        ∗ ((rowA M 27 inb_S64x19200_S1x19200_27_0).view.loc (c : Thread nD τ) ↦[(rowA M 27 inb_S64x19200_S1x19200_27_0).view.set]{fullShare} (rowA M 27 inb_S64x19200_S1x19200_27_0).view.writes (Elt F) f [⟨Rect.whole S19200, P 27⟩])
        ∗ ((rowA M 28 inb_S64x19200_S1x19200_28_0).view.loc (c : Thread nD τ) ↦[(rowA M 28 inb_S64x19200_S1x19200_28_0).view.set]{fullShare} (rowA M 28 inb_S64x19200_S1x19200_28_0).view.writes (Elt F) f [⟨Rect.whole S19200, P 28⟩])
        ∗ ((rowA M 29 inb_S64x19200_S1x19200_29_0).view.loc (c : Thread nD τ) ↦[(rowA M 29 inb_S64x19200_S1x19200_29_0).view.set]{fullShare} (rowA M 29 inb_S64x19200_S1x19200_29_0).view.writes (Elt F) f [⟨Rect.whole S19200, P 29⟩])
        ∗ ((rowA M 30 inb_S64x19200_S1x19200_30_0).view.loc (c : Thread nD τ) ↦[(rowA M 30 inb_S64x19200_S1x19200_30_0).view.set]{fullShare} (rowA M 30 inb_S64x19200_S1x19200_30_0).view.writes (Elt F) f [⟨Rect.whole S19200, P 30⟩])
        ∗ ((rowA M 31 inb_S64x19200_S1x19200_31_0).view.loc (c : Thread nD τ) ↦[(rowA M 31 inb_S64x19200_S1x19200_31_0).view.set]{fullShare} (rowA M 31 inb_S64x19200_S1x19200_31_0).view.writes (Elt F) f [⟨Rect.whole S19200, P 31⟩])
        ∗ ((rowA M 32 inb_S64x19200_S1x19200_32_0).view.loc (c : Thread nD τ) ↦[(rowA M 32 inb_S64x19200_S1x19200_32_0).view.set]{fullShare} (rowA M 32 inb_S64x19200_S1x19200_32_0).view.writes (Elt F) f [⟨Rect.whole S19200, P 32⟩])
        ∗ ((rowA M 33 inb_S64x19200_S1x19200_33_0).view.loc (c : Thread nD τ) ↦[(rowA M 33 inb_S64x19200_S1x19200_33_0).view.set]{fullShare} (rowA M 33 inb_S64x19200_S1x19200_33_0).view.writes (Elt F) f [⟨Rect.whole S19200, P 33⟩])
        ∗ ((rowA M 34 inb_S64x19200_S1x19200_34_0).view.loc (c : Thread nD τ) ↦[(rowA M 34 inb_S64x19200_S1x19200_34_0).view.set]{fullShare} (rowA M 34 inb_S64x19200_S1x19200_34_0).view.writes (Elt F) f [⟨Rect.whole S19200, P 34⟩])
        ∗ ((rowA M 35 inb_S64x19200_S1x19200_35_0).view.loc (c : Thread nD τ) ↦[(rowA M 35 inb_S64x19200_S1x19200_35_0).view.set]{fullShare} (rowA M 35 inb_S64x19200_S1x19200_35_0).view.writes (Elt F) f [⟨Rect.whole S19200, P 35⟩])
        ∗ ((rowA M 36 inb_S64x19200_S1x19200_36_0).view.loc (c : Thread nD τ) ↦[(rowA M 36 inb_S64x19200_S1x19200_36_0).view.set]{fullShare} (rowA M 36 inb_S64x19200_S1x19200_36_0).view.writes (Elt F) f [⟨Rect.whole S19200, P 36⟩])
        ∗ ((rowA M 37 inb_S64x19200_S1x19200_37_0).view.loc (c : Thread nD τ) ↦[(rowA M 37 inb_S64x19200_S1x19200_37_0).view.set]{fullShare} (rowA M 37 inb_S64x19200_S1x19200_37_0).view.writes (Elt F) f [⟨Rect.whole S19200, P 37⟩])
        ∗ ((rowA M 38 inb_S64x19200_S1x19200_38_0).view.loc (c : Thread nD τ) ↦[(rowA M 38 inb_S64x19200_S1x19200_38_0).view.set]{fullShare} (rowA M 38 inb_S64x19200_S1x19200_38_0).view.writes (Elt F) f [⟨Rect.whole S19200, P 38⟩])
        ∗ ((rowA M 39 inb_S64x19200_S1x19200_39_0).view.loc (c : Thread nD τ) ↦[(rowA M 39 inb_S64x19200_S1x19200_39_0).view.set]{fullShare} (rowA M 39 inb_S64x19200_S1x19200_39_0).view.writes (Elt F) f [⟨Rect.whole S19200, P 39⟩])
        ∗ ((rowA M 40 inb_S64x19200_S1x19200_40_0).view.loc (c : Thread nD τ) ↦[(rowA M 40 inb_S64x19200_S1x19200_40_0).view.set]{fullShare} (rowA M 40 inb_S64x19200_S1x19200_40_0).view.writes (Elt F) f [⟨Rect.whole S19200, P 40⟩])
        ∗ ((rowA M 41 inb_S64x19200_S1x19200_41_0).view.loc (c : Thread nD τ) ↦[(rowA M 41 inb_S64x19200_S1x19200_41_0).view.set]{fullShare} (rowA M 41 inb_S64x19200_S1x19200_41_0).view.writes (Elt F) f [⟨Rect.whole S19200, P 41⟩])
        ∗ ((rowA M 42 inb_S64x19200_S1x19200_42_0).view.loc (c : Thread nD τ) ↦[(rowA M 42 inb_S64x19200_S1x19200_42_0).view.set]{fullShare} (rowA M 42 inb_S64x19200_S1x19200_42_0).view.writes (Elt F) f [⟨Rect.whole S19200, P 42⟩])
        ∗ ((rowA M 43 inb_S64x19200_S1x19200_43_0).view.loc (c : Thread nD τ) ↦[(rowA M 43 inb_S64x19200_S1x19200_43_0).view.set]{fullShare} (rowA M 43 inb_S64x19200_S1x19200_43_0).view.writes (Elt F) f [⟨Rect.whole S19200, P 43⟩])
        ∗ ((rowA M 44 inb_S64x19200_S1x19200_44_0).view.loc (c : Thread nD τ) ↦[(rowA M 44 inb_S64x19200_S1x19200_44_0).view.set]{fullShare} (rowA M 44 inb_S64x19200_S1x19200_44_0).view.writes (Elt F) f [⟨Rect.whole S19200, P 44⟩])
        ∗ ((rowA M 45 inb_S64x19200_S1x19200_45_0).view.loc (c : Thread nD τ) ↦[(rowA M 45 inb_S64x19200_S1x19200_45_0).view.set]{fullShare} (rowA M 45 inb_S64x19200_S1x19200_45_0).view.writes (Elt F) f [⟨Rect.whole S19200, P 45⟩])
        ∗ ((rowA M 46 inb_S64x19200_S1x19200_46_0).view.loc (c : Thread nD τ) ↦[(rowA M 46 inb_S64x19200_S1x19200_46_0).view.set]{fullShare} (rowA M 46 inb_S64x19200_S1x19200_46_0).view.writes (Elt F) f [⟨Rect.whole S19200, P 46⟩])
        ∗ ((rowA M 47 inb_S64x19200_S1x19200_47_0).view.loc (c : Thread nD τ) ↦[(rowA M 47 inb_S64x19200_S1x19200_47_0).view.set]{fullShare} (rowA M 47 inb_S64x19200_S1x19200_47_0).view.writes (Elt F) f [⟨Rect.whole S19200, P 47⟩])
        ∗ ((rowA M 48 inb_S64x19200_S1x19200_48_0).view.loc (c : Thread nD τ) ↦[(rowA M 48 inb_S64x19200_S1x19200_48_0).view.set]{fullShare} (rowA M 48 inb_S64x19200_S1x19200_48_0).view.writes (Elt F) f [⟨Rect.whole S19200, P 48⟩])
        ∗ ((rowA M 49 inb_S64x19200_S1x19200_49_0).view.loc (c : Thread nD τ) ↦[(rowA M 49 inb_S64x19200_S1x19200_49_0).view.set]{fullShare} (rowA M 49 inb_S64x19200_S1x19200_49_0).view.writes (Elt F) f [⟨Rect.whole S19200, P 49⟩])
        ∗ ((rowA M 50 inb_S64x19200_S1x19200_50_0).view.loc (c : Thread nD τ) ↦[(rowA M 50 inb_S64x19200_S1x19200_50_0).view.set]{fullShare} (rowA M 50 inb_S64x19200_S1x19200_50_0).view.writes (Elt F) f [⟨Rect.whole S19200, P 50⟩])
        ∗ ((rowA M 51 inb_S64x19200_S1x19200_51_0).view.loc (c : Thread nD τ) ↦[(rowA M 51 inb_S64x19200_S1x19200_51_0).view.set]{fullShare} (rowA M 51 inb_S64x19200_S1x19200_51_0).view.writes (Elt F) f [⟨Rect.whole S19200, P 51⟩])
        ∗ ((rowA M 52 inb_S64x19200_S1x19200_52_0).view.loc (c : Thread nD τ) ↦[(rowA M 52 inb_S64x19200_S1x19200_52_0).view.set]{fullShare} (rowA M 52 inb_S64x19200_S1x19200_52_0).view.writes (Elt F) f [⟨Rect.whole S19200, P 52⟩])
        ∗ ((rowA M 53 inb_S64x19200_S1x19200_53_0).view.loc (c : Thread nD τ) ↦[(rowA M 53 inb_S64x19200_S1x19200_53_0).view.set]{fullShare} (rowA M 53 inb_S64x19200_S1x19200_53_0).view.writes (Elt F) f [⟨Rect.whole S19200, P 53⟩])
        ∗ ((rowA M 54 inb_S64x19200_S1x19200_54_0).view.loc (c : Thread nD τ) ↦[(rowA M 54 inb_S64x19200_S1x19200_54_0).view.set]{fullShare} (rowA M 54 inb_S64x19200_S1x19200_54_0).view.writes (Elt F) f [⟨Rect.whole S19200, P 54⟩])
        ∗ ((rowA M 55 inb_S64x19200_S1x19200_55_0).view.loc (c : Thread nD τ) ↦[(rowA M 55 inb_S64x19200_S1x19200_55_0).view.set]{fullShare} (rowA M 55 inb_S64x19200_S1x19200_55_0).view.writes (Elt F) f [⟨Rect.whole S19200, P 55⟩])
        ∗ ((rowA M 56 inb_S64x19200_S1x19200_56_0).view.loc (c : Thread nD τ) ↦[(rowA M 56 inb_S64x19200_S1x19200_56_0).view.set]{fullShare} (rowA M 56 inb_S64x19200_S1x19200_56_0).view.writes (Elt F) f [⟨Rect.whole S19200, P 56⟩])
        ∗ ((rowA M 57 inb_S64x19200_S1x19200_57_0).view.loc (c : Thread nD τ) ↦[(rowA M 57 inb_S64x19200_S1x19200_57_0).view.set]{fullShare} (rowA M 57 inb_S64x19200_S1x19200_57_0).view.writes (Elt F) f [⟨Rect.whole S19200, P 57⟩])
        ∗ ((rowA M 58 inb_S64x19200_S1x19200_58_0).view.loc (c : Thread nD τ) ↦[(rowA M 58 inb_S64x19200_S1x19200_58_0).view.set]{fullShare} (rowA M 58 inb_S64x19200_S1x19200_58_0).view.writes (Elt F) f [⟨Rect.whole S19200, P 58⟩])
        ∗ ((rowA M 59 inb_S64x19200_S1x19200_59_0).view.loc (c : Thread nD τ) ↦[(rowA M 59 inb_S64x19200_S1x19200_59_0).view.set]{fullShare} (rowA M 59 inb_S64x19200_S1x19200_59_0).view.writes (Elt F) f [⟨Rect.whole S19200, P 59⟩])
        ∗ ((rowA M 60 inb_S64x19200_S1x19200_60_0).view.loc (c : Thread nD τ) ↦[(rowA M 60 inb_S64x19200_S1x19200_60_0).view.set]{fullShare} (rowA M 60 inb_S64x19200_S1x19200_60_0).view.writes (Elt F) f [⟨Rect.whole S19200, P 60⟩])
        ∗ ((rowA M 61 inb_S64x19200_S1x19200_61_0).view.loc (c : Thread nD τ) ↦[(rowA M 61 inb_S64x19200_S1x19200_61_0).view.set]{fullShare} (rowA M 61 inb_S64x19200_S1x19200_61_0).view.writes (Elt F) f [⟨Rect.whole S19200, P 61⟩])
        ∗ ((rowA M 62 inb_S64x19200_S1x19200_62_0).view.loc (c : Thread nD τ) ↦[(rowA M 62 inb_S64x19200_S1x19200_62_0).view.set]{fullShare} (rowA M 62 inb_S64x19200_S1x19200_62_0).view.writes (Elt F) f [⟨Rect.whole S19200, P 62⟩])
        ∗ ((rowA M 63 inb_S64x19200_S1x19200_63_0).view.loc (c : Thread nD τ) ↦[(rowA M 63 inb_S64x19200_S1x19200_63_0).view.set]{fullShare} (rowA M 63 inb_S64x19200_S1x19200_63_0).view.writes (Elt F) f [⟨Rect.whole S19200, P 63⟩]))
      ⊢ (M.view.loc (c : Thread nD τ) ↦[M.view.set]{fullShare} joinRows M f P : sProp 𝕄) :=
  BIBase.Entails.trans (BIBase.Entails.of_eq rfl) (rows_join_list c M f P)

end Cert.KernelIdeal.Hand

end
-- ==== Proof.GatherTail.lean ====
/-
  Three readings that close the gather kernel's run: a load through the whole-buffer rectangle reads
  the buffer as its view reads it; a store through that rectangle, read back, is what was stored,
  whatever the buffer held; and 64 rows, each the table's row that the row's index word names, are
  together the gathered block.
-/
import proofs.«406060_j54142357733864_2_alg».proof.Proof.GatherDat
import Idealize.ShloMosaic.Lib.Pipeline.FrameBody
import Idealize.ShloMosaic.Lib.Pipeline.Value
import Idealize.ShloMosaic.Lib.ValueIdx

noncomputable section

namespace Cert.KernelIdeal.Hand

open Idealize.ShloMosaic Idealize.ShloMosaic.TcCoe Idealize.SL.Sem
open Idealize.ShloMosaic.ValueIdx (ix1 ix2 eq_ix2)
open Cert.KernelIdeal.Gen

variable {F : FTy → Type} [FloatOps F]

/-- The offsets (0, 0) are zero on every axis. -/
theorem zeroOffsets2 : (![0, 0] : Fin 2 → ℕ) = fun _ => 0 := funext fun a => by fin_cases a <;> rfl

/-- A load through the whole [64, 19200] rectangle reads the buffer as its view reads it. -/
theorem readAt_wholeRect {sp : Space} {e : EltTy} (m : Memref sig .tc sp S64x19200 e)
    (inb : ∀ a, (![0, 0] : Fin 2 → ℕ) a + S64x19200.size a ≤ S64x19200.size a) (G : m.view.ty.Contents (Elt F)) :
    m.view.readAt (Elt F) (Rect.unit (s := S64x19200) ![0, 0] S64x19200.size inb).toLoadRect G = m.view.read (Elt F) G :=
  View.ld_unit_zero zeroOffsets2 inb (m.view.read (Elt F) G)

/-- One store through the whole [64, 19200] rectangle, read back, is what was stored, whatever the
    buffer held before. -/
theorem read_writes_wholeRect' {sp : Space} {e : EltTy} (m : Memref sig .tc sp S64x19200 e)
    (inb : ∀ a, (![0, 0] : Fin 2 → ℕ) a + S64x19200.size a ≤ S64x19200.size a) (f : m.view.ty.Contents (Elt F))
    (p : S64x19200.Idx → Elt F e) :
    m.view.read (Elt F) (m.view.writes (Elt F) f [⟨Rect.unit (s := S64x19200) ![0, 0] S64x19200.size inb, p⟩]) = p := by
  rw [View.read_writes_eq_canon _ _ _ (fun y => ⟨_, List.mem_singleton_self _, View.mem_set_unit_zero zeroOffsets2 inb y⟩),
    View.canon_unit_zero zeroOffsets2]

/-- The same for a bf16 buffer in vector memory and a vector payload. -/
theorem read_writes_wholeRect (m : Memref sig .tc .vmem S64x19200 .bf16)
    (inb : ∀ a, (![0, 0] : Fin 2 → ℕ) a + S64x19200.size a ≤ S64x19200.size a) (f : m.view.ty.Contents (Elt F))
    (p : FVec F S64x19200 .bf16) :
    m.view.read (Elt F) (m.view.writes (Elt F) f [⟨Rect.unit (s := S64x19200) ![0, 0] S64x19200.size inb, p⟩]) = p :=
  read_writes_wholeRect' m inb f p

/-- The same over a buffer that held anything at all. -/
theorem read_writes_junk_wholeRect (m : Memref sig .tc .vmem S64x19200 .bf16)
    (inb : ∀ a, (![0, 0] : Fin 2 → ℕ) a + S64x19200.size a ≤ S64x19200.size a) (p : FVec F S64x19200 .bf16) :
    m.view.read (Elt F) (m.view.writes (Elt F) m.view.junk [⟨Rect.unit (s := S64x19200) ![0, 0] S64x19200.size inb, p⟩]) = p :=
  read_writes_wholeRect' m inb m.view.junk p

/-- Sixty-four rows, row r the table's row that word 64 t + r names, are together the gathered block. -/
theorem rows_of_family (idx : Vec F S8192 .i32) (tab : Vec F S4200x19200 .f32) (t : Fin grid0.N)
    (P : Fin 64 → S19200.Idx → Elt F .f32) (hP : ∀ r y, P r y = gatherRows idx tab t (ix2 r (y 0))) :
    (fun x : S64x19200.Idx => P (x 0) (ix1 (x 1))) = gatherRows idx tab t := by
  funext x
  exact (hP (x 0) (ix1 (x 1))).trans (congrArg (gatherRows idx tab t) (eq_ix2 x).symm)

end Cert.KernelIdeal.Hand

end
-- ==== Proof.GatherStored.lean ====
/-
  What the gather kernel stores is the truncation of the gathered rows: the 64 rows a row scratch
  holds after the copies, joined, are read whole as the gathered block, and the store of its
  truncation through the whole output rectangle reads back as exactly that.
-/
import proofs.«406060_j54142357733864_2_alg».proof.Proof.GatherRows
import proofs.«406060_j54142357733864_2_alg».proof.Proof.GatherTail

noncomputable section

namespace Cert.KernelIdeal.Hand

open Idealize.ShloMosaic Idealize.ShloMosaic.TcCoe Idealize.SL.Sem
open Idealize.ShloMosaic.ValueIdx (ix1 ix2)
open Cert.KernelIdeal.Gen

variable {F : FTy → Type} [FloatOps F]

/-- A row scratch whose row r holds the table's row that word 64 t + r names, loaded whole, is the
    gathered block. -/
theorem loaded_join {sp : Space} (m6 : Memref sig .tc sp S64x19200 .f32)
    (inb6 : ∀ a, (![0, 0] : Fin 2 → ℕ) a + S64x19200.size a ≤ S64x19200.size a) (f6 : m6.view.ty.Contents (Elt F))
    (idx : Vec F S8192 .i32) (tab : Vec F S4200x19200 .f32) (t : Fin grid0.N)
    (P : Fin 64 → S19200.Idx → Elt F .f32) (hP : ∀ r y, P r y = gatherRows idx tab t (ix2 r (y 0))) :
    m6.view.readAt (Elt F) (Rect.unit (s := S64x19200) ![0, 0] S64x19200.size inb6).toLoadRect (joinRows m6 f6 P)
      = gatherRows idx tab t := by
  rw [readAt_wholeRect]
  have hread : m6.view.read (Elt F) (joinRows m6 f6 P) = fun x : S64x19200.Idx => P (x 0) (ix1 (x 1)) :=
    funext (read_joinRows m6 f6 P)
  rw [hread]
  exact rows_of_family idx tab t P hP

/-- The first output: the truncation of the loaded scratch, stored whole, reads back as the
    truncation of the gathered block. -/
theorem stored_eq1 (m4 : Memref sig .tc .vmem S64x19200 .bf16)
    (inb4 : ∀ a, (![0, 0] : Fin 2 → ℕ) a + S64x19200.size a ≤ S64x19200.size a) (f4 : m4.view.ty.Contents (Elt F))
    {sp : Space} (m6 : Memref sig .tc sp S64x19200 .f32)
    (inb6 : ∀ a, (![0, 0] : Fin 2 → ℕ) a + S64x19200.size a ≤ S64x19200.size a) (f6 : m6.view.ty.Contents (Elt F))
    (idx : Vec F S8192 .i32) (tab : Vec F S4200x19200 .f32) (t : Fin grid0.N)
    (P : Fin 64 → S19200.Idx → Elt F .f32) (hP : ∀ r y, P r y = gatherRows idx tab t (ix2 r (y 0))) :
    m4.view.read (Elt F) (m4.view.writes (Elt F) f4 [⟨Rect.unit (s := S64x19200) ![0, 0] S64x19200.size inb4,
        k0_pay1 (m6.view.readAt (Elt F) (Rect.unit (s := S64x19200) ![0, 0] S64x19200.size inb6).toLoadRect (joinRows m6 f6 P))⟩])
      = k0_pay1 (gatherRows idx tab t) := by
  rw [read_writes_wholeRect, loaded_join m6 inb6 f6 idx tab t P hP]

/-- The second output likewise. -/
theorem stored_eq2 (m5 : Memref sig .tc .vmem S64x19200 .bf16)
    (inb5 : ∀ a, (![0, 0] : Fin 2 → ℕ) a + S64x19200.size a ≤ S64x19200.size a) (f5 : m5.view.ty.Contents (Elt F))
    {sp : Space} (m7 : Memref sig .tc sp S64x19200 .f32)
    (inb7 : ∀ a, (![0, 0] : Fin 2 → ℕ) a + S64x19200.size a ≤ S64x19200.size a) (f7 : m7.view.ty.Contents (Elt F))
    (idx : Vec F S8192 .i32) (tab : Vec F S4200x19200 .f32) (t : Fin grid0.N)
    (P : Fin 64 → S19200.Idx → Elt F .f32) (hP : ∀ r y, P r y = gatherRows idx tab t (ix2 r (y 0))) :
    m5.view.read (Elt F) (m5.view.writes (Elt F) f5 [⟨Rect.unit (s := S64x19200) ![0, 0] S64x19200.size inb5,
        k0_pay2 (m7.view.readAt (Elt F) (Rect.unit (s := S64x19200) ![0, 0] S64x19200.size inb7).toLoadRect (joinRows m7 f7 P))⟩])
      = k0_pay2 (gatherRows idx tab t) := by
  rw [read_writes_wholeRect, loaded_join m7 inb7 f7 idx tab t P hP]

/-- The first output, the loaded scratch first given a name. -/
theorem stored_eq1_named (m4 : Memref sig .tc .vmem S64x19200 .bf16)
    (inb4 : ∀ a, (![0, 0] : Fin 2 → ℕ) a + S64x19200.size a ≤ S64x19200.size a) (f4 : m4.view.ty.Contents (Elt F))
    {sp : Space} (m6 : Memref sig .tc sp S64x19200 .f32)
    (inb6 : ∀ a, (![0, 0] : Fin 2 → ℕ) a + S64x19200.size a ≤ S64x19200.size a) (f6 : m6.view.ty.Contents (Elt F))
    (idx : Vec F S8192 .i32) (tab : Vec F S4200x19200 .f32) (t : Fin grid0.N)
    (P : Fin 64 → S19200.Idx → Elt F .f32) (hP : ∀ r y, P r y = gatherRows idx tab t (ix2 r (y 0)))
    (V : Vec F S64x19200 .f32)
    (hV : V = m6.view.readAt (Elt F) (Rect.unit (s := S64x19200) ![0, 0] S64x19200.size inb6).toLoadRect (joinRows m6 f6 P)) :
    m4.view.read (Elt F) (m4.view.writes (Elt F) f4 [⟨Rect.unit (s := S64x19200) ![0, 0] S64x19200.size inb4, k0_pay1 V⟩])
      = k0_pay1 (gatherRows idx tab t) := by
  subst hV
  exact stored_eq1 m4 inb4 f4 m6 inb6 f6 idx tab t P hP

/-- The second output, the loaded scratch first given a name. -/
theorem stored_eq2_named (m5 : Memref sig .tc .vmem S64x19200 .bf16)
    (inb5 : ∀ a, (![0, 0] : Fin 2 → ℕ) a + S64x19200.size a ≤ S64x19200.size a) (f5 : m5.view.ty.Contents (Elt F))
    {sp : Space} (m7 : Memref sig .tc sp S64x19200 .f32)
    (inb7 : ∀ a, (![0, 0] : Fin 2 → ℕ) a + S64x19200.size a ≤ S64x19200.size a) (f7 : m7.view.ty.Contents (Elt F))
    (idx : Vec F S8192 .i32) (tab : Vec F S4200x19200 .f32) (t : Fin grid0.N)
    (P : Fin 64 → S19200.Idx → Elt F .f32) (hP : ∀ r y, P r y = gatherRows idx tab t (ix2 r (y 0)))
    (V : Vec F S64x19200 .f32)
    (hV : V = m7.view.readAt (Elt F) (Rect.unit (s := S64x19200) ![0, 0] S64x19200.size inb7).toLoadRect (joinRows m7 f7 P)) :
    m5.view.read (Elt F) (m5.view.writes (Elt F) f5 [⟨Rect.unit (s := S64x19200) ![0, 0] S64x19200.size inb5, k0_pay2 V⟩])
      = k0_pay2 (gatherRows idx tab t) := by
  subst hV
  exact stored_eq2 m5 inb5 f5 m7 inb7 f7 idx tab t P hP

end Cert.KernelIdeal.Hand

end
-- ==== Proof.GatherBody.lean ====
/- The gather kernel's triple at one grid point. The kernel reads the 64 + 64 index words of the point, starts one row
   copy per word out of the padded table into the matching row of its two scratch buffers, waits for all 128 copies,
   and stores the two scratches, truncated to bf16, into its two output blocks.
   All 128 copies read the one table at once, at rows that may coincide, so the table is held as one read share per
   copy and each copy borrows the row it reads from its own share; a copy writes one scratch row and nothing else, so
   each scratch is held as its 64 rows, a copy takes exactly the row it fills, and its wait hands back exactly that row,
   filled. After the last wait each scratch is whole again, its row r holding the table row that the r-th index word
   names; what is stored is the truncation of those rows. -/
import proofs.«406060_j54142357733864_2_alg».proof.Proof.Gen.KernelIdeal.Launch
import proofs.«406060_j54142357733864_2_alg».proof.Proof.Gen.KernelIdeal.Skeleton
import proofs.«406060_j54142357733864_2_alg».proof.Proof.GatherGlue
import proofs.«406060_j54142357733864_2_alg».proof.Proof.GatherRows
import proofs.«406060_j54142357733864_2_alg».proof.Proof.GatherTail
import proofs.«406060_j54142357733864_2_alg».proof.Proof.GatherStored
import Idealize.ShloMosaic.Lib.Pipeline.FrameBody
import Idealize.ShloMosaic.Lib.Pipeline.Regions
import Idealize.ShloMosaic.Lib.Transfers
import Idealize.ShloMosaic.Lib.Tactic
import Idealize.ShloMosaic.Lib.ValueIdx

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2)

variable {F : FTy → Type} [FloatOps F]

local notation "𝕄" => MT nD τ sig Unit (Elt F) ℕ (Pipeline.UD sig nD τ) ℕ

/-- Every word of an index table names a row of the padded table (stated on what a load through the table's memref reads). -/
def InRange (c : Dev nD) (m : Memref sig .tc .smem S8192 .i32) (f : Buf (Elt F) (m.view.loc (c : Thread nD τ))) : Prop :=
  ∀ r j, (m.view.readAt (Elt F) r f j).toNat < 4200

/-- The side condition the kernel assumes after reading a word: the row the word names lies inside the padded table. -/
theorem chk_of_inRange (c : Dev nD) (m : Memref sig .tc .smem S8192 .i32) (f : Buf (Elt F) (m.view.loc (c : Thread nD τ)))
    (h : InRange c m f) (r) (j) :
    ∀ a, (![(m.view.readAt (Elt F) r f j).toNat, 0] : Fin 2 → ℕ) a + S1x19200.size a ≤ S4200x19200.size a := by
  have := h r j
  intro a; fin_cases a
  · show (m.view.readAt (Elt F) r f j).toNat + 1 ≤ 4200; omega
  · show 0 + 19200 ≤ 19200; omega

/-! ## One row of a two-axis array, seen through its squeezed view -/

section RowLemmas
open Idealize.ShloMosaic.ValueIdx (ix1 ix2)
variable {sp : Space}

/-- The squeezed row k of an n×19200 array. -/
abbrev rowRect {n : ℕ} (k : ℕ) (hk : ∀ a, (![k, 0] : Fin 2 → ℕ) a + S1x19200.size a ≤ (⟨2, ![n, 19200]⟩ : Shape).size a) :
    Rect (⟨2, ![n, 19200]⟩ : Shape) := Rect.unit ![k, 0] S1x19200.size hk

/-- Position y of the squeezed row k is the array's index (k, y). -/
theorem rowRect_emb {n : ℕ} (k : ℕ) (hk) (hkn : k < n) (y : S19200.Idx) :
    (rowRect (n := n) k hk).emb (Shape.reshapeEquiv squeezes_S1x19200_S19200.numel_eq y) = ix2 ⟨k, hkn⟩ (y 0) := by
  rw [show Shape.reshapeEquiv squeezes_S1x19200_S19200.numel_eq y = Fin.cons ⟨0, Nat.one_pos⟩ y from
    Shape.reshapeEquiv_cons_one (n := 1) (d := ![19200]) _ y]
  funext a; apply Fin.ext
  match a with
  | ⟨0, _⟩ => show k + 1 * 0 = k; omega
  | ⟨1, _⟩ => show 0 + 1 * (y 0).val = (y 0).val; omega

/-- Reading through a row view: position y of the squeezed row k is the array's element (k, y). -/
theorem read_rowView {n : ℕ} (m : Memref sig .tc sp ⟨2, ![n, 19200]⟩ .f32) (k : ℕ) (hk) (hs) (hkn : k < n)
    (f : m.view.ty.Contents (Elt F)) (y : S19200.Idx) :
    ((m.slice (rowRect k hk) hs).squeeze S19200 squeezes_S1x19200_S19200).view.read (Elt F) f y
      = m.view.read (Elt F) f (ix2 ⟨k, hkn⟩ (y 0)) := by
  exact congrArg (m.view.read (Elt F) f) (rowRect_emb k hk hkn y)

/-- After a write of w through the squeezed row k, the array reads w on row k and what it held elsewhere. -/
theorem read_write_rowView {n : ℕ} (m : Memref sig .tc sp ⟨2, ![n, 19200]⟩ .f32) (k : ℕ) (hk) (hs) (hkn : k < n)
    (f : m.view.ty.Contents (Elt F)) (w : S19200.Idx → Elt F .f32) (x : (⟨2, ![n, 19200]⟩ : Shape).Idx) :
    m.view.read (Elt F) (((m.slice (rowRect k hk) hs).squeeze S19200 squeezes_S1x19200_S19200).view.write (Elt F) f w Finset.univ) x
      = if (x 0).val = k then w (ix1 (x 1)) else m.view.read (Elt F) f x := by
  split
  · next h =>
    have hx : x = (rowRect (n := n) k hk).emb (Shape.reshapeEquiv squeezes_S1x19200_S19200.numel_eq (ix1 (x 1))) := by
      rw [rowRect_emb k hk hkn]
      funext a; apply Fin.ext
      match a with
      | ⟨0, _⟩ => exact h
      | ⟨1, _⟩ => rfl
    conv_lhs => rw [hx]
    exact View.read_write_of_mem (v := ((m.slice (rowRect k hk) hs).squeeze S19200 squeezes_S1x19200_S19200).view) f w (Finset.mem_univ _)
  · next h =>
    rw [View.read_apply, View.read_apply, View.write_of_not_mem]
    intro hmem
    have hmem' : m.view.emb x ∈ (rowRect k hk).set.map m.view.emb :=
      (Finset.ext_iff.1 ((View.set_reshape (m.view.slice (rowRect k hk)) squeezes_S1x19200_S19200.numel_eq).trans (View.set_slice m.view (rowRect k hk))) _).1 hmem
    rw [Finset.mem_map'] at hmem'
    obtain ⟨j, hj, hj'⟩ := (LoadRect.mem_set _).1 hmem' 0
    apply h
    rw [hj']; show k + 1 * j = k
    have : j < 1 := hj
    omega

end RowLemmas

/-! ## What one row copy delivers -/

/-- The kernel's word arithmetic for the position of row r's index word at point n: 64·n + r, no wrap. -/
theorem wordOff_val (n r : ℕ) (hn : n < 128) (hr : r < 64) :
    (Scalar.indexCast (Scalar.addi (Scalar.muli (BitVec.ofNat 32 n) 64#32) (BitVec.ofNat 32 r))).toNat = 64 * n + r := by
  unfold Scalar.indexCast Scalar.addi Scalar.muli IntOp.addi IntOp.muli
  simp only [BitVec.toNat_add, BitVec.toNat_mul, BitVec.toNat_ofNat]
  omega

/-- The one coordinate of grid point t is t. -/
theorem coords0_val (t : Fin grid0.N) : ((grid0.coords t) 0).val = t.val := by
  have h : t.val < 128 := lt_of_lt_of_eq t.isLt N_0
  show t.val / grid0.stride 0 % grid0.bound 0 = t.val
  rw [show grid0.stride 0 = 1 from by decide, show grid0.bound 0 = 128 from rfl]
  omega

/-- The position the kernel computes for row r's index word at point t is wordPos t r. -/
theorem wordOff_eq (t : Fin grid0.N) (r : Fin 64) :
    (Scalar.indexCast (Scalar.addi (Scalar.muli (BitVec.ofNat 32 ((grid0.coords t) 0).val) 64#32) (BitVec.ofNat 32 r.val))).toNat
      = (wordPos t r).val := by
  rw [wordOff_val _ _ ((grid0.coords t) 0).isLt r.isLt, coords0_val]; rfl

/-- A one-word load of an index table at offset off reads the table's word at off. -/
theorem word_eq (m : Memref sig .tc .smem S8192 .i32) (c : Dev nD) (f : Buf (Elt F) (m.view.loc (c : Thread nD τ)))
    (off : Fin 1 → ℕ) (hinb) (hfirst) (p : Fin 8192) (hoff : off 0 = p.val) :
    View.readAt (Elt F) m.view (Rect.unit (s := S8192) off S1.size hinb).toLoadRect f (Shape.Idx.first hfirst)
      = m.view.read (Elt F) f (ix1 p) := by
  rw [View.readAt_apply]; congr 1
  funext a; apply Fin.ext
  match a with
  | ⟨0, _⟩ => show off 0 + 1 * 0 = p.val; omega

/-- The copy of the table row that word w names delivers, at position y, the gathered rows' element (r, y). -/
theorem pay_apply (c : Dev nD) (t : Fin grid0.N) (r : Fin 64)
    (arg1 : Memref sig .tc .smem S8192 .i32) (arg3 : Memref sig .tc .hbm S4200x19200 .f32)
    (f1 : Buf (Elt F) (arg1.view.loc (c : Thread nD τ))) (f3 : Buf (Elt F) (arg3.view.loc (c : Thread nD τ)))
    (w : BitVec 32) (hw : w = arg1.view.read (Elt F) f1 (ix1 (wordPos t r))) (hlt : w.toNat < 4200) (hk) (hs) (y : S19200.Idx) :
    ReadAs.same.apply (View.read (Elt F)
        ((arg3.slice (Rect.unit ![w.toNat, 0] S1x19200.size hk) hs).squeeze S19200 squeezes_S1x19200_S19200).view f3) y
      = gatherRows (arg1.view.read (Elt F) f1) (arg3.view.read (Elt F) f3) t (ix2 r (y 0)) := by
  show View.read (Elt F) ((arg3.slice (rowRect w.toNat hk) hs).squeeze S19200 squeezes_S1x19200_S19200).view f3 y = _
  rw [read_rowView arg3 w.toNat hk hs hlt]
  unfold gatherRows
  congr 1
  funext a
  match a with
  | ⟨0, _⟩ => apply Fin.ext; show w.toNat = (arg1.view.read (Elt F) f1 (ix1 (wordPos t r))).toNat % 4200; rw [← hw, Nat.mod_eq_of_lt hlt]
  | ⟨1, _⟩ => rfl

set_option maxHeartbeats 64000000 in
/-- From both index tables in range, the table as its 128 read shares, both outputs and both scratches at anything,
    the 128 cells at zero and nothing owed, the kernel at point t runs to the continuation holding the tables, the
    shares and the cells as they were and each output at the truncation of its gathered rows. -/
theorem gather_body (c : Dev nD) (t : Fin grid0.N)
    (arg1 : Memref sig .tc .smem S8192 .i32) (harg1 : arg1.IsWhole) (arg2 : Memref sig .tc .smem S8192 .i32) (harg2 : arg2.IsWhole)
    (arg3 : Memref sig .tc .hbm S4200x19200 .f32) (harg3 : arg3.IsWhole)
    (arg4 : Memref sig .tc .vmem S64x19200 .bf16) (harg4 : arg4.IsWhole) (arg5 : Memref sig .tc .vmem S64x19200 .bf16) (harg5 : arg5.IsWhole)
    (arg6 : Memref sig .tc .vmem S64x19200 .f32) (harg6 : arg6.IsWhole) (arg7 : Memref sig .tc .vmem S64x19200 .f32) (harg7 : arg7.IsWhole)
    (f1 : Buf (Elt F) (arg1.view.loc (c : Thread nD τ))) (f2 : Buf (Elt F) (arg2.view.loc (c : Thread nD τ)))
    (f3 : Buf (Elt F) (arg3.view.loc (c : Thread nD τ)))
    (f4 : Buf (Elt F) (arg4.view.loc (c : Thread nD τ))) (f5 : Buf (Elt F) (arg5.view.loc (c : Thread nD τ)))
    (f6 : Buf (Elt F) (arg6.view.loc (c : Thread nD τ))) (f7 : Buf (Elt F) (arg7.view.loc (c : Thread nD τ)))
    (hw1 : InRange c arg1 f1) (hw2 : InRange c arg2 f2)
    (W : Waits sig Unit) (K : PUnit → sProp 𝕄) :
    iprop((arg1.view.loc (c : Thread nD τ) ↦[arg1.view.set]{fullShare} f1) ∗ (arg2.view.loc (c : Thread nD τ) ↦[arg2.view.set]{fullShare} f2)
        ∗ (arg3.view.loc (c : Thread nD τ) ↦[arg3.view.set]{Transfers.shareTokN fullShare 4} f3)
        ∗ (arg3.view.loc (c : Thread nD τ) ↦[arg3.view.set]{Transfers.shareTokN fullShare 5} f3)
        ∗ (arg3.view.loc (c : Thread nD τ) ↦[arg3.view.set]{Transfers.shareTokN fullShare 6} f3)
        ∗ (arg3.view.loc (c : Thread nD τ) ↦[arg3.view.set]{Transfers.shareTokN fullShare 7} f3)
        ∗ (arg3.view.loc (c : Thread nD τ) ↦[arg3.view.set]{Transfers.shareTokN fullShare 8} f3)
        ∗ (arg3.view.loc (c : Thread nD τ) ↦[arg3.view.set]{Transfers.shareTokN fullShare 9} f3)
        ∗ (arg3.view.loc (c : Thread nD τ) ↦[arg3.view.set]{Transfers.shareTokN fullShare 10} f3)
        ∗ (arg3.view.loc (c : Thread nD τ) ↦[arg3.view.set]{Transfers.shareTokN fullShare 11} f3)
        ∗ (arg3.view.loc (c : Thread nD τ) ↦[arg3.view.set]{Transfers.shareTokN fullShare 12} f3)
        ∗ (arg3.view.loc (c : Thread nD τ) ↦[arg3.view.set]{Transfers.shareTokN fullShare 13} f3)
        ∗ (arg3.view.loc (c : Thread nD τ) ↦[arg3.view.set]{Transfers.shareTokN fullShare 14} f3)
        ∗ (arg3.view.loc (c : Thread nD τ) ↦[arg3.view.set]{Transfers.shareTokN fullShare 15} f3)
        ∗ (arg3.view.loc (c : Thread nD τ) ↦[arg3.view.set]{Transfers.shareTokN fullShare 16} f3)
        ∗ (arg3.view.loc (c : Thread nD τ) ↦[arg3.view.set]{Transfers.shareTokN fullShare 17} f3)
        ∗ (arg3.view.loc (c : Thread nD τ) ↦[arg3.view.set]{Transfers.shareTokN fullShare 18} f3)
        ∗ (arg3.view.loc (c : Thread nD τ) ↦[arg3.view.set]{Transfers.shareTokN fullShare 19} f3)
        ∗ (arg3.view.loc (c : Thread nD τ) ↦[arg3.view.set]{Transfers.shareTokN fullShare 20} f3)
        ∗ (arg3.view.loc (c : Thread nD τ) ↦[arg3.view.set]{Transfers.shareTokN fullShare 21} f3)
        ∗ (arg3.view.loc (c : Thread nD τ) ↦[arg3.view.set]{Transfers.shareTokN fullShare 22} f3)
        ∗ (arg3.view.loc (c : Thread nD τ) ↦[arg3.view.set]{Transfers.shareTokN fullShare 23} f3)
        ∗ (arg3.view.loc (c : Thread nD τ) ↦[arg3.view.set]{Transfers.shareTokN fullShare 24} f3)
        ∗ (arg3.view.loc (c : Thread nD τ) ↦[arg3.view.set]{Transfers.shareTokN fullShare 25} f3)
        ∗ (arg3.view.loc (c : Thread nD τ) ↦[arg3.view.set]{Transfers.shareTokN fullShare 26} f3)
        ∗ (arg3.view.loc (c : Thread nD τ) ↦[arg3.view.set]{Transfers.shareTokN fullShare 27} f3)
        ∗ (arg3.view.loc (c : Thread nD τ) ↦[arg3.view.set]{Transfers.shareTokN fullShare 28} f3)
        ∗ (arg3.view.loc (c : Thread nD τ) ↦[arg3.view.set]{Transfers.shareTokN fullShare 29} f3)
        ∗ (arg3.view.loc (c : Thread nD τ) ↦[arg3.view.set]{Transfers.shareTokN fullShare 30} f3)
        ∗ (arg3.view.loc (c : Thread nD τ) ↦[arg3.view.set]{Transfers.shareTokN fullShare 31} f3)
        ∗ (arg3.view.loc (c : Thread nD τ) ↦[arg3.view.set]{Transfers.shareTokN fullShare 32} f3)
        ∗ (arg3.view.loc (c : Thread nD τ) ↦[arg3.view.set]{Transfers.shareTokN fullShare 33} f3)
        ∗ (arg3.view.loc (c : Thread nD τ) ↦[arg3.view.set]{Transfers.shareTokN fullShare 34} f3)
        ∗ (arg3.view.loc (c : Thread nD τ) ↦[arg3.view.set]{Transfers.shareTokN fullShare 35} f3)
        ∗ (arg3.view.loc (c : Thread nD τ) ↦[arg3.view.set]{Transfers.shareTokN fullShare 36} f3)
        ∗ (arg3.view.loc (c : Thread nD τ) ↦[arg3.view.set]{Transfers.shareTokN fullShare 37} f3)
        ∗ (arg3.view.loc (c : Thread nD τ) ↦[arg3.view.set]{Transfers.shareTokN fullShare 38} f3)
        ∗ (arg3.view.loc (c : Thread nD τ) ↦[arg3.view.set]{Transfers.shareTokN fullShare 39} f3)
        ∗ (arg3.view.loc (c : Thread nD τ) ↦[arg3.view.set]{Transfers.shareTokN fullShare 40} f3)
        ∗ (arg3.view.loc (c : Thread nD τ) ↦[arg3.view.set]{Transfers.shareTokN fullShare 41} f3)
        ∗ (arg3.view.loc (c : Thread nD τ) ↦[arg3.view.set]{Transfers.shareTokN fullShare 42} f3)
        ∗ (arg3.view.loc (c : Thread nD τ) ↦[arg3.view.set]{Transfers.shareTokN fullShare 43} f3)
        ∗ (arg3.view.loc (c : Thread nD τ) ↦[arg3.view.set]{Transfers.shareTokN fullShare 44} f3)
        ∗ (arg3.view.loc (c : Thread nD τ) ↦[arg3.view.set]{Transfers.shareTokN fullShare 45} f3)
        ∗ (arg3.view.loc (c : Thread nD τ) ↦[arg3.view.set]{Transfers.shareTokN fullShare 46} f3)
        ∗ (arg3.view.loc (c : Thread nD τ) ↦[arg3.view.set]{Transfers.shareTokN fullShare 47} f3)
        ∗ (arg3.view.loc (c : Thread nD τ) ↦[arg3.view.set]{Transfers.shareTokN fullShare 48} f3)
        ∗ (arg3.view.loc (c : Thread nD τ) ↦[arg3.view.set]{Transfers.shareTokN fullShare 49} f3)
        ∗ (arg3.view.loc (c : Thread nD τ) ↦[arg3.view.set]{Transfers.shareTokN fullShare 50} f3)
        ∗ (arg3.view.loc (c : Thread nD τ) ↦[arg3.view.set]{Transfers.shareTokN fullShare 51} f3)
        ∗ (arg3.view.loc (c : Thread nD τ) ↦[arg3.view.set]{Transfers.shareTokN fullShare 52} f3)
        ∗ (arg3.view.loc (c : Thread nD τ) ↦[arg3.view.set]{Transfers.shareTokN fullShare 53} f3)
        ∗ (arg3.view.loc (c : Thread nD τ) ↦[arg3.view.set]{Transfers.shareTokN fullShare 54} f3)
        ∗ (arg3.view.loc (c : Thread nD τ) ↦[arg3.view.set]{Transfers.shareTokN fullShare 55} f3)
        ∗ (arg3.view.loc (c : Thread nD τ) ↦[arg3.view.set]{Transfers.shareTokN fullShare 56} f3)
        ∗ (arg3.view.loc (c : Thread nD τ) ↦[arg3.view.set]{Transfers.shareTokN fullShare 57} f3)
        ∗ (arg3.view.loc (c : Thread nD τ) ↦[arg3.view.set]{Transfers.shareTokN fullShare 58} f3)
        ∗ (arg3.view.loc (c : Thread nD τ) ↦[arg3.view.set]{Transfers.shareTokN fullShare 59} f3)
        ∗ (arg3.view.loc (c : Thread nD τ) ↦[arg3.view.set]{Transfers.shareTokN fullShare 60} f3)
        ∗ (arg3.view.loc (c : Thread nD τ) ↦[arg3.view.set]{Transfers.shareTokN fullShare 61} f3)
        ∗ (arg3.view.loc (c : Thread nD τ) ↦[arg3.view.set]{Transfers.shareTokN fullShare 62} f3)
        ∗ (arg3.view.loc (c : Thread nD τ) ↦[arg3.view.set]{Transfers.shareTokN fullShare 63} f3)
        ∗ (arg3.view.loc (c : Thread nD τ) ↦[arg3.view.set]{Transfers.shareTokN fullShare 64} f3)
        ∗ (arg3.view.loc (c : Thread nD τ) ↦[arg3.view.set]{Transfers.shareTokN fullShare 65} f3)
        ∗ (arg3.view.loc (c : Thread nD τ) ↦[arg3.view.set]{Transfers.shareTokN fullShare 66} f3)
        ∗ (arg3.view.loc (c : Thread nD τ) ↦[arg3.view.set]{Transfers.shareTokN fullShare 67} f3)
        ∗ (arg3.view.loc (c : Thread nD τ) ↦[arg3.view.set]{Transfers.shareTokN fullShare 68} f3)
        ∗ (arg3.view.loc (c : Thread nD τ) ↦[arg3.view.set]{Transfers.shareTokN fullShare 69} f3)
        ∗ (arg3.view.loc (c : Thread nD τ) ↦[arg3.view.set]{Transfers.shareTokN fullShare 70} f3)
        ∗ (arg3.view.loc (c : Thread nD τ) ↦[arg3.view.set]{Transfers.shareTokN fullShare 71} f3)
        ∗ (arg3.view.loc (c : Thread nD τ) ↦[arg3.view.set]{Transfers.shareTokN fullShare 72} f3)
        ∗ (arg3.view.loc (c : Thread nD τ) ↦[arg3.view.set]{Transfers.shareTokN fullShare 73} f3)
        ∗ (arg3.view.loc (c : Thread nD τ) ↦[arg3.view.set]{Transfers.shareTokN fullShare 74} f3)
        ∗ (arg3.view.loc (c : Thread nD τ) ↦[arg3.view.set]{Transfers.shareTokN fullShare 75} f3)
        ∗ (arg3.view.loc (c : Thread nD τ) ↦[arg3.view.set]{Transfers.shareTokN fullShare 76} f3)
        ∗ (arg3.view.loc (c : Thread nD τ) ↦[arg3.view.set]{Transfers.shareTokN fullShare 77} f3)
        ∗ (arg3.view.loc (c : Thread nD τ) ↦[arg3.view.set]{Transfers.shareTokN fullShare 78} f3)
        ∗ (arg3.view.loc (c : Thread nD τ) ↦[arg3.view.set]{Transfers.shareTokN fullShare 79} f3)
        ∗ (arg3.view.loc (c : Thread nD τ) ↦[arg3.view.set]{Transfers.shareTokN fullShare 80} f3)
        ∗ (arg3.view.loc (c : Thread nD τ) ↦[arg3.view.set]{Transfers.shareTokN fullShare 81} f3)
        ∗ (arg3.view.loc (c : Thread nD τ) ↦[arg3.view.set]{Transfers.shareTokN fullShare 82} f3)
        ∗ (arg3.view.loc (c : Thread nD τ) ↦[arg3.view.set]{Transfers.shareTokN fullShare 83} f3)
        ∗ (arg3.view.loc (c : Thread nD τ) ↦[arg3.view.set]{Transfers.shareTokN fullShare 84} f3)
        ∗ (arg3.view.loc (c : Thread nD τ) ↦[arg3.view.set]{Transfers.shareTokN fullShare 85} f3)
        ∗ (arg3.view.loc (c : Thread nD τ) ↦[arg3.view.set]{Transfers.shareTokN fullShare 86} f3)
        ∗ (arg3.view.loc (c : Thread nD τ) ↦[arg3.view.set]{Transfers.shareTokN fullShare 87} f3)
        ∗ (arg3.view.loc (c : Thread nD τ) ↦[arg3.view.set]{Transfers.shareTokN fullShare 88} f3)
        ∗ (arg3.view.loc (c : Thread nD τ) ↦[arg3.view.set]{Transfers.shareTokN fullShare 89} f3)
        ∗ (arg3.view.loc (c : Thread nD τ) ↦[arg3.view.set]{Transfers.shareTokN fullShare 90} f3)
        ∗ (arg3.view.loc (c : Thread nD τ) ↦[arg3.view.set]{Transfers.shareTokN fullShare 91} f3)
        ∗ (arg3.view.loc (c : Thread nD τ) ↦[arg3.view.set]{Transfers.shareTokN fullShare 92} f3)
        ∗ (arg3.view.loc (c : Thread nD τ) ↦[arg3.view.set]{Transfers.shareTokN fullShare 93} f3)
        ∗ (arg3.view.loc (c : Thread nD τ) ↦[arg3.view.set]{Transfers.shareTokN fullShare 94} f3)
        ∗ (arg3.view.loc (c : Thread nD τ) ↦[arg3.view.set]{Transfers.shareTokN fullShare 95} f3)
        ∗ (arg3.view.loc (c : Thread nD τ) ↦[arg3.view.set]{Transfers.shareTokN fullShare 96} f3)
        ∗ (arg3.view.loc (c : Thread nD τ) ↦[arg3.view.set]{Transfers.shareTokN fullShare 97} f3)
        ∗ (arg3.view.loc (c : Thread nD τ) ↦[arg3.view.set]{Transfers.shareTokN fullShare 98} f3)
        ∗ (arg3.view.loc (c : Thread nD τ) ↦[arg3.view.set]{Transfers.shareTokN fullShare 99} f3)
        ∗ (arg3.view.loc (c : Thread nD τ) ↦[arg3.view.set]{Transfers.shareTokN fullShare 100} f3)
        ∗ (arg3.view.loc (c : Thread nD τ) ↦[arg3.view.set]{Transfers.shareTokN fullShare 101} f3)
        ∗ (arg3.view.loc (c : Thread nD τ) ↦[arg3.view.set]{Transfers.shareTokN fullShare 102} f3)
        ∗ (arg3.view.loc (c : Thread nD τ) ↦[arg3.view.set]{Transfers.shareTokN fullShare 103} f3)
        ∗ (arg3.view.loc (c : Thread nD τ) ↦[arg3.view.set]{Transfers.shareTokN fullShare 104} f3)
        ∗ (arg3.view.loc (c : Thread nD τ) ↦[arg3.view.set]{Transfers.shareTokN fullShare 105} f3)
        ∗ (arg3.view.loc (c : Thread nD τ) ↦[arg3.view.set]{Transfers.shareTokN fullShare 106} f3)
        ∗ (arg3.view.loc (c : Thread nD τ) ↦[arg3.view.set]{Transfers.shareTokN fullShare 107} f3)
        ∗ (arg3.view.loc (c : Thread nD τ) ↦[arg3.view.set]{Transfers.shareTokN fullShare 108} f3)
        ∗ (arg3.view.loc (c : Thread nD τ) ↦[arg3.view.set]{Transfers.shareTokN fullShare 109} f3)
        ∗ (arg3.view.loc (c : Thread nD τ) ↦[arg3.view.set]{Transfers.shareTokN fullShare 110} f3)
        ∗ (arg3.view.loc (c : Thread nD τ) ↦[arg3.view.set]{Transfers.shareTokN fullShare 111} f3)
        ∗ (arg3.view.loc (c : Thread nD τ) ↦[arg3.view.set]{Transfers.shareTokN fullShare 112} f3)
        ∗ (arg3.view.loc (c : Thread nD τ) ↦[arg3.view.set]{Transfers.shareTokN fullShare 113} f3)
        ∗ (arg3.view.loc (c : Thread nD τ) ↦[arg3.view.set]{Transfers.shareTokN fullShare 114} f3)
        ∗ (arg3.view.loc (c : Thread nD τ) ↦[arg3.view.set]{Transfers.shareTokN fullShare 115} f3)
        ∗ (arg3.view.loc (c : Thread nD τ) ↦[arg3.view.set]{Transfers.shareTokN fullShare 116} f3)
        ∗ (arg3.view.loc (c : Thread nD τ) ↦[arg3.view.set]{Transfers.shareTokN fullShare 117} f3)
        ∗ (arg3.view.loc (c : Thread nD τ) ↦[arg3.view.set]{Transfers.shareTokN fullShare 118} f3)
        ∗ (arg3.view.loc (c : Thread nD τ) ↦[arg3.view.set]{Transfers.shareTokN fullShare 119} f3)
        ∗ (arg3.view.loc (c : Thread nD τ) ↦[arg3.view.set]{Transfers.shareTokN fullShare 120} f3)
        ∗ (arg3.view.loc (c : Thread nD τ) ↦[arg3.view.set]{Transfers.shareTokN fullShare 121} f3)
        ∗ (arg3.view.loc (c : Thread nD τ) ↦[arg3.view.set]{Transfers.shareTokN fullShare 122} f3)
        ∗ (arg3.view.loc (c : Thread nD τ) ↦[arg3.view.set]{Transfers.shareTokN fullShare 123} f3)
        ∗ (arg3.view.loc (c : Thread nD τ) ↦[arg3.view.set]{Transfers.shareTokN fullShare 124} f3)
        ∗ (arg3.view.loc (c : Thread nD τ) ↦[arg3.view.set]{Transfers.shareTokN fullShare 125} f3)
        ∗ (arg3.view.loc (c : Thread nD τ) ↦[arg3.view.set]{Transfers.shareTokN fullShare 126} f3)
        ∗ (arg3.view.loc (c : Thread nD τ) ↦[arg3.view.set]{Transfers.shareTokN fullShare 127} f3)
        ∗ (arg3.view.loc (c : Thread nD τ) ↦[arg3.view.set]{Transfers.shareTokN fullShare 128} f3)
        ∗ (arg3.view.loc (c : Thread nD τ) ↦[arg3.view.set]{Transfers.shareTokN fullShare 129} f3)
        ∗ (arg3.view.loc (c : Thread nD τ) ↦[arg3.view.set]{Transfers.shareTokN fullShare 130} f3)
        ∗ (arg3.view.loc (c : Thread nD τ) ↦[arg3.view.set]{Transfers.shareTokN fullShare 131} f3)
        ∗ (arg4.view.loc (c : Thread nD τ) ↦[arg4.view.set]{fullShare} f4)
        ∗ (arg5.view.loc (c : Thread nD τ) ↦[arg5.view.set]{fullShare} f5)
        ∗ (arg6.view.loc (c : Thread nD τ) ↦[arg6.view.set]{fullShare} f6)
        ∗ (arg7.view.loc (c : Thread nD τ) ↦[arg7.view.set]{fullShare} f7)
        ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ semVal ((c : Thread nD τ), SemLoc.dma 53) 0 ∗ semVal ((c : Thread nD τ), SemLoc.dma 54) 0 ∗ semVal ((c : Thread nD τ), SemLoc.dma 55) 0 ∗ semVal ((c : Thread nD τ), SemLoc.dma 56) 0 ∗ semVal ((c : Thread nD τ), SemLoc.dma 57) 0 ∗ semVal ((c : Thread nD τ), SemLoc.dma 58) 0 ∗ semVal ((c : Thread nD τ), SemLoc.dma 59) 0 ∗ semVal ((c : Thread nD τ), SemLoc.dma 60) 0 ∗ semVal ((c : Thread nD τ), SemLoc.dma 61) 0 ∗ semVal ((c : Thread nD τ), SemLoc.dma 62) 0 ∗ semVal ((c : Thread nD τ), SemLoc.dma 63) 0 ∗ semVal ((c : Thread nD τ), SemLoc.dma 64) 0 ∗ semVal ((c : Thread nD τ), SemLoc.dma 65) 0 ∗ semVal ((c : Thread nD τ), SemLoc.dma 66) 0 ∗ semVal ((c : Thread nD τ), SemLoc.dma 67) 0 ∗ semVal ((c : Thread nD τ), SemLoc.dma 68) 0 ∗ semVal ((c : Thread nD τ), SemLoc.dma 69) 0 ∗ semVal ((c : Thread nD τ), SemLoc.dma 70) 0 ∗ semVal ((c : Thread nD τ), SemLoc.dma 71) 0 ∗ semVal ((c : Thread nD τ), SemLoc.dma 72) 0 ∗ semVal ((c : Thread nD τ), SemLoc.dma 73) 0 ∗ semVal ((c : Thread nD τ), SemLoc.dma 74) 0 ∗ semVal ((c : Thread nD τ), SemLoc.dma 75) 0 ∗ semVal ((c : Thread nD τ), SemLoc.dma 76) 0 ∗ semVal ((c : Thread nD τ), SemLoc.dma 77) 0 ∗ semVal ((c : Thread nD τ), SemLoc.dma 78) 0 ∗ semVal ((c : Thread nD τ), SemLoc.dma 79) 0 ∗ semVal ((c : Thread nD τ), SemLoc.dma 80) 0 ∗ semVal ((c : Thread nD τ), SemLoc.dma 81) 0 ∗ semVal ((c : Thread nD τ), SemLoc.dma 82) 0 ∗ semVal ((c : Thread nD τ), SemLoc.dma 83) 0 ∗ semVal ((c : Thread nD τ), SemLoc.dma 84) 0 ∗ semVal ((c : Thread nD τ), SemLoc.dma 85) 0 ∗ semVal ((c : Thread nD τ), SemLoc.dma 86) 0 ∗ semVal ((c : Thread nD τ), SemLoc.dma 87) 0 ∗ semVal ((c : Thread nD τ), SemLoc.dma 88) 0 ∗ semVal ((c : Thread nD τ), SemLoc.dma 89) 0 ∗ semVal ((c : Thread nD τ), SemLoc.dma 90) 0 ∗ semVal ((c : Thread nD τ), SemLoc.dma 91) 0 ∗ semVal ((c : Thread nD τ), SemLoc.dma 92) 0 ∗ semVal ((c : Thread nD τ), SemLoc.dma 93) 0 ∗ semVal ((c : Thread nD τ), SemLoc.dma 94) 0 ∗ semVal ((c : Thread nD τ), SemLoc.dma 95) 0 ∗ semVal ((c : Thread nD τ), SemLoc.dma 96) 0 ∗ semVal ((c : Thread nD τ), SemLoc.dma 97) 0 ∗ semVal ((c : Thread nD τ), SemLoc.dma 98) 0 ∗ semVal ((c : Thread nD τ), SemLoc.dma 99) 0 ∗ semVal ((c : Thread nD τ), SemLoc.dma 100) 0 ∗ semVal ((c : Thread nD τ), SemLoc.dma 101) 0 ∗ semVal ((c : Thread nD τ), SemLoc.dma 102) 0 ∗ semVal ((c : Thread nD τ), SemLoc.dma 103) 0 ∗ semVal ((c : Thread nD τ), SemLoc.dma 104) 0 ∗ semVal ((c : Thread nD τ), SemLoc.dma 105) 0 ∗ semVal ((c : Thread nD τ), SemLoc.dma 106) 0 ∗ semVal ((c : Thread nD τ), SemLoc.dma 107) 0 ∗ semVal ((c : Thread nD τ), SemLoc.dma 108) 0 ∗ semVal ((c : Thread nD τ), SemLoc.dma 109) 0 ∗ semVal ((c : Thread nD τ), SemLoc.dma 110) 0 ∗ semVal ((c : Thread nD τ), SemLoc.dma 111) 0 ∗ semVal ((c : Thread nD τ), SemLoc.dma 112) 0 ∗ semVal ((c : Thread nD τ), SemLoc.dma 113) 0 ∗ semVal ((c : Thread nD τ), SemLoc.dma 114) 0 ∗ semVal ((c : Thread nD τ), SemLoc.dma 115) 0 ∗ semVal ((c : Thread nD τ), SemLoc.dma 116) 0 ∗ semVal ((c : Thread nD τ), SemLoc.dma 117) 0 ∗ semVal ((c : Thread nD τ), SemLoc.dma 118) 0 ∗ semVal ((c : Thread nD τ), SemLoc.dma 119) 0 ∗ semVal ((c : Thread nD τ), SemLoc.dma 120) 0 ∗ semVal ((c : Thread nD τ), SemLoc.dma 121) 0 ∗ semVal ((c : Thread nD τ), SemLoc.dma 122) 0 ∗ semVal ((c : Thread nD τ), SemLoc.dma 123) 0 ∗ semVal ((c : Thread nD τ), SemLoc.dma 124) 0 ∗ semVal ((c : Thread nD τ), SemLoc.dma 125) 0 ∗ semVal ((c : Thread nD τ), SemLoc.dma 126) 0 ∗ semVal ((c : Thread nD τ), SemLoc.dma 127) 0 ∗ semVal ((c : Thread nD τ), SemLoc.dma 128) 0 ∗ semVal ((c : Thread nD τ), SemLoc.dma 129) 0 ∗ semVal ((c : Thread nD τ), SemLoc.dma 130) 0 ∗ semVal ((c : Thread nD τ), SemLoc.dma 131) 0
        ∗ owes (c : Thread nD τ) 0 W
        ∗ (iprop((arg1.view.loc (c : Thread nD τ) ↦[arg1.view.set]{fullShare} f1) ∗ (arg2.view.loc (c : Thread nD τ) ↦[arg2.view.set]{fullShare} f2)
            ∗ (arg3.view.loc (c : Thread nD τ) ↦[arg3.view.set]{Transfers.shareTokN fullShare 4} f3)
            ∗ (arg3.view.loc (c : Thread nD τ) ↦[arg3.view.set]{Transfers.shareTokN fullShare 5} f3)
            ∗ (arg3.view.loc (c : Thread nD τ) ↦[arg3.view.set]{Transfers.shareTokN fullShare 6} f3)
            ∗ (arg3.view.loc (c : Thread nD τ) ↦[arg3.view.set]{Transfers.shareTokN fullShare 7} f3)
            ∗ (arg3.view.loc (c : Thread nD τ) ↦[arg3.view.set]{Transfers.shareTokN fullShare 8} f3)
            ∗ (arg3.view.loc (c : Thread nD τ) ↦[arg3.view.set]{Transfers.shareTokN fullShare 9} f3)
            ∗ (arg3.view.loc (c : Thread nD τ) ↦[arg3.view.set]{Transfers.shareTokN fullShare 10} f3)
            ∗ (arg3.view.loc (c : Thread nD τ) ↦[arg3.view.set]{Transfers.shareTokN fullShare 11} f3)
            ∗ (arg3.view.loc (c : Thread nD τ) ↦[arg3.view.set]{Transfers.shareTokN fullShare 12} f3)
            ∗ (arg3.view.loc (c : Thread nD τ) ↦[arg3.view.set]{Transfers.shareTokN fullShare 13} f3)
            ∗ (arg3.view.loc (c : Thread nD τ) ↦[arg3.view.set]{Transfers.shareTokN fullShare 14} f3)
            ∗ (arg3.view.loc (c : Thread nD τ) ↦[arg3.view.set]{Transfers.shareTokN fullShare 15} f3)
            ∗ (arg3.view.loc (c : Thread nD τ) ↦[arg3.view.set]{Transfers.shareTokN fullShare 16} f3)
            ∗ (arg3.view.loc (c : Thread nD τ) ↦[arg3.view.set]{Transfers.shareTokN fullShare 17} f3)
            ∗ (arg3.view.loc (c : Thread nD τ) ↦[arg3.view.set]{Transfers.shareTokN fullShare 18} f3)
            ∗ (arg3.view.loc (c : Thread nD τ) ↦[arg3.view.set]{Transfers.shareTokN fullShare 19} f3)
            ∗ (arg3.view.loc (c : Thread nD τ) ↦[arg3.view.set]{Transfers.shareTokN fullShare 20} f3)
            ∗ (arg3.view.loc (c : Thread nD τ) ↦[arg3.view.set]{Transfers.shareTokN fullShare 21} f3)
            ∗ (arg3.view.loc (c : Thread nD τ) ↦[arg3.view.set]{Transfers.shareTokN fullShare 22} f3)
            ∗ (arg3.view.loc (c : Thread nD τ) ↦[arg3.view.set]{Transfers.shareTokN fullShare 23} f3)
            ∗ (arg3.view.loc (c : Thread nD τ) ↦[arg3.view.set]{Transfers.shareTokN fullShare 24} f3)
            ∗ (arg3.view.loc (c : Thread nD τ) ↦[arg3.view.set]{Transfers.shareTokN fullShare 25} f3)
            ∗ (arg3.view.loc (c : Thread nD τ) ↦[arg3.view.set]{Transfers.shareTokN fullShare 26} f3)
            ∗ (arg3.view.loc (c : Thread nD τ) ↦[arg3.view.set]{Transfers.shareTokN fullShare 27} f3)
            ∗ (arg3.view.loc (c : Thread nD τ) ↦[arg3.view.set]{Transfers.shareTokN fullShare 28} f3)
            ∗ (arg3.view.loc (c : Thread nD τ) ↦[arg3.view.set]{Transfers.shareTokN fullShare 29} f3)
            ∗ (arg3.view.loc (c : Thread nD τ) ↦[arg3.view.set]{Transfers.shareTokN fullShare 30} f3)
            ∗ (arg3.view.loc (c : Thread nD τ) ↦[arg3.view.set]{Transfers.shareTokN fullShare 31} f3)
            ∗ (arg3.view.loc (c : Thread nD τ) ↦[arg3.view.set]{Transfers.shareTokN fullShare 32} f3)
            ∗ (arg3.view.loc (c : Thread nD τ) ↦[arg3.view.set]{Transfers.shareTokN fullShare 33} f3)
            ∗ (arg3.view.loc (c : Thread nD τ) ↦[arg3.view.set]{Transfers.shareTokN fullShare 34} f3)
            ∗ (arg3.view.loc (c : Thread nD τ) ↦[arg3.view.set]{Transfers.shareTokN fullShare 35} f3)
            ∗ (arg3.view.loc (c : Thread nD τ) ↦[arg3.view.set]{Transfers.shareTokN fullShare 36} f3)
            ∗ (arg3.view.loc (c : Thread nD τ) ↦[arg3.view.set]{Transfers.shareTokN fullShare 37} f3)
            ∗ (arg3.view.loc (c : Thread nD τ) ↦[arg3.view.set]{Transfers.shareTokN fullShare 38} f3)
            ∗ (arg3.view.loc (c : Thread nD τ) ↦[arg3.view.set]{Transfers.shareTokN fullShare 39} f3)
            ∗ (arg3.view.loc (c : Thread nD τ) ↦[arg3.view.set]{Transfers.shareTokN fullShare 40} f3)
            ∗ (arg3.view.loc (c : Thread nD τ) ↦[arg3.view.set]{Transfers.shareTokN fullShare 41} f3)
            ∗ (arg3.view.loc (c : Thread nD τ) ↦[arg3.view.set]{Transfers.shareTokN fullShare 42} f3)
            ∗ (arg3.view.loc (c : Thread nD τ) ↦[arg3.view.set]{Transfers.shareTokN fullShare 43} f3)
            ∗ (arg3.view.loc (c : Thread nD τ) ↦[arg3.view.set]{Transfers.shareTokN fullShare 44} f3)
            ∗ (arg3.view.loc (c : Thread nD τ) ↦[arg3.view.set]{Transfers.shareTokN fullShare 45} f3)
            ∗ (arg3.view.loc (c : Thread nD τ) ↦[arg3.view.set]{Transfers.shareTokN fullShare 46} f3)
            ∗ (arg3.view.loc (c : Thread nD τ) ↦[arg3.view.set]{Transfers.shareTokN fullShare 47} f3)
            ∗ (arg3.view.loc (c : Thread nD τ) ↦[arg3.view.set]{Transfers.shareTokN fullShare 48} f3)
            ∗ (arg3.view.loc (c : Thread nD τ) ↦[arg3.view.set]{Transfers.shareTokN fullShare 49} f3)
            ∗ (arg3.view.loc (c : Thread nD τ) ↦[arg3.view.set]{Transfers.shareTokN fullShare 50} f3)
            ∗ (arg3.view.loc (c : Thread nD τ) ↦[arg3.view.set]{Transfers.shareTokN fullShare 51} f3)
            ∗ (arg3.view.loc (c : Thread nD τ) ↦[arg3.view.set]{Transfers.shareTokN fullShare 52} f3)
            ∗ (arg3.view.loc (c : Thread nD τ) ↦[arg3.view.set]{Transfers.shareTokN fullShare 53} f3)
            ∗ (arg3.view.loc (c : Thread nD τ) ↦[arg3.view.set]{Transfers.shareTokN fullShare 54} f3)
            ∗ (arg3.view.loc (c : Thread nD τ) ↦[arg3.view.set]{Transfers.shareTokN fullShare 55} f3)
            ∗ (arg3.view.loc (c : Thread nD τ) ↦[arg3.view.set]{Transfers.shareTokN fullShare 56} f3)
            ∗ (arg3.view.loc (c : Thread nD τ) ↦[arg3.view.set]{Transfers.shareTokN fullShare 57} f3)
            ∗ (arg3.view.loc (c : Thread nD τ) ↦[arg3.view.set]{Transfers.shareTokN fullShare 58} f3)
            ∗ (arg3.view.loc (c : Thread nD τ) ↦[arg3.view.set]{Transfers.shareTokN fullShare 59} f3)
            ∗ (arg3.view.loc (c : Thread nD τ) ↦[arg3.view.set]{Transfers.shareTokN fullShare 60} f3)
            ∗ (arg3.view.loc (c : Thread nD τ) ↦[arg3.view.set]{Transfers.shareTokN fullShare 61} f3)
            ∗ (arg3.view.loc (c : Thread nD τ) ↦[arg3.view.set]{Transfers.shareTokN fullShare 62} f3)
            ∗ (arg3.view.loc (c : Thread nD τ) ↦[arg3.view.set]{Transfers.shareTokN fullShare 63} f3)
            ∗ (arg3.view.loc (c : Thread nD τ) ↦[arg3.view.set]{Transfers.shareTokN fullShare 64} f3)
            ∗ (arg3.view.loc (c : Thread nD τ) ↦[arg3.view.set]{Transfers.shareTokN fullShare 65} f3)
            ∗ (arg3.view.loc (c : Thread nD τ) ↦[arg3.view.set]{Transfers.shareTokN fullShare 66} f3)
            ∗ (arg3.view.loc (c : Thread nD τ) ↦[arg3.view.set]{Transfers.shareTokN fullShare 67} f3)
            ∗ (arg3.view.loc (c : Thread nD τ) ↦[arg3.view.set]{Transfers.shareTokN fullShare 68} f3)
            ∗ (arg3.view.loc (c : Thread nD τ) ↦[arg3.view.set]{Transfers.shareTokN fullShare 69} f3)
            ∗ (arg3.view.loc (c : Thread nD τ) ↦[arg3.view.set]{Transfers.shareTokN fullShare 70} f3)
            ∗ (arg3.view.loc (c : Thread nD τ) ↦[arg3.view.set]{Transfers.shareTokN fullShare 71} f3)
            ∗ (arg3.view.loc (c : Thread nD τ) ↦[arg3.view.set]{Transfers.shareTokN fullShare 72} f3)
            ∗ (arg3.view.loc (c : Thread nD τ) ↦[arg3.view.set]{Transfers.shareTokN fullShare 73} f3)
            ∗ (arg3.view.loc (c : Thread nD τ) ↦[arg3.view.set]{Transfers.shareTokN fullShare 74} f3)
            ∗ (arg3.view.loc (c : Thread nD τ) ↦[arg3.view.set]{Transfers.shareTokN fullShare 75} f3)
            ∗ (arg3.view.loc (c : Thread nD τ) ↦[arg3.view.set]{Transfers.shareTokN fullShare 76} f3)
            ∗ (arg3.view.loc (c : Thread nD τ) ↦[arg3.view.set]{Transfers.shareTokN fullShare 77} f3)
            ∗ (arg3.view.loc (c : Thread nD τ) ↦[arg3.view.set]{Transfers.shareTokN fullShare 78} f3)
            ∗ (arg3.view.loc (c : Thread nD τ) ↦[arg3.view.set]{Transfers.shareTokN fullShare 79} f3)
            ∗ (arg3.view.loc (c : Thread nD τ) ↦[arg3.view.set]{Transfers.shareTokN fullShare 80} f3)
            ∗ (arg3.view.loc (c : Thread nD τ) ↦[arg3.view.set]{Transfers.shareTokN fullShare 81} f3)
            ∗ (arg3.view.loc (c : Thread nD τ) ↦[arg3.view.set]{Transfers.shareTokN fullShare 82} f3)
            ∗ (arg3.view.loc (c : Thread nD τ) ↦[arg3.view.set]{Transfers.shareTokN fullShare 83} f3)
            ∗ (arg3.view.loc (c : Thread nD τ) ↦[arg3.view.set]{Transfers.shareTokN fullShare 84} f3)
            ∗ (arg3.view.loc (c : Thread nD τ) ↦[arg3.view.set]{Transfers.shareTokN fullShare 85} f3)
            ∗ (arg3.view.loc (c : Thread nD τ) ↦[arg3.view.set]{Transfers.shareTokN fullShare 86} f3)
            ∗ (arg3.view.loc (c : Thread nD τ) ↦[arg3.view.set]{Transfers.shareTokN fullShare 87} f3)
            ∗ (arg3.view.loc (c : Thread nD τ) ↦[arg3.view.set]{Transfers.shareTokN fullShare 88} f3)
            ∗ (arg3.view.loc (c : Thread nD τ) ↦[arg3.view.set]{Transfers.shareTokN fullShare 89} f3)
            ∗ (arg3.view.loc (c : Thread nD τ) ↦[arg3.view.set]{Transfers.shareTokN fullShare 90} f3)
            ∗ (arg3.view.loc (c : Thread nD τ) ↦[arg3.view.set]{Transfers.shareTokN fullShare 91} f3)
            ∗ (arg3.view.loc (c : Thread nD τ) ↦[arg3.view.set]{Transfers.shareTokN fullShare 92} f3)
            ∗ (arg3.view.loc (c : Thread nD τ) ↦[arg3.view.set]{Transfers.shareTokN fullShare 93} f3)
            ∗ (arg3.view.loc (c : Thread nD τ) ↦[arg3.view.set]{Transfers.shareTokN fullShare 94} f3)
            ∗ (arg3.view.loc (c : Thread nD τ) ↦[arg3.view.set]{Transfers.shareTokN fullShare 95} f3)
            ∗ (arg3.view.loc (c : Thread nD τ) ↦[arg3.view.set]{Transfers.shareTokN fullShare 96} f3)
            ∗ (arg3.view.loc (c : Thread nD τ) ↦[arg3.view.set]{Transfers.shareTokN fullShare 97} f3)
            ∗ (arg3.view.loc (c : Thread nD τ) ↦[arg3.view.set]{Transfers.shareTokN fullShare 98} f3)
            ∗ (arg3.view.loc (c : Thread nD τ) ↦[arg3.view.set]{Transfers.shareTokN fullShare 99} f3)
            ∗ (arg3.view.loc (c : Thread nD τ) ↦[arg3.view.set]{Transfers.shareTokN fullShare 100} f3)
            ∗ (arg3.view.loc (c : Thread nD τ) ↦[arg3.view.set]{Transfers.shareTokN fullShare 101} f3)
            ∗ (arg3.view.loc (c : Thread nD τ) ↦[arg3.view.set]{Transfers.shareTokN fullShare 102} f3)
            ∗ (arg3.view.loc (c : Thread nD τ) ↦[arg3.view.set]{Transfers.shareTokN fullShare 103} f3)
            ∗ (arg3.view.loc (c : Thread nD τ) ↦[arg3.view.set]{Transfers.shareTokN fullShare 104} f3)
            ∗ (arg3.view.loc (c : Thread nD τ) ↦[arg3.view.set]{Transfers.shareTokN fullShare 105} f3)
            ∗ (arg3.view.loc (c : Thread nD τ) ↦[arg3.view.set]{Transfers.shareTokN fullShare 106} f3)
            ∗ (arg3.view.loc (c : Thread nD τ) ↦[arg3.view.set]{Transfers.shareTokN fullShare 107} f3)
            ∗ (arg3.view.loc (c : Thread nD τ) ↦[arg3.view.set]{Transfers.shareTokN fullShare 108} f3)
            ∗ (arg3.view.loc (c : Thread nD τ) ↦[arg3.view.set]{Transfers.shareTokN fullShare 109} f3)
            ∗ (arg3.view.loc (c : Thread nD τ) ↦[arg3.view.set]{Transfers.shareTokN fullShare 110} f3)
            ∗ (arg3.view.loc (c : Thread nD τ) ↦[arg3.view.set]{Transfers.shareTokN fullShare 111} f3)
            ∗ (arg3.view.loc (c : Thread nD τ) ↦[arg3.view.set]{Transfers.shareTokN fullShare 112} f3)
            ∗ (arg3.view.loc (c : Thread nD τ) ↦[arg3.view.set]{Transfers.shareTokN fullShare 113} f3)
            ∗ (arg3.view.loc (c : Thread nD τ) ↦[arg3.view.set]{Transfers.shareTokN fullShare 114} f3)
            ∗ (arg3.view.loc (c : Thread nD τ) ↦[arg3.view.set]{Transfers.shareTokN fullShare 115} f3)
            ∗ (arg3.view.loc (c : Thread nD τ) ↦[arg3.view.set]{Transfers.shareTokN fullShare 116} f3)
            ∗ (arg3.view.loc (c : Thread nD τ) ↦[arg3.view.set]{Transfers.shareTokN fullShare 117} f3)
            ∗ (arg3.view.loc (c : Thread nD τ) ↦[arg3.view.set]{Transfers.shareTokN fullShare 118} f3)
            ∗ (arg3.view.loc (c : Thread nD τ) ↦[arg3.view.set]{Transfers.shareTokN fullShare 119} f3)
            ∗ (arg3.view.loc (c : Thread nD τ) ↦[arg3.view.set]{Transfers.shareTokN fullShare 120} f3)
            ∗ (arg3.view.loc (c : Thread nD τ) ↦[arg3.view.set]{Transfers.shareTokN fullShare 121} f3)
            ∗ (arg3.view.loc (c : Thread nD τ) ↦[arg3.view.set]{Transfers.shareTokN fullShare 122} f3)
            ∗ (arg3.view.loc (c : Thread nD τ) ↦[arg3.view.set]{Transfers.shareTokN fullShare 123} f3)
            ∗ (arg3.view.loc (c : Thread nD τ) ↦[arg3.view.set]{Transfers.shareTokN fullShare 124} f3)
            ∗ (arg3.view.loc (c : Thread nD τ) ↦[arg3.view.set]{Transfers.shareTokN fullShare 125} f3)
            ∗ (arg3.view.loc (c : Thread nD τ) ↦[arg3.view.set]{Transfers.shareTokN fullShare 126} f3)
            ∗ (arg3.view.loc (c : Thread nD τ) ↦[arg3.view.set]{Transfers.shareTokN fullShare 127} f3)
            ∗ (arg3.view.loc (c : Thread nD τ) ↦[arg3.view.set]{Transfers.shareTokN fullShare 128} f3)
            ∗ (arg3.view.loc (c : Thread nD τ) ↦[arg3.view.set]{Transfers.shareTokN fullShare 129} f3)
            ∗ (arg3.view.loc (c : Thread nD τ) ↦[arg3.view.set]{Transfers.shareTokN fullShare 130} f3)
            ∗ (arg3.view.loc (c : Thread nD τ) ↦[arg3.view.set]{Transfers.shareTokN fullShare 131} f3)
            ∗ owns (c : Thread nD τ) arg4 fullShare (k0_pay1 (gatherRows (arg1.view.read (Elt F) f1) (arg3.view.read (Elt F) f3) t))
            ∗ owns (c : Thread nD τ) arg5 fullShare (k0_pay2 (gatherRows (arg2.view.read (Elt F) f2) (arg3.view.read (Elt F) f3) t))
            ∗ (∃ g : Buf (Elt F) (arg6.view.loc (c : Thread nD τ)), arg6.view.loc (c : Thread nD τ) ↦[arg6.view.set]{fullShare} g)
            ∗ (∃ g : Buf (Elt F) (arg7.view.loc (c : Thread nD τ)), arg7.view.loc (c : Thread nD τ) ↦[arg7.view.set]{fullShare} g)
            ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ semVal ((c : Thread nD τ), SemLoc.dma 53) 0 ∗ semVal ((c : Thread nD τ), SemLoc.dma 54) 0 ∗ semVal ((c : Thread nD τ), SemLoc.dma 55) 0 ∗ semVal ((c : Thread nD τ), SemLoc.dma 56) 0 ∗ semVal ((c : Thread nD τ), SemLoc.dma 57) 0 ∗ semVal ((c : Thread nD τ), SemLoc.dma 58) 0 ∗ semVal ((c : Thread nD τ), SemLoc.dma 59) 0 ∗ semVal ((c : Thread nD τ), SemLoc.dma 60) 0 ∗ semVal ((c : Thread nD τ), SemLoc.dma 61) 0 ∗ semVal ((c : Thread nD τ), SemLoc.dma 62) 0 ∗ semVal ((c : Thread nD τ), SemLoc.dma 63) 0 ∗ semVal ((c : Thread nD τ), SemLoc.dma 64) 0 ∗ semVal ((c : Thread nD τ), SemLoc.dma 65) 0 ∗ semVal ((c : Thread nD τ), SemLoc.dma 66) 0 ∗ semVal ((c : Thread nD τ), SemLoc.dma 67) 0 ∗ semVal ((c : Thread nD τ), SemLoc.dma 68) 0 ∗ semVal ((c : Thread nD τ), SemLoc.dma 69) 0 ∗ semVal ((c : Thread nD τ), SemLoc.dma 70) 0 ∗ semVal ((c : Thread nD τ), SemLoc.dma 71) 0 ∗ semVal ((c : Thread nD τ), SemLoc.dma 72) 0 ∗ semVal ((c : Thread nD τ), SemLoc.dma 73) 0 ∗ semVal ((c : Thread nD τ), SemLoc.dma 74) 0 ∗ semVal ((c : Thread nD τ), SemLoc.dma 75) 0 ∗ semVal ((c : Thread nD τ), SemLoc.dma 76) 0 ∗ semVal ((c : Thread nD τ), SemLoc.dma 77) 0 ∗ semVal ((c : Thread nD τ), SemLoc.dma 78) 0 ∗ semVal ((c : Thread nD τ), SemLoc.dma 79) 0 ∗ semVal ((c : Thread nD τ), SemLoc.dma 80) 0 ∗ semVal ((c : Thread nD τ), SemLoc.dma 81) 0 ∗ semVal ((c : Thread nD τ), SemLoc.dma 82) 0 ∗ semVal ((c : Thread nD τ), SemLoc.dma 83) 0 ∗ semVal ((c : Thread nD τ), SemLoc.dma 84) 0 ∗ semVal ((c : Thread nD τ), SemLoc.dma 85) 0 ∗ semVal ((c : Thread nD τ), SemLoc.dma 86) 0 ∗ semVal ((c : Thread nD τ), SemLoc.dma 87) 0 ∗ semVal ((c : Thread nD τ), SemLoc.dma 88) 0 ∗ semVal ((c : Thread nD τ), SemLoc.dma 89) 0 ∗ semVal ((c : Thread nD τ), SemLoc.dma 90) 0 ∗ semVal ((c : Thread nD τ), SemLoc.dma 91) 0 ∗ semVal ((c : Thread nD τ), SemLoc.dma 92) 0 ∗ semVal ((c : Thread nD τ), SemLoc.dma 93) 0 ∗ semVal ((c : Thread nD τ), SemLoc.dma 94) 0 ∗ semVal ((c : Thread nD τ), SemLoc.dma 95) 0 ∗ semVal ((c : Thread nD τ), SemLoc.dma 96) 0 ∗ semVal ((c : Thread nD τ), SemLoc.dma 97) 0 ∗ semVal ((c : Thread nD τ), SemLoc.dma 98) 0 ∗ semVal ((c : Thread nD τ), SemLoc.dma 99) 0 ∗ semVal ((c : Thread nD τ), SemLoc.dma 100) 0 ∗ semVal ((c : Thread nD τ), SemLoc.dma 101) 0 ∗ semVal ((c : Thread nD τ), SemLoc.dma 102) 0 ∗ semVal ((c : Thread nD τ), SemLoc.dma 103) 0 ∗ semVal ((c : Thread nD τ), SemLoc.dma 104) 0 ∗ semVal ((c : Thread nD τ), SemLoc.dma 105) 0 ∗ semVal ((c : Thread nD τ), SemLoc.dma 106) 0 ∗ semVal ((c : Thread nD τ), SemLoc.dma 107) 0 ∗ semVal ((c : Thread nD τ), SemLoc.dma 108) 0 ∗ semVal ((c : Thread nD τ), SemLoc.dma 109) 0 ∗ semVal ((c : Thread nD τ), SemLoc.dma 110) 0 ∗ semVal ((c : Thread nD τ), SemLoc.dma 111) 0 ∗ semVal ((c : Thread nD τ), SemLoc.dma 112) 0 ∗ semVal ((c : Thread nD τ), SemLoc.dma 113) 0 ∗ semVal ((c : Thread nD τ), SemLoc.dma 114) 0 ∗ semVal ((c : Thread nD τ), SemLoc.dma 115) 0 ∗ semVal ((c : Thread nD τ), SemLoc.dma 116) 0 ∗ semVal ((c : Thread nD τ), SemLoc.dma 117) 0 ∗ semVal ((c : Thread nD τ), SemLoc.dma 118) 0 ∗ semVal ((c : Thread nD τ), SemLoc.dma 119) 0 ∗ semVal ((c : Thread nD τ), SemLoc.dma 120) 0 ∗ semVal ((c : Thread nD τ), SemLoc.dma 121) 0 ∗ semVal ((c : Thread nD τ), SemLoc.dma 122) 0 ∗ semVal ((c : Thread nD τ), SemLoc.dma 123) 0 ∗ semVal ((c : Thread nD τ), SemLoc.dma 124) 0 ∗ semVal ((c : Thread nD τ), SemLoc.dma 125) 0 ∗ semVal ((c : Thread nD τ), SemLoc.dma 126) 0 ∗ semVal ((c : Thread nD τ), SemLoc.dma 127) 0 ∗ semVal ((c : Thread nD τ), SemLoc.dma 128) 0 ∗ semVal ((c : Thread nD τ), SemLoc.dma 129) 0 ∗ semVal ((c : Thread nD τ), SemLoc.dma 130) 0 ∗ semVal ((c : Thread nD τ), SemLoc.dma 131) 0
            ∗ (∃ W', owes (c : Thread nD τ) 0 W')) -∗ K ⟨⟩))
      ⊢ wp frame (wpE (defs₀ (F := F)) Variants.none c none) Set.univ (cc0_gather_kernel (grid0.coords t) arg1 harg1 arg2 harg2 arg3 harg3 arg4 harg4 arg5 harg5 arg6 harg6 arg7 harg7 cc0_scratch2 cc0_scratch3) K := by
  rw [cc0_gather_kernel_eq_skeleton]; unfold cc0_gather_kernel_skel
  unfold owns
  iintro ⟨H1, H2, T4, T5, T6, T7, T8, T9, T10, T11, T12, T13, T14, T15, T16, T17, T18, T19, T20, T21, T22, T23, T24, T25, T26, T27, T28, T29, T30, T31, T32, T33, T34, T35, T36, T37, T38, T39, T40, T41, T42, T43, T44, T45, T46, T47, T48, T49, T50, T51, T52, T53, T54, T55, T56, T57, T58, T59, T60, T61, T62, T63, T64, T65, T66, T67, T68, T69, T70, T71, T72, T73, T74, T75, T76, T77, T78, T79, T80, T81, T82, T83, T84, T85, T86, T87, T88, T89, T90, T91, T92, T93, T94, T95, T96, T97, T98, T99, T100, T101, T102, T103, T104, T105, T106, T107, T108, T109, T110, T111, T112, T113, T114, T115, T116, T117, T118, T119, T120, T121, T122, T123, T124, T125, T126, T127, T128, T129, T130, T131, H4, H5, H6, H7, C4, C5, C6, C7, C8, C9, C10, C11, C12, C13, C14, C15, C16, C17, C18, C19, C20, C21, C22, C23, C24, C25, C26, C27, C28, C29, C30, C31, C32, C33, C34, C35, C36, C37, C38, C39, C40, C41, C42, C43, C44, C45, C46, C47, C48, C49, C50, C51, C52, C53, C54, C55, C56, C57, C58, C59, C60, C61, C62, C63, C64, C65, C66, C67, C68, C69, C70, C71, C72, C73, C74, C75, C76, C77, C78, C79, C80, C81, C82, C83, C84, C85, C86, C87, C88, C89, C90, C91, C92, C93, C94, C95, C96, C97, C98, C99, C100, C101, C102, C103, C104, C105, C106, C107, C108, C109, C110, C111, C112, C113, C114, C115, C116, C117, C118, C119, C120, C121, C122, C123, C124, C125, C126, C127, C128, C129, C130, C131, HW, Hk⟩
  -- each scratch as its 64 rows
  ihave S6 := (rows_split c arg6 f6) $$ H6
  icases S6 with ⟨R6_0, R6_1, R6_2, R6_3, R6_4, R6_5, R6_6, R6_7, R6_8, R6_9, R6_10, R6_11, R6_12, R6_13, R6_14, R6_15, R6_16, R6_17, R6_18, R6_19, R6_20, R6_21, R6_22, R6_23, R6_24, R6_25, R6_26, R6_27, R6_28, R6_29, R6_30, R6_31, R6_32, R6_33, R6_34, R6_35, R6_36, R6_37, R6_38, R6_39, R6_40, R6_41, R6_42, R6_43, R6_44, R6_45, R6_46, R6_47, R6_48, R6_49, R6_50, R6_51, R6_52, R6_53, R6_54, R6_55, R6_56, R6_57, R6_58, R6_59, R6_60, R6_61, R6_62, R6_63⟩
  ihave S7 := (rows_split c arg7 f7) $$ H7
  icases S7 with ⟨R7_0, R7_1, R7_2, R7_3, R7_4, R7_5, R7_6, R7_7, R7_8, R7_9, R7_10, R7_11, R7_12, R7_13, R7_14, R7_15, R7_16, R7_17, R7_18, R7_19, R7_20, R7_21, R7_22, R7_23, R7_24, R7_25, R7_26, R7_27, R7_28, R7_29, R7_30, R7_31, R7_32, R7_33, R7_34, R7_35, R7_36, R7_37, R7_38, R7_39, R7_40, R7_41, R7_42, R7_43, R7_44, R7_45, R7_46, R7_47, R7_48, R7_49, R7_50, R7_51, R7_52, R7_53, R7_54, R7_55, R7_56, R7_57, R7_58, R7_59, R7_60, R7_61, R7_62, R7_63⟩
  -- the 128 reads, range facts and copies, then the 128 waits
  sl_exec_parts (disch := exact chk_of_inRange _ _ _ (by assumption) _ _)
  -- what each copy delivered is a row of the gathered rows
  have e6_0 : ∀ y : S19200.Idx, gather_body.sl.dma2 c t arg1 arg3 f1 f3 hw1 y = gatherRows (arg1.view.read (Elt F) f1) (arg3.view.read (Elt F) f3) t (ix2 (0 : Fin 64) (y 0)) :=
    fun y => pay_apply c t 0 arg1 arg3 f1 f3 _ (word_eq arg1 c f1 _ _ _ (wordPos t 0) (wordOff_eq t 0)) (hw1 _ _) _ _ y
  have e6_1 : ∀ y : S19200.Idx, gather_body.sl.dma4 c t arg1 arg3 f1 f3 hw1 y = gatherRows (arg1.view.read (Elt F) f1) (arg3.view.read (Elt F) f3) t (ix2 (1 : Fin 64) (y 0)) :=
    fun y => pay_apply c t 1 arg1 arg3 f1 f3 _ (word_eq arg1 c f1 _ _ _ (wordPos t 1) (wordOff_eq t 1)) (hw1 _ _) _ _ y
  have e6_2 : ∀ y : S19200.Idx, gather_body.sl.dma6 c t arg1 arg3 f1 f3 hw1 y = gatherRows (arg1.view.read (Elt F) f1) (arg3.view.read (Elt F) f3) t (ix2 (2 : Fin 64) (y 0)) :=
    fun y => pay_apply c t 2 arg1 arg3 f1 f3 _ (word_eq arg1 c f1 _ _ _ (wordPos t 2) (wordOff_eq t 2)) (hw1 _ _) _ _ y
  have e6_3 : ∀ y : S19200.Idx, gather_body.sl.dma8 c t arg1 arg3 f1 f3 hw1 y = gatherRows (arg1.view.read (Elt F) f1) (arg3.view.read (Elt F) f3) t (ix2 (3 : Fin 64) (y 0)) :=
    fun y => pay_apply c t 3 arg1 arg3 f1 f3 _ (word_eq arg1 c f1 _ _ _ (wordPos t 3) (wordOff_eq t 3)) (hw1 _ _) _ _ y
  have e6_4 : ∀ y : S19200.Idx, gather_body.sl.dma10 c t arg1 arg3 f1 f3 hw1 y = gatherRows (arg1.view.read (Elt F) f1) (arg3.view.read (Elt F) f3) t (ix2 (4 : Fin 64) (y 0)) :=
    fun y => pay_apply c t 4 arg1 arg3 f1 f3 _ (word_eq arg1 c f1 _ _ _ (wordPos t 4) (wordOff_eq t 4)) (hw1 _ _) _ _ y
  have e6_5 : ∀ y : S19200.Idx, gather_body.sl.dma12 c t arg1 arg3 f1 f3 hw1 y = gatherRows (arg1.view.read (Elt F) f1) (arg3.view.read (Elt F) f3) t (ix2 (5 : Fin 64) (y 0)) :=
    fun y => pay_apply c t 5 arg1 arg3 f1 f3 _ (word_eq arg1 c f1 _ _ _ (wordPos t 5) (wordOff_eq t 5)) (hw1 _ _) _ _ y
  have e6_6 : ∀ y : S19200.Idx, gather_body.sl.dma14 c t arg1 arg3 f1 f3 hw1 y = gatherRows (arg1.view.read (Elt F) f1) (arg3.view.read (Elt F) f3) t (ix2 (6 : Fin 64) (y 0)) :=
    fun y => pay_apply c t 6 arg1 arg3 f1 f3 _ (word_eq arg1 c f1 _ _ _ (wordPos t 6) (wordOff_eq t 6)) (hw1 _ _) _ _ y
  have e6_7 : ∀ y : S19200.Idx, gather_body.sl.dma16 c t arg1 arg3 f1 f3 hw1 y = gatherRows (arg1.view.read (Elt F) f1) (arg3.view.read (Elt F) f3) t (ix2 (7 : Fin 64) (y 0)) :=
    fun y => pay_apply c t 7 arg1 arg3 f1 f3 _ (word_eq arg1 c f1 _ _ _ (wordPos t 7) (wordOff_eq t 7)) (hw1 _ _) _ _ y
  have e6_8 : ∀ y : S19200.Idx, gather_body.sl.dma18 c t arg1 arg3 f1 f3 hw1 y = gatherRows (arg1.view.read (Elt F) f1) (arg3.view.read (Elt F) f3) t (ix2 (8 : Fin 64) (y 0)) :=
    fun y => pay_apply c t 8 arg1 arg3 f1 f3 _ (word_eq arg1 c f1 _ _ _ (wordPos t 8) (wordOff_eq t 8)) (hw1 _ _) _ _ y
  have e6_9 : ∀ y : S19200.Idx, gather_body.sl.dma20 c t arg1 arg3 f1 f3 hw1 y = gatherRows (arg1.view.read (Elt F) f1) (arg3.view.read (Elt F) f3) t (ix2 (9 : Fin 64) (y 0)) :=
    fun y => pay_apply c t 9 arg1 arg3 f1 f3 _ (word_eq arg1 c f1 _ _ _ (wordPos t 9) (wordOff_eq t 9)) (hw1 _ _) _ _ y
  have e6_10 : ∀ y : S19200.Idx, gather_body.sl.dma22 c t arg1 arg3 f1 f3 hw1 y = gatherRows (arg1.view.read (Elt F) f1) (arg3.view.read (Elt F) f3) t (ix2 (10 : Fin 64) (y 0)) :=
    fun y => pay_apply c t 10 arg1 arg3 f1 f3 _ (word_eq arg1 c f1 _ _ _ (wordPos t 10) (wordOff_eq t 10)) (hw1 _ _) _ _ y
  have e6_11 : ∀ y : S19200.Idx, gather_body.sl.dma24 c t arg1 arg3 f1 f3 hw1 y = gatherRows (arg1.view.read (Elt F) f1) (arg3.view.read (Elt F) f3) t (ix2 (11 : Fin 64) (y 0)) :=
    fun y => pay_apply c t 11 arg1 arg3 f1 f3 _ (word_eq arg1 c f1 _ _ _ (wordPos t 11) (wordOff_eq t 11)) (hw1 _ _) _ _ y
  have e6_12 : ∀ y : S19200.Idx, gather_body.sl.dma26 c t arg1 arg3 f1 f3 hw1 y = gatherRows (arg1.view.read (Elt F) f1) (arg3.view.read (Elt F) f3) t (ix2 (12 : Fin 64) (y 0)) :=
    fun y => pay_apply c t 12 arg1 arg3 f1 f3 _ (word_eq arg1 c f1 _ _ _ (wordPos t 12) (wordOff_eq t 12)) (hw1 _ _) _ _ y
  have e6_13 : ∀ y : S19200.Idx, gather_body.sl.dma28 c t arg1 arg3 f1 f3 hw1 y = gatherRows (arg1.view.read (Elt F) f1) (arg3.view.read (Elt F) f3) t (ix2 (13 : Fin 64) (y 0)) :=
    fun y => pay_apply c t 13 arg1 arg3 f1 f3 _ (word_eq arg1 c f1 _ _ _ (wordPos t 13) (wordOff_eq t 13)) (hw1 _ _) _ _ y
  have e6_14 : ∀ y : S19200.Idx, gather_body.sl.dma30 c t arg1 arg3 f1 f3 hw1 y = gatherRows (arg1.view.read (Elt F) f1) (arg3.view.read (Elt F) f3) t (ix2 (14 : Fin 64) (y 0)) :=
    fun y => pay_apply c t 14 arg1 arg3 f1 f3 _ (word_eq arg1 c f1 _ _ _ (wordPos t 14) (wordOff_eq t 14)) (hw1 _ _) _ _ y
  have e6_15 : ∀ y : S19200.Idx, gather_body.sl.dma32 c t arg1 arg3 f1 f3 hw1 y = gatherRows (arg1.view.read (Elt F) f1) (arg3.view.read (Elt F) f3) t (ix2 (15 : Fin 64) (y 0)) :=
    fun y => pay_apply c t 15 arg1 arg3 f1 f3 _ (word_eq arg1 c f1 _ _ _ (wordPos t 15) (wordOff_eq t 15)) (hw1 _ _) _ _ y
  have e6_16 : ∀ y : S19200.Idx, gather_body.sl.dma34 c t arg1 arg3 f1 f3 hw1 y = gatherRows (arg1.view.read (Elt F) f1) (arg3.view.read (Elt F) f3) t (ix2 (16 : Fin 64) (y 0)) :=
    fun y => pay_apply c t 16 arg1 arg3 f1 f3 _ (word_eq arg1 c f1 _ _ _ (wordPos t 16) (wordOff_eq t 16)) (hw1 _ _) _ _ y
  have e6_17 : ∀ y : S19200.Idx, gather_body.sl.dma36 c t arg1 arg3 f1 f3 hw1 y = gatherRows (arg1.view.read (Elt F) f1) (arg3.view.read (Elt F) f3) t (ix2 (17 : Fin 64) (y 0)) :=
    fun y => pay_apply c t 17 arg1 arg3 f1 f3 _ (word_eq arg1 c f1 _ _ _ (wordPos t 17) (wordOff_eq t 17)) (hw1 _ _) _ _ y
  have e6_18 : ∀ y : S19200.Idx, gather_body.sl.dma38 c t arg1 arg3 f1 f3 hw1 y = gatherRows (arg1.view.read (Elt F) f1) (arg3.view.read (Elt F) f3) t (ix2 (18 : Fin 64) (y 0)) :=
    fun y => pay_apply c t 18 arg1 arg3 f1 f3 _ (word_eq arg1 c f1 _ _ _ (wordPos t 18) (wordOff_eq t 18)) (hw1 _ _) _ _ y
  have e6_19 : ∀ y : S19200.Idx, gather_body.sl.dma40 c t arg1 arg3 f1 f3 hw1 y = gatherRows (arg1.view.read (Elt F) f1) (arg3.view.read (Elt F) f3) t (ix2 (19 : Fin 64) (y 0)) :=
    fun y => pay_apply c t 19 arg1 arg3 f1 f3 _ (word_eq arg1 c f1 _ _ _ (wordPos t 19) (wordOff_eq t 19)) (hw1 _ _) _ _ y
  have e6_20 : ∀ y : S19200.Idx, gather_body.sl.dma42 c t arg1 arg3 f1 f3 hw1 y = gatherRows (arg1.view.read (Elt F) f1) (arg3.view.read (Elt F) f3) t (ix2 (20 : Fin 64) (y 0)) :=
    fun y => pay_apply c t 20 arg1 arg3 f1 f3 _ (word_eq arg1 c f1 _ _ _ (wordPos t 20) (wordOff_eq t 20)) (hw1 _ _) _ _ y
  have e6_21 : ∀ y : S19200.Idx, gather_body.sl.dma44 c t arg1 arg3 f1 f3 hw1 y = gatherRows (arg1.view.read (Elt F) f1) (arg3.view.read (Elt F) f3) t (ix2 (21 : Fin 64) (y 0)) :=
    fun y => pay_apply c t 21 arg1 arg3 f1 f3 _ (word_eq arg1 c f1 _ _ _ (wordPos t 21) (wordOff_eq t 21)) (hw1 _ _) _ _ y
  have e6_22 : ∀ y : S19200.Idx, gather_body.sl.dma46 c t arg1 arg3 f1 f3 hw1 y = gatherRows (arg1.view.read (Elt F) f1) (arg3.view.read (Elt F) f3) t (ix2 (22 : Fin 64) (y 0)) :=
    fun y => pay_apply c t 22 arg1 arg3 f1 f3 _ (word_eq arg1 c f1 _ _ _ (wordPos t 22) (wordOff_eq t 22)) (hw1 _ _) _ _ y
  have e6_23 : ∀ y : S19200.Idx, gather_body.sl.dma48 c t arg1 arg3 f1 f3 hw1 y = gatherRows (arg1.view.read (Elt F) f1) (arg3.view.read (Elt F) f3) t (ix2 (23 : Fin 64) (y 0)) :=
    fun y => pay_apply c t 23 arg1 arg3 f1 f3 _ (word_eq arg1 c f1 _ _ _ (wordPos t 23) (wordOff_eq t 23)) (hw1 _ _) _ _ y
  have e6_24 : ∀ y : S19200.Idx, gather_body.sl.dma50 c t arg1 arg3 f1 f3 hw1 y = gatherRows (arg1.view.read (Elt F) f1) (arg3.view.read (Elt F) f3) t (ix2 (24 : Fin 64) (y 0)) :=
    fun y => pay_apply c t 24 arg1 arg3 f1 f3 _ (word_eq arg1 c f1 _ _ _ (wordPos t 24) (wordOff_eq t 24)) (hw1 _ _) _ _ y
  have e6_25 : ∀ y : S19200.Idx, gather_body.sl.dma52 c t arg1 arg3 f1 f3 hw1 y = gatherRows (arg1.view.read (Elt F) f1) (arg3.view.read (Elt F) f3) t (ix2 (25 : Fin 64) (y 0)) :=
    fun y => pay_apply c t 25 arg1 arg3 f1 f3 _ (word_eq arg1 c f1 _ _ _ (wordPos t 25) (wordOff_eq t 25)) (hw1 _ _) _ _ y
  have e6_26 : ∀ y : S19200.Idx, gather_body.sl.dma54 c t arg1 arg3 f1 f3 hw1 y = gatherRows (arg1.view.read (Elt F) f1) (arg3.view.read (Elt F) f3) t (ix2 (26 : Fin 64) (y 0)) :=
    fun y => pay_apply c t 26 arg1 arg3 f1 f3 _ (word_eq arg1 c f1 _ _ _ (wordPos t 26) (wordOff_eq t 26)) (hw1 _ _) _ _ y
  have e6_27 : ∀ y : S19200.Idx, gather_body.sl.dma56 c t arg1 arg3 f1 f3 hw1 y = gatherRows (arg1.view.read (Elt F) f1) (arg3.view.read (Elt F) f3) t (ix2 (27 : Fin 64) (y 0)) :=
    fun y => pay_apply c t 27 arg1 arg3 f1 f3 _ (word_eq arg1 c f1 _ _ _ (wordPos t 27) (wordOff_eq t 27)) (hw1 _ _) _ _ y
  have e6_28 : ∀ y : S19200.Idx, gather_body.sl.dma58 c t arg1 arg3 f1 f3 hw1 y = gatherRows (arg1.view.read (Elt F) f1) (arg3.view.read (Elt F) f3) t (ix2 (28 : Fin 64) (y 0)) :=
    fun y => pay_apply c t 28 arg1 arg3 f1 f3 _ (word_eq arg1 c f1 _ _ _ (wordPos t 28) (wordOff_eq t 28)) (hw1 _ _) _ _ y
  have e6_29 : ∀ y : S19200.Idx, gather_body.sl.dma60 c t arg1 arg3 f1 f3 hw1 y = gatherRows (arg1.view.read (Elt F) f1) (arg3.view.read (Elt F) f3) t (ix2 (29 : Fin 64) (y 0)) :=
    fun y => pay_apply c t 29 arg1 arg3 f1 f3 _ (word_eq arg1 c f1 _ _ _ (wordPos t 29) (wordOff_eq t 29)) (hw1 _ _) _ _ y
  have e6_30 : ∀ y : S19200.Idx, gather_body.sl.dma62 c t arg1 arg3 f1 f3 hw1 y = gatherRows (arg1.view.read (Elt F) f1) (arg3.view.read (Elt F) f3) t (ix2 (30 : Fin 64) (y 0)) :=
    fun y => pay_apply c t 30 arg1 arg3 f1 f3 _ (word_eq arg1 c f1 _ _ _ (wordPos t 30) (wordOff_eq t 30)) (hw1 _ _) _ _ y
  have e6_31 : ∀ y : S19200.Idx, gather_body.sl.dma64 c t arg1 arg3 f1 f3 hw1 y = gatherRows (arg1.view.read (Elt F) f1) (arg3.view.read (Elt F) f3) t (ix2 (31 : Fin 64) (y 0)) :=
    fun y => pay_apply c t 31 arg1 arg3 f1 f3 _ (word_eq arg1 c f1 _ _ _ (wordPos t 31) (wordOff_eq t 31)) (hw1 _ _) _ _ y
  have e6_32 : ∀ y : S19200.Idx, gather_body.sl.dma66 c t arg1 arg3 f1 f3 hw1 y = gatherRows (arg1.view.read (Elt F) f1) (arg3.view.read (Elt F) f3) t (ix2 (32 : Fin 64) (y 0)) :=
    fun y => pay_apply c t 32 arg1 arg3 f1 f3 _ (word_eq arg1 c f1 _ _ _ (wordPos t 32) (wordOff_eq t 32)) (hw1 _ _) _ _ y
  have e6_33 : ∀ y : S19200.Idx, gather_body.sl.dma68 c t arg1 arg3 f1 f3 hw1 y = gatherRows (arg1.view.read (Elt F) f1) (arg3.view.read (Elt F) f3) t (ix2 (33 : Fin 64) (y 0)) :=
    fun y => pay_apply c t 33 arg1 arg3 f1 f3 _ (word_eq arg1 c f1 _ _ _ (wordPos t 33) (wordOff_eq t 33)) (hw1 _ _) _ _ y
  have e6_34 : ∀ y : S19200.Idx, gather_body.sl.dma70 c t arg1 arg3 f1 f3 hw1 y = gatherRows (arg1.view.read (Elt F) f1) (arg3.view.read (Elt F) f3) t (ix2 (34 : Fin 64) (y 0)) :=
    fun y => pay_apply c t 34 arg1 arg3 f1 f3 _ (word_eq arg1 c f1 _ _ _ (wordPos t 34) (wordOff_eq t 34)) (hw1 _ _) _ _ y
  have e6_35 : ∀ y : S19200.Idx, gather_body.sl.dma72 c t arg1 arg3 f1 f3 hw1 y = gatherRows (arg1.view.read (Elt F) f1) (arg3.view.read (Elt F) f3) t (ix2 (35 : Fin 64) (y 0)) :=
    fun y => pay_apply c t 35 arg1 arg3 f1 f3 _ (word_eq arg1 c f1 _ _ _ (wordPos t 35) (wordOff_eq t 35)) (hw1 _ _) _ _ y
  have e6_36 : ∀ y : S19200.Idx, gather_body.sl.dma74 c t arg1 arg3 f1 f3 hw1 y = gatherRows (arg1.view.read (Elt F) f1) (arg3.view.read (Elt F) f3) t (ix2 (36 : Fin 64) (y 0)) :=
    fun y => pay_apply c t 36 arg1 arg3 f1 f3 _ (word_eq arg1 c f1 _ _ _ (wordPos t 36) (wordOff_eq t 36)) (hw1 _ _) _ _ y
  have e6_37 : ∀ y : S19200.Idx, gather_body.sl.dma76 c t arg1 arg3 f1 f3 hw1 y = gatherRows (arg1.view.read (Elt F) f1) (arg3.view.read (Elt F) f3) t (ix2 (37 : Fin 64) (y 0)) :=
    fun y => pay_apply c t 37 arg1 arg3 f1 f3 _ (word_eq arg1 c f1 _ _ _ (wordPos t 37) (wordOff_eq t 37)) (hw1 _ _) _ _ y
  have e6_38 : ∀ y : S19200.Idx, gather_body.sl.dma78 c t arg1 arg3 f1 f3 hw1 y = gatherRows (arg1.view.read (Elt F) f1) (arg3.view.read (Elt F) f3) t (ix2 (38 : Fin 64) (y 0)) :=
    fun y => pay_apply c t 38 arg1 arg3 f1 f3 _ (word_eq arg1 c f1 _ _ _ (wordPos t 38) (wordOff_eq t 38)) (hw1 _ _) _ _ y
  have e6_39 : ∀ y : S19200.Idx, gather_body.sl.dma80 c t arg1 arg3 f1 f3 hw1 y = gatherRows (arg1.view.read (Elt F) f1) (arg3.view.read (Elt F) f3) t (ix2 (39 : Fin 64) (y 0)) :=
    fun y => pay_apply c t 39 arg1 arg3 f1 f3 _ (word_eq arg1 c f1 _ _ _ (wordPos t 39) (wordOff_eq t 39)) (hw1 _ _) _ _ y
  have e6_40 : ∀ y : S19200.Idx, gather_body.sl.dma82 c t arg1 arg3 f1 f3 hw1 y = gatherRows (arg1.view.read (Elt F) f1) (arg3.view.read (Elt F) f3) t (ix2 (40 : Fin 64) (y 0)) :=
    fun y => pay_apply c t 40 arg1 arg3 f1 f3 _ (word_eq arg1 c f1 _ _ _ (wordPos t 40) (wordOff_eq t 40)) (hw1 _ _) _ _ y
  have e6_41 : ∀ y : S19200.Idx, gather_body.sl.dma84 c t arg1 arg3 f1 f3 hw1 y = gatherRows (arg1.view.read (Elt F) f1) (arg3.view.read (Elt F) f3) t (ix2 (41 : Fin 64) (y 0)) :=
    fun y => pay_apply c t 41 arg1 arg3 f1 f3 _ (word_eq arg1 c f1 _ _ _ (wordPos t 41) (wordOff_eq t 41)) (hw1 _ _) _ _ y
  have e6_42 : ∀ y : S19200.Idx, gather_body.sl.dma86 c t arg1 arg3 f1 f3 hw1 y = gatherRows (arg1.view.read (Elt F) f1) (arg3.view.read (Elt F) f3) t (ix2 (42 : Fin 64) (y 0)) :=
    fun y => pay_apply c t 42 arg1 arg3 f1 f3 _ (word_eq arg1 c f1 _ _ _ (wordPos t 42) (wordOff_eq t 42)) (hw1 _ _) _ _ y
  have e6_43 : ∀ y : S19200.Idx, gather_body.sl.dma88 c t arg1 arg3 f1 f3 hw1 y = gatherRows (arg1.view.read (Elt F) f1) (arg3.view.read (Elt F) f3) t (ix2 (43 : Fin 64) (y 0)) :=
    fun y => pay_apply c t 43 arg1 arg3 f1 f3 _ (word_eq arg1 c f1 _ _ _ (wordPos t 43) (wordOff_eq t 43)) (hw1 _ _) _ _ y
  have e6_44 : ∀ y : S19200.Idx, gather_body.sl.dma90 c t arg1 arg3 f1 f3 hw1 y = gatherRows (arg1.view.read (Elt F) f1) (arg3.view.read (Elt F) f3) t (ix2 (44 : Fin 64) (y 0)) :=
    fun y => pay_apply c t 44 arg1 arg3 f1 f3 _ (word_eq arg1 c f1 _ _ _ (wordPos t 44) (wordOff_eq t 44)) (hw1 _ _) _ _ y
  have e6_45 : ∀ y : S19200.Idx, gather_body.sl.dma92 c t arg1 arg3 f1 f3 hw1 y = gatherRows (arg1.view.read (Elt F) f1) (arg3.view.read (Elt F) f3) t (ix2 (45 : Fin 64) (y 0)) :=
    fun y => pay_apply c t 45 arg1 arg3 f1 f3 _ (word_eq arg1 c f1 _ _ _ (wordPos t 45) (wordOff_eq t 45)) (hw1 _ _) _ _ y
  have e6_46 : ∀ y : S19200.Idx, gather_body.sl.dma94 c t arg1 arg3 f1 f3 hw1 y = gatherRows (arg1.view.read (Elt F) f1) (arg3.view.read (Elt F) f3) t (ix2 (46 : Fin 64) (y 0)) :=
    fun y => pay_apply c t 46 arg1 arg3 f1 f3 _ (word_eq arg1 c f1 _ _ _ (wordPos t 46) (wordOff_eq t 46)) (hw1 _ _) _ _ y
  have e6_47 : ∀ y : S19200.Idx, gather_body.sl.dma96 c t arg1 arg3 f1 f3 hw1 y = gatherRows (arg1.view.read (Elt F) f1) (arg3.view.read (Elt F) f3) t (ix2 (47 : Fin 64) (y 0)) :=
    fun y => pay_apply c t 47 arg1 arg3 f1 f3 _ (word_eq arg1 c f1 _ _ _ (wordPos t 47) (wordOff_eq t 47)) (hw1 _ _) _ _ y
  have e6_48 : ∀ y : S19200.Idx, gather_body.sl.dma98 c t arg1 arg3 f1 f3 hw1 y = gatherRows (arg1.view.read (Elt F) f1) (arg3.view.read (Elt F) f3) t (ix2 (48 : Fin 64) (y 0)) :=
    fun y => pay_apply c t 48 arg1 arg3 f1 f3 _ (word_eq arg1 c f1 _ _ _ (wordPos t 48) (wordOff_eq t 48)) (hw1 _ _) _ _ y
  have e6_49 : ∀ y : S19200.Idx, gather_body.sl.dma100 c t arg1 arg3 f1 f3 hw1 y = gatherRows (arg1.view.read (Elt F) f1) (arg3.view.read (Elt F) f3) t (ix2 (49 : Fin 64) (y 0)) :=
    fun y => pay_apply c t 49 arg1 arg3 f1 f3 _ (word_eq arg1 c f1 _ _ _ (wordPos t 49) (wordOff_eq t 49)) (hw1 _ _) _ _ y
  have e6_50 : ∀ y : S19200.Idx, gather_body.sl.dma102 c t arg1 arg3 f1 f3 hw1 y = gatherRows (arg1.view.read (Elt F) f1) (arg3.view.read (Elt F) f3) t (ix2 (50 : Fin 64) (y 0)) :=
    fun y => pay_apply c t 50 arg1 arg3 f1 f3 _ (word_eq arg1 c f1 _ _ _ (wordPos t 50) (wordOff_eq t 50)) (hw1 _ _) _ _ y
  have e6_51 : ∀ y : S19200.Idx, gather_body.sl.dma104 c t arg1 arg3 f1 f3 hw1 y = gatherRows (arg1.view.read (Elt F) f1) (arg3.view.read (Elt F) f3) t (ix2 (51 : Fin 64) (y 0)) :=
    fun y => pay_apply c t 51 arg1 arg3 f1 f3 _ (word_eq arg1 c f1 _ _ _ (wordPos t 51) (wordOff_eq t 51)) (hw1 _ _) _ _ y
  have e6_52 : ∀ y : S19200.Idx, gather_body.sl.dma106 c t arg1 arg3 f1 f3 hw1 y = gatherRows (arg1.view.read (Elt F) f1) (arg3.view.read (Elt F) f3) t (ix2 (52 : Fin 64) (y 0)) :=
    fun y => pay_apply c t 52 arg1 arg3 f1 f3 _ (word_eq arg1 c f1 _ _ _ (wordPos t 52) (wordOff_eq t 52)) (hw1 _ _) _ _ y
  have e6_53 : ∀ y : S19200.Idx, gather_body.sl.dma108 c t arg1 arg3 f1 f3 hw1 y = gatherRows (arg1.view.read (Elt F) f1) (arg3.view.read (Elt F) f3) t (ix2 (53 : Fin 64) (y 0)) :=
    fun y => pay_apply c t 53 arg1 arg3 f1 f3 _ (word_eq arg1 c f1 _ _ _ (wordPos t 53) (wordOff_eq t 53)) (hw1 _ _) _ _ y
  have e6_54 : ∀ y : S19200.Idx, gather_body.sl.dma110 c t arg1 arg3 f1 f3 hw1 y = gatherRows (arg1.view.read (Elt F) f1) (arg3.view.read (Elt F) f3) t (ix2 (54 : Fin 64) (y 0)) :=
    fun y => pay_apply c t 54 arg1 arg3 f1 f3 _ (word_eq arg1 c f1 _ _ _ (wordPos t 54) (wordOff_eq t 54)) (hw1 _ _) _ _ y
  have e6_55 : ∀ y : S19200.Idx, gather_body.sl.dma112 c t arg1 arg3 f1 f3 hw1 y = gatherRows (arg1.view.read (Elt F) f1) (arg3.view.read (Elt F) f3) t (ix2 (55 : Fin 64) (y 0)) :=
    fun y => pay_apply c t 55 arg1 arg3 f1 f3 _ (word_eq arg1 c f1 _ _ _ (wordPos t 55) (wordOff_eq t 55)) (hw1 _ _) _ _ y
  have e6_56 : ∀ y : S19200.Idx, gather_body.sl.dma114 c t arg1 arg3 f1 f3 hw1 y = gatherRows (arg1.view.read (Elt F) f1) (arg3.view.read (Elt F) f3) t (ix2 (56 : Fin 64) (y 0)) :=
    fun y => pay_apply c t 56 arg1 arg3 f1 f3 _ (word_eq arg1 c f1 _ _ _ (wordPos t 56) (wordOff_eq t 56)) (hw1 _ _) _ _ y
  have e6_57 : ∀ y : S19200.Idx, gather_body.sl.dma116 c t arg1 arg3 f1 f3 hw1 y = gatherRows (arg1.view.read (Elt F) f1) (arg3.view.read (Elt F) f3) t (ix2 (57 : Fin 64) (y 0)) :=
    fun y => pay_apply c t 57 arg1 arg3 f1 f3 _ (word_eq arg1 c f1 _ _ _ (wordPos t 57) (wordOff_eq t 57)) (hw1 _ _) _ _ y
  have e6_58 : ∀ y : S19200.Idx, gather_body.sl.dma118 c t arg1 arg3 f1 f3 hw1 y = gatherRows (arg1.view.read (Elt F) f1) (arg3.view.read (Elt F) f3) t (ix2 (58 : Fin 64) (y 0)) :=
    fun y => pay_apply c t 58 arg1 arg3 f1 f3 _ (word_eq arg1 c f1 _ _ _ (wordPos t 58) (wordOff_eq t 58)) (hw1 _ _) _ _ y
  have e6_59 : ∀ y : S19200.Idx, gather_body.sl.dma120 c t arg1 arg3 f1 f3 hw1 y = gatherRows (arg1.view.read (Elt F) f1) (arg3.view.read (Elt F) f3) t (ix2 (59 : Fin 64) (y 0)) :=
    fun y => pay_apply c t 59 arg1 arg3 f1 f3 _ (word_eq arg1 c f1 _ _ _ (wordPos t 59) (wordOff_eq t 59)) (hw1 _ _) _ _ y
  have e6_60 : ∀ y : S19200.Idx, gather_body.sl.dma122 c t arg1 arg3 f1 f3 hw1 y = gatherRows (arg1.view.read (Elt F) f1) (arg3.view.read (Elt F) f3) t (ix2 (60 : Fin 64) (y 0)) :=
    fun y => pay_apply c t 60 arg1 arg3 f1 f3 _ (word_eq arg1 c f1 _ _ _ (wordPos t 60) (wordOff_eq t 60)) (hw1 _ _) _ _ y
  have e6_61 : ∀ y : S19200.Idx, gather_body.sl.dma124 c t arg1 arg3 f1 f3 hw1 y = gatherRows (arg1.view.read (Elt F) f1) (arg3.view.read (Elt F) f3) t (ix2 (61 : Fin 64) (y 0)) :=
    fun y => pay_apply c t 61 arg1 arg3 f1 f3 _ (word_eq arg1 c f1 _ _ _ (wordPos t 61) (wordOff_eq t 61)) (hw1 _ _) _ _ y
  have e6_62 : ∀ y : S19200.Idx, gather_body.sl.dma126 c t arg1 arg3 f1 f3 hw1 y = gatherRows (arg1.view.read (Elt F) f1) (arg3.view.read (Elt F) f3) t (ix2 (62 : Fin 64) (y 0)) :=
    fun y => pay_apply c t 62 arg1 arg3 f1 f3 _ (word_eq arg1 c f1 _ _ _ (wordPos t 62) (wordOff_eq t 62)) (hw1 _ _) _ _ y
  have e6_63 : ∀ y : S19200.Idx, gather_body.sl.dma128 c t arg1 arg3 f1 f3 hw1 y = gatherRows (arg1.view.read (Elt F) f1) (arg3.view.read (Elt F) f3) t (ix2 (63 : Fin 64) (y 0)) :=
    fun y => pay_apply c t 63 arg1 arg3 f1 f3 _ (word_eq arg1 c f1 _ _ _ (wordPos t 63) (wordOff_eq t 63)) (hw1 _ _) _ _ y
  have e7_0 : ∀ y : S19200.Idx, gather_body.sl.dma2_1 c t arg2 arg3 f2 f3 hw2 y = gatherRows (arg2.view.read (Elt F) f2) (arg3.view.read (Elt F) f3) t (ix2 (0 : Fin 64) (y 0)) :=
    fun y => pay_apply c t 0 arg2 arg3 f2 f3 _ (word_eq arg2 c f2 _ _ _ (wordPos t 0) (wordOff_eq t 0)) (hw2 _ _) _ _ y
  have e7_1 : ∀ y : S19200.Idx, gather_body.sl.dma4_1 c t arg2 arg3 f2 f3 hw2 y = gatherRows (arg2.view.read (Elt F) f2) (arg3.view.read (Elt F) f3) t (ix2 (1 : Fin 64) (y 0)) :=
    fun y => pay_apply c t 1 arg2 arg3 f2 f3 _ (word_eq arg2 c f2 _ _ _ (wordPos t 1) (wordOff_eq t 1)) (hw2 _ _) _ _ y
  have e7_2 : ∀ y : S19200.Idx, gather_body.sl.dma6_1 c t arg2 arg3 f2 f3 hw2 y = gatherRows (arg2.view.read (Elt F) f2) (arg3.view.read (Elt F) f3) t (ix2 (2 : Fin 64) (y 0)) :=
    fun y => pay_apply c t 2 arg2 arg3 f2 f3 _ (word_eq arg2 c f2 _ _ _ (wordPos t 2) (wordOff_eq t 2)) (hw2 _ _) _ _ y
  have e7_3 : ∀ y : S19200.Idx, gather_body.sl.dma8_1 c t arg2 arg3 f2 f3 hw2 y = gatherRows (arg2.view.read (Elt F) f2) (arg3.view.read (Elt F) f3) t (ix2 (3 : Fin 64) (y 0)) :=
    fun y => pay_apply c t 3 arg2 arg3 f2 f3 _ (word_eq arg2 c f2 _ _ _ (wordPos t 3) (wordOff_eq t 3)) (hw2 _ _) _ _ y
  have e7_4 : ∀ y : S19200.Idx, gather_body.sl.dma10_1 c t arg2 arg3 f2 f3 hw2 y = gatherRows (arg2.view.read (Elt F) f2) (arg3.view.read (Elt F) f3) t (ix2 (4 : Fin 64) (y 0)) :=
    fun y => pay_apply c t 4 arg2 arg3 f2 f3 _ (word_eq arg2 c f2 _ _ _ (wordPos t 4) (wordOff_eq t 4)) (hw2 _ _) _ _ y
  have e7_5 : ∀ y : S19200.Idx, gather_body.sl.dma12_1 c t arg2 arg3 f2 f3 hw2 y = gatherRows (arg2.view.read (Elt F) f2) (arg3.view.read (Elt F) f3) t (ix2 (5 : Fin 64) (y 0)) :=
    fun y => pay_apply c t 5 arg2 arg3 f2 f3 _ (word_eq arg2 c f2 _ _ _ (wordPos t 5) (wordOff_eq t 5)) (hw2 _ _) _ _ y
  have e7_6 : ∀ y : S19200.Idx, gather_body.sl.dma14_1 c t arg2 arg3 f2 f3 hw2 y = gatherRows (arg2.view.read (Elt F) f2) (arg3.view.read (Elt F) f3) t (ix2 (6 : Fin 64) (y 0)) :=
    fun y => pay_apply c t 6 arg2 arg3 f2 f3 _ (word_eq arg2 c f2 _ _ _ (wordPos t 6) (wordOff_eq t 6)) (hw2 _ _) _ _ y
  have e7_7 : ∀ y : S19200.Idx, gather_body.sl.dma16_1 c t arg2 arg3 f2 f3 hw2 y = gatherRows (arg2.view.read (Elt F) f2) (arg3.view.read (Elt F) f3) t (ix2 (7 : Fin 64) (y 0)) :=
    fun y => pay_apply c t 7 arg2 arg3 f2 f3 _ (word_eq arg2 c f2 _ _ _ (wordPos t 7) (wordOff_eq t 7)) (hw2 _ _) _ _ y
  have e7_8 : ∀ y : S19200.Idx, gather_body.sl.dma18_1 c t arg2 arg3 f2 f3 hw2 y = gatherRows (arg2.view.read (Elt F) f2) (arg3.view.read (Elt F) f3) t (ix2 (8 : Fin 64) (y 0)) :=
    fun y => pay_apply c t 8 arg2 arg3 f2 f3 _ (word_eq arg2 c f2 _ _ _ (wordPos t 8) (wordOff_eq t 8)) (hw2 _ _) _ _ y
  have e7_9 : ∀ y : S19200.Idx, gather_body.sl.dma20_1 c t arg2 arg3 f2 f3 hw2 y = gatherRows (arg2.view.read (Elt F) f2) (arg3.view.read (Elt F) f3) t (ix2 (9 : Fin 64) (y 0)) :=
    fun y => pay_apply c t 9 arg2 arg3 f2 f3 _ (word_eq arg2 c f2 _ _ _ (wordPos t 9) (wordOff_eq t 9)) (hw2 _ _) _ _ y
  have e7_10 : ∀ y : S19200.Idx, gather_body.sl.dma22_1 c t arg2 arg3 f2 f3 hw2 y = gatherRows (arg2.view.read (Elt F) f2) (arg3.view.read (Elt F) f3) t (ix2 (10 : Fin 64) (y 0)) :=
    fun y => pay_apply c t 10 arg2 arg3 f2 f3 _ (word_eq arg2 c f2 _ _ _ (wordPos t 10) (wordOff_eq t 10)) (hw2 _ _) _ _ y
  have e7_11 : ∀ y : S19200.Idx, gather_body.sl.dma24_1 c t arg2 arg3 f2 f3 hw2 y = gatherRows (arg2.view.read (Elt F) f2) (arg3.view.read (Elt F) f3) t (ix2 (11 : Fin 64) (y 0)) :=
    fun y => pay_apply c t 11 arg2 arg3 f2 f3 _ (word_eq arg2 c f2 _ _ _ (wordPos t 11) (wordOff_eq t 11)) (hw2 _ _) _ _ y
  have e7_12 : ∀ y : S19200.Idx, gather_body.sl.dma26_1 c t arg2 arg3 f2 f3 hw2 y = gatherRows (arg2.view.read (Elt F) f2) (arg3.view.read (Elt F) f3) t (ix2 (12 : Fin 64) (y 0)) :=
    fun y => pay_apply c t 12 arg2 arg3 f2 f3 _ (word_eq arg2 c f2 _ _ _ (wordPos t 12) (wordOff_eq t 12)) (hw2 _ _) _ _ y
  have e7_13 : ∀ y : S19200.Idx, gather_body.sl.dma28_1 c t arg2 arg3 f2 f3 hw2 y = gatherRows (arg2.view.read (Elt F) f2) (arg3.view.read (Elt F) f3) t (ix2 (13 : Fin 64) (y 0)) :=
    fun y => pay_apply c t 13 arg2 arg3 f2 f3 _ (word_eq arg2 c f2 _ _ _ (wordPos t 13) (wordOff_eq t 13)) (hw2 _ _) _ _ y
  have e7_14 : ∀ y : S19200.Idx, gather_body.sl.dma30_1 c t arg2 arg3 f2 f3 hw2 y = gatherRows (arg2.view.read (Elt F) f2) (arg3.view.read (Elt F) f3) t (ix2 (14 : Fin 64) (y 0)) :=
    fun y => pay_apply c t 14 arg2 arg3 f2 f3 _ (word_eq arg2 c f2 _ _ _ (wordPos t 14) (wordOff_eq t 14)) (hw2 _ _) _ _ y
  have e7_15 : ∀ y : S19200.Idx, gather_body.sl.dma32_1 c t arg2 arg3 f2 f3 hw2 y = gatherRows (arg2.view.read (Elt F) f2) (arg3.view.read (Elt F) f3) t (ix2 (15 : Fin 64) (y 0)) :=
    fun y => pay_apply c t 15 arg2 arg3 f2 f3 _ (word_eq arg2 c f2 _ _ _ (wordPos t 15) (wordOff_eq t 15)) (hw2 _ _) _ _ y
  have e7_16 : ∀ y : S19200.Idx, gather_body.sl.dma34_1 c t arg2 arg3 f2 f3 hw2 y = gatherRows (arg2.view.read (Elt F) f2) (arg3.view.read (Elt F) f3) t (ix2 (16 : Fin 64) (y 0)) :=
    fun y => pay_apply c t 16 arg2 arg3 f2 f3 _ (word_eq arg2 c f2 _ _ _ (wordPos t 16) (wordOff_eq t 16)) (hw2 _ _) _ _ y
  have e7_17 : ∀ y : S19200.Idx, gather_body.sl.dma36_1 c t arg2 arg3 f2 f3 hw2 y = gatherRows (arg2.view.read (Elt F) f2) (arg3.view.read (Elt F) f3) t (ix2 (17 : Fin 64) (y 0)) :=
    fun y => pay_apply c t 17 arg2 arg3 f2 f3 _ (word_eq arg2 c f2 _ _ _ (wordPos t 17) (wordOff_eq t 17)) (hw2 _ _) _ _ y
  have e7_18 : ∀ y : S19200.Idx, gather_body.sl.dma38_1 c t arg2 arg3 f2 f3 hw2 y = gatherRows (arg2.view.read (Elt F) f2) (arg3.view.read (Elt F) f3) t (ix2 (18 : Fin 64) (y 0)) :=
    fun y => pay_apply c t 18 arg2 arg3 f2 f3 _ (word_eq arg2 c f2 _ _ _ (wordPos t 18) (wordOff_eq t 18)) (hw2 _ _) _ _ y
  have e7_19 : ∀ y : S19200.Idx, gather_body.sl.dma40_1 c t arg2 arg3 f2 f3 hw2 y = gatherRows (arg2.view.read (Elt F) f2) (arg3.view.read (Elt F) f3) t (ix2 (19 : Fin 64) (y 0)) :=
    fun y => pay_apply c t 19 arg2 arg3 f2 f3 _ (word_eq arg2 c f2 _ _ _ (wordPos t 19) (wordOff_eq t 19)) (hw2 _ _) _ _ y
  have e7_20 : ∀ y : S19200.Idx, gather_body.sl.dma42_1 c t arg2 arg3 f2 f3 hw2 y = gatherRows (arg2.view.read (Elt F) f2) (arg3.view.read (Elt F) f3) t (ix2 (20 : Fin 64) (y 0)) :=
    fun y => pay_apply c t 20 arg2 arg3 f2 f3 _ (word_eq arg2 c f2 _ _ _ (wordPos t 20) (wordOff_eq t 20)) (hw2 _ _) _ _ y
  have e7_21 : ∀ y : S19200.Idx, gather_body.sl.dma44_1 c t arg2 arg3 f2 f3 hw2 y = gatherRows (arg2.view.read (Elt F) f2) (arg3.view.read (Elt F) f3) t (ix2 (21 : Fin 64) (y 0)) :=
    fun y => pay_apply c t 21 arg2 arg3 f2 f3 _ (word_eq arg2 c f2 _ _ _ (wordPos t 21) (wordOff_eq t 21)) (hw2 _ _) _ _ y
  have e7_22 : ∀ y : S19200.Idx, gather_body.sl.dma46_1 c t arg2 arg3 f2 f3 hw2 y = gatherRows (arg2.view.read (Elt F) f2) (arg3.view.read (Elt F) f3) t (ix2 (22 : Fin 64) (y 0)) :=
    fun y => pay_apply c t 22 arg2 arg3 f2 f3 _ (word_eq arg2 c f2 _ _ _ (wordPos t 22) (wordOff_eq t 22)) (hw2 _ _) _ _ y
  have e7_23 : ∀ y : S19200.Idx, gather_body.sl.dma48_1 c t arg2 arg3 f2 f3 hw2 y = gatherRows (arg2.view.read (Elt F) f2) (arg3.view.read (Elt F) f3) t (ix2 (23 : Fin 64) (y 0)) :=
    fun y => pay_apply c t 23 arg2 arg3 f2 f3 _ (word_eq arg2 c f2 _ _ _ (wordPos t 23) (wordOff_eq t 23)) (hw2 _ _) _ _ y
  have e7_24 : ∀ y : S19200.Idx, gather_body.sl.dma50_1 c t arg2 arg3 f2 f3 hw2 y = gatherRows (arg2.view.read (Elt F) f2) (arg3.view.read (Elt F) f3) t (ix2 (24 : Fin 64) (y 0)) :=
    fun y => pay_apply c t 24 arg2 arg3 f2 f3 _ (word_eq arg2 c f2 _ _ _ (wordPos t 24) (wordOff_eq t 24)) (hw2 _ _) _ _ y
  have e7_25 : ∀ y : S19200.Idx, gather_body.sl.dma52_1 c t arg2 arg3 f2 f3 hw2 y = gatherRows (arg2.view.read (Elt F) f2) (arg3.view.read (Elt F) f3) t (ix2 (25 : Fin 64) (y 0)) :=
    fun y => pay_apply c t 25 arg2 arg3 f2 f3 _ (word_eq arg2 c f2 _ _ _ (wordPos t 25) (wordOff_eq t 25)) (hw2 _ _) _ _ y
  have e7_26 : ∀ y : S19200.Idx, gather_body.sl.dma54_1 c t arg2 arg3 f2 f3 hw2 y = gatherRows (arg2.view.read (Elt F) f2) (arg3.view.read (Elt F) f3) t (ix2 (26 : Fin 64) (y 0)) :=
    fun y => pay_apply c t 26 arg2 arg3 f2 f3 _ (word_eq arg2 c f2 _ _ _ (wordPos t 26) (wordOff_eq t 26)) (hw2 _ _) _ _ y
  have e7_27 : ∀ y : S19200.Idx, gather_body.sl.dma56_1 c t arg2 arg3 f2 f3 hw2 y = gatherRows (arg2.view.read (Elt F) f2) (arg3.view.read (Elt F) f3) t (ix2 (27 : Fin 64) (y 0)) :=
    fun y => pay_apply c t 27 arg2 arg3 f2 f3 _ (word_eq arg2 c f2 _ _ _ (wordPos t 27) (wordOff_eq t 27)) (hw2 _ _) _ _ y
  have e7_28 : ∀ y : S19200.Idx, gather_body.sl.dma58_1 c t arg2 arg3 f2 f3 hw2 y = gatherRows (arg2.view.read (Elt F) f2) (arg3.view.read (Elt F) f3) t (ix2 (28 : Fin 64) (y 0)) :=
    fun y => pay_apply c t 28 arg2 arg3 f2 f3 _ (word_eq arg2 c f2 _ _ _ (wordPos t 28) (wordOff_eq t 28)) (hw2 _ _) _ _ y
  have e7_29 : ∀ y : S19200.Idx, gather_body.sl.dma60_1 c t arg2 arg3 f2 f3 hw2 y = gatherRows (arg2.view.read (Elt F) f2) (arg3.view.read (Elt F) f3) t (ix2 (29 : Fin 64) (y 0)) :=
    fun y => pay_apply c t 29 arg2 arg3 f2 f3 _ (word_eq arg2 c f2 _ _ _ (wordPos t 29) (wordOff_eq t 29)) (hw2 _ _) _ _ y
  have e7_30 : ∀ y : S19200.Idx, gather_body.sl.dma62_1 c t arg2 arg3 f2 f3 hw2 y = gatherRows (arg2.view.read (Elt F) f2) (arg3.view.read (Elt F) f3) t (ix2 (30 : Fin 64) (y 0)) :=
    fun y => pay_apply c t 30 arg2 arg3 f2 f3 _ (word_eq arg2 c f2 _ _ _ (wordPos t 30) (wordOff_eq t 30)) (hw2 _ _) _ _ y
  have e7_31 : ∀ y : S19200.Idx, gather_body.sl.dma64_1 c t arg2 arg3 f2 f3 hw2 y = gatherRows (arg2.view.read (Elt F) f2) (arg3.view.read (Elt F) f3) t (ix2 (31 : Fin 64) (y 0)) :=
    fun y => pay_apply c t 31 arg2 arg3 f2 f3 _ (word_eq arg2 c f2 _ _ _ (wordPos t 31) (wordOff_eq t 31)) (hw2 _ _) _ _ y
  have e7_32 : ∀ y : S19200.Idx, gather_body.sl.dma66_1 c t arg2 arg3 f2 f3 hw2 y = gatherRows (arg2.view.read (Elt F) f2) (arg3.view.read (Elt F) f3) t (ix2 (32 : Fin 64) (y 0)) :=
    fun y => pay_apply c t 32 arg2 arg3 f2 f3 _ (word_eq arg2 c f2 _ _ _ (wordPos t 32) (wordOff_eq t 32)) (hw2 _ _) _ _ y
  have e7_33 : ∀ y : S19200.Idx, gather_body.sl.dma68_1 c t arg2 arg3 f2 f3 hw2 y = gatherRows (arg2.view.read (Elt F) f2) (arg3.view.read (Elt F) f3) t (ix2 (33 : Fin 64) (y 0)) :=
    fun y => pay_apply c t 33 arg2 arg3 f2 f3 _ (word_eq arg2 c f2 _ _ _ (wordPos t 33) (wordOff_eq t 33)) (hw2 _ _) _ _ y
  have e7_34 : ∀ y : S19200.Idx, gather_body.sl.dma70_1 c t arg2 arg3 f2 f3 hw2 y = gatherRows (arg2.view.read (Elt F) f2) (arg3.view.read (Elt F) f3) t (ix2 (34 : Fin 64) (y 0)) :=
    fun y => pay_apply c t 34 arg2 arg3 f2 f3 _ (word_eq arg2 c f2 _ _ _ (wordPos t 34) (wordOff_eq t 34)) (hw2 _ _) _ _ y
  have e7_35 : ∀ y : S19200.Idx, gather_body.sl.dma72_1 c t arg2 arg3 f2 f3 hw2 y = gatherRows (arg2.view.read (Elt F) f2) (arg3.view.read (Elt F) f3) t (ix2 (35 : Fin 64) (y 0)) :=
    fun y => pay_apply c t 35 arg2 arg3 f2 f3 _ (word_eq arg2 c f2 _ _ _ (wordPos t 35) (wordOff_eq t 35)) (hw2 _ _) _ _ y
  have e7_36 : ∀ y : S19200.Idx, gather_body.sl.dma74_1 c t arg2 arg3 f2 f3 hw2 y = gatherRows (arg2.view.read (Elt F) f2) (arg3.view.read (Elt F) f3) t (ix2 (36 : Fin 64) (y 0)) :=
    fun y => pay_apply c t 36 arg2 arg3 f2 f3 _ (word_eq arg2 c f2 _ _ _ (wordPos t 36) (wordOff_eq t 36)) (hw2 _ _) _ _ y
  have e7_37 : ∀ y : S19200.Idx, gather_body.sl.dma76_1 c t arg2 arg3 f2 f3 hw2 y = gatherRows (arg2.view.read (Elt F) f2) (arg3.view.read (Elt F) f3) t (ix2 (37 : Fin 64) (y 0)) :=
    fun y => pay_apply c t 37 arg2 arg3 f2 f3 _ (word_eq arg2 c f2 _ _ _ (wordPos t 37) (wordOff_eq t 37)) (hw2 _ _) _ _ y
  have e7_38 : ∀ y : S19200.Idx, gather_body.sl.dma78_1 c t arg2 arg3 f2 f3 hw2 y = gatherRows (arg2.view.read (Elt F) f2) (arg3.view.read (Elt F) f3) t (ix2 (38 : Fin 64) (y 0)) :=
    fun y => pay_apply c t 38 arg2 arg3 f2 f3 _ (word_eq arg2 c f2 _ _ _ (wordPos t 38) (wordOff_eq t 38)) (hw2 _ _) _ _ y
  have e7_39 : ∀ y : S19200.Idx, gather_body.sl.dma80_1 c t arg2 arg3 f2 f3 hw2 y = gatherRows (arg2.view.read (Elt F) f2) (arg3.view.read (Elt F) f3) t (ix2 (39 : Fin 64) (y 0)) :=
    fun y => pay_apply c t 39 arg2 arg3 f2 f3 _ (word_eq arg2 c f2 _ _ _ (wordPos t 39) (wordOff_eq t 39)) (hw2 _ _) _ _ y
  have e7_40 : ∀ y : S19200.Idx, gather_body.sl.dma82_1 c t arg2 arg3 f2 f3 hw2 y = gatherRows (arg2.view.read (Elt F) f2) (arg3.view.read (Elt F) f3) t (ix2 (40 : Fin 64) (y 0)) :=
    fun y => pay_apply c t 40 arg2 arg3 f2 f3 _ (word_eq arg2 c f2 _ _ _ (wordPos t 40) (wordOff_eq t 40)) (hw2 _ _) _ _ y
  have e7_41 : ∀ y : S19200.Idx, gather_body.sl.dma84_1 c t arg2 arg3 f2 f3 hw2 y = gatherRows (arg2.view.read (Elt F) f2) (arg3.view.read (Elt F) f3) t (ix2 (41 : Fin 64) (y 0)) :=
    fun y => pay_apply c t 41 arg2 arg3 f2 f3 _ (word_eq arg2 c f2 _ _ _ (wordPos t 41) (wordOff_eq t 41)) (hw2 _ _) _ _ y
  have e7_42 : ∀ y : S19200.Idx, gather_body.sl.dma86_1 c t arg2 arg3 f2 f3 hw2 y = gatherRows (arg2.view.read (Elt F) f2) (arg3.view.read (Elt F) f3) t (ix2 (42 : Fin 64) (y 0)) :=
    fun y => pay_apply c t 42 arg2 arg3 f2 f3 _ (word_eq arg2 c f2 _ _ _ (wordPos t 42) (wordOff_eq t 42)) (hw2 _ _) _ _ y
  have e7_43 : ∀ y : S19200.Idx, gather_body.sl.dma88_1 c t arg2 arg3 f2 f3 hw2 y = gatherRows (arg2.view.read (Elt F) f2) (arg3.view.read (Elt F) f3) t (ix2 (43 : Fin 64) (y 0)) :=
    fun y => pay_apply c t 43 arg2 arg3 f2 f3 _ (word_eq arg2 c f2 _ _ _ (wordPos t 43) (wordOff_eq t 43)) (hw2 _ _) _ _ y
  have e7_44 : ∀ y : S19200.Idx, gather_body.sl.dma90_1 c t arg2 arg3 f2 f3 hw2 y = gatherRows (arg2.view.read (Elt F) f2) (arg3.view.read (Elt F) f3) t (ix2 (44 : Fin 64) (y 0)) :=
    fun y => pay_apply c t 44 arg2 arg3 f2 f3 _ (word_eq arg2 c f2 _ _ _ (wordPos t 44) (wordOff_eq t 44)) (hw2 _ _) _ _ y
  have e7_45 : ∀ y : S19200.Idx, gather_body.sl.dma92_1 c t arg2 arg3 f2 f3 hw2 y = gatherRows (arg2.view.read (Elt F) f2) (arg3.view.read (Elt F) f3) t (ix2 (45 : Fin 64) (y 0)) :=
    fun y => pay_apply c t 45 arg2 arg3 f2 f3 _ (word_eq arg2 c f2 _ _ _ (wordPos t 45) (wordOff_eq t 45)) (hw2 _ _) _ _ y
  have e7_46 : ∀ y : S19200.Idx, gather_body.sl.dma94_1 c t arg2 arg3 f2 f3 hw2 y = gatherRows (arg2.view.read (Elt F) f2) (arg3.view.read (Elt F) f3) t (ix2 (46 : Fin 64) (y 0)) :=
    fun y => pay_apply c t 46 arg2 arg3 f2 f3 _ (word_eq arg2 c f2 _ _ _ (wordPos t 46) (wordOff_eq t 46)) (hw2 _ _) _ _ y
  have e7_47 : ∀ y : S19200.Idx, gather_body.sl.dma96_1 c t arg2 arg3 f2 f3 hw2 y = gatherRows (arg2.view.read (Elt F) f2) (arg3.view.read (Elt F) f3) t (ix2 (47 : Fin 64) (y 0)) :=
    fun y => pay_apply c t 47 arg2 arg3 f2 f3 _ (word_eq arg2 c f2 _ _ _ (wordPos t 47) (wordOff_eq t 47)) (hw2 _ _) _ _ y
  have e7_48 : ∀ y : S19200.Idx, gather_body.sl.dma98_1 c t arg2 arg3 f2 f3 hw2 y = gatherRows (arg2.view.read (Elt F) f2) (arg3.view.read (Elt F) f3) t (ix2 (48 : Fin 64) (y 0)) :=
    fun y => pay_apply c t 48 arg2 arg3 f2 f3 _ (word_eq arg2 c f2 _ _ _ (wordPos t 48) (wordOff_eq t 48)) (hw2 _ _) _ _ y
  have e7_49 : ∀ y : S19200.Idx, gather_body.sl.dma100_1 c t arg2 arg3 f2 f3 hw2 y = gatherRows (arg2.view.read (Elt F) f2) (arg3.view.read (Elt F) f3) t (ix2 (49 : Fin 64) (y 0)) :=
    fun y => pay_apply c t 49 arg2 arg3 f2 f3 _ (word_eq arg2 c f2 _ _ _ (wordPos t 49) (wordOff_eq t 49)) (hw2 _ _) _ _ y
  have e7_50 : ∀ y : S19200.Idx, gather_body.sl.dma102_1 c t arg2 arg3 f2 f3 hw2 y = gatherRows (arg2.view.read (Elt F) f2) (arg3.view.read (Elt F) f3) t (ix2 (50 : Fin 64) (y 0)) :=
    fun y => pay_apply c t 50 arg2 arg3 f2 f3 _ (word_eq arg2 c f2 _ _ _ (wordPos t 50) (wordOff_eq t 50)) (hw2 _ _) _ _ y
  have e7_51 : ∀ y : S19200.Idx, gather_body.sl.dma104_1 c t arg2 arg3 f2 f3 hw2 y = gatherRows (arg2.view.read (Elt F) f2) (arg3.view.read (Elt F) f3) t (ix2 (51 : Fin 64) (y 0)) :=
    fun y => pay_apply c t 51 arg2 arg3 f2 f3 _ (word_eq arg2 c f2 _ _ _ (wordPos t 51) (wordOff_eq t 51)) (hw2 _ _) _ _ y
  have e7_52 : ∀ y : S19200.Idx, gather_body.sl.dma106_1 c t arg2 arg3 f2 f3 hw2 y = gatherRows (arg2.view.read (Elt F) f2) (arg3.view.read (Elt F) f3) t (ix2 (52 : Fin 64) (y 0)) :=
    fun y => pay_apply c t 52 arg2 arg3 f2 f3 _ (word_eq arg2 c f2 _ _ _ (wordPos t 52) (wordOff_eq t 52)) (hw2 _ _) _ _ y
  have e7_53 : ∀ y : S19200.Idx, gather_body.sl.dma108_1 c t arg2 arg3 f2 f3 hw2 y = gatherRows (arg2.view.read (Elt F) f2) (arg3.view.read (Elt F) f3) t (ix2 (53 : Fin 64) (y 0)) :=
    fun y => pay_apply c t 53 arg2 arg3 f2 f3 _ (word_eq arg2 c f2 _ _ _ (wordPos t 53) (wordOff_eq t 53)) (hw2 _ _) _ _ y
  have e7_54 : ∀ y : S19200.Idx, gather_body.sl.dma110_1 c t arg2 arg3 f2 f3 hw2 y = gatherRows (arg2.view.read (Elt F) f2) (arg3.view.read (Elt F) f3) t (ix2 (54 : Fin 64) (y 0)) :=
    fun y => pay_apply c t 54 arg2 arg3 f2 f3 _ (word_eq arg2 c f2 _ _ _ (wordPos t 54) (wordOff_eq t 54)) (hw2 _ _) _ _ y
  have e7_55 : ∀ y : S19200.Idx, gather_body.sl.dma112_1 c t arg2 arg3 f2 f3 hw2 y = gatherRows (arg2.view.read (Elt F) f2) (arg3.view.read (Elt F) f3) t (ix2 (55 : Fin 64) (y 0)) :=
    fun y => pay_apply c t 55 arg2 arg3 f2 f3 _ (word_eq arg2 c f2 _ _ _ (wordPos t 55) (wordOff_eq t 55)) (hw2 _ _) _ _ y
  have e7_56 : ∀ y : S19200.Idx, gather_body.sl.dma114_1 c t arg2 arg3 f2 f3 hw2 y = gatherRows (arg2.view.read (Elt F) f2) (arg3.view.read (Elt F) f3) t (ix2 (56 : Fin 64) (y 0)) :=
    fun y => pay_apply c t 56 arg2 arg3 f2 f3 _ (word_eq arg2 c f2 _ _ _ (wordPos t 56) (wordOff_eq t 56)) (hw2 _ _) _ _ y
  have e7_57 : ∀ y : S19200.Idx, gather_body.sl.dma116_1 c t arg2 arg3 f2 f3 hw2 y = gatherRows (arg2.view.read (Elt F) f2) (arg3.view.read (Elt F) f3) t (ix2 (57 : Fin 64) (y 0)) :=
    fun y => pay_apply c t 57 arg2 arg3 f2 f3 _ (word_eq arg2 c f2 _ _ _ (wordPos t 57) (wordOff_eq t 57)) (hw2 _ _) _ _ y
  have e7_58 : ∀ y : S19200.Idx, gather_body.sl.dma118_1 c t arg2 arg3 f2 f3 hw2 y = gatherRows (arg2.view.read (Elt F) f2) (arg3.view.read (Elt F) f3) t (ix2 (58 : Fin 64) (y 0)) :=
    fun y => pay_apply c t 58 arg2 arg3 f2 f3 _ (word_eq arg2 c f2 _ _ _ (wordPos t 58) (wordOff_eq t 58)) (hw2 _ _) _ _ y
  have e7_59 : ∀ y : S19200.Idx, gather_body.sl.dma120_1 c t arg2 arg3 f2 f3 hw2 y = gatherRows (arg2.view.read (Elt F) f2) (arg3.view.read (Elt F) f3) t (ix2 (59 : Fin 64) (y 0)) :=
    fun y => pay_apply c t 59 arg2 arg3 f2 f3 _ (word_eq arg2 c f2 _ _ _ (wordPos t 59) (wordOff_eq t 59)) (hw2 _ _) _ _ y
  have e7_60 : ∀ y : S19200.Idx, gather_body.sl.dma122_1 c t arg2 arg3 f2 f3 hw2 y = gatherRows (arg2.view.read (Elt F) f2) (arg3.view.read (Elt F) f3) t (ix2 (60 : Fin 64) (y 0)) :=
    fun y => pay_apply c t 60 arg2 arg3 f2 f3 _ (word_eq arg2 c f2 _ _ _ (wordPos t 60) (wordOff_eq t 60)) (hw2 _ _) _ _ y
  have e7_61 : ∀ y : S19200.Idx, gather_body.sl.dma124_1 c t arg2 arg3 f2 f3 hw2 y = gatherRows (arg2.view.read (Elt F) f2) (arg3.view.read (Elt F) f3) t (ix2 (61 : Fin 64) (y 0)) :=
    fun y => pay_apply c t 61 arg2 arg3 f2 f3 _ (word_eq arg2 c f2 _ _ _ (wordPos t 61) (wordOff_eq t 61)) (hw2 _ _) _ _ y
  have e7_62 : ∀ y : S19200.Idx, gather_body.sl.dma126_1 c t arg2 arg3 f2 f3 hw2 y = gatherRows (arg2.view.read (Elt F) f2) (arg3.view.read (Elt F) f3) t (ix2 (62 : Fin 64) (y 0)) :=
    fun y => pay_apply c t 62 arg2 arg3 f2 f3 _ (word_eq arg2 c f2 _ _ _ (wordPos t 62) (wordOff_eq t 62)) (hw2 _ _) _ _ y
  have e7_63 : ∀ y : S19200.Idx, gather_body.sl.dma128_1 c t arg2 arg3 f2 f3 hw2 y = gatherRows (arg2.view.read (Elt F) f2) (arg3.view.read (Elt F) f3) t (ix2 (63 : Fin 64) (y 0)) :=
    fun y => pay_apply c t 63 arg2 arg3 f2 f3 _ (word_eq arg2 c f2 _ _ _ (wordPos t 63) (wordOff_eq t 63)) (hw2 _ _) _ _ y
  have hP6 : ∀ (r : Fin 64) (y : S19200.Idx), (![gather_body.sl.dma2 c t arg1 arg3 f1 f3 hw1, gather_body.sl.dma4 c t arg1 arg3 f1 f3 hw1, gather_body.sl.dma6 c t arg1 arg3 f1 f3 hw1, gather_body.sl.dma8 c t arg1 arg3 f1 f3 hw1, gather_body.sl.dma10 c t arg1 arg3 f1 f3 hw1, gather_body.sl.dma12 c t arg1 arg3 f1 f3 hw1, gather_body.sl.dma14 c t arg1 arg3 f1 f3 hw1, gather_body.sl.dma16 c t arg1 arg3 f1 f3 hw1, gather_body.sl.dma18 c t arg1 arg3 f1 f3 hw1, gather_body.sl.dma20 c t arg1 arg3 f1 f3 hw1, gather_body.sl.dma22 c t arg1 arg3 f1 f3 hw1, gather_body.sl.dma24 c t arg1 arg3 f1 f3 hw1, gather_body.sl.dma26 c t arg1 arg3 f1 f3 hw1, gather_body.sl.dma28 c t arg1 arg3 f1 f3 hw1, gather_body.sl.dma30 c t arg1 arg3 f1 f3 hw1, gather_body.sl.dma32 c t arg1 arg3 f1 f3 hw1, gather_body.sl.dma34 c t arg1 arg3 f1 f3 hw1, gather_body.sl.dma36 c t arg1 arg3 f1 f3 hw1, gather_body.sl.dma38 c t arg1 arg3 f1 f3 hw1, gather_body.sl.dma40 c t arg1 arg3 f1 f3 hw1, gather_body.sl.dma42 c t arg1 arg3 f1 f3 hw1, gather_body.sl.dma44 c t arg1 arg3 f1 f3 hw1, gather_body.sl.dma46 c t arg1 arg3 f1 f3 hw1, gather_body.sl.dma48 c t arg1 arg3 f1 f3 hw1, gather_body.sl.dma50 c t arg1 arg3 f1 f3 hw1, gather_body.sl.dma52 c t arg1 arg3 f1 f3 hw1, gather_body.sl.dma54 c t arg1 arg3 f1 f3 hw1, gather_body.sl.dma56 c t arg1 arg3 f1 f3 hw1, gather_body.sl.dma58 c t arg1 arg3 f1 f3 hw1, gather_body.sl.dma60 c t arg1 arg3 f1 f3 hw1, gather_body.sl.dma62 c t arg1 arg3 f1 f3 hw1, gather_body.sl.dma64 c t arg1 arg3 f1 f3 hw1, gather_body.sl.dma66 c t arg1 arg3 f1 f3 hw1, gather_body.sl.dma68 c t arg1 arg3 f1 f3 hw1, gather_body.sl.dma70 c t arg1 arg3 f1 f3 hw1, gather_body.sl.dma72 c t arg1 arg3 f1 f3 hw1, gather_body.sl.dma74 c t arg1 arg3 f1 f3 hw1, gather_body.sl.dma76 c t arg1 arg3 f1 f3 hw1, gather_body.sl.dma78 c t arg1 arg3 f1 f3 hw1, gather_body.sl.dma80 c t arg1 arg3 f1 f3 hw1, gather_body.sl.dma82 c t arg1 arg3 f1 f3 hw1, gather_body.sl.dma84 c t arg1 arg3 f1 f3 hw1, gather_body.sl.dma86 c t arg1 arg3 f1 f3 hw1, gather_body.sl.dma88 c t arg1 arg3 f1 f3 hw1, gather_body.sl.dma90 c t arg1 arg3 f1 f3 hw1, gather_body.sl.dma92 c t arg1 arg3 f1 f3 hw1, gather_body.sl.dma94 c t arg1 arg3 f1 f3 hw1, gather_body.sl.dma96 c t arg1 arg3 f1 f3 hw1, gather_body.sl.dma98 c t arg1 arg3 f1 f3 hw1, gather_body.sl.dma100 c t arg1 arg3 f1 f3 hw1, gather_body.sl.dma102 c t arg1 arg3 f1 f3 hw1, gather_body.sl.dma104 c t arg1 arg3 f1 f3 hw1, gather_body.sl.dma106 c t arg1 arg3 f1 f3 hw1, gather_body.sl.dma108 c t arg1 arg3 f1 f3 hw1, gather_body.sl.dma110 c t arg1 arg3 f1 f3 hw1, gather_body.sl.dma112 c t arg1 arg3 f1 f3 hw1, gather_body.sl.dma114 c t arg1 arg3 f1 f3 hw1, gather_body.sl.dma116 c t arg1 arg3 f1 f3 hw1, gather_body.sl.dma118 c t arg1 arg3 f1 f3 hw1, gather_body.sl.dma120 c t arg1 arg3 f1 f3 hw1, gather_body.sl.dma122 c t arg1 arg3 f1 f3 hw1, gather_body.sl.dma124 c t arg1 arg3 f1 f3 hw1, gather_body.sl.dma126 c t arg1 arg3 f1 f3 hw1, gather_body.sl.dma128 c t arg1 arg3 f1 f3 hw1] : Fin 64 → S19200.Idx → Elt F .f32) r y
      = gatherRows (arg1.view.read (Elt F) f1) (arg3.view.read (Elt F) f3) t (ix2 r (y 0)) := by
    intro r y
    match r with
    | ⟨0, _⟩ => exact e6_0 y
    | ⟨1, _⟩ => exact e6_1 y
    | ⟨2, _⟩ => exact e6_2 y
    | ⟨3, _⟩ => exact e6_3 y
    | ⟨4, _⟩ => exact e6_4 y
    | ⟨5, _⟩ => exact e6_5 y
    | ⟨6, _⟩ => exact e6_6 y
    | ⟨7, _⟩ => exact e6_7 y
    | ⟨8, _⟩ => exact e6_8 y
    | ⟨9, _⟩ => exact e6_9 y
    | ⟨10, _⟩ => exact e6_10 y
    | ⟨11, _⟩ => exact e6_11 y
    | ⟨12, _⟩ => exact e6_12 y
    | ⟨13, _⟩ => exact e6_13 y
    | ⟨14, _⟩ => exact e6_14 y
    | ⟨15, _⟩ => exact e6_15 y
    | ⟨16, _⟩ => exact e6_16 y
    | ⟨17, _⟩ => exact e6_17 y
    | ⟨18, _⟩ => exact e6_18 y
    | ⟨19, _⟩ => exact e6_19 y
    | ⟨20, _⟩ => exact e6_20 y
    | ⟨21, _⟩ => exact e6_21 y
    | ⟨22, _⟩ => exact e6_22 y
    | ⟨23, _⟩ => exact e6_23 y
    | ⟨24, _⟩ => exact e6_24 y
    | ⟨25, _⟩ => exact e6_25 y
    | ⟨26, _⟩ => exact e6_26 y
    | ⟨27, _⟩ => exact e6_27 y
    | ⟨28, _⟩ => exact e6_28 y
    | ⟨29, _⟩ => exact e6_29 y
    | ⟨30, _⟩ => exact e6_30 y
    | ⟨31, _⟩ => exact e6_31 y
    | ⟨32, _⟩ => exact e6_32 y
    | ⟨33, _⟩ => exact e6_33 y
    | ⟨34, _⟩ => exact e6_34 y
    | ⟨35, _⟩ => exact e6_35 y
    | ⟨36, _⟩ => exact e6_36 y
    | ⟨37, _⟩ => exact e6_37 y
    | ⟨38, _⟩ => exact e6_38 y
    | ⟨39, _⟩ => exact e6_39 y
    | ⟨40, _⟩ => exact e6_40 y
    | ⟨41, _⟩ => exact e6_41 y
    | ⟨42, _⟩ => exact e6_42 y
    | ⟨43, _⟩ => exact e6_43 y
    | ⟨44, _⟩ => exact e6_44 y
    | ⟨45, _⟩ => exact e6_45 y
    | ⟨46, _⟩ => exact e6_46 y
    | ⟨47, _⟩ => exact e6_47 y
    | ⟨48, _⟩ => exact e6_48 y
    | ⟨49, _⟩ => exact e6_49 y
    | ⟨50, _⟩ => exact e6_50 y
    | ⟨51, _⟩ => exact e6_51 y
    | ⟨52, _⟩ => exact e6_52 y
    | ⟨53, _⟩ => exact e6_53 y
    | ⟨54, _⟩ => exact e6_54 y
    | ⟨55, _⟩ => exact e6_55 y
    | ⟨56, _⟩ => exact e6_56 y
    | ⟨57, _⟩ => exact e6_57 y
    | ⟨58, _⟩ => exact e6_58 y
    | ⟨59, _⟩ => exact e6_59 y
    | ⟨60, _⟩ => exact e6_60 y
    | ⟨61, _⟩ => exact e6_61 y
    | ⟨62, _⟩ => exact e6_62 y
    | ⟨63, _⟩ => exact e6_63 y
    | ⟨n + 64, hn⟩ => exact absurd hn (by omega)
  have hP7 : ∀ (r : Fin 64) (y : S19200.Idx), (![gather_body.sl.dma2_1 c t arg2 arg3 f2 f3 hw2, gather_body.sl.dma4_1 c t arg2 arg3 f2 f3 hw2, gather_body.sl.dma6_1 c t arg2 arg3 f2 f3 hw2, gather_body.sl.dma8_1 c t arg2 arg3 f2 f3 hw2, gather_body.sl.dma10_1 c t arg2 arg3 f2 f3 hw2, gather_body.sl.dma12_1 c t arg2 arg3 f2 f3 hw2, gather_body.sl.dma14_1 c t arg2 arg3 f2 f3 hw2, gather_body.sl.dma16_1 c t arg2 arg3 f2 f3 hw2, gather_body.sl.dma18_1 c t arg2 arg3 f2 f3 hw2, gather_body.sl.dma20_1 c t arg2 arg3 f2 f3 hw2, gather_body.sl.dma22_1 c t arg2 arg3 f2 f3 hw2, gather_body.sl.dma24_1 c t arg2 arg3 f2 f3 hw2, gather_body.sl.dma26_1 c t arg2 arg3 f2 f3 hw2, gather_body.sl.dma28_1 c t arg2 arg3 f2 f3 hw2, gather_body.sl.dma30_1 c t arg2 arg3 f2 f3 hw2, gather_body.sl.dma32_1 c t arg2 arg3 f2 f3 hw2, gather_body.sl.dma34_1 c t arg2 arg3 f2 f3 hw2, gather_body.sl.dma36_1 c t arg2 arg3 f2 f3 hw2, gather_body.sl.dma38_1 c t arg2 arg3 f2 f3 hw2, gather_body.sl.dma40_1 c t arg2 arg3 f2 f3 hw2, gather_body.sl.dma42_1 c t arg2 arg3 f2 f3 hw2, gather_body.sl.dma44_1 c t arg2 arg3 f2 f3 hw2, gather_body.sl.dma46_1 c t arg2 arg3 f2 f3 hw2, gather_body.sl.dma48_1 c t arg2 arg3 f2 f3 hw2, gather_body.sl.dma50_1 c t arg2 arg3 f2 f3 hw2, gather_body.sl.dma52_1 c t arg2 arg3 f2 f3 hw2, gather_body.sl.dma54_1 c t arg2 arg3 f2 f3 hw2, gather_body.sl.dma56_1 c t arg2 arg3 f2 f3 hw2, gather_body.sl.dma58_1 c t arg2 arg3 f2 f3 hw2, gather_body.sl.dma60_1 c t arg2 arg3 f2 f3 hw2, gather_body.sl.dma62_1 c t arg2 arg3 f2 f3 hw2, gather_body.sl.dma64_1 c t arg2 arg3 f2 f3 hw2, gather_body.sl.dma66_1 c t arg2 arg3 f2 f3 hw2, gather_body.sl.dma68_1 c t arg2 arg3 f2 f3 hw2, gather_body.sl.dma70_1 c t arg2 arg3 f2 f3 hw2, gather_body.sl.dma72_1 c t arg2 arg3 f2 f3 hw2, gather_body.sl.dma74_1 c t arg2 arg3 f2 f3 hw2, gather_body.sl.dma76_1 c t arg2 arg3 f2 f3 hw2, gather_body.sl.dma78_1 c t arg2 arg3 f2 f3 hw2, gather_body.sl.dma80_1 c t arg2 arg3 f2 f3 hw2, gather_body.sl.dma82_1 c t arg2 arg3 f2 f3 hw2, gather_body.sl.dma84_1 c t arg2 arg3 f2 f3 hw2, gather_body.sl.dma86_1 c t arg2 arg3 f2 f3 hw2, gather_body.sl.dma88_1 c t arg2 arg3 f2 f3 hw2, gather_body.sl.dma90_1 c t arg2 arg3 f2 f3 hw2, gather_body.sl.dma92_1 c t arg2 arg3 f2 f3 hw2, gather_body.sl.dma94_1 c t arg2 arg3 f2 f3 hw2, gather_body.sl.dma96_1 c t arg2 arg3 f2 f3 hw2, gather_body.sl.dma98_1 c t arg2 arg3 f2 f3 hw2, gather_body.sl.dma100_1 c t arg2 arg3 f2 f3 hw2, gather_body.sl.dma102_1 c t arg2 arg3 f2 f3 hw2, gather_body.sl.dma104_1 c t arg2 arg3 f2 f3 hw2, gather_body.sl.dma106_1 c t arg2 arg3 f2 f3 hw2, gather_body.sl.dma108_1 c t arg2 arg3 f2 f3 hw2, gather_body.sl.dma110_1 c t arg2 arg3 f2 f3 hw2, gather_body.sl.dma112_1 c t arg2 arg3 f2 f3 hw2, gather_body.sl.dma114_1 c t arg2 arg3 f2 f3 hw2, gather_body.sl.dma116_1 c t arg2 arg3 f2 f3 hw2, gather_body.sl.dma118_1 c t arg2 arg3 f2 f3 hw2, gather_body.sl.dma120_1 c t arg2 arg3 f2 f3 hw2, gather_body.sl.dma122_1 c t arg2 arg3 f2 f3 hw2, gather_body.sl.dma124_1 c t arg2 arg3 f2 f3 hw2, gather_body.sl.dma126_1 c t arg2 arg3 f2 f3 hw2, gather_body.sl.dma128_1 c t arg2 arg3 f2 f3 hw2] : Fin 64 → S19200.Idx → Elt F .f32) r y
      = gatherRows (arg2.view.read (Elt F) f2) (arg3.view.read (Elt F) f3) t (ix2 r (y 0)) := by
    intro r y
    match r with
    | ⟨0, _⟩ => exact e7_0 y
    | ⟨1, _⟩ => exact e7_1 y
    | ⟨2, _⟩ => exact e7_2 y
    | ⟨3, _⟩ => exact e7_3 y
    | ⟨4, _⟩ => exact e7_4 y
    | ⟨5, _⟩ => exact e7_5 y
    | ⟨6, _⟩ => exact e7_6 y
    | ⟨7, _⟩ => exact e7_7 y
    | ⟨8, _⟩ => exact e7_8 y
    | ⟨9, _⟩ => exact e7_9 y
    | ⟨10, _⟩ => exact e7_10 y
    | ⟨11, _⟩ => exact e7_11 y
    | ⟨12, _⟩ => exact e7_12 y
    | ⟨13, _⟩ => exact e7_13 y
    | ⟨14, _⟩ => exact e7_14 y
    | ⟨15, _⟩ => exact e7_15 y
    | ⟨16, _⟩ => exact e7_16 y
    | ⟨17, _⟩ => exact e7_17 y
    | ⟨18, _⟩ => exact e7_18 y
    | ⟨19, _⟩ => exact e7_19 y
    | ⟨20, _⟩ => exact e7_20 y
    | ⟨21, _⟩ => exact e7_21 y
    | ⟨22, _⟩ => exact e7_22 y
    | ⟨23, _⟩ => exact e7_23 y
    | ⟨24, _⟩ => exact e7_24 y
    | ⟨25, _⟩ => exact e7_25 y
    | ⟨26, _⟩ => exact e7_26 y
    | ⟨27, _⟩ => exact e7_27 y
    | ⟨28, _⟩ => exact e7_28 y
    | ⟨29, _⟩ => exact e7_29 y
    | ⟨30, _⟩ => exact e7_30 y
    | ⟨31, _⟩ => exact e7_31 y
    | ⟨32, _⟩ => exact e7_32 y
    | ⟨33, _⟩ => exact e7_33 y
    | ⟨34, _⟩ => exact e7_34 y
    | ⟨35, _⟩ => exact e7_35 y
    | ⟨36, _⟩ => exact e7_36 y
    | ⟨37, _⟩ => exact e7_37 y
    | ⟨38, _⟩ => exact e7_38 y
    | ⟨39, _⟩ => exact e7_39 y
    | ⟨40, _⟩ => exact e7_40 y
    | ⟨41, _⟩ => exact e7_41 y
    | ⟨42, _⟩ => exact e7_42 y
    | ⟨43, _⟩ => exact e7_43 y
    | ⟨44, _⟩ => exact e7_44 y
    | ⟨45, _⟩ => exact e7_45 y
    | ⟨46, _⟩ => exact e7_46 y
    | ⟨47, _⟩ => exact e7_47 y
    | ⟨48, _⟩ => exact e7_48 y
    | ⟨49, _⟩ => exact e7_49 y
    | ⟨50, _⟩ => exact e7_50 y
    | ⟨51, _⟩ => exact e7_51 y
    | ⟨52, _⟩ => exact e7_52 y
    | ⟨53, _⟩ => exact e7_53 y
    | ⟨54, _⟩ => exact e7_54 y
    | ⟨55, _⟩ => exact e7_55 y
    | ⟨56, _⟩ => exact e7_56 y
    | ⟨57, _⟩ => exact e7_57 y
    | ⟨58, _⟩ => exact e7_58 y
    | ⟨59, _⟩ => exact e7_59 y
    | ⟨60, _⟩ => exact e7_60 y
    | ⟨61, _⟩ => exact e7_61 y
    | ⟨62, _⟩ => exact e7_62 y
    | ⟨63, _⟩ => exact e7_63 y
    | ⟨n + 64, hn⟩ => exact absurd hn (by omega)
  -- the filled rows are the scratch whole
  ihave H6 := (rows_join c arg6 f6 ![gather_body.sl.dma2 c t arg1 arg3 f1 f3 hw1, gather_body.sl.dma4 c t arg1 arg3 f1 f3 hw1, gather_body.sl.dma6 c t arg1 arg3 f1 f3 hw1, gather_body.sl.dma8 c t arg1 arg3 f1 f3 hw1, gather_body.sl.dma10 c t arg1 arg3 f1 f3 hw1, gather_body.sl.dma12 c t arg1 arg3 f1 f3 hw1, gather_body.sl.dma14 c t arg1 arg3 f1 f3 hw1, gather_body.sl.dma16 c t arg1 arg3 f1 f3 hw1, gather_body.sl.dma18 c t arg1 arg3 f1 f3 hw1, gather_body.sl.dma20 c t arg1 arg3 f1 f3 hw1, gather_body.sl.dma22 c t arg1 arg3 f1 f3 hw1, gather_body.sl.dma24 c t arg1 arg3 f1 f3 hw1, gather_body.sl.dma26 c t arg1 arg3 f1 f3 hw1, gather_body.sl.dma28 c t arg1 arg3 f1 f3 hw1, gather_body.sl.dma30 c t arg1 arg3 f1 f3 hw1, gather_body.sl.dma32 c t arg1 arg3 f1 f3 hw1, gather_body.sl.dma34 c t arg1 arg3 f1 f3 hw1, gather_body.sl.dma36 c t arg1 arg3 f1 f3 hw1, gather_body.sl.dma38 c t arg1 arg3 f1 f3 hw1, gather_body.sl.dma40 c t arg1 arg3 f1 f3 hw1, gather_body.sl.dma42 c t arg1 arg3 f1 f3 hw1, gather_body.sl.dma44 c t arg1 arg3 f1 f3 hw1, gather_body.sl.dma46 c t arg1 arg3 f1 f3 hw1, gather_body.sl.dma48 c t arg1 arg3 f1 f3 hw1, gather_body.sl.dma50 c t arg1 arg3 f1 f3 hw1, gather_body.sl.dma52 c t arg1 arg3 f1 f3 hw1, gather_body.sl.dma54 c t arg1 arg3 f1 f3 hw1, gather_body.sl.dma56 c t arg1 arg3 f1 f3 hw1, gather_body.sl.dma58 c t arg1 arg3 f1 f3 hw1, gather_body.sl.dma60 c t arg1 arg3 f1 f3 hw1, gather_body.sl.dma62 c t arg1 arg3 f1 f3 hw1, gather_body.sl.dma64 c t arg1 arg3 f1 f3 hw1, gather_body.sl.dma66 c t arg1 arg3 f1 f3 hw1, gather_body.sl.dma68 c t arg1 arg3 f1 f3 hw1, gather_body.sl.dma70 c t arg1 arg3 f1 f3 hw1, gather_body.sl.dma72 c t arg1 arg3 f1 f3 hw1, gather_body.sl.dma74 c t arg1 arg3 f1 f3 hw1, gather_body.sl.dma76 c t arg1 arg3 f1 f3 hw1, gather_body.sl.dma78 c t arg1 arg3 f1 f3 hw1, gather_body.sl.dma80 c t arg1 arg3 f1 f3 hw1, gather_body.sl.dma82 c t arg1 arg3 f1 f3 hw1, gather_body.sl.dma84 c t arg1 arg3 f1 f3 hw1, gather_body.sl.dma86 c t arg1 arg3 f1 f3 hw1, gather_body.sl.dma88 c t arg1 arg3 f1 f3 hw1, gather_body.sl.dma90 c t arg1 arg3 f1 f3 hw1, gather_body.sl.dma92 c t arg1 arg3 f1 f3 hw1, gather_body.sl.dma94 c t arg1 arg3 f1 f3 hw1, gather_body.sl.dma96 c t arg1 arg3 f1 f3 hw1, gather_body.sl.dma98 c t arg1 arg3 f1 f3 hw1, gather_body.sl.dma100 c t arg1 arg3 f1 f3 hw1, gather_body.sl.dma102 c t arg1 arg3 f1 f3 hw1, gather_body.sl.dma104 c t arg1 arg3 f1 f3 hw1, gather_body.sl.dma106 c t arg1 arg3 f1 f3 hw1, gather_body.sl.dma108 c t arg1 arg3 f1 f3 hw1, gather_body.sl.dma110 c t arg1 arg3 f1 f3 hw1, gather_body.sl.dma112 c t arg1 arg3 f1 f3 hw1, gather_body.sl.dma114 c t arg1 arg3 f1 f3 hw1, gather_body.sl.dma116 c t arg1 arg3 f1 f3 hw1, gather_body.sl.dma118 c t arg1 arg3 f1 f3 hw1, gather_body.sl.dma120 c t arg1 arg3 f1 f3 hw1, gather_body.sl.dma122 c t arg1 arg3 f1 f3 hw1, gather_body.sl.dma124 c t arg1 arg3 f1 f3 hw1, gather_body.sl.dma126 c t arg1 arg3 f1 f3 hw1, gather_body.sl.dma128 c t arg1 arg3 f1 f3 hw1]) $$ [R6_0 R6_1 R6_2 R6_3 R6_4 R6_5 R6_6 R6_7 R6_8 R6_9 R6_10 R6_11 R6_12 R6_13 R6_14 R6_15 R6_16 R6_17 R6_18 R6_19 R6_20 R6_21 R6_22 R6_23 R6_24 R6_25 R6_26 R6_27 R6_28 R6_29 R6_30 R6_31 R6_32 R6_33 R6_34 R6_35 R6_36 R6_37 R6_38 R6_39 R6_40 R6_41 R6_42 R6_43 R6_44 R6_45 R6_46 R6_47 R6_48 R6_49 R6_50 R6_51 R6_52 R6_53 R6_54 R6_55 R6_56 R6_57 R6_58 R6_59 R6_60 R6_61 R6_62 R6_63]
  · isplitl [R6_0]; · iexact R6_0
    isplitl [R6_1]; · iexact R6_1
    isplitl [R6_2]; · iexact R6_2
    isplitl [R6_3]; · iexact R6_3
    isplitl [R6_4]; · iexact R6_4
    isplitl [R6_5]; · iexact R6_5
    isplitl [R6_6]; · iexact R6_6
    isplitl [R6_7]; · iexact R6_7
    isplitl [R6_8]; · iexact R6_8
    isplitl [R6_9]; · iexact R6_9
    isplitl [R6_10]; · iexact R6_10
    isplitl [R6_11]; · iexact R6_11
    isplitl [R6_12]; · iexact R6_12
    isplitl [R6_13]; · iexact R6_13
    isplitl [R6_14]; · iexact R6_14
    isplitl [R6_15]; · iexact R6_15
    isplitl [R6_16]; · iexact R6_16
    isplitl [R6_17]; · iexact R6_17
    isplitl [R6_18]; · iexact R6_18
    isplitl [R6_19]; · iexact R6_19
    isplitl [R6_20]; · iexact R6_20
    isplitl [R6_21]; · iexact R6_21
    isplitl [R6_22]; · iexact R6_22
    isplitl [R6_23]; · iexact R6_23
    isplitl [R6_24]; · iexact R6_24
    isplitl [R6_25]; · iexact R6_25
    isplitl [R6_26]; · iexact R6_26
    isplitl [R6_27]; · iexact R6_27
    isplitl [R6_28]; · iexact R6_28
    isplitl [R6_29]; · iexact R6_29
    isplitl [R6_30]; · iexact R6_30
    isplitl [R6_31]; · iexact R6_31
    isplitl [R6_32]; · iexact R6_32
    isplitl [R6_33]; · iexact R6_33
    isplitl [R6_34]; · iexact R6_34
    isplitl [R6_35]; · iexact R6_35
    isplitl [R6_36]; · iexact R6_36
    isplitl [R6_37]; · iexact R6_37
    isplitl [R6_38]; · iexact R6_38
    isplitl [R6_39]; · iexact R6_39
    isplitl [R6_40]; · iexact R6_40
    isplitl [R6_41]; · iexact R6_41
    isplitl [R6_42]; · iexact R6_42
    isplitl [R6_43]; · iexact R6_43
    isplitl [R6_44]; · iexact R6_44
    isplitl [R6_45]; · iexact R6_45
    isplitl [R6_46]; · iexact R6_46
    isplitl [R6_47]; · iexact R6_47
    isplitl [R6_48]; · iexact R6_48
    isplitl [R6_49]; · iexact R6_49
    isplitl [R6_50]; · iexact R6_50
    isplitl [R6_51]; · iexact R6_51
    isplitl [R6_52]; · iexact R6_52
    isplitl [R6_53]; · iexact R6_53
    isplitl [R6_54]; · iexact R6_54
    isplitl [R6_55]; · iexact R6_55
    isplitl [R6_56]; · iexact R6_56
    isplitl [R6_57]; · iexact R6_57
    isplitl [R6_58]; · iexact R6_58
    isplitl [R6_59]; · iexact R6_59
    isplitl [R6_60]; · iexact R6_60
    isplitl [R6_61]; · iexact R6_61
    isplitl [R6_62]; · iexact R6_62
    iexact R6_63
  ihave H7 := (rows_join c arg7 f7 ![gather_body.sl.dma2_1 c t arg2 arg3 f2 f3 hw2, gather_body.sl.dma4_1 c t arg2 arg3 f2 f3 hw2, gather_body.sl.dma6_1 c t arg2 arg3 f2 f3 hw2, gather_body.sl.dma8_1 c t arg2 arg3 f2 f3 hw2, gather_body.sl.dma10_1 c t arg2 arg3 f2 f3 hw2, gather_body.sl.dma12_1 c t arg2 arg3 f2 f3 hw2, gather_body.sl.dma14_1 c t arg2 arg3 f2 f3 hw2, gather_body.sl.dma16_1 c t arg2 arg3 f2 f3 hw2, gather_body.sl.dma18_1 c t arg2 arg3 f2 f3 hw2, gather_body.sl.dma20_1 c t arg2 arg3 f2 f3 hw2, gather_body.sl.dma22_1 c t arg2 arg3 f2 f3 hw2, gather_body.sl.dma24_1 c t arg2 arg3 f2 f3 hw2, gather_body.sl.dma26_1 c t arg2 arg3 f2 f3 hw2, gather_body.sl.dma28_1 c t arg2 arg3 f2 f3 hw2, gather_body.sl.dma30_1 c t arg2 arg3 f2 f3 hw2, gather_body.sl.dma32_1 c t arg2 arg3 f2 f3 hw2, gather_body.sl.dma34_1 c t arg2 arg3 f2 f3 hw2, gather_body.sl.dma36_1 c t arg2 arg3 f2 f3 hw2, gather_body.sl.dma38_1 c t arg2 arg3 f2 f3 hw2, gather_body.sl.dma40_1 c t arg2 arg3 f2 f3 hw2, gather_body.sl.dma42_1 c t arg2 arg3 f2 f3 hw2, gather_body.sl.dma44_1 c t arg2 arg3 f2 f3 hw2, gather_body.sl.dma46_1 c t arg2 arg3 f2 f3 hw2, gather_body.sl.dma48_1 c t arg2 arg3 f2 f3 hw2, gather_body.sl.dma50_1 c t arg2 arg3 f2 f3 hw2, gather_body.sl.dma52_1 c t arg2 arg3 f2 f3 hw2, gather_body.sl.dma54_1 c t arg2 arg3 f2 f3 hw2, gather_body.sl.dma56_1 c t arg2 arg3 f2 f3 hw2, gather_body.sl.dma58_1 c t arg2 arg3 f2 f3 hw2, gather_body.sl.dma60_1 c t arg2 arg3 f2 f3 hw2, gather_body.sl.dma62_1 c t arg2 arg3 f2 f3 hw2, gather_body.sl.dma64_1 c t arg2 arg3 f2 f3 hw2, gather_body.sl.dma66_1 c t arg2 arg3 f2 f3 hw2, gather_body.sl.dma68_1 c t arg2 arg3 f2 f3 hw2, gather_body.sl.dma70_1 c t arg2 arg3 f2 f3 hw2, gather_body.sl.dma72_1 c t arg2 arg3 f2 f3 hw2, gather_body.sl.dma74_1 c t arg2 arg3 f2 f3 hw2, gather_body.sl.dma76_1 c t arg2 arg3 f2 f3 hw2, gather_body.sl.dma78_1 c t arg2 arg3 f2 f3 hw2, gather_body.sl.dma80_1 c t arg2 arg3 f2 f3 hw2, gather_body.sl.dma82_1 c t arg2 arg3 f2 f3 hw2, gather_body.sl.dma84_1 c t arg2 arg3 f2 f3 hw2, gather_body.sl.dma86_1 c t arg2 arg3 f2 f3 hw2, gather_body.sl.dma88_1 c t arg2 arg3 f2 f3 hw2, gather_body.sl.dma90_1 c t arg2 arg3 f2 f3 hw2, gather_body.sl.dma92_1 c t arg2 arg3 f2 f3 hw2, gather_body.sl.dma94_1 c t arg2 arg3 f2 f3 hw2, gather_body.sl.dma96_1 c t arg2 arg3 f2 f3 hw2, gather_body.sl.dma98_1 c t arg2 arg3 f2 f3 hw2, gather_body.sl.dma100_1 c t arg2 arg3 f2 f3 hw2, gather_body.sl.dma102_1 c t arg2 arg3 f2 f3 hw2, gather_body.sl.dma104_1 c t arg2 arg3 f2 f3 hw2, gather_body.sl.dma106_1 c t arg2 arg3 f2 f3 hw2, gather_body.sl.dma108_1 c t arg2 arg3 f2 f3 hw2, gather_body.sl.dma110_1 c t arg2 arg3 f2 f3 hw2, gather_body.sl.dma112_1 c t arg2 arg3 f2 f3 hw2, gather_body.sl.dma114_1 c t arg2 arg3 f2 f3 hw2, gather_body.sl.dma116_1 c t arg2 arg3 f2 f3 hw2, gather_body.sl.dma118_1 c t arg2 arg3 f2 f3 hw2, gather_body.sl.dma120_1 c t arg2 arg3 f2 f3 hw2, gather_body.sl.dma122_1 c t arg2 arg3 f2 f3 hw2, gather_body.sl.dma124_1 c t arg2 arg3 f2 f3 hw2, gather_body.sl.dma126_1 c t arg2 arg3 f2 f3 hw2, gather_body.sl.dma128_1 c t arg2 arg3 f2 f3 hw2]) $$ [R7_0 R7_1 R7_2 R7_3 R7_4 R7_5 R7_6 R7_7 R7_8 R7_9 R7_10 R7_11 R7_12 R7_13 R7_14 R7_15 R7_16 R7_17 R7_18 R7_19 R7_20 R7_21 R7_22 R7_23 R7_24 R7_25 R7_26 R7_27 R7_28 R7_29 R7_30 R7_31 R7_32 R7_33 R7_34 R7_35 R7_36 R7_37 R7_38 R7_39 R7_40 R7_41 R7_42 R7_43 R7_44 R7_45 R7_46 R7_47 R7_48 R7_49 R7_50 R7_51 R7_52 R7_53 R7_54 R7_55 R7_56 R7_57 R7_58 R7_59 R7_60 R7_61 R7_62 R7_63]
  · isplitl [R7_0]; · iexact R7_0
    isplitl [R7_1]; · iexact R7_1
    isplitl [R7_2]; · iexact R7_2
    isplitl [R7_3]; · iexact R7_3
    isplitl [R7_4]; · iexact R7_4
    isplitl [R7_5]; · iexact R7_5
    isplitl [R7_6]; · iexact R7_6
    isplitl [R7_7]; · iexact R7_7
    isplitl [R7_8]; · iexact R7_8
    isplitl [R7_9]; · iexact R7_9
    isplitl [R7_10]; · iexact R7_10
    isplitl [R7_11]; · iexact R7_11
    isplitl [R7_12]; · iexact R7_12
    isplitl [R7_13]; · iexact R7_13
    isplitl [R7_14]; · iexact R7_14
    isplitl [R7_15]; · iexact R7_15
    isplitl [R7_16]; · iexact R7_16
    isplitl [R7_17]; · iexact R7_17
    isplitl [R7_18]; · iexact R7_18
    isplitl [R7_19]; · iexact R7_19
    isplitl [R7_20]; · iexact R7_20
    isplitl [R7_21]; · iexact R7_21
    isplitl [R7_22]; · iexact R7_22
    isplitl [R7_23]; · iexact R7_23
    isplitl [R7_24]; · iexact R7_24
    isplitl [R7_25]; · iexact R7_25
    isplitl [R7_26]; · iexact R7_26
    isplitl [R7_27]; · iexact R7_27
    isplitl [R7_28]; · iexact R7_28
    isplitl [R7_29]; · iexact R7_29
    isplitl [R7_30]; · iexact R7_30
    isplitl [R7_31]; · iexact R7_31
    isplitl [R7_32]; · iexact R7_32
    isplitl [R7_33]; · iexact R7_33
    isplitl [R7_34]; · iexact R7_34
    isplitl [R7_35]; · iexact R7_35
    isplitl [R7_36]; · iexact R7_36
    isplitl [R7_37]; · iexact R7_37
    isplitl [R7_38]; · iexact R7_38
    isplitl [R7_39]; · iexact R7_39
    isplitl [R7_40]; · iexact R7_40
    isplitl [R7_41]; · iexact R7_41
    isplitl [R7_42]; · iexact R7_42
    isplitl [R7_43]; · iexact R7_43
    isplitl [R7_44]; · iexact R7_44
    isplitl [R7_45]; · iexact R7_45
    isplitl [R7_46]; · iexact R7_46
    isplitl [R7_47]; · iexact R7_47
    isplitl [R7_48]; · iexact R7_48
    isplitl [R7_49]; · iexact R7_49
    isplitl [R7_50]; · iexact R7_50
    isplitl [R7_51]; · iexact R7_51
    isplitl [R7_52]; · iexact R7_52
    isplitl [R7_53]; · iexact R7_53
    isplitl [R7_54]; · iexact R7_54
    isplitl [R7_55]; · iexact R7_55
    isplitl [R7_56]; · iexact R7_56
    isplitl [R7_57]; · iexact R7_57
    isplitl [R7_58]; · iexact R7_58
    isplitl [R7_59]; · iexact R7_59
    isplitl [R7_60]; · iexact R7_60
    isplitl [R7_61]; · iexact R7_61
    isplitl [R7_62]; · iexact R7_62
    iexact R7_63
  -- the two whole loads, the truncations and the two stores
  sl_exec
  sl_step
  iapply Hk
  isplitl [H1]; · iexact H1
  isplitl [H2]; · iexact H2
  isplitl [T4]; · iexact T4
  isplitl [T5]; · iexact T5
  isplitl [T6]; · iexact T6
  isplitl [T7]; · iexact T7
  isplitl [T8]; · iexact T8
  isplitl [T9]; · iexact T9
  isplitl [T10]; · iexact T10
  isplitl [T11]; · iexact T11
  isplitl [T12]; · iexact T12
  isplitl [T13]; · iexact T13
  isplitl [T14]; · iexact T14
  isplitl [T15]; · iexact T15
  isplitl [T16]; · iexact T16
  isplitl [T17]; · iexact T17
  isplitl [T18]; · iexact T18
  isplitl [T19]; · iexact T19
  isplitl [T20]; · iexact T20
  isplitl [T21]; · iexact T21
  isplitl [T22]; · iexact T22
  isplitl [T23]; · iexact T23
  isplitl [T24]; · iexact T24
  isplitl [T25]; · iexact T25
  isplitl [T26]; · iexact T26
  isplitl [T27]; · iexact T27
  isplitl [T28]; · iexact T28
  isplitl [T29]; · iexact T29
  isplitl [T30]; · iexact T30
  isplitl [T31]; · iexact T31
  isplitl [T32]; · iexact T32
  isplitl [T33]; · iexact T33
  isplitl [T34]; · iexact T34
  isplitl [T35]; · iexact T35
  isplitl [T36]; · iexact T36
  isplitl [T37]; · iexact T37
  isplitl [T38]; · iexact T38
  isplitl [T39]; · iexact T39
  isplitl [T40]; · iexact T40
  isplitl [T41]; · iexact T41
  isplitl [T42]; · iexact T42
  isplitl [T43]; · iexact T43
  isplitl [T44]; · iexact T44
  isplitl [T45]; · iexact T45
  isplitl [T46]; · iexact T46
  isplitl [T47]; · iexact T47
  isplitl [T48]; · iexact T48
  isplitl [T49]; · iexact T49
  isplitl [T50]; · iexact T50
  isplitl [T51]; · iexact T51
  isplitl [T52]; · iexact T52
  isplitl [T53]; · iexact T53
  isplitl [T54]; · iexact T54
  isplitl [T55]; · iexact T55
  isplitl [T56]; · iexact T56
  isplitl [T57]; · iexact T57
  isplitl [T58]; · iexact T58
  isplitl [T59]; · iexact T59
  isplitl [T60]; · iexact T60
  isplitl [T61]; · iexact T61
  isplitl [T62]; · iexact T62
  isplitl [T63]; · iexact T63
  isplitl [T64]; · iexact T64
  isplitl [T65]; · iexact T65
  isplitl [T66]; · iexact T66
  isplitl [T67]; · iexact T67
  isplitl [T68]; · iexact T68
  isplitl [T69]; · iexact T69
  isplitl [T70]; · iexact T70
  isplitl [T71]; · iexact T71
  isplitl [T72]; · iexact T72
  isplitl [T73]; · iexact T73
  isplitl [T74]; · iexact T74
  isplitl [T75]; · iexact T75
  isplitl [T76]; · iexact T76
  isplitl [T77]; · iexact T77
  isplitl [T78]; · iexact T78
  isplitl [T79]; · iexact T79
  isplitl [T80]; · iexact T80
  isplitl [T81]; · iexact T81
  isplitl [T82]; · iexact T82
  isplitl [T83]; · iexact T83
  isplitl [T84]; · iexact T84
  isplitl [T85]; · iexact T85
  isplitl [T86]; · iexact T86
  isplitl [T87]; · iexact T87
  isplitl [T88]; · iexact T88
  isplitl [T89]; · iexact T89
  isplitl [T90]; · iexact T90
  isplitl [T91]; · iexact T91
  isplitl [T92]; · iexact T92
  isplitl [T93]; · iexact T93
  isplitl [T94]; · iexact T94
  isplitl [T95]; · iexact T95
  isplitl [T96]; · iexact T96
  isplitl [T97]; · iexact T97
  isplitl [T98]; · iexact T98
  isplitl [T99]; · iexact T99
  isplitl [T100]; · iexact T100
  isplitl [T101]; · iexact T101
  isplitl [T102]; · iexact T102
  isplitl [T103]; · iexact T103
  isplitl [T104]; · iexact T104
  isplitl [T105]; · iexact T105
  isplitl [T106]; · iexact T106
  isplitl [T107]; · iexact T107
  isplitl [T108]; · iexact T108
  isplitl [T109]; · iexact T109
  isplitl [T110]; · iexact T110
  isplitl [T111]; · iexact T111
  isplitl [T112]; · iexact T112
  isplitl [T113]; · iexact T113
  isplitl [T114]; · iexact T114
  isplitl [T115]; · iexact T115
  isplitl [T116]; · iexact T116
  isplitl [T117]; · iexact T117
  isplitl [T118]; · iexact T118
  isplitl [T119]; · iexact T119
  isplitl [T120]; · iexact T120
  isplitl [T121]; · iexact T121
  isplitl [T122]; · iexact T122
  isplitl [T123]; · iexact T123
  isplitl [T124]; · iexact T124
  isplitl [T125]; · iexact T125
  isplitl [T126]; · iexact T126
  isplitl [T127]; · iexact T127
  isplitl [T128]; · iexact T128
  isplitl [T129]; · iexact T129
  isplitl [T130]; · iexact T130
  isplitl [T131]; · iexact T131
  isplitl [H4]
  · iexists _; isplitr; swap; · iexact H4
    ipureintro
    exact stored_eq1_named arg4 _ f4 arg6 _ f6 (arg1.view.read (Elt F) f1) (arg3.view.read (Elt F) f3) t _ hP6 _ rfl
  isplitl [H5]
  · iexists _; isplitr; swap; · iexact H5
    ipureintro
    exact stored_eq2_named arg5 _ f5 arg7 _ f7 (arg2.view.read (Elt F) f2) (arg3.view.read (Elt F) f3) t _ hP7 _ rfl
  isplitl [H6]; · iexists _; iexact H6
  isplitl [H7]; · iexists _; iexact H7
  isplitl [C4]; · iexact C4
  isplitl [C5]; · iexact C5
  isplitl [C6]; · iexact C6
  isplitl [C7]; · iexact C7
  isplitl [C8]; · iexact C8
  isplitl [C9]; · iexact C9
  isplitl [C10]; · iexact C10
  isplitl [C11]; · iexact C11
  isplitl [C12]; · iexact C12
  isplitl [C13]; · iexact C13
  isplitl [C14]; · iexact C14
  isplitl [C15]; · iexact C15
  isplitl [C16]; · iexact C16
  isplitl [C17]; · iexact C17
  isplitl [C18]; · iexact C18
  isplitl [C19]; · iexact C19
  isplitl [C20]; · iexact C20
  isplitl [C21]; · iexact C21
  isplitl [C22]; · iexact C22
  isplitl [C23]; · iexact C23
  isplitl [C24]; · iexact C24
  isplitl [C25]; · iexact C25
  isplitl [C26]; · iexact C26
  isplitl [C27]; · iexact C27
  isplitl [C28]; · iexact C28
  isplitl [C29]; · iexact C29
  isplitl [C30]; · iexact C30
  isplitl [C31]; · iexact C31
  isplitl [C32]; · iexact C32
  isplitl [C33]; · iexact C33
  isplitl [C34]; · iexact C34
  isplitl [C35]; · iexact C35
  isplitl [C36]; · iexact C36
  isplitl [C37]; · iexact C37
  isplitl [C38]; · iexact C38
  isplitl [C39]; · iexact C39
  isplitl [C40]; · iexact C40
  isplitl [C41]; · iexact C41
  isplitl [C42]; · iexact C42
  isplitl [C43]; · iexact C43
  isplitl [C44]; · iexact C44
  isplitl [C45]; · iexact C45
  isplitl [C46]; · iexact C46
  isplitl [C47]; · iexact C47
  isplitl [C48]; · iexact C48
  isplitl [C49]; · iexact C49
  isplitl [C50]; · iexact C50
  isplitl [C51]; · iexact C51
  isplitl [C52]; · iexact C52
  isplitl [C53]; · iexact C53
  isplitl [C54]; · iexact C54
  isplitl [C55]; · iexact C55
  isplitl [C56]; · iexact C56
  isplitl [C57]; · iexact C57
  isplitl [C58]; · iexact C58
  isplitl [C59]; · iexact C59
  isplitl [C60]; · iexact C60
  isplitl [C61]; · iexact C61
  isplitl [C62]; · iexact C62
  isplitl [C63]; · iexact C63
  isplitl [C64]; · iexact C64
  isplitl [C65]; · iexact C65
  isplitl [C66]; · iexact C66
  isplitl [C67]; · iexact C67
  isplitl [C68]; · iexact C68
  isplitl [C69]; · iexact C69
  isplitl [C70]; · iexact C70
  isplitl [C71]; · iexact C71
  isplitl [C72]; · iexact C72
  isplitl [C73]; · iexact C73
  isplitl [C74]; · iexact C74
  isplitl [C75]; · iexact C75
  isplitl [C76]; · iexact C76
  isplitl [C77]; · iexact C77
  isplitl [C78]; · iexact C78
  isplitl [C79]; · iexact C79
  isplitl [C80]; · iexact C80
  isplitl [C81]; · iexact C81
  isplitl [C82]; · iexact C82
  isplitl [C83]; · iexact C83
  isplitl [C84]; · iexact C84
  isplitl [C85]; · iexact C85
  isplitl [C86]; · iexact C86
  isplitl [C87]; · iexact C87
  isplitl [C88]; · iexact C88
  isplitl [C89]; · iexact C89
  isplitl [C90]; · iexact C90
  isplitl [C91]; · iexact C91
  isplitl [C92]; · iexact C92
  isplitl [C93]; · iexact C93
  isplitl [C94]; · iexact C94
  isplitl [C95]; · iexact C95
  isplitl [C96]; · iexact C96
  isplitl [C97]; · iexact C97
  isplitl [C98]; · iexact C98
  isplitl [C99]; · iexact C99
  isplitl [C100]; · iexact C100
  isplitl [C101]; · iexact C101
  isplitl [C102]; · iexact C102
  isplitl [C103]; · iexact C103
  isplitl [C104]; · iexact C104
  isplitl [C105]; · iexact C105
  isplitl [C106]; · iexact C106
  isplitl [C107]; · iexact C107
  isplitl [C108]; · iexact C108
  isplitl [C109]; · iexact C109
  isplitl [C110]; · iexact C110
  isplitl [C111]; · iexact C111
  isplitl [C112]; · iexact C112
  isplitl [C113]; · iexact C113
  isplitl [C114]; · iexact C114
  isplitl [C115]; · iexact C115
  isplitl [C116]; · iexact C116
  isplitl [C117]; · iexact C117
  isplitl [C118]; · iexact C118
  isplitl [C119]; · iexact C119
  isplitl [C120]; · iexact C120
  isplitl [C121]; · iexact C121
  isplitl [C122]; · iexact C122
  isplitl [C123]; · iexact C123
  isplitl [C124]; · iexact C124
  isplitl [C125]; · iexact C125
  isplitl [C126]; · iexact C126
  isplitl [C127]; · iexact C127
  isplitl [C128]; · iexact C128
  isplitl [C129]; · iexact C129
  isplitl [C130]; · iexact C130
  isplitl [C131]; · iexact C131
  iexists _; iexact HW

/-- The kernel's triple in the form the launch takes it. -/
theorem gather_exec (c : Dev nD) : GatherExec (F := F) c :=
  fun t arg1 harg1 arg2 harg2 arg3 harg3 arg4 harg4 arg5 harg5 arg6 harg6 arg7 harg7 f1 f2 f3 f4 f5 f6 f7 hw1 hw2 W K =>
    gather_body c t arg1 harg1 arg2 harg2 arg3 harg3 arg4 harg4 arg5 harg5 arg6 harg6 arg7 harg7 f1 f2 f3 f4 f5 f6 f7 hw1 hw2 W K

end Cert.KernelIdeal.Hand

end
-- ==== Proof.WordLevel.GatherRows.lean ====
/- The row pieces of a 64-row scratch buffer. The row copies of the gather kernel each land in one row of
   a scratch buffer, seen through the squeezed slice of that row; so the run holds the buffer as its 64
   rows, each by its own elements. Here: a buffer held whole is its 64 rows; the 64 rows, each written
   whole with its own payload, are the buffer held whole at contents that read, at (k, j), payload k
   at j. -/
import proofs.«406060_j54142357733864_2_alg».proof.Proof.WordLevel.GatherGlue
import Idealize.ShloMosaic.Lib.ValueIdx

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2)
open Cert.Kernel.Gen

variable {F : FTy → Type} [FloatOps F]

local notation "𝕄" => MT nD τ sig Unit (Elt F) ℕ (Pipeline.UD sig nD τ) ℕ

/-! ## One row through its squeezed slice -/

/-- Row `k` of 64, all 19200 columns, lies within the 64 × 19200 shape. -/
theorem rowInb (k : Fin 64) : ∀ a, (![k.val, 0] : Fin 2 → ℕ) a + S1x19200.size a ≤ S64x19200.size a := by
  intro a
  match a with
  | ⟨0, _⟩ => show k.val + 1 ≤ 64; omega
  | ⟨1, _⟩ => show 0 + 19200 ≤ 19200; omega

/-- Row `k` of a 64 × 19200 memref as a memref of 19200 elements: the slice of that row, its leading
    axis of extent one dropped. -/
abbrev rowM {sp : Space} (M : Memref sig .tc sp S64x19200 .f32) (k : Fin 64) : Memref sig .tc sp S19200 .f32 :=
  (M.slice (Rect.unit ![k.val, 0] S1x19200.size (rowInb k)) (fun _ => rfl)).squeeze S19200 squeezes_S1x19200_S19200

/-- Element `y` of row `k` is the buffer's element under index (k, y). -/
theorem rowM_emb {sp : Space} (M : Memref sig .tc sp S64x19200 .f32) (k : Fin 64) (y : S19200.Idx) :
    (rowM M k).view.emb y = M.view.emb (ix2 k (y 0)) := by
  show M.view.emb ((Rect.unit (s := S64x19200) ![k.val, 0] S1x19200.size (rowInb k)).emb
    (Shape.reshapeEquiv squeezes_S1x19200_S19200.numel_eq y)) = M.view.emb (ix2 k (y 0))
  congr 1
  have hy : Shape.reshapeEquiv squeezes_S1x19200_S19200.numel_eq y = Fin.cons ⟨0, Nat.one_pos⟩ y :=
    Shape.reshapeEquiv_cons_one (n := 1) (d := ![19200]) _ y
  rw [hy]
  funext a
  apply Fin.ext
  match a with
  | ⟨0, _⟩ => show k.val + 1 * 0 = k.val; omega
  | ⟨1, _⟩ => show 0 + 1 * (y 0).val = (y 0).val; omega

/-- The rows' elements make up the buffer's. -/
theorem rowM_biUnion {sp : Space} (M : Memref sig .tc sp S64x19200 .f32) :
    Finset.univ.biUnion (fun k : Fin 64 => (rowM M k).view.set) = M.view.set := by
  ext i
  constructor
  · intro hi
    obtain ⟨k, -, hk⟩ := Finset.mem_biUnion.mp hi
    obtain ⟨y, -, rfl⟩ := Finset.mem_map.mp hk
    rw [rowM_emb]; exact M.view.emb_mem_set _
  · intro hi
    obtain ⟨x, -, rfl⟩ := Finset.mem_map.mp hi
    refine Finset.mem_biUnion.mpr ⟨x 0, Finset.mem_univ _, ?_⟩
    have hx : M.view.emb x = (rowM M (x 0)).view.emb (ix1 (x 1)) :=
      (congrArg M.view.emb (ValueIdx.eq_ix2 x)).trans (rowM_emb M (x 0) (ix1 (x 1))).symm
    rw [hx]; exact (rowM M (x 0)).view.emb_mem_set _

/-- Two different rows share no element. -/
theorem rowM_disjoint {sp : Space} (M : Memref sig .tc sp S64x19200 .f32) {k k' : Fin 64} (h : k ≠ k') :
    Disjoint (rowM M k).view.set (rowM M k').view.set := by
  rw [Finset.disjoint_left]
  intro i hi hi'
  obtain ⟨y, -, rfl⟩ := Finset.mem_map.mp hi
  obtain ⟨y', -, e⟩ := Finset.mem_map.mp hi'
  rw [rowM_emb, rowM_emb] at e
  have e' := M.view.emb.injective e
  exact h (congrFun e' 0).symm

/-! ## The buffer as its rows -/

/-- The rows' numbers, in order. -/
def rowNums : List (Fin 64) := [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63]

/-- A memref's elements held at a share are its 64 rows held at that share, at the same contents. -/
theorem rows_eq (c : Dev nD) {sp : Space} (M : Memref sig .tc sp S64x19200 .f32) (q : PosShare TreeShare)
    (f : Buf (Elt F) (M.view.loc (c : Thread nD τ))) :
    (M.view.loc (c : Thread nD τ) ↦[M.view.set]{q} f : sProp 𝕄)
      = bigSepL rowNums (fun k => (M.view.loc (c : Thread nD τ) ↦[(rowM M k).view.set]{q} f : sProp 𝕄)) := by
  rw [← rowM_biUnion M, pointsTo_biUnion Finset.univ _ (fun k _ k' _ h => rowM_disjoint M h)]
  exact bigSep_univ_eq_bigSepL rowNums (by decide) (by decide) _

/-- The contents that hold, on row `k`, the payload `P k`: the payloads written whole over `f`. -/
def joinRows {sp : Space} (M : Memref sig .tc sp S64x19200 .f32) (f : M.view.ty.Contents (Elt F))
    (P : Fin 64 → S19200.Idx → Elt F .f32) : M.view.ty.Contents (Elt F) :=
  M.view.write (Elt F) f (fun x => P (x 0) (ix1 (x 1))) Finset.univ

/-- They read, at (k, j), payload `k` at `j`. -/
theorem read_joinRows {sp : Space} (M : Memref sig .tc sp S64x19200 .f32) (f : M.view.ty.Contents (Elt F))
    (P : Fin 64 → S19200.Idx → Elt F .f32) (x : S64x19200.Idx) :
    M.view.read (Elt F) (joinRows M f P) x = P (x 0) (ix1 (x 1)) := by
  unfold joinRows; rw [View.read_write_univ]

/-- On row `k`, the row written whole with `P k` and the joined contents agree. -/
theorem joinRows_on_row {sp : Space} (M : Memref sig .tc sp S64x19200 .f32) (f : M.view.ty.Contents (Elt F))
    (P : Fin 64 → S19200.Idx → Elt F .f32) (k : Fin 64) (i : M.view.ty.Idx) (hi : i ∈ (rowM M k).view.set) :
    (rowM M k).view.writes (Elt F) f [⟨Rect.whole S19200, P k⟩] i = joinRows M f P i := by
  obtain ⟨y, -, rfl⟩ := Finset.mem_map.mp hi
  have e : (rowM M k).view.emb y = ((rowM M k).view.slice (Rect.whole S19200)).emb y := by simp
  have h1 : (rowM M k).view.writes (Elt F) f [⟨Rect.whole S19200, P k⟩] ((rowM M k).view.emb y)
      = _root_.cast (congrArg (Elt F) ((rowM M k).view.slice (Rect.whole S19200)).elt_eq.symm) (P k y) := by
    rw [View.writes_singleton]
    conv_lhs => rw [e]
    exact View.write_emb_of_mem _ _ (Finset.mem_univ y)
  have h2 : joinRows M f P ((rowM M k).view.emb y)
      = _root_.cast (congrArg (Elt F) M.view.elt_eq.symm) (P k (ix1 (y 0))) := by
    rw [rowM_emb]; unfold joinRows
    exact View.write_emb_of_mem _ _ (Finset.mem_univ _)
  rw [h1, h2]
  exact congrArg (fun z => _root_.cast (congrArg (Elt F) M.view.elt_eq.symm) (P k z)) (ValueIdx.eq_ix1 y)

/-- The 64 rows, each held by its own elements and written whole with its payload, are the buffer held
    whole at the joined contents. -/
theorem rows_join_list (c : Dev nD) {sp : Space} (M : Memref sig .tc sp S64x19200 .f32)
    (f : Buf (Elt F) (M.view.loc (c : Thread nD τ))) (P : Fin 64 → S19200.Idx → Elt F .f32) :
    bigSepL rowNums (fun k => (M.view.loc (c : Thread nD τ) ↦[(rowM M k).view.set]{fullShare}
        (rowM M k).view.writes (Elt F) f [⟨Rect.whole S19200, P k⟩] : sProp 𝕄))
      ⊢ (M.view.loc (c : Thread nD τ) ↦[M.view.set]{fullShare} joinRows M f P : sProp 𝕄) := by
  rw [← bigSep_univ_eq_bigSepL rowNums (by decide) (by decide)]
  have hj := pointsTo_biUnion_join (Ix := Unit) (Name := ℕ) (U := Pipeline.UD sig nD τ) (Lvl := ℕ) (Val := Elt F)
    (ℓ := M.view.loc (c : Thread nD τ)) (q := fullShare) Finset.univ (fun k : Fin 64 => (rowM M k).view.set)
    (fun k => (rowM M k).view.writes (Elt F) f [⟨Rect.whole S19200, P k⟩]) f (fun k _ k' _ h => rowM_disjoint M h)
  refine BIBase.Entails.trans hj ?_
  iintro ⟨%g, %hg, H⟩
  have hc : ∀ i ∈ Finset.univ.biUnion (fun k : Fin 64 => (rowM M k).view.set), g i = joinRows M f P i := fun i hi => by
    obtain ⟨k, -, hk⟩ := Finset.mem_biUnion.mp hi
    rw [hg k (Finset.mem_univ k) i hk]
    exact joinRows_on_row M f P k i hk
  rw [← rowM_biUnion M, ← pointsTo_congr hc]
  iexact H

/-! ## The same over the rows one by one, each through its own slice -/

/-- Row `k` through the slice at offsets (k, 0), with the in-bounds evidence at hand. -/
abbrev rowA {sp : Space} (M : Memref sig .tc sp S64x19200 .f32) (k : ℕ)
    (hk : ∀ a, (![k, 0] : Fin 2 → ℕ) a + S1x19200.size a ≤ S64x19200.size a) : Memref sig .tc sp S19200 .f32 :=
  (M.slice (Rect.unit ![k, 0] S1x19200.size hk) (fun _ => rfl)).squeeze S19200 squeezes_S1x19200_S19200

/-- A buffer held whole is its 64 rows, each by its own elements, one after the other. -/
theorem rows_split (c : Dev nD) {sp : Space} (M : Memref sig .tc sp S64x19200 .f32)
    (f : Buf (Elt F) (M.view.loc (c : Thread nD τ))) :
    (M.view.loc (c : Thread nD τ) ↦[M.view.set]{fullShare} f : sProp 𝕄)
      ⊢ iprop(((rowA M 0 inb_S64x19200_S1x19200_0_0).view.loc (c : Thread nD τ) ↦[(rowA M 0 inb_S64x19200_S1x19200_0_0).view.set]{fullShare} f)
        ∗ ((rowA M 1 inb_S64x19200_S1x19200_1_0).view.loc (c : Thread nD τ) ↦[(rowA M 1 inb_S64x19200_S1x19200_1_0).view.set]{fullShare} f)
        ∗ ((rowA M 2 inb_S64x19200_S1x19200_2_0).view.loc (c : Thread nD τ) ↦[(rowA M 2 inb_S64x19200_S1x19200_2_0).view.set]{fullShare} f)
        ∗ ((rowA M 3 inb_S64x19200_S1x19200_3_0).view.loc (c : Thread nD τ) ↦[(rowA M 3 inb_S64x19200_S1x19200_3_0).view.set]{fullShare} f)
        ∗ ((rowA M 4 inb_S64x19200_S1x19200_4_0).view.loc (c : Thread nD τ) ↦[(rowA M 4 inb_S64x19200_S1x19200_4_0).view.set]{fullShare} f)
        ∗ ((rowA M 5 inb_S64x19200_S1x19200_5_0).view.loc (c : Thread nD τ) ↦[(rowA M 5 inb_S64x19200_S1x19200_5_0).view.set]{fullShare} f)
        ∗ ((rowA M 6 inb_S64x19200_S1x19200_6_0).view.loc (c : Thread nD τ) ↦[(rowA M 6 inb_S64x19200_S1x19200_6_0).view.set]{fullShare} f)
        ∗ ((rowA M 7 inb_S64x19200_S1x19200_7_0).view.loc (c : Thread nD τ) ↦[(rowA M 7 inb_S64x19200_S1x19200_7_0).view.set]{fullShare} f)
        ∗ ((rowA M 8 inb_S64x19200_S1x19200_8_0).view.loc (c : Thread nD τ) ↦[(rowA M 8 inb_S64x19200_S1x19200_8_0).view.set]{fullShare} f)
        ∗ ((rowA M 9 inb_S64x19200_S1x19200_9_0).view.loc (c : Thread nD τ) ↦[(rowA M 9 inb_S64x19200_S1x19200_9_0).view.set]{fullShare} f)
        ∗ ((rowA M 10 inb_S64x19200_S1x19200_10_0).view.loc (c : Thread nD τ) ↦[(rowA M 10 inb_S64x19200_S1x19200_10_0).view.set]{fullShare} f)
        ∗ ((rowA M 11 inb_S64x19200_S1x19200_11_0).view.loc (c : Thread nD τ) ↦[(rowA M 11 inb_S64x19200_S1x19200_11_0).view.set]{fullShare} f)
        ∗ ((rowA M 12 inb_S64x19200_S1x19200_12_0).view.loc (c : Thread nD τ) ↦[(rowA M 12 inb_S64x19200_S1x19200_12_0).view.set]{fullShare} f)
        ∗ ((rowA M 13 inb_S64x19200_S1x19200_13_0).view.loc (c : Thread nD τ) ↦[(rowA M 13 inb_S64x19200_S1x19200_13_0).view.set]{fullShare} f)
        ∗ ((rowA M 14 inb_S64x19200_S1x19200_14_0).view.loc (c : Thread nD τ) ↦[(rowA M 14 inb_S64x19200_S1x19200_14_0).view.set]{fullShare} f)
        ∗ ((rowA M 15 inb_S64x19200_S1x19200_15_0).view.loc (c : Thread nD τ) ↦[(rowA M 15 inb_S64x19200_S1x19200_15_0).view.set]{fullShare} f)
        ∗ ((rowA M 16 inb_S64x19200_S1x19200_16_0).view.loc (c : Thread nD τ) ↦[(rowA M 16 inb_S64x19200_S1x19200_16_0).view.set]{fullShare} f)
        ∗ ((rowA M 17 inb_S64x19200_S1x19200_17_0).view.loc (c : Thread nD τ) ↦[(rowA M 17 inb_S64x19200_S1x19200_17_0).view.set]{fullShare} f)
        ∗ ((rowA M 18 inb_S64x19200_S1x19200_18_0).view.loc (c : Thread nD τ) ↦[(rowA M 18 inb_S64x19200_S1x19200_18_0).view.set]{fullShare} f)
        ∗ ((rowA M 19 inb_S64x19200_S1x19200_19_0).view.loc (c : Thread nD τ) ↦[(rowA M 19 inb_S64x19200_S1x19200_19_0).view.set]{fullShare} f)
        ∗ ((rowA M 20 inb_S64x19200_S1x19200_20_0).view.loc (c : Thread nD τ) ↦[(rowA M 20 inb_S64x19200_S1x19200_20_0).view.set]{fullShare} f)
        ∗ ((rowA M 21 inb_S64x19200_S1x19200_21_0).view.loc (c : Thread nD τ) ↦[(rowA M 21 inb_S64x19200_S1x19200_21_0).view.set]{fullShare} f)
        ∗ ((rowA M 22 inb_S64x19200_S1x19200_22_0).view.loc (c : Thread nD τ) ↦[(rowA M 22 inb_S64x19200_S1x19200_22_0).view.set]{fullShare} f)
        ∗ ((rowA M 23 inb_S64x19200_S1x19200_23_0).view.loc (c : Thread nD τ) ↦[(rowA M 23 inb_S64x19200_S1x19200_23_0).view.set]{fullShare} f)
        ∗ ((rowA M 24 inb_S64x19200_S1x19200_24_0).view.loc (c : Thread nD τ) ↦[(rowA M 24 inb_S64x19200_S1x19200_24_0).view.set]{fullShare} f)
        ∗ ((rowA M 25 inb_S64x19200_S1x19200_25_0).view.loc (c : Thread nD τ) ↦[(rowA M 25 inb_S64x19200_S1x19200_25_0).view.set]{fullShare} f)
        ∗ ((rowA M 26 inb_S64x19200_S1x19200_26_0).view.loc (c : Thread nD τ) ↦[(rowA M 26 inb_S64x19200_S1x19200_26_0).view.set]{fullShare} f)
        ∗ ((rowA M 27 inb_S64x19200_S1x19200_27_0).view.loc (c : Thread nD τ) ↦[(rowA M 27 inb_S64x19200_S1x19200_27_0).view.set]{fullShare} f)
        ∗ ((rowA M 28 inb_S64x19200_S1x19200_28_0).view.loc (c : Thread nD τ) ↦[(rowA M 28 inb_S64x19200_S1x19200_28_0).view.set]{fullShare} f)
        ∗ ((rowA M 29 inb_S64x19200_S1x19200_29_0).view.loc (c : Thread nD τ) ↦[(rowA M 29 inb_S64x19200_S1x19200_29_0).view.set]{fullShare} f)
        ∗ ((rowA M 30 inb_S64x19200_S1x19200_30_0).view.loc (c : Thread nD τ) ↦[(rowA M 30 inb_S64x19200_S1x19200_30_0).view.set]{fullShare} f)
        ∗ ((rowA M 31 inb_S64x19200_S1x19200_31_0).view.loc (c : Thread nD τ) ↦[(rowA M 31 inb_S64x19200_S1x19200_31_0).view.set]{fullShare} f)
        ∗ ((rowA M 32 inb_S64x19200_S1x19200_32_0).view.loc (c : Thread nD τ) ↦[(rowA M 32 inb_S64x19200_S1x19200_32_0).view.set]{fullShare} f)
        ∗ ((rowA M 33 inb_S64x19200_S1x19200_33_0).view.loc (c : Thread nD τ) ↦[(rowA M 33 inb_S64x19200_S1x19200_33_0).view.set]{fullShare} f)
        ∗ ((rowA M 34 inb_S64x19200_S1x19200_34_0).view.loc (c : Thread nD τ) ↦[(rowA M 34 inb_S64x19200_S1x19200_34_0).view.set]{fullShare} f)
        ∗ ((rowA M 35 inb_S64x19200_S1x19200_35_0).view.loc (c : Thread nD τ) ↦[(rowA M 35 inb_S64x19200_S1x19200_35_0).view.set]{fullShare} f)
        ∗ ((rowA M 36 inb_S64x19200_S1x19200_36_0).view.loc (c : Thread nD τ) ↦[(rowA M 36 inb_S64x19200_S1x19200_36_0).view.set]{fullShare} f)
        ∗ ((rowA M 37 inb_S64x19200_S1x19200_37_0).view.loc (c : Thread nD τ) ↦[(rowA M 37 inb_S64x19200_S1x19200_37_0).view.set]{fullShare} f)
        ∗ ((rowA M 38 inb_S64x19200_S1x19200_38_0).view.loc (c : Thread nD τ) ↦[(rowA M 38 inb_S64x19200_S1x19200_38_0).view.set]{fullShare} f)
        ∗ ((rowA M 39 inb_S64x19200_S1x19200_39_0).view.loc (c : Thread nD τ) ↦[(rowA M 39 inb_S64x19200_S1x19200_39_0).view.set]{fullShare} f)
        ∗ ((rowA M 40 inb_S64x19200_S1x19200_40_0).view.loc (c : Thread nD τ) ↦[(rowA M 40 inb_S64x19200_S1x19200_40_0).view.set]{fullShare} f)
        ∗ ((rowA M 41 inb_S64x19200_S1x19200_41_0).view.loc (c : Thread nD τ) ↦[(rowA M 41 inb_S64x19200_S1x19200_41_0).view.set]{fullShare} f)
        ∗ ((rowA M 42 inb_S64x19200_S1x19200_42_0).view.loc (c : Thread nD τ) ↦[(rowA M 42 inb_S64x19200_S1x19200_42_0).view.set]{fullShare} f)
        ∗ ((rowA M 43 inb_S64x19200_S1x19200_43_0).view.loc (c : Thread nD τ) ↦[(rowA M 43 inb_S64x19200_S1x19200_43_0).view.set]{fullShare} f)
        ∗ ((rowA M 44 inb_S64x19200_S1x19200_44_0).view.loc (c : Thread nD τ) ↦[(rowA M 44 inb_S64x19200_S1x19200_44_0).view.set]{fullShare} f)
        ∗ ((rowA M 45 inb_S64x19200_S1x19200_45_0).view.loc (c : Thread nD τ) ↦[(rowA M 45 inb_S64x19200_S1x19200_45_0).view.set]{fullShare} f)
        ∗ ((rowA M 46 inb_S64x19200_S1x19200_46_0).view.loc (c : Thread nD τ) ↦[(rowA M 46 inb_S64x19200_S1x19200_46_0).view.set]{fullShare} f)
        ∗ ((rowA M 47 inb_S64x19200_S1x19200_47_0).view.loc (c : Thread nD τ) ↦[(rowA M 47 inb_S64x19200_S1x19200_47_0).view.set]{fullShare} f)
        ∗ ((rowA M 48 inb_S64x19200_S1x19200_48_0).view.loc (c : Thread nD τ) ↦[(rowA M 48 inb_S64x19200_S1x19200_48_0).view.set]{fullShare} f)
        ∗ ((rowA M 49 inb_S64x19200_S1x19200_49_0).view.loc (c : Thread nD τ) ↦[(rowA M 49 inb_S64x19200_S1x19200_49_0).view.set]{fullShare} f)
        ∗ ((rowA M 50 inb_S64x19200_S1x19200_50_0).view.loc (c : Thread nD τ) ↦[(rowA M 50 inb_S64x19200_S1x19200_50_0).view.set]{fullShare} f)
        ∗ ((rowA M 51 inb_S64x19200_S1x19200_51_0).view.loc (c : Thread nD τ) ↦[(rowA M 51 inb_S64x19200_S1x19200_51_0).view.set]{fullShare} f)
        ∗ ((rowA M 52 inb_S64x19200_S1x19200_52_0).view.loc (c : Thread nD τ) ↦[(rowA M 52 inb_S64x19200_S1x19200_52_0).view.set]{fullShare} f)
        ∗ ((rowA M 53 inb_S64x19200_S1x19200_53_0).view.loc (c : Thread nD τ) ↦[(rowA M 53 inb_S64x19200_S1x19200_53_0).view.set]{fullShare} f)
        ∗ ((rowA M 54 inb_S64x19200_S1x19200_54_0).view.loc (c : Thread nD τ) ↦[(rowA M 54 inb_S64x19200_S1x19200_54_0).view.set]{fullShare} f)
        ∗ ((rowA M 55 inb_S64x19200_S1x19200_55_0).view.loc (c : Thread nD τ) ↦[(rowA M 55 inb_S64x19200_S1x19200_55_0).view.set]{fullShare} f)
        ∗ ((rowA M 56 inb_S64x19200_S1x19200_56_0).view.loc (c : Thread nD τ) ↦[(rowA M 56 inb_S64x19200_S1x19200_56_0).view.set]{fullShare} f)
        ∗ ((rowA M 57 inb_S64x19200_S1x19200_57_0).view.loc (c : Thread nD τ) ↦[(rowA M 57 inb_S64x19200_S1x19200_57_0).view.set]{fullShare} f)
        ∗ ((rowA M 58 inb_S64x19200_S1x19200_58_0).view.loc (c : Thread nD τ) ↦[(rowA M 58 inb_S64x19200_S1x19200_58_0).view.set]{fullShare} f)
        ∗ ((rowA M 59 inb_S64x19200_S1x19200_59_0).view.loc (c : Thread nD τ) ↦[(rowA M 59 inb_S64x19200_S1x19200_59_0).view.set]{fullShare} f)
        ∗ ((rowA M 60 inb_S64x19200_S1x19200_60_0).view.loc (c : Thread nD τ) ↦[(rowA M 60 inb_S64x19200_S1x19200_60_0).view.set]{fullShare} f)
        ∗ ((rowA M 61 inb_S64x19200_S1x19200_61_0).view.loc (c : Thread nD τ) ↦[(rowA M 61 inb_S64x19200_S1x19200_61_0).view.set]{fullShare} f)
        ∗ ((rowA M 62 inb_S64x19200_S1x19200_62_0).view.loc (c : Thread nD τ) ↦[(rowA M 62 inb_S64x19200_S1x19200_62_0).view.set]{fullShare} f)
        ∗ ((rowA M 63 inb_S64x19200_S1x19200_63_0).view.loc (c : Thread nD τ) ↦[(rowA M 63 inb_S64x19200_S1x19200_63_0).view.set]{fullShare} f)) := by
  rw [rows_eq c M fullShare f]
  exact BIBase.Entails.of_eq rfl

-- sixty-four pieces, each unfolded through its slice and its dropped axis, against the listed product
set_option maxHeartbeats 1000000 in
/-- The 64 rows one after the other, row `k` written whole with `P k`, are the buffer held whole at
    the joined contents. -/
theorem rows_join (c : Dev nD) {sp : Space} (M : Memref sig .tc sp S64x19200 .f32)
    (f : Buf (Elt F) (M.view.loc (c : Thread nD τ))) (P : Fin 64 → S19200.Idx → Elt F .f32) :
    iprop(((rowA M 0 inb_S64x19200_S1x19200_0_0).view.loc (c : Thread nD τ) ↦[(rowA M 0 inb_S64x19200_S1x19200_0_0).view.set]{fullShare} (rowA M 0 inb_S64x19200_S1x19200_0_0).view.writes (Elt F) f [⟨Rect.whole S19200, P 0⟩])
        ∗ ((rowA M 1 inb_S64x19200_S1x19200_1_0).view.loc (c : Thread nD τ) ↦[(rowA M 1 inb_S64x19200_S1x19200_1_0).view.set]{fullShare} (rowA M 1 inb_S64x19200_S1x19200_1_0).view.writes (Elt F) f [⟨Rect.whole S19200, P 1⟩])
        ∗ ((rowA M 2 inb_S64x19200_S1x19200_2_0).view.loc (c : Thread nD τ) ↦[(rowA M 2 inb_S64x19200_S1x19200_2_0).view.set]{fullShare} (rowA M 2 inb_S64x19200_S1x19200_2_0).view.writes (Elt F) f [⟨Rect.whole S19200, P 2⟩])
        ∗ ((rowA M 3 inb_S64x19200_S1x19200_3_0).view.loc (c : Thread nD τ) ↦[(rowA M 3 inb_S64x19200_S1x19200_3_0).view.set]{fullShare} (rowA M 3 inb_S64x19200_S1x19200_3_0).view.writes (Elt F) f [⟨Rect.whole S19200, P 3⟩])
        ∗ ((rowA M 4 inb_S64x19200_S1x19200_4_0).view.loc (c : Thread nD τ) ↦[(rowA M 4 inb_S64x19200_S1x19200_4_0).view.set]{fullShare} (rowA M 4 inb_S64x19200_S1x19200_4_0).view.writes (Elt F) f [⟨Rect.whole S19200, P 4⟩])
        ∗ ((rowA M 5 inb_S64x19200_S1x19200_5_0).view.loc (c : Thread nD τ) ↦[(rowA M 5 inb_S64x19200_S1x19200_5_0).view.set]{fullShare} (rowA M 5 inb_S64x19200_S1x19200_5_0).view.writes (Elt F) f [⟨Rect.whole S19200, P 5⟩])
        ∗ ((rowA M 6 inb_S64x19200_S1x19200_6_0).view.loc (c : Thread nD τ) ↦[(rowA M 6 inb_S64x19200_S1x19200_6_0).view.set]{fullShare} (rowA M 6 inb_S64x19200_S1x19200_6_0).view.writes (Elt F) f [⟨Rect.whole S19200, P 6⟩])
        ∗ ((rowA M 7 inb_S64x19200_S1x19200_7_0).view.loc (c : Thread nD τ) ↦[(rowA M 7 inb_S64x19200_S1x19200_7_0).view.set]{fullShare} (rowA M 7 inb_S64x19200_S1x19200_7_0).view.writes (Elt F) f [⟨Rect.whole S19200, P 7⟩])
        ∗ ((rowA M 8 inb_S64x19200_S1x19200_8_0).view.loc (c : Thread nD τ) ↦[(rowA M 8 inb_S64x19200_S1x19200_8_0).view.set]{fullShare} (rowA M 8 inb_S64x19200_S1x19200_8_0).view.writes (Elt F) f [⟨Rect.whole S19200, P 8⟩])
        ∗ ((rowA M 9 inb_S64x19200_S1x19200_9_0).view.loc (c : Thread nD τ) ↦[(rowA M 9 inb_S64x19200_S1x19200_9_0).view.set]{fullShare} (rowA M 9 inb_S64x19200_S1x19200_9_0).view.writes (Elt F) f [⟨Rect.whole S19200, P 9⟩])
        ∗ ((rowA M 10 inb_S64x19200_S1x19200_10_0).view.loc (c : Thread nD τ) ↦[(rowA M 10 inb_S64x19200_S1x19200_10_0).view.set]{fullShare} (rowA M 10 inb_S64x19200_S1x19200_10_0).view.writes (Elt F) f [⟨Rect.whole S19200, P 10⟩])
        ∗ ((rowA M 11 inb_S64x19200_S1x19200_11_0).view.loc (c : Thread nD τ) ↦[(rowA M 11 inb_S64x19200_S1x19200_11_0).view.set]{fullShare} (rowA M 11 inb_S64x19200_S1x19200_11_0).view.writes (Elt F) f [⟨Rect.whole S19200, P 11⟩])
        ∗ ((rowA M 12 inb_S64x19200_S1x19200_12_0).view.loc (c : Thread nD τ) ↦[(rowA M 12 inb_S64x19200_S1x19200_12_0).view.set]{fullShare} (rowA M 12 inb_S64x19200_S1x19200_12_0).view.writes (Elt F) f [⟨Rect.whole S19200, P 12⟩])
        ∗ ((rowA M 13 inb_S64x19200_S1x19200_13_0).view.loc (c : Thread nD τ) ↦[(rowA M 13 inb_S64x19200_S1x19200_13_0).view.set]{fullShare} (rowA M 13 inb_S64x19200_S1x19200_13_0).view.writes (Elt F) f [⟨Rect.whole S19200, P 13⟩])
        ∗ ((rowA M 14 inb_S64x19200_S1x19200_14_0).view.loc (c : Thread nD τ) ↦[(rowA M 14 inb_S64x19200_S1x19200_14_0).view.set]{fullShare} (rowA M 14 inb_S64x19200_S1x19200_14_0).view.writes (Elt F) f [⟨Rect.whole S19200, P 14⟩])
        ∗ ((rowA M 15 inb_S64x19200_S1x19200_15_0).view.loc (c : Thread nD τ) ↦[(rowA M 15 inb_S64x19200_S1x19200_15_0).view.set]{fullShare} (rowA M 15 inb_S64x19200_S1x19200_15_0).view.writes (Elt F) f [⟨Rect.whole S19200, P 15⟩])
        ∗ ((rowA M 16 inb_S64x19200_S1x19200_16_0).view.loc (c : Thread nD τ) ↦[(rowA M 16 inb_S64x19200_S1x19200_16_0).view.set]{fullShare} (rowA M 16 inb_S64x19200_S1x19200_16_0).view.writes (Elt F) f [⟨Rect.whole S19200, P 16⟩])
        ∗ ((rowA M 17 inb_S64x19200_S1x19200_17_0).view.loc (c : Thread nD τ) ↦[(rowA M 17 inb_S64x19200_S1x19200_17_0).view.set]{fullShare} (rowA M 17 inb_S64x19200_S1x19200_17_0).view.writes (Elt F) f [⟨Rect.whole S19200, P 17⟩])
        ∗ ((rowA M 18 inb_S64x19200_S1x19200_18_0).view.loc (c : Thread nD τ) ↦[(rowA M 18 inb_S64x19200_S1x19200_18_0).view.set]{fullShare} (rowA M 18 inb_S64x19200_S1x19200_18_0).view.writes (Elt F) f [⟨Rect.whole S19200, P 18⟩])
        ∗ ((rowA M 19 inb_S64x19200_S1x19200_19_0).view.loc (c : Thread nD τ) ↦[(rowA M 19 inb_S64x19200_S1x19200_19_0).view.set]{fullShare} (rowA M 19 inb_S64x19200_S1x19200_19_0).view.writes (Elt F) f [⟨Rect.whole S19200, P 19⟩])
        ∗ ((rowA M 20 inb_S64x19200_S1x19200_20_0).view.loc (c : Thread nD τ) ↦[(rowA M 20 inb_S64x19200_S1x19200_20_0).view.set]{fullShare} (rowA M 20 inb_S64x19200_S1x19200_20_0).view.writes (Elt F) f [⟨Rect.whole S19200, P 20⟩])
        ∗ ((rowA M 21 inb_S64x19200_S1x19200_21_0).view.loc (c : Thread nD τ) ↦[(rowA M 21 inb_S64x19200_S1x19200_21_0).view.set]{fullShare} (rowA M 21 inb_S64x19200_S1x19200_21_0).view.writes (Elt F) f [⟨Rect.whole S19200, P 21⟩])
        ∗ ((rowA M 22 inb_S64x19200_S1x19200_22_0).view.loc (c : Thread nD τ) ↦[(rowA M 22 inb_S64x19200_S1x19200_22_0).view.set]{fullShare} (rowA M 22 inb_S64x19200_S1x19200_22_0).view.writes (Elt F) f [⟨Rect.whole S19200, P 22⟩])
        ∗ ((rowA M 23 inb_S64x19200_S1x19200_23_0).view.loc (c : Thread nD τ) ↦[(rowA M 23 inb_S64x19200_S1x19200_23_0).view.set]{fullShare} (rowA M 23 inb_S64x19200_S1x19200_23_0).view.writes (Elt F) f [⟨Rect.whole S19200, P 23⟩])
        ∗ ((rowA M 24 inb_S64x19200_S1x19200_24_0).view.loc (c : Thread nD τ) ↦[(rowA M 24 inb_S64x19200_S1x19200_24_0).view.set]{fullShare} (rowA M 24 inb_S64x19200_S1x19200_24_0).view.writes (Elt F) f [⟨Rect.whole S19200, P 24⟩])
        ∗ ((rowA M 25 inb_S64x19200_S1x19200_25_0).view.loc (c : Thread nD τ) ↦[(rowA M 25 inb_S64x19200_S1x19200_25_0).view.set]{fullShare} (rowA M 25 inb_S64x19200_S1x19200_25_0).view.writes (Elt F) f [⟨Rect.whole S19200, P 25⟩])
        ∗ ((rowA M 26 inb_S64x19200_S1x19200_26_0).view.loc (c : Thread nD τ) ↦[(rowA M 26 inb_S64x19200_S1x19200_26_0).view.set]{fullShare} (rowA M 26 inb_S64x19200_S1x19200_26_0).view.writes (Elt F) f [⟨Rect.whole S19200, P 26⟩])
        ∗ ((rowA M 27 inb_S64x19200_S1x19200_27_0).view.loc (c : Thread nD τ) ↦[(rowA M 27 inb_S64x19200_S1x19200_27_0).view.set]{fullShare} (rowA M 27 inb_S64x19200_S1x19200_27_0).view.writes (Elt F) f [⟨Rect.whole S19200, P 27⟩])
        ∗ ((rowA M 28 inb_S64x19200_S1x19200_28_0).view.loc (c : Thread nD τ) ↦[(rowA M 28 inb_S64x19200_S1x19200_28_0).view.set]{fullShare} (rowA M 28 inb_S64x19200_S1x19200_28_0).view.writes (Elt F) f [⟨Rect.whole S19200, P 28⟩])
        ∗ ((rowA M 29 inb_S64x19200_S1x19200_29_0).view.loc (c : Thread nD τ) ↦[(rowA M 29 inb_S64x19200_S1x19200_29_0).view.set]{fullShare} (rowA M 29 inb_S64x19200_S1x19200_29_0).view.writes (Elt F) f [⟨Rect.whole S19200, P 29⟩])
        ∗ ((rowA M 30 inb_S64x19200_S1x19200_30_0).view.loc (c : Thread nD τ) ↦[(rowA M 30 inb_S64x19200_S1x19200_30_0).view.set]{fullShare} (rowA M 30 inb_S64x19200_S1x19200_30_0).view.writes (Elt F) f [⟨Rect.whole S19200, P 30⟩])
        ∗ ((rowA M 31 inb_S64x19200_S1x19200_31_0).view.loc (c : Thread nD τ) ↦[(rowA M 31 inb_S64x19200_S1x19200_31_0).view.set]{fullShare} (rowA M 31 inb_S64x19200_S1x19200_31_0).view.writes (Elt F) f [⟨Rect.whole S19200, P 31⟩])
        ∗ ((rowA M 32 inb_S64x19200_S1x19200_32_0).view.loc (c : Thread nD τ) ↦[(rowA M 32 inb_S64x19200_S1x19200_32_0).view.set]{fullShare} (rowA M 32 inb_S64x19200_S1x19200_32_0).view.writes (Elt F) f [⟨Rect.whole S19200, P 32⟩])
        ∗ ((rowA M 33 inb_S64x19200_S1x19200_33_0).view.loc (c : Thread nD τ) ↦[(rowA M 33 inb_S64x19200_S1x19200_33_0).view.set]{fullShare} (rowA M 33 inb_S64x19200_S1x19200_33_0).view.writes (Elt F) f [⟨Rect.whole S19200, P 33⟩])
        ∗ ((rowA M 34 inb_S64x19200_S1x19200_34_0).view.loc (c : Thread nD τ) ↦[(rowA M 34 inb_S64x19200_S1x19200_34_0).view.set]{fullShare} (rowA M 34 inb_S64x19200_S1x19200_34_0).view.writes (Elt F) f [⟨Rect.whole S19200, P 34⟩])
        ∗ ((rowA M 35 inb_S64x19200_S1x19200_35_0).view.loc (c : Thread nD τ) ↦[(rowA M 35 inb_S64x19200_S1x19200_35_0).view.set]{fullShare} (rowA M 35 inb_S64x19200_S1x19200_35_0).view.writes (Elt F) f [⟨Rect.whole S19200, P 35⟩])
        ∗ ((rowA M 36 inb_S64x19200_S1x19200_36_0).view.loc (c : Thread nD τ) ↦[(rowA M 36 inb_S64x19200_S1x19200_36_0).view.set]{fullShare} (rowA M 36 inb_S64x19200_S1x19200_36_0).view.writes (Elt F) f [⟨Rect.whole S19200, P 36⟩])
        ∗ ((rowA M 37 inb_S64x19200_S1x19200_37_0).view.loc (c : Thread nD τ) ↦[(rowA M 37 inb_S64x19200_S1x19200_37_0).view.set]{fullShare} (rowA M 37 inb_S64x19200_S1x19200_37_0).view.writes (Elt F) f [⟨Rect.whole S19200, P 37⟩])
        ∗ ((rowA M 38 inb_S64x19200_S1x19200_38_0).view.loc (c : Thread nD τ) ↦[(rowA M 38 inb_S64x19200_S1x19200_38_0).view.set]{fullShare} (rowA M 38 inb_S64x19200_S1x19200_38_0).view.writes (Elt F) f [⟨Rect.whole S19200, P 38⟩])
        ∗ ((rowA M 39 inb_S64x19200_S1x19200_39_0).view.loc (c : Thread nD τ) ↦[(rowA M 39 inb_S64x19200_S1x19200_39_0).view.set]{fullShare} (rowA M 39 inb_S64x19200_S1x19200_39_0).view.writes (Elt F) f [⟨Rect.whole S19200, P 39⟩])
        ∗ ((rowA M 40 inb_S64x19200_S1x19200_40_0).view.loc (c : Thread nD τ) ↦[(rowA M 40 inb_S64x19200_S1x19200_40_0).view.set]{fullShare} (rowA M 40 inb_S64x19200_S1x19200_40_0).view.writes (Elt F) f [⟨Rect.whole S19200, P 40⟩])
        ∗ ((rowA M 41 inb_S64x19200_S1x19200_41_0).view.loc (c : Thread nD τ) ↦[(rowA M 41 inb_S64x19200_S1x19200_41_0).view.set]{fullShare} (rowA M 41 inb_S64x19200_S1x19200_41_0).view.writes (Elt F) f [⟨Rect.whole S19200, P 41⟩])
        ∗ ((rowA M 42 inb_S64x19200_S1x19200_42_0).view.loc (c : Thread nD τ) ↦[(rowA M 42 inb_S64x19200_S1x19200_42_0).view.set]{fullShare} (rowA M 42 inb_S64x19200_S1x19200_42_0).view.writes (Elt F) f [⟨Rect.whole S19200, P 42⟩])
        ∗ ((rowA M 43 inb_S64x19200_S1x19200_43_0).view.loc (c : Thread nD τ) ↦[(rowA M 43 inb_S64x19200_S1x19200_43_0).view.set]{fullShare} (rowA M 43 inb_S64x19200_S1x19200_43_0).view.writes (Elt F) f [⟨Rect.whole S19200, P 43⟩])
        ∗ ((rowA M 44 inb_S64x19200_S1x19200_44_0).view.loc (c : Thread nD τ) ↦[(rowA M 44 inb_S64x19200_S1x19200_44_0).view.set]{fullShare} (rowA M 44 inb_S64x19200_S1x19200_44_0).view.writes (Elt F) f [⟨Rect.whole S19200, P 44⟩])
        ∗ ((rowA M 45 inb_S64x19200_S1x19200_45_0).view.loc (c : Thread nD τ) ↦[(rowA M 45 inb_S64x19200_S1x19200_45_0).view.set]{fullShare} (rowA M 45 inb_S64x19200_S1x19200_45_0).view.writes (Elt F) f [⟨Rect.whole S19200, P 45⟩])
        ∗ ((rowA M 46 inb_S64x19200_S1x19200_46_0).view.loc (c : Thread nD τ) ↦[(rowA M 46 inb_S64x19200_S1x19200_46_0).view.set]{fullShare} (rowA M 46 inb_S64x19200_S1x19200_46_0).view.writes (Elt F) f [⟨Rect.whole S19200, P 46⟩])
        ∗ ((rowA M 47 inb_S64x19200_S1x19200_47_0).view.loc (c : Thread nD τ) ↦[(rowA M 47 inb_S64x19200_S1x19200_47_0).view.set]{fullShare} (rowA M 47 inb_S64x19200_S1x19200_47_0).view.writes (Elt F) f [⟨Rect.whole S19200, P 47⟩])
        ∗ ((rowA M 48 inb_S64x19200_S1x19200_48_0).view.loc (c : Thread nD τ) ↦[(rowA M 48 inb_S64x19200_S1x19200_48_0).view.set]{fullShare} (rowA M 48 inb_S64x19200_S1x19200_48_0).view.writes (Elt F) f [⟨Rect.whole S19200, P 48⟩])
        ∗ ((rowA M 49 inb_S64x19200_S1x19200_49_0).view.loc (c : Thread nD τ) ↦[(rowA M 49 inb_S64x19200_S1x19200_49_0).view.set]{fullShare} (rowA M 49 inb_S64x19200_S1x19200_49_0).view.writes (Elt F) f [⟨Rect.whole S19200, P 49⟩])
        ∗ ((rowA M 50 inb_S64x19200_S1x19200_50_0).view.loc (c : Thread nD τ) ↦[(rowA M 50 inb_S64x19200_S1x19200_50_0).view.set]{fullShare} (rowA M 50 inb_S64x19200_S1x19200_50_0).view.writes (Elt F) f [⟨Rect.whole S19200, P 50⟩])
        ∗ ((rowA M 51 inb_S64x19200_S1x19200_51_0).view.loc (c : Thread nD τ) ↦[(rowA M 51 inb_S64x19200_S1x19200_51_0).view.set]{fullShare} (rowA M 51 inb_S64x19200_S1x19200_51_0).view.writes (Elt F) f [⟨Rect.whole S19200, P 51⟩])
        ∗ ((rowA M 52 inb_S64x19200_S1x19200_52_0).view.loc (c : Thread nD τ) ↦[(rowA M 52 inb_S64x19200_S1x19200_52_0).view.set]{fullShare} (rowA M 52 inb_S64x19200_S1x19200_52_0).view.writes (Elt F) f [⟨Rect.whole S19200, P 52⟩])
        ∗ ((rowA M 53 inb_S64x19200_S1x19200_53_0).view.loc (c : Thread nD τ) ↦[(rowA M 53 inb_S64x19200_S1x19200_53_0).view.set]{fullShare} (rowA M 53 inb_S64x19200_S1x19200_53_0).view.writes (Elt F) f [⟨Rect.whole S19200, P 53⟩])
        ∗ ((rowA M 54 inb_S64x19200_S1x19200_54_0).view.loc (c : Thread nD τ) ↦[(rowA M 54 inb_S64x19200_S1x19200_54_0).view.set]{fullShare} (rowA M 54 inb_S64x19200_S1x19200_54_0).view.writes (Elt F) f [⟨Rect.whole S19200, P 54⟩])
        ∗ ((rowA M 55 inb_S64x19200_S1x19200_55_0).view.loc (c : Thread nD τ) ↦[(rowA M 55 inb_S64x19200_S1x19200_55_0).view.set]{fullShare} (rowA M 55 inb_S64x19200_S1x19200_55_0).view.writes (Elt F) f [⟨Rect.whole S19200, P 55⟩])
        ∗ ((rowA M 56 inb_S64x19200_S1x19200_56_0).view.loc (c : Thread nD τ) ↦[(rowA M 56 inb_S64x19200_S1x19200_56_0).view.set]{fullShare} (rowA M 56 inb_S64x19200_S1x19200_56_0).view.writes (Elt F) f [⟨Rect.whole S19200, P 56⟩])
        ∗ ((rowA M 57 inb_S64x19200_S1x19200_57_0).view.loc (c : Thread nD τ) ↦[(rowA M 57 inb_S64x19200_S1x19200_57_0).view.set]{fullShare} (rowA M 57 inb_S64x19200_S1x19200_57_0).view.writes (Elt F) f [⟨Rect.whole S19200, P 57⟩])
        ∗ ((rowA M 58 inb_S64x19200_S1x19200_58_0).view.loc (c : Thread nD τ) ↦[(rowA M 58 inb_S64x19200_S1x19200_58_0).view.set]{fullShare} (rowA M 58 inb_S64x19200_S1x19200_58_0).view.writes (Elt F) f [⟨Rect.whole S19200, P 58⟩])
        ∗ ((rowA M 59 inb_S64x19200_S1x19200_59_0).view.loc (c : Thread nD τ) ↦[(rowA M 59 inb_S64x19200_S1x19200_59_0).view.set]{fullShare} (rowA M 59 inb_S64x19200_S1x19200_59_0).view.writes (Elt F) f [⟨Rect.whole S19200, P 59⟩])
        ∗ ((rowA M 60 inb_S64x19200_S1x19200_60_0).view.loc (c : Thread nD τ) ↦[(rowA M 60 inb_S64x19200_S1x19200_60_0).view.set]{fullShare} (rowA M 60 inb_S64x19200_S1x19200_60_0).view.writes (Elt F) f [⟨Rect.whole S19200, P 60⟩])
        ∗ ((rowA M 61 inb_S64x19200_S1x19200_61_0).view.loc (c : Thread nD τ) ↦[(rowA M 61 inb_S64x19200_S1x19200_61_0).view.set]{fullShare} (rowA M 61 inb_S64x19200_S1x19200_61_0).view.writes (Elt F) f [⟨Rect.whole S19200, P 61⟩])
        ∗ ((rowA M 62 inb_S64x19200_S1x19200_62_0).view.loc (c : Thread nD τ) ↦[(rowA M 62 inb_S64x19200_S1x19200_62_0).view.set]{fullShare} (rowA M 62 inb_S64x19200_S1x19200_62_0).view.writes (Elt F) f [⟨Rect.whole S19200, P 62⟩])
        ∗ ((rowA M 63 inb_S64x19200_S1x19200_63_0).view.loc (c : Thread nD τ) ↦[(rowA M 63 inb_S64x19200_S1x19200_63_0).view.set]{fullShare} (rowA M 63 inb_S64x19200_S1x19200_63_0).view.writes (Elt F) f [⟨Rect.whole S19200, P 63⟩]))
      ⊢ (M.view.loc (c : Thread nD τ) ↦[M.view.set]{fullShare} joinRows M f P : sProp 𝕄) :=
  BIBase.Entails.trans (BIBase.Entails.of_eq rfl) (rows_join_list c M f P)

end Cert.Kernel.Hand

end
-- ==== Proof.WordLevel.GatherTail.lean ====
/-
  Three readings that close the gather kernel's run: a load through the whole-buffer rectangle reads
  the buffer as its view reads it; a store through that rectangle, read back, is what was stored,
  whatever the buffer held; and 64 rows, each the table's row that the row's index word names, are
  together the gathered block.
-/
import proofs.«406060_j54142357733864_2_alg».proof.Proof.WordLevel.GatherDat
import Idealize.ShloMosaic.Lib.Pipeline.FrameBody
import Idealize.ShloMosaic.Lib.Pipeline.Value
import Idealize.ShloMosaic.Lib.ValueIdx

noncomputable section

namespace Cert.Kernel.Hand

open Idealize.ShloMosaic Idealize.ShloMosaic.TcCoe Idealize.SL.Sem
open Idealize.ShloMosaic.ValueIdx (ix1 ix2 eq_ix2)
open Cert.Kernel.Gen

variable {F : FTy → Type} [FloatOps F]

/-- The offsets (0, 0) are zero on every axis. -/
theorem zeroOffsets2 : (![0, 0] : Fin 2 → ℕ) = fun _ => 0 := funext fun a => by fin_cases a <;> rfl

/-- A load through the whole [64, 19200] rectangle reads the buffer as its view reads it. -/
theorem readAt_wholeRect {sp : Space} {e : EltTy} (m : Memref sig .tc sp S64x19200 e)
    (inb : ∀ a, (![0, 0] : Fin 2 → ℕ) a + S64x19200.size a ≤ S64x19200.size a) (G : m.view.ty.Contents (Elt F)) :
    m.view.readAt (Elt F) (Rect.unit (s := S64x19200) ![0, 0] S64x19200.size inb).toLoadRect G = m.view.read (Elt F) G :=
  View.ld_unit_zero zeroOffsets2 inb (m.view.read (Elt F) G)

/-- One store through the whole [64, 19200] rectangle, read back, is what was stored, whatever the
    buffer held before. -/
theorem read_writes_wholeRect' {sp : Space} {e : EltTy} (m : Memref sig .tc sp S64x19200 e)
    (inb : ∀ a, (![0, 0] : Fin 2 → ℕ) a + S64x19200.size a ≤ S64x19200.size a) (f : m.view.ty.Contents (Elt F))
    (p : S64x19200.Idx → Elt F e) :
    m.view.read (Elt F) (m.view.writes (Elt F) f [⟨Rect.unit (s := S64x19200) ![0, 0] S64x19200.size inb, p⟩]) = p := by
  rw [View.read_writes_eq_canon _ _ _ (fun y => ⟨_, List.mem_singleton_self _, View.mem_set_unit_zero zeroOffsets2 inb y⟩),
    View.canon_unit_zero zeroOffsets2]

/-- The same for a bf16 buffer in vector memory and a vector payload. -/
theorem read_writes_wholeRect (m : Memref sig .tc .vmem S64x19200 .bf16)
    (inb : ∀ a, (![0, 0] : Fin 2 → ℕ) a + S64x19200.size a ≤ S64x19200.size a) (f : m.view.ty.Contents (Elt F))
    (p : FVec F S64x19200 .bf16) :
    m.view.read (Elt F) (m.view.writes (Elt F) f [⟨Rect.unit (s := S64x19200) ![0, 0] S64x19200.size inb, p⟩]) = p :=
  read_writes_wholeRect' m inb f p

/-- The same over a buffer that held anything at all. -/
theorem read_writes_junk_wholeRect (m : Memref sig .tc .vmem S64x19200 .bf16)
    (inb : ∀ a, (![0, 0] : Fin 2 → ℕ) a + S64x19200.size a ≤ S64x19200.size a) (p : FVec F S64x19200 .bf16) :
    m.view.read (Elt F) (m.view.writes (Elt F) m.view.junk [⟨Rect.unit (s := S64x19200) ![0, 0] S64x19200.size inb, p⟩]) = p :=
  read_writes_wholeRect' m inb m.view.junk p

/-- Sixty-four rows, row r the table's row that word 64 t + r names, are together the gathered block. -/
theorem rows_of_family (idx : Vec F S8192 .i32) (tab : Vec F S4200x19200 .f32) (t : Fin grid0.N)
    (P : Fin 64 → S19200.Idx → Elt F .f32) (hP : ∀ r y, P r y = gatherRows idx tab t (ix2 r (y 0))) :
    (fun x : S64x19200.Idx => P (x 0) (ix1 (x 1))) = gatherRows idx tab t := by
  funext x
  exact (hP (x 0) (ix1 (x 1))).trans (congrArg (gatherRows idx tab t) (eq_ix2 x).symm)

end Cert.Kernel.Hand

end
-- ==== Proof.WordLevel.GatherStored.lean ====
/-
  What the gather kernel stores is the truncation of the gathered rows: the 64 rows a row scratch
  holds after the copies, joined, are read whole as the gathered block, and the store of its
  truncation through the whole output rectangle reads back as exactly that.
-/
import proofs.«406060_j54142357733864_2_alg».proof.Proof.WordLevel.GatherRows
import proofs.«406060_j54142357733864_2_alg».proof.Proof.WordLevel.GatherTail

noncomputable section

namespace Cert.Kernel.Hand

open Idealize.ShloMosaic Idealize.ShloMosaic.TcCoe Idealize.SL.Sem
open Idealize.ShloMosaic.ValueIdx (ix1 ix2)
open Cert.Kernel.Gen

variable {F : FTy → Type} [FloatOps F]

/-- A row scratch whose row r holds the table's row that word 64 t + r names, loaded whole, is the
    gathered block. -/
theorem loaded_join {sp : Space} (m6 : Memref sig .tc sp S64x19200 .f32)
    (inb6 : ∀ a, (![0, 0] : Fin 2 → ℕ) a + S64x19200.size a ≤ S64x19200.size a) (f6 : m6.view.ty.Contents (Elt F))
    (idx : Vec F S8192 .i32) (tab : Vec F S4200x19200 .f32) (t : Fin grid0.N)
    (P : Fin 64 → S19200.Idx → Elt F .f32) (hP : ∀ r y, P r y = gatherRows idx tab t (ix2 r (y 0))) :
    m6.view.readAt (Elt F) (Rect.unit (s := S64x19200) ![0, 0] S64x19200.size inb6).toLoadRect (joinRows m6 f6 P)
      = gatherRows idx tab t := by
  rw [readAt_wholeRect]
  have hread : m6.view.read (Elt F) (joinRows m6 f6 P) = fun x : S64x19200.Idx => P (x 0) (ix1 (x 1)) :=
    funext (read_joinRows m6 f6 P)
  rw [hread]
  exact rows_of_family idx tab t P hP

/-- The first output: the truncation of the loaded scratch, stored whole, reads back as the
    truncation of the gathered block. -/
theorem stored_eq1 (m4 : Memref sig .tc .vmem S64x19200 .bf16)
    (inb4 : ∀ a, (![0, 0] : Fin 2 → ℕ) a + S64x19200.size a ≤ S64x19200.size a) (f4 : m4.view.ty.Contents (Elt F))
    {sp : Space} (m6 : Memref sig .tc sp S64x19200 .f32)
    (inb6 : ∀ a, (![0, 0] : Fin 2 → ℕ) a + S64x19200.size a ≤ S64x19200.size a) (f6 : m6.view.ty.Contents (Elt F))
    (idx : Vec F S8192 .i32) (tab : Vec F S4200x19200 .f32) (t : Fin grid0.N)
    (P : Fin 64 → S19200.Idx → Elt F .f32) (hP : ∀ r y, P r y = gatherRows idx tab t (ix2 r (y 0))) :
    m4.view.read (Elt F) (m4.view.writes (Elt F) f4 [⟨Rect.unit (s := S64x19200) ![0, 0] S64x19200.size inb4,
        k0_pay1 (m6.view.readAt (Elt F) (Rect.unit (s := S64x19200) ![0, 0] S64x19200.size inb6).toLoadRect (joinRows m6 f6 P))⟩])
      = k0_pay1 (gatherRows idx tab t) := by
  rw [read_writes_wholeRect, loaded_join m6 inb6 f6 idx tab t P hP]

/-- The second output likewise. -/
theorem stored_eq2 (m5 : Memref sig .tc .vmem S64x19200 .bf16)
    (inb5 : ∀ a, (![0, 0] : Fin 2 → ℕ) a + S64x19200.size a ≤ S64x19200.size a) (f5 : m5.view.ty.Contents (Elt F))
    {sp : Space} (m7 : Memref sig .tc sp S64x19200 .f32)
    (inb7 : ∀ a, (![0, 0] : Fin 2 → ℕ) a + S64x19200.size a ≤ S64x19200.size a) (f7 : m7.view.ty.Contents (Elt F))
    (idx : Vec F S8192 .i32) (tab : Vec F S4200x19200 .f32) (t : Fin grid0.N)
    (P : Fin 64 → S19200.Idx → Elt F .f32) (hP : ∀ r y, P r y = gatherRows idx tab t (ix2 r (y 0))) :
    m5.view.read (Elt F) (m5.view.writes (Elt F) f5 [⟨Rect.unit (s := S64x19200) ![0, 0] S64x19200.size inb5,
        k0_pay2 (m7.view.readAt (Elt F) (Rect.unit (s := S64x19200) ![0, 0] S64x19200.size inb7).toLoadRect (joinRows m7 f7 P))⟩])
      = k0_pay2 (gatherRows idx tab t) := by
  rw [read_writes_wholeRect, loaded_join m7 inb7 f7 idx tab t P hP]

/-- The first output, the loaded scratch first given a name. -/
theorem stored_eq1_named (m4 : Memref sig .tc .vmem S64x19200 .bf16)
    (inb4 : ∀ a, (![0, 0] : Fin 2 → ℕ) a + S64x19200.size a ≤ S64x19200.size a) (f4 : m4.view.ty.Contents (Elt F))
    {sp : Space} (m6 : Memref sig .tc sp S64x19200 .f32)
    (inb6 : ∀ a, (![0, 0] : Fin 2 → ℕ) a + S64x19200.size a ≤ S64x19200.size a) (f6 : m6.view.ty.Contents (Elt F))
    (idx : Vec F S8192 .i32) (tab : Vec F S4200x19200 .f32) (t : Fin grid0.N)
    (P : Fin 64 → S19200.Idx → Elt F .f32) (hP : ∀ r y, P r y = gatherRows idx tab t (ix2 r (y 0)))
    (V : Vec F S64x19200 .f32)
    (hV : V = m6.view.readAt (Elt F) (Rect.unit (s := S64x19200) ![0, 0] S64x19200.size inb6).toLoadRect (joinRows m6 f6 P)) :
    m4.view.read (Elt F) (m4.view.writes (Elt F) f4 [⟨Rect.unit (s := S64x19200) ![0, 0] S64x19200.size inb4, k0_pay1 V⟩])
      = k0_pay1 (gatherRows idx tab t) := by
  subst hV
  exact stored_eq1 m4 inb4 f4 m6 inb6 f6 idx tab t P hP

/-- The second output, the loaded scratch first given a name. -/
theorem stored_eq2_named (m5 : Memref sig .tc .vmem S64x19200 .bf16)
    (inb5 : ∀ a, (![0, 0] : Fin 2 → ℕ) a + S64x19200.size a ≤ S64x19200.size a) (f5 : m5.view.ty.Contents (Elt F))
    {sp : Space} (m7 : Memref sig .tc sp S64x19200 .f32)
    (inb7 : ∀ a, (![0, 0] : Fin 2 → ℕ) a + S64x19200.size a ≤ S64x19200.size a) (f7 : m7.view.ty.Contents (Elt F))
    (idx : Vec F S8192 .i32) (tab : Vec F S4200x19200 .f32) (t : Fin grid0.N)
    (P : Fin 64 → S19200.Idx → Elt F .f32) (hP : ∀ r y, P r y = gatherRows idx tab t (ix2 r (y 0)))
    (V : Vec F S64x19200 .f32)
    (hV : V = m7.view.readAt (Elt F) (Rect.unit (s := S64x19200) ![0, 0] S64x19200.size inb7).toLoadRect (joinRows m7 f7 P)) :
    m5.view.read (Elt F) (m5.view.writes (Elt F) f5 [⟨Rect.unit (s := S64x19200) ![0, 0] S64x19200.size inb5, k0_pay2 V⟩])
      = k0_pay2 (gatherRows idx tab t) := by
  subst hV
  exact stored_eq2 m5 inb5 f5 m7 inb7 f7 idx tab t P hP

end Cert.Kernel.Hand

end
-- ==== Proof.WordLevel.GatherBody.lean ====
/- The gather kernel's triple at one grid point. The kernel reads the 64 + 64 index words of the point, starts one row
   copy per word out of the padded table into the matching row of its two scratch buffers, waits for all 128 copies,
   and stores the two scratches, truncated to bf16, into its two output blocks.
   All 128 copies read the one table at once, at rows that may coincide, so the table is held as one read share per
   copy and each copy borrows the row it reads from its own share; a copy writes one scratch row and nothing else, so
   each scratch is held as its 64 rows, a copy takes exactly the row it fills, and its wait hands back exactly that row,
   filled. After the last wait each scratch is whole again, its row r holding the table row that the r-th index word
   names; what is stored is the truncation of those rows. -/
import proofs.«406060_j54142357733864_2_alg».proof.Proof.Gen.Kernel.Launch
import proofs.«406060_j54142357733864_2_alg».proof.Proof.Gen.Kernel.Skeleton
import proofs.«406060_j54142357733864_2_alg».proof.Proof.WordLevel.GatherGlue
import proofs.«406060_j54142357733864_2_alg».proof.Proof.WordLevel.GatherRows
import proofs.«406060_j54142357733864_2_alg».proof.Proof.WordLevel.GatherTail
import proofs.«406060_j54142357733864_2_alg».proof.Proof.WordLevel.GatherStored
import Idealize.ShloMosaic.Lib.Pipeline.FrameBody
import Idealize.ShloMosaic.Lib.Pipeline.Regions
import Idealize.ShloMosaic.Lib.Transfers
import Idealize.ShloMosaic.Lib.Tactic
import Idealize.ShloMosaic.Lib.ValueIdx

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2)

variable {F : FTy → Type} [FloatOps F]

local notation "𝕄" => MT nD τ sig Unit (Elt F) ℕ (Pipeline.UD sig nD τ) ℕ

/-- Every word of an index table names a row of the padded table (stated on what a load through the table's memref reads). -/
def InRange (c : Dev nD) (m : Memref sig .tc .smem S8192 .i32) (f : Buf (Elt F) (m.view.loc (c : Thread nD τ))) : Prop :=
  ∀ r j, (m.view.readAt (Elt F) r f j).toNat < 4200

/-- The side condition the kernel assumes after reading a word: the row the word names lies inside the padded table. -/
theorem chk_of_inRange (c : Dev nD) (m : Memref sig .tc .smem S8192 .i32) (f : Buf (Elt F) (m.view.loc (c : Thread nD τ)))
    (h : InRange c m f) (r) (j) :
    ∀ a, (![(m.view.readAt (Elt F) r f j).toNat, 0] : Fin 2 → ℕ) a + S1x19200.size a ≤ S4200x19200.size a := by
  have := h r j
  intro a; fin_cases a
  · show (m.view.readAt (Elt F) r f j).toNat + 1 ≤ 4200; omega
  · show 0 + 19200 ≤ 19200; omega

/-! ## One row of a two-axis array, seen through its squeezed view -/

section RowLemmas
open Idealize.ShloMosaic.ValueIdx (ix1 ix2)
variable {sp : Space}

/-- The squeezed row k of an n×19200 array. -/
abbrev rowRect {n : ℕ} (k : ℕ) (hk : ∀ a, (![k, 0] : Fin 2 → ℕ) a + S1x19200.size a ≤ (⟨2, ![n, 19200]⟩ : Shape).size a) :
    Rect (⟨2, ![n, 19200]⟩ : Shape) := Rect.unit ![k, 0] S1x19200.size hk

/-- Position y of the squeezed row k is the array's index (k, y). -/
theorem rowRect_emb {n : ℕ} (k : ℕ) (hk) (hkn : k < n) (y : S19200.Idx) :
    (rowRect (n := n) k hk).emb (Shape.reshapeEquiv squeezes_S1x19200_S19200.numel_eq y) = ix2 ⟨k, hkn⟩ (y 0) := by
  rw [show Shape.reshapeEquiv squeezes_S1x19200_S19200.numel_eq y = Fin.cons ⟨0, Nat.one_pos⟩ y from
    Shape.reshapeEquiv_cons_one (n := 1) (d := ![19200]) _ y]
  funext a; apply Fin.ext
  match a with
  | ⟨0, _⟩ => show k + 1 * 0 = k; omega
  | ⟨1, _⟩ => show 0 + 1 * (y 0).val = (y 0).val; omega

/-- Reading through a row view: position y of the squeezed row k is the array's element (k, y). -/
theorem read_rowView {n : ℕ} (m : Memref sig .tc sp ⟨2, ![n, 19200]⟩ .f32) (k : ℕ) (hk) (hs) (hkn : k < n)
    (f : m.view.ty.Contents (Elt F)) (y : S19200.Idx) :
    ((m.slice (rowRect k hk) hs).squeeze S19200 squeezes_S1x19200_S19200).view.read (Elt F) f y
      = m.view.read (Elt F) f (ix2 ⟨k, hkn⟩ (y 0)) := by
  exact congrArg (m.view.read (Elt F) f) (rowRect_emb k hk hkn y)

/-- After a write of w through the squeezed row k, the array reads w on row k and what it held elsewhere. -/
theorem read_write_rowView {n : ℕ} (m : Memref sig .tc sp ⟨2, ![n, 19200]⟩ .f32) (k : ℕ) (hk) (hs) (hkn : k < n)
    (f : m.view.ty.Contents (Elt F)) (w : S19200.Idx → Elt F .f32) (x : (⟨2, ![n, 19200]⟩ : Shape).Idx) :
    m.view.read (Elt F) (((m.slice (rowRect k hk) hs).squeeze S19200 squeezes_S1x19200_S19200).view.write (Elt F) f w Finset.univ) x
      = if (x 0).val = k then w (ix1 (x 1)) else m.view.read (Elt F) f x := by
  split
  · next h =>
    have hx : x = (rowRect (n := n) k hk).emb (Shape.reshapeEquiv squeezes_S1x19200_S19200.numel_eq (ix1 (x 1))) := by
      rw [rowRect_emb k hk hkn]
      funext a; apply Fin.ext
      match a with
      | ⟨0, _⟩ => exact h
      | ⟨1, _⟩ => rfl
    conv_lhs => rw [hx]
    exact View.read_write_of_mem (v := ((m.slice (rowRect k hk) hs).squeeze S19200 squeezes_S1x19200_S19200).view) f w (Finset.mem_univ _)
  · next h =>
    rw [View.read_apply, View.read_apply, View.write_of_not_mem]
    intro hmem
    have hmem' : m.view.emb x ∈ (rowRect k hk).set.map m.view.emb :=
      (Finset.ext_iff.1 ((View.set_reshape (m.view.slice (rowRect k hk)) squeezes_S1x19200_S19200.numel_eq).trans (View.set_slice m.view (rowRect k hk))) _).1 hmem
    rw [Finset.mem_map'] at hmem'
    obtain ⟨j, hj, hj'⟩ := (LoadRect.mem_set _).1 hmem' 0
    apply h
    rw [hj']; show k + 1 * j = k
    have : j < 1 := hj
    omega

end RowLemmas

/-! ## What one row copy delivers -/

/-- The kernel's word arithmetic for the position of row r's index word at point n: 64·n + r, no wrap. -/
theorem wordOff_val (n r : ℕ) (hn : n < 128) (hr : r < 64) :
    (Scalar.indexCast (Scalar.addi (Scalar.muli (BitVec.ofNat 32 n) 64#32) (BitVec.ofNat 32 r))).toNat = 64 * n + r := by
  unfold Scalar.indexCast Scalar.addi Scalar.muli IntOp.addi IntOp.muli
  simp only [BitVec.toNat_add, BitVec.toNat_mul, BitVec.toNat_ofNat]
  omega

/-- The one coordinate of grid point t is t. -/
theorem coords0_val (t : Fin grid0.N) : ((grid0.coords t) 0).val = t.val := by
  have h : t.val < 128 := lt_of_lt_of_eq t.isLt N_0
  show t.val / grid0.stride 0 % grid0.bound 0 = t.val
  rw [show grid0.stride 0 = 1 from by decide, show grid0.bound 0 = 128 from rfl]
  omega

/-- The position the kernel computes for row r's index word at point t is wordPos t r. -/
theorem wordOff_eq (t : Fin grid0.N) (r : Fin 64) :
    (Scalar.indexCast (Scalar.addi (Scalar.muli (BitVec.ofNat 32 ((grid0.coords t) 0).val) 64#32) (BitVec.ofNat 32 r.val))).toNat
      = (wordPos t r).val := by
  rw [wordOff_val _ _ ((grid0.coords t) 0).isLt r.isLt, coords0_val]; rfl

/-- A one-word load of an index table at offset off reads the table's word at off. -/
theorem word_eq (m : Memref sig .tc .smem S8192 .i32) (c : Dev nD) (f : Buf (Elt F) (m.view.loc (c : Thread nD τ)))
    (off : Fin 1 → ℕ) (hinb) (hfirst) (p : Fin 8192) (hoff : off 0 = p.val) :
    View.readAt (Elt F) m.view (Rect.unit (s := S8192) off S1.size hinb).toLoadRect f (Shape.Idx.first hfirst)
      = m.view.read (Elt F) f (ix1 p) := by
  rw [View.readAt_apply]; congr 1
  funext a; apply Fin.ext
  match a with
  | ⟨0, _⟩ => show off 0 + 1 * 0 = p.val; omega

/-- The copy of the table row that word w names delivers, at position y, the gathered rows' element (r, y). -/
theorem pay_apply (c : Dev nD) (t : Fin grid0.N) (r : Fin 64)
    (arg1 : Memref sig .tc .smem S8192 .i32) (arg3 : Memref sig .tc .hbm S4200x19200 .f32)
    (f1 : Buf (Elt F) (arg1.view.loc (c : Thread nD τ))) (f3 : Buf (Elt F) (arg3.view.loc (c : Thread nD τ)))
    (w : BitVec 32) (hw : w = arg1.view.read (Elt F) f1 (ix1 (wordPos t r))) (hlt : w.toNat < 4200) (hk) (hs) (y : S19200.Idx) :
    ReadAs.same.apply (View.read (Elt F)
        ((arg3.slice (Rect.unit ![w.toNat, 0] S1x19200.size hk) hs).squeeze S19200 squeezes_S1x19200_S19200).view f3) y
      = gatherRows (arg1.view.read (Elt F) f1) (arg3.view.read (Elt F) f3) t (ix2 r (y 0)) := by
  show View.read (Elt F) ((arg3.slice (rowRect w.toNat hk) hs).squeeze S19200 squeezes_S1x19200_S19200).view f3 y = _
  rw [read_rowView arg3 w.toNat hk hs hlt]
  unfold gatherRows
  congr 1
  funext a
  match a with
  | ⟨0, _⟩ => apply Fin.ext; show w.toNat = (arg1.view.read (Elt F) f1 (ix1 (wordPos t r))).toNat % 4200; rw [← hw, Nat.mod_eq_of_lt hlt]
  | ⟨1, _⟩ => rfl

set_option maxHeartbeats 64000000 in
/-- From both index tables in range, the table as its 128 read shares, both outputs and both scratches at anything,
    the 128 cells at zero and nothing owed, the kernel at point t runs to the continuation holding the tables, the
    shares and the cells as they were and each output at the truncation of its gathered rows. -/
theorem gather_body (c : Dev nD) (t : Fin grid0.N)
    (arg1 : Memref sig .tc .smem S8192 .i32) (harg1 : arg1.IsWhole) (arg2 : Memref sig .tc .smem S8192 .i32) (harg2 : arg2.IsWhole)
    (arg3 : Memref sig .tc .hbm S4200x19200 .f32) (harg3 : arg3.IsWhole)
    (arg4 : Memref sig .tc .vmem S64x19200 .bf16) (harg4 : arg4.IsWhole) (arg5 : Memref sig .tc .vmem S64x19200 .bf16) (harg5 : arg5.IsWhole)
    (arg6 : Memref sig .tc .vmem S64x19200 .f32) (harg6 : arg6.IsWhole) (arg7 : Memref sig .tc .vmem S64x19200 .f32) (harg7 : arg7.IsWhole)
    (f1 : Buf (Elt F) (arg1.view.loc (c : Thread nD τ))) (f2 : Buf (Elt F) (arg2.view.loc (c : Thread nD τ)))
    (f3 : Buf (Elt F) (arg3.view.loc (c : Thread nD τ)))
    (f4 : Buf (Elt F) (arg4.view.loc (c : Thread nD τ))) (f5 : Buf (Elt F) (arg5.view.loc (c : Thread nD τ)))
    (f6 : Buf (Elt F) (arg6.view.loc (c : Thread nD τ))) (f7 : Buf (Elt F) (arg7.view.loc (c : Thread nD τ)))
    (hw1 : InRange c arg1 f1) (hw2 : InRange c arg2 f2)
    (W : Waits sig Unit) (K : PUnit → sProp 𝕄) :
    iprop((arg1.view.loc (c : Thread nD τ) ↦[arg1.view.set]{fullShare} f1) ∗ (arg2.view.loc (c : Thread nD τ) ↦[arg2.view.set]{fullShare} f2)
        ∗ (arg3.view.loc (c : Thread nD τ) ↦[arg3.view.set]{Transfers.shareTokN fullShare 4} f3)
        ∗ (arg3.view.loc (c : Thread nD τ) ↦[arg3.view.set]{Transfers.shareTokN fullShare 5} f3)
        ∗ (arg3.view.loc (c : Thread nD τ) ↦[arg3.view.set]{Transfers.shareTokN fullShare 6} f3)
        ∗ (arg3.view.loc (c : Thread nD τ) ↦[arg3.view.set]{Transfers.shareTokN fullShare 7} f3)
        ∗ (arg3.view.loc (c : Thread nD τ) ↦[arg3.view.set]{Transfers.shareTokN fullShare 8} f3)
        ∗ (arg3.view.loc (c : Thread nD τ) ↦[arg3.view.set]{Transfers.shareTokN fullShare 9} f3)
        ∗ (arg3.view.loc (c : Thread nD τ) ↦[arg3.view.set]{Transfers.shareTokN fullShare 10} f3)
        ∗ (arg3.view.loc (c : Thread nD τ) ↦[arg3.view.set]{Transfers.shareTokN fullShare 11} f3)
        ∗ (arg3.view.loc (c : Thread nD τ) ↦[arg3.view.set]{Transfers.shareTokN fullShare 12} f3)
        ∗ (arg3.view.loc (c : Thread nD τ) ↦[arg3.view.set]{Transfers.shareTokN fullShare 13} f3)
        ∗ (arg3.view.loc (c : Thread nD τ) ↦[arg3.view.set]{Transfers.shareTokN fullShare 14} f3)
        ∗ (arg3.view.loc (c : Thread nD τ) ↦[arg3.view.set]{Transfers.shareTokN fullShare 15} f3)
        ∗ (arg3.view.loc (c : Thread nD τ) ↦[arg3.view.set]{Transfers.shareTokN fullShare 16} f3)
        ∗ (arg3.view.loc (c : Thread nD τ) ↦[arg3.view.set]{Transfers.shareTokN fullShare 17} f3)
        ∗ (arg3.view.loc (c : Thread nD τ) ↦[arg3.view.set]{Transfers.shareTokN fullShare 18} f3)
        ∗ (arg3.view.loc (c : Thread nD τ) ↦[arg3.view.set]{Transfers.shareTokN fullShare 19} f3)
        ∗ (arg3.view.loc (c : Thread nD τ) ↦[arg3.view.set]{Transfers.shareTokN fullShare 20} f3)
        ∗ (arg3.view.loc (c : Thread nD τ) ↦[arg3.view.set]{Transfers.shareTokN fullShare 21} f3)
        ∗ (arg3.view.loc (c : Thread nD τ) ↦[arg3.view.set]{Transfers.shareTokN fullShare 22} f3)
        ∗ (arg3.view.loc (c : Thread nD τ) ↦[arg3.view.set]{Transfers.shareTokN fullShare 23} f3)
        ∗ (arg3.view.loc (c : Thread nD τ) ↦[arg3.view.set]{Transfers.shareTokN fullShare 24} f3)
        ∗ (arg3.view.loc (c : Thread nD τ) ↦[arg3.view.set]{Transfers.shareTokN fullShare 25} f3)
        ∗ (arg3.view.loc (c : Thread nD τ) ↦[arg3.view.set]{Transfers.shareTokN fullShare 26} f3)
        ∗ (arg3.view.loc (c : Thread nD τ) ↦[arg3.view.set]{Transfers.shareTokN fullShare 27} f3)
        ∗ (arg3.view.loc (c : Thread nD τ) ↦[arg3.view.set]{Transfers.shareTokN fullShare 28} f3)
        ∗ (arg3.view.loc (c : Thread nD τ) ↦[arg3.view.set]{Transfers.shareTokN fullShare 29} f3)
        ∗ (arg3.view.loc (c : Thread nD τ) ↦[arg3.view.set]{Transfers.shareTokN fullShare 30} f3)
        ∗ (arg3.view.loc (c : Thread nD τ) ↦[arg3.view.set]{Transfers.shareTokN fullShare 31} f3)
        ∗ (arg3.view.loc (c : Thread nD τ) ↦[arg3.view.set]{Transfers.shareTokN fullShare 32} f3)
        ∗ (arg3.view.loc (c : Thread nD τ) ↦[arg3.view.set]{Transfers.shareTokN fullShare 33} f3)
        ∗ (arg3.view.loc (c : Thread nD τ) ↦[arg3.view.set]{Transfers.shareTokN fullShare 34} f3)
        ∗ (arg3.view.loc (c : Thread nD τ) ↦[arg3.view.set]{Transfers.shareTokN fullShare 35} f3)
        ∗ (arg3.view.loc (c : Thread nD τ) ↦[arg3.view.set]{Transfers.shareTokN fullShare 36} f3)
        ∗ (arg3.view.loc (c : Thread nD τ) ↦[arg3.view.set]{Transfers.shareTokN fullShare 37} f3)
        ∗ (arg3.view.loc (c : Thread nD τ) ↦[arg3.view.set]{Transfers.shareTokN fullShare 38} f3)
        ∗ (arg3.view.loc (c : Thread nD τ) ↦[arg3.view.set]{Transfers.shareTokN fullShare 39} f3)
        ∗ (arg3.view.loc (c : Thread nD τ) ↦[arg3.view.set]{Transfers.shareTokN fullShare 40} f3)
        ∗ (arg3.view.loc (c : Thread nD τ) ↦[arg3.view.set]{Transfers.shareTokN fullShare 41} f3)
        ∗ (arg3.view.loc (c : Thread nD τ) ↦[arg3.view.set]{Transfers.shareTokN fullShare 42} f3)
        ∗ (arg3.view.loc (c : Thread nD τ) ↦[arg3.view.set]{Transfers.shareTokN fullShare 43} f3)
        ∗ (arg3.view.loc (c : Thread nD τ) ↦[arg3.view.set]{Transfers.shareTokN fullShare 44} f3)
        ∗ (arg3.view.loc (c : Thread nD τ) ↦[arg3.view.set]{Transfers.shareTokN fullShare 45} f3)
        ∗ (arg3.view.loc (c : Thread nD τ) ↦[arg3.view.set]{Transfers.shareTokN fullShare 46} f3)
        ∗ (arg3.view.loc (c : Thread nD τ) ↦[arg3.view.set]{Transfers.shareTokN fullShare 47} f3)
        ∗ (arg3.view.loc (c : Thread nD τ) ↦[arg3.view.set]{Transfers.shareTokN fullShare 48} f3)
        ∗ (arg3.view.loc (c : Thread nD τ) ↦[arg3.view.set]{Transfers.shareTokN fullShare 49} f3)
        ∗ (arg3.view.loc (c : Thread nD τ) ↦[arg3.view.set]{Transfers.shareTokN fullShare 50} f3)
        ∗ (arg3.view.loc (c : Thread nD τ) ↦[arg3.view.set]{Transfers.shareTokN fullShare 51} f3)
        ∗ (arg3.view.loc (c : Thread nD τ) ↦[arg3.view.set]{Transfers.shareTokN fullShare 52} f3)
        ∗ (arg3.view.loc (c : Thread nD τ) ↦[arg3.view.set]{Transfers.shareTokN fullShare 53} f3)
        ∗ (arg3.view.loc (c : Thread nD τ) ↦[arg3.view.set]{Transfers.shareTokN fullShare 54} f3)
        ∗ (arg3.view.loc (c : Thread nD τ) ↦[arg3.view.set]{Transfers.shareTokN fullShare 55} f3)
        ∗ (arg3.view.loc (c : Thread nD τ) ↦[arg3.view.set]{Transfers.shareTokN fullShare 56} f3)
        ∗ (arg3.view.loc (c : Thread nD τ) ↦[arg3.view.set]{Transfers.shareTokN fullShare 57} f3)
        ∗ (arg3.view.loc (c : Thread nD τ) ↦[arg3.view.set]{Transfers.shareTokN fullShare 58} f3)
        ∗ (arg3.view.loc (c : Thread nD τ) ↦[arg3.view.set]{Transfers.shareTokN fullShare 59} f3)
        ∗ (arg3.view.loc (c : Thread nD τ) ↦[arg3.view.set]{Transfers.shareTokN fullShare 60} f3)
        ∗ (arg3.view.loc (c : Thread nD τ) ↦[arg3.view.set]{Transfers.shareTokN fullShare 61} f3)
        ∗ (arg3.view.loc (c : Thread nD τ) ↦[arg3.view.set]{Transfers.shareTokN fullShare 62} f3)
        ∗ (arg3.view.loc (c : Thread nD τ) ↦[arg3.view.set]{Transfers.shareTokN fullShare 63} f3)
        ∗ (arg3.view.loc (c : Thread nD τ) ↦[arg3.view.set]{Transfers.shareTokN fullShare 64} f3)
        ∗ (arg3.view.loc (c : Thread nD τ) ↦[arg3.view.set]{Transfers.shareTokN fullShare 65} f3)
        ∗ (arg3.view.loc (c : Thread nD τ) ↦[arg3.view.set]{Transfers.shareTokN fullShare 66} f3)
        ∗ (arg3.view.loc (c : Thread nD τ) ↦[arg3.view.set]{Transfers.shareTokN fullShare 67} f3)
        ∗ (arg3.view.loc (c : Thread nD τ) ↦[arg3.view.set]{Transfers.shareTokN fullShare 68} f3)
        ∗ (arg3.view.loc (c : Thread nD τ) ↦[arg3.view.set]{Transfers.shareTokN fullShare 69} f3)
        ∗ (arg3.view.loc (c : Thread nD τ) ↦[arg3.view.set]{Transfers.shareTokN fullShare 70} f3)
        ∗ (arg3.view.loc (c : Thread nD τ) ↦[arg3.view.set]{Transfers.shareTokN fullShare 71} f3)
        ∗ (arg3.view.loc (c : Thread nD τ) ↦[arg3.view.set]{Transfers.shareTokN fullShare 72} f3)
        ∗ (arg3.view.loc (c : Thread nD τ) ↦[arg3.view.set]{Transfers.shareTokN fullShare 73} f3)
        ∗ (arg3.view.loc (c : Thread nD τ) ↦[arg3.view.set]{Transfers.shareTokN fullShare 74} f3)
        ∗ (arg3.view.loc (c : Thread nD τ) ↦[arg3.view.set]{Transfers.shareTokN fullShare 75} f3)
        ∗ (arg3.view.loc (c : Thread nD τ) ↦[arg3.view.set]{Transfers.shareTokN fullShare 76} f3)
        ∗ (arg3.view.loc (c : Thread nD τ) ↦[arg3.view.set]{Transfers.shareTokN fullShare 77} f3)
        ∗ (arg3.view.loc (c : Thread nD τ) ↦[arg3.view.set]{Transfers.shareTokN fullShare 78} f3)
        ∗ (arg3.view.loc (c : Thread nD τ) ↦[arg3.view.set]{Transfers.shareTokN fullShare 79} f3)
        ∗ (arg3.view.loc (c : Thread nD τ) ↦[arg3.view.set]{Transfers.shareTokN fullShare 80} f3)
        ∗ (arg3.view.loc (c : Thread nD τ) ↦[arg3.view.set]{Transfers.shareTokN fullShare 81} f3)
        ∗ (arg3.view.loc (c : Thread nD τ) ↦[arg3.view.set]{Transfers.shareTokN fullShare 82} f3)
        ∗ (arg3.view.loc (c : Thread nD τ) ↦[arg3.view.set]{Transfers.shareTokN fullShare 83} f3)
        ∗ (arg3.view.loc (c : Thread nD τ) ↦[arg3.view.set]{Transfers.shareTokN fullShare 84} f3)
        ∗ (arg3.view.loc (c : Thread nD τ) ↦[arg3.view.set]{Transfers.shareTokN fullShare 85} f3)
        ∗ (arg3.view.loc (c : Thread nD τ) ↦[arg3.view.set]{Transfers.shareTokN fullShare 86} f3)
        ∗ (arg3.view.loc (c : Thread nD τ) ↦[arg3.view.set]{Transfers.shareTokN fullShare 87} f3)
        ∗ (arg3.view.loc (c : Thread nD τ) ↦[arg3.view.set]{Transfers.shareTokN fullShare 88} f3)
        ∗ (arg3.view.loc (c : Thread nD τ) ↦[arg3.view.set]{Transfers.shareTokN fullShare 89} f3)
        ∗ (arg3.view.loc (c : Thread nD τ) ↦[arg3.view.set]{Transfers.shareTokN fullShare 90} f3)
        ∗ (arg3.view.loc (c : Thread nD τ) ↦[arg3.view.set]{Transfers.shareTokN fullShare 91} f3)
        ∗ (arg3.view.loc (c : Thread nD τ) ↦[arg3.view.set]{Transfers.shareTokN fullShare 92} f3)
        ∗ (arg3.view.loc (c : Thread nD τ) ↦[arg3.view.set]{Transfers.shareTokN fullShare 93} f3)
        ∗ (arg3.view.loc (c : Thread nD τ) ↦[arg3.view.set]{Transfers.shareTokN fullShare 94} f3)
        ∗ (arg3.view.loc (c : Thread nD τ) ↦[arg3.view.set]{Transfers.shareTokN fullShare 95} f3)
        ∗ (arg3.view.loc (c : Thread nD τ) ↦[arg3.view.set]{Transfers.shareTokN fullShare 96} f3)
        ∗ (arg3.view.loc (c : Thread nD τ) ↦[arg3.view.set]{Transfers.shareTokN fullShare 97} f3)
        ∗ (arg3.view.loc (c : Thread nD τ) ↦[arg3.view.set]{Transfers.shareTokN fullShare 98} f3)
        ∗ (arg3.view.loc (c : Thread nD τ) ↦[arg3.view.set]{Transfers.shareTokN fullShare 99} f3)
        ∗ (arg3.view.loc (c : Thread nD τ) ↦[arg3.view.set]{Transfers.shareTokN fullShare 100} f3)
        ∗ (arg3.view.loc (c : Thread nD τ) ↦[arg3.view.set]{Transfers.shareTokN fullShare 101} f3)
        ∗ (arg3.view.loc (c : Thread nD τ) ↦[arg3.view.set]{Transfers.shareTokN fullShare 102} f3)
        ∗ (arg3.view.loc (c : Thread nD τ) ↦[arg3.view.set]{Transfers.shareTokN fullShare 103} f3)
        ∗ (arg3.view.loc (c : Thread nD τ) ↦[arg3.view.set]{Transfers.shareTokN fullShare 104} f3)
        ∗ (arg3.view.loc (c : Thread nD τ) ↦[arg3.view.set]{Transfers.shareTokN fullShare 105} f3)
        ∗ (arg3.view.loc (c : Thread nD τ) ↦[arg3.view.set]{Transfers.shareTokN fullShare 106} f3)
        ∗ (arg3.view.loc (c : Thread nD τ) ↦[arg3.view.set]{Transfers.shareTokN fullShare 107} f3)
        ∗ (arg3.view.loc (c : Thread nD τ) ↦[arg3.view.set]{Transfers.shareTokN fullShare 108} f3)
        ∗ (arg3.view.loc (c : Thread nD τ) ↦[arg3.view.set]{Transfers.shareTokN fullShare 109} f3)
        ∗ (arg3.view.loc (c : Thread nD τ) ↦[arg3.view.set]{Transfers.shareTokN fullShare 110} f3)
        ∗ (arg3.view.loc (c : Thread nD τ) ↦[arg3.view.set]{Transfers.shareTokN fullShare 111} f3)
        ∗ (arg3.view.loc (c : Thread nD τ) ↦[arg3.view.set]{Transfers.shareTokN fullShare 112} f3)
        ∗ (arg3.view.loc (c : Thread nD τ) ↦[arg3.view.set]{Transfers.shareTokN fullShare 113} f3)
        ∗ (arg3.view.loc (c : Thread nD τ) ↦[arg3.view.set]{Transfers.shareTokN fullShare 114} f3)
        ∗ (arg3.view.loc (c : Thread nD τ) ↦[arg3.view.set]{Transfers.shareTokN fullShare 115} f3)
        ∗ (arg3.view.loc (c : Thread nD τ) ↦[arg3.view.set]{Transfers.shareTokN fullShare 116} f3)
        ∗ (arg3.view.loc (c : Thread nD τ) ↦[arg3.view.set]{Transfers.shareTokN fullShare 117} f3)
        ∗ (arg3.view.loc (c : Thread nD τ) ↦[arg3.view.set]{Transfers.shareTokN fullShare 118} f3)
        ∗ (arg3.view.loc (c : Thread nD τ) ↦[arg3.view.set]{Transfers.shareTokN fullShare 119} f3)
        ∗ (arg3.view.loc (c : Thread nD τ) ↦[arg3.view.set]{Transfers.shareTokN fullShare 120} f3)
        ∗ (arg3.view.loc (c : Thread nD τ) ↦[arg3.view.set]{Transfers.shareTokN fullShare 121} f3)
        ∗ (arg3.view.loc (c : Thread nD τ) ↦[arg3.view.set]{Transfers.shareTokN fullShare 122} f3)
        ∗ (arg3.view.loc (c : Thread nD τ) ↦[arg3.view.set]{Transfers.shareTokN fullShare 123} f3)
        ∗ (arg3.view.loc (c : Thread nD τ) ↦[arg3.view.set]{Transfers.shareTokN fullShare 124} f3)
        ∗ (arg3.view.loc (c : Thread nD τ) ↦[arg3.view.set]{Transfers.shareTokN fullShare 125} f3)
        ∗ (arg3.view.loc (c : Thread nD τ) ↦[arg3.view.set]{Transfers.shareTokN fullShare 126} f3)
        ∗ (arg3.view.loc (c : Thread nD τ) ↦[arg3.view.set]{Transfers.shareTokN fullShare 127} f3)
        ∗ (arg3.view.loc (c : Thread nD τ) ↦[arg3.view.set]{Transfers.shareTokN fullShare 128} f3)
        ∗ (arg3.view.loc (c : Thread nD τ) ↦[arg3.view.set]{Transfers.shareTokN fullShare 129} f3)
        ∗ (arg3.view.loc (c : Thread nD τ) ↦[arg3.view.set]{Transfers.shareTokN fullShare 130} f3)
        ∗ (arg3.view.loc (c : Thread nD τ) ↦[arg3.view.set]{Transfers.shareTokN fullShare 131} f3)
        ∗ (arg4.view.loc (c : Thread nD τ) ↦[arg4.view.set]{fullShare} f4)
        ∗ (arg5.view.loc (c : Thread nD τ) ↦[arg5.view.set]{fullShare} f5)
        ∗ (arg6.view.loc (c : Thread nD τ) ↦[arg6.view.set]{fullShare} f6)
        ∗ (arg7.view.loc (c : Thread nD τ) ↦[arg7.view.set]{fullShare} f7)
        ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ semVal ((c : Thread nD τ), SemLoc.dma 53) 0 ∗ semVal ((c : Thread nD τ), SemLoc.dma 54) 0 ∗ semVal ((c : Thread nD τ), SemLoc.dma 55) 0 ∗ semVal ((c : Thread nD τ), SemLoc.dma 56) 0 ∗ semVal ((c : Thread nD τ), SemLoc.dma 57) 0 ∗ semVal ((c : Thread nD τ), SemLoc.dma 58) 0 ∗ semVal ((c : Thread nD τ), SemLoc.dma 59) 0 ∗ semVal ((c : Thread nD τ), SemLoc.dma 60) 0 ∗ semVal ((c : Thread nD τ), SemLoc.dma 61) 0 ∗ semVal ((c : Thread nD τ), SemLoc.dma 62) 0 ∗ semVal ((c : Thread nD τ), SemLoc.dma 63) 0 ∗ semVal ((c : Thread nD τ), SemLoc.dma 64) 0 ∗ semVal ((c : Thread nD τ), SemLoc.dma 65) 0 ∗ semVal ((c : Thread nD τ), SemLoc.dma 66) 0 ∗ semVal ((c : Thread nD τ), SemLoc.dma 67) 0 ∗ semVal ((c : Thread nD τ), SemLoc.dma 68) 0 ∗ semVal ((c : Thread nD τ), SemLoc.dma 69) 0 ∗ semVal ((c : Thread nD τ), SemLoc.dma 70) 0 ∗ semVal ((c : Thread nD τ), SemLoc.dma 71) 0 ∗ semVal ((c : Thread nD τ), SemLoc.dma 72) 0 ∗ semVal ((c : Thread nD τ), SemLoc.dma 73) 0 ∗ semVal ((c : Thread nD τ), SemLoc.dma 74) 0 ∗ semVal ((c : Thread nD τ), SemLoc.dma 75) 0 ∗ semVal ((c : Thread nD τ), SemLoc.dma 76) 0 ∗ semVal ((c : Thread nD τ), SemLoc.dma 77) 0 ∗ semVal ((c : Thread nD τ), SemLoc.dma 78) 0 ∗ semVal ((c : Thread nD τ), SemLoc.dma 79) 0 ∗ semVal ((c : Thread nD τ), SemLoc.dma 80) 0 ∗ semVal ((c : Thread nD τ), SemLoc.dma 81) 0 ∗ semVal ((c : Thread nD τ), SemLoc.dma 82) 0 ∗ semVal ((c : Thread nD τ), SemLoc.dma 83) 0 ∗ semVal ((c : Thread nD τ), SemLoc.dma 84) 0 ∗ semVal ((c : Thread nD τ), SemLoc.dma 85) 0 ∗ semVal ((c : Thread nD τ), SemLoc.dma 86) 0 ∗ semVal ((c : Thread nD τ), SemLoc.dma 87) 0 ∗ semVal ((c : Thread nD τ), SemLoc.dma 88) 0 ∗ semVal ((c : Thread nD τ), SemLoc.dma 89) 0 ∗ semVal ((c : Thread nD τ), SemLoc.dma 90) 0 ∗ semVal ((c : Thread nD τ), SemLoc.dma 91) 0 ∗ semVal ((c : Thread nD τ), SemLoc.dma 92) 0 ∗ semVal ((c : Thread nD τ), SemLoc.dma 93) 0 ∗ semVal ((c : Thread nD τ), SemLoc.dma 94) 0 ∗ semVal ((c : Thread nD τ), SemLoc.dma 95) 0 ∗ semVal ((c : Thread nD τ), SemLoc.dma 96) 0 ∗ semVal ((c : Thread nD τ), SemLoc.dma 97) 0 ∗ semVal ((c : Thread nD τ), SemLoc.dma 98) 0 ∗ semVal ((c : Thread nD τ), SemLoc.dma 99) 0 ∗ semVal ((c : Thread nD τ), SemLoc.dma 100) 0 ∗ semVal ((c : Thread nD τ), SemLoc.dma 101) 0 ∗ semVal ((c : Thread nD τ), SemLoc.dma 102) 0 ∗ semVal ((c : Thread nD τ), SemLoc.dma 103) 0 ∗ semVal ((c : Thread nD τ), SemLoc.dma 104) 0 ∗ semVal ((c : Thread nD τ), SemLoc.dma 105) 0 ∗ semVal ((c : Thread nD τ), SemLoc.dma 106) 0 ∗ semVal ((c : Thread nD τ), SemLoc.dma 107) 0 ∗ semVal ((c : Thread nD τ), SemLoc.dma 108) 0 ∗ semVal ((c : Thread nD τ), SemLoc.dma 109) 0 ∗ semVal ((c : Thread nD τ), SemLoc.dma 110) 0 ∗ semVal ((c : Thread nD τ), SemLoc.dma 111) 0 ∗ semVal ((c : Thread nD τ), SemLoc.dma 112) 0 ∗ semVal ((c : Thread nD τ), SemLoc.dma 113) 0 ∗ semVal ((c : Thread nD τ), SemLoc.dma 114) 0 ∗ semVal ((c : Thread nD τ), SemLoc.dma 115) 0 ∗ semVal ((c : Thread nD τ), SemLoc.dma 116) 0 ∗ semVal ((c : Thread nD τ), SemLoc.dma 117) 0 ∗ semVal ((c : Thread nD τ), SemLoc.dma 118) 0 ∗ semVal ((c : Thread nD τ), SemLoc.dma 119) 0 ∗ semVal ((c : Thread nD τ), SemLoc.dma 120) 0 ∗ semVal ((c : Thread nD τ), SemLoc.dma 121) 0 ∗ semVal ((c : Thread nD τ), SemLoc.dma 122) 0 ∗ semVal ((c : Thread nD τ), SemLoc.dma 123) 0 ∗ semVal ((c : Thread nD τ), SemLoc.dma 124) 0 ∗ semVal ((c : Thread nD τ), SemLoc.dma 125) 0 ∗ semVal ((c : Thread nD τ), SemLoc.dma 126) 0 ∗ semVal ((c : Thread nD τ), SemLoc.dma 127) 0 ∗ semVal ((c : Thread nD τ), SemLoc.dma 128) 0 ∗ semVal ((c : Thread nD τ), SemLoc.dma 129) 0 ∗ semVal ((c : Thread nD τ), SemLoc.dma 130) 0 ∗ semVal ((c : Thread nD τ), SemLoc.dma 131) 0
        ∗ owes (c : Thread nD τ) 0 W
        ∗ (iprop((arg1.view.loc (c : Thread nD τ) ↦[arg1.view.set]{fullShare} f1) ∗ (arg2.view.loc (c : Thread nD τ) ↦[arg2.view.set]{fullShare} f2)
            ∗ (arg3.view.loc (c : Thread nD τ) ↦[arg3.view.set]{Transfers.shareTokN fullShare 4} f3)
            ∗ (arg3.view.loc (c : Thread nD τ) ↦[arg3.view.set]{Transfers.shareTokN fullShare 5} f3)
            ∗ (arg3.view.loc (c : Thread nD τ) ↦[arg3.view.set]{Transfers.shareTokN fullShare 6} f3)
            ∗ (arg3.view.loc (c : Thread nD τ) ↦[arg3.view.set]{Transfers.shareTokN fullShare 7} f3)
            ∗ (arg3.view.loc (c : Thread nD τ) ↦[arg3.view.set]{Transfers.shareTokN fullShare 8} f3)
            ∗ (arg3.view.loc (c : Thread nD τ) ↦[arg3.view.set]{Transfers.shareTokN fullShare 9} f3)
            ∗ (arg3.view.loc (c : Thread nD τ) ↦[arg3.view.set]{Transfers.shareTokN fullShare 10} f3)
            ∗ (arg3.view.loc (c : Thread nD τ) ↦[arg3.view.set]{Transfers.shareTokN fullShare 11} f3)
            ∗ (arg3.view.loc (c : Thread nD τ) ↦[arg3.view.set]{Transfers.shareTokN fullShare 12} f3)
            ∗ (arg3.view.loc (c : Thread nD τ) ↦[arg3.view.set]{Transfers.shareTokN fullShare 13} f3)
            ∗ (arg3.view.loc (c : Thread nD τ) ↦[arg3.view.set]{Transfers.shareTokN fullShare 14} f3)
            ∗ (arg3.view.loc (c : Thread nD τ) ↦[arg3.view.set]{Transfers.shareTokN fullShare 15} f3)
            ∗ (arg3.view.loc (c : Thread nD τ) ↦[arg3.view.set]{Transfers.shareTokN fullShare 16} f3)
            ∗ (arg3.view.loc (c : Thread nD τ) ↦[arg3.view.set]{Transfers.shareTokN fullShare 17} f3)
            ∗ (arg3.view.loc (c : Thread nD τ) ↦[arg3.view.set]{Transfers.shareTokN fullShare 18} f3)
            ∗ (arg3.view.loc (c : Thread nD τ) ↦[arg3.view.set]{Transfers.shareTokN fullShare 19} f3)
            ∗ (arg3.view.loc (c : Thread nD τ) ↦[arg3.view.set]{Transfers.shareTokN fullShare 20} f3)
            ∗ (arg3.view.loc (c : Thread nD τ) ↦[arg3.view.set]{Transfers.shareTokN fullShare 21} f3)
            ∗ (arg3.view.loc (c : Thread nD τ) ↦[arg3.view.set]{Transfers.shareTokN fullShare 22} f3)
            ∗ (arg3.view.loc (c : Thread nD τ) ↦[arg3.view.set]{Transfers.shareTokN fullShare 23} f3)
            ∗ (arg3.view.loc (c : Thread nD τ) ↦[arg3.view.set]{Transfers.shareTokN fullShare 24} f3)
            ∗ (arg3.view.loc (c : Thread nD τ) ↦[arg3.view.set]{Transfers.shareTokN fullShare 25} f3)
            ∗ (arg3.view.loc (c : Thread nD τ) ↦[arg3.view.set]{Transfers.shareTokN fullShare 26} f3)
            ∗ (arg3.view.loc (c : Thread nD τ) ↦[arg3.view.set]{Transfers.shareTokN fullShare 27} f3)
            ∗ (arg3.view.loc (c : Thread nD τ) ↦[arg3.view.set]{Transfers.shareTokN fullShare 28} f3)
            ∗ (arg3.view.loc (c : Thread nD τ) ↦[arg3.view.set]{Transfers.shareTokN fullShare 29} f3)
            ∗ (arg3.view.loc (c : Thread nD τ) ↦[arg3.view.set]{Transfers.shareTokN fullShare 30} f3)
            ∗ (arg3.view.loc (c : Thread nD τ) ↦[arg3.view.set]{Transfers.shareTokN fullShare 31} f3)
            ∗ (arg3.view.loc (c : Thread nD τ) ↦[arg3.view.set]{Transfers.shareTokN fullShare 32} f3)
            ∗ (arg3.view.loc (c : Thread nD τ) ↦[arg3.view.set]{Transfers.shareTokN fullShare 33} f3)
            ∗ (arg3.view.loc (c : Thread nD τ) ↦[arg3.view.set]{Transfers.shareTokN fullShare 34} f3)
            ∗ (arg3.view.loc (c : Thread nD τ) ↦[arg3.view.set]{Transfers.shareTokN fullShare 35} f3)
            ∗ (arg3.view.loc (c : Thread nD τ) ↦[arg3.view.set]{Transfers.shareTokN fullShare 36} f3)
            ∗ (arg3.view.loc (c : Thread nD τ) ↦[arg3.view.set]{Transfers.shareTokN fullShare 37} f3)
            ∗ (arg3.view.loc (c : Thread nD τ) ↦[arg3.view.set]{Transfers.shareTokN fullShare 38} f3)
            ∗ (arg3.view.loc (c : Thread nD τ) ↦[arg3.view.set]{Transfers.shareTokN fullShare 39} f3)
            ∗ (arg3.view.loc (c : Thread nD τ) ↦[arg3.view.set]{Transfers.shareTokN fullShare 40} f3)
            ∗ (arg3.view.loc (c : Thread nD τ) ↦[arg3.view.set]{Transfers.shareTokN fullShare 41} f3)
            ∗ (arg3.view.loc (c : Thread nD τ) ↦[arg3.view.set]{Transfers.shareTokN fullShare 42} f3)
            ∗ (arg3.view.loc (c : Thread nD τ) ↦[arg3.view.set]{Transfers.shareTokN fullShare 43} f3)
            ∗ (arg3.view.loc (c : Thread nD τ) ↦[arg3.view.set]{Transfers.shareTokN fullShare 44} f3)
            ∗ (arg3.view.loc (c : Thread nD τ) ↦[arg3.view.set]{Transfers.shareTokN fullShare 45} f3)
            ∗ (arg3.view.loc (c : Thread nD τ) ↦[arg3.view.set]{Transfers.shareTokN fullShare 46} f3)
            ∗ (arg3.view.loc (c : Thread nD τ) ↦[arg3.view.set]{Transfers.shareTokN fullShare 47} f3)
            ∗ (arg3.view.loc (c : Thread nD τ) ↦[arg3.view.set]{Transfers.shareTokN fullShare 48} f3)
            ∗ (arg3.view.loc (c : Thread nD τ) ↦[arg3.view.set]{Transfers.shareTokN fullShare 49} f3)
            ∗ (arg3.view.loc (c : Thread nD τ) ↦[arg3.view.set]{Transfers.shareTokN fullShare 50} f3)
            ∗ (arg3.view.loc (c : Thread nD τ) ↦[arg3.view.set]{Transfers.shareTokN fullShare 51} f3)
            ∗ (arg3.view.loc (c : Thread nD τ) ↦[arg3.view.set]{Transfers.shareTokN fullShare 52} f3)
            ∗ (arg3.view.loc (c : Thread nD τ) ↦[arg3.view.set]{Transfers.shareTokN fullShare 53} f3)
            ∗ (arg3.view.loc (c : Thread nD τ) ↦[arg3.view.set]{Transfers.shareTokN fullShare 54} f3)
            ∗ (arg3.view.loc (c : Thread nD τ) ↦[arg3.view.set]{Transfers.shareTokN fullShare 55} f3)
            ∗ (arg3.view.loc (c : Thread nD τ) ↦[arg3.view.set]{Transfers.shareTokN fullShare 56} f3)
            ∗ (arg3.view.loc (c : Thread nD τ) ↦[arg3.view.set]{Transfers.shareTokN fullShare 57} f3)
            ∗ (arg3.view.loc (c : Thread nD τ) ↦[arg3.view.set]{Transfers.shareTokN fullShare 58} f3)
            ∗ (arg3.view.loc (c : Thread nD τ) ↦[arg3.view.set]{Transfers.shareTokN fullShare 59} f3)
            ∗ (arg3.view.loc (c : Thread nD τ) ↦[arg3.view.set]{Transfers.shareTokN fullShare 60} f3)
            ∗ (arg3.view.loc (c : Thread nD τ) ↦[arg3.view.set]{Transfers.shareTokN fullShare 61} f3)
            ∗ (arg3.view.loc (c : Thread nD τ) ↦[arg3.view.set]{Transfers.shareTokN fullShare 62} f3)
            ∗ (arg3.view.loc (c : Thread nD τ) ↦[arg3.view.set]{Transfers.shareTokN fullShare 63} f3)
            ∗ (arg3.view.loc (c : Thread nD τ) ↦[arg3.view.set]{Transfers.shareTokN fullShare 64} f3)
            ∗ (arg3.view.loc (c : Thread nD τ) ↦[arg3.view.set]{Transfers.shareTokN fullShare 65} f3)
            ∗ (arg3.view.loc (c : Thread nD τ) ↦[arg3.view.set]{Transfers.shareTokN fullShare 66} f3)
            ∗ (arg3.view.loc (c : Thread nD τ) ↦[arg3.view.set]{Transfers.shareTokN fullShare 67} f3)
            ∗ (arg3.view.loc (c : Thread nD τ) ↦[arg3.view.set]{Transfers.shareTokN fullShare 68} f3)
            ∗ (arg3.view.loc (c : Thread nD τ) ↦[arg3.view.set]{Transfers.shareTokN fullShare 69} f3)
            ∗ (arg3.view.loc (c : Thread nD τ) ↦[arg3.view.set]{Transfers.shareTokN fullShare 70} f3)
            ∗ (arg3.view.loc (c : Thread nD τ) ↦[arg3.view.set]{Transfers.shareTokN fullShare 71} f3)
            ∗ (arg3.view.loc (c : Thread nD τ) ↦[arg3.view.set]{Transfers.shareTokN fullShare 72} f3)
            ∗ (arg3.view.loc (c : Thread nD τ) ↦[arg3.view.set]{Transfers.shareTokN fullShare 73} f3)
            ∗ (arg3.view.loc (c : Thread nD τ) ↦[arg3.view.set]{Transfers.shareTokN fullShare 74} f3)
            ∗ (arg3.view.loc (c : Thread nD τ) ↦[arg3.view.set]{Transfers.shareTokN fullShare 75} f3)
            ∗ (arg3.view.loc (c : Thread nD τ) ↦[arg3.view.set]{Transfers.shareTokN fullShare 76} f3)
            ∗ (arg3.view.loc (c : Thread nD τ) ↦[arg3.view.set]{Transfers.shareTokN fullShare 77} f3)
            ∗ (arg3.view.loc (c : Thread nD τ) ↦[arg3.view.set]{Transfers.shareTokN fullShare 78} f3)
            ∗ (arg3.view.loc (c : Thread nD τ) ↦[arg3.view.set]{Transfers.shareTokN fullShare 79} f3)
            ∗ (arg3.view.loc (c : Thread nD τ) ↦[arg3.view.set]{Transfers.shareTokN fullShare 80} f3)
            ∗ (arg3.view.loc (c : Thread nD τ) ↦[arg3.view.set]{Transfers.shareTokN fullShare 81} f3)
            ∗ (arg3.view.loc (c : Thread nD τ) ↦[arg3.view.set]{Transfers.shareTokN fullShare 82} f3)
            ∗ (arg3.view.loc (c : Thread nD τ) ↦[arg3.view.set]{Transfers.shareTokN fullShare 83} f3)
            ∗ (arg3.view.loc (c : Thread nD τ) ↦[arg3.view.set]{Transfers.shareTokN fullShare 84} f3)
            ∗ (arg3.view.loc (c : Thread nD τ) ↦[arg3.view.set]{Transfers.shareTokN fullShare 85} f3)
            ∗ (arg3.view.loc (c : Thread nD τ) ↦[arg3.view.set]{Transfers.shareTokN fullShare 86} f3)
            ∗ (arg3.view.loc (c : Thread nD τ) ↦[arg3.view.set]{Transfers.shareTokN fullShare 87} f3)
            ∗ (arg3.view.loc (c : Thread nD τ) ↦[arg3.view.set]{Transfers.shareTokN fullShare 88} f3)
            ∗ (arg3.view.loc (c : Thread nD τ) ↦[arg3.view.set]{Transfers.shareTokN fullShare 89} f3)
            ∗ (arg3.view.loc (c : Thread nD τ) ↦[arg3.view.set]{Transfers.shareTokN fullShare 90} f3)
            ∗ (arg3.view.loc (c : Thread nD τ) ↦[arg3.view.set]{Transfers.shareTokN fullShare 91} f3)
            ∗ (arg3.view.loc (c : Thread nD τ) ↦[arg3.view.set]{Transfers.shareTokN fullShare 92} f3)
            ∗ (arg3.view.loc (c : Thread nD τ) ↦[arg3.view.set]{Transfers.shareTokN fullShare 93} f3)
            ∗ (arg3.view.loc (c : Thread nD τ) ↦[arg3.view.set]{Transfers.shareTokN fullShare 94} f3)
            ∗ (arg3.view.loc (c : Thread nD τ) ↦[arg3.view.set]{Transfers.shareTokN fullShare 95} f3)
            ∗ (arg3.view.loc (c : Thread nD τ) ↦[arg3.view.set]{Transfers.shareTokN fullShare 96} f3)
            ∗ (arg3.view.loc (c : Thread nD τ) ↦[arg3.view.set]{Transfers.shareTokN fullShare 97} f3)
            ∗ (arg3.view.loc (c : Thread nD τ) ↦[arg3.view.set]{Transfers.shareTokN fullShare 98} f3)
            ∗ (arg3.view.loc (c : Thread nD τ) ↦[arg3.view.set]{Transfers.shareTokN fullShare 99} f3)
            ∗ (arg3.view.loc (c : Thread nD τ) ↦[arg3.view.set]{Transfers.shareTokN fullShare 100} f3)
            ∗ (arg3.view.loc (c : Thread nD τ) ↦[arg3.view.set]{Transfers.shareTokN fullShare 101} f3)
            ∗ (arg3.view.loc (c : Thread nD τ) ↦[arg3.view.set]{Transfers.shareTokN fullShare 102} f3)
            ∗ (arg3.view.loc (c : Thread nD τ) ↦[arg3.view.set]{Transfers.shareTokN fullShare 103} f3)
            ∗ (arg3.view.loc (c : Thread nD τ) ↦[arg3.view.set]{Transfers.shareTokN fullShare 104} f3)
            ∗ (arg3.view.loc (c : Thread nD τ) ↦[arg3.view.set]{Transfers.shareTokN fullShare 105} f3)
            ∗ (arg3.view.loc (c : Thread nD τ) ↦[arg3.view.set]{Transfers.shareTokN fullShare 106} f3)
            ∗ (arg3.view.loc (c : Thread nD τ) ↦[arg3.view.set]{Transfers.shareTokN fullShare 107} f3)
            ∗ (arg3.view.loc (c : Thread nD τ) ↦[arg3.view.set]{Transfers.shareTokN fullShare 108} f3)
            ∗ (arg3.view.loc (c : Thread nD τ) ↦[arg3.view.set]{Transfers.shareTokN fullShare 109} f3)
            ∗ (arg3.view.loc (c : Thread nD τ) ↦[arg3.view.set]{Transfers.shareTokN fullShare 110} f3)
            ∗ (arg3.view.loc (c : Thread nD τ) ↦[arg3.view.set]{Transfers.shareTokN fullShare 111} f3)
            ∗ (arg3.view.loc (c : Thread nD τ) ↦[arg3.view.set]{Transfers.shareTokN fullShare 112} f3)
            ∗ (arg3.view.loc (c : Thread nD τ) ↦[arg3.view.set]{Transfers.shareTokN fullShare 113} f3)
            ∗ (arg3.view.loc (c : Thread nD τ) ↦[arg3.view.set]{Transfers.shareTokN fullShare 114} f3)
            ∗ (arg3.view.loc (c : Thread nD τ) ↦[arg3.view.set]{Transfers.shareTokN fullShare 115} f3)
            ∗ (arg3.view.loc (c : Thread nD τ) ↦[arg3.view.set]{Transfers.shareTokN fullShare 116} f3)
            ∗ (arg3.view.loc (c : Thread nD τ) ↦[arg3.view.set]{Transfers.shareTokN fullShare 117} f3)
            ∗ (arg3.view.loc (c : Thread nD τ) ↦[arg3.view.set]{Transfers.shareTokN fullShare 118} f3)
            ∗ (arg3.view.loc (c : Thread nD τ) ↦[arg3.view.set]{Transfers.shareTokN fullShare 119} f3)
            ∗ (arg3.view.loc (c : Thread nD τ) ↦[arg3.view.set]{Transfers.shareTokN fullShare 120} f3)
            ∗ (arg3.view.loc (c : Thread nD τ) ↦[arg3.view.set]{Transfers.shareTokN fullShare 121} f3)
            ∗ (arg3.view.loc (c : Thread nD τ) ↦[arg3.view.set]{Transfers.shareTokN fullShare 122} f3)
            ∗ (arg3.view.loc (c : Thread nD τ) ↦[arg3.view.set]{Transfers.shareTokN fullShare 123} f3)
            ∗ (arg3.view.loc (c : Thread nD τ) ↦[arg3.view.set]{Transfers.shareTokN fullShare 124} f3)
            ∗ (arg3.view.loc (c : Thread nD τ) ↦[arg3.view.set]{Transfers.shareTokN fullShare 125} f3)
            ∗ (arg3.view.loc (c : Thread nD τ) ↦[arg3.view.set]{Transfers.shareTokN fullShare 126} f3)
            ∗ (arg3.view.loc (c : Thread nD τ) ↦[arg3.view.set]{Transfers.shareTokN fullShare 127} f3)
            ∗ (arg3.view.loc (c : Thread nD τ) ↦[arg3.view.set]{Transfers.shareTokN fullShare 128} f3)
            ∗ (arg3.view.loc (c : Thread nD τ) ↦[arg3.view.set]{Transfers.shareTokN fullShare 129} f3)
            ∗ (arg3.view.loc (c : Thread nD τ) ↦[arg3.view.set]{Transfers.shareTokN fullShare 130} f3)
            ∗ (arg3.view.loc (c : Thread nD τ) ↦[arg3.view.set]{Transfers.shareTokN fullShare 131} f3)
            ∗ owns (c : Thread nD τ) arg4 fullShare (k0_pay1 (gatherRows (arg1.view.read (Elt F) f1) (arg3.view.read (Elt F) f3) t))
            ∗ owns (c : Thread nD τ) arg5 fullShare (k0_pay2 (gatherRows (arg2.view.read (Elt F) f2) (arg3.view.read (Elt F) f3) t))
            ∗ (∃ g : Buf (Elt F) (arg6.view.loc (c : Thread nD τ)), arg6.view.loc (c : Thread nD τ) ↦[arg6.view.set]{fullShare} g)
            ∗ (∃ g : Buf (Elt F) (arg7.view.loc (c : Thread nD τ)), arg7.view.loc (c : Thread nD τ) ↦[arg7.view.set]{fullShare} g)
            ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ semVal ((c : Thread nD τ), SemLoc.dma 53) 0 ∗ semVal ((c : Thread nD τ), SemLoc.dma 54) 0 ∗ semVal ((c : Thread nD τ), SemLoc.dma 55) 0 ∗ semVal ((c : Thread nD τ), SemLoc.dma 56) 0 ∗ semVal ((c : Thread nD τ), SemLoc.dma 57) 0 ∗ semVal ((c : Thread nD τ), SemLoc.dma 58) 0 ∗ semVal ((c : Thread nD τ), SemLoc.dma 59) 0 ∗ semVal ((c : Thread nD τ), SemLoc.dma 60) 0 ∗ semVal ((c : Thread nD τ), SemLoc.dma 61) 0 ∗ semVal ((c : Thread nD τ), SemLoc.dma 62) 0 ∗ semVal ((c : Thread nD τ), SemLoc.dma 63) 0 ∗ semVal ((c : Thread nD τ), SemLoc.dma 64) 0 ∗ semVal ((c : Thread nD τ), SemLoc.dma 65) 0 ∗ semVal ((c : Thread nD τ), SemLoc.dma 66) 0 ∗ semVal ((c : Thread nD τ), SemLoc.dma 67) 0 ∗ semVal ((c : Thread nD τ), SemLoc.dma 68) 0 ∗ semVal ((c : Thread nD τ), SemLoc.dma 69) 0 ∗ semVal ((c : Thread nD τ), SemLoc.dma 70) 0 ∗ semVal ((c : Thread nD τ), SemLoc.dma 71) 0 ∗ semVal ((c : Thread nD τ), SemLoc.dma 72) 0 ∗ semVal ((c : Thread nD τ), SemLoc.dma 73) 0 ∗ semVal ((c : Thread nD τ), SemLoc.dma 74) 0 ∗ semVal ((c : Thread nD τ), SemLoc.dma 75) 0 ∗ semVal ((c : Thread nD τ), SemLoc.dma 76) 0 ∗ semVal ((c : Thread nD τ), SemLoc.dma 77) 0 ∗ semVal ((c : Thread nD τ), SemLoc.dma 78) 0 ∗ semVal ((c : Thread nD τ), SemLoc.dma 79) 0 ∗ semVal ((c : Thread nD τ), SemLoc.dma 80) 0 ∗ semVal ((c : Thread nD τ), SemLoc.dma 81) 0 ∗ semVal ((c : Thread nD τ), SemLoc.dma 82) 0 ∗ semVal ((c : Thread nD τ), SemLoc.dma 83) 0 ∗ semVal ((c : Thread nD τ), SemLoc.dma 84) 0 ∗ semVal ((c : Thread nD τ), SemLoc.dma 85) 0 ∗ semVal ((c : Thread nD τ), SemLoc.dma 86) 0 ∗ semVal ((c : Thread nD τ), SemLoc.dma 87) 0 ∗ semVal ((c : Thread nD τ), SemLoc.dma 88) 0 ∗ semVal ((c : Thread nD τ), SemLoc.dma 89) 0 ∗ semVal ((c : Thread nD τ), SemLoc.dma 90) 0 ∗ semVal ((c : Thread nD τ), SemLoc.dma 91) 0 ∗ semVal ((c : Thread nD τ), SemLoc.dma 92) 0 ∗ semVal ((c : Thread nD τ), SemLoc.dma 93) 0 ∗ semVal ((c : Thread nD τ), SemLoc.dma 94) 0 ∗ semVal ((c : Thread nD τ), SemLoc.dma 95) 0 ∗ semVal ((c : Thread nD τ), SemLoc.dma 96) 0 ∗ semVal ((c : Thread nD τ), SemLoc.dma 97) 0 ∗ semVal ((c : Thread nD τ), SemLoc.dma 98) 0 ∗ semVal ((c : Thread nD τ), SemLoc.dma 99) 0 ∗ semVal ((c : Thread nD τ), SemLoc.dma 100) 0 ∗ semVal ((c : Thread nD τ), SemLoc.dma 101) 0 ∗ semVal ((c : Thread nD τ), SemLoc.dma 102) 0 ∗ semVal ((c : Thread nD τ), SemLoc.dma 103) 0 ∗ semVal ((c : Thread nD τ), SemLoc.dma 104) 0 ∗ semVal ((c : Thread nD τ), SemLoc.dma 105) 0 ∗ semVal ((c : Thread nD τ), SemLoc.dma 106) 0 ∗ semVal ((c : Thread nD τ), SemLoc.dma 107) 0 ∗ semVal ((c : Thread nD τ), SemLoc.dma 108) 0 ∗ semVal ((c : Thread nD τ), SemLoc.dma 109) 0 ∗ semVal ((c : Thread nD τ), SemLoc.dma 110) 0 ∗ semVal ((c : Thread nD τ), SemLoc.dma 111) 0 ∗ semVal ((c : Thread nD τ), SemLoc.dma 112) 0 ∗ semVal ((c : Thread nD τ), SemLoc.dma 113) 0 ∗ semVal ((c : Thread nD τ), SemLoc.dma 114) 0 ∗ semVal ((c : Thread nD τ), SemLoc.dma 115) 0 ∗ semVal ((c : Thread nD τ), SemLoc.dma 116) 0 ∗ semVal ((c : Thread nD τ), SemLoc.dma 117) 0 ∗ semVal ((c : Thread nD τ), SemLoc.dma 118) 0 ∗ semVal ((c : Thread nD τ), SemLoc.dma 119) 0 ∗ semVal ((c : Thread nD τ), SemLoc.dma 120) 0 ∗ semVal ((c : Thread nD τ), SemLoc.dma 121) 0 ∗ semVal ((c : Thread nD τ), SemLoc.dma 122) 0 ∗ semVal ((c : Thread nD τ), SemLoc.dma 123) 0 ∗ semVal ((c : Thread nD τ), SemLoc.dma 124) 0 ∗ semVal ((c : Thread nD τ), SemLoc.dma 125) 0 ∗ semVal ((c : Thread nD τ), SemLoc.dma 126) 0 ∗ semVal ((c : Thread nD τ), SemLoc.dma 127) 0 ∗ semVal ((c : Thread nD τ), SemLoc.dma 128) 0 ∗ semVal ((c : Thread nD τ), SemLoc.dma 129) 0 ∗ semVal ((c : Thread nD τ), SemLoc.dma 130) 0 ∗ semVal ((c : Thread nD τ), SemLoc.dma 131) 0
            ∗ (∃ W', owes (c : Thread nD τ) 0 W')) -∗ K ⟨⟩))
      ⊢ wp frame (wpE (defs₀ (F := F)) Variants.none c none) Set.univ (cc0_gather_kernel (grid0.coords t) arg1 harg1 arg2 harg2 arg3 harg3 arg4 harg4 arg5 harg5 arg6 harg6 arg7 harg7 cc0_scratch2 cc0_scratch3) K := by
  rw [cc0_gather_kernel_eq_skeleton]; unfold cc0_gather_kernel_skel
  unfold owns
  iintro ⟨H1, H2, T4, T5, T6, T7, T8, T9, T10, T11, T12, T13, T14, T15, T16, T17, T18, T19, T20, T21, T22, T23, T24, T25, T26, T27, T28, T29, T30, T31, T32, T33, T34, T35, T36, T37, T38, T39, T40, T41, T42, T43, T44, T45, T46, T47, T48, T49, T50, T51, T52, T53, T54, T55, T56, T57, T58, T59, T60, T61, T62, T63, T64, T65, T66, T67, T68, T69, T70, T71, T72, T73, T74, T75, T76, T77, T78, T79, T80, T81, T82, T83, T84, T85, T86, T87, T88, T89, T90, T91, T92, T93, T94, T95, T96, T97, T98, T99, T100, T101, T102, T103, T104, T105, T106, T107, T108, T109, T110, T111, T112, T113, T114, T115, T116, T117, T118, T119, T120, T121, T122, T123, T124, T125, T126, T127, T128, T129, T130, T131, H4, H5, H6, H7, C4, C5, C6, C7, C8, C9, C10, C11, C12, C13, C14, C15, C16, C17, C18, C19, C20, C21, C22, C23, C24, C25, C26, C27, C28, C29, C30, C31, C32, C33, C34, C35, C36, C37, C38, C39, C40, C41, C42, C43, C44, C45, C46, C47, C48, C49, C50, C51, C52, C53, C54, C55, C56, C57, C58, C59, C60, C61, C62, C63, C64, C65, C66, C67, C68, C69, C70, C71, C72, C73, C74, C75, C76, C77, C78, C79, C80, C81, C82, C83, C84, C85, C86, C87, C88, C89, C90, C91, C92, C93, C94, C95, C96, C97, C98, C99, C100, C101, C102, C103, C104, C105, C106, C107, C108, C109, C110, C111, C112, C113, C114, C115, C116, C117, C118, C119, C120, C121, C122, C123, C124, C125, C126, C127, C128, C129, C130, C131, HW, Hk⟩
  -- each scratch as its 64 rows
  ihave S6 := (rows_split c arg6 f6) $$ H6
  icases S6 with ⟨R6_0, R6_1, R6_2, R6_3, R6_4, R6_5, R6_6, R6_7, R6_8, R6_9, R6_10, R6_11, R6_12, R6_13, R6_14, R6_15, R6_16, R6_17, R6_18, R6_19, R6_20, R6_21, R6_22, R6_23, R6_24, R6_25, R6_26, R6_27, R6_28, R6_29, R6_30, R6_31, R6_32, R6_33, R6_34, R6_35, R6_36, R6_37, R6_38, R6_39, R6_40, R6_41, R6_42, R6_43, R6_44, R6_45, R6_46, R6_47, R6_48, R6_49, R6_50, R6_51, R6_52, R6_53, R6_54, R6_55, R6_56, R6_57, R6_58, R6_59, R6_60, R6_61, R6_62, R6_63⟩
  ihave S7 := (rows_split c arg7 f7) $$ H7
  icases S7 with ⟨R7_0, R7_1, R7_2, R7_3, R7_4, R7_5, R7_6, R7_7, R7_8, R7_9, R7_10, R7_11, R7_12, R7_13, R7_14, R7_15, R7_16, R7_17, R7_18, R7_19, R7_20, R7_21, R7_22, R7_23, R7_24, R7_25, R7_26, R7_27, R7_28, R7_29, R7_30, R7_31, R7_32, R7_33, R7_34, R7_35, R7_36, R7_37, R7_38, R7_39, R7_40, R7_41, R7_42, R7_43, R7_44, R7_45, R7_46, R7_47, R7_48, R7_49, R7_50, R7_51, R7_52, R7_53, R7_54, R7_55, R7_56, R7_57, R7_58, R7_59, R7_60, R7_61, R7_62, R7_63⟩
  -- the 128 reads, range facts and copies, then the 128 waits
  sl_exec_parts (disch := exact chk_of_inRange _ _ _ (by assumption) _ _)
  -- what each copy delivered is a row of the gathered rows
  have e6_0 : ∀ y : S19200.Idx, gather_body.sl.dma2 c t arg1 arg3 f1 f3 hw1 y = gatherRows (arg1.view.read (Elt F) f1) (arg3.view.read (Elt F) f3) t (ix2 (0 : Fin 64) (y 0)) :=
    fun y => pay_apply c t 0 arg1 arg3 f1 f3 _ (word_eq arg1 c f1 _ _ _ (wordPos t 0) (wordOff_eq t 0)) (hw1 _ _) _ _ y
  have e6_1 : ∀ y : S19200.Idx, gather_body.sl.dma4 c t arg1 arg3 f1 f3 hw1 y = gatherRows (arg1.view.read (Elt F) f1) (arg3.view.read (Elt F) f3) t (ix2 (1 : Fin 64) (y 0)) :=
    fun y => pay_apply c t 1 arg1 arg3 f1 f3 _ (word_eq arg1 c f1 _ _ _ (wordPos t 1) (wordOff_eq t 1)) (hw1 _ _) _ _ y
  have e6_2 : ∀ y : S19200.Idx, gather_body.sl.dma6 c t arg1 arg3 f1 f3 hw1 y = gatherRows (arg1.view.read (Elt F) f1) (arg3.view.read (Elt F) f3) t (ix2 (2 : Fin 64) (y 0)) :=
    fun y => pay_apply c t 2 arg1 arg3 f1 f3 _ (word_eq arg1 c f1 _ _ _ (wordPos t 2) (wordOff_eq t 2)) (hw1 _ _) _ _ y
  have e6_3 : ∀ y : S19200.Idx, gather_body.sl.dma8 c t arg1 arg3 f1 f3 hw1 y = gatherRows (arg1.view.read (Elt F) f1) (arg3.view.read (Elt F) f3) t (ix2 (3 : Fin 64) (y 0)) :=
    fun y => pay_apply c t 3 arg1 arg3 f1 f3 _ (word_eq arg1 c f1 _ _ _ (wordPos t 3) (wordOff_eq t 3)) (hw1 _ _) _ _ y
  have e6_4 : ∀ y : S19200.Idx, gather_body.sl.dma10 c t arg1 arg3 f1 f3 hw1 y = gatherRows (arg1.view.read (Elt F) f1) (arg3.view.read (Elt F) f3) t (ix2 (4 : Fin 64) (y 0)) :=
    fun y => pay_apply c t 4 arg1 arg3 f1 f3 _ (word_eq arg1 c f1 _ _ _ (wordPos t 4) (wordOff_eq t 4)) (hw1 _ _) _ _ y
  have e6_5 : ∀ y : S19200.Idx, gather_body.sl.dma12 c t arg1 arg3 f1 f3 hw1 y = gatherRows (arg1.view.read (Elt F) f1) (arg3.view.read (Elt F) f3) t (ix2 (5 : Fin 64) (y 0)) :=
    fun y => pay_apply c t 5 arg1 arg3 f1 f3 _ (word_eq arg1 c f1 _ _ _ (wordPos t 5) (wordOff_eq t 5)) (hw1 _ _) _ _ y
  have e6_6 : ∀ y : S19200.Idx, gather_body.sl.dma14 c t arg1 arg3 f1 f3 hw1 y = gatherRows (arg1.view.read (Elt F) f1) (arg3.view.read (Elt F) f3) t (ix2 (6 : Fin 64) (y 0)) :=
    fun y => pay_apply c t 6 arg1 arg3 f1 f3 _ (word_eq arg1 c f1 _ _ _ (wordPos t 6) (wordOff_eq t 6)) (hw1 _ _) _ _ y
  have e6_7 : ∀ y : S19200.Idx, gather_body.sl.dma16 c t arg1 arg3 f1 f3 hw1 y = gatherRows (arg1.view.read (Elt F) f1) (arg3.view.read (Elt F) f3) t (ix2 (7 : Fin 64) (y 0)) :=
    fun y => pay_apply c t 7 arg1 arg3 f1 f3 _ (word_eq arg1 c f1 _ _ _ (wordPos t 7) (wordOff_eq t 7)) (hw1 _ _) _ _ y
  have e6_8 : ∀ y : S19200.Idx, gather_body.sl.dma18 c t arg1 arg3 f1 f3 hw1 y = gatherRows (arg1.view.read (Elt F) f1) (arg3.view.read (Elt F) f3) t (ix2 (8 : Fin 64) (y 0)) :=
    fun y => pay_apply c t 8 arg1 arg3 f1 f3 _ (word_eq arg1 c f1 _ _ _ (wordPos t 8) (wordOff_eq t 8)) (hw1 _ _) _ _ y
  have e6_9 : ∀ y : S19200.Idx, gather_body.sl.dma20 c t arg1 arg3 f1 f3 hw1 y = gatherRows (arg1.view.read (Elt F) f1) (arg3.view.read (Elt F) f3) t (ix2 (9 : Fin 64) (y 0)) :=
    fun y => pay_apply c t 9 arg1 arg3 f1 f3 _ (word_eq arg1 c f1 _ _ _ (wordPos t 9) (wordOff_eq t 9)) (hw1 _ _) _ _ y
  have e6_10 : ∀ y : S19200.Idx, gather_body.sl.dma22 c t arg1 arg3 f1 f3 hw1 y = gatherRows (arg1.view.read (Elt F) f1) (arg3.view.read (Elt F) f3) t (ix2 (10 : Fin 64) (y 0)) :=
    fun y => pay_apply c t 10 arg1 arg3 f1 f3 _ (word_eq arg1 c f1 _ _ _ (wordPos t 10) (wordOff_eq t 10)) (hw1 _ _) _ _ y
  have e6_11 : ∀ y : S19200.Idx, gather_body.sl.dma24 c t arg1 arg3 f1 f3 hw1 y = gatherRows (arg1.view.read (Elt F) f1) (arg3.view.read (Elt F) f3) t (ix2 (11 : Fin 64) (y 0)) :=
    fun y => pay_apply c t 11 arg1 arg3 f1 f3 _ (word_eq arg1 c f1 _ _ _ (wordPos t 11) (wordOff_eq t 11)) (hw1 _ _) _ _ y
  have e6_12 : ∀ y : S19200.Idx, gather_body.sl.dma26 c t arg1 arg3 f1 f3 hw1 y = gatherRows (arg1.view.read (Elt F) f1) (arg3.view.read (Elt F) f3) t (ix2 (12 : Fin 64) (y 0)) :=
    fun y => pay_apply c t 12 arg1 arg3 f1 f3 _ (word_eq arg1 c f1 _ _ _ (wordPos t 12) (wordOff_eq t 12)) (hw1 _ _) _ _ y
  have e6_13 : ∀ y : S19200.Idx, gather_body.sl.dma28 c t arg1 arg3 f1 f3 hw1 y = gatherRows (arg1.view.read (Elt F) f1) (arg3.view.read (Elt F) f3) t (ix2 (13 : Fin 64) (y 0)) :=
    fun y => pay_apply c t 13 arg1 arg3 f1 f3 _ (word_eq arg1 c f1 _ _ _ (wordPos t 13) (wordOff_eq t 13)) (hw1 _ _) _ _ y
  have e6_14 : ∀ y : S19200.Idx, gather_body.sl.dma30 c t arg1 arg3 f1 f3 hw1 y = gatherRows (arg1.view.read (Elt F) f1) (arg3.view.read (Elt F) f3) t (ix2 (14 : Fin 64) (y 0)) :=
    fun y => pay_apply c t 14 arg1 arg3 f1 f3 _ (word_eq arg1 c f1 _ _ _ (wordPos t 14) (wordOff_eq t 14)) (hw1 _ _) _ _ y
  have e6_15 : ∀ y : S19200.Idx, gather_body.sl.dma32 c t arg1 arg3 f1 f3 hw1 y = gatherRows (arg1.view.read (Elt F) f1) (arg3.view.read (Elt F) f3) t (ix2 (15 : Fin 64) (y 0)) :=
    fun y => pay_apply c t 15 arg1 arg3 f1 f3 _ (word_eq arg1 c f1 _ _ _ (wordPos t 15) (wordOff_eq t 15)) (hw1 _ _) _ _ y
  have e6_16 : ∀ y : S19200.Idx, gather_body.sl.dma34 c t arg1 arg3 f1 f3 hw1 y = gatherRows (arg1.view.read (Elt F) f1) (arg3.view.read (Elt F) f3) t (ix2 (16 : Fin 64) (y 0)) :=
    fun y => pay_apply c t 16 arg1 arg3 f1 f3 _ (word_eq arg1 c f1 _ _ _ (wordPos t 16) (wordOff_eq t 16)) (hw1 _ _) _ _ y
  have e6_17 : ∀ y : S19200.Idx, gather_body.sl.dma36 c t arg1 arg3 f1 f3 hw1 y = gatherRows (arg1.view.read (Elt F) f1) (arg3.view.read (Elt F) f3) t (ix2 (17 : Fin 64) (y 0)) :=
    fun y => pay_apply c t 17 arg1 arg3 f1 f3 _ (word_eq arg1 c f1 _ _ _ (wordPos t 17) (wordOff_eq t 17)) (hw1 _ _) _ _ y
  have e6_18 : ∀ y : S19200.Idx, gather_body.sl.dma38 c t arg1 arg3 f1 f3 hw1 y = gatherRows (arg1.view.read (Elt F) f1) (arg3.view.read (Elt F) f3) t (ix2 (18 : Fin 64) (y 0)) :=
    fun y => pay_apply c t 18 arg1 arg3 f1 f3 _ (word_eq arg1 c f1 _ _ _ (wordPos t 18) (wordOff_eq t 18)) (hw1 _ _) _ _ y
  have e6_19 : ∀ y : S19200.Idx, gather_body.sl.dma40 c t arg1 arg3 f1 f3 hw1 y = gatherRows (arg1.view.read (Elt F) f1) (arg3.view.read (Elt F) f3) t (ix2 (19 : Fin 64) (y 0)) :=
    fun y => pay_apply c t 19 arg1 arg3 f1 f3 _ (word_eq arg1 c f1 _ _ _ (wordPos t 19) (wordOff_eq t 19)) (hw1 _ _) _ _ y
  have e6_20 : ∀ y : S19200.Idx, gather_body.sl.dma42 c t arg1 arg3 f1 f3 hw1 y = gatherRows (arg1.view.read (Elt F) f1) (arg3.view.read (Elt F) f3) t (ix2 (20 : Fin 64) (y 0)) :=
    fun y => pay_apply c t 20 arg1 arg3 f1 f3 _ (word_eq arg1 c f1 _ _ _ (wordPos t 20) (wordOff_eq t 20)) (hw1 _ _) _ _ y
  have e6_21 : ∀ y : S19200.Idx, gather_body.sl.dma44 c t arg1 arg3 f1 f3 hw1 y = gatherRows (arg1.view.read (Elt F) f1) (arg3.view.read (Elt F) f3) t (ix2 (21 : Fin 64) (y 0)) :=
    fun y => pay_apply c t 21 arg1 arg3 f1 f3 _ (word_eq arg1 c f1 _ _ _ (wordPos t 21) (wordOff_eq t 21)) (hw1 _ _) _ _ y
  have e6_22 : ∀ y : S19200.Idx, gather_body.sl.dma46 c t arg1 arg3 f1 f3 hw1 y = gatherRows (arg1.view.read (Elt F) f1) (arg3.view.read (Elt F) f3) t (ix2 (22 : Fin 64) (y 0)) :=
    fun y => pay_apply c t 22 arg1 arg3 f1 f3 _ (word_eq arg1 c f1 _ _ _ (wordPos t 22) (wordOff_eq t 22)) (hw1 _ _) _ _ y
  have e6_23 : ∀ y : S19200.Idx, gather_body.sl.dma48 c t arg1 arg3 f1 f3 hw1 y = gatherRows (arg1.view.read (Elt F) f1) (arg3.view.read (Elt F) f3) t (ix2 (23 : Fin 64) (y 0)) :=
    fun y => pay_apply c t 23 arg1 arg3 f1 f3 _ (word_eq arg1 c f1 _ _ _ (wordPos t 23) (wordOff_eq t 23)) (hw1 _ _) _ _ y
  have e6_24 : ∀ y : S19200.Idx, gather_body.sl.dma50 c t arg1 arg3 f1 f3 hw1 y = gatherRows (arg1.view.read (Elt F) f1) (arg3.view.read (Elt F) f3) t (ix2 (24 : Fin 64) (y 0)) :=
    fun y => pay_apply c t 24 arg1 arg3 f1 f3 _ (word_eq arg1 c f1 _ _ _ (wordPos t 24) (wordOff_eq t 24)) (hw1 _ _) _ _ y
  have e6_25 : ∀ y : S19200.Idx, gather_body.sl.dma52 c t arg1 arg3 f1 f3 hw1 y = gatherRows (arg1.view.read (Elt F) f1) (arg3.view.read (Elt F) f3) t (ix2 (25 : Fin 64) (y 0)) :=
    fun y => pay_apply c t 25 arg1 arg3 f1 f3 _ (word_eq arg1 c f1 _ _ _ (wordPos t 25) (wordOff_eq t 25)) (hw1 _ _) _ _ y
  have e6_26 : ∀ y : S19200.Idx, gather_body.sl.dma54 c t arg1 arg3 f1 f3 hw1 y = gatherRows (arg1.view.read (Elt F) f1) (arg3.view.read (Elt F) f3) t (ix2 (26 : Fin 64) (y 0)) :=
    fun y => pay_apply c t 26 arg1 arg3 f1 f3 _ (word_eq arg1 c f1 _ _ _ (wordPos t 26) (wordOff_eq t 26)) (hw1 _ _) _ _ y
  have e6_27 : ∀ y : S19200.Idx, gather_body.sl.dma56 c t arg1 arg3 f1 f3 hw1 y = gatherRows (arg1.view.read (Elt F) f1) (arg3.view.read (Elt F) f3) t (ix2 (27 : Fin 64) (y 0)) :=
    fun y => pay_apply c t 27 arg1 arg3 f1 f3 _ (word_eq arg1 c f1 _ _ _ (wordPos t 27) (wordOff_eq t 27)) (hw1 _ _) _ _ y
  have e6_28 : ∀ y : S19200.Idx, gather_body.sl.dma58 c t arg1 arg3 f1 f3 hw1 y = gatherRows (arg1.view.read (Elt F) f1) (arg3.view.read (Elt F) f3) t (ix2 (28 : Fin 64) (y 0)) :=
    fun y => pay_apply c t 28 arg1 arg3 f1 f3 _ (word_eq arg1 c f1 _ _ _ (wordPos t 28) (wordOff_eq t 28)) (hw1 _ _) _ _ y
  have e6_29 : ∀ y : S19200.Idx, gather_body.sl.dma60 c t arg1 arg3 f1 f3 hw1 y = gatherRows (arg1.view.read (Elt F) f1) (arg3.view.read (Elt F) f3) t (ix2 (29 : Fin 64) (y 0)) :=
    fun y => pay_apply c t 29 arg1 arg3 f1 f3 _ (word_eq arg1 c f1 _ _ _ (wordPos t 29) (wordOff_eq t 29)) (hw1 _ _) _ _ y
  have e6_30 : ∀ y : S19200.Idx, gather_body.sl.dma62 c t arg1 arg3 f1 f3 hw1 y = gatherRows (arg1.view.read (Elt F) f1) (arg3.view.read (Elt F) f3) t (ix2 (30 : Fin 64) (y 0)) :=
    fun y => pay_apply c t 30 arg1 arg3 f1 f3 _ (word_eq arg1 c f1 _ _ _ (wordPos t 30) (wordOff_eq t 30)) (hw1 _ _) _ _ y
  have e6_31 : ∀ y : S19200.Idx, gather_body.sl.dma64 c t arg1 arg3 f1 f3 hw1 y = gatherRows (arg1.view.read (Elt F) f1) (arg3.view.read (Elt F) f3) t (ix2 (31 : Fin 64) (y 0)) :=
    fun y => pay_apply c t 31 arg1 arg3 f1 f3 _ (word_eq arg1 c f1 _ _ _ (wordPos t 31) (wordOff_eq t 31)) (hw1 _ _) _ _ y
  have e6_32 : ∀ y : S19200.Idx, gather_body.sl.dma66 c t arg1 arg3 f1 f3 hw1 y = gatherRows (arg1.view.read (Elt F) f1) (arg3.view.read (Elt F) f3) t (ix2 (32 : Fin 64) (y 0)) :=
    fun y => pay_apply c t 32 arg1 arg3 f1 f3 _ (word_eq arg1 c f1 _ _ _ (wordPos t 32) (wordOff_eq t 32)) (hw1 _ _) _ _ y
  have e6_33 : ∀ y : S19200.Idx, gather_body.sl.dma68 c t arg1 arg3 f1 f3 hw1 y = gatherRows (arg1.view.read (Elt F) f1) (arg3.view.read (Elt F) f3) t (ix2 (33 : Fin 64) (y 0)) :=
    fun y => pay_apply c t 33 arg1 arg3 f1 f3 _ (word_eq arg1 c f1 _ _ _ (wordPos t 33) (wordOff_eq t 33)) (hw1 _ _) _ _ y
  have e6_34 : ∀ y : S19200.Idx, gather_body.sl.dma70 c t arg1 arg3 f1 f3 hw1 y = gatherRows (arg1.view.read (Elt F) f1) (arg3.view.read (Elt F) f3) t (ix2 (34 : Fin 64) (y 0)) :=
    fun y => pay_apply c t 34 arg1 arg3 f1 f3 _ (word_eq arg1 c f1 _ _ _ (wordPos t 34) (wordOff_eq t 34)) (hw1 _ _) _ _ y
  have e6_35 : ∀ y : S19200.Idx, gather_body.sl.dma72 c t arg1 arg3 f1 f3 hw1 y = gatherRows (arg1.view.read (Elt F) f1) (arg3.view.read (Elt F) f3) t (ix2 (35 : Fin 64) (y 0)) :=
    fun y => pay_apply c t 35 arg1 arg3 f1 f3 _ (word_eq arg1 c f1 _ _ _ (wordPos t 35) (wordOff_eq t 35)) (hw1 _ _) _ _ y
  have e6_36 : ∀ y : S19200.Idx, gather_body.sl.dma74 c t arg1 arg3 f1 f3 hw1 y = gatherRows (arg1.view.read (Elt F) f1) (arg3.view.read (Elt F) f3) t (ix2 (36 : Fin 64) (y 0)) :=
    fun y => pay_apply c t 36 arg1 arg3 f1 f3 _ (word_eq arg1 c f1 _ _ _ (wordPos t 36) (wordOff_eq t 36)) (hw1 _ _) _ _ y
  have e6_37 : ∀ y : S19200.Idx, gather_body.sl.dma76 c t arg1 arg3 f1 f3 hw1 y = gatherRows (arg1.view.read (Elt F) f1) (arg3.view.read (Elt F) f3) t (ix2 (37 : Fin 64) (y 0)) :=
    fun y => pay_apply c t 37 arg1 arg3 f1 f3 _ (word_eq arg1 c f1 _ _ _ (wordPos t 37) (wordOff_eq t 37)) (hw1 _ _) _ _ y
  have e6_38 : ∀ y : S19200.Idx, gather_body.sl.dma78 c t arg1 arg3 f1 f3 hw1 y = gatherRows (arg1.view.read (Elt F) f1) (arg3.view.read (Elt F) f3) t (ix2 (38 : Fin 64) (y 0)) :=
    fun y => pay_apply c t 38 arg1 arg3 f1 f3 _ (word_eq arg1 c f1 _ _ _ (wordPos t 38) (wordOff_eq t 38)) (hw1 _ _) _ _ y
  have e6_39 : ∀ y : S19200.Idx, gather_body.sl.dma80 c t arg1 arg3 f1 f3 hw1 y = gatherRows (arg1.view.read (Elt F) f1) (arg3.view.read (Elt F) f3) t (ix2 (39 : Fin 64) (y 0)) :=
    fun y => pay_apply c t 39 arg1 arg3 f1 f3 _ (word_eq arg1 c f1 _ _ _ (wordPos t 39) (wordOff_eq t 39)) (hw1 _ _) _ _ y
  have e6_40 : ∀ y : S19200.Idx, gather_body.sl.dma82 c t arg1 arg3 f1 f3 hw1 y = gatherRows (arg1.view.read (Elt F) f1) (arg3.view.read (Elt F) f3) t (ix2 (40 : Fin 64) (y 0)) :=
    fun y => pay_apply c t 40 arg1 arg3 f1 f3 _ (word_eq arg1 c f1 _ _ _ (wordPos t 40) (wordOff_eq t 40)) (hw1 _ _) _ _ y
  have e6_41 : ∀ y : S19200.Idx, gather_body.sl.dma84 c t arg1 arg3 f1 f3 hw1 y = gatherRows (arg1.view.read (Elt F) f1) (arg3.view.read (Elt F) f3) t (ix2 (41 : Fin 64) (y 0)) :=
    fun y => pay_apply c t 41 arg1 arg3 f1 f3 _ (word_eq arg1 c f1 _ _ _ (wordPos t 41) (wordOff_eq t 41)) (hw1 _ _) _ _ y
  have e6_42 : ∀ y : S19200.Idx, gather_body.sl.dma86 c t arg1 arg3 f1 f3 hw1 y = gatherRows (arg1.view.read (Elt F) f1) (arg3.view.read (Elt F) f3) t (ix2 (42 : Fin 64) (y 0)) :=
    fun y => pay_apply c t 42 arg1 arg3 f1 f3 _ (word_eq arg1 c f1 _ _ _ (wordPos t 42) (wordOff_eq t 42)) (hw1 _ _) _ _ y
  have e6_43 : ∀ y : S19200.Idx, gather_body.sl.dma88 c t arg1 arg3 f1 f3 hw1 y = gatherRows (arg1.view.read (Elt F) f1) (arg3.view.read (Elt F) f3) t (ix2 (43 : Fin 64) (y 0)) :=
    fun y => pay_apply c t 43 arg1 arg3 f1 f3 _ (word_eq arg1 c f1 _ _ _ (wordPos t 43) (wordOff_eq t 43)) (hw1 _ _) _ _ y
  have e6_44 : ∀ y : S19200.Idx, gather_body.sl.dma90 c t arg1 arg3 f1 f3 hw1 y = gatherRows (arg1.view.read (Elt F) f1) (arg3.view.read (Elt F) f3) t (ix2 (44 : Fin 64) (y 0)) :=
    fun y => pay_apply c t 44 arg1 arg3 f1 f3 _ (word_eq arg1 c f1 _ _ _ (wordPos t 44) (wordOff_eq t 44)) (hw1 _ _) _ _ y
  have e6_45 : ∀ y : S19200.Idx, gather_body.sl.dma92 c t arg1 arg3 f1 f3 hw1 y = gatherRows (arg1.view.read (Elt F) f1) (arg3.view.read (Elt F) f3) t (ix2 (45 : Fin 64) (y 0)) :=
    fun y => pay_apply c t 45 arg1 arg3 f1 f3 _ (word_eq arg1 c f1 _ _ _ (wordPos t 45) (wordOff_eq t 45)) (hw1 _ _) _ _ y
  have e6_46 : ∀ y : S19200.Idx, gather_body.sl.dma94 c t arg1 arg3 f1 f3 hw1 y = gatherRows (arg1.view.read (Elt F) f1) (arg3.view.read (Elt F) f3) t (ix2 (46 : Fin 64) (y 0)) :=
    fun y => pay_apply c t 46 arg1 arg3 f1 f3 _ (word_eq arg1 c f1 _ _ _ (wordPos t 46) (wordOff_eq t 46)) (hw1 _ _) _ _ y
  have e6_47 : ∀ y : S19200.Idx, gather_body.sl.dma96 c t arg1 arg3 f1 f3 hw1 y = gatherRows (arg1.view.read (Elt F) f1) (arg3.view.read (Elt F) f3) t (ix2 (47 : Fin 64) (y 0)) :=
    fun y => pay_apply c t 47 arg1 arg3 f1 f3 _ (word_eq arg1 c f1 _ _ _ (wordPos t 47) (wordOff_eq t 47)) (hw1 _ _) _ _ y
  have e6_48 : ∀ y : S19200.Idx, gather_body.sl.dma98 c t arg1 arg3 f1 f3 hw1 y = gatherRows (arg1.view.read (Elt F) f1) (arg3.view.read (Elt F) f3) t (ix2 (48 : Fin 64) (y 0)) :=
    fun y => pay_apply c t 48 arg1 arg3 f1 f3 _ (word_eq arg1 c f1 _ _ _ (wordPos t 48) (wordOff_eq t 48)) (hw1 _ _) _ _ y
  have e6_49 : ∀ y : S19200.Idx, gather_body.sl.dma100 c t arg1 arg3 f1 f3 hw1 y = gatherRows (arg1.view.read (Elt F) f1) (arg3.view.read (Elt F) f3) t (ix2 (49 : Fin 64) (y 0)) :=
    fun y => pay_apply c t 49 arg1 arg3 f1 f3 _ (word_eq arg1 c f1 _ _ _ (wordPos t 49) (wordOff_eq t 49)) (hw1 _ _) _ _ y
  have e6_50 : ∀ y : S19200.Idx, gather_body.sl.dma102 c t arg1 arg3 f1 f3 hw1 y = gatherRows (arg1.view.read (Elt F) f1) (arg3.view.read (Elt F) f3) t (ix2 (50 : Fin 64) (y 0)) :=
    fun y => pay_apply c t 50 arg1 arg3 f1 f3 _ (word_eq arg1 c f1 _ _ _ (wordPos t 50) (wordOff_eq t 50)) (hw1 _ _) _ _ y
  have e6_51 : ∀ y : S19200.Idx, gather_body.sl.dma104 c t arg1 arg3 f1 f3 hw1 y = gatherRows (arg1.view.read (Elt F) f1) (arg3.view.read (Elt F) f3) t (ix2 (51 : Fin 64) (y 0)) :=
    fun y => pay_apply c t 51 arg1 arg3 f1 f3 _ (word_eq arg1 c f1 _ _ _ (wordPos t 51) (wordOff_eq t 51)) (hw1 _ _) _ _ y
  have e6_52 : ∀ y : S19200.Idx, gather_body.sl.dma106 c t arg1 arg3 f1 f3 hw1 y = gatherRows (arg1.view.read (Elt F) f1) (arg3.view.read (Elt F) f3) t (ix2 (52 : Fin 64) (y 0)) :=
    fun y => pay_apply c t 52 arg1 arg3 f1 f3 _ (word_eq arg1 c f1 _ _ _ (wordPos t 52) (wordOff_eq t 52)) (hw1 _ _) _ _ y
  have e6_53 : ∀ y : S19200.Idx, gather_body.sl.dma108 c t arg1 arg3 f1 f3 hw1 y = gatherRows (arg1.view.read (Elt F) f1) (arg3.view.read (Elt F) f3) t (ix2 (53 : Fin 64) (y 0)) :=
    fun y => pay_apply c t 53 arg1 arg3 f1 f3 _ (word_eq arg1 c f1 _ _ _ (wordPos t 53) (wordOff_eq t 53)) (hw1 _ _) _ _ y
  have e6_54 : ∀ y : S19200.Idx, gather_body.sl.dma110 c t arg1 arg3 f1 f3 hw1 y = gatherRows (arg1.view.read (Elt F) f1) (arg3.view.read (Elt F) f3) t (ix2 (54 : Fin 64) (y 0)) :=
    fun y => pay_apply c t 54 arg1 arg3 f1 f3 _ (word_eq arg1 c f1 _ _ _ (wordPos t 54) (wordOff_eq t 54)) (hw1 _ _) _ _ y
  have e6_55 : ∀ y : S19200.Idx, gather_body.sl.dma112 c t arg1 arg3 f1 f3 hw1 y = gatherRows (arg1.view.read (Elt F) f1) (arg3.view.read (Elt F) f3) t (ix2 (55 : Fin 64) (y 0)) :=
    fun y => pay_apply c t 55 arg1 arg3 f1 f3 _ (word_eq arg1 c f1 _ _ _ (wordPos t 55) (wordOff_eq t 55)) (hw1 _ _) _ _ y
  have e6_56 : ∀ y : S19200.Idx, gather_body.sl.dma114 c t arg1 arg3 f1 f3 hw1 y = gatherRows (arg1.view.read (Elt F) f1) (arg3.view.read (Elt F) f3) t (ix2 (56 : Fin 64) (y 0)) :=
    fun y => pay_apply c t 56 arg1 arg3 f1 f3 _ (word_eq arg1 c f1 _ _ _ (wordPos t 56) (wordOff_eq t 56)) (hw1 _ _) _ _ y
  have e6_57 : ∀ y : S19200.Idx, gather_body.sl.dma116 c t arg1 arg3 f1 f3 hw1 y = gatherRows (arg1.view.read (Elt F) f1) (arg3.view.read (Elt F) f3) t (ix2 (57 : Fin 64) (y 0)) :=
    fun y => pay_apply c t 57 arg1 arg3 f1 f3 _ (word_eq arg1 c f1 _ _ _ (wordPos t 57) (wordOff_eq t 57)) (hw1 _ _) _ _ y
  have e6_58 : ∀ y : S19200.Idx, gather_body.sl.dma118 c t arg1 arg3 f1 f3 hw1 y = gatherRows (arg1.view.read (Elt F) f1) (arg3.view.read (Elt F) f3) t (ix2 (58 : Fin 64) (y 0)) :=
    fun y => pay_apply c t 58 arg1 arg3 f1 f3 _ (word_eq arg1 c f1 _ _ _ (wordPos t 58) (wordOff_eq t 58)) (hw1 _ _) _ _ y
  have e6_59 : ∀ y : S19200.Idx, gather_body.sl.dma120 c t arg1 arg3 f1 f3 hw1 y = gatherRows (arg1.view.read (Elt F) f1) (arg3.view.read (Elt F) f3) t (ix2 (59 : Fin 64) (y 0)) :=
    fun y => pay_apply c t 59 arg1 arg3 f1 f3 _ (word_eq arg1 c f1 _ _ _ (wordPos t 59) (wordOff_eq t 59)) (hw1 _ _) _ _ y
  have e6_60 : ∀ y : S19200.Idx, gather_body.sl.dma122 c t arg1 arg3 f1 f3 hw1 y = gatherRows (arg1.view.read (Elt F) f1) (arg3.view.read (Elt F) f3) t (ix2 (60 : Fin 64) (y 0)) :=
    fun y => pay_apply c t 60 arg1 arg3 f1 f3 _ (word_eq arg1 c f1 _ _ _ (wordPos t 60) (wordOff_eq t 60)) (hw1 _ _) _ _ y
  have e6_61 : ∀ y : S19200.Idx, gather_body.sl.dma124 c t arg1 arg3 f1 f3 hw1 y = gatherRows (arg1.view.read (Elt F) f1) (arg3.view.read (Elt F) f3) t (ix2 (61 : Fin 64) (y 0)) :=
    fun y => pay_apply c t 61 arg1 arg3 f1 f3 _ (word_eq arg1 c f1 _ _ _ (wordPos t 61) (wordOff_eq t 61)) (hw1 _ _) _ _ y
  have e6_62 : ∀ y : S19200.Idx, gather_body.sl.dma126 c t arg1 arg3 f1 f3 hw1 y = gatherRows (arg1.view.read (Elt F) f1) (arg3.view.read (Elt F) f3) t (ix2 (62 : Fin 64) (y 0)) :=
    fun y => pay_apply c t 62 arg1 arg3 f1 f3 _ (word_eq arg1 c f1 _ _ _ (wordPos t 62) (wordOff_eq t 62)) (hw1 _ _) _ _ y
  have e6_63 : ∀ y : S19200.Idx, gather_body.sl.dma128 c t arg1 arg3 f1 f3 hw1 y = gatherRows (arg1.view.read (Elt F) f1) (arg3.view.read (Elt F) f3) t (ix2 (63 : Fin 64) (y 0)) :=
    fun y => pay_apply c t 63 arg1 arg3 f1 f3 _ (word_eq arg1 c f1 _ _ _ (wordPos t 63) (wordOff_eq t 63)) (hw1 _ _) _ _ y
  have e7_0 : ∀ y : S19200.Idx, gather_body.sl.dma2_1 c t arg2 arg3 f2 f3 hw2 y = gatherRows (arg2.view.read (Elt F) f2) (arg3.view.read (Elt F) f3) t (ix2 (0 : Fin 64) (y 0)) :=
    fun y => pay_apply c t 0 arg2 arg3 f2 f3 _ (word_eq arg2 c f2 _ _ _ (wordPos t 0) (wordOff_eq t 0)) (hw2 _ _) _ _ y
  have e7_1 : ∀ y : S19200.Idx, gather_body.sl.dma4_1 c t arg2 arg3 f2 f3 hw2 y = gatherRows (arg2.view.read (Elt F) f2) (arg3.view.read (Elt F) f3) t (ix2 (1 : Fin 64) (y 0)) :=
    fun y => pay_apply c t 1 arg2 arg3 f2 f3 _ (word_eq arg2 c f2 _ _ _ (wordPos t 1) (wordOff_eq t 1)) (hw2 _ _) _ _ y
  have e7_2 : ∀ y : S19200.Idx, gather_body.sl.dma6_1 c t arg2 arg3 f2 f3 hw2 y = gatherRows (arg2.view.read (Elt F) f2) (arg3.view.read (Elt F) f3) t (ix2 (2 : Fin 64) (y 0)) :=
    fun y => pay_apply c t 2 arg2 arg3 f2 f3 _ (word_eq arg2 c f2 _ _ _ (wordPos t 2) (wordOff_eq t 2)) (hw2 _ _) _ _ y
  have e7_3 : ∀ y : S19200.Idx, gather_body.sl.dma8_1 c t arg2 arg3 f2 f3 hw2 y = gatherRows (arg2.view.read (Elt F) f2) (arg3.view.read (Elt F) f3) t (ix2 (3 : Fin 64) (y 0)) :=
    fun y => pay_apply c t 3 arg2 arg3 f2 f3 _ (word_eq arg2 c f2 _ _ _ (wordPos t 3) (wordOff_eq t 3)) (hw2 _ _) _ _ y
  have e7_4 : ∀ y : S19200.Idx, gather_body.sl.dma10_1 c t arg2 arg3 f2 f3 hw2 y = gatherRows (arg2.view.read (Elt F) f2) (arg3.view.read (Elt F) f3) t (ix2 (4 : Fin 64) (y 0)) :=
    fun y => pay_apply c t 4 arg2 arg3 f2 f3 _ (word_eq arg2 c f2 _ _ _ (wordPos t 4) (wordOff_eq t 4)) (hw2 _ _) _ _ y
  have e7_5 : ∀ y : S19200.Idx, gather_body.sl.dma12_1 c t arg2 arg3 f2 f3 hw2 y = gatherRows (arg2.view.read (Elt F) f2) (arg3.view.read (Elt F) f3) t (ix2 (5 : Fin 64) (y 0)) :=
    fun y => pay_apply c t 5 arg2 arg3 f2 f3 _ (word_eq arg2 c f2 _ _ _ (wordPos t 5) (wordOff_eq t 5)) (hw2 _ _) _ _ y
  have e7_6 : ∀ y : S19200.Idx, gather_body.sl.dma14_1 c t arg2 arg3 f2 f3 hw2 y = gatherRows (arg2.view.read (Elt F) f2) (arg3.view.read (Elt F) f3) t (ix2 (6 : Fin 64) (y 0)) :=
    fun y => pay_apply c t 6 arg2 arg3 f2 f3 _ (word_eq arg2 c f2 _ _ _ (wordPos t 6) (wordOff_eq t 6)) (hw2 _ _) _ _ y
  have e7_7 : ∀ y : S19200.Idx, gather_body.sl.dma16_1 c t arg2 arg3 f2 f3 hw2 y = gatherRows (arg2.view.read (Elt F) f2) (arg3.view.read (Elt F) f3) t (ix2 (7 : Fin 64) (y 0)) :=
    fun y => pay_apply c t 7 arg2 arg3 f2 f3 _ (word_eq arg2 c f2 _ _ _ (wordPos t 7) (wordOff_eq t 7)) (hw2 _ _) _ _ y
  have e7_8 : ∀ y : S19200.Idx, gather_body.sl.dma18_1 c t arg2 arg3 f2 f3 hw2 y = gatherRows (arg2.view.read (Elt F) f2) (arg3.view.read (Elt F) f3) t (ix2 (8 : Fin 64) (y 0)) :=
    fun y => pay_apply c t 8 arg2 arg3 f2 f3 _ (word_eq arg2 c f2 _ _ _ (wordPos t 8) (wordOff_eq t 8)) (hw2 _ _) _ _ y
  have e7_9 : ∀ y : S19200.Idx, gather_body.sl.dma20_1 c t arg2 arg3 f2 f3 hw2 y = gatherRows (arg2.view.read (Elt F) f2) (arg3.view.read (Elt F) f3) t (ix2 (9 : Fin 64) (y 0)) :=
    fun y => pay_apply c t 9 arg2 arg3 f2 f3 _ (word_eq arg2 c f2 _ _ _ (wordPos t 9) (wordOff_eq t 9)) (hw2 _ _) _ _ y
  have e7_10 : ∀ y : S19200.Idx, gather_body.sl.dma22_1 c t arg2 arg3 f2 f3 hw2 y = gatherRows (arg2.view.read (Elt F) f2) (arg3.view.read (Elt F) f3) t (ix2 (10 : Fin 64) (y 0)) :=
    fun y => pay_apply c t 10 arg2 arg3 f2 f3 _ (word_eq arg2 c f2 _ _ _ (wordPos t 10) (wordOff_eq t 10)) (hw2 _ _) _ _ y
  have e7_11 : ∀ y : S19200.Idx, gather_body.sl.dma24_1 c t arg2 arg3 f2 f3 hw2 y = gatherRows (arg2.view.read (Elt F) f2) (arg3.view.read (Elt F) f3) t (ix2 (11 : Fin 64) (y 0)) :=
    fun y => pay_apply c t 11 arg2 arg3 f2 f3 _ (word_eq arg2 c f2 _ _ _ (wordPos t 11) (wordOff_eq t 11)) (hw2 _ _) _ _ y
  have e7_12 : ∀ y : S19200.Idx, gather_body.sl.dma26_1 c t arg2 arg3 f2 f3 hw2 y = gatherRows (arg2.view.read (Elt F) f2) (arg3.view.read (Elt F) f3) t (ix2 (12 : Fin 64) (y 0)) :=
    fun y => pay_apply c t 12 arg2 arg3 f2 f3 _ (word_eq arg2 c f2 _ _ _ (wordPos t 12) (wordOff_eq t 12)) (hw2 _ _) _ _ y
  have e7_13 : ∀ y : S19200.Idx, gather_body.sl.dma28_1 c t arg2 arg3 f2 f3 hw2 y = gatherRows (arg2.view.read (Elt F) f2) (arg3.view.read (Elt F) f3) t (ix2 (13 : Fin 64) (y 0)) :=
    fun y => pay_apply c t 13 arg2 arg3 f2 f3 _ (word_eq arg2 c f2 _ _ _ (wordPos t 13) (wordOff_eq t 13)) (hw2 _ _) _ _ y
  have e7_14 : ∀ y : S19200.Idx, gather_body.sl.dma30_1 c t arg2 arg3 f2 f3 hw2 y = gatherRows (arg2.view.read (Elt F) f2) (arg3.view.read (Elt F) f3) t (ix2 (14 : Fin 64) (y 0)) :=
    fun y => pay_apply c t 14 arg2 arg3 f2 f3 _ (word_eq arg2 c f2 _ _ _ (wordPos t 14) (wordOff_eq t 14)) (hw2 _ _) _ _ y
  have e7_15 : ∀ y : S19200.Idx, gather_body.sl.dma32_1 c t arg2 arg3 f2 f3 hw2 y = gatherRows (arg2.view.read (Elt F) f2) (arg3.view.read (Elt F) f3) t (ix2 (15 : Fin 64) (y 0)) :=
    fun y => pay_apply c t 15 arg2 arg3 f2 f3 _ (word_eq arg2 c f2 _ _ _ (wordPos t 15) (wordOff_eq t 15)) (hw2 _ _) _ _ y
  have e7_16 : ∀ y : S19200.Idx, gather_body.sl.dma34_1 c t arg2 arg3 f2 f3 hw2 y = gatherRows (arg2.view.read (Elt F) f2) (arg3.view.read (Elt F) f3) t (ix2 (16 : Fin 64) (y 0)) :=
    fun y => pay_apply c t 16 arg2 arg3 f2 f3 _ (word_eq arg2 c f2 _ _ _ (wordPos t 16) (wordOff_eq t 16)) (hw2 _ _) _ _ y
  have e7_17 : ∀ y : S19200.Idx, gather_body.sl.dma36_1 c t arg2 arg3 f2 f3 hw2 y = gatherRows (arg2.view.read (Elt F) f2) (arg3.view.read (Elt F) f3) t (ix2 (17 : Fin 64) (y 0)) :=
    fun y => pay_apply c t 17 arg2 arg3 f2 f3 _ (word_eq arg2 c f2 _ _ _ (wordPos t 17) (wordOff_eq t 17)) (hw2 _ _) _ _ y
  have e7_18 : ∀ y : S19200.Idx, gather_body.sl.dma38_1 c t arg2 arg3 f2 f3 hw2 y = gatherRows (arg2.view.read (Elt F) f2) (arg3.view.read (Elt F) f3) t (ix2 (18 : Fin 64) (y 0)) :=
    fun y => pay_apply c t 18 arg2 arg3 f2 f3 _ (word_eq arg2 c f2 _ _ _ (wordPos t 18) (wordOff_eq t 18)) (hw2 _ _) _ _ y
  have e7_19 : ∀ y : S19200.Idx, gather_body.sl.dma40_1 c t arg2 arg3 f2 f3 hw2 y = gatherRows (arg2.view.read (Elt F) f2) (arg3.view.read (Elt F) f3) t (ix2 (19 : Fin 64) (y 0)) :=
    fun y => pay_apply c t 19 arg2 arg3 f2 f3 _ (word_eq arg2 c f2 _ _ _ (wordPos t 19) (wordOff_eq t 19)) (hw2 _ _) _ _ y
  have e7_20 : ∀ y : S19200.Idx, gather_body.sl.dma42_1 c t arg2 arg3 f2 f3 hw2 y = gatherRows (arg2.view.read (Elt F) f2) (arg3.view.read (Elt F) f3) t (ix2 (20 : Fin 64) (y 0)) :=
    fun y => pay_apply c t 20 arg2 arg3 f2 f3 _ (word_eq arg2 c f2 _ _ _ (wordPos t 20) (wordOff_eq t 20)) (hw2 _ _) _ _ y
  have e7_21 : ∀ y : S19200.Idx, gather_body.sl.dma44_1 c t arg2 arg3 f2 f3 hw2 y = gatherRows (arg2.view.read (Elt F) f2) (arg3.view.read (Elt F) f3) t (ix2 (21 : Fin 64) (y 0)) :=
    fun y => pay_apply c t 21 arg2 arg3 f2 f3 _ (word_eq arg2 c f2 _ _ _ (wordPos t 21) (wordOff_eq t 21)) (hw2 _ _) _ _ y
  have e7_22 : ∀ y : S19200.Idx, gather_body.sl.dma46_1 c t arg2 arg3 f2 f3 hw2 y = gatherRows (arg2.view.read (Elt F) f2) (arg3.view.read (Elt F) f3) t (ix2 (22 : Fin 64) (y 0)) :=
    fun y => pay_apply c t 22 arg2 arg3 f2 f3 _ (word_eq arg2 c f2 _ _ _ (wordPos t 22) (wordOff_eq t 22)) (hw2 _ _) _ _ y
  have e7_23 : ∀ y : S19200.Idx, gather_body.sl.dma48_1 c t arg2 arg3 f2 f3 hw2 y = gatherRows (arg2.view.read (Elt F) f2) (arg3.view.read (Elt F) f3) t (ix2 (23 : Fin 64) (y 0)) :=
    fun y => pay_apply c t 23 arg2 arg3 f2 f3 _ (word_eq arg2 c f2 _ _ _ (wordPos t 23) (wordOff_eq t 23)) (hw2 _ _) _ _ y
  have e7_24 : ∀ y : S19200.Idx, gather_body.sl.dma50_1 c t arg2 arg3 f2 f3 hw2 y = gatherRows (arg2.view.read (Elt F) f2) (arg3.view.read (Elt F) f3) t (ix2 (24 : Fin 64) (y 0)) :=
    fun y => pay_apply c t 24 arg2 arg3 f2 f3 _ (word_eq arg2 c f2 _ _ _ (wordPos t 24) (wordOff_eq t 24)) (hw2 _ _) _ _ y
  have e7_25 : ∀ y : S19200.Idx, gather_body.sl.dma52_1 c t arg2 arg3 f2 f3 hw2 y = gatherRows (arg2.view.read (Elt F) f2) (arg3.view.read (Elt F) f3) t (ix2 (25 : Fin 64) (y 0)) :=
    fun y => pay_apply c t 25 arg2 arg3 f2 f3 _ (word_eq arg2 c f2 _ _ _ (wordPos t 25) (wordOff_eq t 25)) (hw2 _ _) _ _ y
  have e7_26 : ∀ y : S19200.Idx, gather_body.sl.dma54_1 c t arg2 arg3 f2 f3 hw2 y = gatherRows (arg2.view.read (Elt F) f2) (arg3.view.read (Elt F) f3) t (ix2 (26 : Fin 64) (y 0)) :=
    fun y => pay_apply c t 26 arg2 arg3 f2 f3 _ (word_eq arg2 c f2 _ _ _ (wordPos t 26) (wordOff_eq t 26)) (hw2 _ _) _ _ y
  have e7_27 : ∀ y : S19200.Idx, gather_body.sl.dma56_1 c t arg2 arg3 f2 f3 hw2 y = gatherRows (arg2.view.read (Elt F) f2) (arg3.view.read (Elt F) f3) t (ix2 (27 : Fin 64) (y 0)) :=
    fun y => pay_apply c t 27 arg2 arg3 f2 f3 _ (word_eq arg2 c f2 _ _ _ (wordPos t 27) (wordOff_eq t 27)) (hw2 _ _) _ _ y
  have e7_28 : ∀ y : S19200.Idx, gather_body.sl.dma58_1 c t arg2 arg3 f2 f3 hw2 y = gatherRows (arg2.view.read (Elt F) f2) (arg3.view.read (Elt F) f3) t (ix2 (28 : Fin 64) (y 0)) :=
    fun y => pay_apply c t 28 arg2 arg3 f2 f3 _ (word_eq arg2 c f2 _ _ _ (wordPos t 28) (wordOff_eq t 28)) (hw2 _ _) _ _ y
  have e7_29 : ∀ y : S19200.Idx, gather_body.sl.dma60_1 c t arg2 arg3 f2 f3 hw2 y = gatherRows (arg2.view.read (Elt F) f2) (arg3.view.read (Elt F) f3) t (ix2 (29 : Fin 64) (y 0)) :=
    fun y => pay_apply c t 29 arg2 arg3 f2 f3 _ (word_eq arg2 c f2 _ _ _ (wordPos t 29) (wordOff_eq t 29)) (hw2 _ _) _ _ y
  have e7_30 : ∀ y : S19200.Idx, gather_body.sl.dma62_1 c t arg2 arg3 f2 f3 hw2 y = gatherRows (arg2.view.read (Elt F) f2) (arg3.view.read (Elt F) f3) t (ix2 (30 : Fin 64) (y 0)) :=
    fun y => pay_apply c t 30 arg2 arg3 f2 f3 _ (word_eq arg2 c f2 _ _ _ (wordPos t 30) (wordOff_eq t 30)) (hw2 _ _) _ _ y
  have e7_31 : ∀ y : S19200.Idx, gather_body.sl.dma64_1 c t arg2 arg3 f2 f3 hw2 y = gatherRows (arg2.view.read (Elt F) f2) (arg3.view.read (Elt F) f3) t (ix2 (31 : Fin 64) (y 0)) :=
    fun y => pay_apply c t 31 arg2 arg3 f2 f3 _ (word_eq arg2 c f2 _ _ _ (wordPos t 31) (wordOff_eq t 31)) (hw2 _ _) _ _ y
  have e7_32 : ∀ y : S19200.Idx, gather_body.sl.dma66_1 c t arg2 arg3 f2 f3 hw2 y = gatherRows (arg2.view.read (Elt F) f2) (arg3.view.read (Elt F) f3) t (ix2 (32 : Fin 64) (y 0)) :=
    fun y => pay_apply c t 32 arg2 arg3 f2 f3 _ (word_eq arg2 c f2 _ _ _ (wordPos t 32) (wordOff_eq t 32)) (hw2 _ _) _ _ y
  have e7_33 : ∀ y : S19200.Idx, gather_body.sl.dma68_1 c t arg2 arg3 f2 f3 hw2 y = gatherRows (arg2.view.read (Elt F) f2) (arg3.view.read (Elt F) f3) t (ix2 (33 : Fin 64) (y 0)) :=
    fun y => pay_apply c t 33 arg2 arg3 f2 f3 _ (word_eq arg2 c f2 _ _ _ (wordPos t 33) (wordOff_eq t 33)) (hw2 _ _) _ _ y
  have e7_34 : ∀ y : S19200.Idx, gather_body.sl.dma70_1 c t arg2 arg3 f2 f3 hw2 y = gatherRows (arg2.view.read (Elt F) f2) (arg3.view.read (Elt F) f3) t (ix2 (34 : Fin 64) (y 0)) :=
    fun y => pay_apply c t 34 arg2 arg3 f2 f3 _ (word_eq arg2 c f2 _ _ _ (wordPos t 34) (wordOff_eq t 34)) (hw2 _ _) _ _ y
  have e7_35 : ∀ y : S19200.Idx, gather_body.sl.dma72_1 c t arg2 arg3 f2 f3 hw2 y = gatherRows (arg2.view.read (Elt F) f2) (arg3.view.read (Elt F) f3) t (ix2 (35 : Fin 64) (y 0)) :=
    fun y => pay_apply c t 35 arg2 arg3 f2 f3 _ (word_eq arg2 c f2 _ _ _ (wordPos t 35) (wordOff_eq t 35)) (hw2 _ _) _ _ y
  have e7_36 : ∀ y : S19200.Idx, gather_body.sl.dma74_1 c t arg2 arg3 f2 f3 hw2 y = gatherRows (arg2.view.read (Elt F) f2) (arg3.view.read (Elt F) f3) t (ix2 (36 : Fin 64) (y 0)) :=
    fun y => pay_apply c t 36 arg2 arg3 f2 f3 _ (word_eq arg2 c f2 _ _ _ (wordPos t 36) (wordOff_eq t 36)) (hw2 _ _) _ _ y
  have e7_37 : ∀ y : S19200.Idx, gather_body.sl.dma76_1 c t arg2 arg3 f2 f3 hw2 y = gatherRows (arg2.view.read (Elt F) f2) (arg3.view.read (Elt F) f3) t (ix2 (37 : Fin 64) (y 0)) :=
    fun y => pay_apply c t 37 arg2 arg3 f2 f3 _ (word_eq arg2 c f2 _ _ _ (wordPos t 37) (wordOff_eq t 37)) (hw2 _ _) _ _ y
  have e7_38 : ∀ y : S19200.Idx, gather_body.sl.dma78_1 c t arg2 arg3 f2 f3 hw2 y = gatherRows (arg2.view.read (Elt F) f2) (arg3.view.read (Elt F) f3) t (ix2 (38 : Fin 64) (y 0)) :=
    fun y => pay_apply c t 38 arg2 arg3 f2 f3 _ (word_eq arg2 c f2 _ _ _ (wordPos t 38) (wordOff_eq t 38)) (hw2 _ _) _ _ y
  have e7_39 : ∀ y : S19200.Idx, gather_body.sl.dma80_1 c t arg2 arg3 f2 f3 hw2 y = gatherRows (arg2.view.read (Elt F) f2) (arg3.view.read (Elt F) f3) t (ix2 (39 : Fin 64) (y 0)) :=
    fun y => pay_apply c t 39 arg2 arg3 f2 f3 _ (word_eq arg2 c f2 _ _ _ (wordPos t 39) (wordOff_eq t 39)) (hw2 _ _) _ _ y
  have e7_40 : ∀ y : S19200.Idx, gather_body.sl.dma82_1 c t arg2 arg3 f2 f3 hw2 y = gatherRows (arg2.view.read (Elt F) f2) (arg3.view.read (Elt F) f3) t (ix2 (40 : Fin 64) (y 0)) :=
    fun y => pay_apply c t 40 arg2 arg3 f2 f3 _ (word_eq arg2 c f2 _ _ _ (wordPos t 40) (wordOff_eq t 40)) (hw2 _ _) _ _ y
  have e7_41 : ∀ y : S19200.Idx, gather_body.sl.dma84_1 c t arg2 arg3 f2 f3 hw2 y = gatherRows (arg2.view.read (Elt F) f2) (arg3.view.read (Elt F) f3) t (ix2 (41 : Fin 64) (y 0)) :=
    fun y => pay_apply c t 41 arg2 arg3 f2 f3 _ (word_eq arg2 c f2 _ _ _ (wordPos t 41) (wordOff_eq t 41)) (hw2 _ _) _ _ y
  have e7_42 : ∀ y : S19200.Idx, gather_body.sl.dma86_1 c t arg2 arg3 f2 f3 hw2 y = gatherRows (arg2.view.read (Elt F) f2) (arg3.view.read (Elt F) f3) t (ix2 (42 : Fin 64) (y 0)) :=
    fun y => pay_apply c t 42 arg2 arg3 f2 f3 _ (word_eq arg2 c f2 _ _ _ (wordPos t 42) (wordOff_eq t 42)) (hw2 _ _) _ _ y
  have e7_43 : ∀ y : S19200.Idx, gather_body.sl.dma88_1 c t arg2 arg3 f2 f3 hw2 y = gatherRows (arg2.view.read (Elt F) f2) (arg3.view.read (Elt F) f3) t (ix2 (43 : Fin 64) (y 0)) :=
    fun y => pay_apply c t 43 arg2 arg3 f2 f3 _ (word_eq arg2 c f2 _ _ _ (wordPos t 43) (wordOff_eq t 43)) (hw2 _ _) _ _ y
  have e7_44 : ∀ y : S19200.Idx, gather_body.sl.dma90_1 c t arg2 arg3 f2 f3 hw2 y = gatherRows (arg2.view.read (Elt F) f2) (arg3.view.read (Elt F) f3) t (ix2 (44 : Fin 64) (y 0)) :=
    fun y => pay_apply c t 44 arg2 arg3 f2 f3 _ (word_eq arg2 c f2 _ _ _ (wordPos t 44) (wordOff_eq t 44)) (hw2 _ _) _ _ y
  have e7_45 : ∀ y : S19200.Idx, gather_body.sl.dma92_1 c t arg2 arg3 f2 f3 hw2 y = gatherRows (arg2.view.read (Elt F) f2) (arg3.view.read (Elt F) f3) t (ix2 (45 : Fin 64) (y 0)) :=
    fun y => pay_apply c t 45 arg2 arg3 f2 f3 _ (word_eq arg2 c f2 _ _ _ (wordPos t 45) (wordOff_eq t 45)) (hw2 _ _) _ _ y
  have e7_46 : ∀ y : S19200.Idx, gather_body.sl.dma94_1 c t arg2 arg3 f2 f3 hw2 y = gatherRows (arg2.view.read (Elt F) f2) (arg3.view.read (Elt F) f3) t (ix2 (46 : Fin 64) (y 0)) :=
    fun y => pay_apply c t 46 arg2 arg3 f2 f3 _ (word_eq arg2 c f2 _ _ _ (wordPos t 46) (wordOff_eq t 46)) (hw2 _ _) _ _ y
  have e7_47 : ∀ y : S19200.Idx, gather_body.sl.dma96_1 c t arg2 arg3 f2 f3 hw2 y = gatherRows (arg2.view.read (Elt F) f2) (arg3.view.read (Elt F) f3) t (ix2 (47 : Fin 64) (y 0)) :=
    fun y => pay_apply c t 47 arg2 arg3 f2 f3 _ (word_eq arg2 c f2 _ _ _ (wordPos t 47) (wordOff_eq t 47)) (hw2 _ _) _ _ y
  have e7_48 : ∀ y : S19200.Idx, gather_body.sl.dma98_1 c t arg2 arg3 f2 f3 hw2 y = gatherRows (arg2.view.read (Elt F) f2) (arg3.view.read (Elt F) f3) t (ix2 (48 : Fin 64) (y 0)) :=
    fun y => pay_apply c t 48 arg2 arg3 f2 f3 _ (word_eq arg2 c f2 _ _ _ (wordPos t 48) (wordOff_eq t 48)) (hw2 _ _) _ _ y
  have e7_49 : ∀ y : S19200.Idx, gather_body.sl.dma100_1 c t arg2 arg3 f2 f3 hw2 y = gatherRows (arg2.view.read (Elt F) f2) (arg3.view.read (Elt F) f3) t (ix2 (49 : Fin 64) (y 0)) :=
    fun y => pay_apply c t 49 arg2 arg3 f2 f3 _ (word_eq arg2 c f2 _ _ _ (wordPos t 49) (wordOff_eq t 49)) (hw2 _ _) _ _ y
  have e7_50 : ∀ y : S19200.Idx, gather_body.sl.dma102_1 c t arg2 arg3 f2 f3 hw2 y = gatherRows (arg2.view.read (Elt F) f2) (arg3.view.read (Elt F) f3) t (ix2 (50 : Fin 64) (y 0)) :=
    fun y => pay_apply c t 50 arg2 arg3 f2 f3 _ (word_eq arg2 c f2 _ _ _ (wordPos t 50) (wordOff_eq t 50)) (hw2 _ _) _ _ y
  have e7_51 : ∀ y : S19200.Idx, gather_body.sl.dma104_1 c t arg2 arg3 f2 f3 hw2 y = gatherRows (arg2.view.read (Elt F) f2) (arg3.view.read (Elt F) f3) t (ix2 (51 : Fin 64) (y 0)) :=
    fun y => pay_apply c t 51 arg2 arg3 f2 f3 _ (word_eq arg2 c f2 _ _ _ (wordPos t 51) (wordOff_eq t 51)) (hw2 _ _) _ _ y
  have e7_52 : ∀ y : S19200.Idx, gather_body.sl.dma106_1 c t arg2 arg3 f2 f3 hw2 y = gatherRows (arg2.view.read (Elt F) f2) (arg3.view.read (Elt F) f3) t (ix2 (52 : Fin 64) (y 0)) :=
    fun y => pay_apply c t 52 arg2 arg3 f2 f3 _ (word_eq arg2 c f2 _ _ _ (wordPos t 52) (wordOff_eq t 52)) (hw2 _ _) _ _ y
  have e7_53 : ∀ y : S19200.Idx, gather_body.sl.dma108_1 c t arg2 arg3 f2 f3 hw2 y = gatherRows (arg2.view.read (Elt F) f2) (arg3.view.read (Elt F) f3) t (ix2 (53 : Fin 64) (y 0)) :=
    fun y => pay_apply c t 53 arg2 arg3 f2 f3 _ (word_eq arg2 c f2 _ _ _ (wordPos t 53) (wordOff_eq t 53)) (hw2 _ _) _ _ y
  have e7_54 : ∀ y : S19200.Idx, gather_body.sl.dma110_1 c t arg2 arg3 f2 f3 hw2 y = gatherRows (arg2.view.read (Elt F) f2) (arg3.view.read (Elt F) f3) t (ix2 (54 : Fin 64) (y 0)) :=
    fun y => pay_apply c t 54 arg2 arg3 f2 f3 _ (word_eq arg2 c f2 _ _ _ (wordPos t 54) (wordOff_eq t 54)) (hw2 _ _) _ _ y
  have e7_55 : ∀ y : S19200.Idx, gather_body.sl.dma112_1 c t arg2 arg3 f2 f3 hw2 y = gatherRows (arg2.view.read (Elt F) f2) (arg3.view.read (Elt F) f3) t (ix2 (55 : Fin 64) (y 0)) :=
    fun y => pay_apply c t 55 arg2 arg3 f2 f3 _ (word_eq arg2 c f2 _ _ _ (wordPos t 55) (wordOff_eq t 55)) (hw2 _ _) _ _ y
  have e7_56 : ∀ y : S19200.Idx, gather_body.sl.dma114_1 c t arg2 arg3 f2 f3 hw2 y = gatherRows (arg2.view.read (Elt F) f2) (arg3.view.read (Elt F) f3) t (ix2 (56 : Fin 64) (y 0)) :=
    fun y => pay_apply c t 56 arg2 arg3 f2 f3 _ (word_eq arg2 c f2 _ _ _ (wordPos t 56) (wordOff_eq t 56)) (hw2 _ _) _ _ y
  have e7_57 : ∀ y : S19200.Idx, gather_body.sl.dma116_1 c t arg2 arg3 f2 f3 hw2 y = gatherRows (arg2.view.read (Elt F) f2) (arg3.view.read (Elt F) f3) t (ix2 (57 : Fin 64) (y 0)) :=
    fun y => pay_apply c t 57 arg2 arg3 f2 f3 _ (word_eq arg2 c f2 _ _ _ (wordPos t 57) (wordOff_eq t 57)) (hw2 _ _) _ _ y
  have e7_58 : ∀ y : S19200.Idx, gather_body.sl.dma118_1 c t arg2 arg3 f2 f3 hw2 y = gatherRows (arg2.view.read (Elt F) f2) (arg3.view.read (Elt F) f3) t (ix2 (58 : Fin 64) (y 0)) :=
    fun y => pay_apply c t 58 arg2 arg3 f2 f3 _ (word_eq arg2 c f2 _ _ _ (wordPos t 58) (wordOff_eq t 58)) (hw2 _ _) _ _ y
  have e7_59 : ∀ y : S19200.Idx, gather_body.sl.dma120_1 c t arg2 arg3 f2 f3 hw2 y = gatherRows (arg2.view.read (Elt F) f2) (arg3.view.read (Elt F) f3) t (ix2 (59 : Fin 64) (y 0)) :=
    fun y => pay_apply c t 59 arg2 arg3 f2 f3 _ (word_eq arg2 c f2 _ _ _ (wordPos t 59) (wordOff_eq t 59)) (hw2 _ _) _ _ y
  have e7_60 : ∀ y : S19200.Idx, gather_body.sl.dma122_1 c t arg2 arg3 f2 f3 hw2 y = gatherRows (arg2.view.read (Elt F) f2) (arg3.view.read (Elt F) f3) t (ix2 (60 : Fin 64) (y 0)) :=
    fun y => pay_apply c t 60 arg2 arg3 f2 f3 _ (word_eq arg2 c f2 _ _ _ (wordPos t 60) (wordOff_eq t 60)) (hw2 _ _) _ _ y
  have e7_61 : ∀ y : S19200.Idx, gather_body.sl.dma124_1 c t arg2 arg3 f2 f3 hw2 y = gatherRows (arg2.view.read (Elt F) f2) (arg3.view.read (Elt F) f3) t (ix2 (61 : Fin 64) (y 0)) :=
    fun y => pay_apply c t 61 arg2 arg3 f2 f3 _ (word_eq arg2 c f2 _ _ _ (wordPos t 61) (wordOff_eq t 61)) (hw2 _ _) _ _ y
  have e7_62 : ∀ y : S19200.Idx, gather_body.sl.dma126_1 c t arg2 arg3 f2 f3 hw2 y = gatherRows (arg2.view.read (Elt F) f2) (arg3.view.read (Elt F) f3) t (ix2 (62 : Fin 64) (y 0)) :=
    fun y => pay_apply c t 62 arg2 arg3 f2 f3 _ (word_eq arg2 c f2 _ _ _ (wordPos t 62) (wordOff_eq t 62)) (hw2 _ _) _ _ y
  have e7_63 : ∀ y : S19200.Idx, gather_body.sl.dma128_1 c t arg2 arg3 f2 f3 hw2 y = gatherRows (arg2.view.read (Elt F) f2) (arg3.view.read (Elt F) f3) t (ix2 (63 : Fin 64) (y 0)) :=
    fun y => pay_apply c t 63 arg2 arg3 f2 f3 _ (word_eq arg2 c f2 _ _ _ (wordPos t 63) (wordOff_eq t 63)) (hw2 _ _) _ _ y
  have hP6 : ∀ (r : Fin 64) (y : S19200.Idx), (![gather_body.sl.dma2 c t arg1 arg3 f1 f3 hw1, gather_body.sl.dma4 c t arg1 arg3 f1 f3 hw1, gather_body.sl.dma6 c t arg1 arg3 f1 f3 hw1, gather_body.sl.dma8 c t arg1 arg3 f1 f3 hw1, gather_body.sl.dma10 c t arg1 arg3 f1 f3 hw1, gather_body.sl.dma12 c t arg1 arg3 f1 f3 hw1, gather_body.sl.dma14 c t arg1 arg3 f1 f3 hw1, gather_body.sl.dma16 c t arg1 arg3 f1 f3 hw1, gather_body.sl.dma18 c t arg1 arg3 f1 f3 hw1, gather_body.sl.dma20 c t arg1 arg3 f1 f3 hw1, gather_body.sl.dma22 c t arg1 arg3 f1 f3 hw1, gather_body.sl.dma24 c t arg1 arg3 f1 f3 hw1, gather_body.sl.dma26 c t arg1 arg3 f1 f3 hw1, gather_body.sl.dma28 c t arg1 arg3 f1 f3 hw1, gather_body.sl.dma30 c t arg1 arg3 f1 f3 hw1, gather_body.sl.dma32 c t arg1 arg3 f1 f3 hw1, gather_body.sl.dma34 c t arg1 arg3 f1 f3 hw1, gather_body.sl.dma36 c t arg1 arg3 f1 f3 hw1, gather_body.sl.dma38 c t arg1 arg3 f1 f3 hw1, gather_body.sl.dma40 c t arg1 arg3 f1 f3 hw1, gather_body.sl.dma42 c t arg1 arg3 f1 f3 hw1, gather_body.sl.dma44 c t arg1 arg3 f1 f3 hw1, gather_body.sl.dma46 c t arg1 arg3 f1 f3 hw1, gather_body.sl.dma48 c t arg1 arg3 f1 f3 hw1, gather_body.sl.dma50 c t arg1 arg3 f1 f3 hw1, gather_body.sl.dma52 c t arg1 arg3 f1 f3 hw1, gather_body.sl.dma54 c t arg1 arg3 f1 f3 hw1, gather_body.sl.dma56 c t arg1 arg3 f1 f3 hw1, gather_body.sl.dma58 c t arg1 arg3 f1 f3 hw1, gather_body.sl.dma60 c t arg1 arg3 f1 f3 hw1, gather_body.sl.dma62 c t arg1 arg3 f1 f3 hw1, gather_body.sl.dma64 c t arg1 arg3 f1 f3 hw1, gather_body.sl.dma66 c t arg1 arg3 f1 f3 hw1, gather_body.sl.dma68 c t arg1 arg3 f1 f3 hw1, gather_body.sl.dma70 c t arg1 arg3 f1 f3 hw1, gather_body.sl.dma72 c t arg1 arg3 f1 f3 hw1, gather_body.sl.dma74 c t arg1 arg3 f1 f3 hw1, gather_body.sl.dma76 c t arg1 arg3 f1 f3 hw1, gather_body.sl.dma78 c t arg1 arg3 f1 f3 hw1, gather_body.sl.dma80 c t arg1 arg3 f1 f3 hw1, gather_body.sl.dma82 c t arg1 arg3 f1 f3 hw1, gather_body.sl.dma84 c t arg1 arg3 f1 f3 hw1, gather_body.sl.dma86 c t arg1 arg3 f1 f3 hw1, gather_body.sl.dma88 c t arg1 arg3 f1 f3 hw1, gather_body.sl.dma90 c t arg1 arg3 f1 f3 hw1, gather_body.sl.dma92 c t arg1 arg3 f1 f3 hw1, gather_body.sl.dma94 c t arg1 arg3 f1 f3 hw1, gather_body.sl.dma96 c t arg1 arg3 f1 f3 hw1, gather_body.sl.dma98 c t arg1 arg3 f1 f3 hw1, gather_body.sl.dma100 c t arg1 arg3 f1 f3 hw1, gather_body.sl.dma102 c t arg1 arg3 f1 f3 hw1, gather_body.sl.dma104 c t arg1 arg3 f1 f3 hw1, gather_body.sl.dma106 c t arg1 arg3 f1 f3 hw1, gather_body.sl.dma108 c t arg1 arg3 f1 f3 hw1, gather_body.sl.dma110 c t arg1 arg3 f1 f3 hw1, gather_body.sl.dma112 c t arg1 arg3 f1 f3 hw1, gather_body.sl.dma114 c t arg1 arg3 f1 f3 hw1, gather_body.sl.dma116 c t arg1 arg3 f1 f3 hw1, gather_body.sl.dma118 c t arg1 arg3 f1 f3 hw1, gather_body.sl.dma120 c t arg1 arg3 f1 f3 hw1, gather_body.sl.dma122 c t arg1 arg3 f1 f3 hw1, gather_body.sl.dma124 c t arg1 arg3 f1 f3 hw1, gather_body.sl.dma126 c t arg1 arg3 f1 f3 hw1, gather_body.sl.dma128 c t arg1 arg3 f1 f3 hw1] : Fin 64 → S19200.Idx → Elt F .f32) r y
      = gatherRows (arg1.view.read (Elt F) f1) (arg3.view.read (Elt F) f3) t (ix2 r (y 0)) := by
    intro r y
    match r with
    | ⟨0, _⟩ => exact e6_0 y
    | ⟨1, _⟩ => exact e6_1 y
    | ⟨2, _⟩ => exact e6_2 y
    | ⟨3, _⟩ => exact e6_3 y
    | ⟨4, _⟩ => exact e6_4 y
    | ⟨5, _⟩ => exact e6_5 y
    | ⟨6, _⟩ => exact e6_6 y
    | ⟨7, _⟩ => exact e6_7 y
    | ⟨8, _⟩ => exact e6_8 y
    | ⟨9, _⟩ => exact e6_9 y
    | ⟨10, _⟩ => exact e6_10 y
    | ⟨11, _⟩ => exact e6_11 y
    | ⟨12, _⟩ => exact e6_12 y
    | ⟨13, _⟩ => exact e6_13 y
    | ⟨14, _⟩ => exact e6_14 y
    | ⟨15, _⟩ => exact e6_15 y
    | ⟨16, _⟩ => exact e6_16 y
    | ⟨17, _⟩ => exact e6_17 y
    | ⟨18, _⟩ => exact e6_18 y
    | ⟨19, _⟩ => exact e6_19 y
    | ⟨20, _⟩ => exact e6_20 y
    | ⟨21, _⟩ => exact e6_21 y
    | ⟨22, _⟩ => exact e6_22 y
    | ⟨23, _⟩ => exact e6_23 y
    | ⟨24, _⟩ => exact e6_24 y
    | ⟨25, _⟩ => exact e6_25 y
    | ⟨26, _⟩ => exact e6_26 y
    | ⟨27, _⟩ => exact e6_27 y
    | ⟨28, _⟩ => exact e6_28 y
    | ⟨29, _⟩ => exact e6_29 y
    | ⟨30, _⟩ => exact e6_30 y
    | ⟨31, _⟩ => exact e6_31 y
    | ⟨32, _⟩ => exact e6_32 y
    | ⟨33, _⟩ => exact e6_33 y
    | ⟨34, _⟩ => exact e6_34 y
    | ⟨35, _⟩ => exact e6_35 y
    | ⟨36, _⟩ => exact e6_36 y
    | ⟨37, _⟩ => exact e6_37 y
    | ⟨38, _⟩ => exact e6_38 y
    | ⟨39, _⟩ => exact e6_39 y
    | ⟨40, _⟩ => exact e6_40 y
    | ⟨41, _⟩ => exact e6_41 y
    | ⟨42, _⟩ => exact e6_42 y
    | ⟨43, _⟩ => exact e6_43 y
    | ⟨44, _⟩ => exact e6_44 y
    | ⟨45, _⟩ => exact e6_45 y
    | ⟨46, _⟩ => exact e6_46 y
    | ⟨47, _⟩ => exact e6_47 y
    | ⟨48, _⟩ => exact e6_48 y
    | ⟨49, _⟩ => exact e6_49 y
    | ⟨50, _⟩ => exact e6_50 y
    | ⟨51, _⟩ => exact e6_51 y
    | ⟨52, _⟩ => exact e6_52 y
    | ⟨53, _⟩ => exact e6_53 y
    | ⟨54, _⟩ => exact e6_54 y
    | ⟨55, _⟩ => exact e6_55 y
    | ⟨56, _⟩ => exact e6_56 y
    | ⟨57, _⟩ => exact e6_57 y
    | ⟨58, _⟩ => exact e6_58 y
    | ⟨59, _⟩ => exact e6_59 y
    | ⟨60, _⟩ => exact e6_60 y
    | ⟨61, _⟩ => exact e6_61 y
    | ⟨62, _⟩ => exact e6_62 y
    | ⟨63, _⟩ => exact e6_63 y
    | ⟨n + 64, hn⟩ => exact absurd hn (by omega)
  have hP7 : ∀ (r : Fin 64) (y : S19200.Idx), (![gather_body.sl.dma2_1 c t arg2 arg3 f2 f3 hw2, gather_body.sl.dma4_1 c t arg2 arg3 f2 f3 hw2, gather_body.sl.dma6_1 c t arg2 arg3 f2 f3 hw2, gather_body.sl.dma8_1 c t arg2 arg3 f2 f3 hw2, gather_body.sl.dma10_1 c t arg2 arg3 f2 f3 hw2, gather_body.sl.dma12_1 c t arg2 arg3 f2 f3 hw2, gather_body.sl.dma14_1 c t arg2 arg3 f2 f3 hw2, gather_body.sl.dma16_1 c t arg2 arg3 f2 f3 hw2, gather_body.sl.dma18_1 c t arg2 arg3 f2 f3 hw2, gather_body.sl.dma20_1 c t arg2 arg3 f2 f3 hw2, gather_body.sl.dma22_1 c t arg2 arg3 f2 f3 hw2, gather_body.sl.dma24_1 c t arg2 arg3 f2 f3 hw2, gather_body.sl.dma26_1 c t arg2 arg3 f2 f3 hw2, gather_body.sl.dma28_1 c t arg2 arg3 f2 f3 hw2, gather_body.sl.dma30_1 c t arg2 arg3 f2 f3 hw2, gather_body.sl.dma32_1 c t arg2 arg3 f2 f3 hw2, gather_body.sl.dma34_1 c t arg2 arg3 f2 f3 hw2, gather_body.sl.dma36_1 c t arg2 arg3 f2 f3 hw2, gather_body.sl.dma38_1 c t arg2 arg3 f2 f3 hw2, gather_body.sl.dma40_1 c t arg2 arg3 f2 f3 hw2, gather_body.sl.dma42_1 c t arg2 arg3 f2 f3 hw2, gather_body.sl.dma44_1 c t arg2 arg3 f2 f3 hw2, gather_body.sl.dma46_1 c t arg2 arg3 f2 f3 hw2, gather_body.sl.dma48_1 c t arg2 arg3 f2 f3 hw2, gather_body.sl.dma50_1 c t arg2 arg3 f2 f3 hw2, gather_body.sl.dma52_1 c t arg2 arg3 f2 f3 hw2, gather_body.sl.dma54_1 c t arg2 arg3 f2 f3 hw2, gather_body.sl.dma56_1 c t arg2 arg3 f2 f3 hw2, gather_body.sl.dma58_1 c t arg2 arg3 f2 f3 hw2, gather_body.sl.dma60_1 c t arg2 arg3 f2 f3 hw2, gather_body.sl.dma62_1 c t arg2 arg3 f2 f3 hw2, gather_body.sl.dma64_1 c t arg2 arg3 f2 f3 hw2, gather_body.sl.dma66_1 c t arg2 arg3 f2 f3 hw2, gather_body.sl.dma68_1 c t arg2 arg3 f2 f3 hw2, gather_body.sl.dma70_1 c t arg2 arg3 f2 f3 hw2, gather_body.sl.dma72_1 c t arg2 arg3 f2 f3 hw2, gather_body.sl.dma74_1 c t arg2 arg3 f2 f3 hw2, gather_body.sl.dma76_1 c t arg2 arg3 f2 f3 hw2, gather_body.sl.dma78_1 c t arg2 arg3 f2 f3 hw2, gather_body.sl.dma80_1 c t arg2 arg3 f2 f3 hw2, gather_body.sl.dma82_1 c t arg2 arg3 f2 f3 hw2, gather_body.sl.dma84_1 c t arg2 arg3 f2 f3 hw2, gather_body.sl.dma86_1 c t arg2 arg3 f2 f3 hw2, gather_body.sl.dma88_1 c t arg2 arg3 f2 f3 hw2, gather_body.sl.dma90_1 c t arg2 arg3 f2 f3 hw2, gather_body.sl.dma92_1 c t arg2 arg3 f2 f3 hw2, gather_body.sl.dma94_1 c t arg2 arg3 f2 f3 hw2, gather_body.sl.dma96_1 c t arg2 arg3 f2 f3 hw2, gather_body.sl.dma98_1 c t arg2 arg3 f2 f3 hw2, gather_body.sl.dma100_1 c t arg2 arg3 f2 f3 hw2, gather_body.sl.dma102_1 c t arg2 arg3 f2 f3 hw2, gather_body.sl.dma104_1 c t arg2 arg3 f2 f3 hw2, gather_body.sl.dma106_1 c t arg2 arg3 f2 f3 hw2, gather_body.sl.dma108_1 c t arg2 arg3 f2 f3 hw2, gather_body.sl.dma110_1 c t arg2 arg3 f2 f3 hw2, gather_body.sl.dma112_1 c t arg2 arg3 f2 f3 hw2, gather_body.sl.dma114_1 c t arg2 arg3 f2 f3 hw2, gather_body.sl.dma116_1 c t arg2 arg3 f2 f3 hw2, gather_body.sl.dma118_1 c t arg2 arg3 f2 f3 hw2, gather_body.sl.dma120_1 c t arg2 arg3 f2 f3 hw2, gather_body.sl.dma122_1 c t arg2 arg3 f2 f3 hw2, gather_body.sl.dma124_1 c t arg2 arg3 f2 f3 hw2, gather_body.sl.dma126_1 c t arg2 arg3 f2 f3 hw2, gather_body.sl.dma128_1 c t arg2 arg3 f2 f3 hw2] : Fin 64 → S19200.Idx → Elt F .f32) r y
      = gatherRows (arg2.view.read (Elt F) f2) (arg3.view.read (Elt F) f3) t (ix2 r (y 0)) := by
    intro r y
    match r with
    | ⟨0, _⟩ => exact e7_0 y
    | ⟨1, _⟩ => exact e7_1 y
    | ⟨2, _⟩ => exact e7_2 y
    | ⟨3, _⟩ => exact e7_3 y
    | ⟨4, _⟩ => exact e7_4 y
    | ⟨5, _⟩ => exact e7_5 y
    | ⟨6, _⟩ => exact e7_6 y
    | ⟨7, _⟩ => exact e7_7 y
    | ⟨8, _⟩ => exact e7_8 y
    | ⟨9, _⟩ => exact e7_9 y
    | ⟨10, _⟩ => exact e7_10 y
    | ⟨11, _⟩ => exact e7_11 y
    | ⟨12, _⟩ => exact e7_12 y
    | ⟨13, _⟩ => exact e7_13 y
    | ⟨14, _⟩ => exact e7_14 y
    | ⟨15, _⟩ => exact e7_15 y
    | ⟨16, _⟩ => exact e7_16 y
    | ⟨17, _⟩ => exact e7_17 y
    | ⟨18, _⟩ => exact e7_18 y
    | ⟨19, _⟩ => exact e7_19 y
    | ⟨20, _⟩ => exact e7_20 y
    | ⟨21, _⟩ => exact e7_21 y
    | ⟨22, _⟩ => exact e7_22 y
    | ⟨23, _⟩ => exact e7_23 y
    | ⟨24, _⟩ => exact e7_24 y
    | ⟨25, _⟩ => exact e7_25 y
    | ⟨26, _⟩ => exact e7_26 y
    | ⟨27, _⟩ => exact e7_27 y
    | ⟨28, _⟩ => exact e7_28 y
    | ⟨29, _⟩ => exact e7_29 y
    | ⟨30, _⟩ => exact e7_30 y
    | ⟨31, _⟩ => exact e7_31 y
    | ⟨32, _⟩ => exact e7_32 y
    | ⟨33, _⟩ => exact e7_33 y
    | ⟨34, _⟩ => exact e7_34 y
    | ⟨35, _⟩ => exact e7_35 y
    | ⟨36, _⟩ => exact e7_36 y
    | ⟨37, _⟩ => exact e7_37 y
    | ⟨38, _⟩ => exact e7_38 y
    | ⟨39, _⟩ => exact e7_39 y
    | ⟨40, _⟩ => exact e7_40 y
    | ⟨41, _⟩ => exact e7_41 y
    | ⟨42, _⟩ => exact e7_42 y
    | ⟨43, _⟩ => exact e7_43 y
    | ⟨44, _⟩ => exact e7_44 y
    | ⟨45, _⟩ => exact e7_45 y
    | ⟨46, _⟩ => exact e7_46 y
    | ⟨47, _⟩ => exact e7_47 y
    | ⟨48, _⟩ => exact e7_48 y
    | ⟨49, _⟩ => exact e7_49 y
    | ⟨50, _⟩ => exact e7_50 y
    | ⟨51, _⟩ => exact e7_51 y
    | ⟨52, _⟩ => exact e7_52 y
    | ⟨53, _⟩ => exact e7_53 y
    | ⟨54, _⟩ => exact e7_54 y
    | ⟨55, _⟩ => exact e7_55 y
    | ⟨56, _⟩ => exact e7_56 y
    | ⟨57, _⟩ => exact e7_57 y
    | ⟨58, _⟩ => exact e7_58 y
    | ⟨59, _⟩ => exact e7_59 y
    | ⟨60, _⟩ => exact e7_60 y
    | ⟨61, _⟩ => exact e7_61 y
    | ⟨62, _⟩ => exact e7_62 y
    | ⟨63, _⟩ => exact e7_63 y
    | ⟨n + 64, hn⟩ => exact absurd hn (by omega)
  -- the filled rows are the scratch whole
  ihave H6 := (rows_join c arg6 f6 ![gather_body.sl.dma2 c t arg1 arg3 f1 f3 hw1, gather_body.sl.dma4 c t arg1 arg3 f1 f3 hw1, gather_body.sl.dma6 c t arg1 arg3 f1 f3 hw1, gather_body.sl.dma8 c t arg1 arg3 f1 f3 hw1, gather_body.sl.dma10 c t arg1 arg3 f1 f3 hw1, gather_body.sl.dma12 c t arg1 arg3 f1 f3 hw1, gather_body.sl.dma14 c t arg1 arg3 f1 f3 hw1, gather_body.sl.dma16 c t arg1 arg3 f1 f3 hw1, gather_body.sl.dma18 c t arg1 arg3 f1 f3 hw1, gather_body.sl.dma20 c t arg1 arg3 f1 f3 hw1, gather_body.sl.dma22 c t arg1 arg3 f1 f3 hw1, gather_body.sl.dma24 c t arg1 arg3 f1 f3 hw1, gather_body.sl.dma26 c t arg1 arg3 f1 f3 hw1, gather_body.sl.dma28 c t arg1 arg3 f1 f3 hw1, gather_body.sl.dma30 c t arg1 arg3 f1 f3 hw1, gather_body.sl.dma32 c t arg1 arg3 f1 f3 hw1, gather_body.sl.dma34 c t arg1 arg3 f1 f3 hw1, gather_body.sl.dma36 c t arg1 arg3 f1 f3 hw1, gather_body.sl.dma38 c t arg1 arg3 f1 f3 hw1, gather_body.sl.dma40 c t arg1 arg3 f1 f3 hw1, gather_body.sl.dma42 c t arg1 arg3 f1 f3 hw1, gather_body.sl.dma44 c t arg1 arg3 f1 f3 hw1, gather_body.sl.dma46 c t arg1 arg3 f1 f3 hw1, gather_body.sl.dma48 c t arg1 arg3 f1 f3 hw1, gather_body.sl.dma50 c t arg1 arg3 f1 f3 hw1, gather_body.sl.dma52 c t arg1 arg3 f1 f3 hw1, gather_body.sl.dma54 c t arg1 arg3 f1 f3 hw1, gather_body.sl.dma56 c t arg1 arg3 f1 f3 hw1, gather_body.sl.dma58 c t arg1 arg3 f1 f3 hw1, gather_body.sl.dma60 c t arg1 arg3 f1 f3 hw1, gather_body.sl.dma62 c t arg1 arg3 f1 f3 hw1, gather_body.sl.dma64 c t arg1 arg3 f1 f3 hw1, gather_body.sl.dma66 c t arg1 arg3 f1 f3 hw1, gather_body.sl.dma68 c t arg1 arg3 f1 f3 hw1, gather_body.sl.dma70 c t arg1 arg3 f1 f3 hw1, gather_body.sl.dma72 c t arg1 arg3 f1 f3 hw1, gather_body.sl.dma74 c t arg1 arg3 f1 f3 hw1, gather_body.sl.dma76 c t arg1 arg3 f1 f3 hw1, gather_body.sl.dma78 c t arg1 arg3 f1 f3 hw1, gather_body.sl.dma80 c t arg1 arg3 f1 f3 hw1, gather_body.sl.dma82 c t arg1 arg3 f1 f3 hw1, gather_body.sl.dma84 c t arg1 arg3 f1 f3 hw1, gather_body.sl.dma86 c t arg1 arg3 f1 f3 hw1, gather_body.sl.dma88 c t arg1 arg3 f1 f3 hw1, gather_body.sl.dma90 c t arg1 arg3 f1 f3 hw1, gather_body.sl.dma92 c t arg1 arg3 f1 f3 hw1, gather_body.sl.dma94 c t arg1 arg3 f1 f3 hw1, gather_body.sl.dma96 c t arg1 arg3 f1 f3 hw1, gather_body.sl.dma98 c t arg1 arg3 f1 f3 hw1, gather_body.sl.dma100 c t arg1 arg3 f1 f3 hw1, gather_body.sl.dma102 c t arg1 arg3 f1 f3 hw1, gather_body.sl.dma104 c t arg1 arg3 f1 f3 hw1, gather_body.sl.dma106 c t arg1 arg3 f1 f3 hw1, gather_body.sl.dma108 c t arg1 arg3 f1 f3 hw1, gather_body.sl.dma110 c t arg1 arg3 f1 f3 hw1, gather_body.sl.dma112 c t arg1 arg3 f1 f3 hw1, gather_body.sl.dma114 c t arg1 arg3 f1 f3 hw1, gather_body.sl.dma116 c t arg1 arg3 f1 f3 hw1, gather_body.sl.dma118 c t arg1 arg3 f1 f3 hw1, gather_body.sl.dma120 c t arg1 arg3 f1 f3 hw1, gather_body.sl.dma122 c t arg1 arg3 f1 f3 hw1, gather_body.sl.dma124 c t arg1 arg3 f1 f3 hw1, gather_body.sl.dma126 c t arg1 arg3 f1 f3 hw1, gather_body.sl.dma128 c t arg1 arg3 f1 f3 hw1]) $$ [R6_0 R6_1 R6_2 R6_3 R6_4 R6_5 R6_6 R6_7 R6_8 R6_9 R6_10 R6_11 R6_12 R6_13 R6_14 R6_15 R6_16 R6_17 R6_18 R6_19 R6_20 R6_21 R6_22 R6_23 R6_24 R6_25 R6_26 R6_27 R6_28 R6_29 R6_30 R6_31 R6_32 R6_33 R6_34 R6_35 R6_36 R6_37 R6_38 R6_39 R6_40 R6_41 R6_42 R6_43 R6_44 R6_45 R6_46 R6_47 R6_48 R6_49 R6_50 R6_51 R6_52 R6_53 R6_54 R6_55 R6_56 R6_57 R6_58 R6_59 R6_60 R6_61 R6_62 R6_63]
  · isplitl [R6_0]; · iexact R6_0
    isplitl [R6_1]; · iexact R6_1
    isplitl [R6_2]; · iexact R6_2
    isplitl [R6_3]; · iexact R6_3
    isplitl [R6_4]; · iexact R6_4
    isplitl [R6_5]; · iexact R6_5
    isplitl [R6_6]; · iexact R6_6
    isplitl [R6_7]; · iexact R6_7
    isplitl [R6_8]; · iexact R6_8
    isplitl [R6_9]; · iexact R6_9
    isplitl [R6_10]; · iexact R6_10
    isplitl [R6_11]; · iexact R6_11
    isplitl [R6_12]; · iexact R6_12
    isplitl [R6_13]; · iexact R6_13
    isplitl [R6_14]; · iexact R6_14
    isplitl [R6_15]; · iexact R6_15
    isplitl [R6_16]; · iexact R6_16
    isplitl [R6_17]; · iexact R6_17
    isplitl [R6_18]; · iexact R6_18
    isplitl [R6_19]; · iexact R6_19
    isplitl [R6_20]; · iexact R6_20
    isplitl [R6_21]; · iexact R6_21
    isplitl [R6_22]; · iexact R6_22
    isplitl [R6_23]; · iexact R6_23
    isplitl [R6_24]; · iexact R6_24
    isplitl [R6_25]; · iexact R6_25
    isplitl [R6_26]; · iexact R6_26
    isplitl [R6_27]; · iexact R6_27
    isplitl [R6_28]; · iexact R6_28
    isplitl [R6_29]; · iexact R6_29
    isplitl [R6_30]; · iexact R6_30
    isplitl [R6_31]; · iexact R6_31
    isplitl [R6_32]; · iexact R6_32
    isplitl [R6_33]; · iexact R6_33
    isplitl [R6_34]; · iexact R6_34
    isplitl [R6_35]; · iexact R6_35
    isplitl [R6_36]; · iexact R6_36
    isplitl [R6_37]; · iexact R6_37
    isplitl [R6_38]; · iexact R6_38
    isplitl [R6_39]; · iexact R6_39
    isplitl [R6_40]; · iexact R6_40
    isplitl [R6_41]; · iexact R6_41
    isplitl [R6_42]; · iexact R6_42
    isplitl [R6_43]; · iexact R6_43
    isplitl [R6_44]; · iexact R6_44
    isplitl [R6_45]; · iexact R6_45
    isplitl [R6_46]; · iexact R6_46
    isplitl [R6_47]; · iexact R6_47
    isplitl [R6_48]; · iexact R6_48
    isplitl [R6_49]; · iexact R6_49
    isplitl [R6_50]; · iexact R6_50
    isplitl [R6_51]; · iexact R6_51
    isplitl [R6_52]; · iexact R6_52
    isplitl [R6_53]; · iexact R6_53
    isplitl [R6_54]; · iexact R6_54
    isplitl [R6_55]; · iexact R6_55
    isplitl [R6_56]; · iexact R6_56
    isplitl [R6_57]; · iexact R6_57
    isplitl [R6_58]; · iexact R6_58
    isplitl [R6_59]; · iexact R6_59
    isplitl [R6_60]; · iexact R6_60
    isplitl [R6_61]; · iexact R6_61
    isplitl [R6_62]; · iexact R6_62
    iexact R6_63
  ihave H7 := (rows_join c arg7 f7 ![gather_body.sl.dma2_1 c t arg2 arg3 f2 f3 hw2, gather_body.sl.dma4_1 c t arg2 arg3 f2 f3 hw2, gather_body.sl.dma6_1 c t arg2 arg3 f2 f3 hw2, gather_body.sl.dma8_1 c t arg2 arg3 f2 f3 hw2, gather_body.sl.dma10_1 c t arg2 arg3 f2 f3 hw2, gather_body.sl.dma12_1 c t arg2 arg3 f2 f3 hw2, gather_body.sl.dma14_1 c t arg2 arg3 f2 f3 hw2, gather_body.sl.dma16_1 c t arg2 arg3 f2 f3 hw2, gather_body.sl.dma18_1 c t arg2 arg3 f2 f3 hw2, gather_body.sl.dma20_1 c t arg2 arg3 f2 f3 hw2, gather_body.sl.dma22_1 c t arg2 arg3 f2 f3 hw2, gather_body.sl.dma24_1 c t arg2 arg3 f2 f3 hw2, gather_body.sl.dma26_1 c t arg2 arg3 f2 f3 hw2, gather_body.sl.dma28_1 c t arg2 arg3 f2 f3 hw2, gather_body.sl.dma30_1 c t arg2 arg3 f2 f3 hw2, gather_body.sl.dma32_1 c t arg2 arg3 f2 f3 hw2, gather_body.sl.dma34_1 c t arg2 arg3 f2 f3 hw2, gather_body.sl.dma36_1 c t arg2 arg3 f2 f3 hw2, gather_body.sl.dma38_1 c t arg2 arg3 f2 f3 hw2, gather_body.sl.dma40_1 c t arg2 arg3 f2 f3 hw2, gather_body.sl.dma42_1 c t arg2 arg3 f2 f3 hw2, gather_body.sl.dma44_1 c t arg2 arg3 f2 f3 hw2, gather_body.sl.dma46_1 c t arg2 arg3 f2 f3 hw2, gather_body.sl.dma48_1 c t arg2 arg3 f2 f3 hw2, gather_body.sl.dma50_1 c t arg2 arg3 f2 f3 hw2, gather_body.sl.dma52_1 c t arg2 arg3 f2 f3 hw2, gather_body.sl.dma54_1 c t arg2 arg3 f2 f3 hw2, gather_body.sl.dma56_1 c t arg2 arg3 f2 f3 hw2, gather_body.sl.dma58_1 c t arg2 arg3 f2 f3 hw2, gather_body.sl.dma60_1 c t arg2 arg3 f2 f3 hw2, gather_body.sl.dma62_1 c t arg2 arg3 f2 f3 hw2, gather_body.sl.dma64_1 c t arg2 arg3 f2 f3 hw2, gather_body.sl.dma66_1 c t arg2 arg3 f2 f3 hw2, gather_body.sl.dma68_1 c t arg2 arg3 f2 f3 hw2, gather_body.sl.dma70_1 c t arg2 arg3 f2 f3 hw2, gather_body.sl.dma72_1 c t arg2 arg3 f2 f3 hw2, gather_body.sl.dma74_1 c t arg2 arg3 f2 f3 hw2, gather_body.sl.dma76_1 c t arg2 arg3 f2 f3 hw2, gather_body.sl.dma78_1 c t arg2 arg3 f2 f3 hw2, gather_body.sl.dma80_1 c t arg2 arg3 f2 f3 hw2, gather_body.sl.dma82_1 c t arg2 arg3 f2 f3 hw2, gather_body.sl.dma84_1 c t arg2 arg3 f2 f3 hw2, gather_body.sl.dma86_1 c t arg2 arg3 f2 f3 hw2, gather_body.sl.dma88_1 c t arg2 arg3 f2 f3 hw2, gather_body.sl.dma90_1 c t arg2 arg3 f2 f3 hw2, gather_body.sl.dma92_1 c t arg2 arg3 f2 f3 hw2, gather_body.sl.dma94_1 c t arg2 arg3 f2 f3 hw2, gather_body.sl.dma96_1 c t arg2 arg3 f2 f3 hw2, gather_body.sl.dma98_1 c t arg2 arg3 f2 f3 hw2, gather_body.sl.dma100_1 c t arg2 arg3 f2 f3 hw2, gather_body.sl.dma102_1 c t arg2 arg3 f2 f3 hw2, gather_body.sl.dma104_1 c t arg2 arg3 f2 f3 hw2, gather_body.sl.dma106_1 c t arg2 arg3 f2 f3 hw2, gather_body.sl.dma108_1 c t arg2 arg3 f2 f3 hw2, gather_body.sl.dma110_1 c t arg2 arg3 f2 f3 hw2, gather_body.sl.dma112_1 c t arg2 arg3 f2 f3 hw2, gather_body.sl.dma114_1 c t arg2 arg3 f2 f3 hw2, gather_body.sl.dma116_1 c t arg2 arg3 f2 f3 hw2, gather_body.sl.dma118_1 c t arg2 arg3 f2 f3 hw2, gather_body.sl.dma120_1 c t arg2 arg3 f2 f3 hw2, gather_body.sl.dma122_1 c t arg2 arg3 f2 f3 hw2, gather_body.sl.dma124_1 c t arg2 arg3 f2 f3 hw2, gather_body.sl.dma126_1 c t arg2 arg3 f2 f3 hw2, gather_body.sl.dma128_1 c t arg2 arg3 f2 f3 hw2]) $$ [R7_0 R7_1 R7_2 R7_3 R7_4 R7_5 R7_6 R7_7 R7_8 R7_9 R7_10 R7_11 R7_12 R7_13 R7_14 R7_15 R7_16 R7_17 R7_18 R7_19 R7_20 R7_21 R7_22 R7_23 R7_24 R7_25 R7_26 R7_27 R7_28 R7_29 R7_30 R7_31 R7_32 R7_33 R7_34 R7_35 R7_36 R7_37 R7_38 R7_39 R7_40 R7_41 R7_42 R7_43 R7_44 R7_45 R7_46 R7_47 R7_48 R7_49 R7_50 R7_51 R7_52 R7_53 R7_54 R7_55 R7_56 R7_57 R7_58 R7_59 R7_60 R7_61 R7_62 R7_63]
  · isplitl [R7_0]; · iexact R7_0
    isplitl [R7_1]; · iexact R7_1
    isplitl [R7_2]; · iexact R7_2
    isplitl [R7_3]; · iexact R7_3
    isplitl [R7_4]; · iexact R7_4
    isplitl [R7_5]; · iexact R7_5
    isplitl [R7_6]; · iexact R7_6
    isplitl [R7_7]; · iexact R7_7
    isplitl [R7_8]; · iexact R7_8
    isplitl [R7_9]; · iexact R7_9
    isplitl [R7_10]; · iexact R7_10
    isplitl [R7_11]; · iexact R7_11
    isplitl [R7_12]; · iexact R7_12
    isplitl [R7_13]; · iexact R7_13
    isplitl [R7_14]; · iexact R7_14
    isplitl [R7_15]; · iexact R7_15
    isplitl [R7_16]; · iexact R7_16
    isplitl [R7_17]; · iexact R7_17
    isplitl [R7_18]; · iexact R7_18
    isplitl [R7_19]; · iexact R7_19
    isplitl [R7_20]; · iexact R7_20
    isplitl [R7_21]; · iexact R7_21
    isplitl [R7_22]; · iexact R7_22
    isplitl [R7_23]; · iexact R7_23
    isplitl [R7_24]; · iexact R7_24
    isplitl [R7_25]; · iexact R7_25
    isplitl [R7_26]; · iexact R7_26
    isplitl [R7_27]; · iexact R7_27
    isplitl [R7_28]; · iexact R7_28
    isplitl [R7_29]; · iexact R7_29
    isplitl [R7_30]; · iexact R7_30
    isplitl [R7_31]; · iexact R7_31
    isplitl [R7_32]; · iexact R7_32
    isplitl [R7_33]; · iexact R7_33
    isplitl [R7_34]; · iexact R7_34
    isplitl [R7_35]; · iexact R7_35
    isplitl [R7_36]; · iexact R7_36
    isplitl [R7_37]; · iexact R7_37
    isplitl [R7_38]; · iexact R7_38
    isplitl [R7_39]; · iexact R7_39
    isplitl [R7_40]; · iexact R7_40
    isplitl [R7_41]; · iexact R7_41
    isplitl [R7_42]; · iexact R7_42
    isplitl [R7_43]; · iexact R7_43
    isplitl [R7_44]; · iexact R7_44
    isplitl [R7_45]; · iexact R7_45
    isplitl [R7_46]; · iexact R7_46
    isplitl [R7_47]; · iexact R7_47
    isplitl [R7_48]; · iexact R7_48
    isplitl [R7_49]; · iexact R7_49
    isplitl [R7_50]; · iexact R7_50
    isplitl [R7_51]; · iexact R7_51
    isplitl [R7_52]; · iexact R7_52
    isplitl [R7_53]; · iexact R7_53
    isplitl [R7_54]; · iexact R7_54
    isplitl [R7_55]; · iexact R7_55
    isplitl [R7_56]; · iexact R7_56
    isplitl [R7_57]; · iexact R7_57
    isplitl [R7_58]; · iexact R7_58
    isplitl [R7_59]; · iexact R7_59
    isplitl [R7_60]; · iexact R7_60
    isplitl [R7_61]; · iexact R7_61
    isplitl [R7_62]; · iexact R7_62
    iexact R7_63
  -- the two whole loads, the truncations and the two stores
  sl_exec
  sl_step
  iapply Hk
  isplitl [H1]; · iexact H1
  isplitl [H2]; · iexact H2
  isplitl [T4]; · iexact T4
  isplitl [T5]; · iexact T5
  isplitl [T6]; · iexact T6
  isplitl [T7]; · iexact T7
  isplitl [T8]; · iexact T8
  isplitl [T9]; · iexact T9
  isplitl [T10]; · iexact T10
  isplitl [T11]; · iexact T11
  isplitl [T12]; · iexact T12
  isplitl [T13]; · iexact T13
  isplitl [T14]; · iexact T14
  isplitl [T15]; · iexact T15
  isplitl [T16]; · iexact T16
  isplitl [T17]; · iexact T17
  isplitl [T18]; · iexact T18
  isplitl [T19]; · iexact T19
  isplitl [T20]; · iexact T20
  isplitl [T21]; · iexact T21
  isplitl [T22]; · iexact T22
  isplitl [T23]; · iexact T23
  isplitl [T24]; · iexact T24
  isplitl [T25]; · iexact T25
  isplitl [T26]; · iexact T26
  isplitl [T27]; · iexact T27
  isplitl [T28]; · iexact T28
  isplitl [T29]; · iexact T29
  isplitl [T30]; · iexact T30
  isplitl [T31]; · iexact T31
  isplitl [T32]; · iexact T32
  isplitl [T33]; · iexact T33
  isplitl [T34]; · iexact T34
  isplitl [T35]; · iexact T35
  isplitl [T36]; · iexact T36
  isplitl [T37]; · iexact T37
  isplitl [T38]; · iexact T38
  isplitl [T39]; · iexact T39
  isplitl [T40]; · iexact T40
  isplitl [T41]; · iexact T41
  isplitl [T42]; · iexact T42
  isplitl [T43]; · iexact T43
  isplitl [T44]; · iexact T44
  isplitl [T45]; · iexact T45
  isplitl [T46]; · iexact T46
  isplitl [T47]; · iexact T47
  isplitl [T48]; · iexact T48
  isplitl [T49]; · iexact T49
  isplitl [T50]; · iexact T50
  isplitl [T51]; · iexact T51
  isplitl [T52]; · iexact T52
  isplitl [T53]; · iexact T53
  isplitl [T54]; · iexact T54
  isplitl [T55]; · iexact T55
  isplitl [T56]; · iexact T56
  isplitl [T57]; · iexact T57
  isplitl [T58]; · iexact T58
  isplitl [T59]; · iexact T59
  isplitl [T60]; · iexact T60
  isplitl [T61]; · iexact T61
  isplitl [T62]; · iexact T62
  isplitl [T63]; · iexact T63
  isplitl [T64]; · iexact T64
  isplitl [T65]; · iexact T65
  isplitl [T66]; · iexact T66
  isplitl [T67]; · iexact T67
  isplitl [T68]; · iexact T68
  isplitl [T69]; · iexact T69
  isplitl [T70]; · iexact T70
  isplitl [T71]; · iexact T71
  isplitl [T72]; · iexact T72
  isplitl [T73]; · iexact T73
  isplitl [T74]; · iexact T74
  isplitl [T75]; · iexact T75
  isplitl [T76]; · iexact T76
  isplitl [T77]; · iexact T77
  isplitl [T78]; · iexact T78
  isplitl [T79]; · iexact T79
  isplitl [T80]; · iexact T80
  isplitl [T81]; · iexact T81
  isplitl [T82]; · iexact T82
  isplitl [T83]; · iexact T83
  isplitl [T84]; · iexact T84
  isplitl [T85]; · iexact T85
  isplitl [T86]; · iexact T86
  isplitl [T87]; · iexact T87
  isplitl [T88]; · iexact T88
  isplitl [T89]; · iexact T89
  isplitl [T90]; · iexact T90
  isplitl [T91]; · iexact T91
  isplitl [T92]; · iexact T92
  isplitl [T93]; · iexact T93
  isplitl [T94]; · iexact T94
  isplitl [T95]; · iexact T95
  isplitl [T96]; · iexact T96
  isplitl [T97]; · iexact T97
  isplitl [T98]; · iexact T98
  isplitl [T99]; · iexact T99
  isplitl [T100]; · iexact T100
  isplitl [T101]; · iexact T101
  isplitl [T102]; · iexact T102
  isplitl [T103]; · iexact T103
  isplitl [T104]; · iexact T104
  isplitl [T105]; · iexact T105
  isplitl [T106]; · iexact T106
  isplitl [T107]; · iexact T107
  isplitl [T108]; · iexact T108
  isplitl [T109]; · iexact T109
  isplitl [T110]; · iexact T110
  isplitl [T111]; · iexact T111
  isplitl [T112]; · iexact T112
  isplitl [T113]; · iexact T113
  isplitl [T114]; · iexact T114
  isplitl [T115]; · iexact T115
  isplitl [T116]; · iexact T116
  isplitl [T117]; · iexact T117
  isplitl [T118]; · iexact T118
  isplitl [T119]; · iexact T119
  isplitl [T120]; · iexact T120
  isplitl [T121]; · iexact T121
  isplitl [T122]; · iexact T122
  isplitl [T123]; · iexact T123
  isplitl [T124]; · iexact T124
  isplitl [T125]; · iexact T125
  isplitl [T126]; · iexact T126
  isplitl [T127]; · iexact T127
  isplitl [T128]; · iexact T128
  isplitl [T129]; · iexact T129
  isplitl [T130]; · iexact T130
  isplitl [T131]; · iexact T131
  isplitl [H4]
  · iexists _; isplitr; swap; · iexact H4
    ipureintro
    exact stored_eq1_named arg4 _ f4 arg6 _ f6 (arg1.view.read (Elt F) f1) (arg3.view.read (Elt F) f3) t _ hP6 _ rfl
  isplitl [H5]
  · iexists _; isplitr; swap; · iexact H5
    ipureintro
    exact stored_eq2_named arg5 _ f5 arg7 _ f7 (arg2.view.read (Elt F) f2) (arg3.view.read (Elt F) f3) t _ hP7 _ rfl
  isplitl [H6]; · iexists _; iexact H6
  isplitl [H7]; · iexists _; iexact H7
  isplitl [C4]; · iexact C4
  isplitl [C5]; · iexact C5
  isplitl [C6]; · iexact C6
  isplitl [C7]; · iexact C7
  isplitl [C8]; · iexact C8
  isplitl [C9]; · iexact C9
  isplitl [C10]; · iexact C10
  isplitl [C11]; · iexact C11
  isplitl [C12]; · iexact C12
  isplitl [C13]; · iexact C13
  isplitl [C14]; · iexact C14
  isplitl [C15]; · iexact C15
  isplitl [C16]; · iexact C16
  isplitl [C17]; · iexact C17
  isplitl [C18]; · iexact C18
  isplitl [C19]; · iexact C19
  isplitl [C20]; · iexact C20
  isplitl [C21]; · iexact C21
  isplitl [C22]; · iexact C22
  isplitl [C23]; · iexact C23
  isplitl [C24]; · iexact C24
  isplitl [C25]; · iexact C25
  isplitl [C26]; · iexact C26
  isplitl [C27]; · iexact C27
  isplitl [C28]; · iexact C28
  isplitl [C29]; · iexact C29
  isplitl [C30]; · iexact C30
  isplitl [C31]; · iexact C31
  isplitl [C32]; · iexact C32
  isplitl [C33]; · iexact C33
  isplitl [C34]; · iexact C34
  isplitl [C35]; · iexact C35
  isplitl [C36]; · iexact C36
  isplitl [C37]; · iexact C37
  isplitl [C38]; · iexact C38
  isplitl [C39]; · iexact C39
  isplitl [C40]; · iexact C40
  isplitl [C41]; · iexact C41
  isplitl [C42]; · iexact C42
  isplitl [C43]; · iexact C43
  isplitl [C44]; · iexact C44
  isplitl [C45]; · iexact C45
  isplitl [C46]; · iexact C46
  isplitl [C47]; · iexact C47
  isplitl [C48]; · iexact C48
  isplitl [C49]; · iexact C49
  isplitl [C50]; · iexact C50
  isplitl [C51]; · iexact C51
  isplitl [C52]; · iexact C52
  isplitl [C53]; · iexact C53
  isplitl [C54]; · iexact C54
  isplitl [C55]; · iexact C55
  isplitl [C56]; · iexact C56
  isplitl [C57]; · iexact C57
  isplitl [C58]; · iexact C58
  isplitl [C59]; · iexact C59
  isplitl [C60]; · iexact C60
  isplitl [C61]; · iexact C61
  isplitl [C62]; · iexact C62
  isplitl [C63]; · iexact C63
  isplitl [C64]; · iexact C64
  isplitl [C65]; · iexact C65
  isplitl [C66]; · iexact C66
  isplitl [C67]; · iexact C67
  isplitl [C68]; · iexact C68
  isplitl [C69]; · iexact C69
  isplitl [C70]; · iexact C70
  isplitl [C71]; · iexact C71
  isplitl [C72]; · iexact C72
  isplitl [C73]; · iexact C73
  isplitl [C74]; · iexact C74
  isplitl [C75]; · iexact C75
  isplitl [C76]; · iexact C76
  isplitl [C77]; · iexact C77
  isplitl [C78]; · iexact C78
  isplitl [C79]; · iexact C79
  isplitl [C80]; · iexact C80
  isplitl [C81]; · iexact C81
  isplitl [C82]; · iexact C82
  isplitl [C83]; · iexact C83
  isplitl [C84]; · iexact C84
  isplitl [C85]; · iexact C85
  isplitl [C86]; · iexact C86
  isplitl [C87]; · iexact C87
  isplitl [C88]; · iexact C88
  isplitl [C89]; · iexact C89
  isplitl [C90]; · iexact C90
  isplitl [C91]; · iexact C91
  isplitl [C92]; · iexact C92
  isplitl [C93]; · iexact C93
  isplitl [C94]; · iexact C94
  isplitl [C95]; · iexact C95
  isplitl [C96]; · iexact C96
  isplitl [C97]; · iexact C97
  isplitl [C98]; · iexact C98
  isplitl [C99]; · iexact C99
  isplitl [C100]; · iexact C100
  isplitl [C101]; · iexact C101
  isplitl [C102]; · iexact C102
  isplitl [C103]; · iexact C103
  isplitl [C104]; · iexact C104
  isplitl [C105]; · iexact C105
  isplitl [C106]; · iexact C106
  isplitl [C107]; · iexact C107
  isplitl [C108]; · iexact C108
  isplitl [C109]; · iexact C109
  isplitl [C110]; · iexact C110
  isplitl [C111]; · iexact C111
  isplitl [C112]; · iexact C112
  isplitl [C113]; · iexact C113
  isplitl [C114]; · iexact C114
  isplitl [C115]; · iexact C115
  isplitl [C116]; · iexact C116
  isplitl [C117]; · iexact C117
  isplitl [C118]; · iexact C118
  isplitl [C119]; · iexact C119
  isplitl [C120]; · iexact C120
  isplitl [C121]; · iexact C121
  isplitl [C122]; · iexact C122
  isplitl [C123]; · iexact C123
  isplitl [C124]; · iexact C124
  isplitl [C125]; · iexact C125
  isplitl [C126]; · iexact C126
  isplitl [C127]; · iexact C127
  isplitl [C128]; · iexact C128
  isplitl [C129]; · iexact C129
  isplitl [C130]; · iexact C130
  isplitl [C131]; · iexact C131
  iexists _; iexact HW

/-- The kernel's triple in the form the launch takes it. -/
theorem gather_exec (c : Dev nD) : GatherExec (F := F) c :=
  fun t arg1 harg1 arg2 harg2 arg3 harg3 arg4 harg4 arg5 harg5 arg6 harg6 arg7 harg7 f1 f2 f3 f4 f5 f6 f7 hw1 hw2 W K =>
    gather_body c t arg1 harg1 arg2 harg2 arg3 harg3 arg4 harg4 arg5 harg5 arg6 harg6 arg7 harg7 f1 f2 f3 f4 f5 f6 f7 hw1 hw2 W K

end Cert.Kernel.Hand

end
-- ==== Proof.GatherValue.lean ====
/-
  Region 0's two output arrays after the region, as whole arrays over the extended reals: row b of output w is the padded
  table's row that word b of index table w names (the word read unsigned, reduced below 4200), every column of it.

  Each point t writes back rows 64·t … 64·t + 63 of either output, all 19200 columns: what it writes is block t of ONE
  whole-array function (`rowsOf`), because row x₀ of the rows gathered at point t is that function's row 64·t + x₀
  (a change of float format leaves an extended real as it is). Row b lies in the block of point b / 64, every point
  writes back, so the blocks cover the array and it ends holding that function.
-/
import proofs.«406060_j54142357733864_2_alg».proof.Proof.GatherDat
import Idealize.ShloMosaic.Lib.Pipeline.Value

noncomputable section

namespace Cert.KernelIdeal.Hand

open Idealize.ShloMosaic Idealize.ShloMosaic.TcCoe
open Idealize.SL Idealize.SL.Sem
open Idealize.ShloMosaic.Pipeline (Dat Cfg Window)
open Idealize.ShloMosaic.ValueIdx (ix1 ix2)
open Cert.KernelIdeal.Gen

/-! ## The two gathered arrays -/

section GatherValue

variable (a : (pcfg0 (F := Ideal)).Adm)
variable (V : (c : Dev nD) → (b : Ref sig .tc) → Buf (Elt Ideal) ((c : Thread nD τ).loc b))

/-- The table at the row an index table's word p names (reduced below 4200) and column q. -/
def rowAt (idx : Vec Ideal S8192 .i32) (tab : Vec Ideal S4200x19200 .f32) (p : Fin 8192) (q : Fin 19200) : EReal :=
  tab (ix2 (⟨(idx (ix1 p) : BitVec 32).toNat % 4200, Nat.mod_lt _ (by decide)⟩ : Fin 4200) q)

/-- The table's rows named by an index table's words, one per word: row b is row (idx b) of tab (reduced below 4200). -/
def rowsOf (idx : Vec Ideal S8192 .i32) (tab : Vec Ideal S4200x19200 .f32) : S8192x19200.Idx → EReal :=
  fun i => rowAt idx tab (i 0) (i 1)

/-- The block index of either output window at point t is (t, 0). -/
theorem blockIdx0 : ∀ t : Fin grid0.N, cc0_transform_1 (grid0.coords t) (0 : Fin 2) = t.val
    ∧ cc0_transform_1 (grid0.coords t) (1 : Fin 2) = 0
    ∧ cc0_transform_2 (grid0.coords t) (0 : Fin 2) = t.val
    ∧ cc0_transform_2 (grid0.coords t) (1 : Fin 2) = 0 := by decide +kernel

/-- Row x₀ of the rows gathered for point t is the whole-array row 64·t + x₀: the two read the table at one place. -/
theorem rows_at_point (idx : Vec Ideal S8192 .i32) (tab : Vec Ideal S4200x19200 .f32) (t : Fin grid0.N)
    (x : S64x19200.Idx) (i : S8192x19200.Idx) (h0 : (i 0).val = 64 * t.val + (x 0).val) (h1 : (i 1).val = (x 1).val) :
    gatherRows idx tab t x = rowsOf idx tab i := by
  have hw : wordPos t (x 0) = i 0 := Fin.ext h0.symm
  have hc : x 1 = i 1 := Fin.ext h1.symm
  show rowAt idx tab (wordPos t (x 0)) (x 1) = rowAt idx tab (i 0) (i 1)
  rw [hw, hc]

set_option maxHeartbeats 400000 in
/-- What point t writes back into the first output is block t of the first index table's rows (a change of float
    format leaves an extended real as it is). -/
theorem flushed_fst (c : Dev nD) (t : Fin (cfg0 a).N) :
    (dat0 a V c).flushed 0 t = (((cfg0 a).win 0).blk t).view.read (Elt Ideal) (rowsOf (V c main_v1) (V c main_v6)) := by
  show ((cfg0 a).win 0).cut (grid0.coords t) ((dat0 a V c).after 0 t) = _
  rw [after0_0]
  refine funext fun (j : S64x19200.Idx) => ?_
  show gatherRows (V c main_v1) (V c main_v6) t j
    = rowsOf (V c main_v1) (V c main_v6) ((((cfg0 a).win 0).blk t).view.emb j)
  obtain ⟨e0, e1, -, -⟩ := blockIdx0 t
  refine rows_at_point (V c main_v1) (V c main_v6) t _ _ ?_ ?_
  · show cc0_transform_1 (grid0.coords t) (0 : Fin 2) * 64 + 1 * (j 0).val = 64 * t.val + (j 0).val
    omega
  · show cc0_transform_1 (grid0.coords t) (1 : Fin 2) * 19200 + 1 * (j 1).val = (j 1).val
    omega

set_option maxHeartbeats 400000 in
/-- Row b of the first output lies in the block of point b / 64, and every point writes back. -/
theorem covered_fst (i : S8192x19200.Idx) :
    ∃ t : Fin (cfg0 a).N, ((cfg0 a).win 0).flush t = true
      ∧ (i : (((cfg0 a).win 0).blk t).view.ty.Idx) ∈ (((cfg0 a).win 0).blk t).view.set := by
  have hi0 : (i 0).val < 8192 := (i 0).isLt
  have hi1 : (i 1).val < 19200 := (i 1).isLt
  have hN : grid0.N = 128 := N_0
  have hlt : (i 0).val / 64 < grid0.N := by rw [hN]; omega
  obtain ⟨e0, e1, -, -⟩ := blockIdx0 ⟨(i 0).val / 64, hlt⟩
  have e0' : cc0_transform_1 (grid0.coords ⟨(i 0).val / 64, hlt⟩) (0 : Fin 2) = (i 0).val / 64 := e0
  refine ⟨⟨(i 0).val / 64, hlt⟩, flush0_0 a _, ?_⟩
  have h1 : (((cfg0 a).win 0).blk ⟨(i 0).val / 64, hlt⟩).view.set = (((cfg0 a).win 0).rect ⟨(i 0).val / 64, hlt⟩).set :=
    View.set_slice_whole main_v7_0 _
  refine (Finset.ext_iff.mp h1 i).mpr ?_
  refine Rect.mem_set_unit.mpr fun (d : Fin 2) => ?_
  match d with
  | ⟨0, _⟩ =>
    show cc0_transform_1 (grid0.coords ⟨(i 0).val / 64, hlt⟩) (0 : Fin 2) * 64 ≤ (i 0).val
      ∧ (i 0).val < cc0_transform_1 (grid0.coords ⟨(i 0).val / 64, hlt⟩) (0 : Fin 2) * 64 + 64
    omega
  | ⟨1, _⟩ =>
    show cc0_transform_1 (grid0.coords ⟨(i 0).val / 64, hlt⟩) (1 : Fin 2) * 19200 ≤ (i 1).val
      ∧ (i 1).val < cc0_transform_1 (grid0.coords ⟨(i 0).val / 64, hlt⟩) (1 : Fin 2) * 19200 + 19200
    omega

set_option maxHeartbeats 400000 in
/-- THE FIRST OUTPUT after the region: row b is the table's row the first index table's word b names. -/
theorem gathered_fst_eq (c : Dev nD) :
    (dat0 a V c).arrAt 0 (cfg0 a).N = rowsOf (V c main_v1) (V c main_v6) :=
  (dat0 a V c).arrAt_eq_of_cover 0 (rowsOf (V c main_v1) (V c main_v6)) (fun t _ => flushed_fst a V c t)
    (fun i => covered_fst a i)

set_option maxHeartbeats 400000 in
/-- What point t writes back into the second output is block t of the second index table's rows (a change of float
    format leaves an extended real as it is). -/
theorem flushed_snd (c : Dev nD) (t : Fin (cfg0 a).N) :
    (dat0 a V c).flushed 1 t = (((cfg0 a).win 1).blk t).view.read (Elt Ideal) (rowsOf (V c main_v3) (V c main_v6)) := by
  show ((cfg0 a).win 1).cut (grid0.coords t) ((dat0 a V c).after 1 t) = _
  rw [after0_1]
  refine funext fun (j : S64x19200.Idx) => ?_
  show gatherRows (V c main_v3) (V c main_v6) t j
    = rowsOf (V c main_v3) (V c main_v6) ((((cfg0 a).win 1).blk t).view.emb j)
  obtain ⟨-, -, e0, e1⟩ := blockIdx0 t
  refine rows_at_point (V c main_v3) (V c main_v6) t _ _ ?_ ?_
  · show cc0_transform_2 (grid0.coords t) (0 : Fin 2) * 64 + 1 * (j 0).val = 64 * t.val + (j 0).val
    omega
  · show cc0_transform_2 (grid0.coords t) (1 : Fin 2) * 19200 + 1 * (j 1).val = (j 1).val
    omega

set_option maxHeartbeats 400000 in
/-- Row b of the second output lies in the block of point b / 64, and every point writes back. -/
theorem covered_snd (i : S8192x19200.Idx) :
    ∃ t : Fin (cfg0 a).N, ((cfg0 a).win 1).flush t = true
      ∧ (i : (((cfg0 a).win 1).blk t).view.ty.Idx) ∈ (((cfg0 a).win 1).blk t).view.set := by
  have hi0 : (i 0).val < 8192 := (i 0).isLt
  have hi1 : (i 1).val < 19200 := (i 1).isLt
  have hN : grid0.N = 128 := N_0
  have hlt : (i 0).val / 64 < grid0.N := by rw [hN]; omega
  obtain ⟨-, -, e0, e1⟩ := blockIdx0 ⟨(i 0).val / 64, hlt⟩
  have e0' : cc0_transform_2 (grid0.coords ⟨(i 0).val / 64, hlt⟩) (0 : Fin 2) = (i 0).val / 64 := e0
  refine ⟨⟨(i 0).val / 64, hlt⟩, flush0_1 a _, ?_⟩
  have h1 : (((cfg0 a).win 1).blk ⟨(i 0).val / 64, hlt⟩).view.set = (((cfg0 a).win 1).rect ⟨(i 0).val / 64, hlt⟩).set :=
    View.set_slice_whole main_v7_1 _
  refine (Finset.ext_iff.mp h1 i).mpr ?_
  refine Rect.mem_set_unit.mpr fun (d : Fin 2) => ?_
  match d with
  | ⟨0, _⟩ =>
    show cc0_transform_2 (grid0.coords ⟨(i 0).val / 64, hlt⟩) (0 : Fin 2) * 64 ≤ (i 0).val
      ∧ (i 0).val < cc0_transform_2 (grid0.coords ⟨(i 0).val / 64, hlt⟩) (0 : Fin 2) * 64 + 64
    omega
  | ⟨1, _⟩ =>
    show cc0_transform_2 (grid0.coords ⟨(i 0).val / 64, hlt⟩) (1 : Fin 2) * 19200 ≤ (i 1).val
      ∧ (i 1).val < cc0_transform_2 (grid0.coords ⟨(i 0).val / 64, hlt⟩) (1 : Fin 2) * 19200 + 19200
    omega

set_option maxHeartbeats 400000 in
/-- THE SECOND OUTPUT after the region: row b is the table's row the second index table's word b names. -/
theorem gathered_snd_eq (c : Dev nD) :
    (dat0 a V c).arrAt 1 (cfg0 a).N = rowsOf (V c main_v3) (V c main_v6) :=
  (dat0 a V c).arrAt_eq_of_cover 1 (rowsOf (V c main_v3) (V c main_v6)) (fun t _ => flushed_snd a V c t)
    (fun i => covered_snd a i)

/-- The first output at (b, j): the padded table at the row word b of the first index table names, column j. -/
theorem gathered_fst (c : Dev nD) (b : Fin 8192) (j : Fin 19200) :
    ((dat0 a V c).arrAt 0 (cfg0 a).N : S8192x19200.Idx → EReal) (ix2 b j)
      = (V c main_v6 : S4200x19200.Idx → EReal)
          (ix2 (⟨(V c main_v1 (ix1 b) : BitVec 32).toNat % 4200, Nat.mod_lt _ (by decide)⟩ : Fin 4200) j) := by
  rw [gathered_fst_eq]; rfl

/-- The second output at (b, j): the padded table at the row word b of the second index table names, column j. -/
theorem gathered_snd (c : Dev nD) (b : Fin 8192) (j : Fin 19200) :
    ((dat0 a V c).arrAt 1 (cfg0 a).N : S8192x19200.Idx → EReal) (ix2 b j)
      = (V c main_v6 : S4200x19200.Idx → EReal)
          (ix2 (⟨(V c main_v3 (ix1 b) : BitVec 32).toNat % 4200, Nat.mod_lt _ (by decide)⟩ : Fin 4200) j) := by
  rw [gathered_snd_eq]; rfl

end GatherValue

end Cert.KernelIdeal.Hand

end
-- ==== Proof.HostOperands.lean ====
/-
  The arrays the host prepares for the two kernels, read at an index, on the extended reals.
  The table is padded on the right from 19000 to 19200 columns with the value of the integer constant 0 converted
  to a float, which is the real number 0: a padded entry is the table's entry left of column 19000 and 0 from there on.
-/
import proofs.«406060_j54142357733864_2_alg».proof.Proof.Gen.KernelIdeal.Regions
import Idealize.ShloMosaic.Lib.StableHlo.Run
import Idealize.ShloMosaic.Lib.ValueIdx
import Idealize.ShloMosaic.Lib.Pipeline.Value
import Idealize.ShloMosaic.Lib.KernelVsHost
import Idealize.ShloMosaic.PureOps.Ideal.Laws

noncomputable section

namespace Cert.KernelIdeal.Hand

open Idealize.ShloMosaic Idealize.ShloMosaic.TcCoe Idealize.SL.Sem Cert.KernelIdeal Cert.KernelIdeal.Gen ValueIdx

variable (m : (ℓ : Loc nD τ sig) → Buf (Elt Ideal) ℓ)

/-- The padded table as the operations compose it from the launch memory. -/
theorem paddedTable_eq (c : Dev nD) :
    V2 m c (Proc.devRef .tc main_v6)
      = (pad S4200x19200 ![0, 0] ![0, 200] ![0, 0] (m ((c : Thread nD τ).loc main_arg0))
          (sitofp (F := Ideal) .f32 (constantI S_ 32 0#32)) pads_S4200x19000_S4200x19200_000_02000 h_S_ : S4200x19200.Idx → EReal) := by
  dsimp only [V2, V1, V0, hostOps0_1, hostOps0]; after_results; rfl

/-- Left of column 19000 the padded table is the table. -/
theorem paddedTable_lo (c : Dev nD) (r : Fin 4200) (j : Fin 19200) (hj : j.val < 19000) :
    V2 m c (Proc.devRef .tc main_v6) (ix2 r j) = m ((c : Thread nD τ).loc main_arg0) (ix2 r (⟨j.val, hj⟩ : Fin 19000)) := by
  rw [paddedTable_eq]
  exact pad_apply_of_inside _ _ _ _ _ _ _ (ix2 r j) (ix2 r (⟨j.val, hj⟩ : Fin 19000)) (fun a => by
    match a with
    | ⟨0, _⟩ => show r.val = 0 + r.val * (0 + 1); omega
    | ⟨1, _⟩ => show j.val = 0 + j.val * (0 + 1); omega)

/-- From column 19000 on the padded table is 0. -/
theorem paddedTable_hi (c : Dev nD) (r : Fin 4200) (j : Fin 19200) (hj : 19000 ≤ j.val) :
    V2 m c (Proc.devRef .tc main_v6) (ix2 r j) = (0 : EReal) := by
  rw [paddedTable_eq]
  refine (pad_apply_of_not_inside _ _ _ _ _ _ _ (ix2 r j) (1 : Fin 2) ?_).trans ?_
  · rintro ⟨-, -, h3⟩
    have h3' : (j.val - 0) / (0 + 1) < 19000 := h3
    omega
  · show (((0#32 : BitVec 32).toInt : ℝ) : EReal) = (0 : EReal)
    have h0 : (0#32 : BitVec 32).toInt = 0 := by decide
    rw [h0]; simp

/-! ## The dense layers' operands when the second kernel is entered

  Whatever the first kernel leaves in its own result buffers (`outs`), the operands below are made from the
  arguments alone: the two concentration columns are slices of conc; the first layer's weight is W0's first 19000
  rows padded below with 200 rows of 0 (its change of float format is the identity on the extended reals); the
  concentration's weight row is W0's last row; the biases are reshaped to one row; W1 and W2 change format only. -/

variable (outs : Outs (F := Ideal))

/-- On the extended reals a change of float format leaves every entry as it is. -/
theorem truncf_apply {s : Shape} {φ ψ : FTy} (x : FVec Ideal s φ) (h : ψ.bits < φ.bits) (i : s.Idx) :
    (truncf (F := Ideal) ψ x h i : EReal) = (x i : EReal) := rfl

/-- An argument buffer still holds its launch contents when the second kernel is entered. -/
theorem V3_arg (c : Dev nD) (r : Ref sig .tc) (h3 : r ∉ ([main_v7_0, main_v7_1, main_v6] : List (Ref sig .tc)))
    (h2 : r ∉ hostOps0_1_W) (h1 : r ∉ hostOps0_W) : V3 m outs c (Proc.devRef .tc r) = m ((c : Thread nD τ).loc r) :=
  (V3_of m outs c r h3).trans <| (V2_of m c r h2).trans <| (V1_of m c r h1).trans rfl

/-- Column 1 of conc, as an [8192, 1] array. -/
theorem conc1_apply (c : Dev nD) (b : Fin 8192) :
    V6 m outs c (Proc.devRef .tc main_v4) (ix2 b (0 : Fin 1)) = m ((c : Thread nD τ).loc main_arg2) (ix2 b (1 : Fin 3)) := by
  rw [V6_of m outs c main_v4 (by decide), V5_of m outs c main_v4 (by decide), V4_of m outs c main_v4 (by decide),
    V3_of m outs c main_v4 (by decide), V2_of m c main_v4 (by decide)]
  have e : V1 m c (Proc.devRef .tc main_v4)
      = (extractStridedSlice S8192x1 ![0, 1] (m ((c : Thread nD τ).loc main_arg2)) slices_S8192x3_S8192x1_0_1 : S8192x1.Idx → EReal) := by
    dsimp only [V1, V0, hostOps0]; after_results
  rw [e]
  exact extractStridedSlice_apply _ _ _ (ix2 b (0 : Fin 1)) (ix2 b (1 : Fin 3)) (fun a => by
    match a with
    | ⟨0, _⟩ => show b.val = 0 + b.val; omega
    | ⟨1, _⟩ => rfl)

/-- Column 2 of conc, as an [8192, 1] array. -/
theorem conc2_apply (c : Dev nD) (b : Fin 8192) :
    V6 m outs c (Proc.devRef .tc main_v5) (ix2 b (0 : Fin 1)) = m ((c : Thread nD τ).loc main_arg2) (ix2 b (2 : Fin 3)) := by
  rw [V6_of m outs c main_v5 (by decide), V5_of m outs c main_v5 (by decide), V4_of m outs c main_v5 (by decide),
    V3_of m outs c main_v5 (by decide), V2_of m c main_v5 (by decide)]
  have e : V1 m c (Proc.devRef .tc main_v5)
      = (extractStridedSlice S8192x1 ![0, 2] (m ((c : Thread nD τ).loc main_arg2)) slices_S8192x3_S8192x1_0_2 : S8192x1.Idx → EReal) := by
    dsimp only [V1, V0, hostOps0]; after_results
  rw [e]
  exact extractStridedSlice_apply _ _ _ (ix2 b (0 : Fin 1)) (ix2 b (2 : Fin 3)) (fun a => by
    match a with
    | ⟨0, _⟩ => show b.val = 0 + b.val; omega
    | ⟨1, _⟩ => rfl)

/-- The padded first-layer weight as the operations compose it. -/
theorem paddedW0_eq (c : Dev nD) :
    V6 m outs c (Proc.devRef .tc main_v10)
      = (truncf (F := Ideal) .bf16 (pad S19200x1024 ![0, 0] ![200, 0] ![0, 0]
          (extractStridedSlice S19000x1024 ![0, 0] (m ((c : Thread nD τ).loc main_arg3)) slices_S19001x1024_S19000x1024_0_0)
          (sitofp (F := Ideal) .f32 (constantI S_ 32 0#32)) pads_S19000x1024_S19200x1024_02000_000 h_S_) bitsLt_bf16_f32
        : S19200x1024.Idx → EReal) := by
  have e3 := V3_arg m outs c main_arg3 (by decide) (by decide) (by decide)
  dsimp only [V6, V5, V4, hostOps1_2, hostOps1_1, hostOps1]; after_results
  rw [e3]; rfl

/-- Above row 19000 the padded weight is W0. -/
theorem paddedW0_lo (c : Dev nD) (j : Fin 19200) (n : Fin 1024) (hj : j.val < 19000) :
    V6 m outs c (Proc.devRef .tc main_v10) (ix2 j n)
      = m ((c : Thread nD τ).loc main_arg3) (ix2 (⟨j.val, by omega⟩ : Fin 19001) n) := by
  rw [paddedW0_eq, truncf_apply]
  refine (pad_apply_of_inside _ _ _ _ _ _ _ (ix2 j n) (ix2 (⟨j.val, hj⟩ : Fin 19000) n) (fun a => by
    match a with
    | ⟨0, _⟩ => show j.val = 0 + j.val * (0 + 1); omega
    | ⟨1, _⟩ => show n.val = 0 + n.val * (0 + 1); omega)).trans ?_
  exact extractStridedSlice_apply _ _ _ (ix2 (⟨j.val, hj⟩ : Fin 19000) n) (ix2 (⟨j.val, by omega⟩ : Fin 19001) n) (fun a => by
    match a with
    | ⟨0, _⟩ => show j.val = 0 + j.val; omega
    | ⟨1, _⟩ => show n.val = 0 + n.val; omega)

/-- From row 19000 on the padded weight is 0. -/
theorem paddedW0_hi (c : Dev nD) (j : Fin 19200) (n : Fin 1024) (hj : 19000 ≤ j.val) :
    V6 m outs c (Proc.devRef .tc main_v10) (ix2 j n) = (0 : EReal) := by
  rw [paddedW0_eq, truncf_apply]
  refine (pad_apply_of_not_inside _ _ _ _ _ _ _ (ix2 j n) (0 : Fin 2) ?_).trans ?_
  · rintro ⟨-, -, h3⟩
    have h3' : (j.val - 0) / (0 + 1) < 19000 := h3
    omega
  · show (((0#32 : BitVec 32).toInt : ℝ) : EReal) = (0 : EReal)
    have h0 : (0#32 : BitVec 32).toInt = 0 := by decide
    rw [h0]; simp

/-- The concentration's weight row: row 19000 of W0, as a [1, 1024] array. -/
theorem concW_apply (c : Dev nD) (n : Fin 1024) :
    V6 m outs c (Proc.devRef .tc main_v11) (ix2 (0 : Fin 1) n)
      = m ((c : Thread nD τ).loc main_arg3) (ix2 (⟨19000, by omega⟩ : Fin 19001) n) := by
  have e3 := V3_arg m outs c main_arg3 (by decide) (by decide) (by decide)
  have e : V6 m outs c (Proc.devRef .tc main_v11)
      = (extractStridedSlice S1x1024 ![19000, 0] (m ((c : Thread nD τ).loc main_arg3)) slices_S19001x1024_S1x1024_19000_0 : S1x1024.Idx → EReal) := by
    dsimp only [V6, V5, V4, hostOps1_2, hostOps1_1, hostOps1]; after_results
    rw [e3]
  rw [e]
  exact extractStridedSlice_apply _ _ _ (ix2 (0 : Fin 1) n) (ix2 (⟨19000, by omega⟩ : Fin 19001) n) (fun a => by
    match a with
    | ⟨0, _⟩ => rfl
    | ⟨1, _⟩ => show n.val = 0 + n.val; omega)

end Cert.KernelIdeal.Hand

end
-- ==== Proof.HostOperandsB.lean ====
/-
  The remaining operands of the dense layers, read at an index on the extended reals: each bias vector is reshaped
  to a one-row matrix, and the second and third layers' weights only change float format.
-/
import proofs.«406060_j54142357733864_2_alg».proof.Proof.HostOperands

noncomputable section

namespace Cert.KernelIdeal.Hand

open Idealize.ShloMosaic Idealize.ShloMosaic.TcCoe Idealize.SL.Sem Cert.KernelIdeal Cert.KernelIdeal.Gen ValueIdx

variable (m : (ℓ : Loc nD τ sig) → Buf (Elt Ideal) ℓ) (outs : Outs (F := Ideal))

/-- bias0_apply: the bias reshaped to one row. -/
theorem bias0_apply (c : Dev nD) (n : Fin 1024) :
    V6 m outs c (Proc.devRef .tc main_v12) (ix2 (0 : Fin 1) n) = m ((c : Thread nD τ).loc main_arg4) (ix1 n) := by
  have ea := V3_arg m outs c main_arg4 (by decide) (by decide) (by decide)
  have e : V6 m outs c (Proc.devRef .tc main_v12)
      = (shapeCast S1x1024 (m ((c : Thread nD τ).loc main_arg4)) shapeCasts_S1024_S1x1024 : S1x1024.Idx → EReal) := by
    dsimp only [V6, V5, V4, hostOps1_2, hostOps1_1, hostOps1]; after_results
    rw [ea]; try rfl
  rw [e]
  refine shapeCast_apply _ _ (ix2 (0 : Fin 1) n) (ix1 n) ?_
  rw [Shape.rowMajor_val_two, Shape.rowMajor_val_one]; show n.val = 0 * 1024 + n.val; omega

/-- bias1_apply: the bias reshaped to one row. -/
theorem bias1_apply (c : Dev nD) (n : Fin 512) :
    V6 m outs c (Proc.devRef .tc main_v14) (ix2 (0 : Fin 1) n) = m ((c : Thread nD τ).loc main_arg6) (ix1 n) := by
  have ea := V3_arg m outs c main_arg6 (by decide) (by decide) (by decide)
  have e : V6 m outs c (Proc.devRef .tc main_v14)
      = (shapeCast S1x512 (m ((c : Thread nD τ).loc main_arg6)) shapeCasts_S512_S1x512 : S1x512.Idx → EReal) := by
    dsimp only [V6, V5, V4, hostOps1_2, hostOps1_1, hostOps1]; after_results
    rw [ea]; try rfl
  rw [e]
  refine shapeCast_apply _ _ (ix2 (0 : Fin 1) n) (ix1 n) ?_
  rw [Shape.rowMajor_val_two, Shape.rowMajor_val_one]; show n.val = 0 * 512 + n.val; omega

/-- bias2_apply: the bias reshaped to one row. -/
theorem bias2_apply (c : Dev nD) (n : Fin 128) :
    V6 m outs c (Proc.devRef .tc main_v16) (ix2 (0 : Fin 1) n) = m ((c : Thread nD τ).loc main_arg8) (ix1 n) := by
  have ea := V3_arg m outs c main_arg8 (by decide) (by decide) (by decide)
  have e : V6 m outs c (Proc.devRef .tc main_v16)
      = (shapeCast S1x128 (m ((c : Thread nD τ).loc main_arg8)) shapeCasts_S128_S1x128 : S1x128.Idx → EReal) := by
    dsimp only [V6, V5, V4, hostOps1_2, hostOps1_1, hostOps1]; after_results
    rw [ea]; try rfl
  rw [e]
  refine shapeCast_apply _ _ (ix2 (0 : Fin 1) n) (ix1 n) ?_
  rw [Shape.rowMajor_val_two, Shape.rowMajor_val_one]; show n.val = 0 * 128 + n.val; omega

/-- weight1_apply: the weight with its float format changed, which is the identity on the extended reals. -/
theorem weight1_apply (c : Dev nD) (i : Fin 1024) (j : Fin 512) :
    V6 m outs c (Proc.devRef .tc main_v13) (ix2 i j) = m ((c : Thread nD τ).loc main_arg5) (ix2 i j) := by
  have ea := V3_arg m outs c main_arg5 (by decide) (by decide) (by decide)
  have e : V6 m outs c (Proc.devRef .tc main_v13)
      = (truncf (F := Ideal) .bf16 (m ((c : Thread nD τ).loc main_arg5)) bitsLt_bf16_f32 : S1024x512.Idx → EReal) := by
    dsimp only [V6, V5, V4, hostOps1_2, hostOps1_1, hostOps1]; after_results
    rw [ea]; try rfl
  rw [e, truncf_apply]

/-- weight2_apply: the weight with its float format changed, which is the identity on the extended reals. -/
theorem weight2_apply (c : Dev nD) (i : Fin 512) (j : Fin 128) :
    V6 m outs c (Proc.devRef .tc main_v15) (ix2 i j) = m ((c : Thread nD τ).loc main_arg7) (ix2 i j) := by
  have ea := V3_arg m outs c main_arg7 (by decide) (by decide) (by decide)
  have e : V6 m outs c (Proc.devRef .tc main_v15)
      = (truncf (F := Ideal) .bf16 (m ((c : Thread nD τ).loc main_arg7)) bitsLt_bf16_f32 : S512x128.Idx → EReal) := by
    dsimp only [V6, V5, V4, hostOps1_2, hostOps1_1, hostOps1]; after_results
    rw [ea]; try rfl
  rw [e, truncf_apply]

end Cert.KernelIdeal.Hand

end
-- ==== Proof.PayloadRead.lean ====
/-
  The second call's payloads read at one element, on the extended reals.

  Each value the body of the tiled two-stream network stores is, at a row r of the batch tile and a
  column of the layer, an expression in the elements of the blocks it loaded: the accumulator step
  adds to what was there the sum over the tile's 1920 positions of activation times weight; the
  epilogue adds the concentration times its weight row and the bias, clips at zero, takes the two
  further layers as sums over 1024 and 512 positions with their biases (the second clipped at zero,
  the third not), and sums the 128 products of the two streams' embeddings. A change of float
  format is the identity on the extended reals, a cast to the same shape is the identity, a
  broadcast reads its one row or column, and a product into the zero fill is the bare sum.
-/
import proofs.«406060_j54142357733864_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Idealize.ShloMosaic Idealize.ShloMosaic.ValueIdx Cert.KernelIdeal Cert.KernelIdeal.Gen

/-! ## Small readings -/

/-- One column spread over b columns reads, at (p, c), the column's entry of row p. -/
theorem spread_col_apply {a b : ℕ} {α : Type} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The all-zero f32 word, spread over a vector, reads the extended real zero everywhere. -/
theorem zero_fill_apply {s : Shape} (i : s.Idx) :
    broadcast (α := Ideal .f32) s (Scalar.ofBits .f32 0x00000000#32) i = 0 := by
  rw [broadcast_apply]
  exact Ideal.ofBits_zero_f32

/-- The sum along the 128 lanes of a [512, 128] vector, at row r. -/
theorem lane_sum_apply (src : FVec Ideal S512x128 .f32) (hφ : FKind.Formats .f32)
    (hacc : (0x00000000#32 : BitVec FTy.f32.bits) = FKind.add.neutral .f32 hφ) (r : Fin 512) :
    multiReduction (F := Ideal) .add [1] S512 src 0x00000000#32 reduces_S512x128_S512 hφ hacc (ix1 r)
      = ∑ q : Fin 128, src (ix2 r q) := by
  refine (Ideal.multiReduction_add_single src _ reduces_S512x128_S512 hφ hacc (ix1 r)).trans ?_
  refine Finset.sum_congr rfl fun q _ => congrArg src ?_
  funext a
  match a with
  | ⟨0, _⟩ => rfl
  | ⟨1, _⟩ => rfl

/-! ## The three products, each into the zero fill, at one element -/

theorem tile_lhs_row (j : S512x1024.Idx) (q : dot_S512x1920_S1920x1024_S512x1024_1_0_0_1_n_n.contr.Idx) :
    (dot_S512x1920_S1920x1024_S512x1024_1_0_0_1_n_n.lhsIdx j q 0).val = (j 0).val := by
  unfold DotDims.lhsIdx
  rw [dif_neg (show ¬(0 : Fin S512x1920.rank) ∈ dot_S512x1920_S1920x1024_S512x1024_1_0_0_1_n_n.lhsBatch by decide),
    dif_pos (show (0 : Fin S512x1920.rank) ∈ dot_S512x1920_S1920x1024_S512x1024_1_0_0_1_n_n.lhsNonContracting by decide)]
  rfl
theorem tile_lhs_col (j : S512x1024.Idx) (q : dot_S512x1920_S1920x1024_S512x1024_1_0_0_1_n_n.contr.Idx) :
    (dot_S512x1920_S1920x1024_S512x1024_1_0_0_1_n_n.lhsIdx j q 1).val = (q ⟨0, by decide⟩).val :=
  dot_S512x1920_S1920x1024_S512x1024_1_0_0_1_n_n.lhsIdx_val_of_single rfl j q
theorem tile_rhs_row (j : S512x1024.Idx) (q : dot_S512x1920_S1920x1024_S512x1024_1_0_0_1_n_n.contr.Idx) :
    (dot_S512x1920_S1920x1024_S512x1024_1_0_0_1_n_n.rhsIdx j q 0).val = (q ⟨0, by decide⟩).val :=
  dot_S512x1920_S1920x1024_S512x1024_1_0_0_1_n_n.rhsIdx_val_of_single rfl j q
theorem tile_rhs_col (j : S512x1024.Idx) (q : dot_S512x1920_S1920x1024_S512x1024_1_0_0_1_n_n.contr.Idx) :
    (dot_S512x1920_S1920x1024_S512x1024_1_0_0_1_n_n.rhsIdx j q 1).val = (j 1).val := by
  unfold DotDims.rhsIdx
  rw [dif_neg (show ¬(1 : Fin S1920x1024.rank) ∈ dot_S512x1920_S1920x1024_S512x1024_1_0_0_1_n_n.rhsBatch by decide),
    dif_pos (show (1 : Fin S1920x1024.rank) ∈ dot_S512x1920_S1920x1024_S512x1024_1_0_0_1_n_n.rhsNonContracting by decide)]
  rfl

/-- The tile's product, [512, 1920] times [1920, 1024], at row r and column c: the sum over the tile's 1920 positions. -/
theorem tile_matmul_apply {φ₁ φ₂ : FTy} (x : FVec Ideal S512x1920 φ₁) (w : FVec Ideal S1920x1024 φ₂) (r : Fin 512) (c : Fin 1024) :
    FloatOps.matmul dot_S512x1920_S1920x1024_S512x1024_1_0_0_1_n_n none x w (constant (F := Ideal) S512x1024 .f32 0x00000000#32) (ix2 r c)
      = ∑ l : Fin 1920, x (ix2 r l) * w (ix2 l c) := by
  rw [Ideal.matmul_constant_zero_apply,
    ← Equiv.sum_comp (contrEquiv1 dot_S512x1920_S1920x1024_S512x1024_1_0_0_1_n_n 1920 rfl rfl).symm]
  refine Finset.sum_congr rfl fun l _ => ?_
  have hl := contrEquiv1_symm_val dot_S512x1920_S1920x1024_S512x1024_1_0_0_1_n_n 1920 rfl rfl l
  have el : dot_S512x1920_S1920x1024_S512x1024_1_0_0_1_n_n.lhsIdx (ix2 r c)
      ((contrEquiv1 dot_S512x1920_S1920x1024_S512x1024_1_0_0_1_n_n 1920 rfl rfl).symm l) = ix2 r l :=
    funext fun a => Fin.ext (by
      match a with
      | ⟨0, _⟩ => exact tile_lhs_row _ _
      | ⟨1, _⟩ => exact (tile_lhs_col _ _).trans hl)
  have er : dot_S512x1920_S1920x1024_S512x1024_1_0_0_1_n_n.rhsIdx (ix2 r c)
      ((contrEquiv1 dot_S512x1920_S1920x1024_S512x1024_1_0_0_1_n_n 1920 rfl rfl).symm l) = ix2 l c :=
    funext fun a => Fin.ext (by
      match a with
      | ⟨0, _⟩ => exact (tile_rhs_row _ _).trans hl
      | ⟨1, _⟩ => exact tile_rhs_col _ _)
  rw [el, er]

theorem mid_lhs_row (j : S512x512.Idx) (q : dot_S512x1024_S1024x512_S512x512_1_0_0_1_n_n.contr.Idx) :
    (dot_S512x1024_S1024x512_S512x512_1_0_0_1_n_n.lhsIdx j q 0).val = (j 0).val := by
  unfold DotDims.lhsIdx
  rw [dif_neg (show ¬(0 : Fin S512x1024.rank) ∈ dot_S512x1024_S1024x512_S512x512_1_0_0_1_n_n.lhsBatch by decide),
    dif_pos (show (0 : Fin S512x1024.rank) ∈ dot_S512x1024_S1024x512_S512x512_1_0_0_1_n_n.lhsNonContracting by decide)]
  rfl
theorem mid_lhs_col (j : S512x512.Idx) (q : dot_S512x1024_S1024x512_S512x512_1_0_0_1_n_n.contr.Idx) :
    (dot_S512x1024_S1024x512_S512x512_1_0_0_1_n_n.lhsIdx j q 1).val = (q ⟨0, by decide⟩).val :=
  dot_S512x1024_S1024x512_S512x512_1_0_0_1_n_n.lhsIdx_val_of_single rfl j q
theorem mid_rhs_row (j : S512x512.Idx) (q : dot_S512x1024_S1024x512_S512x512_1_0_0_1_n_n.contr.Idx) :
    (dot_S512x1024_S1024x512_S512x512_1_0_0_1_n_n.rhsIdx j q 0).val = (q ⟨0, by decide⟩).val :=
  dot_S512x1024_S1024x512_S512x512_1_0_0_1_n_n.rhsIdx_val_of_single rfl j q
theorem mid_rhs_col (j : S512x512.Idx) (q : dot_S512x1024_S1024x512_S512x512_1_0_0_1_n_n.contr.Idx) :
    (dot_S512x1024_S1024x512_S512x512_1_0_0_1_n_n.rhsIdx j q 1).val = (j 1).val := by
  unfold DotDims.rhsIdx
  rw [dif_neg (show ¬(1 : Fin S1024x512.rank) ∈ dot_S512x1024_S1024x512_S512x512_1_0_0_1_n_n.rhsBatch by decide),
    dif_pos (show (1 : Fin S1024x512.rank) ∈ dot_S512x1024_S1024x512_S512x512_1_0_0_1_n_n.rhsNonContracting by decide)]
  rfl

/-- The second layer's product, [512, 1024] times [1024, 512], at row r and column c: the sum over the 1024 hidden units. -/
theorem mid_matmul_apply {φ₁ φ₂ : FTy} (x : FVec Ideal S512x1024 φ₁) (w : FVec Ideal S1024x512 φ₂) (r : Fin 512) (c : Fin 512) :
    FloatOps.matmul dot_S512x1024_S1024x512_S512x512_1_0_0_1_n_n none x w (constant (F := Ideal) S512x512 .f32 0x00000000#32) (ix2 r c)
      = ∑ l : Fin 1024, x (ix2 r l) * w (ix2 l c) := by
  rw [Ideal.matmul_constant_zero_apply,
    ← Equiv.sum_comp (contrEquiv1 dot_S512x1024_S1024x512_S512x512_1_0_0_1_n_n 1024 rfl rfl).symm]
  refine Finset.sum_congr rfl fun l _ => ?_
  have hl := contrEquiv1_symm_val dot_S512x1024_S1024x512_S512x512_1_0_0_1_n_n 1024 rfl rfl l
  have el : dot_S512x1024_S1024x512_S512x512_1_0_0_1_n_n.lhsIdx (ix2 r c)
      ((contrEquiv1 dot_S512x1024_S1024x512_S512x512_1_0_0_1_n_n 1024 rfl rfl).symm l) = ix2 r l :=
    funext fun a => Fin.ext (by
      match a with
      | ⟨0, _⟩ => exact mid_lhs_row _ _
      | ⟨1, _⟩ => exact (mid_lhs_col _ _).trans hl)
  have er : dot_S512x1024_S1024x512_S512x512_1_0_0_1_n_n.rhsIdx (ix2 r c)
      ((contrEquiv1 dot_S512x1024_S1024x512_S512x512_1_0_0_1_n_n 1024 rfl rfl).symm l) = ix2 l c :=
    funext fun a => Fin.ext (by
      match a with
      | ⟨0, _⟩ => exact (mid_rhs_row _ _).trans hl
      | ⟨1, _⟩ => exact mid_rhs_col _ _)
  rw [el, er]

theorem last_lhs_row (j : S512x128.Idx) (q : dot_S512x512_S512x128_S512x128_1_0_0_1_n_n.contr.Idx) :
    (dot_S512x512_S512x128_S512x128_1_0_0_1_n_n.lhsIdx j q 0).val = (j 0).val := by
  unfold DotDims.lhsIdx
  rw [dif_neg (show ¬(0 : Fin S512x512.rank) ∈ dot_S512x512_S512x128_S512x128_1_0_0_1_n_n.lhsBatch by decide),
    dif_pos (show (0 : Fin S512x512.rank) ∈ dot_S512x512_S512x128_S512x128_1_0_0_1_n_n.lhsNonContracting by decide)]
  rfl
theorem last_lhs_col (j : S512x128.Idx) (q : dot_S512x512_S512x128_S512x128_1_0_0_1_n_n.contr.Idx) :
    (dot_S512x512_S512x128_S512x128_1_0_0_1_n_n.lhsIdx j q 1).val = (q ⟨0, by decide⟩).val :=
  dot_S512x512_S512x128_S512x128_1_0_0_1_n_n.lhsIdx_val_of_single rfl j q
theorem last_rhs_row (j : S512x128.Idx) (q : dot_S512x512_S512x128_S512x128_1_0_0_1_n_n.contr.Idx) :
    (dot_S512x512_S512x128_S512x128_1_0_0_1_n_n.rhsIdx j q 0).val = (q ⟨0, by decide⟩).val :=
  dot_S512x512_S512x128_S512x128_1_0_0_1_n_n.rhsIdx_val_of_single rfl j q
theorem last_rhs_col (j : S512x128.Idx) (q : dot_S512x512_S512x128_S512x128_1_0_0_1_n_n.contr.Idx) :
    (dot_S512x512_S512x128_S512x128_1_0_0_1_n_n.rhsIdx j q 1).val = (j 1).val := by
  unfold DotDims.rhsIdx
  rw [dif_neg (show ¬(1 : Fin S512x128.rank) ∈ dot_S512x512_S512x128_S512x128_1_0_0_1_n_n.rhsBatch by decide),
    dif_pos (show (1 : Fin S512x128.rank) ∈ dot_S512x512_S512x128_S512x128_1_0_0_1_n_n.rhsNonContracting by decide)]
  rfl

/-- The third layer's product, [512, 512] times [512, 128], at row r and column c: the sum over the 512 hidden units. -/
theorem last_matmul_apply {φ₁ φ₂ : FTy} (x : FVec Ideal S512x512 φ₁) (w : FVec Ideal S512x128 φ₂) (r : Fin 512) (c : Fin 128) :
    FloatOps.matmul dot_S512x512_S512x128_S512x128_1_0_0_1_n_n none x w (constant (F := Ideal) S512x128 .f32 0x00000000#32) (ix2 r c)
      = ∑ l : Fin 512, x (ix2 r l) * w (ix2 l c) := by
  rw [Ideal.matmul_constant_zero_apply,
    ← Equiv.sum_comp (contrEquiv1 dot_S512x512_S512x128_S512x128_1_0_0_1_n_n 512 rfl rfl).symm]
  refine Finset.sum_congr rfl fun l _ => ?_
  have hl := contrEquiv1_symm_val dot_S512x512_S512x128_S512x128_1_0_0_1_n_n 512 rfl rfl l
  have el : dot_S512x512_S512x128_S512x128_1_0_0_1_n_n.lhsIdx (ix2 r c)
      ((contrEquiv1 dot_S512x512_S512x128_S512x128_1_0_0_1_n_n 512 rfl rfl).symm l) = ix2 r l :=
    funext fun a => Fin.ext (by
      match a with
      | ⟨0, _⟩ => exact last_lhs_row _ _
      | ⟨1, _⟩ => exact (last_lhs_col _ _).trans hl)
  have er : dot_S512x512_S512x128_S512x128_1_0_0_1_n_n.rhsIdx (ix2 r c)
      ((contrEquiv1 dot_S512x512_S512x128_S512x128_1_0_0_1_n_n 512 rfl rfl).symm l) = ix2 l c :=
    funext fun a => Fin.ext (by
      match a with
      | ⟨0, _⟩ => exact (last_rhs_row _ _).trans hl
      | ⟨1, _⟩ => exact last_rhs_col _ _)
  rw [el, er]

/-! ## The payloads -/

/-- The zero fill of the first accumulator. -/
theorem k1_pay1_apply (j : S512x1024.Idx) : k1_pay1 (F := Ideal) j = 0 := by
  unfold k1_pay1
  simp only [shapeCast_self]
  exact zero_fill_apply j

/-- The zero fill of the second accumulator. -/
theorem k1_pay2_apply (j : S512x1024.Idx) : k1_pay2 (F := Ideal) j = 0 := by
  unfold k1_pay2
  simp only [shapeCast_self]
  exact zero_fill_apply j

/-- One step of the first accumulator: what was there plus the tile's sum. -/
theorem k1_pay3_apply (a : FVec Ideal S512x1024 .f32) (x : FVec Ideal S512x1920 .bf16) (w : FVec Ideal S1920x1024 .bf16)
    (r : Fin 512) (c : Fin 1024) :
    k1_pay3 (F := Ideal) a x w (ix2 r c) = a (ix2 r c) + ∑ l : Fin 1920, x (ix2 r l) * w (ix2 l c) := by
  unfold k1_pay3
  simp only [shapeCast_self, matmul]
  rw [addf_apply, tile_matmul_apply]

/-- One step of the second accumulator. -/
theorem k1_pay4_apply (a : FVec Ideal S512x1024 .f32) (x : FVec Ideal S512x1920 .bf16) (w : FVec Ideal S1920x1024 .bf16)
    (r : Fin 512) (c : Fin 1024) :
    k1_pay4 (F := Ideal) a x w (ix2 r c) = a (ix2 r c) + ∑ l : Fin 1920, x (ix2 r l) * w (ix2 l c) := by
  unfold k1_pay4
  simp only [shapeCast_self, matmul]
  rw [addf_apply, tile_matmul_apply]

/-- The first hidden layer from a finished accumulator: the concentration times its weight row added,
    then the bias, clipped at zero. -/
def firstLayer (a : FVec Ideal S512x1024 .f32) (cc : FVec Ideal S512x1 .f32) (w0c b0 : FVec Ideal S1x1024 .f32)
    (r : Fin 512) (n : Fin 1024) : EReal :=
  max ((a (ix2 r n) + cc (ix2 r (0 : Fin 1)) * w0c (ix2 (0 : Fin 1) n)) + b0 (ix2 (0 : Fin 1) n)) 0

/-- The second stream's first hidden layer. -/
theorem k1_pay6_apply (a : FVec Ideal S512x1024 .f32) (cc : FVec Ideal S512x1 .f32) (w0c b0 : FVec Ideal S1x1024 .f32)
    (r : Fin 512) (n : Fin 1024) :
    k1_pay6 (F := Ideal) a cc w0c b0 (ix2 r n) = firstLayer a cc w0c b0 r n := by
  unfold k1_pay6 firstLayer
  simp only [shapeCast_self]
  rw [maximumf_apply, addf_apply, addf_apply, mulf_apply, spread_col_apply, broadcastTo_1b_ab_apply,
    broadcastTo_1b_ab_apply, zero_fill_apply]

/-- The first stream's first hidden layer times the second layer's weights. -/
theorem k1_pay7_apply (a : FVec Ideal S512x1024 .f32) (cc : FVec Ideal S512x1 .f32) (w0c b0 : FVec Ideal S1x1024 .f32)
    (w1 : FVec Ideal S1024x512 .bf16) (r : Fin 512) (p : Fin 512) :
    k1_pay7 (F := Ideal) a cc w0c b0 w1 (ix2 r p) = ∑ n : Fin 1024, firstLayer a cc w0c b0 r n * w1 (ix2 n p) := by
  unfold k1_pay7
  simp only [shapeCast_self, matmul]
  rw [mid_matmul_apply]
  refine Finset.sum_congr rfl fun n _ => ?_
  unfold firstLayer
  rw [truncf_apply, maximumf_apply, addf_apply, addf_apply, mulf_apply, spread_col_apply, broadcastTo_1b_ab_apply,
    broadcastTo_1b_ab_apply, zero_fill_apply]

/-- The second layer's bias spread over the rows. -/
theorem k1_pay8_apply (bb1 : FVec Ideal S1x512 .f32) (r : Fin 512) (p : Fin 512) :
    k1_pay8 (F := Ideal) bb1 (ix2 r p) = bb1 (ix2 (0 : Fin 1) p) := by
  unfold k1_pay8
  simp only [shapeCast_self]
  rw [broadcastTo_1b_ab_apply]

/-- The result block: the sum over the 128 coordinates of the product of the two streams'
    embeddings; h is the second stream's first hidden layer, m the first stream's second-layer
    product and β its spread bias. -/
theorem k1_pay5_apply (h : FVec Ideal S512x1024 .f32) (m β : FVec Ideal S512x512 .f32)
    (w1 : FVec Ideal S1024x512 .bf16) (bb1 : FVec Ideal S1x512 .f32) (w2 : FVec Ideal S512x128 .bf16) (bb2 : FVec Ideal S1x128 .f32)
    (w2' : FVec Ideal S512x128 .bf16) (bb2' : FVec Ideal S1x128 .f32) (r : Fin 512) :
    k1_pay5 (F := Ideal) h m β w1 bb1 w2 bb2 w2' bb2' (ix1 r)
      = ∑ q : Fin 128,
          ((∑ p : Fin 512, max (m (ix2 r p) + β (ix2 r p)) 0 * w2 (ix2 p q)) + bb2 (ix2 (0 : Fin 1) q))
          * ((∑ p : Fin 512, max ((∑ n : Fin 1024, h (ix2 r n) * w1 (ix2 n p)) + bb1 (ix2 (0 : Fin 1) p)) 0 * w2' (ix2 p q))
              + bb2' (ix2 (0 : Fin 1) q)) := by
  unfold k1_pay5
  simp only [shapeCast_self, matmul]
  refine (lane_sum_apply _ _ _ r).trans ?_
  refine Finset.sum_congr rfl fun q _ => ?_
  rw [mulf_apply, addf_apply, addf_apply, last_matmul_apply, last_matmul_apply, broadcastTo_1b_ab_apply, broadcastTo_1b_ab_apply]
  congr 2
  · refine Finset.sum_congr rfl fun p _ => ?_
    rw [truncf_apply, maximumf_apply, addf_apply, zero_fill_apply]
  · refine Finset.sum_congr rfl fun p _ => ?_
    rw [truncf_apply, maximumf_apply, addf_apply, mid_matmul_apply, broadcastTo_1b_ab_apply, zero_fill_apply]
    rfl

end Cert.KernelIdeal.Hand
-- ==== Proof.SumLaws.lean ====
/-
  Finite sums on the extended reals: the laws that carry the first-layer contraction, as the kernel
  arranges it (rows zero-padded from n to m columns, the padded width cut in blocks that a running
  total adds up one after another, the concentration column folded in afterwards as a rank-one term),
  to the reference's single sum over the n + 1 columns of the concatenated row.

  Everything here is algebra of a commutative additive monoid in which a product with a zero factor is
  zero; the extended reals are one (their sum is total, associative and commutative, and 0 * a = 0 for
  every a, the infinities included), so NO law below asks for finite entries.

  The hypotheses speak of positions through their values (j.val = ...), never through a particular
  proof of a bound, so that a caller instantiates them at an array read at an index.
-/
import Mathlib.Data.EReal.Inv
import Mathlib.Algebra.BigOperators.Fin
import Mathlib.Data.Fintype.BigOperators
import Mathlib.Logic.Equiv.Fin.Basic

open scoped BigOperators

namespace Cert.KernelIdeal.Hand

section Monoid
variable {M : Type*} [AddCommMonoid M]

/-- (i), additive form. A family on m positions that vanishes from position n on sums to what its
    first n positions sum to. -/
theorem sum_fin_zero_tail {n m : ℕ} (hnm : n ≤ m) (f : Fin m → M) (g : Fin n → M)
    (hlo : ∀ (j : Fin m) (j' : Fin n), j.val = j'.val → f j = g j')
    (hhi : ∀ j : Fin m, n ≤ j.val → f j = 0) :
    ∑ j, f j = ∑ j, g j := by
  obtain ⟨d, rfl⟩ := Nat.exists_eq_add_of_le hnm
  rw [Fin.sum_univ_add]
  have htail : ∑ i : Fin d, f (Fin.natAdd n i) = 0 :=
    Finset.sum_eq_zero fun i _ => hhi _ (by simp [Fin.natAdd])
  rw [htail, add_zero]
  exact Finset.sum_congr rfl fun i _ => hlo _ i (by simp)

/-- (ii), the cut in blocks. A sum over nb * bs positions is the sum, over the nb blocks, of each
    block's bs terms; position bs * k + l is term l of block k. -/
theorem sum_fin_blocks {N nb bs : ℕ} (hN : N = nb * bs) (f : Fin N → M) (g : Fin nb → Fin bs → M)
    (hg : ∀ (j : Fin N) (k : Fin nb) (l : Fin bs), j.val = bs * k.val + l.val → f j = g k l) :
    ∑ j, f j = ∑ k, ∑ l, g k l := by
  subst hN
  rw [← Equiv.sum_comp finProdFinEquiv f, Fintype.sum_prod_type]
  refine Finset.sum_congr rfl fun k _ => Finset.sum_congr rfl fun l _ => ?_
  exact hg _ k l (by simp [finProdFinEquiv, Nat.add_comm])

/-- (ii), the running total. Started at 0 + s 0 and fed s (k + 1) at each later step, after step k it
    holds s 0 + ... + s k. -/
theorem running_total_range (acc s : ℕ → M) (n : ℕ) (h0 : acc 0 = 0 + s 0)
    (hstep : ∀ k, k + 1 < n → acc (k + 1) = acc k + s (k + 1)) :
    ∀ k, k < n → acc k = ∑ i ∈ Finset.range (k + 1), s i := by
  intro k
  induction k with
  | zero => intro _; rw [h0, zero_add]; simp
  | succ k ih =>
    intro hk
    rw [hstep k hk, ih (by omega), Finset.sum_range_succ _ (k + 1)]

/-- (ii), the running total at its last step: the sum of all n feeds. -/
theorem running_total_last (acc s : ℕ → M) (n : ℕ) (hn : 0 < n) (h0 : acc 0 = 0 + s 0)
    (hstep : ∀ k, k + 1 < n → acc (k + 1) = acc k + s (k + 1)) :
    acc (n - 1) = ∑ k : Fin n, s k.val := by
  rw [running_total_range acc s n h0 hstep (n - 1) (by omega), Fin.sum_univ_eq_sum_range s n]
  congr 2; omega

/-- (ii), both halves together. If step k feeds the running total the sum of block k of a family on
    nb * bs positions, the last total is the family's whole sum. -/
theorem running_total_blocks {N nb bs : ℕ} (hN : N = nb * bs) (hnb : 0 < nb) (f : Fin N → M)
    (g : Fin nb → Fin bs → M)
    (hg : ∀ (j : Fin N) (k : Fin nb) (l : Fin bs), j.val = bs * k.val + l.val → f j = g k l)
    (acc s : ℕ → M) (hs : ∀ k : Fin nb, s k.val = ∑ l, g k l) (h0 : acc 0 = 0 + s 0)
    (hstep : ∀ k, k + 1 < nb → acc (k + 1) = acc k + s (k + 1)) :
    acc (nb - 1) = ∑ j, f j := by
  rw [running_total_last acc s nb hnb h0 hstep, sum_fin_blocks hN f g hg]
  exact Finset.sum_congr rfl fun k _ => hs k

/-- (iii), additive form. A family on n + 1 positions sums to its first n positions' sum plus its
    last term. -/
theorem sum_fin_snoc {n : ℕ} (f : Fin (n + 1) → M) (g : Fin n → M) (a : M)
    (hlo : ∀ (j : Fin (n + 1)) (j' : Fin n), j.val = j'.val → f j = g j')
    (hl : ∀ j : Fin (n + 1), j.val = n → f j = a) :
    ∑ j, f j = (∑ j, g j) + a := by
  rw [Fin.sum_univ_castSucc, hl (Fin.last n) rfl]
  exact congrArg (· + a) (Finset.sum_congr rfl fun i _ => hlo _ i rfl)

end Monoid

/-! ## The same with products, on the extended reals -/

/-- (i). Rows x', w' on m positions that agree with x, w on the first n positions, one of them zero at
    every later position: the sum of products over the m positions is the sum over the n. (A zero
    factor annihilates whatever the other factor is, an infinity too.) -/
theorem sum_mul_zero_tail {n m : ℕ} (hnm : n ≤ m) (x' w' : Fin m → EReal) (x w : Fin n → EReal)
    (hx : ∀ (j : Fin m) (j' : Fin n), j.val = j'.val → x' j = x j')
    (hw : ∀ (j : Fin m) (j' : Fin n), j.val = j'.val → w' j = w j')
    (hz : ∀ j : Fin m, n ≤ j.val → x' j = 0 ∨ w' j = 0) :
    ∑ j, x' j * w' j = ∑ j, x j * w j :=
  sum_fin_zero_tail hnm _ _ (fun j j' h => by rw [hx j j' h, hw j j' h])
    (fun j h => by rcases hz j h with h0 | h0 <;> rw [h0] <;> simp)

/-- (iii). A row y on n + 1 positions that is x on the first n and c at the last, against a column w
    that is w₀ on the first n and ω at the last: the sum of products is the sum over the n positions
    plus c * ω. -/
theorem sum_mul_snoc {n : ℕ} (y w : Fin (n + 1) → EReal) (x w₀ : Fin n → EReal) (c ω : EReal)
    (hy : ∀ (j : Fin (n + 1)) (j' : Fin n), j.val = j'.val → y j = x j')
    (hw : ∀ (j : Fin (n + 1)) (j' : Fin n), j.val = j'.val → w j = w₀ j')
    (hyl : ∀ j : Fin (n + 1), j.val = n → y j = c)
    (hwl : ∀ j : Fin (n + 1), j.val = n → w j = ω) :
    ∑ j, y j * w j = (∑ j, x j * w₀ j) + c * ω :=
  sum_fin_snoc _ _ _ (fun j j' h => by rw [hy j j' h, hw j j' h])
    (fun j h => by rw [hyl j h, hwl j h])

/-- (i) and (iii) joined: the padded sum plus the rank-one term is the sum over the concatenated row. -/
theorem sum_mul_pad_add_eq_snoc {n m : ℕ} (hnm : n ≤ m) (x' w' : Fin m → EReal) (y w : Fin (n + 1) → EReal)
    (x w₀ : Fin n → EReal) (c ω : EReal)
    (hx : ∀ (j : Fin m) (j' : Fin n), j.val = j'.val → x' j = x j')
    (hw' : ∀ (j : Fin m) (j' : Fin n), j.val = j'.val → w' j = w₀ j')
    (hz : ∀ j : Fin m, n ≤ j.val → x' j = 0 ∨ w' j = 0)
    (hy : ∀ (j : Fin (n + 1)) (j' : Fin n), j.val = j'.val → y j = x j')
    (hw : ∀ (j : Fin (n + 1)) (j' : Fin n), j.val = j'.val → w j = w₀ j')
    (hyl : ∀ j : Fin (n + 1), j.val = n → y j = c)
    (hwl : ∀ j : Fin (n + 1), j.val = n → w j = ω) :
    (∑ j, x' j * w' j) + c * ω = ∑ j, y j * w j := by
  rw [sum_mul_zero_tail hnm x' w' x w₀ hx hw' hz, sum_mul_snoc y w x w₀ c ω hy hw hyl hwl]

end Cert.KernelIdeal.Hand
-- ==== Proof.KernelValue.lean ====
/-
  The second call's result array is the score of every pair.

  Region 1 runs over 16 row blocks of 512 pairs by 10 steps along the padded contraction axis. The
  value of the result array is read in four moves: (1) each operand block a point reads is the
  operand array at the block's offset plus the position inside the block; (2) the running total a
  row block's ten steps leave in an accumulator is, element by element, the whole sum over the
  19200 padded positions of activation times weight, which the zero padding cuts down to the 19000
  true positions; (3) the epilogue over those totals, the concentration column and the small
  operands is the specification's score; (4) the sixteen result blocks, written back at the last
  step of each row block, tile the 8192 results.
-/
import proofs.«406060_j54142357733864_2_alg».proof.Proof.MlpDat
import proofs.«406060_j54142357733864_2_alg».proof.Proof.PayloadRead
import proofs.«406060_j54142357733864_2_alg».proof.Proof.SumLaws
import proofs.«406060_j54142357733864_2_alg».proof.Proof.Spec

noncomputable section

open scoped BigOperators

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen

/-! ## The epilogue over finished accumulators is the score -/

section Epilogue

variable (table : FVec Ideal Cert.Spec.ShTable .f32) (pairs : IVec Cert.Spec.ShPairs 32) (conc : FVec Ideal Cert.Spec.ShConc .f32)
  (W0 : FVec Ideal Cert.Spec.ShW0 .f32) (b0 : FVec Ideal Cert.Spec.ShB0 .f32) (W1 : FVec Ideal Cert.Spec.ShW1 .f32)
  (b1 : FVec Ideal Cert.Spec.ShB1 .f32) (W2 : FVec Ideal Cert.Spec.ShW2 .f32) (b2 : FVec Ideal Cert.Spec.ShB2 .f32)

/-- A finished accumulator's element with the concentration term and the bias, clipped at zero, is
    the specification's first hidden layer. -/
theorem firstLayer_eq_hid0 (s : Fin 2) (b : Fin 8192) (r : Fin 512) (a : FVec Ideal S512x1024 .f32)
    (cc : FVec Ideal S512x1 .f32) (w0c b0r : FVec Ideal S1x1024 .f32) (n : Fin 1024)
    (ha : a (ix2 r n) = ∑ j : Fin 19000, table (ix2 (Cert.Spec.drugRow pairs s b) j) * W0 (ix2 (Cert.Spec.protRow j) n))
    (hc : cc (ix2 r (0 : Fin 1)) = conc (ix2 b (Cert.Spec.concCol s)))
    (hw : w0c (ix2 (0 : Fin 1) n) = W0 (ix2 Cert.Spec.concRow n))
    (hb : b0r (ix2 (0 : Fin 1) n) = b0 (ix1 n)) :
    firstLayer a cc w0c b0r r n = Cert.Spec.hid0 table pairs conc W0 b0 s b n := by
  unfold firstLayer Cert.Spec.hid0
  rw [ha, hc, hw, hb]

set_option maxHeartbeats 400000 in
/-- Row r of a result block, from accumulators that hold the two streams' 19000-term sums of pair b,
    is the score of pair b. -/
theorem epilogue_eq_score (b : Fin 8192) (r : Fin 512) (a1 a2 : FVec Ideal S512x1024 .f32)
    (c1 c2 : FVec Ideal S512x1 .f32) (w0c b0r : FVec Ideal S1x1024 .f32) (w1 : FVec Ideal S1024x512 .bf16)
    (bb1 : FVec Ideal S1x512 .f32) (w2 : FVec Ideal S512x128 .bf16) (bb2 : FVec Ideal S1x128 .f32)
    (ha1 : ∀ n, a1 (ix2 r n) = ∑ j : Fin 19000, table (ix2 (Cert.Spec.drugRow pairs 0 b) j) * W0 (ix2 (Cert.Spec.protRow j) n))
    (ha2 : ∀ n, a2 (ix2 r n) = ∑ j : Fin 19000, table (ix2 (Cert.Spec.drugRow pairs 1 b) j) * W0 (ix2 (Cert.Spec.protRow j) n))
    (hc1 : c1 (ix2 r (0 : Fin 1)) = conc (ix2 b (Cert.Spec.concCol 0)))
    (hc2 : c2 (ix2 r (0 : Fin 1)) = conc (ix2 b (Cert.Spec.concCol 1)))
    (hw0c : ∀ n, w0c (ix2 (0 : Fin 1) n) = W0 (ix2 Cert.Spec.concRow n))
    (hb0 : ∀ n, b0r (ix2 (0 : Fin 1) n) = b0 (ix1 n))
    (hw1 : ∀ n p, w1 (ix2 n p) = W1 (ix2 n p)) (hb1 : ∀ p, bb1 (ix2 (0 : Fin 1) p) = b1 (ix1 p))
    (hw2 : ∀ p q, w2 (ix2 p q) = W2 (ix2 p q)) (hb2 : ∀ q, bb2 (ix2 (0 : Fin 1) q) = b2 (ix1 q)) :
    mlpOut (F := Ideal) a1 a2 c1 c2 w0c b0r w1 bb1 w2 bb2 (ix1 r)
      = Cert.Spec.score table pairs conc W0 b0 W1 b1 W2 b2 b := by
  have h1 : ∀ n, firstLayer a1 c1 w0c b0r r n = Cert.Spec.hid0 table pairs conc W0 b0 0 b n := fun n =>
    firstLayer_eq_hid0 table pairs conc W0 b0 0 b r a1 c1 w0c b0r n (ha1 n) hc1 (hw0c n) (hb0 n)
  have h2 : ∀ n, k1_pay6 (F := Ideal) a2 c2 w0c b0r (ix2 r n) = Cert.Spec.hid0 table pairs conc W0 b0 1 b n := fun n =>
    (k1_pay6_apply a2 c2 w0c b0r r n).trans
      (firstLayer_eq_hid0 table pairs conc W0 b0 1 b r a2 c2 w0c b0r n (ha2 n) hc2 (hw0c n) (hb0 n))
  unfold mlpOut
  rw [k1_pay5_apply]
  unfold Cert.Spec.score Cert.Spec.emb Cert.Spec.hid1
  simp only [k1_pay7_apply, k1_pay8_apply, h1, h2, hw1, hb1, hw2, hb2]

end Epilogue

/-! ## The operand blocks of a point, read at an element -/

section Blocks

variable (V : (c : Dev nD) → (b : Ref sig .tc) → Buf (Elt Ideal) ((c : Thread nD τ).loc b)) (c : Dev nD)

/-- The block indices over the grid: point t is row block t / 10 at step t % 10; the two feature
    windows move on both axes, the concentration columns and the result with the row block, the
    first weight with the step, and the small operands stay. -/
theorem blockIndex1 : ∀ t : Fin cfg1.N,
    win1_0.index t (0 : Fin 2) = t.val / 10 ∧ win1_0.index t (1 : Fin 2) = t.val % 10
    ∧ win1_1.index t (0 : Fin 2) = t.val / 10 ∧ win1_1.index t (1 : Fin 2) = t.val % 10
    ∧ win1_2.index t (0 : Fin 2) = t.val / 10 ∧ win1_2.index t (1 : Fin 2) = 0
    ∧ win1_3.index t (0 : Fin 2) = t.val / 10 ∧ win1_3.index t (1 : Fin 2) = 0
    ∧ win1_4.index t (0 : Fin 2) = t.val % 10 ∧ win1_4.index t (1 : Fin 2) = 0
    ∧ win1_11.index t (0 : Fin 1) = t.val / 10 :=
  (by decide +kernel : ∀ t : Fin grid1.N, _)

/-- The small operands' windows stay at block (0, 0). -/
theorem blockIndex1_whole : ∀ t : Fin cfg1.N,
    win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = 0 ∧ win1_10.index t (1 : Fin 2) = 0 :=
  (by decide +kernel : ∀ t : Fin grid1.N, _)

set_option maxHeartbeats 400000 in
/-- The first stream's feature block: row r, position l of the block at point t is row
    512 (t / 10) + r, position 1920 (t % 10) + l of the array. -/
theorem featA_apply (t : Fin cfg1.N) (r : Fin 512) (l : Fin 1920) (b : Fin 8192) (j : Fin 19200)
    (hb : b.val = 512 * (t.val / 10) + r.val) (hj : j.val = 1920 * (t.val % 10) + l.val) :
    featA V c t (ix2 r l) = V c main_v7_0 (ix2 b j) := by
  show V c main_v7_0 (((cfg1.win 0).blk t).view.emb (ix2 r l)) = _
  congr 1
  funext a; apply Fin.ext
  obtain ⟨e0, e1, -⟩ := blockIndex1 t
  match a with
  | ⟨0, _⟩ => show win1_0.index t (0 : Fin 2) * 512 + 1 * r.val = b.val; omega
  | ⟨1, _⟩ => show win1_0.index t (1 : Fin 2) * 1920 + 1 * l.val = j.val; omega

set_option maxHeartbeats 400000 in
/-- The second stream's feature block likewise. -/
theorem featB_apply (t : Fin cfg1.N) (r : Fin 512) (l : Fin 1920) (b : Fin 8192) (j : Fin 19200)
    (hb : b.val = 512 * (t.val / 10) + r.val) (hj : j.val = 1920 * (t.val % 10) + l.val) :
    featB V c t (ix2 r l) = V c main_v7_1 (ix2 b j) := by
  show V c main_v7_1 (((cfg1.win 1).blk t).view.emb (ix2 r l)) = _
  congr 1
  funext a; apply Fin.ext
  obtain ⟨-, -, e0, e1, -⟩ := blockIndex1 t
  match a with
  | ⟨0, _⟩ => show win1_1.index t (0 : Fin 2) * 512 + 1 * r.val = b.val; omega
  | ⟨1, _⟩ => show win1_1.index t (1 : Fin 2) * 1920 + 1 * l.val = j.val; omega

set_option maxHeartbeats 400000 in
/-- The first stream's concentration column: row r of the block is row 512 (t / 10) + r. -/
theorem concA_apply (t : Fin cfg1.N) (r : Fin 512) (b : Fin 8192) (hb : b.val = 512 * (t.val / 10) + r.val) :
    concA V c t (ix2 r (0 : Fin 1)) = V c main_v4 (ix2 b (0 : Fin 1)) := by
  show V c main_v4 (((cfg1.win 2).blk t).view.emb (ix2 r (0 : Fin 1))) = _
  congr 1
  funext a; apply Fin.ext
  obtain ⟨-, -, -, -, e0, e1, -⟩ := blockIndex1 t
  match a with
  | ⟨0, _⟩ => show win1_2.index t (0 : Fin 2) * 512 + 1 * r.val = b.val; omega
  | ⟨1, _⟩ => show win1_2.index t (1 : Fin 2) * 1 + 1 * 0 = 0; omega

set_option maxHeartbeats 400000 in
/-- The second stream's concentration column. -/
theorem concB_apply (t : Fin cfg1.N) (r : Fin 512) (b : Fin 8192) (hb : b.val = 512 * (t.val / 10) + r.val) :
    concB V c t (ix2 r (0 : Fin 1)) = V c main_v5 (ix2 b (0 : Fin 1)) := by
  show V c main_v5 (((cfg1.win 3).blk t).view.emb (ix2 r (0 : Fin 1))) = _
  congr 1
  funext a; apply Fin.ext
  obtain ⟨-, -, -, -, -, -, e0, e1, -⟩ := blockIndex1 t
  match a with
  | ⟨0, _⟩ => show win1_3.index t (0 : Fin 2) * 512 + 1 * r.val = b.val; omega
  | ⟨1, _⟩ => show win1_3.index t (1 : Fin 2) * 1 + 1 * 0 = 0; omega

set_option maxHeartbeats 400000 in
/-- The step's block of the padded first weight: position l of the block is row 1920 (t % 10) + l. -/
theorem wgt0_apply (t : Fin cfg1.N) (l : Fin 1920) (n : Fin 1024) (j : Fin 19200)
    (hj : j.val = 1920 * (t.val % 10) + l.val) :
    wgt0 V c t (ix2 l n) = V c main_v10 (ix2 j n) := by
  show V c main_v10 (((cfg1.win 4).blk t).view.emb (ix2 l n)) = _
  congr 1
  funext a; apply Fin.ext
  obtain ⟨-, -, -, -, -, -, -, -, e0, e1, -⟩ := blockIndex1 t
  match a with
  | ⟨0, _⟩ => show win1_4.index t (0 : Fin 2) * 1920 + 1 * l.val = j.val; omega
  | ⟨1, _⟩ => show win1_4.index t (1 : Fin 2) * 1024 + 1 * n.val = n.val; omega

set_option maxHeartbeats 400000 in
/-- The small operands are read whole: the concentration's weight row, -/
theorem wgt0c_eq (t : Fin cfg1.N) : wgt0c V c t = V c main_v11 := by
  funext x
  show V c main_v11 (((cfg1.win 5).blk t).view.emb x) = _
  congr 1
  funext a; apply Fin.ext
  obtain ⟨e0, e1, -⟩ := blockIndex1_whole t
  match a with
  | ⟨0, _⟩ => show win1_5.index t (0 : Fin 2) * 1 + 1 * (x 0).val = (x 0).val; omega
  | ⟨1, _⟩ => show win1_5.index t (1 : Fin 2) * 1024 + 1 * (x 1).val = (x 1).val; omega

set_option maxHeartbeats 400000 in
/-- the first bias, -/
theorem bias0_eq (t : Fin cfg1.N) : bias0 V c t = V c main_v12 := by
  funext x
  show V c main_v12 (((cfg1.win 6).blk t).view.emb x) = _
  congr 1
  funext a; apply Fin.ext
  obtain ⟨-, -, e0, e1, -⟩ := blockIndex1_whole t
  match a with
  | ⟨0, _⟩ => show win1_6.index t (0 : Fin 2) * 1 + 1 * (x 0).val = (x 0).val; omega
  | ⟨1, _⟩ => show win1_6.index t (1 : Fin 2) * 1024 + 1 * (x 1).val = (x 1).val; omega

set_option maxHeartbeats 400000 in
/-- the second weight, -/
theorem wgt1_eq (t : Fin cfg1.N) : wgt1 V c t = V c main_v13 := by
  funext x
  show V c main_v13 (((cfg1.win 7).blk t).view.emb x) = _
  congr 1
  funext a; apply Fin.ext
  obtain ⟨-, -, -, -, e0, e1, -⟩ := blockIndex1_whole t
  match a with
  | ⟨0, _⟩ => show win1_7.index t (0 : Fin 2) * 1024 + 1 * (x 0).val = (x 0).val; omega
  | ⟨1, _⟩ => show win1_7.index t (1 : Fin 2) * 512 + 1 * (x 1).val = (x 1).val; omega

set_option maxHeartbeats 400000 in
/-- the second bias, -/
theorem bias1_eq (t : Fin cfg1.N) : bias1 V c t = V c main_v14 := by
  funext x
  show V c main_v14 (((cfg1.win 8).blk t).view.emb x) = _
  congr 1
  funext a; apply Fin.ext
  obtain ⟨-, -, -, -, -, -, e0, e1, -⟩ := blockIndex1_whole t
  match a with
  | ⟨0, _⟩ => show win1_8.index t (0 : Fin 2) * 1 + 1 * (x 0).val = (x 0).val; omega
  | ⟨1, _⟩ => show win1_8.index t (1 : Fin 2) * 512 + 1 * (x 1).val = (x 1).val; omega

set_option maxHeartbeats 400000 in
/-- the third weight, -/
theorem wgt2_eq (t : Fin cfg1.N) : wgt2 V c t = V c main_v15 := by
  funext x
  show V c main_v15 (((cfg1.win 9).blk t).view.emb x) = _
  congr 1
  funext a; apply Fin.ext
  obtain ⟨-, -, -, -, -, -, -, -, e0, e1, -⟩ := blockIndex1_whole t
  match a with
  | ⟨0, _⟩ => show win1_9.index t (0 : Fin 2) * 512 + 1 * (x 0).val = (x 0).val; omega
  | ⟨1, _⟩ => show win1_9.index t (1 : Fin 2) * 128 + 1 * (x 1).val = (x 1).val; omega

set_option maxHeartbeats 400000 in
/-- and the third bias. -/
theorem bias2_eq (t : Fin cfg1.N) : bias2 V c t = V c main_v16 := by
  funext x
  show V c main_v16 (((cfg1.win 10).blk t).view.emb x) = _
  congr 1
  funext a; apply Fin.ext
  obtain ⟨-, -, -, -, -, -, -, -, -, -, e0, e1⟩ := blockIndex1_whole t
  match a with
  | ⟨0, _⟩ => show win1_10.index t (0 : Fin 2) * 1 + 1 * (x 0).val = (x 0).val; omega
  | ⟨1, _⟩ => show win1_10.index t (1 : Fin 2) * 128 + 1 * (x 1).val = (x 1).val; omega

end Blocks

/-! ## Ten steps of a running total are the whole padded sum -/

section Totals

/-- A running total of block products, started from a zero fill and stepped over the ten blocks
    of 1920 positions, ends at the sum over all 19200 positions: P j and Q j name the activation and
    the weight at padded position j = 1920 k + l. -/
theorem ten_step_total
    (zero : FVec Ideal S512x1024 .f32)
    (step : FVec Ideal S512x1024 .f32 → FVec Ideal S512x1920 .bf16 → FVec Ideal S1920x1024 .bf16 → FVec Ideal S512x1024 .f32)
    (hzero : ∀ j, zero j = 0)
    (hstepv : ∀ (a : FVec Ideal S512x1024 .f32) (x : FVec Ideal S512x1920 .bf16) (w : FVec Ideal S1920x1024 .bf16)
      (r : Fin 512) (c : Fin 1024), step a x w (ix2 r c) = a (ix2 r c) + ∑ l : Fin 1920, x (ix2 r l) * w (ix2 l c))
    (A : Fin 10 → FVec Ideal S512x1024 .f32) (X : Fin 10 → FVec Ideal S512x1920 .bf16) (W : Fin 10 → FVec Ideal S1920x1024 .bf16)
    (hA0 : A 0 = step zero (X 0) (W 0))
    (hAs : ∀ (k : ℕ) (h : k + 1 < 10), A ⟨k + 1, h⟩ = step (A ⟨k, Nat.lt_of_succ_lt h⟩) (X ⟨k + 1, h⟩) (W ⟨k + 1, h⟩))
    (P Q : Fin 19200 → EReal) (r : Fin 512) (n : Fin 1024)
    (hX : ∀ (k : Fin 10) (l : Fin 1920) (j : Fin 19200), j.val = 1920 * k.val + l.val → X k (ix2 r l) = P j)
    (hW : ∀ (k : Fin 10) (l : Fin 1920) (j : Fin 19200), j.val = 1920 * k.val + l.val → W k (ix2 l n) = Q j) :
    A 9 (ix2 r n) = ∑ j, P j * Q j := by
  have key := running_total_blocks (M := EReal) (N := 19200) (nb := 10) (bs := 1920) (by norm_num) (by norm_num)
    (fun j => P j * Q j) (fun k l => X k (ix2 r l) * W k (ix2 l n))
    (fun j k l h => by show P j * Q j = _; rw [hX k l j h, hW k l j h])
    (fun k => if h : k < 10 then A ⟨k, h⟩ (ix2 r n) else 0)
    (fun k => if h : k < 10 then ∑ l : Fin 1920, X ⟨k, h⟩ (ix2 r l) * W ⟨k, h⟩ (ix2 l n) else 0)
    (fun k => by
      show (if h : k.val < 10 then ∑ l : Fin 1920, X ⟨k.val, h⟩ (ix2 r l) * W ⟨k.val, h⟩ (ix2 l n) else 0) = _
      rw [dif_pos k.isLt])
    (by
      show (if h : 0 < 10 then A ⟨0, h⟩ (ix2 r n) else 0)
        = 0 + (if h : 0 < 10 then ∑ l : Fin 1920, X ⟨0, h⟩ (ix2 r l) * W ⟨0, h⟩ (ix2 l n) else 0)
      rw [dif_pos (by norm_num), dif_pos (by norm_num)]
      show A 0 (ix2 r n) = 0 + ∑ l : Fin 1920, X 0 (ix2 r l) * W 0 (ix2 l n)
      rw [hA0, hstepv, hzero])
    (fun k hk => by
      show (if h : k + 1 < 10 then A ⟨k + 1, h⟩ (ix2 r n) else 0)
        = (if h : k < 10 then A ⟨k, h⟩ (ix2 r n) else 0)
          + (if h : k + 1 < 10 then ∑ l : Fin 1920, X ⟨k + 1, h⟩ (ix2 r l) * W ⟨k + 1, h⟩ (ix2 l n) else 0)
      rw [dif_pos hk, dif_pos (Nat.lt_of_succ_lt hk), dif_pos hk, hAs k hk, hstepv])
  have hlast : (if h : 10 - 1 < 10 then A ⟨10 - 1, h⟩ (ix2 r n) else 0) = A 9 (ix2 r n) := by
    rw [dif_pos (by norm_num)]; rfl
  exact hlast.symm.trans key

end Totals

/-! ## A row block's ten steps -/

section Rows

variable (V : (c : Dev nD) → (b : Ref sig .tc) → Buf (Elt Ideal) ((c : Thread nD τ).loc b)) (c : Dev nD)

/-- The two gathered activation arrays and the padded first weight, as the region finds them. -/
abbrev actA : FVec Ideal S8192x19200 .bf16 := V c main_v7_0
abbrev actB : FVec Ideal S8192x19200 .bf16 := V c main_v7_1
abbrev padW : FVec Ideal S19200x1024 .bf16 := V c main_v10

/-- Point 10 i + k of the grid: row block i at step k. -/
def rowPoint (i : Fin 16) (k : Fin 10) : Fin cfg1.N :=
  ⟨10 * i.val + k.val, by show 10 * i.val + k.val < grid1.N; rw [N_1]; omega⟩

theorem acc1At_congr (n n' : ℕ) (h : n < cfg1.N) (h' : n' < cfg1.N) (e : n = n') :
    acc1At V c n h = acc1At V c n' h' := by subst e; rfl

theorem acc2At_congr (n n' : ℕ) (h : n < cfg1.N) (h' : n' < cfg1.N) (e : n = n') :
    acc2At V c n h = acc2At V c n' h' := by subst e; rfl

set_option maxHeartbeats 400000 in
/-- After the last step of row block i the first accumulator holds, at row r and unit n, the sum over
    the 19200 padded positions of the first stream's activation of pair 512 i + r times the padded
    weight. -/
theorem acc1_total (i : Fin 16) (r : Fin 512) (n : Fin 1024) (b : Fin 8192) (hb : b.val = 512 * i.val + r.val) :
    acc1At V c (rowPoint i 9).val (rowPoint i 9).isLt (ix2 r n)
      = ∑ j : Fin 19200, actA V c (ix2 b j) * padW V c (ix2 j n) :=
  ten_step_total (k1_pay1 (F := Ideal)) (accStep1 (F := Ideal)) k1_pay1_apply (fun a x w r c => k1_pay3_apply a x w r c)
    (fun k => acc1At V c (rowPoint i k).val (rowPoint i k).isLt) (fun k => featA V c (rowPoint i k)) (fun k => wgt0 V c (rowPoint i k))
    (acc1At_first V c (rowPoint i 0) (by show (10 * i.val + 0) % 10 = 0; omega))
    (fun k h => (acc1At_next V c (rowPoint i ⟨k + 1, h⟩) (by show (10 * i.val + (k + 1)) % 10 ≠ 0; omega)).trans
      (congrArg (fun a => accStep1 (F := Ideal) a (featA V c (rowPoint i ⟨k + 1, h⟩)) (wgt0 V c (rowPoint i ⟨k + 1, h⟩)))
        (acc1At_congr V c _ _ _ (rowPoint i ⟨k, Nat.lt_of_succ_lt h⟩).isLt (by show 10 * i.val + (k + 1) - 1 = 10 * i.val + k; omega))))
    (fun j => actA V c (ix2 b j)) (fun j => padW V c (ix2 j n)) r n
    (fun k l j hj => featA_apply V c (rowPoint i k) r l b j
      (by show b.val = 512 * ((10 * i.val + k.val) / 10) + r.val; omega)
      (by show j.val = 1920 * ((10 * i.val + k.val) % 10) + l.val; omega))
    (fun k l j hj => wgt0_apply V c (rowPoint i k) l n j
      (by show j.val = 1920 * ((10 * i.val + k.val) % 10) + l.val; omega))

set_option maxHeartbeats 400000 in
/-- The second accumulator likewise, over the second stream's activations. -/
theorem acc2_total (i : Fin 16) (r : Fin 512) (n : Fin 1024) (b : Fin 8192) (hb : b.val = 512 * i.val + r.val) :
    acc2At V c (rowPoint i 9).val (rowPoint i 9).isLt (ix2 r n)
      = ∑ j : Fin 19200, actB V c (ix2 b j) * padW V c (ix2 j n) :=
  ten_step_total (k1_pay2 (F := Ideal)) (accStep2 (F := Ideal)) k1_pay2_apply (fun a x w r c => k1_pay4_apply a x w r c)
    (fun k => acc2At V c (rowPoint i k).val (rowPoint i k).isLt) (fun k => featB V c (rowPoint i k)) (fun k => wgt0 V c (rowPoint i k))
    (acc2At_first V c (rowPoint i 0) (by show (10 * i.val + 0) % 10 = 0; omega))
    (fun k h => (acc2At_next V c (rowPoint i ⟨k + 1, h⟩) (by show (10 * i.val + (k + 1)) % 10 ≠ 0; omega)).trans
      (congrArg (fun a => accStep2 (F := Ideal) a (featB V c (rowPoint i ⟨k + 1, h⟩)) (wgt0 V c (rowPoint i ⟨k + 1, h⟩)))
        (acc2At_congr V c _ _ _ (rowPoint i ⟨k, Nat.lt_of_succ_lt h⟩).isLt (by show 10 * i.val + (k + 1) - 1 = 10 * i.val + k; omega))))
    (fun j => actB V c (ix2 b j)) (fun j => padW V c (ix2 j n)) r n
    (fun k l j hj => featB_apply V c (rowPoint i k) r l b j
      (by show b.val = 512 * ((10 * i.val + k.val) / 10) + r.val; omega)
      (by show j.val = 1920 * ((10 * i.val + k.val) % 10) + l.val; omega))
    (fun k l j hj => wgt0_apply V c (rowPoint i k) l n j
      (by show j.val = 1920 * ((10 * i.val + k.val) % 10) + l.val; omega))

end Rows

/-! ## The result array -/

section Result

variable (V : (c : Dev nD) → (b : Ref sig .tc) → Buf (Elt Ideal) ((c : Thread nD τ).loc b)) (c : Dev nD)
variable (table : FVec Ideal Cert.Spec.ShTable .f32) (pairs : IVec Cert.Spec.ShPairs 32) (conc : FVec Ideal Cert.Spec.ShConc .f32)
  (W0 : FVec Ideal Cert.Spec.ShW0 .f32) (b0 : FVec Ideal Cert.Spec.ShB0 .f32) (W1 : FVec Ideal Cert.Spec.ShW1 .f32)
  (b1 : FVec Ideal Cert.Spec.ShB1 .f32) (W2 : FVec Ideal Cert.Spec.ShW2 .f32) (b2 : FVec Ideal Cert.Spec.ShB2 .f32)

set_option maxHeartbeats 400000 in
/-- The zero padding cuts the first accumulator's padded sum down to the 19000 true positions. -/
theorem acc1_row
    (hA : ∀ (b : Fin 8192) (j : Fin 19200) (hj : j.val < 19000),
      V c main_v7_0 (ix2 b j) = table (ix2 (Cert.Spec.drugRow pairs 0 b) (⟨j.val, hj⟩ : Fin 19000)))
    (hA0 : ∀ (b : Fin 8192) (j : Fin 19200), 19000 ≤ j.val → V c main_v7_0 (ix2 b j) = (0 : EReal))
    (hW : ∀ (j : Fin 19200) (n : Fin 1024) (hj : j.val < 19000),
      V c main_v10 (ix2 j n) = W0 (ix2 (⟨j.val, by omega⟩ : Fin 19001) n))
    (i : Fin 16) (r : Fin 512) (n : Fin 1024) (b : Fin 8192) (hb : b.val = 512 * i.val + r.val) :
    acc1At V c (rowPoint i 9).val (rowPoint i 9).isLt (ix2 r n)
      = ∑ j : Fin 19000, table (ix2 (Cert.Spec.drugRow pairs 0 b) j) * W0 (ix2 (Cert.Spec.protRow j) n) := by
  rw [acc1_total V c i r n b hb]
  refine sum_mul_zero_tail (n := 19000) (m := 19200) (by norm_num) _ _ _ _ (fun j j' h => ?_) (fun j j' h => ?_)
    (fun j hj => Or.inl (hA0 b j hj))
  · have hj : j.val < 19000 := by have := j'.isLt; omega
    exact (hA b j hj).trans (congrArg (fun q => table (ix2 (Cert.Spec.drugRow pairs 0 b) q)) (Fin.ext h))
  · have hj : j.val < 19000 := by have := j'.isLt; omega
    exact (hW j n hj).trans (congrArg (fun q => W0 (ix2 q n)) (Fin.ext h))

set_option maxHeartbeats 400000 in
/-- The second accumulator likewise. -/
theorem acc2_row
    (hA : ∀ (b : Fin 8192) (j : Fin 19200) (hj : j.val < 19000),
      V c main_v7_1 (ix2 b j) = table (ix2 (Cert.Spec.drugRow pairs 1 b) (⟨j.val, hj⟩ : Fin 19000)))
    (hA0 : ∀ (b : Fin 8192) (j : Fin 19200), 19000 ≤ j.val → V c main_v7_1 (ix2 b j) = (0 : EReal))
    (hW : ∀ (j : Fin 19200) (n : Fin 1024) (hj : j.val < 19000),
      V c main_v10 (ix2 j n) = W0 (ix2 (⟨j.val, by omega⟩ : Fin 19001) n))
    (i : Fin 16) (r : Fin 512) (n : Fin 1024) (b : Fin 8192) (hb : b.val = 512 * i.val + r.val) :
    acc2At V c (rowPoint i 9).val (rowPoint i 9).isLt (ix2 r n)
      = ∑ j : Fin 19000, table (ix2 (Cert.Spec.drugRow pairs 1 b) j) * W0 (ix2 (Cert.Spec.protRow j) n) := by
  rw [acc2_total V c i r n b hb]
  refine sum_mul_zero_tail (n := 19000) (m := 19200) (by norm_num) _ _ _ _ (fun j j' h => ?_) (fun j j' h => ?_)
    (fun j hj => Or.inl (hA0 b j hj))
  · have hj : j.val < 19000 := by have := j'.isLt; omega
    exact (hA b j hj).trans (congrArg (fun q => table (ix2 (Cert.Spec.drugRow pairs 1 b) q)) (Fin.ext h))
  · have hj : j.val < 19000 := by have := j'.isLt; omega
    exact (hW j n hj).trans (congrArg (fun q => W0 (ix2 q n)) (Fin.ext h))

end Result

section Final

variable (V : (c : Dev nD) → (b : Ref sig .tc) → Buf (Elt Ideal) ((c : Thread nD τ).loc b)) (c : Dev nD)
variable (table : FVec Ideal Cert.Spec.ShTable .f32) (pairs : IVec Cert.Spec.ShPairs 32) (conc : FVec Ideal Cert.Spec.ShConc .f32)
  (W0 : FVec Ideal Cert.Spec.ShW0 .f32) (b0 : FVec Ideal Cert.Spec.ShB0 .f32) (W1 : FVec Ideal Cert.Spec.ShW1 .f32)
  (b1 : FVec Ideal Cert.Spec.ShB1 .f32) (W2 : FVec Ideal Cert.Spec.ShW2 .f32) (b2 : FVec Ideal Cert.Spec.ShB2 .f32)

set_option maxHeartbeats 400000 in
/-- What the last step of a row block stores, at row r: the score of pair 512 (t / 10) + r. -/
theorem outAt_apply
    (hA1 : ∀ (b : Fin 8192) (j : Fin 19200) (hj : j.val < 19000),
      V c main_v7_0 (ix2 b j) = table (ix2 (Cert.Spec.drugRow pairs 0 b) (⟨j.val, hj⟩ : Fin 19000)))
    (hA1z : ∀ (b : Fin 8192) (j : Fin 19200), 19000 ≤ j.val → V c main_v7_0 (ix2 b j) = (0 : EReal))
    (hA2 : ∀ (b : Fin 8192) (j : Fin 19200) (hj : j.val < 19000),
      V c main_v7_1 (ix2 b j) = table (ix2 (Cert.Spec.drugRow pairs 1 b) (⟨j.val, hj⟩ : Fin 19000)))
    (hA2z : ∀ (b : Fin 8192) (j : Fin 19200), 19000 ≤ j.val → V c main_v7_1 (ix2 b j) = (0 : EReal))
    (hc1 : ∀ b : Fin 8192, V c main_v4 (ix2 b (0 : Fin 1)) = conc (ix2 b (1 : Fin 3)))
    (hc2 : ∀ b : Fin 8192, V c main_v5 (ix2 b (0 : Fin 1)) = conc (ix2 b (2 : Fin 3)))
    (hW : ∀ (j : Fin 19200) (n : Fin 1024) (hj : j.val < 19000),
      V c main_v10 (ix2 j n) = W0 (ix2 (⟨j.val, by omega⟩ : Fin 19001) n))
    (hw0c : ∀ n : Fin 1024, V c main_v11 (ix2 (0 : Fin 1) n) = W0 (ix2 (⟨19000, by omega⟩ : Fin 19001) n))
    (hb0 : ∀ n : Fin 1024, V c main_v12 (ix2 (0 : Fin 1) n) = b0 (ix1 n))
    (hw1 : ∀ (n : Fin 1024) (p : Fin 512), V c main_v13 (ix2 n p) = W1 (ix2 n p))
    (hb1 : ∀ p : Fin 512, V c main_v14 (ix2 (0 : Fin 1) p) = b1 (ix1 p))
    (hw2 : ∀ (p : Fin 512) (q : Fin 128), V c main_v15 (ix2 p q) = W2 (ix2 p q))
    (hb2 : ∀ q : Fin 128, V c main_v16 (ix2 (0 : Fin 1) q) = b2 (ix1 q))
    (t : Fin cfg1.N) (h9 : t.val % 10 = 9) (r : Fin 512) (b : Fin 8192)
    (hb : b.val = 512 * (t.val / 10) + r.val) :
    outAt V c t.val t.isLt (ix1 r) = Cert.Spec.score table pairs conc W0 b0 W1 b1 W2 b2 b := by
  have htN : t.val < 160 := lt_of_lt_of_eq t.isLt N_1
  have hi : t.val / 10 < 16 := by omega
  have ht : t.val = (rowPoint ⟨t.val / 10, hi⟩ 9).val := by
    show t.val = 10 * (t.val / 10) + 9; omega
  unfold outAt
  refine epilogue_eq_score table pairs conc W0 b0 W1 b1 W2 b2 b r _ _ _ _ _ _ _ _ _ _
    (fun n => ?_) (fun n => ?_) ?_ ?_ (fun n => ?_) (fun n => ?_) (fun n p => ?_) (fun p => ?_) (fun p q => ?_) (fun q => ?_)
  · rw [acc1At_congr V c t.val _ t.isLt (rowPoint ⟨t.val / 10, hi⟩ 9).isLt ht]
    exact acc1_row V c table pairs W0 hA1 hA1z hW ⟨t.val / 10, hi⟩ r n b hb
  · rw [acc2At_congr V c t.val _ t.isLt (rowPoint ⟨t.val / 10, hi⟩ 9).isLt ht]
    exact acc2_row V c table pairs W0 hA2 hA2z hW ⟨t.val / 10, hi⟩ r n b hb
  · exact (concA_apply V c t r b hb).trans ((hc1 b).trans (congrArg (fun s => conc (ix2 b s)) (by decide)))
  · exact (concB_apply V c t r b hb).trans ((hc2 b).trans (congrArg (fun s => conc (ix2 b s)) (by decide)))
  · rw [wgt0c_eq]; exact hw0c n
  · rw [bias0_eq]; exact hb0 n
  · rw [wgt1_eq]; exact hw1 n p
  · rw [bias1_eq]; exact hb1 p
  · rw [wgt2_eq]; exact hw2 p q
  · rw [bias2_eq]; exact hb2 q

set_option maxHeartbeats 400000 in
/-- REGION 1'S RESULT. Given what the eleven operand arrays hold at the region's entry (the two
    gathered activations padded with zeros, the two concentration columns, the padded first weight,
    its last row, and the remaining weights and biases as the arguments have them), the result array
    after the region is the specification's score of every pair. -/
theorem region1_result
    (hA1 : ∀ (b : Fin 8192) (j : Fin 19200) (hj : j.val < 19000),
      V c main_v7_0 (ix2 b j) = table (ix2 (Cert.Spec.drugRow pairs 0 b) (⟨j.val, hj⟩ : Fin 19000)))
    (hA1z : ∀ (b : Fin 8192) (j : Fin 19200), 19000 ≤ j.val → V c main_v7_0 (ix2 b j) = (0 : EReal))
    (hA2 : ∀ (b : Fin 8192) (j : Fin 19200) (hj : j.val < 19000),
      V c main_v7_1 (ix2 b j) = table (ix2 (Cert.Spec.drugRow pairs 1 b) (⟨j.val, hj⟩ : Fin 19000)))
    (hA2z : ∀ (b : Fin 8192) (j : Fin 19200), 19000 ≤ j.val → V c main_v7_1 (ix2 b j) = (0 : EReal))
    (hc1 : ∀ b : Fin 8192, V c main_v4 (ix2 b (0 : Fin 1)) = conc (ix2 b (1 : Fin 3)))
    (hc2 : ∀ b : Fin 8192, V c main_v5 (ix2 b (0 : Fin 1)) = conc (ix2 b (2 : Fin 3)))
    (hW : ∀ (j : Fin 19200) (n : Fin 1024) (hj : j.val < 19000),
      V c main_v10 (ix2 j n) = W0 (ix2 (⟨j.val, by omega⟩ : Fin 19001) n))
    (hw0c : ∀ n : Fin 1024, V c main_v11 (ix2 (0 : Fin 1) n) = W0 (ix2 (⟨19000, by omega⟩ : Fin 19001) n))
    (hb0 : ∀ n : Fin 1024, V c main_v12 (ix2 (0 : Fin 1) n) = b0 (ix1 n))
    (hw1 : ∀ (n : Fin 1024) (p : Fin 512), V c main_v13 (ix2 n p) = W1 (ix2 n p))
    (hb1 : ∀ p : Fin 512, V c main_v14 (ix2 (0 : Fin 1) p) = b1 (ix1 p))
    (hw2 : ∀ (p : Fin 512) (q : Fin 128), V c main_v15 (ix2 p q) = W2 (ix2 p q))
    (hb2 : ∀ q : Fin 128, V c main_v16 (ix2 (0 : Fin 1) q) = b2 (ix1 q)) :
    (dat1 V c).arrAt 11 cfg1.N = Cert.Spec.G table pairs conc W0 b0 W1 b1 W2 b2 := by
  refine (dat1 V c).arrAt_eq_of_cover 11 (Cert.Spec.G table pairs conc W0 b0 W1 b1 W2 b2) (fun t hf => ?_) (fun i => ?_)
  · have h9 : t.val % 10 = 9 := (flush1_11 t).mp hf
    show (cfg1.win 11).cut (grid1.coords t) ((dat1 V c).after 11 t) = _
    rw [dat1_after_11]
    funext y
    obtain ⟨r, rfl⟩ : ∃ r : Fin 512, y = ix1 r := ⟨y 0, eq_ix1 y⟩
    show outAt V c t.val t.isLt (ix1 r)
      = Cert.Spec.score table pairs conc W0 b0 W1 b1 W2 b2 ((((cfg1.win 11).blk t).view.emb (ix1 r)) 0)
    refine outAt_apply V c table pairs conc W0 b0 W1 b1 W2 b2 hA1 hA1z hA2 hA2z hc1 hc2 hW hw0c hb0 hw1 hb1 hw2 hb2 t h9 r _ ?_
    obtain ⟨-, -, -, -, -, -, -, -, -, -, e11⟩ := blockIndex1 t
    show win1_11.index t (0 : Fin 1) * 512 + 1 * r.val = 512 * (t.val / 10) + r.val
    omega
  · have hi0 : (i 0).val < 8192 := (i 0).isLt
    have hlt : 10 * ((i 0).val / 512) + 9 < cfg1.N := by
      show 10 * ((i 0).val / 512) + 9 < grid1.N; rw [N_1]; omega
    refine ⟨⟨10 * ((i 0).val / 512) + 9, hlt⟩, (flush1_11 _).mpr (by show (10 * ((i 0).val / 512) + 9) % 10 = 9; omega), ?_⟩
    show i ∈ ((View.whole main_v17).slice (win1_11.rect ⟨10 * ((i 0).val / 512) + 9, hlt⟩)).set
    rw [View.set_slice_whole, Rect.mem_set_unit]
    intro a
    obtain ⟨-, -, -, -, -, -, -, -, -, -, e11⟩ := blockIndex1 ⟨10 * ((i 0).val / 512) + 9, hlt⟩
    have e11' : win1_11.index ⟨10 * ((i 0).val / 512) + 9, hlt⟩ (0 : Fin 1) = (10 * ((i 0).val / 512) + 9) / 10 := e11
    match a with
    | ⟨0, _⟩ =>
      show win1_11.index ⟨10 * ((i 0).val / 512) + 9, hlt⟩ (0 : Fin 1) * 512 ≤ (i 0).val
        ∧ (i 0).val < win1_11.index ⟨10 * ((i 0).val / 512) + 9, hlt⟩ (0 : Fin 1) * 512 + 512
      omega

end Final

end Cert.KernelIdeal.Hand

end
-- ==== Proof.KernelOperands.lean ====
/-
  The operands of the second region at the real valuations, and the kernel's result.

  Between the two regions nothing writes the two gathered outputs, so the second region finds output w as the first
  region's write-backs left it: row b is the padded table's row that word b of index table w names. Under the
  hypothesis that every index word is below the table's height that row is the specification's row, the padded table
  is the table on the first 19000 columns and zero beyond, and the remaining operands (the two concentration columns,
  the padded first weight and its last row, the other weights and the biases) read the launch arguments at an index.
  With these thirteen facts the second region's result is the specification's score of the launch arguments.
-/
import proofs.«406060_j54142357733864_2_alg».proof.Proof.GatherValue
import proofs.«406060_j54142357733864_2_alg».proof.Proof.Tables
import proofs.«406060_j54142357733864_2_alg».proof.Proof.HostOperandsB
import proofs.«406060_j54142357733864_2_alg».proof.Proof.KernelValue
import proofs.«406060_j54142357733864_2_alg».proof.Proof.FrameDefs

noncomputable section

namespace Cert.KernelIdeal.Hand

open Idealize.ShloMosaic Idealize.ShloMosaic.TcCoe
open Idealize.SL Idealize.SL.Sem
open Idealize.ShloMosaic.Pipeline (Dat Cfg Window)
open Idealize.ShloMosaic.ValueIdx (ix1 ix2)
open Cert.KernelIdeal Cert.KernelIdeal.Gen

/-! ## The operands of the second region at the real valuations -/

section KernelOperands

variable (m : (ℓ : Loc nD τ sig) → Buf (Elt Ideal) ℓ)

/-- A valuation updated at one buffer reads as before at another. -/
theorem upd_ne (W : Valuation τ sig (Elt Ideal)) {r r' : Ref sig .tc} (h : r ≠ r')
    (x : (Proc.devRef (τ := τ) .tc r').ty.Contents (Elt Ideal)) :
    Function.update W (Proc.devRef .tc r') x (Proc.devRef .tc r) = W (Proc.devRef .tc r) :=
  Function.update_of_ne (StableHlo.devRef_ne_of_ne h) _ _

/-- The gathered outputs are not written between the two regions: the second region finds output w as the first left it. -/
theorem V6_v7_0 (outs : Outs (F := Ideal)) (c : Dev nD) : V6 m outs c main_v7_0 = outs 3 main_v7_0 c := by
  rw [V6_of m outs c main_v7_0 (by decide), V5_of m outs c main_v7_0 (by decide), V4_of m outs c main_v7_0 (by decide)]
  show Function.update (Function.update (Function.update (V2 m c) main_v7_0 (outs 3 main_v7_0 c)) main_v7_1 (outs 3 main_v7_1 c))
    main_v6 (outs 3 main_v6 c) main_v7_0 = _
  rw [upd_ne _ (by decide : main_v7_0 ≠ main_v6), upd_ne _ (by decide : main_v7_0 ≠ main_v7_1)]
  exact Function.update_self ..

theorem V6_v7_1 (outs : Outs (F := Ideal)) (c : Dev nD) : V6 m outs c main_v7_1 = outs 3 main_v7_1 c := by
  rw [V6_of m outs c main_v7_1 (by decide), V5_of m outs c main_v7_1 (by decide), V4_of m outs c main_v7_1 (by decide)]
  show Function.update (Function.update (Function.update (V2 m c) main_v7_0 (outs 3 main_v7_0 c)) main_v7_1 (outs 3 main_v7_1 c))
    main_v6 (outs 3 main_v6 c) main_v7_1 = _
  rw [upd_ne _ (by decide : main_v7_1 ≠ main_v6)]
  exact Function.update_self ..

variable (dat0 : (c : Dev nD) → Dat τ (Elt Ideal) Unit ℕ (Pipeline.UD sig nD τ) ℕ (cfg0 (adm0 m)) c)

/-- What the first region leaves in its outputs, as the valuations name it. -/
theorem outs0_v7_0 (c : Dev nD) : outs0 m dat0 3 main_v7_0 c = (dat0 c).arrAt 0 (cfg0 (adm0 m)).N := by
  unfold outs0 W3
  exact (upd_ne _ (by decide : main_v7_0 ≠ main_v7_1) _).trans (Function.update_self ..)

theorem outs0_v7_1 (c : Dev nD) : outs0 m dat0 3 main_v7_1 c = (dat0 c).arrAt 1 (cfg0 (adm0 m)).N := by
  unfold outs0 W3
  exact Function.update_self ..

/-! ### The thirteen operand facts -/

/-- The first region's proof data at the real tables and entry contents. -/
abbrev regionZeroData (c : Dev nD) : Dat τ (Elt Ideal) Unit ℕ (Pipeline.UD sig nD τ) ℕ (cfg0 (adm0 m)) c :=
  Hand.dat0 (adm0 m) (fun c b => V2 m c b) c

/-- The second region's entry contents. -/
abbrev regionOneEntry : (c : Dev nD) → (b : Ref sig .tc) → Buf (Elt Ideal) ((c : Thread nD τ).loc b) :=
  fun c b => V6 m (outs0 m (regionZeroData m)) c b

/-- The row a word of the first index table names, reduced below the height, is the specification's row. -/
theorem row_fst (hidx : ∀ (c : Dev nD) (i : S8192x2.Idx), (m ((c : Thread nD τ).loc main_arg1) i : BitVec 32).toNat < 4200)
    (c : Dev nD) (b : Fin 8192) :
    (⟨(V2 m c main_v1 (ix1 b) : BitVec 32).toNat % 4200, Nat.mod_lt _ (by decide)⟩ : Fin 4200)
      = Cert.Spec.drugRow (m ((c : Thread nD τ).loc main_arg1)) 0 b := by
  refine Fin.ext ?_
  show (V2 m c main_v1 (ix1 b) : BitVec 32).toNat % 4200 = min ((m ((c : Thread nD τ).loc main_arg1)) (ix2 b (0 : Fin 2)) : BitVec 32).toNat 4199
  rw [idx0_apply m c b]
  have := hidx c (ix2 b (0 : Fin 2))
  omega

theorem row_snd (hidx : ∀ (c : Dev nD) (i : S8192x2.Idx), (m ((c : Thread nD τ).loc main_arg1) i : BitVec 32).toNat < 4200)
    (c : Dev nD) (b : Fin 8192) :
    (⟨(V2 m c main_v3 (ix1 b) : BitVec 32).toNat % 4200, Nat.mod_lt _ (by decide)⟩ : Fin 4200)
      = Cert.Spec.drugRow (m ((c : Thread nD τ).loc main_arg1)) 1 b := by
  refine Fin.ext ?_
  show (V2 m c main_v3 (ix1 b) : BitVec 32).toNat % 4200 = min ((m ((c : Thread nD τ).loc main_arg1)) (ix2 b (1 : Fin 2)) : BitVec 32).toNat 4199
  rw [idx1_apply m c b]
  have := hidx c (ix2 b (1 : Fin 2))
  omega

/-- The first gathered output as the second region finds it, at (b, j): the padded table at the first word's row. -/
theorem fstOut_apply (c : Dev nD) (b : Fin 8192) (j : Fin 19200) :
    regionOneEntry m c main_v7_0 (ix2 b j)
      = V2 m c main_v6 (ix2 (⟨(V2 m c main_v1 (ix1 b) : BitVec 32).toNat % 4200, Nat.mod_lt _ (by decide)⟩ : Fin 4200) j) := by
  show V6 m (outs0 m (regionZeroData m)) c main_v7_0 (ix2 b j) = _
  rw [V6_v7_0 m (outs0 m (regionZeroData m)) c, outs0_v7_0 m (regionZeroData m) c]
  exact gathered_fst (adm0 m) (fun c b => V2 m c b) c b j

theorem sndOut_apply (c : Dev nD) (b : Fin 8192) (j : Fin 19200) :
    regionOneEntry m c main_v7_1 (ix2 b j)
      = V2 m c main_v6 (ix2 (⟨(V2 m c main_v3 (ix1 b) : BitVec 32).toNat % 4200, Nat.mod_lt _ (by decide)⟩ : Fin 4200) j) := by
  show V6 m (outs0 m (regionZeroData m)) c main_v7_1 (ix2 b j) = _
  rw [V6_v7_1 m (outs0 m (regionZeroData m)) c, outs0_v7_1 m (regionZeroData m) c]
  exact gathered_snd (adm0 m) (fun c b => V2 m c b) c b j

theorem opA1 (hidx : ∀ (c : Dev nD) (i : S8192x2.Idx), (m ((c : Thread nD τ).loc main_arg1) i : BitVec 32).toNat < 4200)
    (c : Dev nD) (b : Fin 8192) (j : Fin 19200) (hj : j.val < 19000) :
    regionOneEntry m c main_v7_0 (ix2 b j)
      = (m ((c : Thread nD τ).loc main_arg0)) (ix2 (Cert.Spec.drugRow (m ((c : Thread nD τ).loc main_arg1)) 0 b) (⟨j.val, hj⟩ : Fin 19000)) :=
  (fstOut_apply m c b j).trans <|
    (congrArg (fun r : Fin 4200 => V2 m c main_v6 (ix2 r j)) (row_fst m hidx c b)).trans (paddedTable_lo m c _ j hj)

theorem opA1z (c : Dev nD) (b : Fin 8192) (j : Fin 19200) (hj : 19000 ≤ j.val) :
    regionOneEntry m c main_v7_0 (ix2 b j) = (0 : EReal) :=
  (fstOut_apply m c b j).trans (paddedTable_hi m c _ j hj)

theorem opA2 (hidx : ∀ (c : Dev nD) (i : S8192x2.Idx), (m ((c : Thread nD τ).loc main_arg1) i : BitVec 32).toNat < 4200)
    (c : Dev nD) (b : Fin 8192) (j : Fin 19200) (hj : j.val < 19000) :
    regionOneEntry m c main_v7_1 (ix2 b j)
      = (m ((c : Thread nD τ).loc main_arg0)) (ix2 (Cert.Spec.drugRow (m ((c : Thread nD τ).loc main_arg1)) 1 b) (⟨j.val, hj⟩ : Fin 19000)) :=
  (sndOut_apply m c b j).trans <|
    (congrArg (fun r : Fin 4200 => V2 m c main_v6 (ix2 r j)) (row_snd m hidx c b)).trans (paddedTable_lo m c _ j hj)

theorem opA2z (c : Dev nD) (b : Fin 8192) (j : Fin 19200) (hj : 19000 ≤ j.val) :
    regionOneEntry m c main_v7_1 (ix2 b j) = (0 : EReal) :=
  (sndOut_apply m c b j).trans (paddedTable_hi m c _ j hj)

/-- THE KERNEL'S RESULT: with every index word below the table's height, the result array after the second region is the
    specification's score of the launch arguments. -/
theorem kernel_result
    (hidx : ∀ (c : Dev nD) (i : S8192x2.Idx), (m ((c : Thread nD τ).loc main_arg1) i : BitVec 32).toNat < 4200) (c : Dev nD) :
    (dat1 (regionOneEntry m) c).arrAt 11 cfg1.N
      = Cert.Spec.G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) :=
  region1_result (regionOneEntry m) c (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (fun b j hj => opA1 m hidx c b j hj) (fun b j hj => opA1z m c b j hj)
    (fun b j hj => opA2 m hidx c b j hj) (fun b j hj => opA2z m c b j hj)
    (fun b => conc1_apply m (outs0 m (regionZeroData m)) c b) (fun b => conc2_apply m (outs0 m (regionZeroData m)) c b)
    (fun j n hj => paddedW0_lo m (outs0 m (regionZeroData m)) c j n hj) (fun n => concW_apply m (outs0 m (regionZeroData m)) c n)
    (fun n => bias0_apply m (outs0 m (regionZeroData m)) c n) (fun n p => weight1_apply m (outs0 m (regionZeroData m)) c n p)
    (fun p => bias1_apply m (outs0 m (regionZeroData m)) c p) (fun p q => weight2_apply m (outs0 m (regionZeroData m)) c p q)
    (fun q => bias2_apply m (outs0 m (regionZeroData m)) c q)

end KernelOperands

end Cert.KernelIdeal.Hand

end
-- ==== Proof.lean ====
/-
  The certificate of the pair-scoring kernel against its reference.

  Both programs compute, for each of 8192 drug pairs, the inner product over 128 features of two embeddings
  z(b, s) (s = 0, 1 for the pair's two drugs): the drug's row of a 4200 x 19000 target table joined with one
  concentration, sent through three dense layers (ReLU after the first two). The kernel gathers the rows by
  one copy per row out of a table padded with 200 zero columns, splits the first layer's 19001-term sum into
  the 19000 table terms (accumulated over ten blocks of 1920, the 200 padded terms being 0 * 0) plus the
  concentration's term, and runs the rest in one epilogue. On the extended reals these are the same sums
  regrouped (addition is associative and commutative there and 0 * x = 0), so no finiteness is used; every change
  of float format is the identity. What the precondition is used for is the index range: a drug id below 0 or
  above 4199 names no row of the table, and the kernel's row copy has no step there.

  The frames of the two kernel programs are one text, written for any float instance: each region's proof data
  and body obligation, the regions as segments of the launch, and the launch itself over the generated
  conditional frame. The reference's frame is its generated run. The value claim puts the kernel's final result
  array (region 1's write-backs over ten-step accumulators over region 0's gathered rows) and the reference's
  run at one function of the arguments.
-/
import proofs.«406060_j54142357733864_2_alg».proof.Defs
import proofs.«406060_j54142357733864_2_alg».proof.Proof.Gen.Kernel
import proofs.«406060_j54142357733864_2_alg».proof.Proof.Gen.KernelIdeal
import proofs.«406060_j54142357733864_2_alg».proof.Proof.Gen.ReferenceIdeal
import proofs.«406060_j54142357733864_2_alg».proof.Proof.Gen.Pre_finite_inputs
import proofs.«406060_j54142357733864_2_alg».proof.Proof.IndexRange
import proofs.«406060_j54142357733864_2_alg».proof.Proof.RefIsSpec
import proofs.«406060_j54142357733864_2_alg».proof.Proof.Certify
import proofs.«406060_j54142357733864_2_alg».proof.Proof.WordLevel.Certify
import proofs.«406060_j54142357733864_2_alg».proof.Proof.GatherBody
import proofs.«406060_j54142357733864_2_alg».proof.Proof.WordLevel.GatherBody
import proofs.«406060_j54142357733864_2_alg».proof.Proof.KernelOperands

noncomputable section

namespace Cert.Proof

open Idealize.ShloMosaic Idealize.ShloMosaic.TcCoe Idealize.SL.Sem

local instance : Cert.Pre_finite_inputs.Facts := Cert.Pre_finite_inputs.Gen.facts
local instance : Cert.Kernel.Facts := Cert.Kernel.Gen.facts
local instance : Cert.KernelIdeal.Facts := Cert.KernelIdeal.Gen.facts
local instance : Cert.ReferenceIdeal.Facts := Cert.ReferenceIdeal.Gen.facts

/-- Under the precondition every drug id in the word-level program's memory is below 4200 read unsigned. -/
theorem ids_word_level (m : (ℓ : Loc Cert.Kernel.nD Cert.Kernel.τ Cert.Kernel.sig) → Buf (Elt Bits) ℓ) (h : Cert.Pre_Kernel m)
    (c : Dev Cert.Kernel.nD) (i : Cert.Kernel.S8192x2.Idx) :
    (m ((c : Thread Cert.Kernel.nD Cert.Kernel.τ).loc Cert.Kernel.main_arg1) i : BitVec 32).toNat < 4200 :=
  Cert.IndexRange.word_lt (F := Bits) _ _ _ _ _ _ _ _ _ (h c) i

/-- The same of the idealized program's memory. -/
theorem ids_ideal (m : (ℓ : Loc Cert.KernelIdeal.nD Cert.KernelIdeal.τ Cert.KernelIdeal.sig) → Buf (Elt Ideal) ℓ) (h : Cert.Pre_KernelIdeal m)
    (c : Dev Cert.KernelIdeal.nD) (i : Cert.KernelIdeal.S8192x2.Idx) :
    (m ((c : Thread Cert.KernelIdeal.nD Cert.KernelIdeal.τ).loc Cert.KernelIdeal.main_arg1) i : BitVec 32).toNat < 4200 :=
  Cert.IndexRange.word_lt (F := Ideal) _ _ _ _ _ _ _ _ _ (h c) i

theorem frame_k : Cert.frame_Kernel := fun m ρ h =>
  Cert.Kernel.Hand.frame_main m ρ (fun c => Cert.Kernel.Hand.gather_exec c) (ids_word_level m h)

theorem frame_ki : Cert.frame_KernelIdeal := fun m ρ h =>
  Cert.KernelIdeal.Hand.frame_main m ρ (fun c => Cert.KernelIdeal.Hand.gather_exec c) (ids_ideal m h)

theorem frame_ri : Cert.frame_ReferenceIdeal := fun m ρ _ =>
  (θ_run Cert.ReferenceIdeal.defs _ _).mono (fun _ h c => (h c).2) (Cert.ReferenceIdeal.Value.run (F := Ideal) m ρ)

/-- Both idealized programs end at the scoring function of the arguments: the kernel by its launch read at the
    result array, the reference by its run; the arguments agree, and the reference's signed index range is the
    kernel's, carried over by that agreement. -/
theorem algebraic : Cert.algebraic_KernelIdeal_ReferenceIdeal := by
  intro m ρ m' ρ' hpre hagree
  refine ⟨fun c => Cert.Spec.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · refine (θ_run Cert.KernelIdeal.defs _ _).mono (fun r h c => ⟨(h c).1.trans ?_, (h c).2⟩)
      (Cert.KernelIdeal.Hand.value_main m ρ (fun c => Cert.KernelIdeal.Hand.gather_exec c) (ids_ideal m hpre))
    exact Cert.KernelIdeal.Hand.kernel_result m (ids_ideal m hpre) c
  · have hx : ∀ c : Dev Cert.ReferenceIdeal.nD, Cert.RefIsSpec.InRange
        (m' ((c.tc : Thread Cert.ReferenceIdeal.nD Cert.ReferenceIdeal.τ).loc Cert.ReferenceIdeal.main_arg1)) := fun c j => by
      rw [(hagree c).2.1]
      exact Cert.IndexRange.word_signed_range (F := Ideal) _ _ _ _ _ _ _ _ _ (hpre c) j
    refine (θ_run Cert.ReferenceIdeal.defs _ _).mono (fun r h c => ⟨?_, (h c).2⟩) (Cert.RefIsSpec.ref_run m' ρ' hx)
    rw [(h c).1, (hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
